-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S1x256 : Shape := ⟨2, ![1, 256]⟩
abbrev S2x1000000 : Shape := ⟨2, ![2, 1000000]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S2x1000000 : S_.BroadcastsInDim S2x1000000 (![] : Fin 0 → Fin S2x1000000.rank)
  reducesTo_S2x1000000_S_d0_1 : S2x1000000.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S200000x256 .f32) (main_arg1 : FVec F S1x256 .f32) (main_arg2 : IVec S2x1000000 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_c_2 : IVec S_ 32 := constantI S_ 32 0#32
  let main_v9 : IVec S2x1000000 32 := broadcastInDim S2x1000000 ![] bcast_S_S2x1000000 main_c_2
  let main_v10 : IVec S2x1000000 1 := cmpi .sge main_arg2 main_v9
  let main_c_3 : IVec S_ 1 := constantI S_ 1 1#1
  let main_v11 : IVec S_ 1 := (fun x v => Host.reduce IntOp.andi x v reducesTo_S2x1000000_S_d0_1 h_S_) main_v10 main_c_3
  let main_v12 : IVec S_ 1 := andi main_v8 main_v11
  let main_c_4 : IVec S_ 32 := constantI S_ 32 200000#32
  let main_v13 : IVec S2x1000000 32 := broadcastInDim S2x1000000 ![] bcast_S_S2x1000000 main_c_4
  let main_v14 : IVec S2x1000000 1 := cmpi .slt main_arg2 main_v13
  let main_c_5 : IVec S_ 1 := constantI S_ 1 1#1
  let main_v15 : IVec S_ 1 := (fun x v => Host.reduce IntOp.andi x v reducesTo_S2x1000000_S_d0_1 h_S_) main_v14 main_c_5
  fn_part1 (F := F) main_v12 main_v15
-- ==== Kernel.lean ====
abbrev S200000x256 : Shape := ⟨2, ![200000, 256]⟩
abbrev S1x256 : Shape := ⟨2, ![1, 256]⟩
abbrev S2x1000000 : Shape := ⟨2, ![2, 1000000]⟩
abbrev S1x1000000 : Shape := ⟨2, ![1, 1000000]⟩
abbrev S1000000 : Shape := ⟨1, ![1000000]⟩
abbrev S_ : Shape := ⟨0, ![]⟩
abbrev S1048576 : Shape := ⟨1, ![1048576]⟩
abbrev S65536 : Shape := ⟨1, ![65536]⟩
abbrev S128 : Shape := ⟨1, ![128]⟩
abbrev S2 : Shape := ⟨1, ![2]⟩
abbrev S1 : Shape := ⟨1, ![1]⟩
abbrev S1x128 : Shape := ⟨2, ![1, 128]⟩

abbrev nBuf : Space → Nat
  | .hbm => 31
  | .vmem => 80
  | .smem => 32
  | _ => 0

abbrev bufTy : (tb : Table) → Fin (tcTables nBuf tb) → BufTy
  | .hbm, ⟨0, _⟩ => ⟨S200000x256, .f32⟩
  | .hbm, ⟨1, _⟩ => ⟨S1x256, .f32⟩
  | .hbm, ⟨2, _⟩ => ⟨S2x1000000, .i32⟩
  | .hbm, ⟨3, _⟩ => ⟨S1x1000000, .i32⟩
  | .hbm, ⟨4, _⟩ => ⟨S1000000, .i32⟩
  | .hbm, ⟨5, _⟩ => ⟨S1x1000000, .i32⟩
  | .hbm, ⟨6, _⟩ => ⟨S1000000, .i32⟩
  | .hbm, ⟨7, _⟩ => ⟨S_, .i32⟩
  | .hbm, ⟨8, _⟩ => ⟨S_, .i32⟩
  | .hbm, ⟨9, _⟩ => ⟨S1048576, .i32⟩
  | .hbm, ⟨10, _⟩ => ⟨S_, .i32⟩
  | .hbm, ⟨11, _⟩ => ⟨S_, .i32⟩
  | .hbm, ⟨12, _⟩ => ⟨S1048576, .i32⟩
  | .hbm, ⟨13, _⟩ => ⟨S65536, .f32⟩
  | .hbm, ⟨14, _⟩ => ⟨S65536, .f32⟩
  | .hbm, ⟨15, _⟩ => ⟨S65536, .f32⟩
  | .hbm, ⟨16, _⟩ => ⟨S65536, .f32⟩
  | .hbm, ⟨17, _⟩ => ⟨S65536, .f32⟩
  | .hbm, ⟨18, _⟩ => ⟨S65536, .f32⟩
  | .hbm, ⟨19, _⟩ => ⟨S65536, .f32⟩
  | .hbm, ⟨20, _⟩ => ⟨S65536, .f32⟩
  | .hbm, ⟨21, _⟩ => ⟨S65536, .f32⟩
  | .hbm, ⟨22, _⟩ => ⟨S65536, .f32⟩
  | .hbm, ⟨23, _⟩ => ⟨S65536, .f32⟩
  | .hbm, ⟨24, _⟩ => ⟨S65536, .f32⟩
  | .hbm, ⟨25, _⟩ => ⟨S65536, .f32⟩
  | .hbm, ⟨26, _⟩ => ⟨S65536, .f32⟩
  | .hbm, ⟨27, _⟩ => ⟨S65536, .f32⟩
  | .hbm, ⟨28, _⟩ => ⟨S65536, .f32⟩
  | .hbm, ⟨29, _⟩ => ⟨S1048576, .f32⟩
  | .hbm, ⟨30, _⟩ => ⟨S1000000, .f32⟩
  | .local _ .vmem, ⟨0, _⟩ => ⟨S1x256, .f32⟩
  | .local _ .vmem, ⟨1, _⟩ => ⟨S128, .f32⟩
  | .local _ .vmem, ⟨2, _⟩ => ⟨S128, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S128, .f32⟩
  | .local _ .vmem, ⟨7, _⟩ => ⟨S128, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S128, .f32⟩
  | .local _ .vmem, ⟨12, _⟩ => ⟨S128, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S128, .f32⟩
  | .local _ .vmem, ⟨17, _⟩ => ⟨S128, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S128, .f32⟩
  | .local _ .vmem, ⟨22, _⟩ => ⟨S128, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S128, .f32⟩
  | .local _ .vmem, ⟨27, _⟩ => ⟨S128, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S128, .f32⟩
  | .local _ .vmem, ⟨32, _⟩ => ⟨S128, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S128, .f32⟩
  | .local _ .vmem, ⟨37, _⟩ => ⟨S128, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S128, .f32⟩
  | .local _ .vmem, ⟨42, _⟩ => ⟨S128, .f32⟩
  | .local _ .vmem, ⟨43, _⟩ => ⟨S1x256, .f32⟩
  | .local _ .vmem, ⟨44, _⟩ => ⟨S1x256, .f32⟩
  | .local _ .vmem, ⟨45, _⟩ => ⟨S1x256, .f32⟩
  | .local _ .vmem, ⟨46, _⟩ => ⟨S128, .f32⟩
  | .local _ .vmem, ⟨47, _⟩ => ⟨S128, .f32⟩
  | .local _ .vmem, ⟨48, _⟩ => ⟨S1x256, .f32⟩
  | .local _ .vmem, ⟨49, _⟩ => ⟨S1x256, .f32⟩
  | .local _ .vmem, ⟨50, _⟩ => ⟨S1x256, .f32⟩
  | .local _ .vmem, ⟨51, _⟩ => ⟨S128, .f32⟩
  | .local _ .vmem, ⟨52, _⟩ => ⟨S128, .f32⟩
  | .local _ .vmem, ⟨53, _⟩ => ⟨S1x256, .f32⟩
  | .local _ .vmem, ⟨54, _⟩ => ⟨S1x256, .f32⟩
  | .local _ .vmem, ⟨55, _⟩ => ⟨S1x256, .f32⟩
  | .local _ .vmem, ⟨56, _⟩ => ⟨S128, .f32⟩
  | .local _ .vmem, ⟨57, _⟩ => ⟨S128, .f32⟩
  | .local _ .vmem, ⟨58, _⟩ => ⟨S1x256, .f32⟩
  | .local _ .vmem, ⟨59, _⟩ => ⟨S1x256, .f32⟩
  | .local _ .vmem, ⟨60, _⟩ => ⟨S1x256, .f32⟩
  | .local _ .vmem, ⟨61, _⟩ => ⟨S128, .f32⟩
  | .local _ .vmem, ⟨62, _⟩ => ⟨S128, .f32⟩
  | .local _ .vmem, ⟨63, _⟩ => ⟨S1x256, .f32⟩
  | .local _ .vmem, ⟨64, _⟩ => ⟨S1x256, .f32⟩
  | .local _ .vmem, ⟨65, _⟩ => ⟨S1x256, .f32⟩
  | .local _ .vmem, ⟨66, _⟩ => ⟨S128, .f32⟩
  | .local _ .vmem, ⟨67, _⟩ => ⟨S128, .f32⟩
  | .local _ .vmem, ⟨68, _⟩ => ⟨S1x256, .f32⟩
  | .local _ .vmem, ⟨69, _⟩ => ⟨S1x256, .f32⟩
  | .local _ .vmem, ⟨70, _⟩ => ⟨S1x256, .f32⟩
  | .local _ .vmem, ⟨71, _⟩ => ⟨S128, .f32⟩
  | .local _ .vmem, ⟨72, _⟩ => ⟨S128, .f32⟩
  | .local _ .vmem, ⟨73, _⟩ => ⟨S1x256, .f32⟩
  | .local _ .vmem, ⟨74, _⟩ => ⟨S1x256, .f32⟩
  | .local _ .vmem, ⟨75, _⟩ => ⟨S1x256, .f32⟩
  | .local _ .vmem, ⟨76, _⟩ => ⟨S128, .f32⟩
  | .local _ .vmem, ⟨77, _⟩ => ⟨S128, .f32⟩
  | .local _ .vmem, ⟨78, _⟩ => ⟨S1x256, .f32⟩
  | .local _ .vmem, ⟨79, _⟩ => ⟨S1x256, .f32⟩
  | .local _ .smem, ⟨0, _⟩ => ⟨S65536, .i32⟩
  | .local _ .smem, ⟨1, _⟩ => ⟨S65536, .i32⟩
  | .local _ .smem, ⟨2, _⟩ => ⟨S65536, .i32⟩
  | .local _ .smem, ⟨3, _⟩ => ⟨S65536, .i32⟩
  | .local _ .smem, ⟨4, _⟩ => ⟨S65536, .i32⟩
  | .local _ .smem, ⟨5, _⟩ => ⟨S65536, .i32⟩
  | .local _ .smem, ⟨6, _⟩ => ⟨S65536, .i32⟩
  | .local _ .smem, ⟨7, _⟩ => ⟨S65536, .i32⟩
  | .local _ .smem, ⟨8, _⟩ => ⟨S65536, .i32⟩
  | .local _ .smem, ⟨9, _⟩ => ⟨S65536, .i32⟩
  | .local _ .smem, ⟨10, _⟩ => ⟨S65536, .i32⟩
  | .local _ .smem, ⟨11, _⟩ => ⟨S65536, .i32⟩
  | .local _ .smem, ⟨12, _⟩ => ⟨S65536, .i32⟩
  | .local _ .smem, ⟨13, _⟩ => ⟨S65536, .i32⟩
  | .local _ .smem, ⟨14, _⟩ => ⟨S65536, .i32⟩
  | .local _ .smem, ⟨15, _⟩ => ⟨S65536, .i32⟩
  | .local _ .smem, ⟨16, _⟩ => ⟨S65536, .i32⟩
  | .local _ .smem, ⟨17, _⟩ => ⟨S65536, .i32⟩
  | .local _ .smem, ⟨18, _⟩ => ⟨S65536, .i32⟩
  | .local _ .smem, ⟨19, _⟩ => ⟨S65536, .i32⟩
  | .local _ .smem, ⟨20, _⟩ => ⟨S65536, .i32⟩
  | .local _ .smem, ⟨21, _⟩ => ⟨S65536, .i32⟩
  | .local _ .smem, ⟨22, _⟩ => ⟨S65536, .i32⟩
  | .local _ .smem, ⟨23, _⟩ => ⟨S65536, .i32⟩
  | .local _ .smem, ⟨24, _⟩ => ⟨S65536, .i32⟩
  | .local _ .smem, ⟨25, _⟩ => ⟨S65536, .i32⟩
  | .local _ .smem, ⟨26, _⟩ => ⟨S65536, .i32⟩
  | .local _ .smem, ⟨27, _⟩ => ⟨S65536, .i32⟩
  | .local _ .smem, ⟨28, _⟩ => ⟨S65536, .i32⟩
  | .local _ .smem, ⟨29, _⟩ => ⟨S65536, .i32⟩
  | .local _ .smem, ⟨30, _⟩ => ⟨S65536, .i32⟩
  | .local _ .smem, ⟨31, _⟩ => ⟨S65536, .i32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v8 : Ref sig .tc := ⟨.hbm, 13, rfl⟩
abbrev main_v11 : Ref sig .tc := ⟨.hbm, 14, rfl⟩
abbrev main_v14 : Ref sig .tc := ⟨.hbm, 15, rfl⟩
abbrev main_v17 : Ref sig .tc := ⟨.hbm, 16, rfl⟩
abbrev main_v20 : Ref sig .tc := ⟨.hbm, 17, rfl⟩
abbrev main_v23 : Ref sig .tc := ⟨.hbm, 18, rfl⟩
abbrev main_v26 : Ref sig .tc := ⟨.hbm, 19, rfl⟩
abbrev main_v29 : Ref sig .tc := ⟨.hbm, 20, rfl⟩
abbrev main_v32 : Ref sig .tc := ⟨.hbm, 21, rfl⟩
abbrev main_v35 : Ref sig .tc := ⟨.hbm, 22, rfl⟩
abbrev main_v38 : Ref sig .tc := ⟨.hbm, 23, rfl⟩
abbrev main_v41 : Ref sig .tc := ⟨.hbm, 24, rfl⟩
abbrev main_v44 : Ref sig .tc := ⟨.hbm, 25, rfl⟩
abbrev main_v47 : Ref sig .tc := ⟨.hbm, 26, rfl⟩
abbrev main_v50 : Ref sig .tc := ⟨.hbm, 27, rfl⟩
abbrev main_v53 : Ref sig .tc := ⟨.hbm, 28, rfl⟩
abbrev main_v54 : Ref sig .tc := ⟨.hbm, 29, rfl⟩
abbrev main_v55 : Ref sig .tc := ⟨.hbm, 30, rfl⟩
abbrev main_v6 : Ref sig .tc := ⟨.smem, 0, rfl⟩
abbrev main_v7 : Ref sig .tc := ⟨.smem, 1, rfl⟩
abbrev main_v9 : Ref sig .tc := ⟨.smem, 2, rfl⟩
abbrev main_v10 : Ref sig .tc := ⟨.smem, 3, rfl⟩
abbrev main_v12 : Ref sig .tc := ⟨.smem, 4, rfl⟩
abbrev main_v13 : Ref sig .tc := ⟨.smem, 5, rfl⟩
abbrev main_v15 : Ref sig .tc := ⟨.smem, 6, rfl⟩
abbrev main_v16 : Ref sig .tc := ⟨.smem, 7, rfl⟩
abbrev main_v18 : Ref sig .tc := ⟨.smem, 8, rfl⟩
abbrev main_v19 : Ref sig .tc := ⟨.smem, 9, rfl⟩
abbrev main_v21 : Ref sig .tc := ⟨.smem, 10, rfl⟩
abbrev main_v22 : Ref sig .tc := ⟨.smem, 11, rfl⟩
abbrev main_v24 : Ref sig .tc := ⟨.smem, 12, rfl⟩
abbrev main_v25 : Ref sig .tc := ⟨.smem, 13, rfl⟩
abbrev main_v27 : Ref sig .tc := ⟨.smem, 14, rfl⟩
abbrev main_v28 : Ref sig .tc := ⟨.smem, 15, rfl⟩
abbrev main_v30 : Ref sig .tc := ⟨.smem, 16, rfl⟩
abbrev main_v31 : Ref sig .tc := ⟨.smem, 17, rfl⟩
abbrev main_v33 : Ref sig .tc := ⟨.smem, 18, rfl⟩
abbrev main_v34 : Ref sig .tc := ⟨.smem, 19, rfl⟩
abbrev main_v36 : Ref sig .tc := ⟨.smem, 20, rfl⟩
abbrev main_v37 : Ref sig .tc := ⟨.smem, 21, rfl⟩
abbrev main_v39 : Ref sig .tc := ⟨.smem, 22, rfl⟩
abbrev main_v40 : Ref sig .tc := ⟨.smem, 23, rfl⟩
abbrev main_v42 : Ref sig .tc := ⟨.smem, 24, rfl⟩
abbrev main_v43 : Ref sig .tc := ⟨.smem, 25, rfl⟩
abbrev main_v45 : Ref sig .tc := ⟨.smem, 26, rfl⟩
abbrev main_v46 : Ref sig .tc := ⟨.smem, 27, rfl⟩
abbrev main_v48 : Ref sig .tc := ⟨.smem, 28, rfl⟩
abbrev main_v49 : Ref sig .tc := ⟨.smem, 29, rfl⟩
abbrev main_v51 : Ref sig .tc := ⟨.smem, 30, rfl⟩
abbrev main_v52 : Ref sig .tc := ⟨.smem, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_scratch0 : Ref sig .tc := ⟨.vmem, 8, rfl⟩
abbrev cc1_scratch1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_scratch0 : Ref sig .tc := ⟨.vmem, 13, rfl⟩
abbrev cc2_scratch1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_scratch0 : Ref sig .tc := ⟨.vmem, 18, rfl⟩
abbrev cc3_scratch1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_scratch0 : Ref sig .tc := ⟨.vmem, 23, rfl⟩
abbrev cc4_scratch1 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg1_1 : Ref sig .tc := ⟨.vmem, 27, rfl⟩
abbrev cc5_scratch0 : Ref sig .tc := ⟨.vmem, 28, rfl⟩
abbrev cc5_scratch1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg1_1 : Ref sig .tc := ⟨.vmem, 32, rfl⟩
abbrev cc6_scratch0 : Ref sig .tc := ⟨.vmem, 33, rfl⟩
abbrev cc6_scratch1 : Ref sig .tc := ⟨.vmem, 34, rfl⟩
abbrev cc7_stg0_0 : Ref sig .tc := ⟨.vmem, 35, rfl⟩
abbrev cc7_stg1_0 : Ref sig .tc := ⟨.vmem, 36, rfl⟩
abbrev cc7_stg1_1 : Ref sig .tc := ⟨.vmem, 37, rfl⟩
abbrev cc7_scratch0 : Ref sig .tc := ⟨.vmem, 38, rfl⟩
abbrev cc7_scratch1 : Ref sig .tc := ⟨.vmem, 39, rfl⟩
abbrev cc8_stg0_0 : Ref sig .tc := ⟨.vmem, 40, rfl⟩
abbrev cc8_stg1_0 : Ref sig .tc := ⟨.vmem, 41, rfl⟩
abbrev cc8_stg1_1 : Ref sig .tc := ⟨.vmem, 42, rfl⟩
abbrev cc8_scratch0 : Ref sig .tc := ⟨.vmem, 43, rfl⟩
abbrev cc8_scratch1 : Ref sig .tc := ⟨.vmem, 44, rfl⟩
abbrev cc9_stg0_0 : Ref sig .tc := ⟨.vmem, 45, rfl⟩
abbrev cc9_stg1_0 : Ref sig .tc := ⟨.vmem, 46, rfl⟩
abbrev cc9_stg1_1 : Ref sig .tc := ⟨.vmem, 47, rfl⟩
abbrev cc9_scratch0 : Ref sig .tc := ⟨.vmem, 48, rfl⟩
abbrev cc9_scratch1 : Ref sig .tc := ⟨.vmem, 49, rfl⟩
abbrev cc10_stg0_0 : Ref sig .tc := ⟨.vmem, 50, rfl⟩
abbrev cc10_stg1_0 : Ref sig .tc := ⟨.vmem, 51, rfl⟩
abbrev cc10_stg1_1 : Ref sig .tc := ⟨.vmem, 52, rfl⟩
abbrev cc10_scratch0 : Ref sig .tc := ⟨.vmem, 53, rfl⟩
abbrev cc10_scratch1 : Ref sig .tc := ⟨.vmem, 54, rfl⟩
abbrev cc11_stg0_0 : Ref sig .tc := ⟨.vmem, 55, rfl⟩
abbrev cc11_stg1_0 : Ref sig .tc := ⟨.vmem, 56, rfl⟩
abbrev cc11_stg1_1 : Ref sig .tc := ⟨.vmem, 57, rfl⟩
abbrev cc11_scratch0 : Ref sig .tc := ⟨.vmem, 58, rfl⟩
abbrev cc11_scratch1 : Ref sig .tc := ⟨.vmem, 59, rfl⟩
abbrev cc12_stg0_0 : Ref sig .tc := ⟨.vmem, 60, rfl⟩
abbrev cc12_stg1_0 : Ref sig .tc := ⟨.vmem, 61, rfl⟩
abbrev cc12_stg1_1 : Ref sig .tc := ⟨.vmem, 62, rfl⟩
abbrev cc12_scratch0 : Ref sig .tc := ⟨.vmem, 63, rfl⟩
abbrev cc12_scratch1 : Ref sig .tc := ⟨.vmem, 64, rfl⟩
abbrev cc13_stg0_0 : Ref sig .tc := ⟨.vmem, 65, rfl⟩
abbrev cc13_stg1_0 : Ref sig .tc := ⟨.vmem, 66, rfl⟩
abbrev cc13_stg1_1 : Ref sig .tc := ⟨.vmem, 67, rfl⟩
abbrev cc13_scratch0 : Ref sig .tc := ⟨.vmem, 68, rfl⟩
abbrev cc13_scratch1 : Ref sig .tc := ⟨.vmem, 69, rfl⟩
abbrev cc14_stg0_0 : Ref sig .tc := ⟨.vmem, 70, rfl⟩
abbrev cc14_stg1_0 : Ref sig .tc := ⟨.vmem, 71, rfl⟩
abbrev cc14_stg1_1 : Ref sig .tc := ⟨.vmem, 72, rfl⟩
abbrev cc14_scratch0 : Ref sig .tc := ⟨.vmem, 73, rfl⟩
abbrev cc14_scratch1 : Ref sig .tc := ⟨.vmem, 74, rfl⟩
abbrev cc15_stg0_0 : Ref sig .tc := ⟨.vmem, 75, rfl⟩
abbrev cc15_stg1_0 : Ref sig .tc := ⟨.vmem, 76, rfl⟩
abbrev cc15_stg1_1 : Ref sig .tc := ⟨.vmem, 77, rfl⟩
abbrev cc15_scratch0 : Ref sig .tc := ⟨.vmem, 78, rfl⟩
abbrev cc15_scratch1 : Ref sig .tc := ⟨.vmem, 79, rfl⟩
abbrev cc0_sem0_0 : DmaSem sig := 0
abbrev cc0_sem1_0 : DmaSem sig := 1
abbrev cc0_sem1_1 : DmaSem sig := 2
abbrev cc1_sem0_0 : DmaSem sig := 5
abbrev cc1_sem1_0 : DmaSem sig := 6
abbrev cc1_sem1_1 : DmaSem sig := 7
abbrev cc2_sem0_0 : DmaSem sig := 10
abbrev cc2_sem1_0 : DmaSem sig := 11
abbrev cc2_sem1_1 : DmaSem sig := 12
abbrev cc3_sem0_0 : DmaSem sig := 15
abbrev cc3_sem1_0 : DmaSem sig := 16
abbrev cc3_sem1_1 : DmaSem sig := 17
abbrev cc4_sem0_0 : DmaSem sig := 20
abbrev cc4_sem1_0 : DmaSem sig := 21
abbrev cc4_sem1_1 : DmaSem sig := 22
abbrev cc5_sem0_0 : DmaSem sig := 25
abbrev cc5_sem1_0 : DmaSem sig := 26
abbrev cc5_sem1_1 : DmaSem sig := 27
abbrev cc6_sem0_0 : DmaSem sig := 30
abbrev cc6_sem1_0 : DmaSem sig := 31
abbrev cc6_sem1_1 : DmaSem sig := 32
abbrev cc7_sem0_0 : DmaSem sig := 35
abbrev cc7_sem1_0 : DmaSem sig := 36
abbrev cc7_sem1_1 : DmaSem sig := 37
abbrev cc8_sem0_0 : DmaSem sig := 40
abbrev cc8_sem1_0 : DmaSem sig := 41
abbrev cc8_sem1_1 : DmaSem sig := 42
abbrev cc9_sem0_0 : DmaSem sig := 45
abbrev cc9_sem1_0 : DmaSem sig := 46
abbrev cc9_sem1_1 : DmaSem sig := 47
abbrev cc10_sem0_0 : DmaSem sig := 50
abbrev cc10_sem1_0 : DmaSem sig := 51
abbrev cc10_sem1_1 : DmaSem sig := 52
abbrev cc11_sem0_0 : DmaSem sig := 55
abbrev cc11_sem1_0 : DmaSem sig := 56
abbrev cc11_sem1_1 : DmaSem sig := 57
abbrev cc12_sem0_0 : DmaSem sig := 60
abbrev cc12_sem1_0 : DmaSem sig := 61
abbrev cc12_sem1_1 : DmaSem sig := 62
abbrev cc13_sem0_0 : DmaSem sig := 65
abbrev cc13_sem1_0 : DmaSem sig := 66
abbrev cc13_sem1_1 : DmaSem sig := 67
abbrev cc14_sem0_0 : DmaSem sig := 70
abbrev cc14_sem1_0 : DmaSem sig := 71
abbrev cc14_sem1_1 : DmaSem sig := 72
abbrev cc15_sem0_0 : DmaSem sig := 75
abbrev cc15_sem1_0 : DmaSem sig := 76
abbrev cc15_sem1_1 : DmaSem sig := 77

abbrev nD : Nat := 1
abbrev τ : Topo := Topo.v7x

variable {F : FTy → Type} [FloatOps F]

abbrev grid0 : Pipeline.Grid := ⟨2, ![512, 128], ![false, false]⟩

abbrev pre0 : Pipeline.Prefetch sig := ⟨2, ![main_v6.idx, main_v7.idx], fun | 0 => main_v6.names | 1 => main_v7.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def k0_off2 (v3 : BitVec 32) : Fin 2 → Nat :=
  let c0_i32_0 : BitVec 32 := 0#32
  ![v3.toNat, 0]

def k0_off3 (v5 : BitVec 32) : Fin 2 → Nat :=
  let c0_i32_1 : BitVec 32 := 0#32
  ![v5.toNat, 0]

def k0_chk2 (v5 : BitVec 32) : Prop :=
  (∀ a, (k0_off3 v5) a + S1x256.size a ≤ S200000x256.size a)
instance k0_chk2.dec : ∀ (v5 : BitVec 32), Decidable (k0_chk2 v5) := fun v5 => decidable_of_iff' _ (Iff.of_eq (k0_chk2.eq_1 v5))
theorem k0_off3_inb : ∀ (v5 : BitVec 32) (k0_hw2 : k0_chk2 v5), ∀ a, (k0_off3 v5) a + S1x256.size a ≤ S200000x256.size a := fun v5 k0_hw2 => k0_hw2

def k0_off4 (v3 : BitVec 32) : Fin 2 → Nat :=
  let c0_i32_3 : BitVec 32 := 0#32
  ![v3.toNat, 0]

def k0_chk1 (v3 : BitVec 32) : Prop :=
  (∀ a, (k0_off2 v3) a + S1x256.size a ≤ S200000x256.size a) ∧
  (∀ a, (k0_off4 v3) a + S1x256.size a ≤ S200000x256.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x256.size a ≤ S200000x256.size a := fun v3 k0_hw1 => k0_hw1.1
theorem k0_off4_inb : ∀ (v3 : BitVec 32) (k0_hw1 : k0_chk1 v3), ∀ a, (k0_off4 v3) a + S1x256.size a ≤ S200000x256.size a := fun v3 k0_hw1 => k0_hw1.2

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![512, 128], ![false, false]⟩

abbrev pre1 : Pipeline.Prefetch sig := ⟨2, ![main_v9.idx, main_v10.idx], fun | 0 => main_v9.names | 1 => main_v10.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def k1_off2 (v3 : BitVec 32) : Fin 2 → Nat :=
  let c0_i32_0 : BitVec 32 := 0#32
  ![v3.toNat, 0]

def k1_off3 (v5 : BitVec 32) : Fin 2 → Nat :=
  let c0_i32_1 : BitVec 32 := 0#32
  ![v5.toNat, 0]

def k1_chk2 (v5 : BitVec 32) : Prop :=
  (∀ a, (k1_off3 v5) a + S1x256.size a ≤ S200000x256.size a)
instance k1_chk2.dec : ∀ (v5 : BitVec 32), Decidable (k1_chk2 v5) := fun v5 => decidable_of_iff' _ (Iff.of_eq (k1_chk2.eq_1 v5))
theorem k1_off3_inb : ∀ (v5 : BitVec 32) (k1_hw2 : k1_chk2 v5), ∀ a, (k1_off3 v5) a + S1x256.size a ≤ S200000x256.size a := fun v5 k1_hw2 => k1_hw2

def k1_off4 (v3 : BitVec 32) : Fin 2 → Nat :=
  let c0_i32_3 : BitVec 32 := 0#32
  ![v3.toNat, 0]

def k1_chk1 (v3 : BitVec 32) : Prop :=
  (∀ a, (k1_off2 v3) a + S1x256.size a ≤ S200000x256.size a) ∧
  (∀ a, (k1_off4 v3) a + S1x256.size a ≤ S200000x256.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x256.size a ≤ S200000x256.size a := fun v3 k1_hw1 => k1_hw1.1
theorem k1_off4_inb : ∀ (v3 : BitVec 32) (k1_hw1 : k1_chk1 v3), ∀ a, (k1_off4 v3) a + S1x256.size a ≤ S200000x256.size a := fun v3 k1_hw1 => k1_hw1.2

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage1_0 : Fin 1 → Memref sig .tc .vmem S1x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![512, 128], ![false, false]⟩

abbrev pre2 : Pipeline.Prefetch sig := ⟨2, ![main_v12.idx, main_v13.idx], fun | 0 => main_v12.names | 1 => main_v13.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def k2_off2 (v3 : BitVec 32) : Fin 2 → Nat :=
  let c0_i32_0 : BitVec 32 := 0#32
  ![v3.toNat, 0]

def k2_off3 (v5 : BitVec 32) : Fin 2 → Nat :=
  let c0_i32_1 : BitVec 32 := 0#32
  ![v5.toNat, 0]

def k2_chk2 (v5 : BitVec 32) : Prop :=
  (∀ a, (k2_off3 v5) a + S1x256.size a ≤ S200000x256.size a)
instance k2_chk2.dec : ∀ (v5 : BitVec 32), Decidable (k2_chk2 v5) := fun v5 => decidable_of_iff' _ (Iff.of_eq (k2_chk2.eq_1 v5))
theorem k2_off3_inb : ∀ (v5 : BitVec 32) (k2_hw2 : k2_chk2 v5), ∀ a, (k2_off3 v5) a + S1x256.size a ≤ S200000x256.size a := fun v5 k2_hw2 => k2_hw2

def k2_off4 (v3 : BitVec 32) : Fin 2 → Nat :=
  let c0_i32_3 : BitVec 32 := 0#32
  ![v3.toNat, 0]

def k2_chk1 (v3 : BitVec 32) : Prop :=
  (∀ a, (k2_off2 v3) a + S1x256.size a ≤ S200000x256.size a) ∧
  (∀ a, (k2_off4 v3) a + S1x256.size a ≤ S200000x256.size a)
instance k2_chk1.dec : ∀ (v3 : BitVec 32), Decidable (k2_chk1 v3) := fun v3 => decidable_of_iff' _ (Iff.of_eq (k2_chk1.eq_1 v3))
theorem k2_off2_inb : ∀ (v3 : BitVec 32) (k2_hw1 : k2_chk1 v3), ∀ a, (k2_off2 v3) a + S1x256.size a ≤ S200000x256.size a := fun v3 k2_hw1 => k2_hw1.1
theorem k2_off4_inb : ∀ (v3 : BitVec 32) (k2_hw1 : k2_chk1 v3), ∀ a, (k2_off4 v3) a + S1x256.size a ≤ S200000x256.size a := fun v3 k2_hw1 => k2_hw1.2

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage2_0 : Fin 1 → Memref sig .tc .vmem S1x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev grid3 : Pipeline.Grid := ⟨2, ![512, 128], ![false, false]⟩

abbrev pre3 : Pipeline.Prefetch sig := ⟨2, ![main_v15.idx, main_v16.idx], fun | 0 => main_v15.names | 1 => main_v16.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def k3_off2 (v3 : BitVec 32) : Fin 2 → Nat :=
  let c0_i32_0 : BitVec 32 := 0#32
  ![v3.toNat, 0]

def k3_off3 (v5 : BitVec 32) : Fin 2 → Nat :=
  let c0_i32_1 : BitVec 32 := 0#32
  ![v5.toNat, 0]

def k3_chk2 (v5 : BitVec 32) : Prop :=
  (∀ a, (k3_off3 v5) a + S1x256.size a ≤ S200000x256.size a)
instance k3_chk2.dec : ∀ (v5 : BitVec 32), Decidable (k3_chk2 v5) := fun v5 => decidable_of_iff' _ (Iff.of_eq (k3_chk2.eq_1 v5))
theorem k3_off3_inb : ∀ (v5 : BitVec 32) (k3_hw2 : k3_chk2 v5), ∀ a, (k3_off3 v5) a + S1x256.size a ≤ S200000x256.size a := fun v5 k3_hw2 => k3_hw2

def k3_off4 (v3 : BitVec 32) : Fin 2 → Nat :=
  let c0_i32_3 : BitVec 32 := 0#32
  ![v3.toNat, 0]

def k3_chk1 (v3 : BitVec 32) : Prop :=
  (∀ a, (k3_off2 v3) a + S1x256.size a ≤ S200000x256.size a) ∧
  (∀ a, (k3_off4 v3) a + S1x256.size a ≤ S200000x256.size a)
instance k3_chk1.dec : ∀ (v3 : BitVec 32), Decidable (k3_chk1 v3) := fun v3 => decidable_of_iff' _ (Iff.of_eq (k3_chk1.eq_1 v3))
theorem k3_off2_inb : ∀ (v3 : BitVec 32) (k3_hw1 : k3_chk1 v3), ∀ a, (k3_off2 v3) a + S1x256.size a ≤ S200000x256.size a := fun v3 k3_hw1 => k3_hw1.1
theorem k3_off4_inb : ∀ (v3 : BitVec 32) (k3_hw1 : k3_chk1 v3), ∀ a, (k3_off4 v3) a + S1x256.size a ≤ S200000x256.size a := fun v3 k3_hw1 => k3_hw1.2

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage3_0 : Fin 1 → Memref sig .tc .vmem S1x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev grid4 : Pipeline.Grid := ⟨2, ![512, 128], ![false, false]⟩

abbrev pre4 : Pipeline.Prefetch sig := ⟨2, ![main_v18.idx, main_v19.idx], fun | 0 => main_v18.names | 1 => main_v19.names | ⟨_ + 2, h⟩ => absurd h (Nat.not_lt.2 (Nat.le_add_left _ _)), fun | 0 => rfl | 1 => rfl | ⟨_ + 2, h⟩ => absurd h (Nat.not_lt.2 (Nat.le_add_left _ _))⟩

def k4_off1 (i : grid4.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def k4_off2 (v3 : BitVec 32) : Fin 2 → Nat :=
  let c0_i32_0 : BitVec 32 := 0#32
  ![v3.toNat, 0]

def k4_off3 (v5 : BitVec 32) : Fin 2 → Nat :=
  let c0_i32_1 : BitVec 32 := 0#32
  ![v5.toNat, 0]

def k4_chk2 (v5 : BitVec 32) : Prop :=
  (∀ a, (k4_off3 v5) a + S1x256.size a ≤ S200000x256.size a)
instance k4_chk2.dec : ∀ (v5 : BitVec 32), Decidable (k4_chk2 v5) := fun v5 => decidable_of_iff' _ (Iff.of_eq (k4_chk2.eq_1 v5))
theorem k4_off3_inb : ∀ (v5 : BitVec 32) (k4_hw2 : k4_chk2 v5), ∀ a, (k4_off3 v5) a + S1x256.size a ≤ S200000x256.size a := fun v5 k4_hw2 => k4_hw2

def k4_off4 (v3 : BitVec 32) : Fin 2 → Nat :=
  let c0_i32_3 : BitVec 32 := 0#32
  ![v3.toNat, 0]

def k4_chk1 (v3 : BitVec 32) : Prop :=
  (∀ a, (k4_off2 v3) a + S1x256.size a ≤ S200000x256.size a) ∧
  (∀ a, (k4_off4 v3) a + S1x256.size a ≤ S200000x256.size a)
instance k4_chk1.dec : ∀ (v3 : BitVec 32), Decidable (k4_chk1 v3) := fun v3 => decidable_of_iff' _ (Iff.of_eq (k4_chk1.eq_1 v3))
theorem k4_off2_inb : ∀ (v3 : BitVec 32) (k4_hw1 : k4_chk1 v3), ∀ a, (k4_off2 v3) a + S1x256.size a ≤ S200000x256.size a := fun v3 k4_hw1 => k4_hw1.1
theorem k4_off4_inb : ∀ (v3 : BitVec 32) (k4_hw1 : k4_chk1 v3), ∀ a, (k4_off4 v3) a + S1x256.size a ≤ S200000x256.size a := fun v3 k4_hw1 => k4_hw1.2

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage4_0 : Fin 1 → Memref sig .tc .vmem S1x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 2 → Memref sig .tc .vmem S128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev grid5 : Pipeline.Grid := ⟨2, ![512, 128], ![false, false]⟩

abbrev pre5 : Pipeline.Prefetch sig := ⟨2, ![main_v21.idx, main_v22.idx], fun | 0 => main_v21.names | 1 => main_v22.names | ⟨_ + 2, h⟩ => absurd h (Nat.not_lt.2 (Nat.le_add_left _ _)), fun | 0 => rfl | 1 => rfl | ⟨_ + 2, h⟩ => absurd h (Nat.not_lt.2 (Nat.le_add_left _ _))⟩

def k5_off1 (i : grid5.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def k5_off2 (v3 : BitVec 32) : Fin 2 → Nat :=
  let c0_i32_0 : BitVec 32 := 0#32
  ![v3.toNat, 0]

def k5_off3 (v5 : BitVec 32) : Fin 2 → Nat :=
  let c0_i32_1 : BitVec 32 := 0#32
  ![v5.toNat, 0]

def k5_chk2 (v5 : BitVec 32) : Prop :=
  (∀ a, (k5_off3 v5) a + S1x256.size a ≤ S200000x256.size a)
instance k5_chk2.dec : ∀ (v5 : BitVec 32), Decidable (k5_chk2 v5) := fun v5 => decidable_of_iff' _ (Iff.of_eq (k5_chk2.eq_1 v5))
theorem k5_off3_inb : ∀ (v5 : BitVec 32) (k5_hw2 : k5_chk2 v5), ∀ a, (k5_off3 v5) a + S1x256.size a ≤ S200000x256.size a := fun v5 k5_hw2 => k5_hw2

def k5_off4 (v3 : BitVec 32) : Fin 2 → Nat :=
  let c0_i32_3 : BitVec 32 := 0#32
  ![v3.toNat, 0]

def k5_chk1 (v3 : BitVec 32) : Prop :=
  (∀ a, (k5_off2 v3) a + S1x256.size a ≤ S200000x256.size a) ∧
  (∀ a, (k5_off4 v3) a + S1x256.size a ≤ S200000x256.size a)
instance k5_chk1.dec : ∀ (v3 : BitVec 32), Decidable (k5_chk1 v3) := fun v3 => decidable_of_iff' _ (Iff.of_eq (k5_chk1.eq_1 v3))
theorem k5_off2_inb : ∀ (v3 : BitVec 32) (k5_hw1 : k5_chk1 v3), ∀ a, (k5_off2 v3) a + S1x256.size a ≤ S200000x256.size a := fun v3 k5_hw1 => k5_hw1.1
theorem k5_off4_inb : ∀ (v3 : BitVec 32) (k5_hw1 : k5_chk1 v3), ∀ a, (k5_off4 v3) a + S1x256.size a ≤ S200000x256.size a := fun v3 k5_hw1 => k5_hw1.2

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage5_0 : Fin 1 → Memref sig .tc .vmem S1x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false]

abbrev stage5_1 : Fin 2 → Memref sig .tc .vmem S128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev grid6 : Pipeline.Grid := ⟨2, ![512, 128], ![false, false]⟩

abbrev pre6 : Pipeline.Prefetch sig := ⟨2, ![main_v24.idx, main_v25.idx], fun | 0 => main_v24.names | 1 => main_v25.names | ⟨_ + 2, h⟩ => absurd h (Nat.not_lt.2 (Nat.le_add_left _ _)), fun | 0 => rfl | 1 => rfl | ⟨_ + 2, h⟩ => absurd h (Nat.not_lt.2 (Nat.le_add_left _ _))⟩

def k6_off1 (i : grid6.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def k6_off2 (v3 : BitVec 32) : Fin 2 → Nat :=
  let c0_i32_0 : BitVec 32 := 0#32
  ![v3.toNat, 0]

def k6_off3 (v5 : BitVec 32) : Fin 2 → Nat :=
  let c0_i32_1 : BitVec 32 := 0#32
  ![v5.toNat, 0]

def k6_chk2 (v5 : BitVec 32) : Prop :=
  (∀ a, (k6_off3 v5) a + S1x256.size a ≤ S200000x256.size a)
instance k6_chk2.dec : ∀ (v5 : BitVec 32), Decidable (k6_chk2 v5) := fun v5 => decidable_of_iff' _ (Iff.of_eq (k6_chk2.eq_1 v5))
theorem k6_off3_inb : ∀ (v5 : BitVec 32) (k6_hw2 : k6_chk2 v5), ∀ a, (k6_off3 v5) a + S1x256.size a ≤ S200000x256.size a := fun v5 k6_hw2 => k6_hw2

def k6_off4 (v3 : BitVec 32) : Fin 2 → Nat :=
  let c0_i32_3 : BitVec 32 := 0#32
  ![v3.toNat, 0]

def k6_chk1 (v3 : BitVec 32) : Prop :=
  (∀ a, (k6_off2 v3) a + S1x256.size a ≤ S200000x256.size a) ∧
  (∀ a, (k6_off4 v3) a + S1x256.size a ≤ S200000x256.size a)
instance k6_chk1.dec : ∀ (v3 : BitVec 32), Decidable (k6_chk1 v3) := fun v3 => decidable_of_iff' _ (Iff.of_eq (k6_chk1.eq_1 v3))
theorem k6_off2_inb : ∀ (v3 : BitVec 32) (k6_hw1 : k6_chk1 v3), ∀ a, (k6_off2 v3) a + S1x256.size a ≤ S200000x256.size a := fun v3 k6_hw1 => k6_hw1.1
theorem k6_off4_inb : ∀ (v3 : BitVec 32) (k6_hw1 : k6_chk1 v3), ∀ a, (k6_off4 v3) a + S1x256.size a ≤ S200000x256.size a := fun v3 k6_hw1 => k6_hw1.2

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage6_0 : Fin 1 → Memref sig .tc .vmem S1x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, false]

abbrev stage6_1 : Fin 2 → Memref sig .tc .vmem S128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev grid7 : Pipeline.Grid := ⟨2, ![512, 128], ![false, false]⟩

abbrev pre7 : Pipeline.Prefetch sig := ⟨2, ![main_v27.idx, main_v28.idx], fun | 0 => main_v27.names | 1 => main_v28.names | ⟨_ + 2, h⟩ => absurd h (Nat.not_lt.2 (Nat.le_add_left _ _)), fun | 0 => rfl | 1 => rfl | ⟨_ + 2, h⟩ => absurd h (Nat.not_lt.2 (Nat.le_add_left _ _))⟩

def k7_off1 (i : grid7.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def k7_off2 (v3 : BitVec 32) : Fin 2 → Nat :=
  let c0_i32_0 : BitVec 32 := 0#32
  ![v3.toNat, 0]

def k7_off3 (v5 : BitVec 32) : Fin 2 → Nat :=
  let c0_i32_1 : BitVec 32 := 0#32
  ![v5.toNat, 0]

def k7_chk2 (v5 : BitVec 32) : Prop :=
  (∀ a, (k7_off3 v5) a + S1x256.size a ≤ S200000x256.size a)
instance k7_chk2.dec : ∀ (v5 : BitVec 32), Decidable (k7_chk2 v5) := fun v5 => decidable_of_iff' _ (Iff.of_eq (k7_chk2.eq_1 v5))
theorem k7_off3_inb : ∀ (v5 : BitVec 32) (k7_hw2 : k7_chk2 v5), ∀ a, (k7_off3 v5) a + S1x256.size a ≤ S200000x256.size a := fun v5 k7_hw2 => k7_hw2

def k7_off4 (v3 : BitVec 32) : Fin 2 → Nat :=
  let c0_i32_3 : BitVec 32 := 0#32
  ![v3.toNat, 0]

def k7_chk1 (v3 : BitVec 32) : Prop :=
  (∀ a, (k7_off2 v3) a + S1x256.size a ≤ S200000x256.size a) ∧
  (∀ a, (k7_off4 v3) a + S1x256.size a ≤ S200000x256.size a)
instance k7_chk1.dec : ∀ (v3 : BitVec 32), Decidable (k7_chk1 v3) := fun v3 => decidable_of_iff' _ (Iff.of_eq (k7_chk1.eq_1 v3))
theorem k7_off2_inb : ∀ (v3 : BitVec 32) (k7_hw1 : k7_chk1 v3), ∀ a, (k7_off2 v3) a + S1x256.size a ≤ S200000x256.size a := fun v3 k7_hw1 => k7_hw1.1
theorem k7_off4_inb : ∀ (v3 : BitVec 32) (k7_hw1 : k7_chk1 v3), ∀ a, (k7_off4 v3) a + S1x256.size a ≤ S200000x256.size a := fun v3 k7_hw1 => k7_hw1.2

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage7_0 : Fin 1 → Memref sig .tc .vmem S1x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false, false]

abbrev stage7_1 : Fin 2 → Memref sig .tc .vmem S128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev grid8 : Pipeline.Grid := ⟨2, ![512, 128], ![false, false]⟩

abbrev pre8 : Pipeline.Prefetch sig := ⟨2, ![main_v30.idx, main_v31.idx], fun | 0 => main_v30.names | 1 => main_v31.names | ⟨_ + 2, h⟩ => absurd h (Nat.not_lt.2 (Nat.le_add_left _ _)), fun | 0 => rfl | 1 => rfl | ⟨_ + 2, h⟩ => absurd h (Nat.not_lt.2 (Nat.le_add_left _ _))⟩

def k8_off1 (i : grid8.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def k8_off2 (v3 : BitVec 32) : Fin 2 → Nat :=
  let c0_i32_0 : BitVec 32 := 0#32
  ![v3.toNat, 0]

def k8_off3 (v5 : BitVec 32) : Fin 2 → Nat :=
  let c0_i32_1 : BitVec 32 := 0#32
  ![v5.toNat, 0]

def k8_chk2 (v5 : BitVec 32) : Prop :=
  (∀ a, (k8_off3 v5) a + S1x256.size a ≤ S200000x256.size a)
instance k8_chk2.dec : ∀ (v5 : BitVec 32), Decidable (k8_chk2 v5) := fun v5 => decidable_of_iff' _ (Iff.of_eq (k8_chk2.eq_1 v5))
theorem k8_off3_inb : ∀ (v5 : BitVec 32) (k8_hw2 : k8_chk2 v5), ∀ a, (k8_off3 v5) a + S1x256.size a ≤ S200000x256.size a := fun v5 k8_hw2 => k8_hw2

def k8_off4 (v3 : BitVec 32) : Fin 2 → Nat :=
  let c0_i32_3 : BitVec 32 := 0#32
  ![v3.toNat, 0]

def k8_chk1 (v3 : BitVec 32) : Prop :=
  (∀ a, (k8_off2 v3) a + S1x256.size a ≤ S200000x256.size a) ∧
  (∀ a, (k8_off4 v3) a + S1x256.size a ≤ S200000x256.size a)
instance k8_chk1.dec : ∀ (v3 : BitVec 32), Decidable (k8_chk1 v3) := fun v3 => decidable_of_iff' _ (Iff.of_eq (k8_chk1.eq_1 v3))
theorem k8_off2_inb : ∀ (v3 : BitVec 32) (k8_hw1 : k8_chk1 v3), ∀ a, (k8_off2 v3) a + S1x256.size a ≤ S200000x256.size a := fun v3 k8_hw1 => k8_hw1.1
theorem k8_off4_inb : ∀ (v3 : BitVec 32) (k8_hw1 : k8_chk1 v3), ∀ a, (k8_off4 v3) a + S1x256.size a ≤ S200000x256.size a := fun v3 k8_hw1 => k8_hw1.2

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage8_0 : Fin 1 → Memref sig .tc .vmem S1x256 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false, false]

abbrev stage8_1 : Fin 2 → Memref sig .tc .vmem S128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false]

abbrev grid9 : Pipeline.Grid := ⟨2, ![512, 128], ![false, false]⟩

abbrev pre9 : Pipeline.Prefetch sig := ⟨2, ![main_v33.idx, main_v34.idx], fun | 0 => main_v33.names | 1 => main_v34.names | ⟨_ + 2, h⟩ => absurd h (Nat.not_lt.2 (Nat.le_add_left _ _)), fun | 0 => rfl | 1 => rfl | ⟨_ + 2, h⟩ => absurd h (Nat.not_lt.2 (Nat.le_add_left _ _))⟩

def k9_off1 (i : grid9.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def k9_off2 (v3 : BitVec 32) : Fin 2 → Nat :=
  let c0_i32_0 : BitVec 32 := 0#32
  ![v3.toNat, 0]

def k9_off3 (v5 : BitVec 32) : Fin 2 → Nat :=
  let c0_i32_1 : BitVec 32 := 0#32
  ![v5.toNat, 0]

def k9_chk2 (v5 : BitVec 32) : Prop :=
  (∀ a, (k9_off3 v5) a + S1x256.size a ≤ S200000x256.size a)
instance k9_chk2.dec : ∀ (v5 : BitVec 32), Decidable (k9_chk2 v5) := fun v5 => decidable_of_iff' _ (Iff.of_eq (k9_chk2.eq_1 v5))
theorem k9_off3_inb : ∀ (v5 : BitVec 32) (k9_hw2 : k9_chk2 v5), ∀ a, (k9_off3 v5) a + S1x256.size a ≤ S200000x256.size a := fun v5 k9_hw2 => k9_hw2

def k9_off4 (v3 : BitVec 32) : Fin 2 → Nat :=
  let c0_i32_3 : BitVec 32 := 0#32
  ![v3.toNat, 0]

def k9_chk1 (v3 : BitVec 32) : Prop :=
  (∀ a, (k9_off2 v3) a + S1x256.size a ≤ S200000x256.size a) ∧
  (∀ a, (k9_off4 v3) a + S1x256.size a ≤ S200000x256.size a)
instance k9_chk1.dec : ∀ (v3 : BitVec 32), Decidable (k9_chk1 v3) := fun v3 => decidable_of_iff' _ (Iff.of_eq (k9_chk1.eq_1 v3))
theorem k9_off2_inb : ∀ (v3 : BitVec 32) (k9_hw1 : k9_chk1 v3), ∀ a, (k9_off2 v3) a + S1x256.size a ≤ S200000x256.size a := fun v3 k9_hw1 => k9_hw1.1
theorem k9_off4_inb : ∀ (v3 : BitVec 32) (k9_hw1 : k9_chk1 v3), ∀ a, (k9_off4 v3) a + S1x256.size a ≤ S200000x256.size a := fun v3 k9_hw1 => k9_hw1.2

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage9_0 : Fin 1 → Memref sig .tc .vmem S1x256 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false, false]

abbrev stage9_1 : Fin 2 → Memref sig .tc .vmem S128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false]

abbrev grid10 : Pipeline.Grid := ⟨2, ![512, 128], ![false, false]⟩

abbrev pre10 : Pipeline.Prefetch sig := ⟨2, ![main_v36.idx, main_v37.idx], fun | 0 => main_v36.names | 1 => main_v37.names | ⟨_ + 2, h⟩ => absurd h (Nat.not_lt.2 (Nat.le_add_left _ _)), fun | 0 => rfl | 1 => rfl | ⟨_ + 2, h⟩ => absurd h (Nat.not_lt.2 (Nat.le_add_left _ _))⟩

def k10_off1 (i : grid10.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def k10_off2 (v3 : BitVec 32) : Fin 2 → Nat :=
  let c0_i32_0 : BitVec 32 := 0#32
  ![v3.toNat, 0]

def k10_off3 (v5 : BitVec 32) : Fin 2 → Nat :=
  let c0_i32_1 : BitVec 32 := 0#32
  ![v5.toNat, 0]

def k10_chk2 (v5 : BitVec 32) : Prop :=
  (∀ a, (k10_off3 v5) a + S1x256.size a ≤ S200000x256.size a)
instance k10_chk2.dec : ∀ (v5 : BitVec 32), Decidable (k10_chk2 v5) := fun v5 => decidable_of_iff' _ (Iff.of_eq (k10_chk2.eq_1 v5))
theorem k10_off3_inb : ∀ (v5 : BitVec 32) (k10_hw2 : k10_chk2 v5), ∀ a, (k10_off3 v5) a + S1x256.size a ≤ S200000x256.size a := fun v5 k10_hw2 => k10_hw2

def k10_off4 (v3 : BitVec 32) : Fin 2 → Nat :=
  let c0_i32_3 : BitVec 32 := 0#32
  ![v3.toNat, 0]

def k10_chk1 (v3 : BitVec 32) : Prop :=
  (∀ a, (k10_off2 v3) a + S1x256.size a ≤ S200000x256.size a) ∧
  (∀ a, (k10_off4 v3) a + S1x256.size a ≤ S200000x256.size a)
instance k10_chk1.dec : ∀ (v3 : BitVec 32), Decidable (k10_chk1 v3) := fun v3 => decidable_of_iff' _ (Iff.of_eq (k10_chk1.eq_1 v3))
theorem k10_off2_inb : ∀ (v3 : BitVec 32) (k10_hw1 : k10_chk1 v3), ∀ a, (k10_off2 v3) a + S1x256.size a ≤ S200000x256.size a := fun v3 k10_hw1 => k10_hw1.1
theorem k10_off4_inb : ∀ (v3 : BitVec 32) (k10_hw1 : k10_chk1 v3), ∀ a, (k10_off4 v3) a + S1x256.size a ≤ S200000x256.size a := fun v3 k10_hw1 => k10_hw1.2

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage10_0 : Fin 1 → Memref sig .tc .vmem S1x256 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false, false]

abbrev stage10_1 : Fin 2 → Memref sig .tc .vmem S128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, false]

abbrev grid11 : Pipeline.Grid := ⟨2, ![512, 128], ![false, false]⟩

abbrev pre11 : Pipeline.Prefetch sig := ⟨2, ![main_v39.idx, main_v40.idx], fun | 0 => main_v39.names | 1 => main_v40.names | ⟨_ + 2, h⟩ => absurd h (Nat.not_lt.2 (Nat.le_add_left _ _)), fun | 0 => rfl | 1 => rfl | ⟨_ + 2, h⟩ => absurd h (Nat.not_lt.2 (Nat.le_add_left _ _))⟩

def k11_off1 (i : grid11.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def k11_off2 (v3 : BitVec 32) : Fin 2 → Nat :=
  let c0_i32_0 : BitVec 32 := 0#32
  ![v3.toNat, 0]

def k11_off3 (v5 : BitVec 32) : Fin 2 → Nat :=
  let c0_i32_1 : BitVec 32 := 0#32
  ![v5.toNat, 0]

def k11_chk2 (v5 : BitVec 32) : Prop :=
  (∀ a, (k11_off3 v5) a + S1x256.size a ≤ S200000x256.size a)
instance k11_chk2.dec : ∀ (v5 : BitVec 32), Decidable (k11_chk2 v5) := fun v5 => decidable_of_iff' _ (Iff.of_eq (k11_chk2.eq_1 v5))
theorem k11_off3_inb : ∀ (v5 : BitVec 32) (k11_hw2 : k11_chk2 v5), ∀ a, (k11_off3 v5) a + S1x256.size a ≤ S200000x256.size a := fun v5 k11_hw2 => k11_hw2

def k11_off4 (v3 : BitVec 32) : Fin 2 → Nat :=
  let c0_i32_3 : BitVec 32 := 0#32
  ![v3.toNat, 0]

def k11_chk1 (v3 : BitVec 32) : Prop :=
  (∀ a, (k11_off2 v3) a + S1x256.size a ≤ S200000x256.size a) ∧
  (∀ a, (k11_off4 v3) a + S1x256.size a ≤ S200000x256.size a)
instance k11_chk1.dec : ∀ (v3 : BitVec 32), Decidable (k11_chk1 v3) := fun v3 => decidable_of_iff' _ (Iff.of_eq (k11_chk1.eq_1 v3))
theorem k11_off2_inb : ∀ (v3 : BitVec 32) (k11_hw1 : k11_chk1 v3), ∀ a, (k11_off2 v3) a + S1x256.size a ≤ S200000x256.size a := fun v3 k11_hw1 => k11_hw1.1
theorem k11_off4_inb : ∀ (v3 : BitVec 32) (k11_hw1 : k11_chk1 v3), ∀ a, (k11_off4 v3) a + S1x256.size a ≤ S200000x256.size a := fun v3 k11_hw1 => k11_hw1.2

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage11_0 : Fin 1 → Memref sig .tc .vmem S1x256 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false, false]

abbrev stage11_1 : Fin 2 → Memref sig .tc .vmem S128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true, false]

abbrev grid12 : Pipeline.Grid := ⟨2, ![512, 128], ![false, false]⟩

abbrev pre12 : Pipeline.Prefetch sig := ⟨2, ![main_v42.idx, main_v43.idx], fun | 0 => main_v42.names | 1 => main_v43.names | ⟨_ + 2, h⟩ => absurd h (Nat.not_lt.2 (Nat.le_add_left _ _)), fun | 0 => rfl | 1 => rfl | ⟨_ + 2, h⟩ => absurd h (Nat.not_lt.2 (Nat.le_add_left _ _))⟩

def k12_off1 (i : grid12.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def k12_off2 (v3 : BitVec 32) : Fin 2 → Nat :=
  let c0_i32_0 : BitVec 32 := 0#32
  ![v3.toNat, 0]

def k12_off3 (v5 : BitVec 32) : Fin 2 → Nat :=
  let c0_i32_1 : BitVec 32 := 0#32
  ![v5.toNat, 0]

def k12_chk2 (v5 : BitVec 32) : Prop :=
  (∀ a, (k12_off3 v5) a + S1x256.size a ≤ S200000x256.size a)
instance k12_chk2.dec : ∀ (v5 : BitVec 32), Decidable (k12_chk2 v5) := fun v5 => decidable_of_iff' _ (Iff.of_eq (k12_chk2.eq_1 v5))
theorem k12_off3_inb : ∀ (v5 : BitVec 32) (k12_hw2 : k12_chk2 v5), ∀ a, (k12_off3 v5) a + S1x256.size a ≤ S200000x256.size a := fun v5 k12_hw2 => k12_hw2

def k12_off4 (v3 : BitVec 32) : Fin 2 → Nat :=
  let c0_i32_3 : BitVec 32 := 0#32
  ![v3.toNat, 0]

def k12_chk1 (v3 : BitVec 32) : Prop :=
  (∀ a, (k12_off2 v3) a + S1x256.size a ≤ S200000x256.size a) ∧
  (∀ a, (k12_off4 v3) a + S1x256.size a ≤ S200000x256.size a)
instance k12_chk1.dec : ∀ (v3 : BitVec 32), Decidable (k12_chk1 v3) := fun v3 => decidable_of_iff' _ (Iff.of_eq (k12_chk1.eq_1 v3))
theorem k12_off2_inb : ∀ (v3 : BitVec 32) (k12_hw1 : k12_chk1 v3), ∀ a, (k12_off2 v3) a + S1x256.size a ≤ S200000x256.size a := fun v3 k12_hw1 => k12_hw1.1
theorem k12_off4_inb : ∀ (v3 : BitVec 32) (k12_hw1 : k12_chk1 v3), ∀ a, (k12_off4 v3) a + S1x256.size a ≤ S200000x256.size a := fun v3 k12_hw1 => k12_hw1.2

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage12_0 : Fin 1 → Memref sig .tc .vmem S1x256 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false, false]

abbrev stage12_1 : Fin 2 → Memref sig .tc .vmem S128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true, false]

abbrev grid13 : Pipeline.Grid := ⟨2, ![512, 128], ![false, false]⟩

abbrev pre13 : Pipeline.Prefetch sig := ⟨2, ![main_v45.idx, main_v46.idx], fun | 0 => main_v45.names | 1 => main_v46.names | ⟨_ + 2, h⟩ => absurd h (Nat.not_lt.2 (Nat.le_add_left _ _)), fun | 0 => rfl | 1 => rfl | ⟨_ + 2, h⟩ => absurd h (Nat.not_lt.2 (Nat.le_add_left _ _))⟩

def k13_off1 (i : grid13.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def k13_off2 (v3 : BitVec 32) : Fin 2 → Nat :=
  let c0_i32_0 : BitVec 32 := 0#32
  ![v3.toNat, 0]

def k13_off3 (v5 : BitVec 32) : Fin 2 → Nat :=
  let c0_i32_1 : BitVec 32 := 0#32
  ![v5.toNat, 0]

def k13_chk2 (v5 : BitVec 32) : Prop :=
  (∀ a, (k13_off3 v5) a + S1x256.size a ≤ S200000x256.size a)
instance k13_chk2.dec : ∀ (v5 : BitVec 32), Decidable (k13_chk2 v5) := fun v5 => decidable_of_iff' _ (Iff.of_eq (k13_chk2.eq_1 v5))
theorem k13_off3_inb : ∀ (v5 : BitVec 32) (k13_hw2 : k13_chk2 v5), ∀ a, (k13_off3 v5) a + S1x256.size a ≤ S200000x256.size a := fun v5 k13_hw2 => k13_hw2

def k13_off4 (v3 : BitVec 32) : Fin 2 → Nat :=
  let c0_i32_3 : BitVec 32 := 0#32
  ![v3.toNat, 0]

def k13_chk1 (v3 : BitVec 32) : Prop :=
  (∀ a, (k13_off2 v3) a + S1x256.size a ≤ S200000x256.size a) ∧
  (∀ a, (k13_off4 v3) a + S1x256.size a ≤ S200000x256.size a)
instance k13_chk1.dec : ∀ (v3 : BitVec 32), Decidable (k13_chk1 v3) := fun v3 => decidable_of_iff' _ (Iff.of_eq (k13_chk1.eq_1 v3))
theorem k13_off2_inb : ∀ (v3 : BitVec 32) (k13_hw1 : k13_chk1 v3), ∀ a, (k13_off2 v3) a + S1x256.size a ≤ S200000x256.size a := fun v3 k13_hw1 => k13_hw1.1
theorem k13_off4_inb : ∀ (v3 : BitVec 32) (k13_hw1 : k13_chk1 v3), ∀ a, (k13_off4 v3) a + S1x256.size a ≤ S200000x256.size a := fun v3 k13_hw1 => k13_hw1.2

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage13_0 : Fin 1 → Memref sig .tc .vmem S1x256 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false, false]

abbrev stage13_1 : Fin 2 → Memref sig .tc .vmem S128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true, false]

abbrev grid14 : Pipeline.Grid := ⟨2, ![512, 128], ![false, false]⟩

abbrev pre14 : Pipeline.Prefetch sig := ⟨2, ![main_v48.idx, main_v49.idx], fun | 0 => main_v48.names | 1 => main_v49.names | ⟨_ + 2, h⟩ => absurd h (Nat.not_lt.2 (Nat.le_add_left _ _)), fun | 0 => rfl | 1 => rfl | ⟨_ + 2, h⟩ => absurd h (Nat.not_lt.2 (Nat.le_add_left _ _))⟩

def k14_off1 (i : grid14.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def k14_off2 (v3 : BitVec 32) : Fin 2 → Nat :=
  let c0_i32_0 : BitVec 32 := 0#32
  ![v3.toNat, 0]

def k14_off3 (v5 : BitVec 32) : Fin 2 → Nat :=
  let c0_i32_1 : BitVec 32 := 0#32
  ![v5.toNat, 0]

def k14_chk2 (v5 : BitVec 32) : Prop :=
  (∀ a, (k14_off3 v5) a + S1x256.size a ≤ S200000x256.size a)
instance k14_chk2.dec : ∀ (v5 : BitVec 32), Decidable (k14_chk2 v5) := fun v5 => decidable_of_iff' _ (Iff.of_eq (k14_chk2.eq_1 v5))
theorem k14_off3_inb : ∀ (v5 : BitVec 32) (k14_hw2 : k14_chk2 v5), ∀ a, (k14_off3 v5) a + S1x256.size a ≤ S200000x256.size a := fun v5 k14_hw2 => k14_hw2

def k14_off4 (v3 : BitVec 32) : Fin 2 → Nat :=
  let c0_i32_3 : BitVec 32 := 0#32
  ![v3.toNat, 0]

def k14_chk1 (v3 : BitVec 32) : Prop :=
  (∀ a, (k14_off2 v3) a + S1x256.size a ≤ S200000x256.size a) ∧
  (∀ a, (k14_off4 v3) a + S1x256.size a ≤ S200000x256.size a)
instance k14_chk1.dec : ∀ (v3 : BitVec 32), Decidable (k14_chk1 v3) := fun v3 => decidable_of_iff' _ (Iff.of_eq (k14_chk1.eq_1 v3))
theorem k14_off2_inb : ∀ (v3 : BitVec 32) (k14_hw1 : k14_chk1 v3), ∀ a, (k14_off2 v3) a + S1x256.size a ≤ S200000x256.size a := fun v3 k14_hw1 => k14_hw1.1
theorem k14_off4_inb : ∀ (v3 : BitVec 32) (k14_hw1 : k14_chk1 v3), ∀ a, (k14_off4 v3) a + S1x256.size a ≤ S200000x256.size a := fun v3 k14_hw1 => k14_hw1.2

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage14_0 : Fin 1 → Memref sig .tc .vmem S1x256 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![false, false]

abbrev stage14_1 : Fin 2 → Memref sig .tc .vmem S128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true, false]

abbrev grid15 : Pipeline.Grid := ⟨2, ![512, 128], ![false, false]⟩

abbrev pre15 : Pipeline.Prefetch sig := ⟨2, ![main_v51.idx, main_v52.idx], fun | 0 => main_v51.names | 1 => main_v52.names | ⟨_ + 2, h⟩ => absurd h (Nat.not_lt.2 (Nat.le_add_left _ _)), fun | 0 => rfl | 1 => rfl | ⟨_ + 2, h⟩ => absurd h (Nat.not_lt.2 (Nat.le_add_left _ _))⟩

def k15_off1 (i : grid15.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v2 : Index := Scalar.indexCast v1
  ![v2.toNat]
def k15_off2 (v3 : BitVec 32) : Fin 2 → Nat :=
  let c0_i32_0 : BitVec 32 := 0#32
  ![v3.toNat, 0]

def k15_off3 (v5 : BitVec 32) : Fin 2 → Nat :=
  let c0_i32_1 : BitVec 32 := 0#32
  ![v5.toNat, 0]

def k15_chk2 (v5 : BitVec 32) : Prop :=
  (∀ a, (k15_off3 v5) a + S1x256.size a ≤ S200000x256.size a)
instance k15_chk2.dec : ∀ (v5 : BitVec 32), Decidable (k15_chk2 v5) := fun v5 => decidable_of_iff' _ (Iff.of_eq (k15_chk2.eq_1 v5))
theorem k15_off3_inb : ∀ (v5 : BitVec 32) (k15_hw2 : k15_chk2 v5), ∀ a, (k15_off3 v5) a + S1x256.size a ≤ S200000x256.size a := fun v5 k15_hw2 => k15_hw2

def k15_off4 (v3 : BitVec 32) : Fin 2 → Nat :=
  let c0_i32_3 : BitVec 32 := 0#32
  ![v3.toNat, 0]

def k15_chk1 (v3 : BitVec 32) : Prop :=
  (∀ a, (k15_off2 v3) a + S1x256.size a ≤ S200000x256.size a) ∧
  (∀ a, (k15_off4 v3) a + S1x256.size a ≤ S200000x256.size a)
instance k15_chk1.dec : ∀ (v3 : BitVec 32), Decidable (k15_chk1 v3) := fun v3 => decidable_of_iff' _ (Iff.of_eq (k15_chk1.eq_1 v3))
theorem k15_off2_inb : ∀ (v3 : BitVec 32) (k15_hw1 : k15_chk1 v3), ∀ a, (k15_off2 v3) a + S1x256.size a ≤ S200000x256.size a := fun v3 k15_hw1 => k15_hw1.1
theorem k15_off4_inb : ∀ (v3 : BitVec 32) (k15_hw1 : k15_chk1 v3), ∀ a, (k15_off4 v3) a + S1x256.size a ≤ S200000x256.size a := fun v3 k15_hw1 => k15_hw1.2

def cc15_transform_1 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage15_0 : Fin 1 → Memref sig .tc .vmem S1x256 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![false, false]

abbrev stage15_1 : Fin 2 → Memref sig .tc .vmem S128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true, false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  pads_S1000000_S1048576_0485760 : S1000000.Pads (![0] : Fin 1 → Nat) ![48576] ![0] S1048576
  h_S_ : 0 < S_.numel
  slices_S1048576_S65536_0 : S1048576.Slices ![0] S65536
  numel1_S1 : S1.numel = 1
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  inb_S1x256_S1x256_0_0 : ∀ a, (![0, 0] : Fin 2 → Nat) a + S1x256.size a ≤ S1x256.size a
  h_S1x256 : 0 < S1x256.numel
  slices_S1x256_o0_0_S1x128 : S1x256.Slices ![0, 0] S1x128
  slices_S1x256_o0_128_S1x128 : S1x256.Slices ![0, 128] S1x128
  reduces_S1x128_S1 : S1x128.Reduces [1] S1
  iota_S1x128_d1_w32 : S1x128.Iotas .tc 32 [1]
  shapeCasts_S1x128_S128 : S1x128.ShapeCasts S128
  natLt_1_32 : 1 < 32
  shapeCasts_S1_S1 : S1.ShapeCasts S1
  broadcasts_S1_S128 : S1.Broadcasts S128
  inb_S128_S128_0 : ∀ a, (![0] : Fin 1 → Nat) a + S128.size a ≤ S128.size a
  h_S128 : 0 < S128.numel
  shapeCasts_S128_S128 : S128.ShapeCasts S128
  slices_S1048576_S65536_65536 : S1048576.Slices ![65536] S65536
  slices_S1048576_S65536_131072 : S1048576.Slices ![131072] S65536
  slices_S1048576_S65536_196608 : S1048576.Slices ![196608] S65536
  slices_S1048576_S65536_262144 : S1048576.Slices ![262144] S65536
  slices_S1048576_S65536_327680 : S1048576.Slices ![327680] S65536
  slices_S1048576_S65536_393216 : S1048576.Slices ![393216] S65536
  slices_S1048576_S65536_458752 : S1048576.Slices ![458752] S65536
  slices_S1048576_S65536_524288 : S1048576.Slices ![524288] S65536
  slices_S1048576_S65536_589824 : S1048576.Slices ![589824] S65536
  slices_S1048576_S65536_655360 : S1048576.Slices ![655360] S65536
  slices_S1048576_S65536_720896 : S1048576.Slices ![720896] S65536
  slices_S1048576_S65536_786432 : S1048576.Slices ![786432] S65536
  slices_S1048576_S65536_851968 : S1048576.Slices ![851968] S65536
  slices_S1048576_S65536_917504 : S1048576.Slices ![917504] S65536
  slices_S1048576_S65536_983040 : S1048576.Slices ![983040] S65536
  concatenates_S65536_S65536_S65536_S65536_S65536_S65536_S65536_S65536_S65536_S65536_S65536_S65536_S65536_S65536_S65536_S65536_S1048576_d0 : Shape.Concatenates [S65536, S65536, S65536, S65536, S65536, S65536, S65536, S65536, S65536, S65536, S65536, S65536, S65536, S65536, S65536, S65536] S1048576 0
  slices_S1048576_S1000000_0 : S1048576.Slices ![0] S1000000
  hcc0_scratch2 : 3 + S2.numel ≤ 80
  hcc1_scratch2 : 8 + S2.numel ≤ 80
  hcc2_scratch2 : 13 + S2.numel ≤ 80
  hcc3_scratch2 : 18 + S2.numel ≤ 80
  hcc4_scratch2 : 23 + S2.numel ≤ 80
  hcc5_scratch2 : 28 + S2.numel ≤ 80
  hcc6_scratch2 : 33 + S2.numel ≤ 80
  hcc7_scratch2 : 38 + S2.numel ≤ 80
  hcc8_scratch2 : 43 + S2.numel ≤ 80
  hcc9_scratch2 : 48 + S2.numel ≤ 80
  hcc10_scratch2 : 53 + S2.numel ≤ 80
  hcc11_scratch2 : 58 + S2.numel ≤ 80
  hcc12_scratch2 : 63 + S2.numel ≤ 80
  hcc13_scratch2 : 68 + S2.numel ≤ 80
  hcc14_scratch2 : 73 + S2.numel ≤ 80
  hcc15_scratch2 : 78 + S2.numel ≤ 80
  hrank0 : 0 < grid0.rank
  k0_off1_inb : ∀ i : grid0.Coords, ∀ a, (k0_off1 i) a + S1.size a ≤ S65536.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S1x256.size a ≤ S1x256.size a
  hwx0_0 : ∀ i : grid0.Coords, EltTy.bits .f32 = 32 ∨ (Rect.block (s := S1x256) S1x256.size (cc0_transform_1 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S128.size a ≤ S65536.size a
  hwx0_1 : ∀ i : grid0.Coords, EltTy.bits .f32 = 32 ∨ (Rect.block (s := S65536) S128.size (cc0_transform_2 i) (hinb0_1 i)).WholeWords (EltTy.packing .f32)
  hrank1 : 0 < grid1.rank
  k1_off1_inb : ∀ i : grid1.Coords, ∀ a, (k1_off1 i) a + S1.size a ≤ S65536.size a
  hstage1_0 : ∀ j, (stage1_0 j).IsWhole
  nbuf1_0 : grid1.bufCount reads1_0 true = 1
  hreads1_0 : ∀ i i' : grid1.Coords, (∀ a, reads1_0 a = true → i a = i' a) → cc1_transform_1 i = cc1_transform_1 i'
  hinb1_0 : ∀ (i : grid1.Coords) a, (cc1_transform_1 i a + 1) * S1x256.size a ≤ S1x256.size a
  hwx1_0 : ∀ i : grid1.Coords, EltTy.bits .f32 = 32 ∨ (Rect.block (s := S1x256) S1x256.size (cc1_transform_1 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S128.size a ≤ S65536.size a
  hwx1_1 : ∀ i : grid1.Coords, EltTy.bits .f32 = 32 ∨ (Rect.block (s := S65536) S128.size (cc1_transform_2 i) (hinb1_1 i)).WholeWords (EltTy.packing .f32)
  hrank2 : 0 < grid2.rank
  k2_off1_inb : ∀ i : grid2.Coords, ∀ a, (k2_off1 i) a + S1.size a ≤ S65536.size a
  hstage2_0 : ∀ j, (stage2_0 j).IsWhole
  nbuf2_0 : grid2.bufCount reads2_0 true = 1
  hreads2_0 : ∀ i i' : grid2.Coords, (∀ a, reads2_0 a = true → i a = i' a) → cc2_transform_1 i = cc2_transform_1 i'
  hinb2_0 : ∀ (i : grid2.Coords) a, (cc2_transform_1 i a + 1) * S1x256.size a ≤ S1x256.size a
  hwx2_0 : ∀ i : grid2.Coords, EltTy.bits .f32 = 32 ∨ (Rect.block (s := S1x256) S1x256.size (cc2_transform_1 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_2 i = cc2_transform_2 i'
  hinb2_1 : ∀ (i : grid2.Coords) a, (cc2_transform_2 i a + 1) * S128.size a ≤ S65536.size a
  hwx2_1 : ∀ i : grid2.Coords, EltTy.bits .f32 = 32 ∨ (Rect.block (s := S65536) S128.size (cc2_transform_2 i) (hinb2_1 i)).WholeWords (EltTy.packing .f32)
  hrank3 : 0 < grid3.rank
  k3_off1_inb : ∀ i : grid3.Coords, ∀ a, (k3_off1 i) a + S1.size a ≤ S65536.size a
  hstage3_0 : ∀ j, (stage3_0 j).IsWhole
  nbuf3_0 : grid3.bufCount reads3_0 true = 1
  hreads3_0 : ∀ i i' : grid3.Coords, (∀ a, reads3_0 a = true → i a = i' a) → cc3_transform_1 i = cc3_transform_1 i'
  hinb3_0 : ∀ (i : grid3.Coords) a, (cc3_transform_1 i a + 1) * S1x256.size a ≤ S1x256.size a
  hwx3_0 : ∀ i : grid3.Coords, EltTy.bits .f32 = 32 ∨ (Rect.block (s := S1x256) S1x256.size (cc3_transform_1 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_2 i = cc3_transform_2 i'
  hinb3_1 : ∀ (i : grid3.Coords) a, (cc3_transform_2 i a + 1) * S128.size a ≤ S65536.size a
  hwx3_1 : ∀ i : grid3.Coords, EltTy.bits .f32 = 32 ∨ (Rect.block (s := S65536) S128.size (cc3_transform_2 i) (hinb3_1 i)).WholeWords (EltTy.packing .f32)
  hrank4 : 0 < grid4.rank
  k4_off1_inb : ∀ i : grid4.Coords, ∀ a, (k4_off1 i) a + S1.size a ≤ S65536.size a
  hstage4_0 : ∀ j, (stage4_0 j).IsWhole
  nbuf4_0 : grid4.bufCount reads4_0 true = 1
  hreads4_0 : ∀ i i' : grid4.Coords, (∀ a, reads4_0 a = true → i a = i' a) → cc4_transform_1 i = cc4_transform_1 i'
  hinb4_0 : ∀ (i : grid4.Coords) a, (cc4_transform_1 i a + 1) * S1x256.size a ≤ S1x256.size a
  hwx4_0 : ∀ i : grid4.Coords, EltTy.bits .f32 = 32 ∨ (Rect.block (s := S1x256) S1x256.size (cc4_transform_1 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_2 i = cc4_transform_2 i'
  hinb4_1 : ∀ (i : grid4.Coords) a, (cc4_transform_2 i a + 1) * S128.size a ≤ S65536.size a
  hwx4_1 : ∀ i : grid4.Coords, EltTy.bits .f32 = 32 ∨ (Rect.block (s := S65536) S128.size (cc4_transform_2 i) (hinb4_1 i)).WholeWords (EltTy.packing .f32)
  hrank5 : 0 < grid5.rank
  k5_off1_inb : ∀ i : grid5.Coords, ∀ a, (k5_off1 i) a + S1.size a ≤ S65536.size a
  hstage5_0 : ∀ j, (stage5_0 j).IsWhole
  nbuf5_0 : grid5.bufCount reads5_0 true = 1
  hreads5_0 : ∀ i i' : grid5.Coords, (∀ a, reads5_0 a = true → i a = i' a) → cc5_transform_1 i = cc5_transform_1 i'
  hinb5_0 : ∀ (i : grid5.Coords) a, (cc5_transform_1 i a + 1) * S1x256.size a ≤ S1x256.size a
  hwx5_0 : ∀ i : grid5.Coords, EltTy.bits .f32 = 32 ∨ (Rect.block (s := S1x256) S1x256.size (cc5_transform_1 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_2 i = cc5_transform_2 i'
  hinb5_1 : ∀ (i : grid5.Coords) a, (cc5_transform_2 i a + 1) * S128.size a ≤ S65536.size a
  hwx5_1 : ∀ i : grid5.Coords, EltTy.bits .f32 = 32 ∨ (Rect.block (s := S65536) S128.size (cc5_transform_2 i) (hinb5_1 i)).WholeWords (EltTy.packing .f32)
  hrank6 : 0 < grid6.rank
  k6_off1_inb : ∀ i : grid6.Coords, ∀ a, (k6_off1 i) a + S1.size a ≤ S65536.size a
  hstage6_0 : ∀ j, (stage6_0 j).IsWhole
  nbuf6_0 : grid6.bufCount reads6_0 true = 1
  hreads6_0 : ∀ i i' : grid6.Coords, (∀ a, reads6_0 a = true → i a = i' a) → cc6_transform_1 i = cc6_transform_1 i'
  hinb6_0 : ∀ (i : grid6.Coords) a, (cc6_transform_1 i a + 1) * S1x256.size a ≤ S1x256.size a
  hwx6_0 : ∀ i : grid6.Coords, EltTy.bits .f32 = 32 ∨ (Rect.block (s := S1x256) S1x256.size (cc6_transform_1 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_2 i = cc6_transform_2 i'
  hinb6_1 : ∀ (i : grid6.Coords) a, (cc6_transform_2 i a + 1) * S128.size a ≤ S65536.size a
  hwx6_1 : ∀ i : grid6.Coords, EltTy.bits .f32 = 32 ∨ (Rect.block (s := S65536) S128.size (cc6_transform_2 i) (hinb6_1 i)).WholeWords (EltTy.packing .f32)
  hrank7 : 0 < grid7.rank
  k7_off1_inb : ∀ i : grid7.Coords, ∀ a, (k7_off1 i) a + S1.size a ≤ S65536.size a
  hstage7_0 : ∀ j, (stage7_0 j).IsWhole
  nbuf7_0 : grid7.bufCount reads7_0 true = 1
  hreads7_0 : ∀ i i' : grid7.Coords, (∀ a, reads7_0 a = true → i a = i' a) → cc7_transform_1 i = cc7_transform_1 i'
  hinb7_0 : ∀ (i : grid7.Coords) a, (cc7_transform_1 i a + 1) * S1x256.size a ≤ S1x256.size a
  hwx7_0 : ∀ i : grid7.Coords, EltTy.bits .f32 = 32 ∨ (Rect.block (s := S1x256) S1x256.size (cc7_transform_1 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_2 i = cc7_transform_2 i'
  hinb7_1 : ∀ (i : grid7.Coords) a, (cc7_transform_2 i a + 1) * S128.size a ≤ S65536.size a
  hwx7_1 : ∀ i : grid7.Coords, EltTy.bits .f32 = 32 ∨ (Rect.block (s := S65536) S128.size (cc7_transform_2 i) (hinb7_1 i)).WholeWords (EltTy.packing .f32)
  hrank8 : 0 < grid8.rank
  k8_off1_inb : ∀ i : grid8.Coords, ∀ a, (k8_off1 i) a + S1.size a ≤ S65536.size a
  hstage8_0 : ∀ j, (stage8_0 j).IsWhole
  nbuf8_0 : grid8.bufCount reads8_0 true = 1
  hreads8_0 : ∀ i i' : grid8.Coords, (∀ a, reads8_0 a = true → i a = i' a) → cc8_transform_1 i = cc8_transform_1 i'
  hinb8_0 : ∀ (i : grid8.Coords) a, (cc8_transform_1 i a + 1) * S1x256.size a ≤ S1x256.size a
  hwx8_0 : ∀ i : grid8.Coords, EltTy.bits .f32 = 32 ∨ (Rect.block (s := S1x256) S1x256.size (cc8_transform_1 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_2 i = cc8_transform_2 i'
  hinb8_1 : ∀ (i : grid8.Coords) a, (cc8_transform_2 i a + 1) * S128.size a ≤ S65536.size a
  hwx8_1 : ∀ i : grid8.Coords, EltTy.bits .f32 = 32 ∨ (Rect.block (s := S65536) S128.size (cc8_transform_2 i) (hinb8_1 i)).WholeWords (EltTy.packing .f32)
  hrank9 : 0 < grid9.rank
  k9_off1_inb : ∀ i : grid9.Coords, ∀ a, (k9_off1 i) a + S1.size a ≤ S65536.size a
  hstage9_0 : ∀ j, (stage9_0 j).IsWhole
  nbuf9_0 : grid9.bufCount reads9_0 true = 1
  hreads9_0 : ∀ i i' : grid9.Coords, (∀ a, reads9_0 a = true → i a = i' a) → cc9_transform_1 i = cc9_transform_1 i'
  hinb9_0 : ∀ (i : grid9.Coords) a, (cc9_transform_1 i a + 1) * S1x256.size a ≤ S1x256.size a
  hwx9_0 : ∀ i : grid9.Coords, EltTy.bits .f32 = 32 ∨ (Rect.block (s := S1x256) S1x256.size (cc9_transform_1 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_2 i = cc9_transform_2 i'
  hinb9_1 : ∀ (i : grid9.Coords) a, (cc9_transform_2 i a + 1) * S128.size a ≤ S65536.size a
  hwx9_1 : ∀ i : grid9.Coords, EltTy.bits .f32 = 32 ∨ (Rect.block (s := S65536) S128.size (cc9_transform_2 i) (hinb9_1 i)).WholeWords (EltTy.packing .f32)
  hrank10 : 0 < grid10.rank
  k10_off1_inb : ∀ i : grid10.Coords, ∀ a, (k10_off1 i) a + S1.size a ≤ S65536.size a
  hstage10_0 : ∀ j, (stage10_0 j).IsWhole
  nbuf10_0 : grid10.bufCount reads10_0 true = 1
  hreads10_0 : ∀ i i' : grid10.Coords, (∀ a, reads10_0 a = true → i a = i' a) → cc10_transform_1 i = cc10_transform_1 i'
  hinb10_0 : ∀ (i : grid10.Coords) a, (cc10_transform_1 i a + 1) * S1x256.size a ≤ S1x256.size a
  hwx10_0 : ∀ i : grid10.Coords, EltTy.bits .f32 = 32 ∨ (Rect.block (s := S1x256) S1x256.size (cc10_transform_1 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_2 i = cc10_transform_2 i'
  hinb10_1 : ∀ (i : grid10.Coords) a, (cc10_transform_2 i a + 1) * S128.size a ≤ S65536.size a
  hwx10_1 : ∀ i : grid10.Coords, EltTy.bits .f32 = 32 ∨ (Rect.block (s := S65536) S128.size (cc10_transform_2 i) (hinb10_1 i)).WholeWords (EltTy.packing .f32)
  hrank11 : 0 < grid11.rank
  k11_off1_inb : ∀ i : grid11.Coords, ∀ a, (k11_off1 i) a + S1.size a ≤ S65536.size a
  hstage11_0 : ∀ j, (stage11_0 j).IsWhole
  nbuf11_0 : grid11.bufCount reads11_0 true = 1
  hreads11_0 : ∀ i i' : grid11.Coords, (∀ a, reads11_0 a = true → i a = i' a) → cc11_transform_1 i = cc11_transform_1 i'
  hinb11_0 : ∀ (i : grid11.Coords) a, (cc11_transform_1 i a + 1) * S1x256.size a ≤ S1x256.size a
  hwx11_0 : ∀ i : grid11.Coords, EltTy.bits .f32 = 32 ∨ (Rect.block (s := S1x256) S1x256.size (cc11_transform_1 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_2 i = cc11_transform_2 i'
  hinb11_1 : ∀ (i : grid11.Coords) a, (cc11_transform_2 i a + 1) * S128.size a ≤ S65536.size a
  hwx11_1 : ∀ i : grid11.Coords, EltTy.bits .f32 = 32 ∨ (Rect.block (s := S65536) S128.size (cc11_transform_2 i) (hinb11_1 i)).WholeWords (EltTy.packing .f32)
  hrank12 : 0 < grid12.rank
  k12_off1_inb : ∀ i : grid12.Coords, ∀ a, (k12_off1 i) a + S1.size a ≤ S65536.size a
  hstage12_0 : ∀ j, (stage12_0 j).IsWhole
  nbuf12_0 : grid12.bufCount reads12_0 true = 1
  hreads12_0 : ∀ i i' : grid12.Coords, (∀ a, reads12_0 a = true → i a = i' a) → cc12_transform_1 i = cc12_transform_1 i'
  hinb12_0 : ∀ (i : grid12.Coords) a, (cc12_transform_1 i a + 1) * S1x256.size a ≤ S1x256.size a
  hwx12_0 : ∀ i : grid12.Coords, EltTy.bits .f32 = 32 ∨ (Rect.block (s := S1x256) S1x256.size (cc12_transform_1 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_2 i = cc12_transform_2 i'
  hinb12_1 : ∀ (i : grid12.Coords) a, (cc12_transform_2 i a + 1) * S128.size a ≤ S65536.size a
  hwx12_1 : ∀ i : grid12.Coords, EltTy.bits .f32 = 32 ∨ (Rect.block (s := S65536) S128.size (cc12_transform_2 i) (hinb12_1 i)).WholeWords (EltTy.packing .f32)
  hrank13 : 0 < grid13.rank
  k13_off1_inb : ∀ i : grid13.Coords, ∀ a, (k13_off1 i) a + S1.size a ≤ S65536.size a
  hstage13_0 : ∀ j, (stage13_0 j).IsWhole
  nbuf13_0 : grid13.bufCount reads13_0 true = 1
  hreads13_0 : ∀ i i' : grid13.Coords, (∀ a, reads13_0 a = true → i a = i' a) → cc13_transform_1 i = cc13_transform_1 i'
  hinb13_0 : ∀ (i : grid13.Coords) a, (cc13_transform_1 i a + 1) * S1x256.size a ≤ S1x256.size a
  hwx13_0 : ∀ i : grid13.Coords, EltTy.bits .f32 = 32 ∨ (Rect.block (s := S1x256) S1x256.size (cc13_transform_1 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_2 i = cc13_transform_2 i'
  hinb13_1 : ∀ (i : grid13.Coords) a, (cc13_transform_2 i a + 1) * S128.size a ≤ S65536.size a
  hwx13_1 : ∀ i : grid13.Coords, EltTy.bits .f32 = 32 ∨ (Rect.block (s := S65536) S128.size (cc13_transform_2 i) (hinb13_1 i)).WholeWords (EltTy.packing .f32)
  hrank14 : 0 < grid14.rank
  k14_off1_inb : ∀ i : grid14.Coords, ∀ a, (k14_off1 i) a + S1.size a ≤ S65536.size a
  hstage14_0 : ∀ j, (stage14_0 j).IsWhole
  nbuf14_0 : grid14.bufCount reads14_0 true = 1
  hreads14_0 : ∀ i i' : grid14.Coords, (∀ a, reads14_0 a = true → i a = i' a) → cc14_transform_1 i = cc14_transform_1 i'
  hinb14_0 : ∀ (i : grid14.Coords) a, (cc14_transform_1 i a + 1) * S1x256.size a ≤ S1x256.size a
  hwx14_0 : ∀ i : grid14.Coords, EltTy.bits .f32 = 32 ∨ (Rect.block (s := S1x256) S1x256.size (cc14_transform_1 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_2 i = cc14_transform_2 i'
  hinb14_1 : ∀ (i : grid14.Coords) a, (cc14_transform_2 i a + 1) * S128.size a ≤ S65536.size a
  hwx14_1 : ∀ i : grid14.Coords, EltTy.bits .f32 = 32 ∨ (Rect.block (s := S65536) S128.size (cc14_transform_2 i) (hinb14_1 i)).WholeWords (EltTy.packing .f32)
  hrank15 : 0 < grid15.rank
  k15_off1_inb : ∀ i : grid15.Coords, ∀ a, (k15_off1 i) a + S1.size a ≤ S65536.size a
  hstage15_0 : ∀ j, (stage15_0 j).IsWhole
  nbuf15_0 : grid15.bufCount reads15_0 true = 1
  hreads15_0 : ∀ i i' : grid15.Coords, (∀ a, reads15_0 a = true → i a = i' a) → cc15_transform_1 i = cc15_transform_1 i'
  hinb15_0 : ∀ (i : grid15.Coords) a, (cc15_transform_1 i a + 1) * S1x256.size a ≤ S1x256.size a
  hwx15_0 : ∀ i : grid15.Coords, EltTy.bits .f32 = 32 ∨ (Rect.block (s := S1x256) S1x256.size (cc15_transform_1 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_2 i = cc15_transform_2 i'
  hinb15_1 : ∀ (i : grid15.Coords) a, (cc15_transform_2 i a + 1) * S128.size a ≤ S65536.size a
  hwx15_1 : ∀ i : grid15.Coords, EltTy.bits .f32 = 32 ∨ (Rect.block (s := S65536) S128.size (cc15_transform_2 i) (hinb15_1 i)).WholeWords (EltTy.packing .f32)

variable [Facts₀]

abbrev cc0_scratch2 : DmaSems sig S2 := SemArray.consecutive 3 S2 hcc0_scratch2
abbrev cc1_scratch2 : DmaSems sig S2 := SemArray.consecutive 8 S2 hcc1_scratch2
abbrev cc2_scratch2 : DmaSems sig S2 := SemArray.consecutive 13 S2 hcc2_scratch2
abbrev cc3_scratch2 : DmaSems sig S2 := SemArray.consecutive 18 S2 hcc3_scratch2
abbrev cc4_scratch2 : DmaSems sig S2 := SemArray.consecutive 23 S2 hcc4_scratch2
abbrev cc5_scratch2 : DmaSems sig S2 := SemArray.consecutive 28 S2 hcc5_scratch2
abbrev cc6_scratch2 : DmaSems sig S2 := SemArray.consecutive 33 S2 hcc6_scratch2
abbrev cc7_scratch2 : DmaSems sig S2 := SemArray.consecutive 38 S2 hcc7_scratch2
abbrev cc8_scratch2 : DmaSems sig S2 := SemArray.consecutive 43 S2 hcc8_scratch2
abbrev cc9_scratch2 : DmaSems sig S2 := SemArray.consecutive 48 S2 hcc9_scratch2
abbrev cc10_scratch2 : DmaSems sig S2 := SemArray.consecutive 53 S2 hcc10_scratch2
abbrev cc11_scratch2 : DmaSems sig S2 := SemArray.consecutive 58 S2 hcc11_scratch2
abbrev cc12_scratch2 : DmaSems sig S2 := SemArray.consecutive 63 S2 hcc12_scratch2
abbrev cc13_scratch2 : DmaSems sig S2 := SemArray.consecutive 68 S2 hcc13_scratch2
abbrev cc14_scratch2 : DmaSems sig S2 := SemArray.consecutive 73 S2 hcc14_scratch2
abbrev cc15_scratch2 : DmaSems sig S2 := SemArray.consecutive 78 S2 hcc15_scratch2

abbrev spec0_0 : Pipeline.WinSpec sig grid0.rank :=
  Pipeline.WinSpec.ofSpec (Memref.whole main_arg1) S1x256.size reads0_0 false true 1 stage0_0 sem0_0 nbuf0_0 hstage0_0

abbrev spec0_1 : Pipeline.WinSpec sig grid0.rank :=
  Pipeline.WinSpec.ofSpec (Memref.whole main_v8) S128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_1 | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))
abbrev spec1_0 : Pipeline.WinSpec sig grid1.rank :=
  Pipeline.WinSpec.ofSpec (Memref.whole main_arg1) S1x256.size reads1_0 false true 1 stage1_0 sem1_0 nbuf1_0 hstage1_0

abbrev spec1_1 : Pipeline.WinSpec sig grid1.rank :=
  Pipeline.WinSpec.ofSpec (Memref.whole main_v11) S128.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_1 | 1 => cc1_transform_2 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | ⟨_ + 2, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | ⟨_ + 2, h⟩ => absurd h (Nat.not_lt.2 (Nat.le_add_left _ _))
abbrev spec2_0 : Pipeline.WinSpec sig grid2.rank :=
  Pipeline.WinSpec.ofSpec (Memref.whole main_arg1) S1x256.size reads2_0 false true 1 stage2_0 sem2_0 nbuf2_0 hstage2_0

abbrev spec2_1 : Pipeline.WinSpec sig grid2.rank :=
  Pipeline.WinSpec.ofSpec (Memref.whole main_v14) S128.size reads2_1 true false 2 stage2_1 sem2_1 nbuf2_1 hstage2_1

abbrev spec2 : Fin 2 → Pipeline.WinSpec sig grid2.rank := fun | 0 => spec2_0 | 1 => spec2_1 | ⟨_ + 2, h⟩ => absurd h (Nat.not_lt.2 (Nat.le_add_left _ _))
theorem hcount2 : ∀ w, grid2.bufCount (spec2 w).reads (spec2 w).sync = (spec2 w).nbuf := fun | 0 => nbuf2_0 | 1 => nbuf2_1 | ⟨_ + 2, h⟩ => absurd h (Nat.not_lt.2 (Nat.le_add_left _ _))
abbrev ix2 (pf : pre2.Contents (Elt F)) : (w : Fin 2) → grid2.Coords → Fin (spec2 w).shape.rank → Nat := fun | 0 => cc2_transform_1 | 1 => cc2_transform_2 | ⟨_ + 2, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | ⟨_ + 2, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | ⟨_ + 2, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | ⟨_ + 2, h⟩ => absurd h (Nat.not_lt.2 (Nat.le_add_left _ _))
abbrev spec3_0 : Pipeline.WinSpec sig grid3.rank :=
  Pipeline.WinSpec.ofSpec (Memref.whole main_arg1) S1x256.size reads3_0 false true 1 stage3_0 sem3_0 nbuf3_0 hstage3_0

abbrev spec3_1 : Pipeline.WinSpec sig grid3.rank :=
  Pipeline.WinSpec.ofSpec (Memref.whole main_v17) S128.size reads3_1 true false 2 stage3_1 sem3_1 nbuf3_1 hstage3_1

abbrev spec3 : Fin 2 → Pipeline.WinSpec sig grid3.rank := fun | 0 => spec3_0 | 1 => spec3_1 | ⟨_ + 2, h⟩ => absurd h (Nat.not_lt.2 (Nat.le_add_left _ _))
theorem hcount3 : ∀ w, grid3.bufCount (spec3 w).reads (spec3 w).sync = (spec3 w).nbuf := fun | 0 => nbuf3_0 | 1 => nbuf3_1 | ⟨_ + 2, h⟩ => absurd h (Nat.not_lt.2 (Nat.le_add_left _ _))
abbrev ix3 (pf : pre3.Contents (Elt F)) : (w : Fin 2) → grid3.Coords → Fin (spec3 w).shape.rank → Nat := fun | 0 => cc3_transform_1 | 1 => cc3_transform_2 | ⟨_ + 2, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 | ⟨_ + 2, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | 1 => hinb3_1 | ⟨_ + 2, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | 1 => hwx3_1 | ⟨_ + 2, h⟩ => absurd h (Nat.not_lt.2 (Nat.le_add_left _ _))
abbrev spec4_0 : Pipeline.WinSpec sig grid4.rank :=
  Pipeline.WinSpec.ofSpec (Memref.whole main_arg1) S1x256.size reads4_0 false true 1 stage4_0 sem4_0 nbuf4_0 hstage4_0

abbrev spec4_1 : Pipeline.WinSpec sig grid4.rank :=
  Pipeline.WinSpec.ofSpec (Memref.whole main_v20) S128.size reads4_1 true false 2 stage4_1 sem4_1 nbuf4_1 hstage4_1

abbrev spec4 : Fin 2 → Pipeline.WinSpec sig grid4.rank := fun | 0 => spec4_0 | 1 => spec4_1 | ⟨_ + 2, h⟩ => absurd h (Nat.not_lt.2 (Nat.le_add_left _ _))
theorem hcount4 : ∀ w, grid4.bufCount (spec4 w).reads (spec4 w).sync = (spec4 w).nbuf := fun | 0 => nbuf4_0 | 1 => nbuf4_1 | ⟨_ + 2, h⟩ => absurd h (Nat.not_lt.2 (Nat.le_add_left _ _))
abbrev ix4 (pf : pre4.Contents (Elt F)) : (w : Fin 2) → grid4.Coords → Fin (spec4 w).shape.rank → Nat := fun | 0 => cc4_transform_1 | 1 => cc4_transform_2 | ⟨_ + 2, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | 1 => hreads4_1 | ⟨_ + 2, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | 1 => hinb4_1 | ⟨_ + 2, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | 1 => hwx4_1 | ⟨_ + 2, h⟩ => absurd h (Nat.not_lt.2 (Nat.le_add_left _ _))
abbrev spec5_0 : Pipeline.WinSpec sig grid5.rank :=
  Pipeline.WinSpec.ofSpec (Memref.whole main_arg1) S1x256.size reads5_0 false true 1 stage5_0 sem5_0 nbuf5_0 hstage5_0

abbrev spec5_1 : Pipeline.WinSpec sig grid5.rank :=
  Pipeline.WinSpec.ofSpec (Memref.whole main_v23) S128.size reads5_1 true false 2 stage5_1 sem5_1 nbuf5_1 hstage5_1

abbrev spec5 : Fin 2 → Pipeline.WinSpec sig grid5.rank := fun | 0 => spec5_0 | 1 => spec5_1 | ⟨_ + 2, h⟩ => absurd h (Nat.not_lt.2 (Nat.le_add_left _ _))
theorem hcount5 : ∀ w, grid5.bufCount (spec5 w).reads (spec5 w).sync = (spec5 w).nbuf := fun | 0 => nbuf5_0 | 1 => nbuf5_1 | ⟨_ + 2, h⟩ => absurd h (Nat.not_lt.2 (Nat.le_add_left _ _))
abbrev ix5 (pf : pre5.Contents (Elt F)) : (w : Fin 2) → grid5.Coords → Fin (spec5 w).shape.rank → Nat := fun | 0 => cc5_transform_1 | 1 => cc5_transform_2 | ⟨_ + 2, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | 1 => hreads5_1 | ⟨_ + 2, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | 1 => hinb5_1 | ⟨_ + 2, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | 1 => hwx5_1 | ⟨_ + 2, h⟩ => absurd h (Nat.not_lt.2 (Nat.le_add_left _ _))
abbrev spec6_0 : Pipeline.WinSpec sig grid6.rank :=
  Pipeline.WinSpec.ofSpec (Memref.whole main_arg1) S1x256.size reads6_0 false true 1 stage6_0 sem6_0 nbuf6_0 hstage6_0

abbrev spec6_1 : Pipeline.WinSpec sig grid6.rank :=
  Pipeline.WinSpec.ofSpec (Memref.whole main_v26) S128.size reads6_1 true false 2 stage6_1 sem6_1 nbuf6_1 hstage6_1

abbrev spec6 : Fin 2 → Pipeline.WinSpec sig grid6.rank := fun | 0 => spec6_0 | 1 => spec6_1 | ⟨_ + 2, h⟩ => absurd h (Nat.not_lt.2 (Nat.le_add_left _ _))
theorem hcount6 : ∀ w, grid6.bufCount (spec6 w).reads (spec6 w).sync = (spec6 w).nbuf := fun | 0 => nbuf6_0 | 1 => nbuf6_1 | ⟨_ + 2, h⟩ => absurd h (Nat.not_lt.2 (Nat.le_add_left _ _))
abbrev ix6 (pf : pre6.Contents (Elt F)) : (w : Fin 2) → grid6.Coords → Fin (spec6 w).shape.rank → Nat := fun | 0 => cc6_transform_1 | 1 => cc6_transform_2 | ⟨_ + 2, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 | 1 => hreads6_1 | ⟨_ + 2, h⟩ => absurd h (Nat.not_lt.2 (Nat.le_add_left _ _))
def ok6 (_ : pre6.Contents (Elt F)) : Prop :=
  True
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun _ _ => fun | 0 => hinb6_0 | 1 => hinb6_1 | ⟨_ + 2, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun _ _ => fun | 0 => hwx6_0 | 1 => hwx6_1 | ⟨_ + 2, h⟩ => absurd h (Nat.not_lt.2 (Nat.le_add_left _ _))
abbrev spec7_0 : Pipeline.WinSpec sig grid7.rank :=
  Pipeline.WinSpec.ofSpec (Memref.whole main_arg1) S1x256.size reads7_0 false true 1 stage7_0 sem7_0 nbuf7_0 hstage7_0

abbrev spec7_1 : Pipeline.WinSpec sig grid7.rank :=
  Pipeline.WinSpec.ofSpec (Memref.whole main_v29) S128.size reads7_1 true false 2 stage7_1 sem7_1 nbuf7_1 hstage7_1

abbrev spec7 : Fin 2 → Pipeline.WinSpec sig grid7.rank := fun | 0 => spec7_0 | 1 => spec7_1 | ⟨_ + 2, h⟩ => absurd h (Nat.not_lt.2 (Nat.le_add_left _ _))
theorem hcount7 : ∀ w, grid7.bufCount (spec7 w).reads (spec7 w).sync = (spec7 w).nbuf := fun | 0 => nbuf7_0 | 1 => nbuf7_1 | ⟨_ + 2, h⟩ => absurd h (Nat.not_lt.2 (Nat.le_add_left _ _))
abbrev ix7 (pf : pre7.Contents (Elt F)) : (w : Fin 2) → grid7.Coords → Fin (spec7 w).shape.rank → Nat := fun | 0 => cc7_transform_1 | 1 => cc7_transform_2 | ⟨_ + 2, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 | 1 => hreads7_1 | ⟨_ + 2, h⟩ => absurd h (Nat.not_lt.2 (Nat.le_add_left _ _))
def ok7 (_ : pre7.Contents (Elt F)) : Prop :=
  True
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun _ _ => fun | 0 => hinb7_0 | 1 => hinb7_1 | ⟨_ + 2, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun _ _ => fun | 0 => hwx7_0 | 1 => hwx7_1 | ⟨_ + 2, h⟩ => absurd h (Nat.not_lt.2 (Nat.le_add_left _ _))
abbrev spec8_0 : Pipeline.WinSpec sig grid8.rank :=
  Pipeline.WinSpec.ofSpec (Memref.whole main_arg1) S1x256.size reads8_0 false true 1 stage8_0 sem8_0 nbuf8_0 hstage8_0

abbrev spec8_1 : Pipeline.WinSpec sig grid8.rank :=
  Pipeline.WinSpec.ofSpec (Memref.whole main_v32) S128.size reads8_1 true false 2 stage8_1 sem8_1 nbuf8_1 hstage8_1

abbrev spec8 : Fin 2 → Pipeline.WinSpec sig grid8.rank := fun | 0 => spec8_0 | 1 => spec8_1 | ⟨_ + 2, h⟩ => absurd h (Nat.not_lt.2 (Nat.le_add_left _ _))
theorem hcount8 : ∀ w, grid8.bufCount (spec8 w).reads (spec8 w).sync = (spec8 w).nbuf := fun | 0 => nbuf8_0 | 1 => nbuf8_1 | ⟨_ + 2, h⟩ => absurd h (Nat.not_lt.2 (Nat.le_add_left _ _))
abbrev ix8 (pf : pre8.Contents (Elt F)) : (w : Fin 2) → grid8.Coords → Fin (spec8 w).shape.rank → Nat := fun | 0 => cc8_transform_1 | 1 => cc8_transform_2 | ⟨_ + 2, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 | 1 => hreads8_1 | ⟨_ + 2, h⟩ => absurd h (Nat.not_lt.2 (Nat.le_add_left _ _))
def ok8 (_ : pre8.Contents (Elt F)) : Prop :=
  True
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun _ _ => fun | 0 => hinb8_0 | 1 => hinb8_1 | ⟨_ + 2, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun _ _ => fun | 0 => hwx8_0 | 1 => hwx8_1 | ⟨_ + 2, h⟩ => absurd h (Nat.not_lt.2 (Nat.le_add_left _ _))
abbrev spec9_0 : Pipeline.WinSpec sig grid9.rank :=
  Pipeline.WinSpec.ofSpec (Memref.whole main_arg1) S1x256.size reads9_0 false true 1 stage9_0 sem9_0 nbuf9_0 hstage9_0

abbrev spec9_1 : Pipeline.WinSpec sig grid9.rank :=
  Pipeline.WinSpec.ofSpec (Memref.whole main_v35) S128.size reads9_1 true false 2 stage9_1 sem9_1 nbuf9_1 hstage9_1

abbrev spec9 : Fin 2 → Pipeline.WinSpec sig grid9.rank := fun | 0 => spec9_0 | 1 => spec9_1 | ⟨_ + 2, h⟩ => absurd h (Nat.not_lt.2 (Nat.le_add_left _ _))
theorem hcount9 : ∀ w, grid9.bufCount (spec9 w).reads (spec9 w).sync = (spec9 w).nbuf := fun | 0 => nbuf9_0 | 1 => nbuf9_1 | ⟨_ + 2, h⟩ => absurd h (Nat.not_lt.2 (Nat.le_add_left _ _))
abbrev ix9 (pf : pre9.Contents (Elt F)) : (w : Fin 2) → grid9.Coords → Fin (spec9 w).shape.rank → Nat := fun | 0 => cc9_transform_1 | 1 => cc9_transform_2 | ⟨_ + 2, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 | 1 => hreads9_1 | ⟨_ + 2, h⟩ => absurd h (Nat.not_lt.2 (Nat.le_add_left _ _))
def ok9 (_ : pre9.Contents (Elt F)) : Prop :=
  True
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun _ _ => fun | 0 => hinb9_0 | 1 => hinb9_1 | ⟨_ + 2, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun _ _ => fun | 0 => hwx9_0 | 1 => hwx9_1 | ⟨_ + 2, h⟩ => absurd h (Nat.not_lt.2 (Nat.le_add_left _ _))
abbrev spec10_0 : Pipeline.WinSpec sig grid10.rank :=
  Pipeline.WinSpec.ofSpec (Memref.whole main_arg1) S1x256.size reads10_0 false true 1 stage10_0 sem10_0 nbuf10_0 hstage10_0

abbrev spec10_1 : Pipeline.WinSpec sig grid10.rank :=
  Pipeline.WinSpec.ofSpec (Memref.whole main_v38) S128.size reads10_1 true false 2 stage10_1 sem10_1 nbuf10_1 hstage10_1

abbrev spec10 : Fin 2 → Pipeline.WinSpec sig grid10.rank := fun | 0 => spec10_0 | 1 => spec10_1 | ⟨_ + 2, h⟩ => absurd h (Nat.not_lt.2 (Nat.le_add_left _ _))
theorem hcount10 : ∀ w, grid10.bufCount (spec10 w).reads (spec10 w).sync = (spec10 w).nbuf := fun | 0 => nbuf10_0 | 1 => nbuf10_1 | ⟨_ + 2, h⟩ => absurd h (Nat.not_lt.2 (Nat.le_add_left _ _))
abbrev ix10 (pf : pre10.Contents (Elt F)) : (w : Fin 2) → grid10.Coords → Fin (spec10 w).shape.rank → Nat := fun | 0 => cc10_transform_1 | 1 => cc10_transform_2 | ⟨_ + 2, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 | 1 => hreads10_1 | ⟨_ + 2, h⟩ => absurd h (Nat.not_lt.2 (Nat.le_add_left _ _))
def ok10 (_ : pre10.Contents (Elt F)) : Prop :=
  True
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun _ _ => fun | 0 => hinb10_0 | 1 => hinb10_1 | ⟨_ + 2, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun _ _ => fun | 0 => hwx10_0 | 1 => hwx10_1 | ⟨_ + 2, h⟩ => absurd h (Nat.not_lt.2 (Nat.le_add_left _ _))
abbrev spec11_0 : Pipeline.WinSpec sig grid11.rank :=
  Pipeline.WinSpec.ofSpec (Memref.whole main_arg1) S1x256.size reads11_0 false true 1 stage11_0 sem11_0 nbuf11_0 hstage11_0

abbrev spec11_1 : Pipeline.WinSpec sig grid11.rank :=
  Pipeline.WinSpec.ofSpec (Memref.whole main_v41) S128.size reads11_1 true false 2 stage11_1 sem11_1 nbuf11_1 hstage11_1

abbrev spec11 : Fin 2 → Pipeline.WinSpec sig grid11.rank := fun | 0 => spec11_0 | 1 => spec11_1 | ⟨_ + 2, h⟩ => absurd h (Nat.not_lt.2 (Nat.le_add_left _ _))
theorem hcount11 : ∀ w, grid11.bufCount (spec11 w).reads (spec11 w).sync = (spec11 w).nbuf := fun | 0 => nbuf11_0 | 1 => nbuf11_1 | ⟨_ + 2, h⟩ => absurd h (Nat.not_lt.2 (Nat.le_add_left _ _))
abbrev ix11 (pf : pre11.Contents (Elt F)) : (w : Fin 2) → grid11.Coords → Fin (spec11 w).shape.rank → Nat := fun | 0 => cc11_transform_1 | 1 => cc11_transform_2 | ⟨_ + 2, h⟩ => absurd h (Nat.not_lt.2 (Nat.le_add_left _ _))
theorem hreads11 : ∀ (pf : pre11.Contents (Elt F)) w (i i' : grid11.Coords), (∀ a, (spec11 w).reads a = true → i a = i' a) → ix11 pf w i = ix11 pf w i' := fun pf => fun | 0 => hreads11_0 | 1 => hreads11_1 | ⟨_ + 2, h⟩ => absurd h (Nat.not_lt.2 (Nat.le_add_left _ _))
def ok11 (_ : pre11.Contents (Elt F)) : Prop :=
  True
instance (pf : pre11.Contents (Elt F)) : Decidable (ok11 pf) := decidable_of_iff' _ (Iff.of_eq (ok11.eq_1 pf))
theorem hinb11 : ∀ (pf : pre11.Contents (Elt F)), ok11 pf → ∀ w (i : grid11.Coords) a, (ix11 pf w i a + 1) * (spec11 w).size a ≤ (spec11 w).shape.size a :=
  fun _ _ => fun | 0 => hinb11_0 | 1 => hinb11_1 | ⟨_ + 2, h⟩ => absurd h (Nat.not_lt.2 (Nat.le_add_left _ _))
theorem hwx11 : ∀ (pf : pre11.Contents (Elt F)) (hok : ok11 pf) w (i : grid11.Coords), (spec11 w).elt.bits = 32 ∨ (Rect.block (spec11 w).size (ix11 pf w i) (hinb11 pf hok w i)).WholeWords (spec11 w).elt.packing :=
  fun _ _ => fun | 0 => hwx11_0 | 1 => hwx11_1 | ⟨_ + 2, h⟩ => absurd h (Nat.not_lt.2 (Nat.le_add_left _ _))
abbrev spec12_0 : Pipeline.WinSpec sig grid12.rank :=
  Pipeline.WinSpec.ofSpec (Memref.whole main_arg1) S1x256.size reads12_0 false true 1 stage12_0 sem12_0 nbuf12_0 hstage12_0

abbrev spec12_1 : Pipeline.WinSpec sig grid12.rank :=
  Pipeline.WinSpec.ofSpec (Memref.whole main_v44) S128.size reads12_1 true false 2 stage12_1 sem12_1 nbuf12_1 hstage12_1

abbrev spec12 : Fin 2 → Pipeline.WinSpec sig grid12.rank := fun | 0 => spec12_0 | 1 => spec12_1 | ⟨_ + 2, h⟩ => absurd h (Nat.not_lt.2 (Nat.le_add_left _ _))
theorem hcount12 : ∀ w, grid12.bufCount (spec12 w).reads (spec12 w).sync = (spec12 w).nbuf := fun | 0 => nbuf12_0 | 1 => nbuf12_1 | ⟨_ + 2, h⟩ => absurd h (Nat.not_lt.2 (Nat.le_add_left _ _))
abbrev ix12 (pf : pre12.Contents (Elt F)) : (w : Fin 2) → grid12.Coords → Fin (spec12 w).shape.rank → Nat := fun | 0 => cc12_transform_1 | 1 => cc12_transform_2 | ⟨_ + 2, h⟩ => absurd h (Nat.not_lt.2 (Nat.le_add_left _ _))
theorem hreads12 : ∀ (pf : pre12.Contents (Elt F)) w (i i' : grid12.Coords), (∀ a, (spec12 w).reads a = true → i a = i' a) → ix12 pf w i = ix12 pf w i' := fun pf => fun | 0 => hreads12_0 | 1 => hreads12_1 | ⟨_ + 2, h⟩ => absurd h (Nat.not_lt.2 (Nat.le_add_left _ _))
def ok12 (_ : pre12.Contents (Elt F)) : Prop :=
  True
instance (pf : pre12.Contents (Elt F)) : Decidable (ok12 pf) := decidable_of_iff' _ (Iff.of_eq (ok12.eq_1 pf))
theorem hinb12 : ∀ (pf : pre12.Contents (Elt F)), ok12 pf → ∀ w (i : grid12.Coords) a, (ix12 pf w i a + 1) * (spec12 w).size a ≤ (spec12 w).shape.size a :=
  fun _ _ => fun | 0 => hinb12_0 | 1 => hinb12_1 | ⟨_ + 2, h⟩ => absurd h (Nat.not_lt.2 (Nat.le_add_left _ _))
theorem hwx12 : ∀ (pf : pre12.Contents (Elt F)) (hok : ok12 pf) w (i : grid12.Coords), (spec12 w).elt.bits = 32 ∨ (Rect.block (spec12 w).size (ix12 pf w i) (hinb12 pf hok w i)).WholeWords (spec12 w).elt.packing :=
  fun _ _ => fun | 0 => hwx12_0 | 1 => hwx12_1 | ⟨_ + 2, h⟩ => absurd h (Nat.not_lt.2 (Nat.le_add_left _ _))
abbrev spec13_0 : Pipeline.WinSpec sig grid13.rank :=
  Pipeline.WinSpec.ofSpec (Memref.whole main_arg1) S1x256.size reads13_0 false true 1 stage13_0 sem13_0 nbuf13_0 hstage13_0

abbrev spec13_1 : Pipeline.WinSpec sig grid13.rank :=
  Pipeline.WinSpec.ofSpec (Memref.whole main_v47) S128.size reads13_1 true false 2 stage13_1 sem13_1 nbuf13_1 hstage13_1

abbrev spec13 : Fin 2 → Pipeline.WinSpec sig grid13.rank := fun | 0 => spec13_0 | 1 => spec13_1 | ⟨_ + 2, h⟩ => absurd h (Nat.not_lt.2 (Nat.le_add_left _ _))
theorem hcount13 : ∀ w, grid13.bufCount (spec13 w).reads (spec13 w).sync = (spec13 w).nbuf := fun | 0 => nbuf13_0 | 1 => nbuf13_1 | ⟨_ + 2, h⟩ => absurd h (Nat.not_lt.2 (Nat.le_add_left _ _))
abbrev ix13 (pf : pre13.Contents (Elt F)) : (w : Fin 2) → grid13.Coords → Fin (spec13 w).shape.rank → Nat := fun | 0 => cc13_transform_1 | 1 => cc13_transform_2 | ⟨_ + 2, h⟩ => absurd h (Nat.not_lt.2 (Nat.le_add_left _ _))
theorem hreads13 : ∀ (pf : pre13.Contents (Elt F)) w (i i' : grid13.Coords), (∀ a, (spec13 w).reads a = true → i a = i' a) → ix13 pf w i = ix13 pf w i' := fun pf => fun | 0 => hreads13_0 | 1 => hreads13_1 | ⟨_ + 2, h⟩ => absurd h (Nat.not_lt.2 (Nat.le_add_left _ _))
def ok13 (_ : pre13.Contents (Elt F)) : Prop :=
  True
instance (pf : pre13.Contents (Elt F)) : Decidable (ok13 pf) := decidable_of_iff' _ (Iff.of_eq (ok13.eq_1 pf))
theorem hinb13 : ∀ (pf : pre13.Contents (Elt F)), ok13 pf → ∀ w (i : grid13.Coords) a, (ix13 pf w i a + 1) * (spec13 w).size a ≤ (spec13 w).shape.size a :=
  fun _ _ => fun | 0 => hinb13_0 | 1 => hinb13_1 | ⟨_ + 2, h⟩ => absurd h (Nat.not_lt.2 (Nat.le_add_left _ _))
theorem hwx13 : ∀ (pf : pre13.Contents (Elt F)) (hok : ok13 pf) w (i : grid13.Coords), (spec13 w).elt.bits = 32 ∨ (Rect.block (spec13 w).size (ix13 pf w i) (hinb13 pf hok w i)).WholeWords (spec13 w).elt.packing :=
  fun _ _ => fun | 0 => hwx13_0 | 1 => hwx13_1 | ⟨_ + 2, h⟩ => absurd h (Nat.not_lt.2 (Nat.le_add_left _ _))
abbrev spec14_0 : Pipeline.WinSpec sig grid14.rank :=
  Pipeline.WinSpec.ofSpec (Memref.whole main_arg1) S1x256.size reads14_0 false true 1 stage14_0 sem14_0 nbuf14_0 hstage14_0

abbrev spec14_1 : Pipeline.WinSpec sig grid14.rank :=
  Pipeline.WinSpec.ofSpec (Memref.whole main_v50) S128.size reads14_1 true false 2 stage14_1 sem14_1 nbuf14_1 hstage14_1

abbrev spec14 : Fin 2 → Pipeline.WinSpec sig grid14.rank := fun | 0 => spec14_0 | 1 => spec14_1 | ⟨_ + 2, h⟩ => absurd h (Nat.not_lt.2 (Nat.le_add_left _ _))
theorem hcount14 : ∀ w, grid14.bufCount (spec14 w).reads (spec14 w).sync = (spec14 w).nbuf := fun | 0 => nbuf14_0 | 1 => nbuf14_1 | ⟨_ + 2, h⟩ => absurd h (Nat.not_lt.2 (Nat.le_add_left _ _))
abbrev ix14 (pf : pre14.Contents (Elt F)) : (w : Fin 2) → grid14.Coords → Fin (spec14 w).shape.rank → Nat := fun | 0 => cc14_transform_1 | 1 => cc14_transform_2 | ⟨_ + 2, h⟩ => absurd h (Nat.not_lt.2 (Nat.le_add_left _ _))
theorem hreads14 : ∀ (pf : pre14.Contents (Elt F)) w (i i' : grid14.Coords), (∀ a, (spec14 w).reads a = true → i a = i' a) → ix14 pf w i = ix14 pf w i' := fun pf => fun | 0 => hreads14_0 | 1 => hreads14_1 | ⟨_ + 2, h⟩ => absurd h (Nat.not_lt.2 (Nat.le_add_left _ _))
def ok14 (_ : pre14.Contents (Elt F)) : Prop :=
  True
instance (pf : pre14.Contents (Elt F)) : Decidable (ok14 pf) := decidable_of_iff' _ (Iff.of_eq (ok14.eq_1 pf))
theorem hinb14 : ∀ (pf : pre14.Contents (Elt F)), ok14 pf → ∀ w (i : grid14.Coords) a, (ix14 pf w i a + 1) * (spec14 w).size a ≤ (spec14 w).shape.size a :=
  fun _ _ => fun | 0 => hinb14_0 | 1 => hinb14_1 | ⟨_ + 2, h⟩ => absurd h (Nat.not_lt.2 (Nat.le_add_left _ _))
theorem hwx14 : ∀ (pf : pre14.Contents (Elt F)) (hok : ok14 pf) w (i : grid14.Coords), (spec14 w).elt.bits = 32 ∨ (Rect.block (spec14 w).size (ix14 pf w i) (hinb14 pf hok w i)).WholeWords (spec14 w).elt.packing :=
  fun _ _ => fun | 0 => hwx14_0 | 1 => hwx14_1 | ⟨_ + 2, h⟩ => absurd h (Nat.not_lt.2 (Nat.le_add_left _ _))
abbrev spec15_0 : Pipeline.WinSpec sig grid15.rank :=
  Pipeline.WinSpec.ofSpec (Memref.whole main_arg1) S1x256.size reads15_0 false true 1 stage15_0 sem15_0 nbuf15_0 hstage15_0

abbrev spec15_1 : Pipeline.WinSpec sig grid15.rank :=
  Pipeline.WinSpec.ofSpec (Memref.whole main_v53) S128.size reads15_1 true false 2 stage15_1 sem15_1 nbuf15_1 hstage15_1

abbrev spec15 : Fin 2 → Pipeline.WinSpec sig grid15.rank := fun | 0 => spec15_0 | 1 => spec15_1 | ⟨_ + 2, h⟩ => absurd h (Nat.not_lt.2 (Nat.le_add_left _ _))
theorem hcount15 : ∀ w, grid15.bufCount (spec15 w).reads (spec15 w).sync = (spec15 w).nbuf := fun | 0 => nbuf15_0 | 1 => nbuf15_1 | ⟨_ + 2, h⟩ => absurd h (Nat.not_lt.2 (Nat.le_add_left _ _))
abbrev ix15 (pf : pre15.Contents (Elt F)) : (w : Fin 2) → grid15.Coords → Fin (spec15 w).shape.rank → Nat := fun | 0 => cc15_transform_1 | 1 => cc15_transform_2 | ⟨_ + 2, h⟩ => absurd h (Nat.not_lt.2 (Nat.le_add_left _ _))
theorem hreads15 : ∀ (pf : pre15.Contents (Elt F)) w (i i' : grid15.Coords), (∀ a, (spec15 w).reads a = true → i a = i' a) → ix15 pf w i = ix15 pf w i' := fun pf => fun | 0 => hreads15_0 | 1 => hreads15_1 | ⟨_ + 2, h⟩ => absurd h (Nat.not_lt.2 (Nat.le_add_left _ _))
def ok15 (_ : pre15.Contents (Elt F)) : Prop :=
  True
instance (pf : pre15.Contents (Elt F)) : Decidable (ok15 pf) := decidable_of_iff' _ (Iff.of_eq (ok15.eq_1 pf))
theorem hinb15 : ∀ (pf : pre15.Contents (Elt F)), ok15 pf → ∀ w (i : grid15.Coords) a, (ix15 pf w i a + 1) * (spec15 w).size a ≤ (spec15 w).shape.size a :=
  fun _ _ => fun | 0 => hinb15_0 | 1 => hinb15_1 | ⟨_ + 2, h⟩ => absurd h (Nat.not_lt.2 (Nat.le_add_left _ _))
theorem hwx15 : ∀ (pf : pre15.Contents (Elt F)) (hok : ok15 pf) w (i : grid15.Coords), (spec15 w).elt.bits = 32 ∨ (Rect.block (spec15 w).size (ix15 pf w i) (hinb15 pf hok w i)).WholeWords (spec15 w).elt.packing :=
  fun _ _ => fun | 0 => hwx15_0 | 1 => hwx15_1 | ⟨_ + 2, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr10 : ∀ w, (spec10 w).arr.IsWhole
  harr11 : ∀ w, (spec11 w).arr.IsWhole
  harr12 : ∀ w, (spec12 w).arr.IsWhole
  harr13 : ∀ w, (spec13 w).arr.IsWhole
  harr14 : ∀ w, (spec14 w).arr.IsWhole
  harr15 : ∀ w, (spec15 w).arr.IsWhole

variable [Facts]
-- ==== ReferenceIdeal.lean ====
abbrev S200000x256 : Shape := ⟨2, ![200000, 256]⟩
abbrev S1x256 : Shape := ⟨2, ![1, 256]⟩
abbrev S2x1000000 : Shape := ⟨2, ![2, 1000000]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x256 : Shape := ⟨2, ![1000000, 256]⟩
abbrev S1000000x128 : Shape := ⟨2, ![1000000, 128]⟩
abbrev S256 : Shape := ⟨1, ![256]⟩
abbrev S128 : Shape := ⟨1, ![128]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S1x256, .f32⟩
  | .hbm, ⟨2, _⟩ => ⟨S2x1000000, .i32⟩
  | .hbm, ⟨3, _⟩ => ⟨S1x1000000, .i32⟩
  | .hbm, ⟨4, _⟩ => ⟨S1000000, .i32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000x1, .i32⟩
  | .hbm, ⟨13, _⟩ => ⟨S1000000x256, .f32⟩
  | .hbm, ⟨14, _⟩ => ⟨S1x1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x256, .f32⟩
  | .hbm, ⟨25, _⟩ => ⟨S1000000x128, .f32⟩
  | .hbm, ⟨26, _⟩ => ⟨S1000000x128, .f32⟩
  | .hbm, ⟨27, _⟩ => ⟨S1000000x128, .f32⟩
  | .hbm, ⟨28, _⟩ => ⟨S1000000x128, .f32⟩
  | .hbm, ⟨29, _⟩ => ⟨S256, .f32⟩
  | .hbm, ⟨30, _⟩ => ⟨S128, .f32⟩
  | .hbm, ⟨31, _⟩ => ⟨S128, .f32⟩
  | .hbm, ⟨32, _⟩ => ⟨S1x128, .f32⟩
  | .hbm, ⟨33, _⟩ => ⟨S1000000x128, .f32⟩
  | .hbm, ⟨34, _⟩ => ⟨S1000000x128, .f32⟩
  | .hbm, ⟨35, _⟩ => ⟨S1000000x128, .f32⟩
  | .hbm, ⟨36, _⟩ => ⟨S1x128, .f32⟩
  | .hbm, ⟨37, _⟩ => ⟨S1000000x128, .f32⟩
  | .hbm, ⟨38, _⟩ => ⟨S1000000x128, .f32⟩
  | .hbm, ⟨39, _⟩ => ⟨S1000000x128, .f32⟩
  | .hbm, ⟨40, _⟩ => ⟨S1000000x128, .f32⟩
  | .hbm, ⟨41, _⟩ => ⟨S1x128, .f32⟩
  | .hbm, ⟨42, _⟩ => ⟨S1000000x128, .f32⟩
  | .hbm, ⟨43, _⟩ => ⟨S1000000x128, .f32⟩
  | .hbm, ⟨44, _⟩ => ⟨S1000000x128, .f32⟩
  | .hbm, ⟨45, _⟩ => ⟨S1000000x128, .f32⟩
  | .hbm, ⟨46, _⟩ => ⟨S1x128, .f32⟩
  | .hbm, ⟨47, _⟩ => ⟨S1000000x128, .f32⟩
  | .hbm, ⟨48, _⟩ => ⟨S1000000x128, .f32⟩
  | .hbm, ⟨49, _⟩ => ⟨S1000000x128, .f32⟩
  | .hbm, ⟨50, _⟩ => ⟨S1000000x128, .f32⟩
  | .hbm, ⟨51, _⟩ => ⟨S_, .f32⟩
  | .hbm, ⟨52, _⟩ => ⟨S1000000, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst : Ref sig .tc := ⟨.hbm, 51, rfl⟩
abbrev main_v44 : Ref sig .tc := ⟨.hbm, 52, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  slices_S1000000x256_S1000000x128_0_0 : S1000000x256.Slices ![0, 0] S1000000x128
  slices_S1000000x256_S1000000x128_0_128 : S1000000x256.Slices ![0, 128] S1000000x128
  shapeCasts_S1x256_S256 : S1x256.ShapeCasts S256
  slices_S256_S128_0 : S256.Slices ![0] S128
  slices_S256_S128_128 : S256.Slices ![128] S128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  reducesTo_S1000000x128_S1000000_d1 : S1000000x128.ReducesTo [1] S1000000
  h_S_ : 0 < S_.numel
  gather_S200000x256_S1000000x1_S1000000x256_1_0_n_n_0_1_1256_wf : GatherDims.WF S200000x256 S1000000x1 S1000000x256 [1] [0] [] [0] [] 1 ![1, 256]

variable [Facts₀]

def gather_S200000x256_S1000000x1_S1000000x256_1_0_n_n_0_1_1256 : GatherDims S200000x256 S1000000x1 S1000000x256 where
  offsetDims := [1]
  collapsedSliceDims := [0]
  operandBatchingDims := []
  startIndicesBatchingDims := []
  startIndexMap := [0]
  indexVectorDim := 1
  sliceSizes := ![1, 256]
  wf := gather_S200000x256_S1000000x1_S1000000x256_1_0_n_n_0_1_1256_wf

class Facts : Prop extends Facts₀ where

variable [Facts]
-- ==== Proof.Spec.lean ====
/-
  The specification both programs are compared with, over the extended reals.

  An edge `e` names a head row and a tail row of the node table. With a row of the table split into its
  real half (columns 0..127) and its imaginary half (columns 128..255), and the relation row split the same way,
  the score of the edge is the sum over the 128 features of
      hr * rr * tr + hi * rr * ti + hr * ri * ti - hi * ri * tr,
  grouped exactly as both programs group it: each product from the left, the three sums from the left,
  the difference last. The sum over the features starts from zero, as both programs' reductions do.
-/
import Idealize.ShloMosaic.PureOps.Ideal
import Idealize.ShloMosaic.Lib.ValueIdx

noncomputable section

open scoped BigOperators

namespace Cert.Proof.Spec

open Idealize.ShloMosaic Idealize.ShloMosaic.ValueIdx

/-- The node table, the relation row, the index pairs and the result, as literal shapes. -/
abbrev SNode : Shape := ⟨2, ![200000, 256]⟩
abbrev SRel : Shape := ⟨2, ![1, 256]⟩
abbrev SIdx : Shape := ⟨2, ![2, 1000000]⟩
abbrev SOut : Shape := ⟨1, ![1000000]⟩

/-- Column `k` of a row's real half, and of its imaginary half. -/
abbrev reCol (k : Fin 128) : Fin 256 := ⟨k.val, by omega⟩
abbrev imCol (k : Fin 128) : Fin 256 := ⟨128 + k.val, by omega⟩

/-- The table row an index word names: the word read as a natural number, kept inside the table. For a word in
    range (`w.toNat < 200000`) this is the word itself. -/
def rowOf (w : BitVec 32) : Fin 200000 := ⟨min w.toNat 199999, by omega⟩

theorem rowOf_val_of_lt (w : BitVec 32) (h : w.toNat < 200000) : (rowOf w).val = w.toNat := by
  show min w.toNat 199999 = w.toNat; omega

/-- Feature `k`'s term of the score of head row `h` and tail row `t`. -/
def term (node : SNode.Idx → EReal) (rel : SRel.Idx → EReal) (h t : Fin 200000) (k : Fin 128) : EReal :=
  ((node (ix2 h (reCol k)) * rel (ix2 (0 : Fin 1) (reCol k)) * node (ix2 t (reCol k))
      + node (ix2 h (imCol k)) * rel (ix2 (0 : Fin 1) (reCol k)) * node (ix2 t (imCol k)))
      + node (ix2 h (reCol k)) * rel (ix2 (0 : Fin 1) (imCol k)) * node (ix2 t (imCol k)))
    - node (ix2 h (imCol k)) * rel (ix2 (0 : Fin 1) (imCol k)) * node (ix2 t (reCol k))

/-- The score of head row `h` and tail row `t`: zero plus the sum of the 128 terms. -/
def score (node : SNode.Idx → EReal) (rel : SRel.Idx → EReal) (h t : Fin 200000) : EReal :=
  0 + ∑ k : Fin 128, term node rel h t k

/-- The whole result: entry `e` is the score of the rows the two index words of edge `e` name. -/
def G (node : SNode.Idx → EReal) (rel : SRel.Idx → EReal) (idx : SIdx.Idx → BitVec 32) : SOut.Idx → EReal :=
  fun e => score node rel (rowOf (idx (ix2 (0 : Fin 2) (e 0)))) (rowOf (idx (ix2 (1 : Fin 2) (e 0))))

end Cert.Proof.Spec

end
-- ==== Proof.KI0Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.KernelIdeal
import proofs.«414028_j29231547417249_2_alg».proof.Proof.Gen.KernelIdeal.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KI0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 3) 0 ∗ semVal ((c : Thread nD τ), SemLoc.dma 4) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid0.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid0.Coords) : Rect S65536 := Rect.unit (s := S65536) (k0_off1 i) S1.size (k0_off1_inb i)

/-- the table word the body reads at point i: the table's contents at the index the one-word load names -/
def tword (T : IVec S65536 32) (i : grid0.Coords) : BitVec 32 :=
  T ((rT i).toLoadRect.idx (Shape.Idx.first (numel1_S1.symm ▸ Nat.one_pos)))

theorem flat_lt (i : grid0.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k0_off1_val (i : grid0.Coords) : k0_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid0.Coords) :
    tword T i = T (ValueIdx.ix1 ⟨(i 0).val * 128 + (i 1).val, flat_lt i⟩) := by
  unfold tword
  congr 1
  funext d
  match d with
  | ⟨0, _⟩ => exact Fin.ext (by show k0_off1 i 0 + 1 * 0 = (i 0).val * 128 + (i 1).val; have := k0_off1_val i; omega)

/-- the words the two one-word loads return are the table words -/
theorem tword_v6 (c : Dev nD) (hT : Bf (F := F) c (Memref.whole main_v6)) (i : grid0.Coords) (h) :
    View.readAt (Elt F) (Memref.whole main_v6).view (rT i).toLoadRect hT (Shape.Idx.first h) = tword hT i := rfl
theorem tword_v7 (c : Dev nD) (tT : Bf (F := F) c (Memref.whole main_v7)) (i : grid0.Coords) (h) :
    View.readAt (Elt F) (Memref.whole main_v7).view (rT i).toLoadRect tT (Shape.Idx.first h) = tword tT i := rfl

/-- a word below the table's height names a row inside the table: the two conditions the body assumes -/
theorem chk1_of_lt (w : BitVec 32) (h : w.toNat < 200000) : k0_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k0_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k0_pay2 j (k0_pay6 hrow trow rel) (k0_pay7 hrow trow rel) (k0_pay1 (F := F))
/-- after a later step: the point's contribution added to the block's contents -/
def stepv (hrow trow rel : Vec F S1x256 .f32) (j : BitVec 32) (acc : Vec F S128 .f32) : Vec F S128 .f32 :=
  k0_pay2 j (k0_pay6 hrow trow rel) (k0_pay7 hrow trow rel) acc

theorem firstv_apply (hrow trow rel : Vec F S1x256 .f32) (j : BitVec 32) (y : S128.Idx) :
    firstv hrow trow rel j y = k0_pay2 j (k0_pay6 hrow trow rel) (k0_pay7 hrow trow rel) (k0_pay1 (F := F)) y := rfl
theorem stepv_apply (hrow trow rel : Vec F S1x256 .f32) (j : BitVec 32) (acc : Vec F S128 .f32) (y : S128.Idx) :
    stepv hrow trow rel j acc y = k0_pay2 j (k0_pay6 hrow trow rel) (k0_pay7 hrow trow rel) acc y := rfl

end Cert.Proof.KI0

end
-- ==== Proof.KIAdm.lean ====
/-
  The contents of the prefetched tables, region by region. Before any region runs, the host operations cut the two rows
  of the index array out, pad each with zeros to 1048576 entries, and hand region K entries 65536·K … 65536·(K+1) − 1
  of each padded row as its two tables. No region writes a table or the padded rows, so each table is a function of the
  launch memory alone. The index maps of the windows read no table: every contents is admissible.
-/
import proofs.«414028_j29231547417249_2_alg».proof.Proof.KernelIdealRegions

noncomputable section

namespace Cert.Proof.KI

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ)

/-- The two tables region 0 reads: chunk 0 of the padded head list and of the padded tail list, as the slices before the
    region leave them. -/
def tv0 : Valuation τ sig (Elt F) := V5 m (0 : Dev nD)
def tbl0 : pre0.Contents (Elt F) := fun j => tv0 m (pre0.ref j)
/-- The two tables region 1 reads: chunk 1 of the padded head list and of the padded tail list, as the slices before the
    region leave them. -/
def tv1 : Valuation τ sig (Elt F) := StableHlo.after (hostOps1 (F := F)) (V5 m (0 : Dev nD))
def tbl1 : pre1.Contents (Elt F) := fun j => tv1 m (pre1.ref j)
/-- The two tables region 2 reads: chunk 2 of the padded head list and of the padded tail list, as the slices before the
    region leave them. -/
def tv2 : Valuation τ sig (Elt F) := StableHlo.after (hostOps2 (F := F)) (V5 m (0 : Dev nD))
def tbl2 : pre2.Contents (Elt F) := fun j => tv2 m (pre2.ref j)
/-- The two tables region 3 reads: chunk 3 of the padded head list and of the padded tail list, as the slices before the
    region leave them. -/
def tv3 : Valuation τ sig (Elt F) := StableHlo.after (hostOps3 (F := F)) (V5 m (0 : Dev nD))
def tbl3 : pre3.Contents (Elt F) := fun j => tv3 m (pre3.ref j)
/-- The two tables region 4 reads: chunk 4 of the padded head list and of the padded tail list, as the slices before the
    region leave them. -/
def tv4 : Valuation τ sig (Elt F) := StableHlo.after (hostOps4 (F := F)) (V5 m (0 : Dev nD))
def tbl4 : pre4.Contents (Elt F) := fun j => tv4 m (pre4.ref j)
/-- The two tables region 5 reads: chunk 5 of the padded head list and of the padded tail list, as the slices before the
    region leave them. -/
def tv5 : Valuation τ sig (Elt F) := StableHlo.after (hostOps5 (F := F)) (V5 m (0 : Dev nD))
def tbl5 : pre5.Contents (Elt F) := fun j => tv5 m (pre5.ref j)
/-- The two tables region 6 reads: chunk 6 of the padded head list and of the padded tail list, as the slices before the
    region leave them. -/
def tv6 : Valuation τ sig (Elt F) := StableHlo.after (hostOps6 (F := F)) (V5 m (0 : Dev nD))
def tbl6 : pre6.Contents (Elt F) := fun j => tv6 m (pre6.ref j)
/-- The two tables region 7 reads: chunk 7 of the padded head list and of the padded tail list, as the slices before the
    region leave them. -/
def tv7 : Valuation τ sig (Elt F) := StableHlo.after (hostOps7 (F := F)) (V5 m (0 : Dev nD))
def tbl7 : pre7.Contents (Elt F) := fun j => tv7 m (pre7.ref j)
/-- The two tables region 8 reads: chunk 8 of the padded head list and of the padded tail list, as the slices before the
    region leave them. -/
def tv8 : Valuation τ sig (Elt F) := StableHlo.after (hostOps8 (F := F)) (V5 m (0 : Dev nD))
def tbl8 : pre8.Contents (Elt F) := fun j => tv8 m (pre8.ref j)
/-- The two tables region 9 reads: chunk 9 of the padded head list and of the padded tail list, as the slices before the
    region leave them. -/
def tv9 : Valuation τ sig (Elt F) := StableHlo.after (hostOps9 (F := F)) (V5 m (0 : Dev nD))
def tbl9 : pre9.Contents (Elt F) := fun j => tv9 m (pre9.ref j)
/-- The two tables region 10 reads: chunk 10 of the padded head list and of the padded tail list, as the slices before the
    region leave them. -/
def tv10 : Valuation τ sig (Elt F) := StableHlo.after (hostOps10 (F := F)) (V5 m (0 : Dev nD))
def tbl10 : pre10.Contents (Elt F) := fun j => tv10 m (pre10.ref j)
/-- The two tables region 11 reads: chunk 11 of the padded head list and of the padded tail list, as the slices before the
    region leave them. -/
def tv11 : Valuation τ sig (Elt F) := StableHlo.after (hostOps11 (F := F)) (V5 m (0 : Dev nD))
def tbl11 : pre11.Contents (Elt F) := fun j => tv11 m (pre11.ref j)
/-- The two tables region 12 reads: chunk 12 of the padded head list and of the padded tail list, as the slices before the
    region leave them. -/
def tv12 : Valuation τ sig (Elt F) := StableHlo.after (hostOps12 (F := F)) (V5 m (0 : Dev nD))
def tbl12 : pre12.Contents (Elt F) := fun j => tv12 m (pre12.ref j)
/-- The two tables region 13 reads: chunk 13 of the padded head list and of the padded tail list, as the slices before the
    region leave them. -/
def tv13 : Valuation τ sig (Elt F) := StableHlo.after (hostOps13 (F := F)) (V5 m (0 : Dev nD))
def tbl13 : pre13.Contents (Elt F) := fun j => tv13 m (pre13.ref j)
/-- The two tables region 14 reads: chunk 14 of the padded head list and of the padded tail list, as the slices before the
    region leave them. -/
def tv14 : Valuation τ sig (Elt F) := StableHlo.after (hostOps14 (F := F)) (V5 m (0 : Dev nD))
def tbl14 : pre14.Contents (Elt F) := fun j => tv14 m (pre14.ref j)
/-- The two tables region 15 reads: chunk 15 of the padded head list and of the padded tail list, as the slices before the
    region leave them. -/
def tv15 : Valuation τ sig (Elt F) := StableHlo.after (hostOps15 (F := F)) (V5 m (0 : Dev nD))
def tbl15 : pre15.Contents (Elt F) := fun j => tv15 m (pre15.ref j)

/-- Every region's tables at those contents. -/
def adm : (p : Fin 16) → (pcfgs (F := F) p).Adm
  | ⟨0, _⟩ => ⟨tbl0 m, trivial⟩
  | ⟨1, _⟩ => ⟨tbl1 m, trivial⟩
  | ⟨2, _⟩ => ⟨tbl2 m, trivial⟩
  | ⟨3, _⟩ => ⟨tbl3 m, trivial⟩
  | ⟨4, _⟩ => ⟨tbl4 m, trivial⟩
  | ⟨5, _⟩ => ⟨tbl5 m, trivial⟩
  | ⟨6, _⟩ => ⟨tbl6 m, trivial⟩
  | ⟨7, _⟩ => ⟨tbl7 m, trivial⟩
  | ⟨8, _⟩ => ⟨tbl8 m, trivial⟩
  | ⟨9, _⟩ => ⟨tbl9 m, trivial⟩
  | ⟨10, _⟩ => ⟨tbl10 m, trivial⟩
  | ⟨11, _⟩ => ⟨tbl11 m, trivial⟩
  | ⟨12, _⟩ => ⟨tbl12 m, trivial⟩
  | ⟨13, _⟩ => ⟨tbl13 m, trivial⟩
  | ⟨14, _⟩ => ⟨tbl14 m, trivial⟩
  | ⟨15, _⟩ => ⟨tbl15 m, trivial⟩
  | ⟨_ + 16, h⟩ => absurd h (Nat.not_lt.2 (Nat.le_add_left _ _))

end Cert.Proof.KI

end
-- ==== Proof.KI0Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KI0Defs
import proofs.«414028_j29231547417249_2_alg».proof.Proof.KIAdm
import Idealize.ShloMosaic.Lib.Pipeline.Dat
import Idealize.ShloMosaic.Lib.Pipeline.Kit

noncomputable section

namespace Cert.Proof.KI0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg0 (F := F)).Adm := Cert.Proof.KI.adm m (0 : Fin 16)
abbrev cfgA : Pipeline.Cfg sig Λ₀ := cfg0 (adm0 m)
abbrev hTab : IVec S65536 32 := Cert.Proof.KI.tbl0 m 0
abbrev tTab : IVec S65536 32 := Cert.Proof.KI.tbl0 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v6) (hTab m) ∗ pt c (Memref.whole main_v7) (tTab m) ∗ nodeSh c (nodeA m c)
    ∗ ((Memref.whole main_arg0).view.loc (c : Thread nD τ) ↦[Finset.univ]{Transfers.shareDrop fullShare 2} nodeA m c)
    ∗ (∃ s0, pt c (Memref.whole cc0_scratch0) s0) ∗ (∃ s1, pt c (Memref.whole cc0_scratch1) s1) ∗ sems0 c
    ∗ Pipeline.scopedRestBut (Ix := Unit) (Name := ℕ) (U := UC) (Lvl := ℕ) (Val := Elt F) spec0 c [cc0_scratch0, cc0_scratch1])

/-- Region 0's proof data on core `c`. -/
def dat0 (c : Dev nD) : Dat τ (Elt F) Unit ℕ UC ℕ (cfgA m) c where
  A w := m ((c : Thread nD τ).loc (Pipeline.arrRef spec0 w))
  after w t := match w with
    | ⟨0, _⟩ => relA m c
    | ⟨1, _⟩ => accA m c t.val t.isLt
  Φ _ := Φv m c
  q _ := fullShare
  owed _ := 0

end Cert.Proof.KI0

end
-- ==== Proof.KI1Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.KernelIdeal
import proofs.«414028_j29231547417249_2_alg».proof.Proof.Gen.KernelIdeal.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KI1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 8) 0 ∗ semVal ((c : Thread nD τ), SemLoc.dma 9) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid1.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid1.Coords) : Rect S65536 := Rect.unit (s := S65536) (k1_off1 i) S1.size (k1_off1_inb i)

/-- the table word the body reads at point i: the table's contents at the index the one-word load names -/
def tword (T : IVec S65536 32) (i : grid1.Coords) : BitVec 32 :=
  T ((rT i).toLoadRect.idx (Shape.Idx.first (numel1_S1.symm ▸ Nat.one_pos)))

theorem flat_lt (i : grid1.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k1_off1_val (i : grid1.Coords) : k1_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid1.Coords) :
    tword T i = T (ValueIdx.ix1 ⟨(i 0).val * 128 + (i 1).val, flat_lt i⟩) := by
  unfold tword
  congr 1
  funext d
  match d with
  | ⟨0, _⟩ => exact Fin.ext (by show k1_off1 i 0 + 1 * 0 = (i 0).val * 128 + (i 1).val; have := k1_off1_val i; omega)

/-- the words the two one-word loads return are the table words -/
theorem tword_v6 (c : Dev nD) (hT : Bf (F := F) c (Memref.whole main_v9)) (i : grid1.Coords) (h) :
    View.readAt (Elt F) (Memref.whole main_v9).view (rT i).toLoadRect hT (Shape.Idx.first h) = tword hT i := rfl
theorem tword_v7 (c : Dev nD) (tT : Bf (F := F) c (Memref.whole main_v10)) (i : grid1.Coords) (h) :
    View.readAt (Elt F) (Memref.whole main_v10).view (rT i).toLoadRect tT (Shape.Idx.first h) = tword tT i := rfl

/-- a word below the table's height names a row inside the table: the two conditions the body assumes -/
theorem chk1_of_lt (w : BitVec 32) (h : w.toNat < 200000) : k1_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k1_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k1_pay2 j (k1_pay6 hrow trow rel) (k1_pay7 hrow trow rel) (k1_pay1 (F := F))
/-- after a later step: the point's contribution added to the block's contents -/
def stepv (hrow trow rel : Vec F S1x256 .f32) (j : BitVec 32) (acc : Vec F S128 .f32) : Vec F S128 .f32 :=
  k1_pay2 j (k1_pay6 hrow trow rel) (k1_pay7 hrow trow rel) acc

theorem firstv_apply (hrow trow rel : Vec F S1x256 .f32) (j : BitVec 32) (y : S128.Idx) :
    firstv hrow trow rel j y = k1_pay2 j (k1_pay6 hrow trow rel) (k1_pay7 hrow trow rel) (k1_pay1 (F := F)) y := rfl
theorem stepv_apply (hrow trow rel : Vec F S1x256 .f32) (j : BitVec 32) (acc : Vec F S128 .f32) (y : S128.Idx) :
    stepv hrow trow rel j acc y = k1_pay2 j (k1_pay6 hrow trow rel) (k1_pay7 hrow trow rel) acc y := rfl

end Cert.Proof.KI1

end
-- ==== Proof.KI1Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KI1Defs
import proofs.«414028_j29231547417249_2_alg».proof.Proof.KIAdm
import Idealize.ShloMosaic.Lib.Pipeline.Dat
import Idealize.ShloMosaic.Lib.Pipeline.Kit

noncomputable section

namespace Cert.Proof.KI1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg1 (F := F)).Adm := Cert.Proof.KI.adm m (1 : Fin 16)
abbrev cfgA : Pipeline.Cfg sig Λ₀ := cfg1 (adm0 m)
abbrev hTab : IVec S65536 32 := Cert.Proof.KI.tbl1 m 0
abbrev tTab : IVec S65536 32 := Cert.Proof.KI.tbl1 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v9) (hTab m) ∗ pt c (Memref.whole main_v10) (tTab m) ∗ nodeSh c (nodeA m c)
    ∗ ((Memref.whole main_arg0).view.loc (c : Thread nD τ) ↦[Finset.univ]{Transfers.shareDrop fullShare 2} nodeA m c)
    ∗ (∃ s0, pt c (Memref.whole cc1_scratch0) s0) ∗ (∃ s1, pt c (Memref.whole cc1_scratch1) s1) ∗ sems0 c
    ∗ Pipeline.scopedRestBut (Ix := Unit) (Name := ℕ) (U := UC) (Lvl := ℕ) (Val := Elt F) spec1 c [cc1_scratch0, cc1_scratch1])

/-- Region 0's proof data on core `c`. -/
def dat0 (c : Dev nD) : Dat τ (Elt F) Unit ℕ UC ℕ (cfgA m) c where
  A w := m ((c : Thread nD τ).loc (Pipeline.arrRef spec1 w))
  after w t := match w with
    | ⟨0, _⟩ => relA m c
    | ⟨1, _⟩ => accA m c t.val t.isLt
  Φ _ := Φv m c
  q _ := fullShare
  owed _ := 0

end Cert.Proof.KI1

end
-- ==== Proof.KI2Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.KernelIdeal
import proofs.«414028_j29231547417249_2_alg».proof.Proof.Gen.KernelIdeal.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KI2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 13) 0 ∗ semVal ((c : Thread nD τ), SemLoc.dma 14) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid2.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid2.Coords) : Rect S65536 := Rect.unit (s := S65536) (k2_off1 i) S1.size (k2_off1_inb i)

/-- the table word the body reads at point i: the table's contents at the index the one-word load names -/
def tword (T : IVec S65536 32) (i : grid2.Coords) : BitVec 32 :=
  T ((rT i).toLoadRect.idx (Shape.Idx.first (numel1_S1.symm ▸ Nat.one_pos)))

theorem flat_lt (i : grid2.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k2_off1_val (i : grid2.Coords) : k2_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid2.Coords) :
    tword T i = T (ValueIdx.ix1 ⟨(i 0).val * 128 + (i 1).val, flat_lt i⟩) := by
  unfold tword
  congr 1
  funext d
  match d with
  | ⟨0, _⟩ => exact Fin.ext (by show k2_off1 i 0 + 1 * 0 = (i 0).val * 128 + (i 1).val; have := k2_off1_val i; omega)

/-- the words the two one-word loads return are the table words -/
theorem tword_v6 (c : Dev nD) (hT : Bf (F := F) c (Memref.whole main_v12)) (i : grid2.Coords) (h) :
    View.readAt (Elt F) (Memref.whole main_v12).view (rT i).toLoadRect hT (Shape.Idx.first h) = tword hT i := rfl
theorem tword_v7 (c : Dev nD) (tT : Bf (F := F) c (Memref.whole main_v13)) (i : grid2.Coords) (h) :
    View.readAt (Elt F) (Memref.whole main_v13).view (rT i).toLoadRect tT (Shape.Idx.first h) = tword tT i := rfl

/-- a word below the table's height names a row inside the table: the two conditions the body assumes -/
theorem chk1_of_lt (w : BitVec 32) (h : w.toNat < 200000) : k2_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k2_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k2_pay2 j (k2_pay6 hrow trow rel) (k2_pay7 hrow trow rel) (k2_pay1 (F := F))
/-- after a later step: the point's contribution added to the block's contents -/
def stepv (hrow trow rel : Vec F S1x256 .f32) (j : BitVec 32) (acc : Vec F S128 .f32) : Vec F S128 .f32 :=
  k2_pay2 j (k2_pay6 hrow trow rel) (k2_pay7 hrow trow rel) acc

theorem firstv_apply (hrow trow rel : Vec F S1x256 .f32) (j : BitVec 32) (y : S128.Idx) :
    firstv hrow trow rel j y = k2_pay2 j (k2_pay6 hrow trow rel) (k2_pay7 hrow trow rel) (k2_pay1 (F := F)) y := rfl
theorem stepv_apply (hrow trow rel : Vec F S1x256 .f32) (j : BitVec 32) (acc : Vec F S128 .f32) (y : S128.Idx) :
    stepv hrow trow rel j acc y = k2_pay2 j (k2_pay6 hrow trow rel) (k2_pay7 hrow trow rel) acc y := rfl

end Cert.Proof.KI2

end
-- ==== Proof.KI2Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KI2Defs
import proofs.«414028_j29231547417249_2_alg».proof.Proof.KIAdm
import Idealize.ShloMosaic.Lib.Pipeline.Dat
import Idealize.ShloMosaic.Lib.Pipeline.Kit

noncomputable section

namespace Cert.Proof.KI2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg2 (F := F)).Adm := Cert.Proof.KI.adm m (2 : Fin 16)
abbrev cfgA : Pipeline.Cfg sig Λ₀ := cfg2 (adm0 m)
abbrev hTab : IVec S65536 32 := Cert.Proof.KI.tbl2 m 0
abbrev tTab : IVec S65536 32 := Cert.Proof.KI.tbl2 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v12) (hTab m) ∗ pt c (Memref.whole main_v13) (tTab m) ∗ nodeSh c (nodeA m c)
    ∗ ((Memref.whole main_arg0).view.loc (c : Thread nD τ) ↦[Finset.univ]{Transfers.shareDrop fullShare 2} nodeA m c)
    ∗ (∃ s0, pt c (Memref.whole cc2_scratch0) s0) ∗ (∃ s1, pt c (Memref.whole cc2_scratch1) s1) ∗ sems0 c
    ∗ Pipeline.scopedRestBut (Ix := Unit) (Name := ℕ) (U := UC) (Lvl := ℕ) (Val := Elt F) spec2 c [cc2_scratch0, cc2_scratch1])

/-- Region 0's proof data on core `c`. -/
def dat0 (c : Dev nD) : Dat τ (Elt F) Unit ℕ UC ℕ (cfgA m) c where
  A w := m ((c : Thread nD τ).loc (Pipeline.arrRef spec2 w))
  after w t := match w with
    | ⟨0, _⟩ => relA m c
    | ⟨1, _⟩ => accA m c t.val t.isLt
  Φ _ := Φv m c
  q _ := fullShare
  owed _ := 0

end Cert.Proof.KI2

end
-- ==== Proof.KI3Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.KernelIdeal
import proofs.«414028_j29231547417249_2_alg».proof.Proof.Gen.KernelIdeal.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KI3

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 18) 0 ∗ semVal ((c : Thread nD τ), SemLoc.dma 19) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid3.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid3.Coords) : Rect S65536 := Rect.unit (s := S65536) (k3_off1 i) S1.size (k3_off1_inb i)

/-- the table word the body reads at point i: the table's contents at the index the one-word load names -/
def tword (T : IVec S65536 32) (i : grid3.Coords) : BitVec 32 :=
  T ((rT i).toLoadRect.idx (Shape.Idx.first (numel1_S1.symm ▸ Nat.one_pos)))

theorem flat_lt (i : grid3.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k3_off1_val (i : grid3.Coords) : k3_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid3.Coords) :
    tword T i = T (ValueIdx.ix1 ⟨(i 0).val * 128 + (i 1).val, flat_lt i⟩) := by
  unfold tword
  congr 1
  funext d
  match d with
  | ⟨0, _⟩ => exact Fin.ext (by show k3_off1 i 0 + 1 * 0 = (i 0).val * 128 + (i 1).val; have := k3_off1_val i; omega)

/-- the words the two one-word loads return are the table words -/
theorem tword_v6 (c : Dev nD) (hT : Bf (F := F) c (Memref.whole main_v15)) (i : grid3.Coords) (h) :
    View.readAt (Elt F) (Memref.whole main_v15).view (rT i).toLoadRect hT (Shape.Idx.first h) = tword hT i := rfl
theorem tword_v7 (c : Dev nD) (tT : Bf (F := F) c (Memref.whole main_v16)) (i : grid3.Coords) (h) :
    View.readAt (Elt F) (Memref.whole main_v16).view (rT i).toLoadRect tT (Shape.Idx.first h) = tword tT i := rfl

/-- a word below the table's height names a row inside the table: the two conditions the body assumes -/
theorem chk1_of_lt (w : BitVec 32) (h : w.toNat < 200000) : k3_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k3_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k3_pay2 j (k3_pay6 hrow trow rel) (k3_pay7 hrow trow rel) (k3_pay1 (F := F))
/-- after a later step: the point's contribution added to the block's contents -/
def stepv (hrow trow rel : Vec F S1x256 .f32) (j : BitVec 32) (acc : Vec F S128 .f32) : Vec F S128 .f32 :=
  k3_pay2 j (k3_pay6 hrow trow rel) (k3_pay7 hrow trow rel) acc

theorem firstv_apply (hrow trow rel : Vec F S1x256 .f32) (j : BitVec 32) (y : S128.Idx) :
    firstv hrow trow rel j y = k3_pay2 j (k3_pay6 hrow trow rel) (k3_pay7 hrow trow rel) (k3_pay1 (F := F)) y := rfl
theorem stepv_apply (hrow trow rel : Vec F S1x256 .f32) (j : BitVec 32) (acc : Vec F S128 .f32) (y : S128.Idx) :
    stepv hrow trow rel j acc y = k3_pay2 j (k3_pay6 hrow trow rel) (k3_pay7 hrow trow rel) acc y := rfl

end Cert.Proof.KI3

end
-- ==== Proof.KI3Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KI3Defs
import proofs.«414028_j29231547417249_2_alg».proof.Proof.KIAdm
import Idealize.ShloMosaic.Lib.Pipeline.Dat
import Idealize.ShloMosaic.Lib.Pipeline.Kit

noncomputable section

namespace Cert.Proof.KI3

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg3 (F := F)).Adm := Cert.Proof.KI.adm m (3 : Fin 16)
abbrev cfgA : Pipeline.Cfg sig Λ₀ := cfg3 (adm0 m)
abbrev hTab : IVec S65536 32 := Cert.Proof.KI.tbl3 m 0
abbrev tTab : IVec S65536 32 := Cert.Proof.KI.tbl3 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v15) (hTab m) ∗ pt c (Memref.whole main_v16) (tTab m) ∗ nodeSh c (nodeA m c)
    ∗ ((Memref.whole main_arg0).view.loc (c : Thread nD τ) ↦[Finset.univ]{Transfers.shareDrop fullShare 2} nodeA m c)
    ∗ (∃ s0, pt c (Memref.whole cc3_scratch0) s0) ∗ (∃ s1, pt c (Memref.whole cc3_scratch1) s1) ∗ sems0 c
    ∗ Pipeline.scopedRestBut (Ix := Unit) (Name := ℕ) (U := UC) (Lvl := ℕ) (Val := Elt F) spec3 c [cc3_scratch0, cc3_scratch1])

/-- Region 0's proof data on core `c`. -/
def dat0 (c : Dev nD) : Dat τ (Elt F) Unit ℕ UC ℕ (cfgA m) c where
  A w := m ((c : Thread nD τ).loc (Pipeline.arrRef spec3 w))
  after w t := match w with
    | ⟨0, _⟩ => relA m c
    | ⟨1, _⟩ => accA m c t.val t.isLt
  Φ _ := Φv m c
  q _ := fullShare
  owed _ := 0

end Cert.Proof.KI3

end
-- ==== Proof.KI4Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.KernelIdeal
import proofs.«414028_j29231547417249_2_alg».proof.Proof.Gen.KernelIdeal.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KI4

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 23) 0 ∗ semVal ((c : Thread nD τ), SemLoc.dma 24) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid4.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid4.Coords) : Rect S65536 := Rect.unit (s := S65536) (k4_off1 i) S1.size (k4_off1_inb i)

/-- the table word the body reads at point i: the table's contents at the index the one-word load names -/
def tword (T : IVec S65536 32) (i : grid4.Coords) : BitVec 32 :=
  T ((rT i).toLoadRect.idx (Shape.Idx.first (numel1_S1.symm ▸ Nat.one_pos)))

theorem flat_lt (i : grid4.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k4_off1_val (i : grid4.Coords) : k4_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid4.Coords) :
    tword T i = T (ValueIdx.ix1 ⟨(i 0).val * 128 + (i 1).val, flat_lt i⟩) := by
  unfold tword
  congr 1
  funext d
  match d with
  | ⟨0, _⟩ => exact Fin.ext (by show k4_off1 i 0 + 1 * 0 = (i 0).val * 128 + (i 1).val; have := k4_off1_val i; omega)

/-- the words the two one-word loads return are the table words -/
theorem tword_v6 (c : Dev nD) (hT : Bf (F := F) c (Memref.whole main_v18)) (i : grid4.Coords) (h) :
    View.readAt (Elt F) (Memref.whole main_v18).view (rT i).toLoadRect hT (Shape.Idx.first h) = tword hT i := rfl
theorem tword_v7 (c : Dev nD) (tT : Bf (F := F) c (Memref.whole main_v19)) (i : grid4.Coords) (h) :
    View.readAt (Elt F) (Memref.whole main_v19).view (rT i).toLoadRect tT (Shape.Idx.first h) = tword tT i := rfl

/-- a word below the table's height names a row inside the table: the two conditions the body assumes -/
theorem chk1_of_lt (w : BitVec 32) (h : w.toNat < 200000) : k4_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k4_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k4_pay2 j (k4_pay6 hrow trow rel) (k4_pay7 hrow trow rel) (k4_pay1 (F := F))
/-- after a later step: the point's contribution added to the block's contents -/
def stepv (hrow trow rel : Vec F S1x256 .f32) (j : BitVec 32) (acc : Vec F S128 .f32) : Vec F S128 .f32 :=
  k4_pay2 j (k4_pay6 hrow trow rel) (k4_pay7 hrow trow rel) acc

theorem firstv_apply (hrow trow rel : Vec F S1x256 .f32) (j : BitVec 32) (y : S128.Idx) :
    firstv hrow trow rel j y = k4_pay2 j (k4_pay6 hrow trow rel) (k4_pay7 hrow trow rel) (k4_pay1 (F := F)) y := rfl
theorem stepv_apply (hrow trow rel : Vec F S1x256 .f32) (j : BitVec 32) (acc : Vec F S128 .f32) (y : S128.Idx) :
    stepv hrow trow rel j acc y = k4_pay2 j (k4_pay6 hrow trow rel) (k4_pay7 hrow trow rel) acc y := rfl

end Cert.Proof.KI4

end
-- ==== Proof.KI4Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KI4Defs
import proofs.«414028_j29231547417249_2_alg».proof.Proof.KIAdm
import Idealize.ShloMosaic.Lib.Pipeline.Dat
import Idealize.ShloMosaic.Lib.Pipeline.Kit

noncomputable section

namespace Cert.Proof.KI4

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg4 (F := F)).Adm := Cert.Proof.KI.adm m (4 : Fin 16)
abbrev cfgA : Pipeline.Cfg sig Λ₀ := cfg4 (adm0 m)
abbrev hTab : IVec S65536 32 := Cert.Proof.KI.tbl4 m 0
abbrev tTab : IVec S65536 32 := Cert.Proof.KI.tbl4 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v18) (hTab m) ∗ pt c (Memref.whole main_v19) (tTab m) ∗ nodeSh c (nodeA m c)
    ∗ ((Memref.whole main_arg0).view.loc (c : Thread nD τ) ↦[Finset.univ]{Transfers.shareDrop fullShare 2} nodeA m c)
    ∗ (∃ s0, pt c (Memref.whole cc4_scratch0) s0) ∗ (∃ s1, pt c (Memref.whole cc4_scratch1) s1) ∗ sems0 c
    ∗ Pipeline.scopedRestBut (Ix := Unit) (Name := ℕ) (U := UC) (Lvl := ℕ) (Val := Elt F) spec4 c [cc4_scratch0, cc4_scratch1])

/-- Region 0's proof data on core `c`. -/
def dat0 (c : Dev nD) : Dat τ (Elt F) Unit ℕ UC ℕ (cfgA m) c where
  A w := m ((c : Thread nD τ).loc (Pipeline.arrRef spec4 w))
  after w t := match w with
    | ⟨0, _⟩ => relA m c
    | ⟨1, _⟩ => accA m c t.val t.isLt
  Φ _ := Φv m c
  q _ := fullShare
  owed _ := 0

end Cert.Proof.KI4

end
-- ==== Proof.KI5Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.KernelIdeal
import proofs.«414028_j29231547417249_2_alg».proof.Proof.Gen.KernelIdeal.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KI5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 28) 0 ∗ semVal ((c : Thread nD τ), SemLoc.dma 29) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid5.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid5.Coords) : Rect S65536 := Rect.unit (s := S65536) (k5_off1 i) S1.size (k5_off1_inb i)

/-- the table word the body reads at point i: the table's contents at the index the one-word load names -/
def tword (T : IVec S65536 32) (i : grid5.Coords) : BitVec 32 :=
  T ((rT i).toLoadRect.idx (Shape.Idx.first (numel1_S1.symm ▸ Nat.one_pos)))

theorem flat_lt (i : grid5.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k5_off1_val (i : grid5.Coords) : k5_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid5.Coords) :
    tword T i = T (ValueIdx.ix1 ⟨(i 0).val * 128 + (i 1).val, flat_lt i⟩) := by
  unfold tword
  congr 1
  funext d
  match d with
  | ⟨0, _⟩ => exact Fin.ext (by show k5_off1 i 0 + 1 * 0 = (i 0).val * 128 + (i 1).val; have := k5_off1_val i; omega)

/-- the words the two one-word loads return are the table words -/
theorem tword_v6 (c : Dev nD) (hT : Bf (F := F) c (Memref.whole main_v21)) (i : grid5.Coords) (h) :
    View.readAt (Elt F) (Memref.whole main_v21).view (rT i).toLoadRect hT (Shape.Idx.first h) = tword hT i := rfl
theorem tword_v7 (c : Dev nD) (tT : Bf (F := F) c (Memref.whole main_v22)) (i : grid5.Coords) (h) :
    View.readAt (Elt F) (Memref.whole main_v22).view (rT i).toLoadRect tT (Shape.Idx.first h) = tword tT i := rfl

/-- a word below the table's height names a row inside the table: the two conditions the body assumes -/
theorem chk1_of_lt (w : BitVec 32) (h : w.toNat < 200000) : k5_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k5_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k5_pay2 j (k5_pay6 hrow trow rel) (k5_pay7 hrow trow rel) (k5_pay1 (F := F))
/-- after a later step: the point's contribution added to the block's contents -/
def stepv (hrow trow rel : Vec F S1x256 .f32) (j : BitVec 32) (acc : Vec F S128 .f32) : Vec F S128 .f32 :=
  k5_pay2 j (k5_pay6 hrow trow rel) (k5_pay7 hrow trow rel) acc

theorem firstv_apply (hrow trow rel : Vec F S1x256 .f32) (j : BitVec 32) (y : S128.Idx) :
    firstv hrow trow rel j y = k5_pay2 j (k5_pay6 hrow trow rel) (k5_pay7 hrow trow rel) (k5_pay1 (F := F)) y := rfl
theorem stepv_apply (hrow trow rel : Vec F S1x256 .f32) (j : BitVec 32) (acc : Vec F S128 .f32) (y : S128.Idx) :
    stepv hrow trow rel j acc y = k5_pay2 j (k5_pay6 hrow trow rel) (k5_pay7 hrow trow rel) acc y := rfl

end Cert.Proof.KI5

end
-- ==== Proof.KI5Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KI5Defs
import proofs.«414028_j29231547417249_2_alg».proof.Proof.KIAdm
import Idealize.ShloMosaic.Lib.Pipeline.Dat
import Idealize.ShloMosaic.Lib.Pipeline.Kit

noncomputable section

namespace Cert.Proof.KI5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg5 (F := F)).Adm := Cert.Proof.KI.adm m (5 : Fin 16)
abbrev cfgA : Pipeline.Cfg sig Λ₀ := cfg5 (adm0 m)
abbrev hTab : IVec S65536 32 := Cert.Proof.KI.tbl5 m 0
abbrev tTab : IVec S65536 32 := Cert.Proof.KI.tbl5 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v21) (hTab m) ∗ pt c (Memref.whole main_v22) (tTab m) ∗ nodeSh c (nodeA m c)
    ∗ ((Memref.whole main_arg0).view.loc (c : Thread nD τ) ↦[Finset.univ]{Transfers.shareDrop fullShare 2} nodeA m c)
    ∗ (∃ s0, pt c (Memref.whole cc5_scratch0) s0) ∗ (∃ s1, pt c (Memref.whole cc5_scratch1) s1) ∗ sems0 c
    ∗ Pipeline.scopedRestBut (Ix := Unit) (Name := ℕ) (U := UC) (Lvl := ℕ) (Val := Elt F) spec5 c [cc5_scratch0, cc5_scratch1])

/-- Region 0's proof data on core `c`. -/
def dat0 (c : Dev nD) : Dat τ (Elt F) Unit ℕ UC ℕ (cfgA m) c where
  A w := m ((c : Thread nD τ).loc (Pipeline.arrRef spec5 w))
  after w t := match w with
    | ⟨0, _⟩ => relA m c
    | ⟨1, _⟩ => accA m c t.val t.isLt
  Φ _ := Φv m c
  q _ := fullShare
  owed _ := 0

end Cert.Proof.KI5

end
-- ==== Proof.KI6Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.KernelIdeal
import proofs.«414028_j29231547417249_2_alg».proof.Proof.Gen.KernelIdeal.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KI6

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 33) 0 ∗ semVal ((c : Thread nD τ), SemLoc.dma 34) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid6.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid6.Coords) : Rect S65536 := Rect.unit (s := S65536) (k6_off1 i) S1.size (k6_off1_inb i)

/-- the table word the body reads at point i: the table's contents at the index the one-word load names -/
def tword (T : IVec S65536 32) (i : grid6.Coords) : BitVec 32 :=
  T ((rT i).toLoadRect.idx (Shape.Idx.first (numel1_S1.symm ▸ Nat.one_pos)))

theorem flat_lt (i : grid6.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k6_off1_val (i : grid6.Coords) : k6_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid6.Coords) :
    tword T i = T (ValueIdx.ix1 ⟨(i 0).val * 128 + (i 1).val, flat_lt i⟩) := by
  unfold tword
  congr 1
  funext d
  match d with
  | ⟨0, _⟩ => exact Fin.ext (by show k6_off1 i 0 + 1 * 0 = (i 0).val * 128 + (i 1).val; have := k6_off1_val i; omega)

/-- the words the two one-word loads return are the table words -/
theorem tword_v6 (c : Dev nD) (hT : Bf (F := F) c (Memref.whole main_v24)) (i : grid6.Coords) (h) :
    View.readAt (Elt F) (Memref.whole main_v24).view (rT i).toLoadRect hT (Shape.Idx.first h) = tword hT i := rfl
theorem tword_v7 (c : Dev nD) (tT : Bf (F := F) c (Memref.whole main_v25)) (i : grid6.Coords) (h) :
    View.readAt (Elt F) (Memref.whole main_v25).view (rT i).toLoadRect tT (Shape.Idx.first h) = tword tT i := rfl

/-- a word below the table's height names a row inside the table: the two conditions the body assumes -/
theorem chk1_of_lt (w : BitVec 32) (h : w.toNat < 200000) : k6_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k6_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k6_pay2 j (k6_pay6 hrow trow rel) (k6_pay7 hrow trow rel) (k6_pay1 (F := F))
/-- after a later step: the point's contribution added to the block's contents -/
def stepv (hrow trow rel : Vec F S1x256 .f32) (j : BitVec 32) (acc : Vec F S128 .f32) : Vec F S128 .f32 :=
  k6_pay2 j (k6_pay6 hrow trow rel) (k6_pay7 hrow trow rel) acc

theorem firstv_apply (hrow trow rel : Vec F S1x256 .f32) (j : BitVec 32) (y : S128.Idx) :
    firstv hrow trow rel j y = k6_pay2 j (k6_pay6 hrow trow rel) (k6_pay7 hrow trow rel) (k6_pay1 (F := F)) y := rfl
theorem stepv_apply (hrow trow rel : Vec F S1x256 .f32) (j : BitVec 32) (acc : Vec F S128 .f32) (y : S128.Idx) :
    stepv hrow trow rel j acc y = k6_pay2 j (k6_pay6 hrow trow rel) (k6_pay7 hrow trow rel) acc y := rfl

end Cert.Proof.KI6

end
-- ==== Proof.KI6Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KI6Defs
import proofs.«414028_j29231547417249_2_alg».proof.Proof.KIAdm
import Idealize.ShloMosaic.Lib.Pipeline.Dat
import Idealize.ShloMosaic.Lib.Pipeline.Kit

noncomputable section

namespace Cert.Proof.KI6

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg6 (F := F)).Adm := Cert.Proof.KI.adm m (6 : Fin 16)
abbrev cfgA : Pipeline.Cfg sig Λ₀ := cfg6 (adm0 m)
abbrev hTab : IVec S65536 32 := Cert.Proof.KI.tbl6 m 0
abbrev tTab : IVec S65536 32 := Cert.Proof.KI.tbl6 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v24) (hTab m) ∗ pt c (Memref.whole main_v25) (tTab m) ∗ nodeSh c (nodeA m c)
    ∗ ((Memref.whole main_arg0).view.loc (c : Thread nD τ) ↦[Finset.univ]{Transfers.shareDrop fullShare 2} nodeA m c)
    ∗ (∃ s0, pt c (Memref.whole cc6_scratch0) s0) ∗ (∃ s1, pt c (Memref.whole cc6_scratch1) s1) ∗ sems0 c
    ∗ Pipeline.scopedRestBut (Ix := Unit) (Name := ℕ) (U := UC) (Lvl := ℕ) (Val := Elt F) spec6 c [cc6_scratch0, cc6_scratch1])

/-- Region 0's proof data on core `c`. -/
def dat0 (c : Dev nD) : Dat τ (Elt F) Unit ℕ UC ℕ (cfgA m) c where
  A w := m ((c : Thread nD τ).loc (Pipeline.arrRef spec6 w))
  after w t := match w with
    | ⟨0, _⟩ => relA m c
    | ⟨1, _⟩ => accA m c t.val t.isLt
  Φ _ := Φv m c
  q _ := fullShare
  owed _ := 0

end Cert.Proof.KI6

end
-- ==== Proof.KI7Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.KernelIdeal
import proofs.«414028_j29231547417249_2_alg».proof.Proof.Gen.KernelIdeal.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KI7

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 38) 0 ∗ semVal ((c : Thread nD τ), SemLoc.dma 39) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid7.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid7.Coords) : Rect S65536 := Rect.unit (s := S65536) (k7_off1 i) S1.size (k7_off1_inb i)

/-- the table word the body reads at point i: the table's contents at the index the one-word load names -/
def tword (T : IVec S65536 32) (i : grid7.Coords) : BitVec 32 :=
  T ((rT i).toLoadRect.idx (Shape.Idx.first (numel1_S1.symm ▸ Nat.one_pos)))

theorem flat_lt (i : grid7.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k7_off1_val (i : grid7.Coords) : k7_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid7.Coords) :
    tword T i = T (ValueIdx.ix1 ⟨(i 0).val * 128 + (i 1).val, flat_lt i⟩) := by
  unfold tword
  congr 1
  funext d
  match d with
  | ⟨0, _⟩ => exact Fin.ext (by show k7_off1 i 0 + 1 * 0 = (i 0).val * 128 + (i 1).val; have := k7_off1_val i; omega)

/-- the words the two one-word loads return are the table words -/
theorem tword_v6 (c : Dev nD) (hT : Bf (F := F) c (Memref.whole main_v27)) (i : grid7.Coords) (h) :
    View.readAt (Elt F) (Memref.whole main_v27).view (rT i).toLoadRect hT (Shape.Idx.first h) = tword hT i := rfl
theorem tword_v7 (c : Dev nD) (tT : Bf (F := F) c (Memref.whole main_v28)) (i : grid7.Coords) (h) :
    View.readAt (Elt F) (Memref.whole main_v28).view (rT i).toLoadRect tT (Shape.Idx.first h) = tword tT i := rfl

/-- a word below the table's height names a row inside the table: the two conditions the body assumes -/
theorem chk1_of_lt (w : BitVec 32) (h : w.toNat < 200000) : k7_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k7_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k7_pay2 j (k7_pay6 hrow trow rel) (k7_pay7 hrow trow rel) (k7_pay1 (F := F))
/-- after a later step: the point's contribution added to the block's contents -/
def stepv (hrow trow rel : Vec F S1x256 .f32) (j : BitVec 32) (acc : Vec F S128 .f32) : Vec F S128 .f32 :=
  k7_pay2 j (k7_pay6 hrow trow rel) (k7_pay7 hrow trow rel) acc

theorem firstv_apply (hrow trow rel : Vec F S1x256 .f32) (j : BitVec 32) (y : S128.Idx) :
    firstv hrow trow rel j y = k7_pay2 j (k7_pay6 hrow trow rel) (k7_pay7 hrow trow rel) (k7_pay1 (F := F)) y := rfl
theorem stepv_apply (hrow trow rel : Vec F S1x256 .f32) (j : BitVec 32) (acc : Vec F S128 .f32) (y : S128.Idx) :
    stepv hrow trow rel j acc y = k7_pay2 j (k7_pay6 hrow trow rel) (k7_pay7 hrow trow rel) acc y := rfl

end Cert.Proof.KI7

end
-- ==== Proof.KI7Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KI7Defs
import proofs.«414028_j29231547417249_2_alg».proof.Proof.KIAdm
import Idealize.ShloMosaic.Lib.Pipeline.Dat
import Idealize.ShloMosaic.Lib.Pipeline.Kit

noncomputable section

namespace Cert.Proof.KI7

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg7 (F := F)).Adm := Cert.Proof.KI.adm m (7 : Fin 16)
abbrev cfgA : Pipeline.Cfg sig Λ₀ := cfg7 (adm0 m)
abbrev hTab : IVec S65536 32 := Cert.Proof.KI.tbl7 m 0
abbrev tTab : IVec S65536 32 := Cert.Proof.KI.tbl7 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v27) (hTab m) ∗ pt c (Memref.whole main_v28) (tTab m) ∗ nodeSh c (nodeA m c)
    ∗ ((Memref.whole main_arg0).view.loc (c : Thread nD τ) ↦[Finset.univ]{Transfers.shareDrop fullShare 2} nodeA m c)
    ∗ (∃ s0, pt c (Memref.whole cc7_scratch0) s0) ∗ (∃ s1, pt c (Memref.whole cc7_scratch1) s1) ∗ sems0 c
    ∗ Pipeline.scopedRestBut (Ix := Unit) (Name := ℕ) (U := UC) (Lvl := ℕ) (Val := Elt F) spec7 c [cc7_scratch0, cc7_scratch1])

/-- Region 0's proof data on core `c`. -/
def dat0 (c : Dev nD) : Dat τ (Elt F) Unit ℕ UC ℕ (cfgA m) c where
  A w := m ((c : Thread nD τ).loc (Pipeline.arrRef spec7 w))
  after w t := match w with
    | ⟨0, _⟩ => relA m c
    | ⟨1, _⟩ => accA m c t.val t.isLt
  Φ _ := Φv m c
  q _ := fullShare
  owed _ := 0

end Cert.Proof.KI7

end
-- ==== Proof.KI8Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.KernelIdeal
import proofs.«414028_j29231547417249_2_alg».proof.Proof.Gen.KernelIdeal.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KI8

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 43) 0 ∗ semVal ((c : Thread nD τ), SemLoc.dma 44) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid8.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid8.Coords) : Rect S65536 := Rect.unit (s := S65536) (k8_off1 i) S1.size (k8_off1_inb i)

/-- the table word the body reads at point i: the table's contents at the index the one-word load names -/
def tword (T : IVec S65536 32) (i : grid8.Coords) : BitVec 32 :=
  T ((rT i).toLoadRect.idx (Shape.Idx.first (numel1_S1.symm ▸ Nat.one_pos)))

theorem flat_lt (i : grid8.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k8_off1_val (i : grid8.Coords) : k8_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid8.Coords) :
    tword T i = T (ValueIdx.ix1 ⟨(i 0).val * 128 + (i 1).val, flat_lt i⟩) := by
  unfold tword
  congr 1
  funext d
  match d with
  | ⟨0, _⟩ => exact Fin.ext (by show k8_off1 i 0 + 1 * 0 = (i 0).val * 128 + (i 1).val; have := k8_off1_val i; omega)

/-- the words the two one-word loads return are the table words -/
theorem tword_v6 (c : Dev nD) (hT : Bf (F := F) c (Memref.whole main_v30)) (i : grid8.Coords) (h) :
    View.readAt (Elt F) (Memref.whole main_v30).view (rT i).toLoadRect hT (Shape.Idx.first h) = tword hT i := rfl
theorem tword_v7 (c : Dev nD) (tT : Bf (F := F) c (Memref.whole main_v31)) (i : grid8.Coords) (h) :
    View.readAt (Elt F) (Memref.whole main_v31).view (rT i).toLoadRect tT (Shape.Idx.first h) = tword tT i := rfl

/-- a word below the table's height names a row inside the table: the two conditions the body assumes -/
theorem chk1_of_lt (w : BitVec 32) (h : w.toNat < 200000) : k8_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k8_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k8_pay2 j (k8_pay6 hrow trow rel) (k8_pay7 hrow trow rel) (k8_pay1 (F := F))
/-- after a later step: the point's contribution added to the block's contents -/
def stepv (hrow trow rel : Vec F S1x256 .f32) (j : BitVec 32) (acc : Vec F S128 .f32) : Vec F S128 .f32 :=
  k8_pay2 j (k8_pay6 hrow trow rel) (k8_pay7 hrow trow rel) acc

theorem firstv_apply (hrow trow rel : Vec F S1x256 .f32) (j : BitVec 32) (y : S128.Idx) :
    firstv hrow trow rel j y = k8_pay2 j (k8_pay6 hrow trow rel) (k8_pay7 hrow trow rel) (k8_pay1 (F := F)) y := rfl
theorem stepv_apply (hrow trow rel : Vec F S1x256 .f32) (j : BitVec 32) (acc : Vec F S128 .f32) (y : S128.Idx) :
    stepv hrow trow rel j acc y = k8_pay2 j (k8_pay6 hrow trow rel) (k8_pay7 hrow trow rel) acc y := rfl

end Cert.Proof.KI8

end
-- ==== Proof.KI8Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KI8Defs
import proofs.«414028_j29231547417249_2_alg».proof.Proof.KIAdm
import Idealize.ShloMosaic.Lib.Pipeline.Dat
import Idealize.ShloMosaic.Lib.Pipeline.Kit

noncomputable section

namespace Cert.Proof.KI8

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg8 (F := F)).Adm := Cert.Proof.KI.adm m (8 : Fin 16)
abbrev cfgA : Pipeline.Cfg sig Λ₀ := cfg8 (adm0 m)
abbrev hTab : IVec S65536 32 := Cert.Proof.KI.tbl8 m 0
abbrev tTab : IVec S65536 32 := Cert.Proof.KI.tbl8 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v30) (hTab m) ∗ pt c (Memref.whole main_v31) (tTab m) ∗ nodeSh c (nodeA m c)
    ∗ ((Memref.whole main_arg0).view.loc (c : Thread nD τ) ↦[Finset.univ]{Transfers.shareDrop fullShare 2} nodeA m c)
    ∗ (∃ s0, pt c (Memref.whole cc8_scratch0) s0) ∗ (∃ s1, pt c (Memref.whole cc8_scratch1) s1) ∗ sems0 c
    ∗ Pipeline.scopedRestBut (Ix := Unit) (Name := ℕ) (U := UC) (Lvl := ℕ) (Val := Elt F) spec8 c [cc8_scratch0, cc8_scratch1])

/-- Region 0's proof data on core `c`. -/
def dat0 (c : Dev nD) : Dat τ (Elt F) Unit ℕ UC ℕ (cfgA m) c where
  A w := m ((c : Thread nD τ).loc (Pipeline.arrRef spec8 w))
  after w t := match w with
    | ⟨0, _⟩ => relA m c
    | ⟨1, _⟩ => accA m c t.val t.isLt
  Φ _ := Φv m c
  q _ := fullShare
  owed _ := 0

end Cert.Proof.KI8

end
-- ==== Proof.KI9Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.KernelIdeal
import proofs.«414028_j29231547417249_2_alg».proof.Proof.Gen.KernelIdeal.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KI9

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 48) 0 ∗ semVal ((c : Thread nD τ), SemLoc.dma 49) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid9.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid9.Coords) : Rect S65536 := Rect.unit (s := S65536) (k9_off1 i) S1.size (k9_off1_inb i)

/-- the table word the body reads at point i: the table's contents at the index the one-word load names -/
def tword (T : IVec S65536 32) (i : grid9.Coords) : BitVec 32 :=
  T ((rT i).toLoadRect.idx (Shape.Idx.first (numel1_S1.symm ▸ Nat.one_pos)))

theorem flat_lt (i : grid9.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k9_off1_val (i : grid9.Coords) : k9_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid9.Coords) :
    tword T i = T (ValueIdx.ix1 ⟨(i 0).val * 128 + (i 1).val, flat_lt i⟩) := by
  unfold tword
  congr 1
  funext d
  match d with
  | ⟨0, _⟩ => exact Fin.ext (by show k9_off1 i 0 + 1 * 0 = (i 0).val * 128 + (i 1).val; have := k9_off1_val i; omega)

/-- the words the two one-word loads return are the table words -/
theorem tword_v6 (c : Dev nD) (hT : Bf (F := F) c (Memref.whole main_v33)) (i : grid9.Coords) (h) :
    View.readAt (Elt F) (Memref.whole main_v33).view (rT i).toLoadRect hT (Shape.Idx.first h) = tword hT i := rfl
theorem tword_v7 (c : Dev nD) (tT : Bf (F := F) c (Memref.whole main_v34)) (i : grid9.Coords) (h) :
    View.readAt (Elt F) (Memref.whole main_v34).view (rT i).toLoadRect tT (Shape.Idx.first h) = tword tT i := rfl

/-- a word below the table's height names a row inside the table: the two conditions the body assumes -/
theorem chk1_of_lt (w : BitVec 32) (h : w.toNat < 200000) : k9_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k9_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k9_pay2 j (k9_pay6 hrow trow rel) (k9_pay7 hrow trow rel) (k9_pay1 (F := F))
/-- after a later step: the point's contribution added to the block's contents -/
def stepv (hrow trow rel : Vec F S1x256 .f32) (j : BitVec 32) (acc : Vec F S128 .f32) : Vec F S128 .f32 :=
  k9_pay2 j (k9_pay6 hrow trow rel) (k9_pay7 hrow trow rel) acc

theorem firstv_apply (hrow trow rel : Vec F S1x256 .f32) (j : BitVec 32) (y : S128.Idx) :
    firstv hrow trow rel j y = k9_pay2 j (k9_pay6 hrow trow rel) (k9_pay7 hrow trow rel) (k9_pay1 (F := F)) y := rfl
theorem stepv_apply (hrow trow rel : Vec F S1x256 .f32) (j : BitVec 32) (acc : Vec F S128 .f32) (y : S128.Idx) :
    stepv hrow trow rel j acc y = k9_pay2 j (k9_pay6 hrow trow rel) (k9_pay7 hrow trow rel) acc y := rfl

end Cert.Proof.KI9

end
-- ==== Proof.KI9Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KI9Defs
import proofs.«414028_j29231547417249_2_alg».proof.Proof.KIAdm
import Idealize.ShloMosaic.Lib.Pipeline.Dat
import Idealize.ShloMosaic.Lib.Pipeline.Kit

noncomputable section

namespace Cert.Proof.KI9

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg9 (F := F)).Adm := Cert.Proof.KI.adm m (9 : Fin 16)
abbrev cfgA : Pipeline.Cfg sig Λ₀ := cfg9 (adm0 m)
abbrev hTab : IVec S65536 32 := Cert.Proof.KI.tbl9 m 0
abbrev tTab : IVec S65536 32 := Cert.Proof.KI.tbl9 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v33) (hTab m) ∗ pt c (Memref.whole main_v34) (tTab m) ∗ nodeSh c (nodeA m c)
    ∗ ((Memref.whole main_arg0).view.loc (c : Thread nD τ) ↦[Finset.univ]{Transfers.shareDrop fullShare 2} nodeA m c)
    ∗ (∃ s0, pt c (Memref.whole cc9_scratch0) s0) ∗ (∃ s1, pt c (Memref.whole cc9_scratch1) s1) ∗ sems0 c
    ∗ Pipeline.scopedRestBut (Ix := Unit) (Name := ℕ) (U := UC) (Lvl := ℕ) (Val := Elt F) spec9 c [cc9_scratch0, cc9_scratch1])

/-- Region 0's proof data on core `c`. -/
def dat0 (c : Dev nD) : Dat τ (Elt F) Unit ℕ UC ℕ (cfgA m) c where
  A w := m ((c : Thread nD τ).loc (Pipeline.arrRef spec9 w))
  after w t := match w with
    | ⟨0, _⟩ => relA m c
    | ⟨1, _⟩ => accA m c t.val t.isLt
  Φ _ := Φv m c
  q _ := fullShare
  owed _ := 0

end Cert.Proof.KI9

end
-- ==== Proof.KI10Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.KernelIdeal
import proofs.«414028_j29231547417249_2_alg».proof.Proof.Gen.KernelIdeal.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KI10

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 53) 0 ∗ semVal ((c : Thread nD τ), SemLoc.dma 54) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid10.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid10.Coords) : Rect S65536 := Rect.unit (s := S65536) (k10_off1 i) S1.size (k10_off1_inb i)

/-- the table word the body reads at point i: the table's contents at the index the one-word load names -/
def tword (T : IVec S65536 32) (i : grid10.Coords) : BitVec 32 :=
  T ((rT i).toLoadRect.idx (Shape.Idx.first (numel1_S1.symm ▸ Nat.one_pos)))

theorem flat_lt (i : grid10.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k10_off1_val (i : grid10.Coords) : k10_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid10.Coords) :
    tword T i = T (ValueIdx.ix1 ⟨(i 0).val * 128 + (i 1).val, flat_lt i⟩) := by
  unfold tword
  congr 1
  funext d
  match d with
  | ⟨0, _⟩ => exact Fin.ext (by show k10_off1 i 0 + 1 * 0 = (i 0).val * 128 + (i 1).val; have := k10_off1_val i; omega)

/-- the words the two one-word loads return are the table words -/
theorem tword_v6 (c : Dev nD) (hT : Bf (F := F) c (Memref.whole main_v36)) (i : grid10.Coords) (h) :
    View.readAt (Elt F) (Memref.whole main_v36).view (rT i).toLoadRect hT (Shape.Idx.first h) = tword hT i := rfl
theorem tword_v7 (c : Dev nD) (tT : Bf (F := F) c (Memref.whole main_v37)) (i : grid10.Coords) (h) :
    View.readAt (Elt F) (Memref.whole main_v37).view (rT i).toLoadRect tT (Shape.Idx.first h) = tword tT i := rfl

/-- a word below the table's height names a row inside the table: the two conditions the body assumes -/
theorem chk1_of_lt (w : BitVec 32) (h : w.toNat < 200000) : k10_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k10_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k10_pay2 j (k10_pay6 hrow trow rel) (k10_pay7 hrow trow rel) (k10_pay1 (F := F))
/-- after a later step: the point's contribution added to the block's contents -/
def stepv (hrow trow rel : Vec F S1x256 .f32) (j : BitVec 32) (acc : Vec F S128 .f32) : Vec F S128 .f32 :=
  k10_pay2 j (k10_pay6 hrow trow rel) (k10_pay7 hrow trow rel) acc

theorem firstv_apply (hrow trow rel : Vec F S1x256 .f32) (j : BitVec 32) (y : S128.Idx) :
    firstv hrow trow rel j y = k10_pay2 j (k10_pay6 hrow trow rel) (k10_pay7 hrow trow rel) (k10_pay1 (F := F)) y := rfl
theorem stepv_apply (hrow trow rel : Vec F S1x256 .f32) (j : BitVec 32) (acc : Vec F S128 .f32) (y : S128.Idx) :
    stepv hrow trow rel j acc y = k10_pay2 j (k10_pay6 hrow trow rel) (k10_pay7 hrow trow rel) acc y := rfl

end Cert.Proof.KI10

end
-- ==== Proof.KI10Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KI10Defs
import proofs.«414028_j29231547417249_2_alg».proof.Proof.KIAdm
import Idealize.ShloMosaic.Lib.Pipeline.Dat
import Idealize.ShloMosaic.Lib.Pipeline.Kit

noncomputable section

namespace Cert.Proof.KI10

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg10 (F := F)).Adm := Cert.Proof.KI.adm m (10 : Fin 16)
abbrev cfgA : Pipeline.Cfg sig Λ₀ := cfg10 (adm0 m)
abbrev hTab : IVec S65536 32 := Cert.Proof.KI.tbl10 m 0
abbrev tTab : IVec S65536 32 := Cert.Proof.KI.tbl10 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v36) (hTab m) ∗ pt c (Memref.whole main_v37) (tTab m) ∗ nodeSh c (nodeA m c)
    ∗ ((Memref.whole main_arg0).view.loc (c : Thread nD τ) ↦[Finset.univ]{Transfers.shareDrop fullShare 2} nodeA m c)
    ∗ (∃ s0, pt c (Memref.whole cc10_scratch0) s0) ∗ (∃ s1, pt c (Memref.whole cc10_scratch1) s1) ∗ sems0 c
    ∗ Pipeline.scopedRestBut (Ix := Unit) (Name := ℕ) (U := UC) (Lvl := ℕ) (Val := Elt F) spec10 c [cc10_scratch0, cc10_scratch1])

/-- Region 0's proof data on core `c`. -/
def dat0 (c : Dev nD) : Dat τ (Elt F) Unit ℕ UC ℕ (cfgA m) c where
  A w := m ((c : Thread nD τ).loc (Pipeline.arrRef spec10 w))
  after w t := match w with
    | ⟨0, _⟩ => relA m c
    | ⟨1, _⟩ => accA m c t.val t.isLt
  Φ _ := Φv m c
  q _ := fullShare
  owed _ := 0

end Cert.Proof.KI10

end
-- ==== Proof.KI11Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.KernelIdeal
import proofs.«414028_j29231547417249_2_alg».proof.Proof.Gen.KernelIdeal.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KI11

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 58) 0 ∗ semVal ((c : Thread nD τ), SemLoc.dma 59) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid11.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid11.Coords) : Rect S65536 := Rect.unit (s := S65536) (k11_off1 i) S1.size (k11_off1_inb i)

/-- the table word the body reads at point i: the table's contents at the index the one-word load names -/
def tword (T : IVec S65536 32) (i : grid11.Coords) : BitVec 32 :=
  T ((rT i).toLoadRect.idx (Shape.Idx.first (numel1_S1.symm ▸ Nat.one_pos)))

theorem flat_lt (i : grid11.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k11_off1_val (i : grid11.Coords) : k11_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid11.Coords) :
    tword T i = T (ValueIdx.ix1 ⟨(i 0).val * 128 + (i 1).val, flat_lt i⟩) := by
  unfold tword
  congr 1
  funext d
  match d with
  | ⟨0, _⟩ => exact Fin.ext (by show k11_off1 i 0 + 1 * 0 = (i 0).val * 128 + (i 1).val; have := k11_off1_val i; omega)

/-- the words the two one-word loads return are the table words -/
theorem tword_v6 (c : Dev nD) (hT : Bf (F := F) c (Memref.whole main_v39)) (i : grid11.Coords) (h) :
    View.readAt (Elt F) (Memref.whole main_v39).view (rT i).toLoadRect hT (Shape.Idx.first h) = tword hT i := rfl
theorem tword_v7 (c : Dev nD) (tT : Bf (F := F) c (Memref.whole main_v40)) (i : grid11.Coords) (h) :
    View.readAt (Elt F) (Memref.whole main_v40).view (rT i).toLoadRect tT (Shape.Idx.first h) = tword tT i := rfl

/-- a word below the table's height names a row inside the table: the two conditions the body assumes -/
theorem chk1_of_lt (w : BitVec 32) (h : w.toNat < 200000) : k11_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k11_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k11_pay2 j (k11_pay6 hrow trow rel) (k11_pay7 hrow trow rel) (k11_pay1 (F := F))
/-- after a later step: the point's contribution added to the block's contents -/
def stepv (hrow trow rel : Vec F S1x256 .f32) (j : BitVec 32) (acc : Vec F S128 .f32) : Vec F S128 .f32 :=
  k11_pay2 j (k11_pay6 hrow trow rel) (k11_pay7 hrow trow rel) acc

theorem firstv_apply (hrow trow rel : Vec F S1x256 .f32) (j : BitVec 32) (y : S128.Idx) :
    firstv hrow trow rel j y = k11_pay2 j (k11_pay6 hrow trow rel) (k11_pay7 hrow trow rel) (k11_pay1 (F := F)) y := rfl
theorem stepv_apply (hrow trow rel : Vec F S1x256 .f32) (j : BitVec 32) (acc : Vec F S128 .f32) (y : S128.Idx) :
    stepv hrow trow rel j acc y = k11_pay2 j (k11_pay6 hrow trow rel) (k11_pay7 hrow trow rel) acc y := rfl

end Cert.Proof.KI11

end
-- ==== Proof.KI11Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KI11Defs
import proofs.«414028_j29231547417249_2_alg».proof.Proof.KIAdm
import Idealize.ShloMosaic.Lib.Pipeline.Dat
import Idealize.ShloMosaic.Lib.Pipeline.Kit

noncomputable section

namespace Cert.Proof.KI11

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg11 (F := F)).Adm := Cert.Proof.KI.adm m (11 : Fin 16)
abbrev cfgA : Pipeline.Cfg sig Λ₀ := cfg11 (adm0 m)
abbrev hTab : IVec S65536 32 := Cert.Proof.KI.tbl11 m 0
abbrev tTab : IVec S65536 32 := Cert.Proof.KI.tbl11 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v39) (hTab m) ∗ pt c (Memref.whole main_v40) (tTab m) ∗ nodeSh c (nodeA m c)
    ∗ ((Memref.whole main_arg0).view.loc (c : Thread nD τ) ↦[Finset.univ]{Transfers.shareDrop fullShare 2} nodeA m c)
    ∗ (∃ s0, pt c (Memref.whole cc11_scratch0) s0) ∗ (∃ s1, pt c (Memref.whole cc11_scratch1) s1) ∗ sems0 c
    ∗ Pipeline.scopedRestBut (Ix := Unit) (Name := ℕ) (U := UC) (Lvl := ℕ) (Val := Elt F) spec11 c [cc11_scratch0, cc11_scratch1])

/-- Region 0's proof data on core `c`. -/
def dat0 (c : Dev nD) : Dat τ (Elt F) Unit ℕ UC ℕ (cfgA m) c where
  A w := m ((c : Thread nD τ).loc (Pipeline.arrRef spec11 w))
  after w t := match w with
    | ⟨0, _⟩ => relA m c
    | ⟨1, _⟩ => accA m c t.val t.isLt
  Φ _ := Φv m c
  q _ := fullShare
  owed _ := 0

end Cert.Proof.KI11

end
-- ==== Proof.KI12Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.KernelIdeal
import proofs.«414028_j29231547417249_2_alg».proof.Proof.Gen.KernelIdeal.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KI12

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 63) 0 ∗ semVal ((c : Thread nD τ), SemLoc.dma 64) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid12.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid12.Coords) : Rect S65536 := Rect.unit (s := S65536) (k12_off1 i) S1.size (k12_off1_inb i)

/-- the table word the body reads at point i: the table's contents at the index the one-word load names -/
def tword (T : IVec S65536 32) (i : grid12.Coords) : BitVec 32 :=
  T ((rT i).toLoadRect.idx (Shape.Idx.first (numel1_S1.symm ▸ Nat.one_pos)))

theorem flat_lt (i : grid12.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k12_off1_val (i : grid12.Coords) : k12_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid12.Coords) :
    tword T i = T (ValueIdx.ix1 ⟨(i 0).val * 128 + (i 1).val, flat_lt i⟩) := by
  unfold tword
  congr 1
  funext d
  match d with
  | ⟨0, _⟩ => exact Fin.ext (by show k12_off1 i 0 + 1 * 0 = (i 0).val * 128 + (i 1).val; have := k12_off1_val i; omega)

/-- the words the two one-word loads return are the table words -/
theorem tword_v6 (c : Dev nD) (hT : Bf (F := F) c (Memref.whole main_v42)) (i : grid12.Coords) (h) :
    View.readAt (Elt F) (Memref.whole main_v42).view (rT i).toLoadRect hT (Shape.Idx.first h) = tword hT i := rfl
theorem tword_v7 (c : Dev nD) (tT : Bf (F := F) c (Memref.whole main_v43)) (i : grid12.Coords) (h) :
    View.readAt (Elt F) (Memref.whole main_v43).view (rT i).toLoadRect tT (Shape.Idx.first h) = tword tT i := rfl

/-- a word below the table's height names a row inside the table: the two conditions the body assumes -/
theorem chk1_of_lt (w : BitVec 32) (h : w.toNat < 200000) : k12_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k12_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k12_pay2 j (k12_pay6 hrow trow rel) (k12_pay7 hrow trow rel) (k12_pay1 (F := F))
/-- after a later step: the point's contribution added to the block's contents -/
def stepv (hrow trow rel : Vec F S1x256 .f32) (j : BitVec 32) (acc : Vec F S128 .f32) : Vec F S128 .f32 :=
  k12_pay2 j (k12_pay6 hrow trow rel) (k12_pay7 hrow trow rel) acc

theorem firstv_apply (hrow trow rel : Vec F S1x256 .f32) (j : BitVec 32) (y : S128.Idx) :
    firstv hrow trow rel j y = k12_pay2 j (k12_pay6 hrow trow rel) (k12_pay7 hrow trow rel) (k12_pay1 (F := F)) y := rfl
theorem stepv_apply (hrow trow rel : Vec F S1x256 .f32) (j : BitVec 32) (acc : Vec F S128 .f32) (y : S128.Idx) :
    stepv hrow trow rel j acc y = k12_pay2 j (k12_pay6 hrow trow rel) (k12_pay7 hrow trow rel) acc y := rfl

end Cert.Proof.KI12

end
-- ==== Proof.KI12Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KI12Defs
import proofs.«414028_j29231547417249_2_alg».proof.Proof.KIAdm
import Idealize.ShloMosaic.Lib.Pipeline.Dat
import Idealize.ShloMosaic.Lib.Pipeline.Kit

noncomputable section

namespace Cert.Proof.KI12

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg12 (F := F)).Adm := Cert.Proof.KI.adm m (12 : Fin 16)
abbrev cfgA : Pipeline.Cfg sig Λ₀ := cfg12 (adm0 m)
abbrev hTab : IVec S65536 32 := Cert.Proof.KI.tbl12 m 0
abbrev tTab : IVec S65536 32 := Cert.Proof.KI.tbl12 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v42) (hTab m) ∗ pt c (Memref.whole main_v43) (tTab m) ∗ nodeSh c (nodeA m c)
    ∗ ((Memref.whole main_arg0).view.loc (c : Thread nD τ) ↦[Finset.univ]{Transfers.shareDrop fullShare 2} nodeA m c)
    ∗ (∃ s0, pt c (Memref.whole cc12_scratch0) s0) ∗ (∃ s1, pt c (Memref.whole cc12_scratch1) s1) ∗ sems0 c
    ∗ Pipeline.scopedRestBut (Ix := Unit) (Name := ℕ) (U := UC) (Lvl := ℕ) (Val := Elt F) spec12 c [cc12_scratch0, cc12_scratch1])

/-- Region 0's proof data on core `c`. -/
def dat0 (c : Dev nD) : Dat τ (Elt F) Unit ℕ UC ℕ (cfgA m) c where
  A w := m ((c : Thread nD τ).loc (Pipeline.arrRef spec12 w))
  after w t := match w with
    | ⟨0, _⟩ => relA m c
    | ⟨1, _⟩ => accA m c t.val t.isLt
  Φ _ := Φv m c
  q _ := fullShare
  owed _ := 0

end Cert.Proof.KI12

end
-- ==== Proof.KI13Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.KernelIdeal
import proofs.«414028_j29231547417249_2_alg».proof.Proof.Gen.KernelIdeal.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KI13

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 68) 0 ∗ semVal ((c : Thread nD τ), SemLoc.dma 69) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid13.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid13.Coords) : Rect S65536 := Rect.unit (s := S65536) (k13_off1 i) S1.size (k13_off1_inb i)

/-- the table word the body reads at point i: the table's contents at the index the one-word load names -/
def tword (T : IVec S65536 32) (i : grid13.Coords) : BitVec 32 :=
  T ((rT i).toLoadRect.idx (Shape.Idx.first (numel1_S1.symm ▸ Nat.one_pos)))

theorem flat_lt (i : grid13.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k13_off1_val (i : grid13.Coords) : k13_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid13.Coords) :
    tword T i = T (ValueIdx.ix1 ⟨(i 0).val * 128 + (i 1).val, flat_lt i⟩) := by
  unfold tword
  congr 1
  funext d
  match d with
  | ⟨0, _⟩ => exact Fin.ext (by show k13_off1 i 0 + 1 * 0 = (i 0).val * 128 + (i 1).val; have := k13_off1_val i; omega)

/-- the words the two one-word loads return are the table words -/
theorem tword_v6 (c : Dev nD) (hT : Bf (F := F) c (Memref.whole main_v45)) (i : grid13.Coords) (h) :
    View.readAt (Elt F) (Memref.whole main_v45).view (rT i).toLoadRect hT (Shape.Idx.first h) = tword hT i := rfl
theorem tword_v7 (c : Dev nD) (tT : Bf (F := F) c (Memref.whole main_v46)) (i : grid13.Coords) (h) :
    View.readAt (Elt F) (Memref.whole main_v46).view (rT i).toLoadRect tT (Shape.Idx.first h) = tword tT i := rfl

/-- a word below the table's height names a row inside the table: the two conditions the body assumes -/
theorem chk1_of_lt (w : BitVec 32) (h : w.toNat < 200000) : k13_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k13_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k13_pay2 j (k13_pay6 hrow trow rel) (k13_pay7 hrow trow rel) (k13_pay1 (F := F))
/-- after a later step: the point's contribution added to the block's contents -/
def stepv (hrow trow rel : Vec F S1x256 .f32) (j : BitVec 32) (acc : Vec F S128 .f32) : Vec F S128 .f32 :=
  k13_pay2 j (k13_pay6 hrow trow rel) (k13_pay7 hrow trow rel) acc

theorem firstv_apply (hrow trow rel : Vec F S1x256 .f32) (j : BitVec 32) (y : S128.Idx) :
    firstv hrow trow rel j y = k13_pay2 j (k13_pay6 hrow trow rel) (k13_pay7 hrow trow rel) (k13_pay1 (F := F)) y := rfl
theorem stepv_apply (hrow trow rel : Vec F S1x256 .f32) (j : BitVec 32) (acc : Vec F S128 .f32) (y : S128.Idx) :
    stepv hrow trow rel j acc y = k13_pay2 j (k13_pay6 hrow trow rel) (k13_pay7 hrow trow rel) acc y := rfl

end Cert.Proof.KI13

end
-- ==== Proof.KI13Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KI13Defs
import proofs.«414028_j29231547417249_2_alg».proof.Proof.KIAdm
import Idealize.ShloMosaic.Lib.Pipeline.Dat
import Idealize.ShloMosaic.Lib.Pipeline.Kit

noncomputable section

namespace Cert.Proof.KI13

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg13 (F := F)).Adm := Cert.Proof.KI.adm m (13 : Fin 16)
abbrev cfgA : Pipeline.Cfg sig Λ₀ := cfg13 (adm0 m)
abbrev hTab : IVec S65536 32 := Cert.Proof.KI.tbl13 m 0
abbrev tTab : IVec S65536 32 := Cert.Proof.KI.tbl13 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v45) (hTab m) ∗ pt c (Memref.whole main_v46) (tTab m) ∗ nodeSh c (nodeA m c)
    ∗ ((Memref.whole main_arg0).view.loc (c : Thread nD τ) ↦[Finset.univ]{Transfers.shareDrop fullShare 2} nodeA m c)
    ∗ (∃ s0, pt c (Memref.whole cc13_scratch0) s0) ∗ (∃ s1, pt c (Memref.whole cc13_scratch1) s1) ∗ sems0 c
    ∗ Pipeline.scopedRestBut (Ix := Unit) (Name := ℕ) (U := UC) (Lvl := ℕ) (Val := Elt F) spec13 c [cc13_scratch0, cc13_scratch1])

/-- Region 0's proof data on core `c`. -/
def dat0 (c : Dev nD) : Dat τ (Elt F) Unit ℕ UC ℕ (cfgA m) c where
  A w := m ((c : Thread nD τ).loc (Pipeline.arrRef spec13 w))
  after w t := match w with
    | ⟨0, _⟩ => relA m c
    | ⟨1, _⟩ => accA m c t.val t.isLt
  Φ _ := Φv m c
  q _ := fullShare
  owed _ := 0

end Cert.Proof.KI13

end
-- ==== Proof.KI14Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.KernelIdeal
import proofs.«414028_j29231547417249_2_alg».proof.Proof.Gen.KernelIdeal.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KI14

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 73) 0 ∗ semVal ((c : Thread nD τ), SemLoc.dma 74) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid14.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid14.Coords) : Rect S65536 := Rect.unit (s := S65536) (k14_off1 i) S1.size (k14_off1_inb i)

/-- the table word the body reads at point i: the table's contents at the index the one-word load names -/
def tword (T : IVec S65536 32) (i : grid14.Coords) : BitVec 32 :=
  T ((rT i).toLoadRect.idx (Shape.Idx.first (numel1_S1.symm ▸ Nat.one_pos)))

theorem flat_lt (i : grid14.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k14_off1_val (i : grid14.Coords) : k14_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid14.Coords) :
    tword T i = T (ValueIdx.ix1 ⟨(i 0).val * 128 + (i 1).val, flat_lt i⟩) := by
  unfold tword
  congr 1
  funext d
  match d with
  | ⟨0, _⟩ => exact Fin.ext (by show k14_off1 i 0 + 1 * 0 = (i 0).val * 128 + (i 1).val; have := k14_off1_val i; omega)

/-- the words the two one-word loads return are the table words -/
theorem tword_v6 (c : Dev nD) (hT : Bf (F := F) c (Memref.whole main_v48)) (i : grid14.Coords) (h) :
    View.readAt (Elt F) (Memref.whole main_v48).view (rT i).toLoadRect hT (Shape.Idx.first h) = tword hT i := rfl
theorem tword_v7 (c : Dev nD) (tT : Bf (F := F) c (Memref.whole main_v49)) (i : grid14.Coords) (h) :
    View.readAt (Elt F) (Memref.whole main_v49).view (rT i).toLoadRect tT (Shape.Idx.first h) = tword tT i := rfl

/-- a word below the table's height names a row inside the table: the two conditions the body assumes -/
theorem chk1_of_lt (w : BitVec 32) (h : w.toNat < 200000) : k14_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k14_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k14_pay2 j (k14_pay6 hrow trow rel) (k14_pay7 hrow trow rel) (k14_pay1 (F := F))
/-- after a later step: the point's contribution added to the block's contents -/
def stepv (hrow trow rel : Vec F S1x256 .f32) (j : BitVec 32) (acc : Vec F S128 .f32) : Vec F S128 .f32 :=
  k14_pay2 j (k14_pay6 hrow trow rel) (k14_pay7 hrow trow rel) acc

theorem firstv_apply (hrow trow rel : Vec F S1x256 .f32) (j : BitVec 32) (y : S128.Idx) :
    firstv hrow trow rel j y = k14_pay2 j (k14_pay6 hrow trow rel) (k14_pay7 hrow trow rel) (k14_pay1 (F := F)) y := rfl
theorem stepv_apply (hrow trow rel : Vec F S1x256 .f32) (j : BitVec 32) (acc : Vec F S128 .f32) (y : S128.Idx) :
    stepv hrow trow rel j acc y = k14_pay2 j (k14_pay6 hrow trow rel) (k14_pay7 hrow trow rel) acc y := rfl

end Cert.Proof.KI14

end
-- ==== Proof.KI14Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KI14Defs
import proofs.«414028_j29231547417249_2_alg».proof.Proof.KIAdm
import Idealize.ShloMosaic.Lib.Pipeline.Dat
import Idealize.ShloMosaic.Lib.Pipeline.Kit

noncomputable section

namespace Cert.Proof.KI14

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg14 (F := F)).Adm := Cert.Proof.KI.adm m (14 : Fin 16)
abbrev cfgA : Pipeline.Cfg sig Λ₀ := cfg14 (adm0 m)
abbrev hTab : IVec S65536 32 := Cert.Proof.KI.tbl14 m 0
abbrev tTab : IVec S65536 32 := Cert.Proof.KI.tbl14 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v48) (hTab m) ∗ pt c (Memref.whole main_v49) (tTab m) ∗ nodeSh c (nodeA m c)
    ∗ ((Memref.whole main_arg0).view.loc (c : Thread nD τ) ↦[Finset.univ]{Transfers.shareDrop fullShare 2} nodeA m c)
    ∗ (∃ s0, pt c (Memref.whole cc14_scratch0) s0) ∗ (∃ s1, pt c (Memref.whole cc14_scratch1) s1) ∗ sems0 c
    ∗ Pipeline.scopedRestBut (Ix := Unit) (Name := ℕ) (U := UC) (Lvl := ℕ) (Val := Elt F) spec14 c [cc14_scratch0, cc14_scratch1])

/-- Region 0's proof data on core `c`. -/
def dat0 (c : Dev nD) : Dat τ (Elt F) Unit ℕ UC ℕ (cfgA m) c where
  A w := m ((c : Thread nD τ).loc (Pipeline.arrRef spec14 w))
  after w t := match w with
    | ⟨0, _⟩ => relA m c
    | ⟨1, _⟩ => accA m c t.val t.isLt
  Φ _ := Φv m c
  q _ := fullShare
  owed _ := 0

end Cert.Proof.KI14

end
-- ==== Proof.KI15Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.KernelIdeal
import proofs.«414028_j29231547417249_2_alg».proof.Proof.Gen.KernelIdeal.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KI15

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 78) 0 ∗ semVal ((c : Thread nD τ), SemLoc.dma 79) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid15.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid15.Coords) : Rect S65536 := Rect.unit (s := S65536) (k15_off1 i) S1.size (k15_off1_inb i)

/-- the table word the body reads at point i: the table's contents at the index the one-word load names -/
def tword (T : IVec S65536 32) (i : grid15.Coords) : BitVec 32 :=
  T ((rT i).toLoadRect.idx (Shape.Idx.first (numel1_S1.symm ▸ Nat.one_pos)))

theorem flat_lt (i : grid15.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k15_off1_val (i : grid15.Coords) : k15_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid15.Coords) :
    tword T i = T (ValueIdx.ix1 ⟨(i 0).val * 128 + (i 1).val, flat_lt i⟩) := by
  unfold tword
  congr 1
  funext d
  match d with
  | ⟨0, _⟩ => exact Fin.ext (by show k15_off1 i 0 + 1 * 0 = (i 0).val * 128 + (i 1).val; have := k15_off1_val i; omega)

/-- the words the two one-word loads return are the table words -/
theorem tword_v6 (c : Dev nD) (hT : Bf (F := F) c (Memref.whole main_v51)) (i : grid15.Coords) (h) :
    View.readAt (Elt F) (Memref.whole main_v51).view (rT i).toLoadRect hT (Shape.Idx.first h) = tword hT i := rfl
theorem tword_v7 (c : Dev nD) (tT : Bf (F := F) c (Memref.whole main_v52)) (i : grid15.Coords) (h) :
    View.readAt (Elt F) (Memref.whole main_v52).view (rT i).toLoadRect tT (Shape.Idx.first h) = tword tT i := rfl

/-- a word below the table's height names a row inside the table: the two conditions the body assumes -/
theorem chk1_of_lt (w : BitVec 32) (h : w.toNat < 200000) : k15_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k15_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k15_pay2 j (k15_pay6 hrow trow rel) (k15_pay7 hrow trow rel) (k15_pay1 (F := F))
/-- after a later step: the point's contribution added to the block's contents -/
def stepv (hrow trow rel : Vec F S1x256 .f32) (j : BitVec 32) (acc : Vec F S128 .f32) : Vec F S128 .f32 :=
  k15_pay2 j (k15_pay6 hrow trow rel) (k15_pay7 hrow trow rel) acc

theorem firstv_apply (hrow trow rel : Vec F S1x256 .f32) (j : BitVec 32) (y : S128.Idx) :
    firstv hrow trow rel j y = k15_pay2 j (k15_pay6 hrow trow rel) (k15_pay7 hrow trow rel) (k15_pay1 (F := F)) y := rfl
theorem stepv_apply (hrow trow rel : Vec F S1x256 .f32) (j : BitVec 32) (acc : Vec F S128 .f32) (y : S128.Idx) :
    stepv hrow trow rel j acc y = k15_pay2 j (k15_pay6 hrow trow rel) (k15_pay7 hrow trow rel) acc y := rfl

end Cert.Proof.KI15

end
-- ==== Proof.KI15Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KI15Defs
import proofs.«414028_j29231547417249_2_alg».proof.Proof.KIAdm
import Idealize.ShloMosaic.Lib.Pipeline.Dat
import Idealize.ShloMosaic.Lib.Pipeline.Kit

noncomputable section

namespace Cert.Proof.KI15

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg15 (F := F)).Adm := Cert.Proof.KI.adm m (15 : Fin 16)
abbrev cfgA : Pipeline.Cfg sig Λ₀ := cfg15 (adm0 m)
abbrev hTab : IVec S65536 32 := Cert.Proof.KI.tbl15 m 0
abbrev tTab : IVec S65536 32 := Cert.Proof.KI.tbl15 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v51) (hTab m) ∗ pt c (Memref.whole main_v52) (tTab m) ∗ nodeSh c (nodeA m c)
    ∗ ((Memref.whole main_arg0).view.loc (c : Thread nD τ) ↦[Finset.univ]{Transfers.shareDrop fullShare 2} nodeA m c)
    ∗ (∃ s0, pt c (Memref.whole cc15_scratch0) s0) ∗ (∃ s1, pt c (Memref.whole cc15_scratch1) s1) ∗ sems0 c
    ∗ Pipeline.scopedRestBut (Ix := Unit) (Name := ℕ) (U := UC) (Lvl := ℕ) (Val := Elt F) spec15 c [cc15_scratch0, cc15_scratch1])

/-- Region 0's proof data on core `c`. -/
def dat0 (c : Dev nD) : Dat τ (Elt F) Unit ℕ UC ℕ (cfgA m) c where
  A w := m ((c : Thread nD τ).loc (Pipeline.arrRef spec15 w))
  after w t := match w with
    | ⟨0, _⟩ => relA m c
    | ⟨1, _⟩ => accA m c t.val t.isLt
  Φ _ := Φv m c
  q _ := fullShare
  owed _ := 0

end Cert.Proof.KI15

end
-- ==== Proof.KIDats.lean ====
/-
  The sixteen regions' proof data as one family over the region's number, and what each region leaves in the one
  buffer it may change: its output array at what the pipeline's write-backs fold to (the library's `arrAt` at the last
  point). Every other buffer a region finds, it leaves.
-/
import proofs.«414028_j29231547417249_2_alg».proof.Proof.KI0Data
import proofs.«414028_j29231547417249_2_alg».proof.Proof.KI1Data
import proofs.«414028_j29231547417249_2_alg».proof.Proof.KI2Data
import proofs.«414028_j29231547417249_2_alg».proof.Proof.KI3Data
import proofs.«414028_j29231547417249_2_alg».proof.Proof.KI4Data
import proofs.«414028_j29231547417249_2_alg».proof.Proof.KI5Data
import proofs.«414028_j29231547417249_2_alg».proof.Proof.KI6Data
import proofs.«414028_j29231547417249_2_alg».proof.Proof.KI7Data
import proofs.«414028_j29231547417249_2_alg».proof.Proof.KI8Data
import proofs.«414028_j29231547417249_2_alg».proof.Proof.KI9Data
import proofs.«414028_j29231547417249_2_alg».proof.Proof.KI10Data
import proofs.«414028_j29231547417249_2_alg».proof.Proof.KI11Data
import proofs.«414028_j29231547417249_2_alg».proof.Proof.KI12Data
import proofs.«414028_j29231547417249_2_alg».proof.Proof.KI13Data
import proofs.«414028_j29231547417249_2_alg».proof.Proof.KI14Data
import proofs.«414028_j29231547417249_2_alg».proof.Proof.KI15Data
import proofs.«414028_j29231547417249_2_alg».proof.Proof.KernelIdealRegions
import Idealize.ShloMosaic.Lib.Pipeline.FrameSuffix

noncomputable section

namespace Cert.Proof.KI

open Cert.KernelIdeal Cert.KernelIdeal.Gen Cert.KernelIdeal.GenP
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The proof data of region `p` on core `c`. -/
def pdats : (p : Fin 16) → (c : Dev nD) → Dat τ (Elt F) Unit ℕ Cert.Proof.KI0.UC ℕ (Pipeline.pin (pcfgs (F := F)) (adm m) p) c
  | ⟨0, _⟩ => fun c => Cert.Proof.KI0.dat0 m c
  | ⟨1, _⟩ => fun c => Cert.Proof.KI1.dat0 m c
  | ⟨2, _⟩ => fun c => Cert.Proof.KI2.dat0 m c
  | ⟨3, _⟩ => fun c => Cert.Proof.KI3.dat0 m c
  | ⟨4, _⟩ => fun c => Cert.Proof.KI4.dat0 m c
  | ⟨5, _⟩ => fun c => Cert.Proof.KI5.dat0 m c
  | ⟨6, _⟩ => fun c => Cert.Proof.KI6.dat0 m c
  | ⟨7, _⟩ => fun c => Cert.Proof.KI7.dat0 m c
  | ⟨8, _⟩ => fun c => Cert.Proof.KI8.dat0 m c
  | ⟨9, _⟩ => fun c => Cert.Proof.KI9.dat0 m c
  | ⟨10, _⟩ => fun c => Cert.Proof.KI10.dat0 m c
  | ⟨11, _⟩ => fun c => Cert.Proof.KI11.dat0 m c
  | ⟨12, _⟩ => fun c => Cert.Proof.KI12.dat0 m c
  | ⟨13, _⟩ => fun c => Cert.Proof.KI13.dat0 m c
  | ⟨14, _⟩ => fun c => Cert.Proof.KI14.dat0 m c
  | ⟨15, _⟩ => fun c => Cert.Proof.KI15.dat0 m c
  | ⟨_ + 16, h⟩ => absurd h (Nat.not_lt.2 (Nat.le_add_left _ _))

/-- What the regions leave: after region K (item 2K+5 of @main) its output array holds the fold of its write-backs. -/
def outs : Outs (F := F) := fun J r c =>
  match J with
  | 6 => Pipeline.withArrays spec0 c (V0 m c) (fun w => (Cert.Proof.KI0.dat0 m c).arrAt w (Cert.Proof.KI0.cfgA m).N) r
  | 8 => Pipeline.withArrays spec1 c (V0 m c) (fun w => (Cert.Proof.KI1.dat0 m c).arrAt w (Cert.Proof.KI1.cfgA m).N) r
  | 10 => Pipeline.withArrays spec2 c (V0 m c) (fun w => (Cert.Proof.KI2.dat0 m c).arrAt w (Cert.Proof.KI2.cfgA m).N) r
  | 12 => Pipeline.withArrays spec3 c (V0 m c) (fun w => (Cert.Proof.KI3.dat0 m c).arrAt w (Cert.Proof.KI3.cfgA m).N) r
  | 14 => Pipeline.withArrays spec4 c (V0 m c) (fun w => (Cert.Proof.KI4.dat0 m c).arrAt w (Cert.Proof.KI4.cfgA m).N) r
  | 16 => Pipeline.withArrays spec5 c (V0 m c) (fun w => (Cert.Proof.KI5.dat0 m c).arrAt w (Cert.Proof.KI5.cfgA m).N) r
  | 18 => Pipeline.withArrays spec6 c (V0 m c) (fun w => (Cert.Proof.KI6.dat0 m c).arrAt w (Cert.Proof.KI6.cfgA m).N) r
  | 20 => Pipeline.withArrays spec7 c (V0 m c) (fun w => (Cert.Proof.KI7.dat0 m c).arrAt w (Cert.Proof.KI7.cfgA m).N) r
  | 22 => Pipeline.withArrays spec8 c (V0 m c) (fun w => (Cert.Proof.KI8.dat0 m c).arrAt w (Cert.Proof.KI8.cfgA m).N) r
  | 24 => Pipeline.withArrays spec9 c (V0 m c) (fun w => (Cert.Proof.KI9.dat0 m c).arrAt w (Cert.Proof.KI9.cfgA m).N) r
  | 26 => Pipeline.withArrays spec10 c (V0 m c) (fun w => (Cert.Proof.KI10.dat0 m c).arrAt w (Cert.Proof.KI10.cfgA m).N) r
  | 28 => Pipeline.withArrays spec11 c (V0 m c) (fun w => (Cert.Proof.KI11.dat0 m c).arrAt w (Cert.Proof.KI11.cfgA m).N) r
  | 30 => Pipeline.withArrays spec12 c (V0 m c) (fun w => (Cert.Proof.KI12.dat0 m c).arrAt w (Cert.Proof.KI12.cfgA m).N) r
  | 32 => Pipeline.withArrays spec13 c (V0 m c) (fun w => (Cert.Proof.KI13.dat0 m c).arrAt w (Cert.Proof.KI13.cfgA m).N) r
  | 34 => Pipeline.withArrays spec14 c (V0 m c) (fun w => (Cert.Proof.KI14.dat0 m c).arrAt w (Cert.Proof.KI14.cfgA m).N) r
  | 36 => Pipeline.withArrays spec15 c (V0 m c) (fun w => (Cert.Proof.KI15.dat0 m c).arrAt w (Cert.Proof.KI15.cfgA m).N) r
  | _ => V0 m c r

end Cert.Proof.KI

end
-- ==== Proof.KIThread.lean ====
/-
  What every region's record shares. No core owes another anything, so no level is assigned to any cell; and beside
  the unscoped buffers, all a core carries from one item of @main to the next is what it owes: nothing, under some
  set of recorded waits.
-/
import proofs.«414028_j29231547417249_2_alg».proof.Proof.KI0Defs

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ Cert.Proof.KI0.UC ℕ

/-- No level is assigned to any cell. -/
abbrev L : GSem nD τ sig → Finset Unit := fun _ => ∅
abbrev lv : GSem nD τ sig → Unit → ℕ := fun _ _ => 0

/-- The thread state beside the buffers, before item j: the core owes nothing. -/
abbrev E (j : Fin 17) (c : Dev nD) : sProp 𝕄 :=
  iprop(∃ W, owes (c : Thread nD τ) (0 : CellTallies nD τ sig Unit) W)

end Cert.Proof.KI

end
-- ==== Proof.KI0Chains.lean ====
/-
  Region 0 is entered from the valuation after item 4 of @main. No earlier item writes the node table, the relation row,
  the region's output array or the padded index rows, and the region's two tables are the slices cut out of the padded
  rows at offset 0: each buffer the region is handed holds a function of the launch memory alone.
-/
import proofs.«414028_j29231547417249_2_alg».proof.Proof.KIAdm
import Idealize.ShloMosaic.Lib.StableHlo.Run

set_option maxRecDepth 4096

noncomputable section

namespace Cert.Proof.KI0

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V5 m c main_arg0 = m ((c : Thread nD τ).loc main_arg0) :=
  (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V5 m c main_arg1 = m ((c : Thread nD τ).loc main_arg1) :=
  (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V5 m c main_v8 = m ((c : Thread nD τ).loc main_v8) :=
  (V5_of m c main_v8 (by decide)).trans <| (V4_of m c main_v8 (by decide)).trans <| (V3_of m c main_v8 (by decide)).trans <| (V2_of m c main_v8 (by decide)).trans <| (V1_of m c main_v8 (by decide)).trans <| rfl
/-- The stretch before the region cuts the table out of the padded row, whatever the valuation it runs from. -/
theorem slice_h (X : Valuation τ sig (Elt F)) :
    StableHlo.after (hostOps0_4 (F := F)) X (Proc.devRef .tc main_v6)
      = extractStridedSlice S65536 ![0] (X (Proc.devRef .tc main_v4)) slices_S1048576_S65536_0 := by
  after_results
/-- The stretch before the region cuts the table out of the padded row, whatever the valuation it runs from. -/
theorem slice_t (X : Valuation τ sig (Elt F)) :
    StableHlo.after (hostOps0_4 (F := F)) X (Proc.devRef .tc main_v7)
      = extractStridedSlice S65536 ![0] (X (Proc.devRef .tc main_v5)) slices_S1048576_S65536_0 := by
  after_results
theorem ent_tab0 (c : Dev nD) : V5 m c main_v6 = Cert.Proof.KI.tv0 m main_v6 := by
  obtain rfl : c = (0 : Dev nD) := Subsingleton.elim _ _
  rfl
theorem ent_tab1 (c : Dev nD) : V5 m c main_v7 = Cert.Proof.KI.tv0 m main_v7 := by
  obtain rfl : c = (0 : Dev nD) := Subsingleton.elim _ _
  rfl
theorem ent_tab (c : Dev nD) (k : Fin 2) : V5 m c (pre0.ref k) = Cert.Proof.KI.tbl0 m k :=
  match k with
  | ⟨0, _⟩ => ent_tab0 m c
  | ⟨1, _⟩ => ent_tab1 m c

end Cert.Proof.KI0

end
-- ==== Proof.KI0Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.KernelIdeal
import proofs.«414028_j29231547417249_2_alg».proof.Proof.Gen.KernelIdeal.Launch
import Idealize.ShloMosaic.Lib.Pipeline.Dat

noncomputable section

namespace Cert.Proof.KI0

open Cert.KernelIdeal Cert.KernelIdeal.Gen Idealize.ShloMosaic

variable {F : FTy → Type} [FloatOps F] (a : (pcfg0 (F := F)).Adm)

/-! ## The points and their coordinates -/

theorem N_eq : (cfg0 a).N = 65536 := N_0

theorem lt_N (t : Fin (cfg0 a).N) : t.val < 65536 := Nat.lt_of_lt_of_eq t.isLt (N_eq a)

/-- Each value of the first coordinate is shared by 128 consecutive points, each value of the second by one. -/
theorem stride0 : grid0.stride 0 = 128 := by decide
theorem stride1 : grid0.stride 1 = 1 := by decide

theorem coords0 (t : Fin (cfg0 a).N) : (((cfg0 a).grid.coords t) 0).val = t.val / 128 := by
  have ht := lt_N a t
  show t.val / grid0.stride 0 % 512 = t.val / 128
  rw [stride0]; omega

theorem coords1 (t : Fin (cfg0 a).N) : (((cfg0 a).grid.coords t) 1).val = t.val % 128 := by
  show t.val / grid0.stride 1 % 128 = t.val % 128
  rw [stride1, Nat.div_one]

theorem flat_eq (t : Fin (cfg0 a).N) :
    (((cfg0 a).grid.coords t) 0).val * 128 + (((cfg0 a).grid.coords t) 1).val = t.val := by
  rw [coords0, coords1]; omega

/-! ## The windows' block indices -/

/-- Window 0's block index is constant. -/
theorem index0 (s t : Fin (cfg0 a).N) : ((cfg0 a).win 0).index s = ((cfg0 a).win 0).index t := rfl

/-- Window 1's block index at a point is the point's first coordinate. -/
theorem index1 (s : Fin (cfg0 a).N) : ((cfg0 a).win 1).index s = ![s.val / 128] := by
  have hs := lt_N a s
  show ![(BitVec.ofNat 32 (((cfg0 a).grid.coords s) 0).val).toNat] = ![s.val / 128]
  rw [coords0 a s, BitVec.toNat_ofNat, Nat.mod_eq_of_lt (by omega)]

/-! ## Fetches and write-backs -/

theorem fetch0 (t : Fin (cfg0 a).N) : ((cfg0 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg0 a).N) : ((cfg0 a).win 1).fetch t = false := by
  unfold Pipeline.Window.fetch
  show (!true && _) = false
  rfl

theorem flush0 (t : Fin (cfg0 a).N) : ((cfg0 a).win 0).flush t = false := by
  unfold Pipeline.Window.flush
  show (false && _) = false
  rfl

theorem flush1 (t : Fin (cfg0 a).N) : ((cfg0 a).win 1).flush t = decide (t.val % 128 = 127) := by
  have ht := lt_N a t
  have hN : (cfg0 a).grid.N = 65536 := N_eq a
  unfold Pipeline.Window.flush
  show (true && (decide (t.val + 1 = (cfg0 a).grid.N)
    || decide (∃ h : t.val + 1 < (cfg0 a).grid.N, ((cfg0 a).win 1).index ⟨t.val + 1, h⟩ ≠ ((cfg0 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg0 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg0 a).W) (t : Fin (cfg0 a).N) : (cfg0 a).idle w ((cfg0 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg0 a).N) :
    Scalar.cmpi .ne (Scalar.extui (Scalar.cmpi .eq (BitVec.ofNat 32 (((cfg0 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg0 a).N) (A : Vec F S1x256 .f32) (y : S1x256.Idx) :
    (((cfg0 a).win 0).blk t).view.read (Elt F) A y = A y := by
  show A ((((cfg0 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg0 a).N) (y : S128.Idx) :
    ((((cfg0 a).win 1).blk t).view.emb y (0 : Fin 1)).val = 128 * (t.val / 128) + (y 0).val := by
  have hi : ((cfg0 a).win 1).index t (0 : Fin 1) = t.val / 128 := by rw [index1]; rfl
  show ((cfg0 a).win 1).index t (0 : Fin 1) * 128 + 1 * (y 0).val = 128 * (t.val / 128) + (y 0).val
  rw [hi]; omega

end Cert.Proof.KI0

end
-- ==== Proof.KI0Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KI0Defs
import proofs.«414028_j29231547417249_2_alg».proof.Proof.Gen.KernelIdeal.Launch
import Idealize.ShloMosaic.Lib.Tactic

noncomputable section

namespace Cert.Proof.KI0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k0_pay2 j (k0_pay6 X18 X19 X20) (k0_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k0_pay2 j (k0_pay6 X18 X19 X20) (k0_pay7 X18 X19 X20)
              (m.view.readCov [⟨Rect.unit (s := S128) ![0] S128.size inb_S128_S128_0, k0_pay1 (F := F)⟩]
                (Rect.unit (s := S128) ![0] S128.size inb_S128_S128_0).toLoadRect)⟩,
          ⟨Rect.unit (s := S128) ![0] S128.size inb_S128_S128_0, k0_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid0.Coords) (M5 : Memref sig .tc .vmem S1x256 .f32) (h5 : M5.IsWhole) (M6 : Memref sig .tc .vmem S128 .f32) (h6 : M6.IsWhole)
    (hT : Bf (F := F) c (Memref.whole main_v6)) (tT : Bf (F := F) c (Memref.whole main_v7)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v6) hT ∗ pt c (Memref.whole main_v7) tT ∗ nodeSh c node
      ∗ (∃ s0, pt c (Memref.whole cc0_scratch0) s0) ∗ (∃ s1, pt c (Memref.whole cc0_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v6) hT ∗ pt c (Memref.whole main_v7) tT ∗ nodeSh c node
          ∗ (∃ s0, pt c (Memref.whole cc0_scratch0) s0) ∗ (∃ s1, pt c (Memref.whole cc0_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc0__lookup_kernel i (Memref.whole main_v6) (Memref.isWhole_whole _) (Memref.whole main_v7) (Memref.isWhole_whole _) (Memref.whole main_arg0) (Memref.isWhole_whole _)
          M5 h5 M6 h6 (Memref.whole cc0_scratch0) (Memref.isWhole_whole _) (Memref.whole cc0_scratch1) (Memref.isWhole_whole _) cc0_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid0.Coords) (M5 : Memref sig .tc .vmem S1x256 .f32) (h5 : M5.IsWhole) (M6 : Memref sig .tc .vmem S128 .f32) (h6 : M6.IsWhole)
    (hT : Bf (F := F) c (Memref.whole main_v6)) (tT : Bf (F := F) c (Memref.whole main_v7)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v6) hT ∗ pt c (Memref.whole main_v7) tT ∗ nodeSh c node
      ∗ (∃ s0, pt c (Memref.whole cc0_scratch0) s0) ∗ (∃ s1, pt c (Memref.whole cc0_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v6) hT ∗ pt c (Memref.whole main_v7) tT ∗ nodeSh c node
          ∗ (∃ s0, pt c (Memref.whole cc0_scratch0) s0) ∗ (∃ s1, pt c (Memref.whole cc0_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc0__lookup_kernel i (Memref.whole main_v6) (Memref.isWhole_whole _) (Memref.whole main_v7) (Memref.isWhole_whole _) (Memref.whole main_arg0) (Memref.isWhole_whole _)
          M5 h5 M6 h6 (Memref.whole cc0_scratch0) (Memref.isWhole_whole _) (Memref.whole cc0_scratch1) (Memref.isWhole_whole _) cc0_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KI0

end
-- ==== Proof.KI0Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KI0Data
import proofs.«414028_j29231547417249_2_alg».proof.Proof.KI0Points
import proofs.«414028_j29231547417249_2_alg».proof.Proof.KI0Body
import proofs.«414028_j29231547417249_2_alg».proof.Proof.Gen.KernelIdeal.Launch
import Idealize.ShloMosaic.Lib.Pipeline.Frame

noncomputable section

namespace Cert.Proof.KI0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W0, bigSep_W0]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec0_0.stage ((cfgA m).slots t 0)) (hstage0_0 (((cfgA m).slots t 0).cast nbuf0_0))
      (spec0_1.stage ((cfgA m).slots t 1)) (hstage0_1 (((cfgA m).slots t 1).cast nbuf0_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec0_0.stage ((cfgA m).slots t 0)) (hstage0_0 (((cfgA m).slots t 0).cast nbuf0_0))
      (spec0_1.stage ((cfgA m).slots t 1)) (hstage0_1 (((cfgA m).slots t 1).cast nbuf0_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KI0

end
-- ==== Proof.KI0Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KIDats
import proofs.«414028_j29231547417249_2_alg».proof.Proof.KIThread
import proofs.«414028_j29231547417249_2_alg».proof.Proof.KI0Chains
import proofs.«414028_j29231547417249_2_alg».proof.Proof.KI0Oblig
import proofs.«414028_j29231547417249_2_alg».proof.Proof.Gen.KernelIdeal.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KI0

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 3 | 1 => .dma 4

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W0] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v6) (hTab m) ∗ pt c (Memref.whole main_v7) (tTab m))

/-- The invariant at the first point: the node table split into its shares, the tables, the two scratch rows out of the
    scoped rest. -/
theorem hin0 (c : Dev nD) :
    iprop(X0 m c ∗ Pipeline.prefHeld pre0 c (fun _ => fullShare) (Cert.Proof.KI.tbl0 m)
        ∗ Pipeline.scopedRest (Ix := Unit) (Name := ℕ) (U := UC) (Lvl := ℕ) (Val := Elt F) spec0 c)
      ⊢ Φv m c := by
  unfold Φv Pipeline.prefHeld
  rw [Gen.bigSep_W0, Gen.scopedRest0_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec0 c) := by
  unfold Φv
  rw [Gen.scopedRest0_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre0 spec0 \ {main_arg0}

theorem node_mem_rest : ({main_arg0} : Finset (Ref sig .tc)) ⊆ Pipeline.restRefsP sig pre0 spec0 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec0 c V : sProp 𝕄)
      = iprop(Pipeline.prefHeld pre0 c (fun _ => fullShare) (fun k => V (pre0.ref k))
          ∗ (((c : Thread nD τ).loc main_arg0) ↦{fullShare} V main_arg0)
          ∗ bigSep restZ fun b => ((c : Thread nD τ).loc b) ↦{fullShare} V b) := by
  rw [Pipeline.unscopedRest_split preFacts0 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v8) ↦{fullShare} V main_v8))
          ∗ ((((c : Thread nD τ).loc main_v6) ↦{fullShare} V main_v6) ∗ (((c : Thread nD τ).loc main_v7) ↦{fullShare} V main_v7))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts0.arr_unscoped winFacts0.arr_inj c, rest_split]
  unfold Pipeline.prefHeld
  rw [Gen.bigSep_W0, Gen.bigSep_W0]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v8) ↦{fullShare} G 1)) := by
  rw [Pipeline.arrays_eq (fun _ : Fin 1 => cfgA m) (fun _ c => dat0 m c) 0 c arr_whole0 ((dat0 m c).share_full fun _ => rfl) G, Gen.bigSep_W0]

/-- What bypasses the region: every other unscoped buffer, at its contents on entry. -/
abbrev Z0 (c : Dev nD) : sProp 𝕄 := bigSep restZ fun b => ((c : Thread nD τ).loc b) ↦{fullShare} V5 m c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V5 m c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre0 c (fun _ => fullShare) (Cert.Proof.KI.tbl0 m)
          ∗ (dat0 m c).owesAt () 0 ∗ X0 m c ∗ Z0 m c) := by
  rw [held_split m c (V5 m c), arrays_two, ent_arg0, ent_arg1, ent_out,
    show V5 m c main_v6 = hTab m from ent_tab m c 0, show V5 m c main_v7 = tTab m from ent_tab m c 1]
  unfold Pipeline.prefHeld
  rw [Gen.bigSep_W0]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v8)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V5 m c) main_v8 o)
          ∗ (∃ W, owes (c : Thread nD τ) (0 : CellTallies nD τ sig Unit) W)) := by
  have hne : ∀ b : Ref sig .tc, b ≠ main_v8 →
      Function.update (V5 m c) (Proc.devRef .tc main_v8) o (Proc.devRef .tc b) = V5 m c b :=
    fun b hb => Function.update_of_ne (StableHlo.devRef_ne_of_ne hb) _ _
  have hz : (bigSep restZ fun b => (((c : Thread nD τ).loc b) ↦{fullShare} Function.update (V5 m c) (Proc.devRef .tc main_v8) o b : sProp 𝕄))
      = Z0 m c :=
    BI.bigSep_congr fun b hb => by
      rw [hne b (fun e => by subst e; revert hb; decide)]
  rw [held_split m c (Function.update (V5 m c) main_v8 o), arrays_two, hz,
    hne main_arg1 (by decide), hne main_v6 (by decide), hne main_v7 (by decide), hne main_arg0 (by decide),
    Function.update_self, ent_arg0, ent_arg1,
    show V5 m c main_v6 = hTab m from ent_tab m c 0, show V5 m c main_v7 = tTab m from ent_tab m c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec0 osem := by decide

/-- What region 0 leaves in the output's array, by name: the fold of its write-backs. -/
theorem outs6 (c : Dev nD) : Cert.Proof.KI.outs m 6 main_v8 c = (dat0 m c).arrAt 1 (cfgA m).N :=
  Pipeline.withArrays_arr spec0 winFacts0.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KI.adm m) (Cert.Proof.KI.pdats m) () defs₀ Variants.none
      Cert.Proof.KI.L Cert.Proof.KI.lv (0 : Fin 16) where
  win := (launch0 (F := F)).win.to₀
  block_pos := (launch0 (F := F)).block_pos
  stage_whole := (launch0 (F := F)).stage_whole
  K := Fin 2
  osem := osem
  ho := ownSemFacts
  hbody c := (body_obligation m hH hTl c).loose
  hwaits := Pipeline.hwaits_of_owed_zero _ _ _ _ Cert.Proof.KI.L Cert.Proof.KI.lv (0 : Fin 16) fun _ _ => rfl
  pre c := iprop(StableHlo.held (c : Thread nD τ) (Pipeline.ucRefs τ sig) (V5 m c) ∗ Cert.Proof.KI.E 0 c)
  post c := iprop(StableHlo.held (c : Thread nD τ) (Pipeline.ucRefs τ sig) (V6 m (Cert.Proof.KI.outs m) c) ∗ Cert.Proof.KI.E 1 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KI.outs m 6 main_v8 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V5 m c) ∗ Cert.Proof.KI.E 0 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V6 m (Cert.Proof.KI.outs m) c) ∗ Cert.Proof.KI.E 1 c) := .rfl

end Cert.Proof.KI0

end
-- ==== Proof.KI1Chains.lean ====
/-
  Region 1 is entered from the valuation after item 6 of @main. No earlier item writes the node table, the relation row,
  the region's output array or the padded index rows, and the region's two tables are the slices cut out of the padded
  rows at offset 65536: each buffer the region is handed holds a function of the launch memory alone.
-/
import proofs.«414028_j29231547417249_2_alg».proof.Proof.KIAdm
import Idealize.ShloMosaic.Lib.StableHlo.Run

set_option maxRecDepth 4096

noncomputable section

namespace Cert.Proof.KI1

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V7 m outs c main_arg0 = m ((c : Thread nD τ).loc main_arg0) :=
  (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V7 m outs c main_arg1 = m ((c : Thread nD τ).loc main_arg1) :=
  (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V7 m outs c main_v11 = m ((c : Thread nD τ).loc main_v11) :=
  (V7_of m outs c main_v11 (by decide)).trans <| (V6_of m outs c main_v11 (by decide)).trans <| (V5_of m c main_v11 (by decide)).trans <| (V4_of m c main_v11 (by decide)).trans <| (V3_of m c main_v11 (by decide)).trans <| (V2_of m c main_v11 (by decide)).trans <| (V1_of m c main_v11 (by decide)).trans <| rfl
/-- The stretch before the region cuts the table out of the padded row, whatever the valuation it runs from. -/
theorem slice_h (X : Valuation τ sig (Elt F)) :
    StableHlo.after (hostOps1 (F := F)) X (Proc.devRef .tc main_v9)
      = extractStridedSlice S65536 ![65536] (X (Proc.devRef .tc main_v4)) slices_S1048576_S65536_65536 := by
  after_results
/-- The stretch before the region cuts the table out of the padded row, whatever the valuation it runs from. -/
theorem slice_t (X : Valuation τ sig (Elt F)) :
    StableHlo.after (hostOps1 (F := F)) X (Proc.devRef .tc main_v10)
      = extractStridedSlice S65536 ![65536] (X (Proc.devRef .tc main_v5)) slices_S1048576_S65536_65536 := by
  after_results
theorem ent_tab0 (c : Dev nD) : V7 m outs c main_v9 = Cert.Proof.KI.tv1 m main_v9 := by
  obtain rfl : c = (0 : Dev nD) := Subsingleton.elim _ _
  have e : V6 m outs (0 : Dev nD) main_v4 = V5 m (0 : Dev nD) main_v4 :=
    (V6_of m outs (0 : Dev nD) main_v4 (by decide)).trans <| rfl
  exact (slice_h (V6 m outs (0 : Dev nD))).trans ((congrArg (extractStridedSlice S65536 ![65536] · slices_S1048576_S65536_65536) e).trans (slice_h (V5 m (0 : Dev nD))).symm)
theorem ent_tab1 (c : Dev nD) : V7 m outs c main_v10 = Cert.Proof.KI.tv1 m main_v10 := by
  obtain rfl : c = (0 : Dev nD) := Subsingleton.elim _ _
  have e : V6 m outs (0 : Dev nD) main_v5 = V5 m (0 : Dev nD) main_v5 :=
    (V6_of m outs (0 : Dev nD) main_v5 (by decide)).trans <| rfl
  exact (slice_t (V6 m outs (0 : Dev nD))).trans ((congrArg (extractStridedSlice S65536 ![65536] · slices_S1048576_S65536_65536) e).trans (slice_t (V5 m (0 : Dev nD))).symm)
theorem ent_tab (c : Dev nD) (k : Fin 2) : V7 m outs c (pre1.ref k) = Cert.Proof.KI.tbl1 m k :=
  match k with
  | ⟨0, _⟩ => ent_tab0 m outs c
  | ⟨1, _⟩ => ent_tab1 m outs c

end Cert.Proof.KI1

end
-- ==== Proof.KI1Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.KernelIdeal
import proofs.«414028_j29231547417249_2_alg».proof.Proof.Gen.KernelIdeal.Launch
import Idealize.ShloMosaic.Lib.Pipeline.Dat

noncomputable section

namespace Cert.Proof.KI1

open Cert.KernelIdeal Cert.KernelIdeal.Gen Idealize.ShloMosaic

variable {F : FTy → Type} [FloatOps F] (a : (pcfg1 (F := F)).Adm)

/-! ## The points and their coordinates -/

theorem N_eq : (cfg1 a).N = 65536 := N_1

theorem lt_N (t : Fin (cfg1 a).N) : t.val < 65536 := Nat.lt_of_lt_of_eq t.isLt (N_eq a)

/-- Each value of the first coordinate is shared by 128 consecutive points, each value of the second by one. -/
theorem stride0 : grid1.stride 0 = 128 := by decide
theorem stride1 : grid1.stride 1 = 1 := by decide

theorem coords0 (t : Fin (cfg1 a).N) : (((cfg1 a).grid.coords t) 0).val = t.val / 128 := by
  have ht := lt_N a t
  show t.val / grid1.stride 0 % 512 = t.val / 128
  rw [stride0]; omega

theorem coords1 (t : Fin (cfg1 a).N) : (((cfg1 a).grid.coords t) 1).val = t.val % 128 := by
  show t.val / grid1.stride 1 % 128 = t.val % 128
  rw [stride1, Nat.div_one]

theorem flat_eq (t : Fin (cfg1 a).N) :
    (((cfg1 a).grid.coords t) 0).val * 128 + (((cfg1 a).grid.coords t) 1).val = t.val := by
  rw [coords0, coords1]; omega

/-! ## The windows' block indices -/

/-- Window 0's block index is constant. -/
theorem index0 (s t : Fin (cfg1 a).N) : ((cfg1 a).win 0).index s = ((cfg1 a).win 0).index t := rfl

/-- Window 1's block index at a point is the point's first coordinate. -/
theorem index1 (s : Fin (cfg1 a).N) : ((cfg1 a).win 1).index s = ![s.val / 128] := by
  have hs := lt_N a s
  show ![(BitVec.ofNat 32 (((cfg1 a).grid.coords s) 0).val).toNat] = ![s.val / 128]
  rw [coords0 a s, BitVec.toNat_ofNat, Nat.mod_eq_of_lt (by omega)]

/-! ## Fetches and write-backs -/

theorem fetch0 (t : Fin (cfg1 a).N) : ((cfg1 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg1 a).N) : ((cfg1 a).win 1).fetch t = false := by
  unfold Pipeline.Window.fetch
  show (!true && _) = false
  rfl

theorem flush0 (t : Fin (cfg1 a).N) : ((cfg1 a).win 0).flush t = false := by
  unfold Pipeline.Window.flush
  show (false && _) = false
  rfl

theorem flush1 (t : Fin (cfg1 a).N) : ((cfg1 a).win 1).flush t = decide (t.val % 128 = 127) := by
  have ht := lt_N a t
  have hN : (cfg1 a).grid.N = 65536 := N_eq a
  unfold Pipeline.Window.flush
  show (true && (decide (t.val + 1 = (cfg1 a).grid.N)
    || decide (∃ h : t.val + 1 < (cfg1 a).grid.N, ((cfg1 a).win 1).index ⟨t.val + 1, h⟩ ≠ ((cfg1 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg1 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg1 a).W) (t : Fin (cfg1 a).N) : (cfg1 a).idle w ((cfg1 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg1 a).N) :
    Scalar.cmpi .ne (Scalar.extui (Scalar.cmpi .eq (BitVec.ofNat 32 (((cfg1 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg1 a).N) (A : Vec F S1x256 .f32) (y : S1x256.Idx) :
    (((cfg1 a).win 0).blk t).view.read (Elt F) A y = A y := by
  show A ((((cfg1 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg1 a).N) (y : S128.Idx) :
    ((((cfg1 a).win 1).blk t).view.emb y (0 : Fin 1)).val = 128 * (t.val / 128) + (y 0).val := by
  have hi : ((cfg1 a).win 1).index t (0 : Fin 1) = t.val / 128 := by rw [index1]; rfl
  show ((cfg1 a).win 1).index t (0 : Fin 1) * 128 + 1 * (y 0).val = 128 * (t.val / 128) + (y 0).val
  rw [hi]; omega

end Cert.Proof.KI1

end
-- ==== Proof.KI1Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KI1Defs
import proofs.«414028_j29231547417249_2_alg».proof.Proof.Gen.KernelIdeal.Launch
import Idealize.ShloMosaic.Lib.Tactic

noncomputable section

namespace Cert.Proof.KI1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k1_pay2 j (k1_pay6 X18 X19 X20) (k1_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k1_pay2 j (k1_pay6 X18 X19 X20) (k1_pay7 X18 X19 X20)
              (m.view.readCov [⟨Rect.unit (s := S128) ![0] S128.size inb_S128_S128_0, k1_pay1 (F := F)⟩]
                (Rect.unit (s := S128) ![0] S128.size inb_S128_S128_0).toLoadRect)⟩,
          ⟨Rect.unit (s := S128) ![0] S128.size inb_S128_S128_0, k1_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid1.Coords) (M5 : Memref sig .tc .vmem S1x256 .f32) (h5 : M5.IsWhole) (M6 : Memref sig .tc .vmem S128 .f32) (h6 : M6.IsWhole)
    (hT : Bf (F := F) c (Memref.whole main_v9)) (tT : Bf (F := F) c (Memref.whole main_v10)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v9) hT ∗ pt c (Memref.whole main_v10) tT ∗ nodeSh c node
      ∗ (∃ s0, pt c (Memref.whole cc1_scratch0) s0) ∗ (∃ s1, pt c (Memref.whole cc1_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v9) hT ∗ pt c (Memref.whole main_v10) tT ∗ nodeSh c node
          ∗ (∃ s0, pt c (Memref.whole cc1_scratch0) s0) ∗ (∃ s1, pt c (Memref.whole cc1_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc1__lookup_kernel i (Memref.whole main_v9) (Memref.isWhole_whole _) (Memref.whole main_v10) (Memref.isWhole_whole _) (Memref.whole main_arg0) (Memref.isWhole_whole _)
          M5 h5 M6 h6 (Memref.whole cc1_scratch0) (Memref.isWhole_whole _) (Memref.whole cc1_scratch1) (Memref.isWhole_whole _) cc1_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid1.Coords) (M5 : Memref sig .tc .vmem S1x256 .f32) (h5 : M5.IsWhole) (M6 : Memref sig .tc .vmem S128 .f32) (h6 : M6.IsWhole)
    (hT : Bf (F := F) c (Memref.whole main_v9)) (tT : Bf (F := F) c (Memref.whole main_v10)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v9) hT ∗ pt c (Memref.whole main_v10) tT ∗ nodeSh c node
      ∗ (∃ s0, pt c (Memref.whole cc1_scratch0) s0) ∗ (∃ s1, pt c (Memref.whole cc1_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v9) hT ∗ pt c (Memref.whole main_v10) tT ∗ nodeSh c node
          ∗ (∃ s0, pt c (Memref.whole cc1_scratch0) s0) ∗ (∃ s1, pt c (Memref.whole cc1_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc1__lookup_kernel i (Memref.whole main_v9) (Memref.isWhole_whole _) (Memref.whole main_v10) (Memref.isWhole_whole _) (Memref.whole main_arg0) (Memref.isWhole_whole _)
          M5 h5 M6 h6 (Memref.whole cc1_scratch0) (Memref.isWhole_whole _) (Memref.whole cc1_scratch1) (Memref.isWhole_whole _) cc1_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KI1

end
-- ==== Proof.KI1Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KI1Data
import proofs.«414028_j29231547417249_2_alg».proof.Proof.KI1Points
import proofs.«414028_j29231547417249_2_alg».proof.Proof.KI1Body
import proofs.«414028_j29231547417249_2_alg».proof.Proof.Gen.KernelIdeal.Launch
import Idealize.ShloMosaic.Lib.Pipeline.Frame

noncomputable section

namespace Cert.Proof.KI1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W1, bigSep_W1]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec1_0.stage ((cfgA m).slots t 0)) (hstage1_0 (((cfgA m).slots t 0).cast nbuf1_0))
      (spec1_1.stage ((cfgA m).slots t 1)) (hstage1_1 (((cfgA m).slots t 1).cast nbuf1_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec1_0.stage ((cfgA m).slots t 0)) (hstage1_0 (((cfgA m).slots t 0).cast nbuf1_0))
      (spec1_1.stage ((cfgA m).slots t 1)) (hstage1_1 (((cfgA m).slots t 1).cast nbuf1_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KI1

end
-- ==== Proof.KI1Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KIDats
import proofs.«414028_j29231547417249_2_alg».proof.Proof.KIThread
import proofs.«414028_j29231547417249_2_alg».proof.Proof.KI1Chains
import proofs.«414028_j29231547417249_2_alg».proof.Proof.KI1Oblig
import proofs.«414028_j29231547417249_2_alg».proof.Proof.Gen.KernelIdeal.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KI1

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 8 | 1 => .dma 9

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W1] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v9) (hTab m) ∗ pt c (Memref.whole main_v10) (tTab m))

/-- The invariant at the first point: the node table split into its shares, the tables, the two scratch rows out of the
    scoped rest. -/
theorem hin0 (c : Dev nD) :
    iprop(X0 m c ∗ Pipeline.prefHeld pre1 c (fun _ => fullShare) (Cert.Proof.KI.tbl1 m)
        ∗ Pipeline.scopedRest (Ix := Unit) (Name := ℕ) (U := UC) (Lvl := ℕ) (Val := Elt F) spec1 c)
      ⊢ Φv m c := by
  unfold Φv Pipeline.prefHeld
  rw [Gen.bigSep_W1, Gen.scopedRest1_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec1 c) := by
  unfold Φv
  rw [Gen.scopedRest1_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre1 spec1 \ {main_arg0}

theorem node_mem_rest : ({main_arg0} : Finset (Ref sig .tc)) ⊆ Pipeline.restRefsP sig pre1 spec1 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec1 c V : sProp 𝕄)
      = iprop(Pipeline.prefHeld pre1 c (fun _ => fullShare) (fun k => V (pre1.ref k))
          ∗ (((c : Thread nD τ).loc main_arg0) ↦{fullShare} V main_arg0)
          ∗ bigSep restZ fun b => ((c : Thread nD τ).loc b) ↦{fullShare} V b) := by
  rw [Pipeline.unscopedRest_split preFacts1 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v11) ↦{fullShare} V main_v11))
          ∗ ((((c : Thread nD τ).loc main_v9) ↦{fullShare} V main_v9) ∗ (((c : Thread nD τ).loc main_v10) ↦{fullShare} V main_v10))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts1.arr_unscoped winFacts1.arr_inj c, rest_split]
  unfold Pipeline.prefHeld
  rw [Gen.bigSep_W1, Gen.bigSep_W1]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v11) ↦{fullShare} G 1)) := by
  rw [Pipeline.arrays_eq (fun _ : Fin 1 => cfgA m) (fun _ c => dat0 m c) 0 c arr_whole1 ((dat0 m c).share_full fun _ => rfl) G, Gen.bigSep_W1]

/-- What bypasses the region: every other unscoped buffer, at its contents on entry. -/
abbrev Z0 (c : Dev nD) : sProp 𝕄 := bigSep restZ fun b => ((c : Thread nD τ).loc b) ↦{fullShare} V7 m (Cert.Proof.KI.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V7 m (Cert.Proof.KI.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre1 c (fun _ => fullShare) (Cert.Proof.KI.tbl1 m)
          ∗ (dat0 m c).owesAt () 0 ∗ X0 m c ∗ Z0 m c) := by
  rw [held_split m c (V7 m (Cert.Proof.KI.outs m) c), arrays_two, ent_arg0, ent_arg1, ent_out,
    show V7 m (Cert.Proof.KI.outs m) c main_v9 = hTab m from ent_tab m (Cert.Proof.KI.outs m) c 0, show V7 m (Cert.Proof.KI.outs m) c main_v10 = tTab m from ent_tab m (Cert.Proof.KI.outs m) c 1]
  unfold Pipeline.prefHeld
  rw [Gen.bigSep_W1]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v11)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V7 m (Cert.Proof.KI.outs m) c) main_v11 o)
          ∗ (∃ W, owes (c : Thread nD τ) (0 : CellTallies nD τ sig Unit) W)) := by
  have hne : ∀ b : Ref sig .tc, b ≠ main_v11 →
      Function.update (V7 m (Cert.Proof.KI.outs m) c) (Proc.devRef .tc main_v11) o (Proc.devRef .tc b) = V7 m (Cert.Proof.KI.outs m) c b :=
    fun b hb => Function.update_of_ne (StableHlo.devRef_ne_of_ne hb) _ _
  have hz : (bigSep restZ fun b => (((c : Thread nD τ).loc b) ↦{fullShare} Function.update (V7 m (Cert.Proof.KI.outs m) c) (Proc.devRef .tc main_v11) o b : sProp 𝕄))
      = Z0 m c :=
    BI.bigSep_congr fun b hb => by
      rw [hne b (fun e => by subst e; revert hb; decide)]
  rw [held_split m c (Function.update (V7 m (Cert.Proof.KI.outs m) c) main_v11 o), arrays_two, hz,
    hne main_arg1 (by decide), hne main_v9 (by decide), hne main_v10 (by decide), hne main_arg0 (by decide),
    Function.update_self, ent_arg0, ent_arg1,
    show V7 m (Cert.Proof.KI.outs m) c main_v9 = hTab m from ent_tab m (Cert.Proof.KI.outs m) c 0, show V7 m (Cert.Proof.KI.outs m) c main_v10 = tTab m from ent_tab m (Cert.Proof.KI.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec1 osem := by decide

/-- What region 0 leaves in the output's array, by name: the fold of its write-backs. -/
theorem outs6 (c : Dev nD) : Cert.Proof.KI.outs m 8 main_v11 c = (dat0 m c).arrAt 1 (cfgA m).N :=
  Pipeline.withArrays_arr spec1 winFacts1.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KI.adm m) (Cert.Proof.KI.pdats m) () defs₀ Variants.none
      Cert.Proof.KI.L Cert.Proof.KI.lv (1 : Fin 16) where
  win := (launch1 (F := F)).win.to₀
  block_pos := (launch1 (F := F)).block_pos
  stage_whole := (launch1 (F := F)).stage_whole
  K := Fin 2
  osem := osem
  ho := ownSemFacts
  hbody c := (body_obligation m hH hTl c).loose
  hwaits := Pipeline.hwaits_of_owed_zero _ _ _ _ Cert.Proof.KI.L Cert.Proof.KI.lv (1 : Fin 16) fun _ _ => rfl
  pre c := iprop(StableHlo.held (c : Thread nD τ) (Pipeline.ucRefs τ sig) (V7 m (Cert.Proof.KI.outs m) c) ∗ Cert.Proof.KI.E 1 c)
  post c := iprop(StableHlo.held (c : Thread nD τ) (Pipeline.ucRefs τ sig) (V8 m (Cert.Proof.KI.outs m) c) ∗ Cert.Proof.KI.E 2 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KI.outs m 8 main_v11 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V7 m (Cert.Proof.KI.outs m) c) ∗ Cert.Proof.KI.E 1 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V8 m (Cert.Proof.KI.outs m) c) ∗ Cert.Proof.KI.E 2 c) := .rfl

end Cert.Proof.KI1

end
-- ==== Proof.KI2Chains.lean ====
/-
  Region 2 is entered from the valuation after item 8 of @main. No earlier item writes the node table, the relation row,
  the region's output array or the padded index rows, and the region's two tables are the slices cut out of the padded
  rows at offset 131072: each buffer the region is handed holds a function of the launch memory alone.
-/
import proofs.«414028_j29231547417249_2_alg».proof.Proof.KIAdm
import Idealize.ShloMosaic.Lib.StableHlo.Run

set_option maxRecDepth 4096

noncomputable section

namespace Cert.Proof.KI2

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V9 m outs c main_arg0 = m ((c : Thread nD τ).loc main_arg0) :=
  (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V9 m outs c main_arg1 = m ((c : Thread nD τ).loc main_arg1) :=
  (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V9 m outs c main_v14 = m ((c : Thread nD τ).loc main_v14) :=
  (V9_of m outs c main_v14 (by decide)).trans <| (V8_of m outs c main_v14 (by decide)).trans <| (V7_of m outs c main_v14 (by decide)).trans <| (V6_of m outs c main_v14 (by decide)).trans <| (V5_of m c main_v14 (by decide)).trans <| (V4_of m c main_v14 (by decide)).trans <| (V3_of m c main_v14 (by decide)).trans <| (V2_of m c main_v14 (by decide)).trans <| (V1_of m c main_v14 (by decide)).trans <| rfl
/-- The stretch before the region cuts the table out of the padded row, whatever the valuation it runs from. -/
theorem slice_h (X : Valuation τ sig (Elt F)) :
    StableHlo.after (hostOps2 (F := F)) X (Proc.devRef .tc main_v12)
      = extractStridedSlice S65536 ![131072] (X (Proc.devRef .tc main_v4)) slices_S1048576_S65536_131072 := by
  after_results
/-- The stretch before the region cuts the table out of the padded row, whatever the valuation it runs from. -/
theorem slice_t (X : Valuation τ sig (Elt F)) :
    StableHlo.after (hostOps2 (F := F)) X (Proc.devRef .tc main_v13)
      = extractStridedSlice S65536 ![131072] (X (Proc.devRef .tc main_v5)) slices_S1048576_S65536_131072 := by
  after_results
theorem ent_tab0 (c : Dev nD) : V9 m outs c main_v12 = Cert.Proof.KI.tv2 m main_v12 := by
  obtain rfl : c = (0 : Dev nD) := Subsingleton.elim _ _
  have e : V8 m outs (0 : Dev nD) main_v4 = V5 m (0 : Dev nD) main_v4 :=
    (V8_of m outs (0 : Dev nD) main_v4 (by decide)).trans <| (V7_of m outs (0 : Dev nD) main_v4 (by decide)).trans <| (V6_of m outs (0 : Dev nD) main_v4 (by decide)).trans <| rfl
  exact (slice_h (V8 m outs (0 : Dev nD))).trans ((congrArg (extractStridedSlice S65536 ![131072] · slices_S1048576_S65536_131072) e).trans (slice_h (V5 m (0 : Dev nD))).symm)
theorem ent_tab1 (c : Dev nD) : V9 m outs c main_v13 = Cert.Proof.KI.tv2 m main_v13 := by
  obtain rfl : c = (0 : Dev nD) := Subsingleton.elim _ _
  have e : V8 m outs (0 : Dev nD) main_v5 = V5 m (0 : Dev nD) main_v5 :=
    (V8_of m outs (0 : Dev nD) main_v5 (by decide)).trans <| (V7_of m outs (0 : Dev nD) main_v5 (by decide)).trans <| (V6_of m outs (0 : Dev nD) main_v5 (by decide)).trans <| rfl
  exact (slice_t (V8 m outs (0 : Dev nD))).trans ((congrArg (extractStridedSlice S65536 ![131072] · slices_S1048576_S65536_131072) e).trans (slice_t (V5 m (0 : Dev nD))).symm)
theorem ent_tab (c : Dev nD) (k : Fin 2) : V9 m outs c (pre2.ref k) = Cert.Proof.KI.tbl2 m k :=
  match k with
  | ⟨0, _⟩ => ent_tab0 m outs c
  | ⟨1, _⟩ => ent_tab1 m outs c

end Cert.Proof.KI2

end
-- ==== Proof.KI2Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.KernelIdeal
import proofs.«414028_j29231547417249_2_alg».proof.Proof.Gen.KernelIdeal.Launch
import Idealize.ShloMosaic.Lib.Pipeline.Dat

noncomputable section

namespace Cert.Proof.KI2

open Cert.KernelIdeal Cert.KernelIdeal.Gen Idealize.ShloMosaic

variable {F : FTy → Type} [FloatOps F] (a : (pcfg2 (F := F)).Adm)

/-! ## The points and their coordinates -/

theorem N_eq : (cfg2 a).N = 65536 := N_2

theorem lt_N (t : Fin (cfg2 a).N) : t.val < 65536 := Nat.lt_of_lt_of_eq t.isLt (N_eq a)

/-- Each value of the first coordinate is shared by 128 consecutive points, each value of the second by one. -/
theorem stride0 : grid2.stride 0 = 128 := by decide
theorem stride1 : grid2.stride 1 = 1 := by decide

theorem coords0 (t : Fin (cfg2 a).N) : (((cfg2 a).grid.coords t) 0).val = t.val / 128 := by
  have ht := lt_N a t
  show t.val / grid2.stride 0 % 512 = t.val / 128
  rw [stride0]; omega

theorem coords1 (t : Fin (cfg2 a).N) : (((cfg2 a).grid.coords t) 1).val = t.val % 128 := by
  show t.val / grid2.stride 1 % 128 = t.val % 128
  rw [stride1, Nat.div_one]

theorem flat_eq (t : Fin (cfg2 a).N) :
    (((cfg2 a).grid.coords t) 0).val * 128 + (((cfg2 a).grid.coords t) 1).val = t.val := by
  rw [coords0, coords1]; omega

/-! ## The windows' block indices -/

/-- Window 0's block index is constant. -/
theorem index0 (s t : Fin (cfg2 a).N) : ((cfg2 a).win 0).index s = ((cfg2 a).win 0).index t := rfl

/-- Window 1's block index at a point is the point's first coordinate. -/
theorem index1 (s : Fin (cfg2 a).N) : ((cfg2 a).win 1).index s = ![s.val / 128] := by
  have hs := lt_N a s
  show ![(BitVec.ofNat 32 (((cfg2 a).grid.coords s) 0).val).toNat] = ![s.val / 128]
  rw [coords0 a s, BitVec.toNat_ofNat, Nat.mod_eq_of_lt (by omega)]

/-! ## Fetches and write-backs -/

theorem fetch0 (t : Fin (cfg2 a).N) : ((cfg2 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg2 a).N) : ((cfg2 a).win 1).fetch t = false := by
  unfold Pipeline.Window.fetch
  show (!true && _) = false
  rfl

theorem flush0 (t : Fin (cfg2 a).N) : ((cfg2 a).win 0).flush t = false := by
  unfold Pipeline.Window.flush
  show (false && _) = false
  rfl

theorem flush1 (t : Fin (cfg2 a).N) : ((cfg2 a).win 1).flush t = decide (t.val % 128 = 127) := by
  have ht := lt_N a t
  have hN : (cfg2 a).grid.N = 65536 := N_eq a
  unfold Pipeline.Window.flush
  show (true && (decide (t.val + 1 = (cfg2 a).grid.N)
    || decide (∃ h : t.val + 1 < (cfg2 a).grid.N, ((cfg2 a).win 1).index ⟨t.val + 1, h⟩ ≠ ((cfg2 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg2 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg2 a).W) (t : Fin (cfg2 a).N) : (cfg2 a).idle w ((cfg2 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg2 a).N) :
    Scalar.cmpi .ne (Scalar.extui (Scalar.cmpi .eq (BitVec.ofNat 32 (((cfg2 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg2 a).N) (A : Vec F S1x256 .f32) (y : S1x256.Idx) :
    (((cfg2 a).win 0).blk t).view.read (Elt F) A y = A y := by
  show A ((((cfg2 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg2 a).N) (y : S128.Idx) :
    ((((cfg2 a).win 1).blk t).view.emb y (0 : Fin 1)).val = 128 * (t.val / 128) + (y 0).val := by
  have hi : ((cfg2 a).win 1).index t (0 : Fin 1) = t.val / 128 := by rw [index1]; rfl
  show ((cfg2 a).win 1).index t (0 : Fin 1) * 128 + 1 * (y 0).val = 128 * (t.val / 128) + (y 0).val
  rw [hi]; omega

end Cert.Proof.KI2

end
-- ==== Proof.KI2Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KI2Defs
import proofs.«414028_j29231547417249_2_alg».proof.Proof.Gen.KernelIdeal.Launch
import Idealize.ShloMosaic.Lib.Tactic

noncomputable section

namespace Cert.Proof.KI2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k2_pay2 j (k2_pay6 X18 X19 X20) (k2_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k2_pay2 j (k2_pay6 X18 X19 X20) (k2_pay7 X18 X19 X20)
              (m.view.readCov [⟨Rect.unit (s := S128) ![0] S128.size inb_S128_S128_0, k2_pay1 (F := F)⟩]
                (Rect.unit (s := S128) ![0] S128.size inb_S128_S128_0).toLoadRect)⟩,
          ⟨Rect.unit (s := S128) ![0] S128.size inb_S128_S128_0, k2_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid2.Coords) (M5 : Memref sig .tc .vmem S1x256 .f32) (h5 : M5.IsWhole) (M6 : Memref sig .tc .vmem S128 .f32) (h6 : M6.IsWhole)
    (hT : Bf (F := F) c (Memref.whole main_v12)) (tT : Bf (F := F) c (Memref.whole main_v13)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v12) hT ∗ pt c (Memref.whole main_v13) tT ∗ nodeSh c node
      ∗ (∃ s0, pt c (Memref.whole cc2_scratch0) s0) ∗ (∃ s1, pt c (Memref.whole cc2_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v12) hT ∗ pt c (Memref.whole main_v13) tT ∗ nodeSh c node
          ∗ (∃ s0, pt c (Memref.whole cc2_scratch0) s0) ∗ (∃ s1, pt c (Memref.whole cc2_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc2__lookup_kernel i (Memref.whole main_v12) (Memref.isWhole_whole _) (Memref.whole main_v13) (Memref.isWhole_whole _) (Memref.whole main_arg0) (Memref.isWhole_whole _)
          M5 h5 M6 h6 (Memref.whole cc2_scratch0) (Memref.isWhole_whole _) (Memref.whole cc2_scratch1) (Memref.isWhole_whole _) cc2_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid2.Coords) (M5 : Memref sig .tc .vmem S1x256 .f32) (h5 : M5.IsWhole) (M6 : Memref sig .tc .vmem S128 .f32) (h6 : M6.IsWhole)
    (hT : Bf (F := F) c (Memref.whole main_v12)) (tT : Bf (F := F) c (Memref.whole main_v13)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v12) hT ∗ pt c (Memref.whole main_v13) tT ∗ nodeSh c node
      ∗ (∃ s0, pt c (Memref.whole cc2_scratch0) s0) ∗ (∃ s1, pt c (Memref.whole cc2_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v12) hT ∗ pt c (Memref.whole main_v13) tT ∗ nodeSh c node
          ∗ (∃ s0, pt c (Memref.whole cc2_scratch0) s0) ∗ (∃ s1, pt c (Memref.whole cc2_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc2__lookup_kernel i (Memref.whole main_v12) (Memref.isWhole_whole _) (Memref.whole main_v13) (Memref.isWhole_whole _) (Memref.whole main_arg0) (Memref.isWhole_whole _)
          M5 h5 M6 h6 (Memref.whole cc2_scratch0) (Memref.isWhole_whole _) (Memref.whole cc2_scratch1) (Memref.isWhole_whole _) cc2_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KI2

end
-- ==== Proof.KI2Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KI2Data
import proofs.«414028_j29231547417249_2_alg».proof.Proof.KI2Points
import proofs.«414028_j29231547417249_2_alg».proof.Proof.KI2Body
import proofs.«414028_j29231547417249_2_alg».proof.Proof.Gen.KernelIdeal.Launch
import Idealize.ShloMosaic.Lib.Pipeline.Frame

noncomputable section

namespace Cert.Proof.KI2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W2, bigSep_W2]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec2_0.stage ((cfgA m).slots t 0)) (hstage2_0 (((cfgA m).slots t 0).cast nbuf2_0))
      (spec2_1.stage ((cfgA m).slots t 1)) (hstage2_1 (((cfgA m).slots t 1).cast nbuf2_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec2_0.stage ((cfgA m).slots t 0)) (hstage2_0 (((cfgA m).slots t 0).cast nbuf2_0))
      (spec2_1.stage ((cfgA m).slots t 1)) (hstage2_1 (((cfgA m).slots t 1).cast nbuf2_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KI2

end
-- ==== Proof.KI2Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KIDats
import proofs.«414028_j29231547417249_2_alg».proof.Proof.KIThread
import proofs.«414028_j29231547417249_2_alg».proof.Proof.KI2Chains
import proofs.«414028_j29231547417249_2_alg».proof.Proof.KI2Oblig
import proofs.«414028_j29231547417249_2_alg».proof.Proof.Gen.KernelIdeal.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KI2

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 13 | 1 => .dma 14

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W2] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v12) (hTab m) ∗ pt c (Memref.whole main_v13) (tTab m))

/-- The invariant at the first point: the node table split into its shares, the tables, the two scratch rows out of the
    scoped rest. -/
theorem hin0 (c : Dev nD) :
    iprop(X0 m c ∗ Pipeline.prefHeld pre2 c (fun _ => fullShare) (Cert.Proof.KI.tbl2 m)
        ∗ Pipeline.scopedRest (Ix := Unit) (Name := ℕ) (U := UC) (Lvl := ℕ) (Val := Elt F) spec2 c)
      ⊢ Φv m c := by
  unfold Φv Pipeline.prefHeld
  rw [Gen.bigSep_W2, Gen.scopedRest2_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec2 c) := by
  unfold Φv
  rw [Gen.scopedRest2_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre2 spec2 \ {main_arg0}

theorem node_mem_rest : ({main_arg0} : Finset (Ref sig .tc)) ⊆ Pipeline.restRefsP sig pre2 spec2 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec2 c V : sProp 𝕄)
      = iprop(Pipeline.prefHeld pre2 c (fun _ => fullShare) (fun k => V (pre2.ref k))
          ∗ (((c : Thread nD τ).loc main_arg0) ↦{fullShare} V main_arg0)
          ∗ bigSep restZ fun b => ((c : Thread nD τ).loc b) ↦{fullShare} V b) := by
  rw [Pipeline.unscopedRest_split preFacts2 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v14) ↦{fullShare} V main_v14))
          ∗ ((((c : Thread nD τ).loc main_v12) ↦{fullShare} V main_v12) ∗ (((c : Thread nD τ).loc main_v13) ↦{fullShare} V main_v13))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts2.arr_unscoped winFacts2.arr_inj c, rest_split]
  unfold Pipeline.prefHeld
  rw [Gen.bigSep_W2, Gen.bigSep_W2]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v14) ↦{fullShare} G 1)) := by
  rw [Pipeline.arrays_eq (fun _ : Fin 1 => cfgA m) (fun _ c => dat0 m c) 0 c arr_whole2 ((dat0 m c).share_full fun _ => rfl) G, Gen.bigSep_W2]

/-- What bypasses the region: every other unscoped buffer, at its contents on entry. -/
abbrev Z0 (c : Dev nD) : sProp 𝕄 := bigSep restZ fun b => ((c : Thread nD τ).loc b) ↦{fullShare} V9 m (Cert.Proof.KI.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V9 m (Cert.Proof.KI.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre2 c (fun _ => fullShare) (Cert.Proof.KI.tbl2 m)
          ∗ (dat0 m c).owesAt () 0 ∗ X0 m c ∗ Z0 m c) := by
  rw [held_split m c (V9 m (Cert.Proof.KI.outs m) c), arrays_two, ent_arg0, ent_arg1, ent_out,
    show V9 m (Cert.Proof.KI.outs m) c main_v12 = hTab m from ent_tab m (Cert.Proof.KI.outs m) c 0, show V9 m (Cert.Proof.KI.outs m) c main_v13 = tTab m from ent_tab m (Cert.Proof.KI.outs m) c 1]
  unfold Pipeline.prefHeld
  rw [Gen.bigSep_W2]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v14)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V9 m (Cert.Proof.KI.outs m) c) main_v14 o)
          ∗ (∃ W, owes (c : Thread nD τ) (0 : CellTallies nD τ sig Unit) W)) := by
  have hne : ∀ b : Ref sig .tc, b ≠ main_v14 →
      Function.update (V9 m (Cert.Proof.KI.outs m) c) (Proc.devRef .tc main_v14) o (Proc.devRef .tc b) = V9 m (Cert.Proof.KI.outs m) c b :=
    fun b hb => Function.update_of_ne (StableHlo.devRef_ne_of_ne hb) _ _
  have hz : (bigSep restZ fun b => (((c : Thread nD τ).loc b) ↦{fullShare} Function.update (V9 m (Cert.Proof.KI.outs m) c) (Proc.devRef .tc main_v14) o b : sProp 𝕄))
      = Z0 m c :=
    BI.bigSep_congr fun b hb => by
      rw [hne b (fun e => by subst e; revert hb; decide)]
  rw [held_split m c (Function.update (V9 m (Cert.Proof.KI.outs m) c) main_v14 o), arrays_two, hz,
    hne main_arg1 (by decide), hne main_v12 (by decide), hne main_v13 (by decide), hne main_arg0 (by decide),
    Function.update_self, ent_arg0, ent_arg1,
    show V9 m (Cert.Proof.KI.outs m) c main_v12 = hTab m from ent_tab m (Cert.Proof.KI.outs m) c 0, show V9 m (Cert.Proof.KI.outs m) c main_v13 = tTab m from ent_tab m (Cert.Proof.KI.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec2 osem := by decide

/-- What region 0 leaves in the output's array, by name: the fold of its write-backs. -/
theorem outs6 (c : Dev nD) : Cert.Proof.KI.outs m 10 main_v14 c = (dat0 m c).arrAt 1 (cfgA m).N :=
  Pipeline.withArrays_arr spec2 winFacts2.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KI.adm m) (Cert.Proof.KI.pdats m) () defs₀ Variants.none
      Cert.Proof.KI.L Cert.Proof.KI.lv (2 : Fin 16) where
  win := (launch2 (F := F)).win.to₀
  block_pos := (launch2 (F := F)).block_pos
  stage_whole := (launch2 (F := F)).stage_whole
  K := Fin 2
  osem := osem
  ho := ownSemFacts
  hbody c := (body_obligation m hH hTl c).loose
  hwaits := Pipeline.hwaits_of_owed_zero _ _ _ _ Cert.Proof.KI.L Cert.Proof.KI.lv (2 : Fin 16) fun _ _ => rfl
  pre c := iprop(StableHlo.held (c : Thread nD τ) (Pipeline.ucRefs τ sig) (V9 m (Cert.Proof.KI.outs m) c) ∗ Cert.Proof.KI.E 2 c)
  post c := iprop(StableHlo.held (c : Thread nD τ) (Pipeline.ucRefs τ sig) (V10 m (Cert.Proof.KI.outs m) c) ∗ Cert.Proof.KI.E 3 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KI.outs m 10 main_v14 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V9 m (Cert.Proof.KI.outs m) c) ∗ Cert.Proof.KI.E 2 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V10 m (Cert.Proof.KI.outs m) c) ∗ Cert.Proof.KI.E 3 c) := .rfl

end Cert.Proof.KI2

end
-- ==== Proof.KI3Chains.lean ====
/-
  Region 3 is entered from the valuation after item 10 of @main. No earlier item writes the node table, the relation row,
  the region's output array or the padded index rows, and the region's two tables are the slices cut out of the padded
  rows at offset 196608: each buffer the region is handed holds a function of the launch memory alone.
-/
import proofs.«414028_j29231547417249_2_alg».proof.Proof.KIAdm
import Idealize.ShloMosaic.Lib.StableHlo.Run

set_option maxRecDepth 4096

noncomputable section

namespace Cert.Proof.KI3

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V11 m outs c main_arg0 = m ((c : Thread nD τ).loc main_arg0) :=
  (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V11 m outs c main_arg1 = m ((c : Thread nD τ).loc main_arg1) :=
  (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V11 m outs c main_v17 = m ((c : Thread nD τ).loc main_v17) :=
  (V11_of m outs c main_v17 (by decide)).trans <| (V10_of m outs c main_v17 (by decide)).trans <| (V9_of m outs c main_v17 (by decide)).trans <| (V8_of m outs c main_v17 (by decide)).trans <| (V7_of m outs c main_v17 (by decide)).trans <| (V6_of m outs c main_v17 (by decide)).trans <| (V5_of m c main_v17 (by decide)).trans <| (V4_of m c main_v17 (by decide)).trans <| (V3_of m c main_v17 (by decide)).trans <| (V2_of m c main_v17 (by decide)).trans <| (V1_of m c main_v17 (by decide)).trans <| rfl
/-- The stretch before the region cuts the table out of the padded row, whatever the valuation it runs from. -/
theorem slice_h (X : Valuation τ sig (Elt F)) :
    StableHlo.after (hostOps3 (F := F)) X (Proc.devRef .tc main_v15)
      = extractStridedSlice S65536 ![196608] (X (Proc.devRef .tc main_v4)) slices_S1048576_S65536_196608 := by
  after_results
/-- The stretch before the region cuts the table out of the padded row, whatever the valuation it runs from. -/
theorem slice_t (X : Valuation τ sig (Elt F)) :
    StableHlo.after (hostOps3 (F := F)) X (Proc.devRef .tc main_v16)
      = extractStridedSlice S65536 ![196608] (X (Proc.devRef .tc main_v5)) slices_S1048576_S65536_196608 := by
  after_results
theorem ent_tab0 (c : Dev nD) : V11 m outs c main_v15 = Cert.Proof.KI.tv3 m main_v15 := by
  obtain rfl : c = (0 : Dev nD) := Subsingleton.elim _ _
  have e : V10 m outs (0 : Dev nD) main_v4 = V5 m (0 : Dev nD) main_v4 :=
    (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V10 m outs (0 : Dev nD))).trans ((congrArg (extractStridedSlice S65536 ![196608] · slices_S1048576_S65536_196608) e).trans (slice_h (V5 m (0 : Dev nD))).symm)
theorem ent_tab1 (c : Dev nD) : V11 m outs c main_v16 = Cert.Proof.KI.tv3 m main_v16 := by
  obtain rfl : c = (0 : Dev nD) := Subsingleton.elim _ _
  have e : V10 m outs (0 : Dev nD) main_v5 = V5 m (0 : Dev nD) main_v5 :=
    (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V10 m outs (0 : Dev nD))).trans ((congrArg (extractStridedSlice S65536 ![196608] · slices_S1048576_S65536_196608) e).trans (slice_t (V5 m (0 : Dev nD))).symm)
theorem ent_tab (c : Dev nD) (k : Fin 2) : V11 m outs c (pre3.ref k) = Cert.Proof.KI.tbl3 m k :=
  match k with
  | ⟨0, _⟩ => ent_tab0 m outs c
  | ⟨1, _⟩ => ent_tab1 m outs c

end Cert.Proof.KI3

end
-- ==== Proof.KI3Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.KernelIdeal
import proofs.«414028_j29231547417249_2_alg».proof.Proof.Gen.KernelIdeal.Launch
import Idealize.ShloMosaic.Lib.Pipeline.Dat

noncomputable section

namespace Cert.Proof.KI3

open Cert.KernelIdeal Cert.KernelIdeal.Gen Idealize.ShloMosaic

variable {F : FTy → Type} [FloatOps F] (a : (pcfg3 (F := F)).Adm)

/-! ## The points and their coordinates -/

theorem N_eq : (cfg3 a).N = 65536 := N_3

theorem lt_N (t : Fin (cfg3 a).N) : t.val < 65536 := Nat.lt_of_lt_of_eq t.isLt (N_eq a)

/-- Each value of the first coordinate is shared by 128 consecutive points, each value of the second by one. -/
theorem stride0 : grid3.stride 0 = 128 := by decide
theorem stride1 : grid3.stride 1 = 1 := by decide

theorem coords0 (t : Fin (cfg3 a).N) : (((cfg3 a).grid.coords t) 0).val = t.val / 128 := by
  have ht := lt_N a t
  show t.val / grid3.stride 0 % 512 = t.val / 128
  rw [stride0]; omega

theorem coords1 (t : Fin (cfg3 a).N) : (((cfg3 a).grid.coords t) 1).val = t.val % 128 := by
  show t.val / grid3.stride 1 % 128 = t.val % 128
  rw [stride1, Nat.div_one]

theorem flat_eq (t : Fin (cfg3 a).N) :
    (((cfg3 a).grid.coords t) 0).val * 128 + (((cfg3 a).grid.coords t) 1).val = t.val := by
  rw [coords0, coords1]; omega

/-! ## The windows' block indices -/

/-- Window 0's block index is constant. -/
theorem index0 (s t : Fin (cfg3 a).N) : ((cfg3 a).win 0).index s = ((cfg3 a).win 0).index t := rfl

/-- Window 1's block index at a point is the point's first coordinate. -/
theorem index1 (s : Fin (cfg3 a).N) : ((cfg3 a).win 1).index s = ![s.val / 128] := by
  have hs := lt_N a s
  show ![(BitVec.ofNat 32 (((cfg3 a).grid.coords s) 0).val).toNat] = ![s.val / 128]
  rw [coords0 a s, BitVec.toNat_ofNat, Nat.mod_eq_of_lt (by omega)]

/-! ## Fetches and write-backs -/

theorem fetch0 (t : Fin (cfg3 a).N) : ((cfg3 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg3 a).N) : ((cfg3 a).win 1).fetch t = false := by
  unfold Pipeline.Window.fetch
  show (!true && _) = false
  rfl

theorem flush0 (t : Fin (cfg3 a).N) : ((cfg3 a).win 0).flush t = false := by
  unfold Pipeline.Window.flush
  show (false && _) = false
  rfl

theorem flush1 (t : Fin (cfg3 a).N) : ((cfg3 a).win 1).flush t = decide (t.val % 128 = 127) := by
  have ht := lt_N a t
  have hN : (cfg3 a).grid.N = 65536 := N_eq a
  unfold Pipeline.Window.flush
  show (true && (decide (t.val + 1 = (cfg3 a).grid.N)
    || decide (∃ h : t.val + 1 < (cfg3 a).grid.N, ((cfg3 a).win 1).index ⟨t.val + 1, h⟩ ≠ ((cfg3 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg3 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg3 a).W) (t : Fin (cfg3 a).N) : (cfg3 a).idle w ((cfg3 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg3 a).N) :
    Scalar.cmpi .ne (Scalar.extui (Scalar.cmpi .eq (BitVec.ofNat 32 (((cfg3 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg3 a).N) (A : Vec F S1x256 .f32) (y : S1x256.Idx) :
    (((cfg3 a).win 0).blk t).view.read (Elt F) A y = A y := by
  show A ((((cfg3 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg3 a).N) (y : S128.Idx) :
    ((((cfg3 a).win 1).blk t).view.emb y (0 : Fin 1)).val = 128 * (t.val / 128) + (y 0).val := by
  have hi : ((cfg3 a).win 1).index t (0 : Fin 1) = t.val / 128 := by rw [index1]; rfl
  show ((cfg3 a).win 1).index t (0 : Fin 1) * 128 + 1 * (y 0).val = 128 * (t.val / 128) + (y 0).val
  rw [hi]; omega

end Cert.Proof.KI3

end
-- ==== Proof.KI3Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KI3Defs
import proofs.«414028_j29231547417249_2_alg».proof.Proof.Gen.KernelIdeal.Launch
import Idealize.ShloMosaic.Lib.Tactic

noncomputable section

namespace Cert.Proof.KI3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k3_pay2 j (k3_pay6 X18 X19 X20) (k3_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k3_pay2 j (k3_pay6 X18 X19 X20) (k3_pay7 X18 X19 X20)
              (m.view.readCov [⟨Rect.unit (s := S128) ![0] S128.size inb_S128_S128_0, k3_pay1 (F := F)⟩]
                (Rect.unit (s := S128) ![0] S128.size inb_S128_S128_0).toLoadRect)⟩,
          ⟨Rect.unit (s := S128) ![0] S128.size inb_S128_S128_0, k3_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid3.Coords) (M5 : Memref sig .tc .vmem S1x256 .f32) (h5 : M5.IsWhole) (M6 : Memref sig .tc .vmem S128 .f32) (h6 : M6.IsWhole)
    (hT : Bf (F := F) c (Memref.whole main_v15)) (tT : Bf (F := F) c (Memref.whole main_v16)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v15) hT ∗ pt c (Memref.whole main_v16) tT ∗ nodeSh c node
      ∗ (∃ s0, pt c (Memref.whole cc3_scratch0) s0) ∗ (∃ s1, pt c (Memref.whole cc3_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v15) hT ∗ pt c (Memref.whole main_v16) tT ∗ nodeSh c node
          ∗ (∃ s0, pt c (Memref.whole cc3_scratch0) s0) ∗ (∃ s1, pt c (Memref.whole cc3_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc3__lookup_kernel i (Memref.whole main_v15) (Memref.isWhole_whole _) (Memref.whole main_v16) (Memref.isWhole_whole _) (Memref.whole main_arg0) (Memref.isWhole_whole _)
          M5 h5 M6 h6 (Memref.whole cc3_scratch0) (Memref.isWhole_whole _) (Memref.whole cc3_scratch1) (Memref.isWhole_whole _) cc3_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid3.Coords) (M5 : Memref sig .tc .vmem S1x256 .f32) (h5 : M5.IsWhole) (M6 : Memref sig .tc .vmem S128 .f32) (h6 : M6.IsWhole)
    (hT : Bf (F := F) c (Memref.whole main_v15)) (tT : Bf (F := F) c (Memref.whole main_v16)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v15) hT ∗ pt c (Memref.whole main_v16) tT ∗ nodeSh c node
      ∗ (∃ s0, pt c (Memref.whole cc3_scratch0) s0) ∗ (∃ s1, pt c (Memref.whole cc3_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v15) hT ∗ pt c (Memref.whole main_v16) tT ∗ nodeSh c node
          ∗ (∃ s0, pt c (Memref.whole cc3_scratch0) s0) ∗ (∃ s1, pt c (Memref.whole cc3_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc3__lookup_kernel i (Memref.whole main_v15) (Memref.isWhole_whole _) (Memref.whole main_v16) (Memref.isWhole_whole _) (Memref.whole main_arg0) (Memref.isWhole_whole _)
          M5 h5 M6 h6 (Memref.whole cc3_scratch0) (Memref.isWhole_whole _) (Memref.whole cc3_scratch1) (Memref.isWhole_whole _) cc3_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KI3

end
-- ==== Proof.KI3Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KI3Data
import proofs.«414028_j29231547417249_2_alg».proof.Proof.KI3Points
import proofs.«414028_j29231547417249_2_alg».proof.Proof.KI3Body
import proofs.«414028_j29231547417249_2_alg».proof.Proof.Gen.KernelIdeal.Launch
import Idealize.ShloMosaic.Lib.Pipeline.Frame

noncomputable section

namespace Cert.Proof.KI3

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W3, bigSep_W3]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec3_0.stage ((cfgA m).slots t 0)) (hstage3_0 (((cfgA m).slots t 0).cast nbuf3_0))
      (spec3_1.stage ((cfgA m).slots t 1)) (hstage3_1 (((cfgA m).slots t 1).cast nbuf3_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec3_0.stage ((cfgA m).slots t 0)) (hstage3_0 (((cfgA m).slots t 0).cast nbuf3_0))
      (spec3_1.stage ((cfgA m).slots t 1)) (hstage3_1 (((cfgA m).slots t 1).cast nbuf3_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KI3

end
-- ==== Proof.KI3Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KIDats
import proofs.«414028_j29231547417249_2_alg».proof.Proof.KIThread
import proofs.«414028_j29231547417249_2_alg».proof.Proof.KI3Chains
import proofs.«414028_j29231547417249_2_alg».proof.Proof.KI3Oblig
import proofs.«414028_j29231547417249_2_alg».proof.Proof.Gen.KernelIdeal.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KI3

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 18 | 1 => .dma 19

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W3] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v15) (hTab m) ∗ pt c (Memref.whole main_v16) (tTab m))

/-- The invariant at the first point: the node table split into its shares, the tables, the two scratch rows out of the
    scoped rest. -/
theorem hin0 (c : Dev nD) :
    iprop(X0 m c ∗ Pipeline.prefHeld pre3 c (fun _ => fullShare) (Cert.Proof.KI.tbl3 m)
        ∗ Pipeline.scopedRest (Ix := Unit) (Name := ℕ) (U := UC) (Lvl := ℕ) (Val := Elt F) spec3 c)
      ⊢ Φv m c := by
  unfold Φv Pipeline.prefHeld
  rw [Gen.bigSep_W3, Gen.scopedRest3_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec3 c) := by
  unfold Φv
  rw [Gen.scopedRest3_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre3 spec3 \ {main_arg0}

theorem node_mem_rest : ({main_arg0} : Finset (Ref sig .tc)) ⊆ Pipeline.restRefsP sig pre3 spec3 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec3 c V : sProp 𝕄)
      = iprop(Pipeline.prefHeld pre3 c (fun _ => fullShare) (fun k => V (pre3.ref k))
          ∗ (((c : Thread nD τ).loc main_arg0) ↦{fullShare} V main_arg0)
          ∗ bigSep restZ fun b => ((c : Thread nD τ).loc b) ↦{fullShare} V b) := by
  rw [Pipeline.unscopedRest_split preFacts3 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v17) ↦{fullShare} V main_v17))
          ∗ ((((c : Thread nD τ).loc main_v15) ↦{fullShare} V main_v15) ∗ (((c : Thread nD τ).loc main_v16) ↦{fullShare} V main_v16))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts3.arr_unscoped winFacts3.arr_inj c, rest_split]
  unfold Pipeline.prefHeld
  rw [Gen.bigSep_W3, Gen.bigSep_W3]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v17) ↦{fullShare} G 1)) := by
  rw [Pipeline.arrays_eq (fun _ : Fin 1 => cfgA m) (fun _ c => dat0 m c) 0 c arr_whole3 ((dat0 m c).share_full fun _ => rfl) G, Gen.bigSep_W3]

/-- What bypasses the region: every other unscoped buffer, at its contents on entry. -/
abbrev Z0 (c : Dev nD) : sProp 𝕄 := bigSep restZ fun b => ((c : Thread nD τ).loc b) ↦{fullShare} V11 m (Cert.Proof.KI.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V11 m (Cert.Proof.KI.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre3 c (fun _ => fullShare) (Cert.Proof.KI.tbl3 m)
          ∗ (dat0 m c).owesAt () 0 ∗ X0 m c ∗ Z0 m c) := by
  rw [held_split m c (V11 m (Cert.Proof.KI.outs m) c), arrays_two, ent_arg0, ent_arg1, ent_out,
    show V11 m (Cert.Proof.KI.outs m) c main_v15 = hTab m from ent_tab m (Cert.Proof.KI.outs m) c 0, show V11 m (Cert.Proof.KI.outs m) c main_v16 = tTab m from ent_tab m (Cert.Proof.KI.outs m) c 1]
  unfold Pipeline.prefHeld
  rw [Gen.bigSep_W3]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v17)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V11 m (Cert.Proof.KI.outs m) c) main_v17 o)
          ∗ (∃ W, owes (c : Thread nD τ) (0 : CellTallies nD τ sig Unit) W)) := by
  have hne : ∀ b : Ref sig .tc, b ≠ main_v17 →
      Function.update (V11 m (Cert.Proof.KI.outs m) c) (Proc.devRef .tc main_v17) o (Proc.devRef .tc b) = V11 m (Cert.Proof.KI.outs m) c b :=
    fun b hb => Function.update_of_ne (StableHlo.devRef_ne_of_ne hb) _ _
  have hz : (bigSep restZ fun b => (((c : Thread nD τ).loc b) ↦{fullShare} Function.update (V11 m (Cert.Proof.KI.outs m) c) (Proc.devRef .tc main_v17) o b : sProp 𝕄))
      = Z0 m c :=
    BI.bigSep_congr fun b hb => by
      rw [hne b (fun e => by subst e; revert hb; decide)]
  rw [held_split m c (Function.update (V11 m (Cert.Proof.KI.outs m) c) main_v17 o), arrays_two, hz,
    hne main_arg1 (by decide), hne main_v15 (by decide), hne main_v16 (by decide), hne main_arg0 (by decide),
    Function.update_self, ent_arg0, ent_arg1,
    show V11 m (Cert.Proof.KI.outs m) c main_v15 = hTab m from ent_tab m (Cert.Proof.KI.outs m) c 0, show V11 m (Cert.Proof.KI.outs m) c main_v16 = tTab m from ent_tab m (Cert.Proof.KI.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec3 osem := by decide

/-- What region 0 leaves in the output's array, by name: the fold of its write-backs. -/
theorem outs6 (c : Dev nD) : Cert.Proof.KI.outs m 12 main_v17 c = (dat0 m c).arrAt 1 (cfgA m).N :=
  Pipeline.withArrays_arr spec3 winFacts3.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KI.adm m) (Cert.Proof.KI.pdats m) () defs₀ Variants.none
      Cert.Proof.KI.L Cert.Proof.KI.lv (3 : Fin 16) where
  win := (launch3 (F := F)).win.to₀
  block_pos := (launch3 (F := F)).block_pos
  stage_whole := (launch3 (F := F)).stage_whole
  K := Fin 2
  osem := osem
  ho := ownSemFacts
  hbody c := (body_obligation m hH hTl c).loose
  hwaits := Pipeline.hwaits_of_owed_zero _ _ _ _ Cert.Proof.KI.L Cert.Proof.KI.lv (3 : Fin 16) fun _ _ => rfl
  pre c := iprop(StableHlo.held (c : Thread nD τ) (Pipeline.ucRefs τ sig) (V11 m (Cert.Proof.KI.outs m) c) ∗ Cert.Proof.KI.E 3 c)
  post c := iprop(StableHlo.held (c : Thread nD τ) (Pipeline.ucRefs τ sig) (V12 m (Cert.Proof.KI.outs m) c) ∗ Cert.Proof.KI.E 4 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KI.outs m 12 main_v17 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V11 m (Cert.Proof.KI.outs m) c) ∗ Cert.Proof.KI.E 3 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V12 m (Cert.Proof.KI.outs m) c) ∗ Cert.Proof.KI.E 4 c) := .rfl

end Cert.Proof.KI3

end
-- ==== Proof.KI4Chains.lean ====
/-
  Region 4 is entered from the valuation after item 12 of @main. No earlier item writes the node table, the relation row,
  the region's output array or the padded index rows, and the region's two tables are the slices cut out of the padded
  rows at offset 262144: each buffer the region is handed holds a function of the launch memory alone.
-/
import proofs.«414028_j29231547417249_2_alg».proof.Proof.KIAdm
import Idealize.ShloMosaic.Lib.StableHlo.Run

set_option maxRecDepth 4096

noncomputable section

namespace Cert.Proof.KI4

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V13 m outs c main_arg0 = m ((c : Thread nD τ).loc main_arg0) :=
  (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V13 m outs c main_arg1 = m ((c : Thread nD τ).loc main_arg1) :=
  (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V13 m outs c main_v20 = m ((c : Thread nD τ).loc main_v20) :=
  (V13_of m outs c main_v20 (by decide)).trans <| (V12_of m outs c main_v20 (by decide)).trans <| (V11_of m outs c main_v20 (by decide)).trans <| (V10_of m outs c main_v20 (by decide)).trans <| (V9_of m outs c main_v20 (by decide)).trans <| (V8_of m outs c main_v20 (by decide)).trans <| (V7_of m outs c main_v20 (by decide)).trans <| (V6_of m outs c main_v20 (by decide)).trans <| (V5_of m c main_v20 (by decide)).trans <| (V4_of m c main_v20 (by decide)).trans <| (V3_of m c main_v20 (by decide)).trans <| (V2_of m c main_v20 (by decide)).trans <| (V1_of m c main_v20 (by decide)).trans <| rfl
/-- The stretch before the region cuts the table out of the padded row, whatever the valuation it runs from. -/
theorem slice_h (X : Valuation τ sig (Elt F)) :
    StableHlo.after (hostOps4 (F := F)) X (Proc.devRef .tc main_v18)
      = extractStridedSlice S65536 ![262144] (X (Proc.devRef .tc main_v4)) slices_S1048576_S65536_262144 := by
  after_results
/-- The stretch before the region cuts the table out of the padded row, whatever the valuation it runs from. -/
theorem slice_t (X : Valuation τ sig (Elt F)) :
    StableHlo.after (hostOps4 (F := F)) X (Proc.devRef .tc main_v19)
      = extractStridedSlice S65536 ![262144] (X (Proc.devRef .tc main_v5)) slices_S1048576_S65536_262144 := by
  after_results
theorem ent_tab0 (c : Dev nD) : V13 m outs c main_v18 = Cert.Proof.KI.tv4 m main_v18 := by
  obtain rfl : c = (0 : Dev nD) := Subsingleton.elim _ _
  have e : V12 m outs (0 : Dev nD) main_v4 = V5 m (0 : Dev nD) main_v4 :=
    (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V12 m outs (0 : Dev nD))).trans ((congrArg (extractStridedSlice S65536 ![262144] · slices_S1048576_S65536_262144) e).trans (slice_h (V5 m (0 : Dev nD))).symm)
theorem ent_tab1 (c : Dev nD) : V13 m outs c main_v19 = Cert.Proof.KI.tv4 m main_v19 := by
  obtain rfl : c = (0 : Dev nD) := Subsingleton.elim _ _
  have e : V12 m outs (0 : Dev nD) main_v5 = V5 m (0 : Dev nD) main_v5 :=
    (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V12 m outs (0 : Dev nD))).trans ((congrArg (extractStridedSlice S65536 ![262144] · slices_S1048576_S65536_262144) e).trans (slice_t (V5 m (0 : Dev nD))).symm)
theorem ent_tab (c : Dev nD) (k : Fin 2) : V13 m outs c (pre4.ref k) = Cert.Proof.KI.tbl4 m k :=
  match k with
  | ⟨0, _⟩ => ent_tab0 m outs c
  | ⟨1, _⟩ => ent_tab1 m outs c

end Cert.Proof.KI4

end
-- ==== Proof.KI4Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.KernelIdeal
import proofs.«414028_j29231547417249_2_alg».proof.Proof.Gen.KernelIdeal.Launch
import Idealize.ShloMosaic.Lib.Pipeline.Dat

noncomputable section

namespace Cert.Proof.KI4

open Cert.KernelIdeal Cert.KernelIdeal.Gen Idealize.ShloMosaic

variable {F : FTy → Type} [FloatOps F] (a : (pcfg4 (F := F)).Adm)

/-! ## The points and their coordinates -/

theorem N_eq : (cfg4 a).N = 65536 := N_4

theorem lt_N (t : Fin (cfg4 a).N) : t.val < 65536 := Nat.lt_of_lt_of_eq t.isLt (N_eq a)

/-- Each value of the first coordinate is shared by 128 consecutive points, each value of the second by one. -/
theorem stride0 : grid4.stride 0 = 128 := by decide
theorem stride1 : grid4.stride 1 = 1 := by decide

theorem coords0 (t : Fin (cfg4 a).N) : (((cfg4 a).grid.coords t) 0).val = t.val / 128 := by
  have ht := lt_N a t
  show t.val / grid4.stride 0 % 512 = t.val / 128
  rw [stride0]; omega

theorem coords1 (t : Fin (cfg4 a).N) : (((cfg4 a).grid.coords t) 1).val = t.val % 128 := by
  show t.val / grid4.stride 1 % 128 = t.val % 128
  rw [stride1, Nat.div_one]

theorem flat_eq (t : Fin (cfg4 a).N) :
    (((cfg4 a).grid.coords t) 0).val * 128 + (((cfg4 a).grid.coords t) 1).val = t.val := by
  rw [coords0, coords1]; omega

/-! ## The windows' block indices -/

/-- Window 0's block index is constant. -/
theorem index0 (s t : Fin (cfg4 a).N) : ((cfg4 a).win 0).index s = ((cfg4 a).win 0).index t := rfl

/-- Window 1's block index at a point is the point's first coordinate. -/
theorem index1 (s : Fin (cfg4 a).N) : ((cfg4 a).win 1).index s = ![s.val / 128] := by
  have hs := lt_N a s
  show ![(BitVec.ofNat 32 (((cfg4 a).grid.coords s) 0).val).toNat] = ![s.val / 128]
  rw [coords0 a s, BitVec.toNat_ofNat, Nat.mod_eq_of_lt (by omega)]

/-! ## Fetches and write-backs -/

theorem fetch0 (t : Fin (cfg4 a).N) : ((cfg4 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg4 a).N) : ((cfg4 a).win 1).fetch t = false := by
  unfold Pipeline.Window.fetch
  show (!true && _) = false
  rfl

theorem flush0 (t : Fin (cfg4 a).N) : ((cfg4 a).win 0).flush t = false := by
  unfold Pipeline.Window.flush
  show (false && _) = false
  rfl

theorem flush1 (t : Fin (cfg4 a).N) : ((cfg4 a).win 1).flush t = decide (t.val % 128 = 127) := by
  have ht := lt_N a t
  have hN : (cfg4 a).grid.N = 65536 := N_eq a
  unfold Pipeline.Window.flush
  show (true && (decide (t.val + 1 = (cfg4 a).grid.N)
    || decide (∃ h : t.val + 1 < (cfg4 a).grid.N, ((cfg4 a).win 1).index ⟨t.val + 1, h⟩ ≠ ((cfg4 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg4 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg4 a).W) (t : Fin (cfg4 a).N) : (cfg4 a).idle w ((cfg4 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg4 a).N) :
    Scalar.cmpi .ne (Scalar.extui (Scalar.cmpi .eq (BitVec.ofNat 32 (((cfg4 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg4 a).N) (A : Vec F S1x256 .f32) (y : S1x256.Idx) :
    (((cfg4 a).win 0).blk t).view.read (Elt F) A y = A y := by
  show A ((((cfg4 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg4 a).N) (y : S128.Idx) :
    ((((cfg4 a).win 1).blk t).view.emb y (0 : Fin 1)).val = 128 * (t.val / 128) + (y 0).val := by
  have hi : ((cfg4 a).win 1).index t (0 : Fin 1) = t.val / 128 := by rw [index1]; rfl
  show ((cfg4 a).win 1).index t (0 : Fin 1) * 128 + 1 * (y 0).val = 128 * (t.val / 128) + (y 0).val
  rw [hi]; omega

end Cert.Proof.KI4

end
-- ==== Proof.KI4Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KI4Defs
import proofs.«414028_j29231547417249_2_alg».proof.Proof.Gen.KernelIdeal.Launch
import Idealize.ShloMosaic.Lib.Tactic

noncomputable section

namespace Cert.Proof.KI4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k4_pay2 j (k4_pay6 X18 X19 X20) (k4_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k4_pay2 j (k4_pay6 X18 X19 X20) (k4_pay7 X18 X19 X20)
              (m.view.readCov [⟨Rect.unit (s := S128) ![0] S128.size inb_S128_S128_0, k4_pay1 (F := F)⟩]
                (Rect.unit (s := S128) ![0] S128.size inb_S128_S128_0).toLoadRect)⟩,
          ⟨Rect.unit (s := S128) ![0] S128.size inb_S128_S128_0, k4_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid4.Coords) (M5 : Memref sig .tc .vmem S1x256 .f32) (h5 : M5.IsWhole) (M6 : Memref sig .tc .vmem S128 .f32) (h6 : M6.IsWhole)
    (hT : Bf (F := F) c (Memref.whole main_v18)) (tT : Bf (F := F) c (Memref.whole main_v19)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v18) hT ∗ pt c (Memref.whole main_v19) tT ∗ nodeSh c node
      ∗ (∃ s0, pt c (Memref.whole cc4_scratch0) s0) ∗ (∃ s1, pt c (Memref.whole cc4_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v18) hT ∗ pt c (Memref.whole main_v19) tT ∗ nodeSh c node
          ∗ (∃ s0, pt c (Memref.whole cc4_scratch0) s0) ∗ (∃ s1, pt c (Memref.whole cc4_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc4__lookup_kernel i (Memref.whole main_v18) (Memref.isWhole_whole _) (Memref.whole main_v19) (Memref.isWhole_whole _) (Memref.whole main_arg0) (Memref.isWhole_whole _)
          M5 h5 M6 h6 (Memref.whole cc4_scratch0) (Memref.isWhole_whole _) (Memref.whole cc4_scratch1) (Memref.isWhole_whole _) cc4_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid4.Coords) (M5 : Memref sig .tc .vmem S1x256 .f32) (h5 : M5.IsWhole) (M6 : Memref sig .tc .vmem S128 .f32) (h6 : M6.IsWhole)
    (hT : Bf (F := F) c (Memref.whole main_v18)) (tT : Bf (F := F) c (Memref.whole main_v19)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v18) hT ∗ pt c (Memref.whole main_v19) tT ∗ nodeSh c node
      ∗ (∃ s0, pt c (Memref.whole cc4_scratch0) s0) ∗ (∃ s1, pt c (Memref.whole cc4_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v18) hT ∗ pt c (Memref.whole main_v19) tT ∗ nodeSh c node
          ∗ (∃ s0, pt c (Memref.whole cc4_scratch0) s0) ∗ (∃ s1, pt c (Memref.whole cc4_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc4__lookup_kernel i (Memref.whole main_v18) (Memref.isWhole_whole _) (Memref.whole main_v19) (Memref.isWhole_whole _) (Memref.whole main_arg0) (Memref.isWhole_whole _)
          M5 h5 M6 h6 (Memref.whole cc4_scratch0) (Memref.isWhole_whole _) (Memref.whole cc4_scratch1) (Memref.isWhole_whole _) cc4_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KI4

end
-- ==== Proof.KI4Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KI4Data
import proofs.«414028_j29231547417249_2_alg».proof.Proof.KI4Points
import proofs.«414028_j29231547417249_2_alg».proof.Proof.KI4Body
import proofs.«414028_j29231547417249_2_alg».proof.Proof.Gen.KernelIdeal.Launch
import Idealize.ShloMosaic.Lib.Pipeline.Frame

noncomputable section

namespace Cert.Proof.KI4

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W4, bigSep_W4]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec4_0.stage ((cfgA m).slots t 0)) (hstage4_0 (((cfgA m).slots t 0).cast nbuf4_0))
      (spec4_1.stage ((cfgA m).slots t 1)) (hstage4_1 (((cfgA m).slots t 1).cast nbuf4_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec4_0.stage ((cfgA m).slots t 0)) (hstage4_0 (((cfgA m).slots t 0).cast nbuf4_0))
      (spec4_1.stage ((cfgA m).slots t 1)) (hstage4_1 (((cfgA m).slots t 1).cast nbuf4_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KI4

end
-- ==== Proof.KI4Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KIDats
import proofs.«414028_j29231547417249_2_alg».proof.Proof.KIThread
import proofs.«414028_j29231547417249_2_alg».proof.Proof.KI4Chains
import proofs.«414028_j29231547417249_2_alg».proof.Proof.KI4Oblig
import proofs.«414028_j29231547417249_2_alg».proof.Proof.Gen.KernelIdeal.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KI4

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 23 | 1 => .dma 24

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W4] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v18) (hTab m) ∗ pt c (Memref.whole main_v19) (tTab m))

/-- The invariant at the first point: the node table split into its shares, the tables, the two scratch rows out of the
    scoped rest. -/
theorem hin0 (c : Dev nD) :
    iprop(X0 m c ∗ Pipeline.prefHeld pre4 c (fun _ => fullShare) (Cert.Proof.KI.tbl4 m)
        ∗ Pipeline.scopedRest (Ix := Unit) (Name := ℕ) (U := UC) (Lvl := ℕ) (Val := Elt F) spec4 c)
      ⊢ Φv m c := by
  unfold Φv Pipeline.prefHeld
  rw [Gen.bigSep_W4, Gen.scopedRest4_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec4 c) := by
  unfold Φv
  rw [Gen.scopedRest4_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre4 spec4 \ {main_arg0}

theorem node_mem_rest : ({main_arg0} : Finset (Ref sig .tc)) ⊆ Pipeline.restRefsP sig pre4 spec4 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec4 c V : sProp 𝕄)
      = iprop(Pipeline.prefHeld pre4 c (fun _ => fullShare) (fun k => V (pre4.ref k))
          ∗ (((c : Thread nD τ).loc main_arg0) ↦{fullShare} V main_arg0)
          ∗ bigSep restZ fun b => ((c : Thread nD τ).loc b) ↦{fullShare} V b) := by
  rw [Pipeline.unscopedRest_split preFacts4 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v20) ↦{fullShare} V main_v20))
          ∗ ((((c : Thread nD τ).loc main_v18) ↦{fullShare} V main_v18) ∗ (((c : Thread nD τ).loc main_v19) ↦{fullShare} V main_v19))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts4.arr_unscoped winFacts4.arr_inj c, rest_split]
  unfold Pipeline.prefHeld
  rw [Gen.bigSep_W4, Gen.bigSep_W4]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v20) ↦{fullShare} G 1)) := by
  rw [Pipeline.arrays_eq (fun _ : Fin 1 => cfgA m) (fun _ c => dat0 m c) 0 c arr_whole4 ((dat0 m c).share_full fun _ => rfl) G, Gen.bigSep_W4]

/-- What bypasses the region: every other unscoped buffer, at its contents on entry. -/
abbrev Z0 (c : Dev nD) : sProp 𝕄 := bigSep restZ fun b => ((c : Thread nD τ).loc b) ↦{fullShare} V13 m (Cert.Proof.KI.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V13 m (Cert.Proof.KI.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre4 c (fun _ => fullShare) (Cert.Proof.KI.tbl4 m)
          ∗ (dat0 m c).owesAt () 0 ∗ X0 m c ∗ Z0 m c) := by
  rw [held_split m c (V13 m (Cert.Proof.KI.outs m) c), arrays_two, ent_arg0, ent_arg1, ent_out,
    show V13 m (Cert.Proof.KI.outs m) c main_v18 = hTab m from ent_tab m (Cert.Proof.KI.outs m) c 0, show V13 m (Cert.Proof.KI.outs m) c main_v19 = tTab m from ent_tab m (Cert.Proof.KI.outs m) c 1]
  unfold Pipeline.prefHeld
  rw [Gen.bigSep_W4]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v20)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V13 m (Cert.Proof.KI.outs m) c) main_v20 o)
          ∗ (∃ W, owes (c : Thread nD τ) (0 : CellTallies nD τ sig Unit) W)) := by
  have hne : ∀ b : Ref sig .tc, b ≠ main_v20 →
      Function.update (V13 m (Cert.Proof.KI.outs m) c) (Proc.devRef .tc main_v20) o (Proc.devRef .tc b) = V13 m (Cert.Proof.KI.outs m) c b :=
    fun b hb => Function.update_of_ne (StableHlo.devRef_ne_of_ne hb) _ _
  have hz : (bigSep restZ fun b => (((c : Thread nD τ).loc b) ↦{fullShare} Function.update (V13 m (Cert.Proof.KI.outs m) c) (Proc.devRef .tc main_v20) o b : sProp 𝕄))
      = Z0 m c :=
    BI.bigSep_congr fun b hb => by
      rw [hne b (fun e => by subst e; revert hb; decide)]
  rw [held_split m c (Function.update (V13 m (Cert.Proof.KI.outs m) c) main_v20 o), arrays_two, hz,
    hne main_arg1 (by decide), hne main_v18 (by decide), hne main_v19 (by decide), hne main_arg0 (by decide),
    Function.update_self, ent_arg0, ent_arg1,
    show V13 m (Cert.Proof.KI.outs m) c main_v18 = hTab m from ent_tab m (Cert.Proof.KI.outs m) c 0, show V13 m (Cert.Proof.KI.outs m) c main_v19 = tTab m from ent_tab m (Cert.Proof.KI.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec4 osem := by decide

/-- What region 0 leaves in the output's array, by name: the fold of its write-backs. -/
theorem outs6 (c : Dev nD) : Cert.Proof.KI.outs m 14 main_v20 c = (dat0 m c).arrAt 1 (cfgA m).N :=
  Pipeline.withArrays_arr spec4 winFacts4.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KI.adm m) (Cert.Proof.KI.pdats m) () defs₀ Variants.none
      Cert.Proof.KI.L Cert.Proof.KI.lv (4 : Fin 16) where
  win := (launch4 (F := F)).win.to₀
  block_pos := (launch4 (F := F)).block_pos
  stage_whole := (launch4 (F := F)).stage_whole
  K := Fin 2
  osem := osem
  ho := ownSemFacts
  hbody c := (body_obligation m hH hTl c).loose
  hwaits := Pipeline.hwaits_of_owed_zero _ _ _ _ Cert.Proof.KI.L Cert.Proof.KI.lv (4 : Fin 16) fun _ _ => rfl
  pre c := iprop(StableHlo.held (c : Thread nD τ) (Pipeline.ucRefs τ sig) (V13 m (Cert.Proof.KI.outs m) c) ∗ Cert.Proof.KI.E 4 c)
  post c := iprop(StableHlo.held (c : Thread nD τ) (Pipeline.ucRefs τ sig) (V14 m (Cert.Proof.KI.outs m) c) ∗ Cert.Proof.KI.E 5 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KI.outs m 14 main_v20 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V13 m (Cert.Proof.KI.outs m) c) ∗ Cert.Proof.KI.E 4 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V14 m (Cert.Proof.KI.outs m) c) ∗ Cert.Proof.KI.E 5 c) := .rfl

end Cert.Proof.KI4

end
-- ==== Proof.KI5Chains.lean ====
/-
  Region 5 is entered from the valuation after item 14 of @main. No earlier item writes the node table, the relation row,
  the region's output array or the padded index rows, and the region's two tables are the slices cut out of the padded
  rows at offset 327680: each buffer the region is handed holds a function of the launch memory alone.
-/
import proofs.«414028_j29231547417249_2_alg».proof.Proof.KIAdm
import Idealize.ShloMosaic.Lib.StableHlo.Run

set_option maxRecDepth 4096

noncomputable section

namespace Cert.Proof.KI5

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V15 m outs c main_arg0 = m ((c : Thread nD τ).loc main_arg0) :=
  (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V15 m outs c main_arg1 = m ((c : Thread nD τ).loc main_arg1) :=
  (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V15 m outs c main_v23 = m ((c : Thread nD τ).loc main_v23) :=
  (V15_of m outs c main_v23 (by decide)).trans <| (V14_of m outs c main_v23 (by decide)).trans <| (V13_of m outs c main_v23 (by decide)).trans <| (V12_of m outs c main_v23 (by decide)).trans <| (V11_of m outs c main_v23 (by decide)).trans <| (V10_of m outs c main_v23 (by decide)).trans <| (V9_of m outs c main_v23 (by decide)).trans <| (V8_of m outs c main_v23 (by decide)).trans <| (V7_of m outs c main_v23 (by decide)).trans <| (V6_of m outs c main_v23 (by decide)).trans <| (V5_of m c main_v23 (by decide)).trans <| (V4_of m c main_v23 (by decide)).trans <| (V3_of m c main_v23 (by decide)).trans <| (V2_of m c main_v23 (by decide)).trans <| (V1_of m c main_v23 (by decide)).trans <| rfl
/-- The stretch before the region cuts the table out of the padded row, whatever the valuation it runs from. -/
theorem slice_h (X : Valuation τ sig (Elt F)) :
    StableHlo.after (hostOps5 (F := F)) X (Proc.devRef .tc main_v21)
      = extractStridedSlice S65536 ![327680] (X (Proc.devRef .tc main_v4)) slices_S1048576_S65536_327680 := by
  after_results
/-- The stretch before the region cuts the table out of the padded row, whatever the valuation it runs from. -/
theorem slice_t (X : Valuation τ sig (Elt F)) :
    StableHlo.after (hostOps5 (F := F)) X (Proc.devRef .tc main_v22)
      = extractStridedSlice S65536 ![327680] (X (Proc.devRef .tc main_v5)) slices_S1048576_S65536_327680 := by
  after_results
theorem ent_tab0 (c : Dev nD) : V15 m outs c main_v21 = Cert.Proof.KI.tv5 m main_v21 := by
  obtain rfl : c = (0 : Dev nD) := Subsingleton.elim _ _
  have e : V14 m outs (0 : Dev nD) main_v4 = V5 m (0 : Dev nD) main_v4 :=
    (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V14 m outs (0 : Dev nD))).trans ((congrArg (extractStridedSlice S65536 ![327680] · slices_S1048576_S65536_327680) e).trans (slice_h (V5 m (0 : Dev nD))).symm)
theorem ent_tab1 (c : Dev nD) : V15 m outs c main_v22 = Cert.Proof.KI.tv5 m main_v22 := by
  obtain rfl : c = (0 : Dev nD) := Subsingleton.elim _ _
  have e : V14 m outs (0 : Dev nD) main_v5 = V5 m (0 : Dev nD) main_v5 :=
    (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V14 m outs (0 : Dev nD))).trans ((congrArg (extractStridedSlice S65536 ![327680] · slices_S1048576_S65536_327680) e).trans (slice_t (V5 m (0 : Dev nD))).symm)
theorem ent_tab (c : Dev nD) (k : Fin 2) : V15 m outs c (pre5.ref k) = Cert.Proof.KI.tbl5 m k :=
  match k with
  | ⟨0, _⟩ => ent_tab0 m outs c
  | ⟨1, _⟩ => ent_tab1 m outs c

end Cert.Proof.KI5

end
-- ==== Proof.KI5Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.KernelIdeal
import proofs.«414028_j29231547417249_2_alg».proof.Proof.Gen.KernelIdeal.Launch
import Idealize.ShloMosaic.Lib.Pipeline.Dat

noncomputable section

namespace Cert.Proof.KI5

open Cert.KernelIdeal Cert.KernelIdeal.Gen Idealize.ShloMosaic

variable {F : FTy → Type} [FloatOps F] (a : (pcfg5 (F := F)).Adm)

/-! ## The points and their coordinates -/

theorem N_eq : (cfg5 a).N = 65536 := N_5

theorem lt_N (t : Fin (cfg5 a).N) : t.val < 65536 := Nat.lt_of_lt_of_eq t.isLt (N_eq a)

/-- Each value of the first coordinate is shared by 128 consecutive points, each value of the second by one. -/
theorem stride0 : grid5.stride 0 = 128 := by decide
theorem stride1 : grid5.stride 1 = 1 := by decide

theorem coords0 (t : Fin (cfg5 a).N) : (((cfg5 a).grid.coords t) 0).val = t.val / 128 := by
  have ht := lt_N a t
  show t.val / grid5.stride 0 % 512 = t.val / 128
  rw [stride0]; omega

theorem coords1 (t : Fin (cfg5 a).N) : (((cfg5 a).grid.coords t) 1).val = t.val % 128 := by
  show t.val / grid5.stride 1 % 128 = t.val % 128
  rw [stride1, Nat.div_one]

theorem flat_eq (t : Fin (cfg5 a).N) :
    (((cfg5 a).grid.coords t) 0).val * 128 + (((cfg5 a).grid.coords t) 1).val = t.val := by
  rw [coords0, coords1]; omega

/-! ## The windows' block indices -/

/-- Window 0's block index is constant. -/
theorem index0 (s t : Fin (cfg5 a).N) : ((cfg5 a).win 0).index s = ((cfg5 a).win 0).index t := rfl

/-- Window 1's block index at a point is the point's first coordinate. -/
theorem index1 (s : Fin (cfg5 a).N) : ((cfg5 a).win 1).index s = ![s.val / 128] := by
  have hs := lt_N a s
  show ![(BitVec.ofNat 32 (((cfg5 a).grid.coords s) 0).val).toNat] = ![s.val / 128]
  rw [coords0 a s, BitVec.toNat_ofNat, Nat.mod_eq_of_lt (by omega)]

/-! ## Fetches and write-backs -/

theorem fetch0 (t : Fin (cfg5 a).N) : ((cfg5 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg5 a).N) : ((cfg5 a).win 1).fetch t = false := by
  unfold Pipeline.Window.fetch
  show (!true && _) = false
  rfl

theorem flush0 (t : Fin (cfg5 a).N) : ((cfg5 a).win 0).flush t = false := by
  unfold Pipeline.Window.flush
  show (false && _) = false
  rfl

theorem flush1 (t : Fin (cfg5 a).N) : ((cfg5 a).win 1).flush t = decide (t.val % 128 = 127) := by
  have ht := lt_N a t
  have hN : (cfg5 a).grid.N = 65536 := N_eq a
  unfold Pipeline.Window.flush
  show (true && (decide (t.val + 1 = (cfg5 a).grid.N)
    || decide (∃ h : t.val + 1 < (cfg5 a).grid.N, ((cfg5 a).win 1).index ⟨t.val + 1, h⟩ ≠ ((cfg5 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg5 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg5 a).W) (t : Fin (cfg5 a).N) : (cfg5 a).idle w ((cfg5 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg5 a).N) :
    Scalar.cmpi .ne (Scalar.extui (Scalar.cmpi .eq (BitVec.ofNat 32 (((cfg5 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg5 a).N) (A : Vec F S1x256 .f32) (y : S1x256.Idx) :
    (((cfg5 a).win 0).blk t).view.read (Elt F) A y = A y := by
  show A ((((cfg5 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg5 a).N) (y : S128.Idx) :
    ((((cfg5 a).win 1).blk t).view.emb y (0 : Fin 1)).val = 128 * (t.val / 128) + (y 0).val := by
  have hi : ((cfg5 a).win 1).index t (0 : Fin 1) = t.val / 128 := by rw [index1]; rfl
  show ((cfg5 a).win 1).index t (0 : Fin 1) * 128 + 1 * (y 0).val = 128 * (t.val / 128) + (y 0).val
  rw [hi]; omega

end Cert.Proof.KI5

end
-- ==== Proof.KI5Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KI5Defs
import proofs.«414028_j29231547417249_2_alg».proof.Proof.Gen.KernelIdeal.Launch
import Idealize.ShloMosaic.Lib.Tactic

noncomputable section

namespace Cert.Proof.KI5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k5_pay2 j (k5_pay6 X18 X19 X20) (k5_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k5_pay2 j (k5_pay6 X18 X19 X20) (k5_pay7 X18 X19 X20)
              (m.view.readCov [⟨Rect.unit (s := S128) ![0] S128.size inb_S128_S128_0, k5_pay1 (F := F)⟩]
                (Rect.unit (s := S128) ![0] S128.size inb_S128_S128_0).toLoadRect)⟩,
          ⟨Rect.unit (s := S128) ![0] S128.size inb_S128_S128_0, k5_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid5.Coords) (M5 : Memref sig .tc .vmem S1x256 .f32) (h5 : M5.IsWhole) (M6 : Memref sig .tc .vmem S128 .f32) (h6 : M6.IsWhole)
    (hT : Bf (F := F) c (Memref.whole main_v21)) (tT : Bf (F := F) c (Memref.whole main_v22)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v21) hT ∗ pt c (Memref.whole main_v22) tT ∗ nodeSh c node
      ∗ (∃ s0, pt c (Memref.whole cc5_scratch0) s0) ∗ (∃ s1, pt c (Memref.whole cc5_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v21) hT ∗ pt c (Memref.whole main_v22) tT ∗ nodeSh c node
          ∗ (∃ s0, pt c (Memref.whole cc5_scratch0) s0) ∗ (∃ s1, pt c (Memref.whole cc5_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc5__lookup_kernel i (Memref.whole main_v21) (Memref.isWhole_whole _) (Memref.whole main_v22) (Memref.isWhole_whole _) (Memref.whole main_arg0) (Memref.isWhole_whole _)
          M5 h5 M6 h6 (Memref.whole cc5_scratch0) (Memref.isWhole_whole _) (Memref.whole cc5_scratch1) (Memref.isWhole_whole _) cc5_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid5.Coords) (M5 : Memref sig .tc .vmem S1x256 .f32) (h5 : M5.IsWhole) (M6 : Memref sig .tc .vmem S128 .f32) (h6 : M6.IsWhole)
    (hT : Bf (F := F) c (Memref.whole main_v21)) (tT : Bf (F := F) c (Memref.whole main_v22)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v21) hT ∗ pt c (Memref.whole main_v22) tT ∗ nodeSh c node
      ∗ (∃ s0, pt c (Memref.whole cc5_scratch0) s0) ∗ (∃ s1, pt c (Memref.whole cc5_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v21) hT ∗ pt c (Memref.whole main_v22) tT ∗ nodeSh c node
          ∗ (∃ s0, pt c (Memref.whole cc5_scratch0) s0) ∗ (∃ s1, pt c (Memref.whole cc5_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc5__lookup_kernel i (Memref.whole main_v21) (Memref.isWhole_whole _) (Memref.whole main_v22) (Memref.isWhole_whole _) (Memref.whole main_arg0) (Memref.isWhole_whole _)
          M5 h5 M6 h6 (Memref.whole cc5_scratch0) (Memref.isWhole_whole _) (Memref.whole cc5_scratch1) (Memref.isWhole_whole _) cc5_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KI5

end
-- ==== Proof.KI5Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KI5Data
import proofs.«414028_j29231547417249_2_alg».proof.Proof.KI5Points
import proofs.«414028_j29231547417249_2_alg».proof.Proof.KI5Body
import proofs.«414028_j29231547417249_2_alg».proof.Proof.Gen.KernelIdeal.Launch
import Idealize.ShloMosaic.Lib.Pipeline.Frame

noncomputable section

namespace Cert.Proof.KI5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W5, bigSep_W5]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec5_0.stage ((cfgA m).slots t 0)) (hstage5_0 (((cfgA m).slots t 0).cast nbuf5_0))
      (spec5_1.stage ((cfgA m).slots t 1)) (hstage5_1 (((cfgA m).slots t 1).cast nbuf5_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec5_0.stage ((cfgA m).slots t 0)) (hstage5_0 (((cfgA m).slots t 0).cast nbuf5_0))
      (spec5_1.stage ((cfgA m).slots t 1)) (hstage5_1 (((cfgA m).slots t 1).cast nbuf5_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KI5

end
-- ==== Proof.KI5Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KIDats
import proofs.«414028_j29231547417249_2_alg».proof.Proof.KIThread
import proofs.«414028_j29231547417249_2_alg».proof.Proof.KI5Chains
import proofs.«414028_j29231547417249_2_alg».proof.Proof.KI5Oblig
import proofs.«414028_j29231547417249_2_alg».proof.Proof.Gen.KernelIdeal.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KI5

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 28 | 1 => .dma 29

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W5] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v21) (hTab m) ∗ pt c (Memref.whole main_v22) (tTab m))

/-- The invariant at the first point: the node table split into its shares, the tables, the two scratch rows out of the
    scoped rest. -/
theorem hin0 (c : Dev nD) :
    iprop(X0 m c ∗ Pipeline.prefHeld pre5 c (fun _ => fullShare) (Cert.Proof.KI.tbl5 m)
        ∗ Pipeline.scopedRest (Ix := Unit) (Name := ℕ) (U := UC) (Lvl := ℕ) (Val := Elt F) spec5 c)
      ⊢ Φv m c := by
  unfold Φv Pipeline.prefHeld
  rw [Gen.bigSep_W5, Gen.scopedRest5_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec5 c) := by
  unfold Φv
  rw [Gen.scopedRest5_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre5 spec5 \ {main_arg0}

theorem node_mem_rest : ({main_arg0} : Finset (Ref sig .tc)) ⊆ Pipeline.restRefsP sig pre5 spec5 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec5 c V : sProp 𝕄)
      = iprop(Pipeline.prefHeld pre5 c (fun _ => fullShare) (fun k => V (pre5.ref k))
          ∗ (((c : Thread nD τ).loc main_arg0) ↦{fullShare} V main_arg0)
          ∗ bigSep restZ fun b => ((c : Thread nD τ).loc b) ↦{fullShare} V b) := by
  rw [Pipeline.unscopedRest_split preFacts5 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v23) ↦{fullShare} V main_v23))
          ∗ ((((c : Thread nD τ).loc main_v21) ↦{fullShare} V main_v21) ∗ (((c : Thread nD τ).loc main_v22) ↦{fullShare} V main_v22))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts5.arr_unscoped winFacts5.arr_inj c, rest_split]
  unfold Pipeline.prefHeld
  rw [Gen.bigSep_W5, Gen.bigSep_W5]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v23) ↦{fullShare} G 1)) := by
  rw [Pipeline.arrays_eq (fun _ : Fin 1 => cfgA m) (fun _ c => dat0 m c) 0 c arr_whole5 ((dat0 m c).share_full fun _ => rfl) G, Gen.bigSep_W5]

/-- What bypasses the region: every other unscoped buffer, at its contents on entry. -/
abbrev Z0 (c : Dev nD) : sProp 𝕄 := bigSep restZ fun b => ((c : Thread nD τ).loc b) ↦{fullShare} V15 m (Cert.Proof.KI.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V15 m (Cert.Proof.KI.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre5 c (fun _ => fullShare) (Cert.Proof.KI.tbl5 m)
          ∗ (dat0 m c).owesAt () 0 ∗ X0 m c ∗ Z0 m c) := by
  rw [held_split m c (V15 m (Cert.Proof.KI.outs m) c), arrays_two, ent_arg0, ent_arg1, ent_out,
    show V15 m (Cert.Proof.KI.outs m) c main_v21 = hTab m from ent_tab m (Cert.Proof.KI.outs m) c 0, show V15 m (Cert.Proof.KI.outs m) c main_v22 = tTab m from ent_tab m (Cert.Proof.KI.outs m) c 1]
  unfold Pipeline.prefHeld
  rw [Gen.bigSep_W5]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v23)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V15 m (Cert.Proof.KI.outs m) c) main_v23 o)
          ∗ (∃ W, owes (c : Thread nD τ) (0 : CellTallies nD τ sig Unit) W)) := by
  have hne : ∀ b : Ref sig .tc, b ≠ main_v23 →
      Function.update (V15 m (Cert.Proof.KI.outs m) c) (Proc.devRef .tc main_v23) o (Proc.devRef .tc b) = V15 m (Cert.Proof.KI.outs m) c b :=
    fun b hb => Function.update_of_ne (StableHlo.devRef_ne_of_ne hb) _ _
  have hz : (bigSep restZ fun b => (((c : Thread nD τ).loc b) ↦{fullShare} Function.update (V15 m (Cert.Proof.KI.outs m) c) (Proc.devRef .tc main_v23) o b : sProp 𝕄))
      = Z0 m c :=
    BI.bigSep_congr fun b hb => by
      rw [hne b (fun e => by subst e; revert hb; decide)]
  rw [held_split m c (Function.update (V15 m (Cert.Proof.KI.outs m) c) main_v23 o), arrays_two, hz,
    hne main_arg1 (by decide), hne main_v21 (by decide), hne main_v22 (by decide), hne main_arg0 (by decide),
    Function.update_self, ent_arg0, ent_arg1,
    show V15 m (Cert.Proof.KI.outs m) c main_v21 = hTab m from ent_tab m (Cert.Proof.KI.outs m) c 0, show V15 m (Cert.Proof.KI.outs m) c main_v22 = tTab m from ent_tab m (Cert.Proof.KI.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec5 osem := by decide

/-- What region 0 leaves in the output's array, by name: the fold of its write-backs. -/
theorem outs6 (c : Dev nD) : Cert.Proof.KI.outs m 16 main_v23 c = (dat0 m c).arrAt 1 (cfgA m).N :=
  Pipeline.withArrays_arr spec5 winFacts5.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KI.adm m) (Cert.Proof.KI.pdats m) () defs₀ Variants.none
      Cert.Proof.KI.L Cert.Proof.KI.lv (5 : Fin 16) where
  win := (launch5 (F := F)).win.to₀
  block_pos := (launch5 (F := F)).block_pos
  stage_whole := (launch5 (F := F)).stage_whole
  K := Fin 2
  osem := osem
  ho := ownSemFacts
  hbody c := (body_obligation m hH hTl c).loose
  hwaits := Pipeline.hwaits_of_owed_zero _ _ _ _ Cert.Proof.KI.L Cert.Proof.KI.lv (5 : Fin 16) fun _ _ => rfl
  pre c := iprop(StableHlo.held (c : Thread nD τ) (Pipeline.ucRefs τ sig) (V15 m (Cert.Proof.KI.outs m) c) ∗ Cert.Proof.KI.E 5 c)
  post c := iprop(StableHlo.held (c : Thread nD τ) (Pipeline.ucRefs τ sig) (V16 m (Cert.Proof.KI.outs m) c) ∗ Cert.Proof.KI.E 6 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KI.outs m 16 main_v23 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V15 m (Cert.Proof.KI.outs m) c) ∗ Cert.Proof.KI.E 5 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V16 m (Cert.Proof.KI.outs m) c) ∗ Cert.Proof.KI.E 6 c) := .rfl

end Cert.Proof.KI5

end
-- ==== Proof.KI6Chains.lean ====
/-
  Region 6 is entered from the valuation after item 16 of @main. No earlier item writes the node table, the relation row,
  the region's output array or the padded index rows, and the region's two tables are the slices cut out of the padded
  rows at offset 393216: each buffer the region is handed holds a function of the launch memory alone.
-/
import proofs.«414028_j29231547417249_2_alg».proof.Proof.KIAdm
import Idealize.ShloMosaic.Lib.StableHlo.Run

set_option maxRecDepth 4096

noncomputable section

namespace Cert.Proof.KI6

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V17 m outs c main_arg0 = m ((c : Thread nD τ).loc main_arg0) :=
  (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V17 m outs c main_arg1 = m ((c : Thread nD τ).loc main_arg1) :=
  (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V17 m outs c main_v26 = m ((c : Thread nD τ).loc main_v26) :=
  (V17_of m outs c main_v26 (by decide)).trans <| (V16_of m outs c main_v26 (by decide)).trans <| (V15_of m outs c main_v26 (by decide)).trans <| (V14_of m outs c main_v26 (by decide)).trans <| (V13_of m outs c main_v26 (by decide)).trans <| (V12_of m outs c main_v26 (by decide)).trans <| (V11_of m outs c main_v26 (by decide)).trans <| (V10_of m outs c main_v26 (by decide)).trans <| (V9_of m outs c main_v26 (by decide)).trans <| (V8_of m outs c main_v26 (by decide)).trans <| (V7_of m outs c main_v26 (by decide)).trans <| (V6_of m outs c main_v26 (by decide)).trans <| (V5_of m c main_v26 (by decide)).trans <| (V4_of m c main_v26 (by decide)).trans <| (V3_of m c main_v26 (by decide)).trans <| (V2_of m c main_v26 (by decide)).trans <| (V1_of m c main_v26 (by decide)).trans <| rfl
/-- The stretch before the region cuts the table out of the padded row, whatever the valuation it runs from. -/
theorem slice_h (X : Valuation τ sig (Elt F)) :
    StableHlo.after (hostOps6 (F := F)) X (Proc.devRef .tc main_v24)
      = extractStridedSlice S65536 ![393216] (X (Proc.devRef .tc main_v4)) slices_S1048576_S65536_393216 := by
  after_results
/-- The stretch before the region cuts the table out of the padded row, whatever the valuation it runs from. -/
theorem slice_t (X : Valuation τ sig (Elt F)) :
    StableHlo.after (hostOps6 (F := F)) X (Proc.devRef .tc main_v25)
      = extractStridedSlice S65536 ![393216] (X (Proc.devRef .tc main_v5)) slices_S1048576_S65536_393216 := by
  after_results
theorem ent_tab0 (c : Dev nD) : V17 m outs c main_v24 = Cert.Proof.KI.tv6 m main_v24 := by
  obtain rfl : c = (0 : Dev nD) := Subsingleton.elim _ _
  have e : V16 m outs (0 : Dev nD) main_v4 = V5 m (0 : Dev nD) main_v4 :=
    (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V16 m outs (0 : Dev nD))).trans ((congrArg (extractStridedSlice S65536 ![393216] · slices_S1048576_S65536_393216) e).trans (slice_h (V5 m (0 : Dev nD))).symm)
theorem ent_tab1 (c : Dev nD) : V17 m outs c main_v25 = Cert.Proof.KI.tv6 m main_v25 := by
  obtain rfl : c = (0 : Dev nD) := Subsingleton.elim _ _
  have e : V16 m outs (0 : Dev nD) main_v5 = V5 m (0 : Dev nD) main_v5 :=
    (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V16 m outs (0 : Dev nD))).trans ((congrArg (extractStridedSlice S65536 ![393216] · slices_S1048576_S65536_393216) e).trans (slice_t (V5 m (0 : Dev nD))).symm)
theorem ent_tab (c : Dev nD) (k : Fin 2) : V17 m outs c (pre6.ref k) = Cert.Proof.KI.tbl6 m k :=
  match k with
  | ⟨0, _⟩ => ent_tab0 m outs c
  | ⟨1, _⟩ => ent_tab1 m outs c

end Cert.Proof.KI6

end
-- ==== Proof.KI6Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.KernelIdeal
import proofs.«414028_j29231547417249_2_alg».proof.Proof.Gen.KernelIdeal.Launch
import Idealize.ShloMosaic.Lib.Pipeline.Dat

noncomputable section

namespace Cert.Proof.KI6

open Cert.KernelIdeal Cert.KernelIdeal.Gen Idealize.ShloMosaic

variable {F : FTy → Type} [FloatOps F] (a : (pcfg6 (F := F)).Adm)

/-! ## The points and their coordinates -/

theorem N_eq : (cfg6 a).N = 65536 := N_6

theorem lt_N (t : Fin (cfg6 a).N) : t.val < 65536 := Nat.lt_of_lt_of_eq t.isLt (N_eq a)

/-- Each value of the first coordinate is shared by 128 consecutive points, each value of the second by one. -/
theorem stride0 : grid6.stride 0 = 128 := by decide
theorem stride1 : grid6.stride 1 = 1 := by decide

theorem coords0 (t : Fin (cfg6 a).N) : (((cfg6 a).grid.coords t) 0).val = t.val / 128 := by
  have ht := lt_N a t
  show t.val / grid6.stride 0 % 512 = t.val / 128
  rw [stride0]; omega

theorem coords1 (t : Fin (cfg6 a).N) : (((cfg6 a).grid.coords t) 1).val = t.val % 128 := by
  show t.val / grid6.stride 1 % 128 = t.val % 128
  rw [stride1, Nat.div_one]

theorem flat_eq (t : Fin (cfg6 a).N) :
    (((cfg6 a).grid.coords t) 0).val * 128 + (((cfg6 a).grid.coords t) 1).val = t.val := by
  rw [coords0, coords1]; omega

/-! ## The windows' block indices -/

/-- Window 0's block index is constant. -/
theorem index0 (s t : Fin (cfg6 a).N) : ((cfg6 a).win 0).index s = ((cfg6 a).win 0).index t := rfl

/-- Window 1's block index at a point is the point's first coordinate. -/
theorem index1 (s : Fin (cfg6 a).N) : ((cfg6 a).win 1).index s = ![s.val / 128] := by
  have hs := lt_N a s
  show ![(BitVec.ofNat 32 (((cfg6 a).grid.coords s) 0).val).toNat] = ![s.val / 128]
  rw [coords0 a s, BitVec.toNat_ofNat, Nat.mod_eq_of_lt (by omega)]

/-! ## Fetches and write-backs -/

theorem fetch0 (t : Fin (cfg6 a).N) : ((cfg6 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg6 a).N) : ((cfg6 a).win 1).fetch t = false := by
  unfold Pipeline.Window.fetch
  show (!true && _) = false
  rfl

theorem flush0 (t : Fin (cfg6 a).N) : ((cfg6 a).win 0).flush t = false := by
  unfold Pipeline.Window.flush
  show (false && _) = false
  rfl

theorem flush1 (t : Fin (cfg6 a).N) : ((cfg6 a).win 1).flush t = decide (t.val % 128 = 127) := by
  have ht := lt_N a t
  have hN : (cfg6 a).grid.N = 65536 := N_eq a
  unfold Pipeline.Window.flush
  show (true && (decide (t.val + 1 = (cfg6 a).grid.N)
    || decide (∃ h : t.val + 1 < (cfg6 a).grid.N, ((cfg6 a).win 1).index ⟨t.val + 1, h⟩ ≠ ((cfg6 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg6 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg6 a).W) (t : Fin (cfg6 a).N) : (cfg6 a).idle w ((cfg6 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg6 a).N) :
    Scalar.cmpi .ne (Scalar.extui (Scalar.cmpi .eq (BitVec.ofNat 32 (((cfg6 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg6 a).N) (A : Vec F S1x256 .f32) (y : S1x256.Idx) :
    (((cfg6 a).win 0).blk t).view.read (Elt F) A y = A y := by
  show A ((((cfg6 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg6 a).N) (y : S128.Idx) :
    ((((cfg6 a).win 1).blk t).view.emb y (0 : Fin 1)).val = 128 * (t.val / 128) + (y 0).val := by
  have hi : ((cfg6 a).win 1).index t (0 : Fin 1) = t.val / 128 := by rw [index1]; rfl
  show ((cfg6 a).win 1).index t (0 : Fin 1) * 128 + 1 * (y 0).val = 128 * (t.val / 128) + (y 0).val
  rw [hi]; omega

end Cert.Proof.KI6

end
-- ==== Proof.KI6Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KI6Defs
import proofs.«414028_j29231547417249_2_alg».proof.Proof.Gen.KernelIdeal.Launch
import Idealize.ShloMosaic.Lib.Tactic

noncomputable section

namespace Cert.Proof.KI6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k6_pay2 j (k6_pay6 X18 X19 X20) (k6_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k6_pay2 j (k6_pay6 X18 X19 X20) (k6_pay7 X18 X19 X20)
              (m.view.readCov [⟨Rect.unit (s := S128) ![0] S128.size inb_S128_S128_0, k6_pay1 (F := F)⟩]
                (Rect.unit (s := S128) ![0] S128.size inb_S128_S128_0).toLoadRect)⟩,
          ⟨Rect.unit (s := S128) ![0] S128.size inb_S128_S128_0, k6_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid6.Coords) (M5 : Memref sig .tc .vmem S1x256 .f32) (h5 : M5.IsWhole) (M6 : Memref sig .tc .vmem S128 .f32) (h6 : M6.IsWhole)
    (hT : Bf (F := F) c (Memref.whole main_v24)) (tT : Bf (F := F) c (Memref.whole main_v25)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v24) hT ∗ pt c (Memref.whole main_v25) tT ∗ nodeSh c node
      ∗ (∃ s0, pt c (Memref.whole cc6_scratch0) s0) ∗ (∃ s1, pt c (Memref.whole cc6_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v24) hT ∗ pt c (Memref.whole main_v25) tT ∗ nodeSh c node
          ∗ (∃ s0, pt c (Memref.whole cc6_scratch0) s0) ∗ (∃ s1, pt c (Memref.whole cc6_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc6__lookup_kernel i (Memref.whole main_v24) (Memref.isWhole_whole _) (Memref.whole main_v25) (Memref.isWhole_whole _) (Memref.whole main_arg0) (Memref.isWhole_whole _)
          M5 h5 M6 h6 (Memref.whole cc6_scratch0) (Memref.isWhole_whole _) (Memref.whole cc6_scratch1) (Memref.isWhole_whole _) cc6_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid6.Coords) (M5 : Memref sig .tc .vmem S1x256 .f32) (h5 : M5.IsWhole) (M6 : Memref sig .tc .vmem S128 .f32) (h6 : M6.IsWhole)
    (hT : Bf (F := F) c (Memref.whole main_v24)) (tT : Bf (F := F) c (Memref.whole main_v25)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v24) hT ∗ pt c (Memref.whole main_v25) tT ∗ nodeSh c node
      ∗ (∃ s0, pt c (Memref.whole cc6_scratch0) s0) ∗ (∃ s1, pt c (Memref.whole cc6_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v24) hT ∗ pt c (Memref.whole main_v25) tT ∗ nodeSh c node
          ∗ (∃ s0, pt c (Memref.whole cc6_scratch0) s0) ∗ (∃ s1, pt c (Memref.whole cc6_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc6__lookup_kernel i (Memref.whole main_v24) (Memref.isWhole_whole _) (Memref.whole main_v25) (Memref.isWhole_whole _) (Memref.whole main_arg0) (Memref.isWhole_whole _)
          M5 h5 M6 h6 (Memref.whole cc6_scratch0) (Memref.isWhole_whole _) (Memref.whole cc6_scratch1) (Memref.isWhole_whole _) cc6_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KI6

end
-- ==== Proof.KI6Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KI6Data
import proofs.«414028_j29231547417249_2_alg».proof.Proof.KI6Points
import proofs.«414028_j29231547417249_2_alg».proof.Proof.KI6Body
import proofs.«414028_j29231547417249_2_alg».proof.Proof.Gen.KernelIdeal.Launch
import Idealize.ShloMosaic.Lib.Pipeline.Frame

noncomputable section

namespace Cert.Proof.KI6

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W6, bigSep_W6]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec6_0.stage ((cfgA m).slots t 0)) (hstage6_0 (((cfgA m).slots t 0).cast nbuf6_0))
      (spec6_1.stage ((cfgA m).slots t 1)) (hstage6_1 (((cfgA m).slots t 1).cast nbuf6_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec6_0.stage ((cfgA m).slots t 0)) (hstage6_0 (((cfgA m).slots t 0).cast nbuf6_0))
      (spec6_1.stage ((cfgA m).slots t 1)) (hstage6_1 (((cfgA m).slots t 1).cast nbuf6_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KI6

end
-- ==== Proof.KI6Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KIDats
import proofs.«414028_j29231547417249_2_alg».proof.Proof.KIThread
import proofs.«414028_j29231547417249_2_alg».proof.Proof.KI6Chains
import proofs.«414028_j29231547417249_2_alg».proof.Proof.KI6Oblig
import proofs.«414028_j29231547417249_2_alg».proof.Proof.Gen.KernelIdeal.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KI6

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 33 | 1 => .dma 34

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W6] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v24) (hTab m) ∗ pt c (Memref.whole main_v25) (tTab m))

/-- The invariant at the first point: the node table split into its shares, the tables, the two scratch rows out of the
    scoped rest. -/
theorem hin0 (c : Dev nD) :
    iprop(X0 m c ∗ Pipeline.prefHeld pre6 c (fun _ => fullShare) (Cert.Proof.KI.tbl6 m)
        ∗ Pipeline.scopedRest (Ix := Unit) (Name := ℕ) (U := UC) (Lvl := ℕ) (Val := Elt F) spec6 c)
      ⊢ Φv m c := by
  unfold Φv Pipeline.prefHeld
  rw [Gen.bigSep_W6, Gen.scopedRest6_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec6 c) := by
  unfold Φv
  rw [Gen.scopedRest6_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre6 spec6 \ {main_arg0}

theorem node_mem_rest : ({main_arg0} : Finset (Ref sig .tc)) ⊆ Pipeline.restRefsP sig pre6 spec6 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec6 c V : sProp 𝕄)
      = iprop(Pipeline.prefHeld pre6 c (fun _ => fullShare) (fun k => V (pre6.ref k))
          ∗ (((c : Thread nD τ).loc main_arg0) ↦{fullShare} V main_arg0)
          ∗ bigSep restZ fun b => ((c : Thread nD τ).loc b) ↦{fullShare} V b) := by
  rw [Pipeline.unscopedRest_split preFacts6 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v26) ↦{fullShare} V main_v26))
          ∗ ((((c : Thread nD τ).loc main_v24) ↦{fullShare} V main_v24) ∗ (((c : Thread nD τ).loc main_v25) ↦{fullShare} V main_v25))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts6.arr_unscoped winFacts6.arr_inj c, rest_split]
  unfold Pipeline.prefHeld
  rw [Gen.bigSep_W6, Gen.bigSep_W6]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v26) ↦{fullShare} G 1)) := by
  rw [Pipeline.arrays_eq (fun _ : Fin 1 => cfgA m) (fun _ c => dat0 m c) 0 c arr_whole6 ((dat0 m c).share_full fun _ => rfl) G, Gen.bigSep_W6]

/-- What bypasses the region: every other unscoped buffer, at its contents on entry. -/
abbrev Z0 (c : Dev nD) : sProp 𝕄 := bigSep restZ fun b => ((c : Thread nD τ).loc b) ↦{fullShare} V17 m (Cert.Proof.KI.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V17 m (Cert.Proof.KI.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre6 c (fun _ => fullShare) (Cert.Proof.KI.tbl6 m)
          ∗ (dat0 m c).owesAt () 0 ∗ X0 m c ∗ Z0 m c) := by
  rw [held_split m c (V17 m (Cert.Proof.KI.outs m) c), arrays_two, ent_arg0, ent_arg1, ent_out,
    show V17 m (Cert.Proof.KI.outs m) c main_v24 = hTab m from ent_tab m (Cert.Proof.KI.outs m) c 0, show V17 m (Cert.Proof.KI.outs m) c main_v25 = tTab m from ent_tab m (Cert.Proof.KI.outs m) c 1]
  unfold Pipeline.prefHeld
  rw [Gen.bigSep_W6]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v26)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V17 m (Cert.Proof.KI.outs m) c) main_v26 o)
          ∗ (∃ W, owes (c : Thread nD τ) (0 : CellTallies nD τ sig Unit) W)) := by
  have hne : ∀ b : Ref sig .tc, b ≠ main_v26 →
      Function.update (V17 m (Cert.Proof.KI.outs m) c) (Proc.devRef .tc main_v26) o (Proc.devRef .tc b) = V17 m (Cert.Proof.KI.outs m) c b :=
    fun b hb => Function.update_of_ne (StableHlo.devRef_ne_of_ne hb) _ _
  have hz : (bigSep restZ fun b => (((c : Thread nD τ).loc b) ↦{fullShare} Function.update (V17 m (Cert.Proof.KI.outs m) c) (Proc.devRef .tc main_v26) o b : sProp 𝕄))
      = Z0 m c :=
    BI.bigSep_congr fun b hb => by
      rw [hne b (fun e => by subst e; revert hb; decide)]
  rw [held_split m c (Function.update (V17 m (Cert.Proof.KI.outs m) c) main_v26 o), arrays_two, hz,
    hne main_arg1 (by decide), hne main_v24 (by decide), hne main_v25 (by decide), hne main_arg0 (by decide),
    Function.update_self, ent_arg0, ent_arg1,
    show V17 m (Cert.Proof.KI.outs m) c main_v24 = hTab m from ent_tab m (Cert.Proof.KI.outs m) c 0, show V17 m (Cert.Proof.KI.outs m) c main_v25 = tTab m from ent_tab m (Cert.Proof.KI.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec6 osem := by decide

/-- What region 0 leaves in the output's array, by name: the fold of its write-backs. -/
theorem outs6 (c : Dev nD) : Cert.Proof.KI.outs m 18 main_v26 c = (dat0 m c).arrAt 1 (cfgA m).N :=
  Pipeline.withArrays_arr spec6 winFacts6.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KI.adm m) (Cert.Proof.KI.pdats m) () defs₀ Variants.none
      Cert.Proof.KI.L Cert.Proof.KI.lv (6 : Fin 16) where
  win := (launch6 (F := F)).win.to₀
  block_pos := (launch6 (F := F)).block_pos
  stage_whole := (launch6 (F := F)).stage_whole
  K := Fin 2
  osem := osem
  ho := ownSemFacts
  hbody c := (body_obligation m hH hTl c).loose
  hwaits := Pipeline.hwaits_of_owed_zero _ _ _ _ Cert.Proof.KI.L Cert.Proof.KI.lv (6 : Fin 16) fun _ _ => rfl
  pre c := iprop(StableHlo.held (c : Thread nD τ) (Pipeline.ucRefs τ sig) (V17 m (Cert.Proof.KI.outs m) c) ∗ Cert.Proof.KI.E 6 c)
  post c := iprop(StableHlo.held (c : Thread nD τ) (Pipeline.ucRefs τ sig) (V18 m (Cert.Proof.KI.outs m) c) ∗ Cert.Proof.KI.E 7 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KI.outs m 18 main_v26 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V17 m (Cert.Proof.KI.outs m) c) ∗ Cert.Proof.KI.E 6 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V18 m (Cert.Proof.KI.outs m) c) ∗ Cert.Proof.KI.E 7 c) := .rfl

end Cert.Proof.KI6

end
-- ==== Proof.KI7Chains.lean ====
/-
  Region 7 is entered from the valuation after item 18 of @main. No earlier item writes the node table, the relation row,
  the region's output array or the padded index rows, and the region's two tables are the slices cut out of the padded
  rows at offset 458752: each buffer the region is handed holds a function of the launch memory alone.
-/
import proofs.«414028_j29231547417249_2_alg».proof.Proof.KIAdm
import Idealize.ShloMosaic.Lib.StableHlo.Run

set_option maxRecDepth 4096

noncomputable section

namespace Cert.Proof.KI7

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V19 m outs c main_arg0 = m ((c : Thread nD τ).loc main_arg0) :=
  (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V19 m outs c main_arg1 = m ((c : Thread nD τ).loc main_arg1) :=
  (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V19 m outs c main_v29 = m ((c : Thread nD τ).loc main_v29) :=
  (V19_of m outs c main_v29 (by decide)).trans <| (V18_of m outs c main_v29 (by decide)).trans <| (V17_of m outs c main_v29 (by decide)).trans <| (V16_of m outs c main_v29 (by decide)).trans <| (V15_of m outs c main_v29 (by decide)).trans <| (V14_of m outs c main_v29 (by decide)).trans <| (V13_of m outs c main_v29 (by decide)).trans <| (V12_of m outs c main_v29 (by decide)).trans <| (V11_of m outs c main_v29 (by decide)).trans <| (V10_of m outs c main_v29 (by decide)).trans <| (V9_of m outs c main_v29 (by decide)).trans <| (V8_of m outs c main_v29 (by decide)).trans <| (V7_of m outs c main_v29 (by decide)).trans <| (V6_of m outs c main_v29 (by decide)).trans <| (V5_of m c main_v29 (by decide)).trans <| (V4_of m c main_v29 (by decide)).trans <| (V3_of m c main_v29 (by decide)).trans <| (V2_of m c main_v29 (by decide)).trans <| (V1_of m c main_v29 (by decide)).trans <| rfl
/-- The stretch before the region cuts the table out of the padded row, whatever the valuation it runs from. -/
theorem slice_h (X : Valuation τ sig (Elt F)) :
    StableHlo.after (hostOps7 (F := F)) X (Proc.devRef .tc main_v27)
      = extractStridedSlice S65536 ![458752] (X (Proc.devRef .tc main_v4)) slices_S1048576_S65536_458752 := by
  after_results
/-- The stretch before the region cuts the table out of the padded row, whatever the valuation it runs from. -/
theorem slice_t (X : Valuation τ sig (Elt F)) :
    StableHlo.after (hostOps7 (F := F)) X (Proc.devRef .tc main_v28)
      = extractStridedSlice S65536 ![458752] (X (Proc.devRef .tc main_v5)) slices_S1048576_S65536_458752 := by
  after_results
theorem ent_tab0 (c : Dev nD) : V19 m outs c main_v27 = Cert.Proof.KI.tv7 m main_v27 := by
  obtain rfl : c = (0 : Dev nD) := Subsingleton.elim _ _
  have e : V18 m outs (0 : Dev nD) main_v4 = V5 m (0 : Dev nD) main_v4 :=
    (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V18 m outs (0 : Dev nD))).trans ((congrArg (extractStridedSlice S65536 ![458752] · slices_S1048576_S65536_458752) e).trans (slice_h (V5 m (0 : Dev nD))).symm)
theorem ent_tab1 (c : Dev nD) : V19 m outs c main_v28 = Cert.Proof.KI.tv7 m main_v28 := by
  obtain rfl : c = (0 : Dev nD) := Subsingleton.elim _ _
  have e : V18 m outs (0 : Dev nD) main_v5 = V5 m (0 : Dev nD) main_v5 :=
    (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V18 m outs (0 : Dev nD))).trans ((congrArg (extractStridedSlice S65536 ![458752] · slices_S1048576_S65536_458752) e).trans (slice_t (V5 m (0 : Dev nD))).symm)
theorem ent_tab (c : Dev nD) (k : Fin 2) : V19 m outs c (pre7.ref k) = Cert.Proof.KI.tbl7 m k :=
  match k with
  | ⟨0, _⟩ => ent_tab0 m outs c
  | ⟨1, _⟩ => ent_tab1 m outs c

end Cert.Proof.KI7

end
-- ==== Proof.KI7Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.KernelIdeal
import proofs.«414028_j29231547417249_2_alg».proof.Proof.Gen.KernelIdeal.Launch
import Idealize.ShloMosaic.Lib.Pipeline.Dat

noncomputable section

namespace Cert.Proof.KI7

open Cert.KernelIdeal Cert.KernelIdeal.Gen Idealize.ShloMosaic

variable {F : FTy → Type} [FloatOps F] (a : (pcfg7 (F := F)).Adm)

/-! ## The points and their coordinates -/

theorem N_eq : (cfg7 a).N = 65536 := N_7

theorem lt_N (t : Fin (cfg7 a).N) : t.val < 65536 := Nat.lt_of_lt_of_eq t.isLt (N_eq a)

/-- Each value of the first coordinate is shared by 128 consecutive points, each value of the second by one. -/
theorem stride0 : grid7.stride 0 = 128 := by decide
theorem stride1 : grid7.stride 1 = 1 := by decide

theorem coords0 (t : Fin (cfg7 a).N) : (((cfg7 a).grid.coords t) 0).val = t.val / 128 := by
  have ht := lt_N a t
  show t.val / grid7.stride 0 % 512 = t.val / 128
  rw [stride0]; omega

theorem coords1 (t : Fin (cfg7 a).N) : (((cfg7 a).grid.coords t) 1).val = t.val % 128 := by
  show t.val / grid7.stride 1 % 128 = t.val % 128
  rw [stride1, Nat.div_one]

theorem flat_eq (t : Fin (cfg7 a).N) :
    (((cfg7 a).grid.coords t) 0).val * 128 + (((cfg7 a).grid.coords t) 1).val = t.val := by
  rw [coords0, coords1]; omega

/-! ## The windows' block indices -/

/-- Window 0's block index is constant. -/
theorem index0 (s t : Fin (cfg7 a).N) : ((cfg7 a).win 0).index s = ((cfg7 a).win 0).index t := rfl

/-- Window 1's block index at a point is the point's first coordinate. -/
theorem index1 (s : Fin (cfg7 a).N) : ((cfg7 a).win 1).index s = ![s.val / 128] := by
  have hs := lt_N a s
  show ![(BitVec.ofNat 32 (((cfg7 a).grid.coords s) 0).val).toNat] = ![s.val / 128]
  rw [coords0 a s, BitVec.toNat_ofNat, Nat.mod_eq_of_lt (by omega)]

/-! ## Fetches and write-backs -/

theorem fetch0 (t : Fin (cfg7 a).N) : ((cfg7 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg7 a).N) : ((cfg7 a).win 1).fetch t = false := by
  unfold Pipeline.Window.fetch
  show (!true && _) = false
  rfl

theorem flush0 (t : Fin (cfg7 a).N) : ((cfg7 a).win 0).flush t = false := by
  unfold Pipeline.Window.flush
  show (false && _) = false
  rfl

theorem flush1 (t : Fin (cfg7 a).N) : ((cfg7 a).win 1).flush t = decide (t.val % 128 = 127) := by
  have ht := lt_N a t
  have hN : (cfg7 a).grid.N = 65536 := N_eq a
  unfold Pipeline.Window.flush
  show (true && (decide (t.val + 1 = (cfg7 a).grid.N)
    || decide (∃ h : t.val + 1 < (cfg7 a).grid.N, ((cfg7 a).win 1).index ⟨t.val + 1, h⟩ ≠ ((cfg7 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg7 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg7 a).W) (t : Fin (cfg7 a).N) : (cfg7 a).idle w ((cfg7 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg7 a).N) :
    Scalar.cmpi .ne (Scalar.extui (Scalar.cmpi .eq (BitVec.ofNat 32 (((cfg7 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg7 a).N) (A : Vec F S1x256 .f32) (y : S1x256.Idx) :
    (((cfg7 a).win 0).blk t).view.read (Elt F) A y = A y := by
  show A ((((cfg7 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg7 a).N) (y : S128.Idx) :
    ((((cfg7 a).win 1).blk t).view.emb y (0 : Fin 1)).val = 128 * (t.val / 128) + (y 0).val := by
  have hi : ((cfg7 a).win 1).index t (0 : Fin 1) = t.val / 128 := by rw [index1]; rfl
  show ((cfg7 a).win 1).index t (0 : Fin 1) * 128 + 1 * (y 0).val = 128 * (t.val / 128) + (y 0).val
  rw [hi]; omega

end Cert.Proof.KI7

end
-- ==== Proof.KI7Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KI7Defs
import proofs.«414028_j29231547417249_2_alg».proof.Proof.Gen.KernelIdeal.Launch
import Idealize.ShloMosaic.Lib.Tactic

noncomputable section

namespace Cert.Proof.KI7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k7_pay2 j (k7_pay6 X18 X19 X20) (k7_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k7_pay2 j (k7_pay6 X18 X19 X20) (k7_pay7 X18 X19 X20)
              (m.view.readCov [⟨Rect.unit (s := S128) ![0] S128.size inb_S128_S128_0, k7_pay1 (F := F)⟩]
                (Rect.unit (s := S128) ![0] S128.size inb_S128_S128_0).toLoadRect)⟩,
          ⟨Rect.unit (s := S128) ![0] S128.size inb_S128_S128_0, k7_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid7.Coords) (M5 : Memref sig .tc .vmem S1x256 .f32) (h5 : M5.IsWhole) (M6 : Memref sig .tc .vmem S128 .f32) (h6 : M6.IsWhole)
    (hT : Bf (F := F) c (Memref.whole main_v27)) (tT : Bf (F := F) c (Memref.whole main_v28)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v27) hT ∗ pt c (Memref.whole main_v28) tT ∗ nodeSh c node
      ∗ (∃ s0, pt c (Memref.whole cc7_scratch0) s0) ∗ (∃ s1, pt c (Memref.whole cc7_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v27) hT ∗ pt c (Memref.whole main_v28) tT ∗ nodeSh c node
          ∗ (∃ s0, pt c (Memref.whole cc7_scratch0) s0) ∗ (∃ s1, pt c (Memref.whole cc7_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc7__lookup_kernel i (Memref.whole main_v27) (Memref.isWhole_whole _) (Memref.whole main_v28) (Memref.isWhole_whole _) (Memref.whole main_arg0) (Memref.isWhole_whole _)
          M5 h5 M6 h6 (Memref.whole cc7_scratch0) (Memref.isWhole_whole _) (Memref.whole cc7_scratch1) (Memref.isWhole_whole _) cc7_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid7.Coords) (M5 : Memref sig .tc .vmem S1x256 .f32) (h5 : M5.IsWhole) (M6 : Memref sig .tc .vmem S128 .f32) (h6 : M6.IsWhole)
    (hT : Bf (F := F) c (Memref.whole main_v27)) (tT : Bf (F := F) c (Memref.whole main_v28)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v27) hT ∗ pt c (Memref.whole main_v28) tT ∗ nodeSh c node
      ∗ (∃ s0, pt c (Memref.whole cc7_scratch0) s0) ∗ (∃ s1, pt c (Memref.whole cc7_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v27) hT ∗ pt c (Memref.whole main_v28) tT ∗ nodeSh c node
          ∗ (∃ s0, pt c (Memref.whole cc7_scratch0) s0) ∗ (∃ s1, pt c (Memref.whole cc7_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc7__lookup_kernel i (Memref.whole main_v27) (Memref.isWhole_whole _) (Memref.whole main_v28) (Memref.isWhole_whole _) (Memref.whole main_arg0) (Memref.isWhole_whole _)
          M5 h5 M6 h6 (Memref.whole cc7_scratch0) (Memref.isWhole_whole _) (Memref.whole cc7_scratch1) (Memref.isWhole_whole _) cc7_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KI7

end
-- ==== Proof.KI7Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KI7Data
import proofs.«414028_j29231547417249_2_alg».proof.Proof.KI7Points
import proofs.«414028_j29231547417249_2_alg».proof.Proof.KI7Body
import proofs.«414028_j29231547417249_2_alg».proof.Proof.Gen.KernelIdeal.Launch
import Idealize.ShloMosaic.Lib.Pipeline.Frame

noncomputable section

namespace Cert.Proof.KI7

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W7, bigSep_W7]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec7_0.stage ((cfgA m).slots t 0)) (hstage7_0 (((cfgA m).slots t 0).cast nbuf7_0))
      (spec7_1.stage ((cfgA m).slots t 1)) (hstage7_1 (((cfgA m).slots t 1).cast nbuf7_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec7_0.stage ((cfgA m).slots t 0)) (hstage7_0 (((cfgA m).slots t 0).cast nbuf7_0))
      (spec7_1.stage ((cfgA m).slots t 1)) (hstage7_1 (((cfgA m).slots t 1).cast nbuf7_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KI7

end
-- ==== Proof.KI7Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KIDats
import proofs.«414028_j29231547417249_2_alg».proof.Proof.KIThread
import proofs.«414028_j29231547417249_2_alg».proof.Proof.KI7Chains
import proofs.«414028_j29231547417249_2_alg».proof.Proof.KI7Oblig
import proofs.«414028_j29231547417249_2_alg».proof.Proof.Gen.KernelIdeal.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KI7

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 38 | 1 => .dma 39

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W7] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v27) (hTab m) ∗ pt c (Memref.whole main_v28) (tTab m))

/-- The invariant at the first point: the node table split into its shares, the tables, the two scratch rows out of the
    scoped rest. -/
theorem hin0 (c : Dev nD) :
    iprop(X0 m c ∗ Pipeline.prefHeld pre7 c (fun _ => fullShare) (Cert.Proof.KI.tbl7 m)
        ∗ Pipeline.scopedRest (Ix := Unit) (Name := ℕ) (U := UC) (Lvl := ℕ) (Val := Elt F) spec7 c)
      ⊢ Φv m c := by
  unfold Φv Pipeline.prefHeld
  rw [Gen.bigSep_W7, Gen.scopedRest7_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec7 c) := by
  unfold Φv
  rw [Gen.scopedRest7_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre7 spec7 \ {main_arg0}

theorem node_mem_rest : ({main_arg0} : Finset (Ref sig .tc)) ⊆ Pipeline.restRefsP sig pre7 spec7 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec7 c V : sProp 𝕄)
      = iprop(Pipeline.prefHeld pre7 c (fun _ => fullShare) (fun k => V (pre7.ref k))
          ∗ (((c : Thread nD τ).loc main_arg0) ↦{fullShare} V main_arg0)
          ∗ bigSep restZ fun b => ((c : Thread nD τ).loc b) ↦{fullShare} V b) := by
  rw [Pipeline.unscopedRest_split preFacts7 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v29) ↦{fullShare} V main_v29))
          ∗ ((((c : Thread nD τ).loc main_v27) ↦{fullShare} V main_v27) ∗ (((c : Thread nD τ).loc main_v28) ↦{fullShare} V main_v28))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts7.arr_unscoped winFacts7.arr_inj c, rest_split]
  unfold Pipeline.prefHeld
  rw [Gen.bigSep_W7, Gen.bigSep_W7]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v29) ↦{fullShare} G 1)) := by
  rw [Pipeline.arrays_eq (fun _ : Fin 1 => cfgA m) (fun _ c => dat0 m c) 0 c arr_whole7 ((dat0 m c).share_full fun _ => rfl) G, Gen.bigSep_W7]

/-- What bypasses the region: every other unscoped buffer, at its contents on entry. -/
abbrev Z0 (c : Dev nD) : sProp 𝕄 := bigSep restZ fun b => ((c : Thread nD τ).loc b) ↦{fullShare} V19 m (Cert.Proof.KI.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V19 m (Cert.Proof.KI.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre7 c (fun _ => fullShare) (Cert.Proof.KI.tbl7 m)
          ∗ (dat0 m c).owesAt () 0 ∗ X0 m c ∗ Z0 m c) := by
  rw [held_split m c (V19 m (Cert.Proof.KI.outs m) c), arrays_two, ent_arg0, ent_arg1, ent_out,
    show V19 m (Cert.Proof.KI.outs m) c main_v27 = hTab m from ent_tab m (Cert.Proof.KI.outs m) c 0, show V19 m (Cert.Proof.KI.outs m) c main_v28 = tTab m from ent_tab m (Cert.Proof.KI.outs m) c 1]
  unfold Pipeline.prefHeld
  rw [Gen.bigSep_W7]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v29)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V19 m (Cert.Proof.KI.outs m) c) main_v29 o)
          ∗ (∃ W, owes (c : Thread nD τ) (0 : CellTallies nD τ sig Unit) W)) := by
  have hne : ∀ b : Ref sig .tc, b ≠ main_v29 →
      Function.update (V19 m (Cert.Proof.KI.outs m) c) (Proc.devRef .tc main_v29) o (Proc.devRef .tc b) = V19 m (Cert.Proof.KI.outs m) c b :=
    fun b hb => Function.update_of_ne (StableHlo.devRef_ne_of_ne hb) _ _
  have hz : (bigSep restZ fun b => (((c : Thread nD τ).loc b) ↦{fullShare} Function.update (V19 m (Cert.Proof.KI.outs m) c) (Proc.devRef .tc main_v29) o b : sProp 𝕄))
      = Z0 m c :=
    BI.bigSep_congr fun b hb => by
      rw [hne b (fun e => by subst e; revert hb; decide)]
  rw [held_split m c (Function.update (V19 m (Cert.Proof.KI.outs m) c) main_v29 o), arrays_two, hz,
    hne main_arg1 (by decide), hne main_v27 (by decide), hne main_v28 (by decide), hne main_arg0 (by decide),
    Function.update_self, ent_arg0, ent_arg1,
    show V19 m (Cert.Proof.KI.outs m) c main_v27 = hTab m from ent_tab m (Cert.Proof.KI.outs m) c 0, show V19 m (Cert.Proof.KI.outs m) c main_v28 = tTab m from ent_tab m (Cert.Proof.KI.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec7 osem := by decide

/-- What region 0 leaves in the output's array, by name: the fold of its write-backs. -/
theorem outs6 (c : Dev nD) : Cert.Proof.KI.outs m 20 main_v29 c = (dat0 m c).arrAt 1 (cfgA m).N :=
  Pipeline.withArrays_arr spec7 winFacts7.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KI.adm m) (Cert.Proof.KI.pdats m) () defs₀ Variants.none
      Cert.Proof.KI.L Cert.Proof.KI.lv (7 : Fin 16) where
  win := (launch7 (F := F)).win.to₀
  block_pos := (launch7 (F := F)).block_pos
  stage_whole := (launch7 (F := F)).stage_whole
  K := Fin 2
  osem := osem
  ho := ownSemFacts
  hbody c := (body_obligation m hH hTl c).loose
  hwaits := Pipeline.hwaits_of_owed_zero _ _ _ _ Cert.Proof.KI.L Cert.Proof.KI.lv (7 : Fin 16) fun _ _ => rfl
  pre c := iprop(StableHlo.held (c : Thread nD τ) (Pipeline.ucRefs τ sig) (V19 m (Cert.Proof.KI.outs m) c) ∗ Cert.Proof.KI.E 7 c)
  post c := iprop(StableHlo.held (c : Thread nD τ) (Pipeline.ucRefs τ sig) (V20 m (Cert.Proof.KI.outs m) c) ∗ Cert.Proof.KI.E 8 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KI.outs m 20 main_v29 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V19 m (Cert.Proof.KI.outs m) c) ∗ Cert.Proof.KI.E 7 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V20 m (Cert.Proof.KI.outs m) c) ∗ Cert.Proof.KI.E 8 c) := .rfl

end Cert.Proof.KI7

end
-- ==== Proof.KI8Chains.lean ====
/-
  Region 8 is entered from the valuation after item 20 of @main. No earlier item writes the node table, the relation row,
  the region's output array or the padded index rows, and the region's two tables are the slices cut out of the padded
  rows at offset 524288: each buffer the region is handed holds a function of the launch memory alone.
-/
import proofs.«414028_j29231547417249_2_alg».proof.Proof.KIAdm
import Idealize.ShloMosaic.Lib.StableHlo.Run

set_option maxRecDepth 4096

noncomputable section

namespace Cert.Proof.KI8

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V21 m outs c main_arg0 = m ((c : Thread nD τ).loc main_arg0) :=
  (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V21 m outs c main_arg1 = m ((c : Thread nD τ).loc main_arg1) :=
  (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V21 m outs c main_v32 = m ((c : Thread nD τ).loc main_v32) :=
  (V21_of m outs c main_v32 (by decide)).trans <| (V20_of m outs c main_v32 (by decide)).trans <| (V19_of m outs c main_v32 (by decide)).trans <| (V18_of m outs c main_v32 (by decide)).trans <| (V17_of m outs c main_v32 (by decide)).trans <| (V16_of m outs c main_v32 (by decide)).trans <| (V15_of m outs c main_v32 (by decide)).trans <| (V14_of m outs c main_v32 (by decide)).trans <| (V13_of m outs c main_v32 (by decide)).trans <| (V12_of m outs c main_v32 (by decide)).trans <| (V11_of m outs c main_v32 (by decide)).trans <| (V10_of m outs c main_v32 (by decide)).trans <| (V9_of m outs c main_v32 (by decide)).trans <| (V8_of m outs c main_v32 (by decide)).trans <| (V7_of m outs c main_v32 (by decide)).trans <| (V6_of m outs c main_v32 (by decide)).trans <| (V5_of m c main_v32 (by decide)).trans <| (V4_of m c main_v32 (by decide)).trans <| (V3_of m c main_v32 (by decide)).trans <| (V2_of m c main_v32 (by decide)).trans <| (V1_of m c main_v32 (by decide)).trans <| rfl
/-- The stretch before the region cuts the table out of the padded row, whatever the valuation it runs from. -/
theorem slice_h (X : Valuation τ sig (Elt F)) :
    StableHlo.after (hostOps8 (F := F)) X (Proc.devRef .tc main_v30)
      = extractStridedSlice S65536 ![524288] (X (Proc.devRef .tc main_v4)) slices_S1048576_S65536_524288 := by
  after_results
/-- The stretch before the region cuts the table out of the padded row, whatever the valuation it runs from. -/
theorem slice_t (X : Valuation τ sig (Elt F)) :
    StableHlo.after (hostOps8 (F := F)) X (Proc.devRef .tc main_v31)
      = extractStridedSlice S65536 ![524288] (X (Proc.devRef .tc main_v5)) slices_S1048576_S65536_524288 := by
  after_results
theorem ent_tab0 (c : Dev nD) : V21 m outs c main_v30 = Cert.Proof.KI.tv8 m main_v30 := by
  obtain rfl : c = (0 : Dev nD) := Subsingleton.elim _ _
  have e : V20 m outs (0 : Dev nD) main_v4 = V5 m (0 : Dev nD) main_v4 :=
    (V20_of m outs (0 : Dev nD) main_v4 (by decide)).trans <| (V19_of m outs (0 : Dev nD) main_v4 (by decide)).trans <| (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V20 m outs (0 : Dev nD))).trans ((congrArg (extractStridedSlice S65536 ![524288] · slices_S1048576_S65536_524288) e).trans (slice_h (V5 m (0 : Dev nD))).symm)
theorem ent_tab1 (c : Dev nD) : V21 m outs c main_v31 = Cert.Proof.KI.tv8 m main_v31 := by
  obtain rfl : c = (0 : Dev nD) := Subsingleton.elim _ _
  have e : V20 m outs (0 : Dev nD) main_v5 = V5 m (0 : Dev nD) main_v5 :=
    (V20_of m outs (0 : Dev nD) main_v5 (by decide)).trans <| (V19_of m outs (0 : Dev nD) main_v5 (by decide)).trans <| (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V20 m outs (0 : Dev nD))).trans ((congrArg (extractStridedSlice S65536 ![524288] · slices_S1048576_S65536_524288) e).trans (slice_t (V5 m (0 : Dev nD))).symm)
theorem ent_tab (c : Dev nD) (k : Fin 2) : V21 m outs c (pre8.ref k) = Cert.Proof.KI.tbl8 m k :=
  match k with
  | ⟨0, _⟩ => ent_tab0 m outs c
  | ⟨1, _⟩ => ent_tab1 m outs c

end Cert.Proof.KI8

end
-- ==== Proof.KI8Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.KernelIdeal
import proofs.«414028_j29231547417249_2_alg».proof.Proof.Gen.KernelIdeal.Launch
import Idealize.ShloMosaic.Lib.Pipeline.Dat

noncomputable section

namespace Cert.Proof.KI8

open Cert.KernelIdeal Cert.KernelIdeal.Gen Idealize.ShloMosaic

variable {F : FTy → Type} [FloatOps F] (a : (pcfg8 (F := F)).Adm)

/-! ## The points and their coordinates -/

theorem N_eq : (cfg8 a).N = 65536 := N_8

theorem lt_N (t : Fin (cfg8 a).N) : t.val < 65536 := Nat.lt_of_lt_of_eq t.isLt (N_eq a)

/-- Each value of the first coordinate is shared by 128 consecutive points, each value of the second by one. -/
theorem stride0 : grid8.stride 0 = 128 := by decide
theorem stride1 : grid8.stride 1 = 1 := by decide

theorem coords0 (t : Fin (cfg8 a).N) : (((cfg8 a).grid.coords t) 0).val = t.val / 128 := by
  have ht := lt_N a t
  show t.val / grid8.stride 0 % 512 = t.val / 128
  rw [stride0]; omega

theorem coords1 (t : Fin (cfg8 a).N) : (((cfg8 a).grid.coords t) 1).val = t.val % 128 := by
  show t.val / grid8.stride 1 % 128 = t.val % 128
  rw [stride1, Nat.div_one]

theorem flat_eq (t : Fin (cfg8 a).N) :
    (((cfg8 a).grid.coords t) 0).val * 128 + (((cfg8 a).grid.coords t) 1).val = t.val := by
  rw [coords0, coords1]; omega

/-! ## The windows' block indices -/

/-- Window 0's block index is constant. -/
theorem index0 (s t : Fin (cfg8 a).N) : ((cfg8 a).win 0).index s = ((cfg8 a).win 0).index t := rfl

/-- Window 1's block index at a point is the point's first coordinate. -/
theorem index1 (s : Fin (cfg8 a).N) : ((cfg8 a).win 1).index s = ![s.val / 128] := by
  have hs := lt_N a s
  show ![(BitVec.ofNat 32 (((cfg8 a).grid.coords s) 0).val).toNat] = ![s.val / 128]
  rw [coords0 a s, BitVec.toNat_ofNat, Nat.mod_eq_of_lt (by omega)]

/-! ## Fetches and write-backs -/

theorem fetch0 (t : Fin (cfg8 a).N) : ((cfg8 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg8 a).N) : ((cfg8 a).win 1).fetch t = false := by
  unfold Pipeline.Window.fetch
  show (!true && _) = false
  rfl

theorem flush0 (t : Fin (cfg8 a).N) : ((cfg8 a).win 0).flush t = false := by
  unfold Pipeline.Window.flush
  show (false && _) = false
  rfl

theorem flush1 (t : Fin (cfg8 a).N) : ((cfg8 a).win 1).flush t = decide (t.val % 128 = 127) := by
  have ht := lt_N a t
  have hN : (cfg8 a).grid.N = 65536 := N_eq a
  unfold Pipeline.Window.flush
  show (true && (decide (t.val + 1 = (cfg8 a).grid.N)
    || decide (∃ h : t.val + 1 < (cfg8 a).grid.N, ((cfg8 a).win 1).index ⟨t.val + 1, h⟩ ≠ ((cfg8 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg8 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg8 a).W) (t : Fin (cfg8 a).N) : (cfg8 a).idle w ((cfg8 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg8 a).N) :
    Scalar.cmpi .ne (Scalar.extui (Scalar.cmpi .eq (BitVec.ofNat 32 (((cfg8 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg8 a).N) (A : Vec F S1x256 .f32) (y : S1x256.Idx) :
    (((cfg8 a).win 0).blk t).view.read (Elt F) A y = A y := by
  show A ((((cfg8 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg8 a).N) (y : S128.Idx) :
    ((((cfg8 a).win 1).blk t).view.emb y (0 : Fin 1)).val = 128 * (t.val / 128) + (y 0).val := by
  have hi : ((cfg8 a).win 1).index t (0 : Fin 1) = t.val / 128 := by rw [index1]; rfl
  show ((cfg8 a).win 1).index t (0 : Fin 1) * 128 + 1 * (y 0).val = 128 * (t.val / 128) + (y 0).val
  rw [hi]; omega

end Cert.Proof.KI8

end
-- ==== Proof.KI8Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KI8Defs
import proofs.«414028_j29231547417249_2_alg».proof.Proof.Gen.KernelIdeal.Launch
import Idealize.ShloMosaic.Lib.Tactic

noncomputable section

namespace Cert.Proof.KI8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k8_pay2 j (k8_pay6 X18 X19 X20) (k8_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k8_pay2 j (k8_pay6 X18 X19 X20) (k8_pay7 X18 X19 X20)
              (m.view.readCov [⟨Rect.unit (s := S128) ![0] S128.size inb_S128_S128_0, k8_pay1 (F := F)⟩]
                (Rect.unit (s := S128) ![0] S128.size inb_S128_S128_0).toLoadRect)⟩,
          ⟨Rect.unit (s := S128) ![0] S128.size inb_S128_S128_0, k8_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid8.Coords) (M5 : Memref sig .tc .vmem S1x256 .f32) (h5 : M5.IsWhole) (M6 : Memref sig .tc .vmem S128 .f32) (h6 : M6.IsWhole)
    (hT : Bf (F := F) c (Memref.whole main_v30)) (tT : Bf (F := F) c (Memref.whole main_v31)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v30) hT ∗ pt c (Memref.whole main_v31) tT ∗ nodeSh c node
      ∗ (∃ s0, pt c (Memref.whole cc8_scratch0) s0) ∗ (∃ s1, pt c (Memref.whole cc8_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v30) hT ∗ pt c (Memref.whole main_v31) tT ∗ nodeSh c node
          ∗ (∃ s0, pt c (Memref.whole cc8_scratch0) s0) ∗ (∃ s1, pt c (Memref.whole cc8_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc8__lookup_kernel i (Memref.whole main_v30) (Memref.isWhole_whole _) (Memref.whole main_v31) (Memref.isWhole_whole _) (Memref.whole main_arg0) (Memref.isWhole_whole _)
          M5 h5 M6 h6 (Memref.whole cc8_scratch0) (Memref.isWhole_whole _) (Memref.whole cc8_scratch1) (Memref.isWhole_whole _) cc8_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid8.Coords) (M5 : Memref sig .tc .vmem S1x256 .f32) (h5 : M5.IsWhole) (M6 : Memref sig .tc .vmem S128 .f32) (h6 : M6.IsWhole)
    (hT : Bf (F := F) c (Memref.whole main_v30)) (tT : Bf (F := F) c (Memref.whole main_v31)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v30) hT ∗ pt c (Memref.whole main_v31) tT ∗ nodeSh c node
      ∗ (∃ s0, pt c (Memref.whole cc8_scratch0) s0) ∗ (∃ s1, pt c (Memref.whole cc8_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v30) hT ∗ pt c (Memref.whole main_v31) tT ∗ nodeSh c node
          ∗ (∃ s0, pt c (Memref.whole cc8_scratch0) s0) ∗ (∃ s1, pt c (Memref.whole cc8_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc8__lookup_kernel i (Memref.whole main_v30) (Memref.isWhole_whole _) (Memref.whole main_v31) (Memref.isWhole_whole _) (Memref.whole main_arg0) (Memref.isWhole_whole _)
          M5 h5 M6 h6 (Memref.whole cc8_scratch0) (Memref.isWhole_whole _) (Memref.whole cc8_scratch1) (Memref.isWhole_whole _) cc8_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KI8

end
-- ==== Proof.KI8Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KI8Data
import proofs.«414028_j29231547417249_2_alg».proof.Proof.KI8Points
import proofs.«414028_j29231547417249_2_alg».proof.Proof.KI8Body
import proofs.«414028_j29231547417249_2_alg».proof.Proof.Gen.KernelIdeal.Launch
import Idealize.ShloMosaic.Lib.Pipeline.Frame

noncomputable section

namespace Cert.Proof.KI8

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W8, bigSep_W8]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec8_0.stage ((cfgA m).slots t 0)) (hstage8_0 (((cfgA m).slots t 0).cast nbuf8_0))
      (spec8_1.stage ((cfgA m).slots t 1)) (hstage8_1 (((cfgA m).slots t 1).cast nbuf8_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec8_0.stage ((cfgA m).slots t 0)) (hstage8_0 (((cfgA m).slots t 0).cast nbuf8_0))
      (spec8_1.stage ((cfgA m).slots t 1)) (hstage8_1 (((cfgA m).slots t 1).cast nbuf8_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KI8

end
-- ==== Proof.KI8Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KIDats
import proofs.«414028_j29231547417249_2_alg».proof.Proof.KIThread
import proofs.«414028_j29231547417249_2_alg».proof.Proof.KI8Chains
import proofs.«414028_j29231547417249_2_alg».proof.Proof.KI8Oblig
import proofs.«414028_j29231547417249_2_alg».proof.Proof.Gen.KernelIdeal.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KI8

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 43 | 1 => .dma 44

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W8] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v30) (hTab m) ∗ pt c (Memref.whole main_v31) (tTab m))

/-- The invariant at the first point: the node table split into its shares, the tables, the two scratch rows out of the
    scoped rest. -/
theorem hin0 (c : Dev nD) :
    iprop(X0 m c ∗ Pipeline.prefHeld pre8 c (fun _ => fullShare) (Cert.Proof.KI.tbl8 m)
        ∗ Pipeline.scopedRest (Ix := Unit) (Name := ℕ) (U := UC) (Lvl := ℕ) (Val := Elt F) spec8 c)
      ⊢ Φv m c := by
  unfold Φv Pipeline.prefHeld
  rw [Gen.bigSep_W8, Gen.scopedRest8_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec8 c) := by
  unfold Φv
  rw [Gen.scopedRest8_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre8 spec8 \ {main_arg0}

theorem node_mem_rest : ({main_arg0} : Finset (Ref sig .tc)) ⊆ Pipeline.restRefsP sig pre8 spec8 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec8 c V : sProp 𝕄)
      = iprop(Pipeline.prefHeld pre8 c (fun _ => fullShare) (fun k => V (pre8.ref k))
          ∗ (((c : Thread nD τ).loc main_arg0) ↦{fullShare} V main_arg0)
          ∗ bigSep restZ fun b => ((c : Thread nD τ).loc b) ↦{fullShare} V b) := by
  rw [Pipeline.unscopedRest_split preFacts8 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v32) ↦{fullShare} V main_v32))
          ∗ ((((c : Thread nD τ).loc main_v30) ↦{fullShare} V main_v30) ∗ (((c : Thread nD τ).loc main_v31) ↦{fullShare} V main_v31))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts8.arr_unscoped winFacts8.arr_inj c, rest_split]
  unfold Pipeline.prefHeld
  rw [Gen.bigSep_W8, Gen.bigSep_W8]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v32) ↦{fullShare} G 1)) := by
  rw [Pipeline.arrays_eq (fun _ : Fin 1 => cfgA m) (fun _ c => dat0 m c) 0 c arr_whole8 ((dat0 m c).share_full fun _ => rfl) G, Gen.bigSep_W8]

/-- What bypasses the region: every other unscoped buffer, at its contents on entry. -/
abbrev Z0 (c : Dev nD) : sProp 𝕄 := bigSep restZ fun b => ((c : Thread nD τ).loc b) ↦{fullShare} V21 m (Cert.Proof.KI.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V21 m (Cert.Proof.KI.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre8 c (fun _ => fullShare) (Cert.Proof.KI.tbl8 m)
          ∗ (dat0 m c).owesAt () 0 ∗ X0 m c ∗ Z0 m c) := by
  rw [held_split m c (V21 m (Cert.Proof.KI.outs m) c), arrays_two, ent_arg0, ent_arg1, ent_out,
    show V21 m (Cert.Proof.KI.outs m) c main_v30 = hTab m from ent_tab m (Cert.Proof.KI.outs m) c 0, show V21 m (Cert.Proof.KI.outs m) c main_v31 = tTab m from ent_tab m (Cert.Proof.KI.outs m) c 1]
  unfold Pipeline.prefHeld
  rw [Gen.bigSep_W8]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v32)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V21 m (Cert.Proof.KI.outs m) c) main_v32 o)
          ∗ (∃ W, owes (c : Thread nD τ) (0 : CellTallies nD τ sig Unit) W)) := by
  have hne : ∀ b : Ref sig .tc, b ≠ main_v32 →
      Function.update (V21 m (Cert.Proof.KI.outs m) c) (Proc.devRef .tc main_v32) o (Proc.devRef .tc b) = V21 m (Cert.Proof.KI.outs m) c b :=
    fun b hb => Function.update_of_ne (StableHlo.devRef_ne_of_ne hb) _ _
  have hz : (bigSep restZ fun b => (((c : Thread nD τ).loc b) ↦{fullShare} Function.update (V21 m (Cert.Proof.KI.outs m) c) (Proc.devRef .tc main_v32) o b : sProp 𝕄))
      = Z0 m c :=
    BI.bigSep_congr fun b hb => by
      rw [hne b (fun e => by subst e; revert hb; decide)]
  rw [held_split m c (Function.update (V21 m (Cert.Proof.KI.outs m) c) main_v32 o), arrays_two, hz,
    hne main_arg1 (by decide), hne main_v30 (by decide), hne main_v31 (by decide), hne main_arg0 (by decide),
    Function.update_self, ent_arg0, ent_arg1,
    show V21 m (Cert.Proof.KI.outs m) c main_v30 = hTab m from ent_tab m (Cert.Proof.KI.outs m) c 0, show V21 m (Cert.Proof.KI.outs m) c main_v31 = tTab m from ent_tab m (Cert.Proof.KI.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec8 osem := by decide

/-- What region 0 leaves in the output's array, by name: the fold of its write-backs. -/
theorem outs6 (c : Dev nD) : Cert.Proof.KI.outs m 22 main_v32 c = (dat0 m c).arrAt 1 (cfgA m).N :=
  Pipeline.withArrays_arr spec8 winFacts8.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KI.adm m) (Cert.Proof.KI.pdats m) () defs₀ Variants.none
      Cert.Proof.KI.L Cert.Proof.KI.lv (8 : Fin 16) where
  win := (launch8 (F := F)).win.to₀
  block_pos := (launch8 (F := F)).block_pos
  stage_whole := (launch8 (F := F)).stage_whole
  K := Fin 2
  osem := osem
  ho := ownSemFacts
  hbody c := (body_obligation m hH hTl c).loose
  hwaits := Pipeline.hwaits_of_owed_zero _ _ _ _ Cert.Proof.KI.L Cert.Proof.KI.lv (8 : Fin 16) fun _ _ => rfl
  pre c := iprop(StableHlo.held (c : Thread nD τ) (Pipeline.ucRefs τ sig) (V21 m (Cert.Proof.KI.outs m) c) ∗ Cert.Proof.KI.E 8 c)
  post c := iprop(StableHlo.held (c : Thread nD τ) (Pipeline.ucRefs τ sig) (V22 m (Cert.Proof.KI.outs m) c) ∗ Cert.Proof.KI.E 9 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KI.outs m 22 main_v32 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V21 m (Cert.Proof.KI.outs m) c) ∗ Cert.Proof.KI.E 8 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V22 m (Cert.Proof.KI.outs m) c) ∗ Cert.Proof.KI.E 9 c) := .rfl

end Cert.Proof.KI8

end
-- ==== Proof.KI9Chains.lean ====
/-
  Region 9 is entered from the valuation after item 22 of @main. No earlier item writes the node table, the relation row,
  the region's output array or the padded index rows, and the region's two tables are the slices cut out of the padded
  rows at offset 589824: each buffer the region is handed holds a function of the launch memory alone.
-/
import proofs.«414028_j29231547417249_2_alg».proof.Proof.KIAdm
import Idealize.ShloMosaic.Lib.StableHlo.Run

set_option maxRecDepth 4096

noncomputable section

namespace Cert.Proof.KI9

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V23 m outs c main_arg0 = m ((c : Thread nD τ).loc main_arg0) :=
  (V23_of m outs c main_arg0 (by decide)).trans <| (V22_of m outs c main_arg0 (by decide)).trans <| (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V23 m outs c main_arg1 = m ((c : Thread nD τ).loc main_arg1) :=
  (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V23 m outs c main_v35 = m ((c : Thread nD τ).loc main_v35) :=
  (V23_of m outs c main_v35 (by decide)).trans <| (V22_of m outs c main_v35 (by decide)).trans <| (V21_of m outs c main_v35 (by decide)).trans <| (V20_of m outs c main_v35 (by decide)).trans <| (V19_of m outs c main_v35 (by decide)).trans <| (V18_of m outs c main_v35 (by decide)).trans <| (V17_of m outs c main_v35 (by decide)).trans <| (V16_of m outs c main_v35 (by decide)).trans <| (V15_of m outs c main_v35 (by decide)).trans <| (V14_of m outs c main_v35 (by decide)).trans <| (V13_of m outs c main_v35 (by decide)).trans <| (V12_of m outs c main_v35 (by decide)).trans <| (V11_of m outs c main_v35 (by decide)).trans <| (V10_of m outs c main_v35 (by decide)).trans <| (V9_of m outs c main_v35 (by decide)).trans <| (V8_of m outs c main_v35 (by decide)).trans <| (V7_of m outs c main_v35 (by decide)).trans <| (V6_of m outs c main_v35 (by decide)).trans <| (V5_of m c main_v35 (by decide)).trans <| (V4_of m c main_v35 (by decide)).trans <| (V3_of m c main_v35 (by decide)).trans <| (V2_of m c main_v35 (by decide)).trans <| (V1_of m c main_v35 (by decide)).trans <| rfl
/-- The stretch before the region cuts the table out of the padded row, whatever the valuation it runs from. -/
theorem slice_h (X : Valuation τ sig (Elt F)) :
    StableHlo.after (hostOps9 (F := F)) X (Proc.devRef .tc main_v33)
      = extractStridedSlice S65536 ![589824] (X (Proc.devRef .tc main_v4)) slices_S1048576_S65536_589824 := by
  after_results
/-- The stretch before the region cuts the table out of the padded row, whatever the valuation it runs from. -/
theorem slice_t (X : Valuation τ sig (Elt F)) :
    StableHlo.after (hostOps9 (F := F)) X (Proc.devRef .tc main_v34)
      = extractStridedSlice S65536 ![589824] (X (Proc.devRef .tc main_v5)) slices_S1048576_S65536_589824 := by
  after_results
theorem ent_tab0 (c : Dev nD) : V23 m outs c main_v33 = Cert.Proof.KI.tv9 m main_v33 := by
  obtain rfl : c = (0 : Dev nD) := Subsingleton.elim _ _
  have e : V22 m outs (0 : Dev nD) main_v4 = V5 m (0 : Dev nD) main_v4 :=
    (V22_of m outs (0 : Dev nD) main_v4 (by decide)).trans <| (V21_of m outs (0 : Dev nD) main_v4 (by decide)).trans <| (V20_of m outs (0 : Dev nD) main_v4 (by decide)).trans <| (V19_of m outs (0 : Dev nD) main_v4 (by decide)).trans <| (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V22 m outs (0 : Dev nD))).trans ((congrArg (extractStridedSlice S65536 ![589824] · slices_S1048576_S65536_589824) e).trans (slice_h (V5 m (0 : Dev nD))).symm)
theorem ent_tab1 (c : Dev nD) : V23 m outs c main_v34 = Cert.Proof.KI.tv9 m main_v34 := by
  obtain rfl : c = (0 : Dev nD) := Subsingleton.elim _ _
  have e : V22 m outs (0 : Dev nD) main_v5 = V5 m (0 : Dev nD) main_v5 :=
    (V22_of m outs (0 : Dev nD) main_v5 (by decide)).trans <| (V21_of m outs (0 : Dev nD) main_v5 (by decide)).trans <| (V20_of m outs (0 : Dev nD) main_v5 (by decide)).trans <| (V19_of m outs (0 : Dev nD) main_v5 (by decide)).trans <| (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V22 m outs (0 : Dev nD))).trans ((congrArg (extractStridedSlice S65536 ![589824] · slices_S1048576_S65536_589824) e).trans (slice_t (V5 m (0 : Dev nD))).symm)
theorem ent_tab (c : Dev nD) (k : Fin 2) : V23 m outs c (pre9.ref k) = Cert.Proof.KI.tbl9 m k :=
  match k with
  | ⟨0, _⟩ => ent_tab0 m outs c
  | ⟨1, _⟩ => ent_tab1 m outs c

end Cert.Proof.KI9

end
-- ==== Proof.KI9Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.KernelIdeal
import proofs.«414028_j29231547417249_2_alg».proof.Proof.Gen.KernelIdeal.Launch
import Idealize.ShloMosaic.Lib.Pipeline.Dat

noncomputable section

namespace Cert.Proof.KI9

open Cert.KernelIdeal Cert.KernelIdeal.Gen Idealize.ShloMosaic

variable {F : FTy → Type} [FloatOps F] (a : (pcfg9 (F := F)).Adm)

/-! ## The points and their coordinates -/

theorem N_eq : (cfg9 a).N = 65536 := N_9

theorem lt_N (t : Fin (cfg9 a).N) : t.val < 65536 := Nat.lt_of_lt_of_eq t.isLt (N_eq a)

/-- Each value of the first coordinate is shared by 128 consecutive points, each value of the second by one. -/
theorem stride0 : grid9.stride 0 = 128 := by decide
theorem stride1 : grid9.stride 1 = 1 := by decide

theorem coords0 (t : Fin (cfg9 a).N) : (((cfg9 a).grid.coords t) 0).val = t.val / 128 := by
  have ht := lt_N a t
  show t.val / grid9.stride 0 % 512 = t.val / 128
  rw [stride0]; omega

theorem coords1 (t : Fin (cfg9 a).N) : (((cfg9 a).grid.coords t) 1).val = t.val % 128 := by
  show t.val / grid9.stride 1 % 128 = t.val % 128
  rw [stride1, Nat.div_one]

theorem flat_eq (t : Fin (cfg9 a).N) :
    (((cfg9 a).grid.coords t) 0).val * 128 + (((cfg9 a).grid.coords t) 1).val = t.val := by
  rw [coords0, coords1]; omega

/-! ## The windows' block indices -/

/-- Window 0's block index is constant. -/
theorem index0 (s t : Fin (cfg9 a).N) : ((cfg9 a).win 0).index s = ((cfg9 a).win 0).index t := rfl

/-- Window 1's block index at a point is the point's first coordinate. -/
theorem index1 (s : Fin (cfg9 a).N) : ((cfg9 a).win 1).index s = ![s.val / 128] := by
  have hs := lt_N a s
  show ![(BitVec.ofNat 32 (((cfg9 a).grid.coords s) 0).val).toNat] = ![s.val / 128]
  rw [coords0 a s, BitVec.toNat_ofNat, Nat.mod_eq_of_lt (by omega)]

/-! ## Fetches and write-backs -/

theorem fetch0 (t : Fin (cfg9 a).N) : ((cfg9 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg9 a).N) : ((cfg9 a).win 1).fetch t = false := by
  unfold Pipeline.Window.fetch
  show (!true && _) = false
  rfl

theorem flush0 (t : Fin (cfg9 a).N) : ((cfg9 a).win 0).flush t = false := by
  unfold Pipeline.Window.flush
  show (false && _) = false
  rfl

theorem flush1 (t : Fin (cfg9 a).N) : ((cfg9 a).win 1).flush t = decide (t.val % 128 = 127) := by
  have ht := lt_N a t
  have hN : (cfg9 a).grid.N = 65536 := N_eq a
  unfold Pipeline.Window.flush
  show (true && (decide (t.val + 1 = (cfg9 a).grid.N)
    || decide (∃ h : t.val + 1 < (cfg9 a).grid.N, ((cfg9 a).win 1).index ⟨t.val + 1, h⟩ ≠ ((cfg9 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg9 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg9 a).W) (t : Fin (cfg9 a).N) : (cfg9 a).idle w ((cfg9 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg9 a).N) :
    Scalar.cmpi .ne (Scalar.extui (Scalar.cmpi .eq (BitVec.ofNat 32 (((cfg9 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg9 a).N) (A : Vec F S1x256 .f32) (y : S1x256.Idx) :
    (((cfg9 a).win 0).blk t).view.read (Elt F) A y = A y := by
  show A ((((cfg9 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg9 a).N) (y : S128.Idx) :
    ((((cfg9 a).win 1).blk t).view.emb y (0 : Fin 1)).val = 128 * (t.val / 128) + (y 0).val := by
  have hi : ((cfg9 a).win 1).index t (0 : Fin 1) = t.val / 128 := by rw [index1]; rfl
  show ((cfg9 a).win 1).index t (0 : Fin 1) * 128 + 1 * (y 0).val = 128 * (t.val / 128) + (y 0).val
  rw [hi]; omega

end Cert.Proof.KI9

end
-- ==== Proof.KI9Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KI9Defs
import proofs.«414028_j29231547417249_2_alg».proof.Proof.Gen.KernelIdeal.Launch
import Idealize.ShloMosaic.Lib.Tactic

noncomputable section

namespace Cert.Proof.KI9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k9_pay2 j (k9_pay6 X18 X19 X20) (k9_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k9_pay2 j (k9_pay6 X18 X19 X20) (k9_pay7 X18 X19 X20)
              (m.view.readCov [⟨Rect.unit (s := S128) ![0] S128.size inb_S128_S128_0, k9_pay1 (F := F)⟩]
                (Rect.unit (s := S128) ![0] S128.size inb_S128_S128_0).toLoadRect)⟩,
          ⟨Rect.unit (s := S128) ![0] S128.size inb_S128_S128_0, k9_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid9.Coords) (M5 : Memref sig .tc .vmem S1x256 .f32) (h5 : M5.IsWhole) (M6 : Memref sig .tc .vmem S128 .f32) (h6 : M6.IsWhole)
    (hT : Bf (F := F) c (Memref.whole main_v33)) (tT : Bf (F := F) c (Memref.whole main_v34)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v33) hT ∗ pt c (Memref.whole main_v34) tT ∗ nodeSh c node
      ∗ (∃ s0, pt c (Memref.whole cc9_scratch0) s0) ∗ (∃ s1, pt c (Memref.whole cc9_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v33) hT ∗ pt c (Memref.whole main_v34) tT ∗ nodeSh c node
          ∗ (∃ s0, pt c (Memref.whole cc9_scratch0) s0) ∗ (∃ s1, pt c (Memref.whole cc9_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc9__lookup_kernel i (Memref.whole main_v33) (Memref.isWhole_whole _) (Memref.whole main_v34) (Memref.isWhole_whole _) (Memref.whole main_arg0) (Memref.isWhole_whole _)
          M5 h5 M6 h6 (Memref.whole cc9_scratch0) (Memref.isWhole_whole _) (Memref.whole cc9_scratch1) (Memref.isWhole_whole _) cc9_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid9.Coords) (M5 : Memref sig .tc .vmem S1x256 .f32) (h5 : M5.IsWhole) (M6 : Memref sig .tc .vmem S128 .f32) (h6 : M6.IsWhole)
    (hT : Bf (F := F) c (Memref.whole main_v33)) (tT : Bf (F := F) c (Memref.whole main_v34)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v33) hT ∗ pt c (Memref.whole main_v34) tT ∗ nodeSh c node
      ∗ (∃ s0, pt c (Memref.whole cc9_scratch0) s0) ∗ (∃ s1, pt c (Memref.whole cc9_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v33) hT ∗ pt c (Memref.whole main_v34) tT ∗ nodeSh c node
          ∗ (∃ s0, pt c (Memref.whole cc9_scratch0) s0) ∗ (∃ s1, pt c (Memref.whole cc9_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc9__lookup_kernel i (Memref.whole main_v33) (Memref.isWhole_whole _) (Memref.whole main_v34) (Memref.isWhole_whole _) (Memref.whole main_arg0) (Memref.isWhole_whole _)
          M5 h5 M6 h6 (Memref.whole cc9_scratch0) (Memref.isWhole_whole _) (Memref.whole cc9_scratch1) (Memref.isWhole_whole _) cc9_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KI9

end
-- ==== Proof.KI9Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KI9Data
import proofs.«414028_j29231547417249_2_alg».proof.Proof.KI9Points
import proofs.«414028_j29231547417249_2_alg».proof.Proof.KI9Body
import proofs.«414028_j29231547417249_2_alg».proof.Proof.Gen.KernelIdeal.Launch
import Idealize.ShloMosaic.Lib.Pipeline.Frame

noncomputable section

namespace Cert.Proof.KI9

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W9, bigSep_W9]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec9_0.stage ((cfgA m).slots t 0)) (hstage9_0 (((cfgA m).slots t 0).cast nbuf9_0))
      (spec9_1.stage ((cfgA m).slots t 1)) (hstage9_1 (((cfgA m).slots t 1).cast nbuf9_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec9_0.stage ((cfgA m).slots t 0)) (hstage9_0 (((cfgA m).slots t 0).cast nbuf9_0))
      (spec9_1.stage ((cfgA m).slots t 1)) (hstage9_1 (((cfgA m).slots t 1).cast nbuf9_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KI9

end
-- ==== Proof.KI9Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KIDats
import proofs.«414028_j29231547417249_2_alg».proof.Proof.KIThread
import proofs.«414028_j29231547417249_2_alg».proof.Proof.KI9Chains
import proofs.«414028_j29231547417249_2_alg».proof.Proof.KI9Oblig
import proofs.«414028_j29231547417249_2_alg».proof.Proof.Gen.KernelIdeal.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KI9

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 48 | 1 => .dma 49

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W9] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v33) (hTab m) ∗ pt c (Memref.whole main_v34) (tTab m))

/-- The invariant at the first point: the node table split into its shares, the tables, the two scratch rows out of the
    scoped rest. -/
theorem hin0 (c : Dev nD) :
    iprop(X0 m c ∗ Pipeline.prefHeld pre9 c (fun _ => fullShare) (Cert.Proof.KI.tbl9 m)
        ∗ Pipeline.scopedRest (Ix := Unit) (Name := ℕ) (U := UC) (Lvl := ℕ) (Val := Elt F) spec9 c)
      ⊢ Φv m c := by
  unfold Φv Pipeline.prefHeld
  rw [Gen.bigSep_W9, Gen.scopedRest9_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec9 c) := by
  unfold Φv
  rw [Gen.scopedRest9_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre9 spec9 \ {main_arg0}

theorem node_mem_rest : ({main_arg0} : Finset (Ref sig .tc)) ⊆ Pipeline.restRefsP sig pre9 spec9 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec9 c V : sProp 𝕄)
      = iprop(Pipeline.prefHeld pre9 c (fun _ => fullShare) (fun k => V (pre9.ref k))
          ∗ (((c : Thread nD τ).loc main_arg0) ↦{fullShare} V main_arg0)
          ∗ bigSep restZ fun b => ((c : Thread nD τ).loc b) ↦{fullShare} V b) := by
  rw [Pipeline.unscopedRest_split preFacts9 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v35) ↦{fullShare} V main_v35))
          ∗ ((((c : Thread nD τ).loc main_v33) ↦{fullShare} V main_v33) ∗ (((c : Thread nD τ).loc main_v34) ↦{fullShare} V main_v34))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts9.arr_unscoped winFacts9.arr_inj c, rest_split]
  unfold Pipeline.prefHeld
  rw [Gen.bigSep_W9, Gen.bigSep_W9]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v35) ↦{fullShare} G 1)) := by
  rw [Pipeline.arrays_eq (fun _ : Fin 1 => cfgA m) (fun _ c => dat0 m c) 0 c arr_whole9 ((dat0 m c).share_full fun _ => rfl) G, Gen.bigSep_W9]

/-- What bypasses the region: every other unscoped buffer, at its contents on entry. -/
abbrev Z0 (c : Dev nD) : sProp 𝕄 := bigSep restZ fun b => ((c : Thread nD τ).loc b) ↦{fullShare} V23 m (Cert.Proof.KI.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V23 m (Cert.Proof.KI.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre9 c (fun _ => fullShare) (Cert.Proof.KI.tbl9 m)
          ∗ (dat0 m c).owesAt () 0 ∗ X0 m c ∗ Z0 m c) := by
  rw [held_split m c (V23 m (Cert.Proof.KI.outs m) c), arrays_two, ent_arg0, ent_arg1, ent_out,
    show V23 m (Cert.Proof.KI.outs m) c main_v33 = hTab m from ent_tab m (Cert.Proof.KI.outs m) c 0, show V23 m (Cert.Proof.KI.outs m) c main_v34 = tTab m from ent_tab m (Cert.Proof.KI.outs m) c 1]
  unfold Pipeline.prefHeld
  rw [Gen.bigSep_W9]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v35)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V23 m (Cert.Proof.KI.outs m) c) main_v35 o)
          ∗ (∃ W, owes (c : Thread nD τ) (0 : CellTallies nD τ sig Unit) W)) := by
  have hne : ∀ b : Ref sig .tc, b ≠ main_v35 →
      Function.update (V23 m (Cert.Proof.KI.outs m) c) (Proc.devRef .tc main_v35) o (Proc.devRef .tc b) = V23 m (Cert.Proof.KI.outs m) c b :=
    fun b hb => Function.update_of_ne (StableHlo.devRef_ne_of_ne hb) _ _
  have hz : (bigSep restZ fun b => (((c : Thread nD τ).loc b) ↦{fullShare} Function.update (V23 m (Cert.Proof.KI.outs m) c) (Proc.devRef .tc main_v35) o b : sProp 𝕄))
      = Z0 m c :=
    BI.bigSep_congr fun b hb => by
      rw [hne b (fun e => by subst e; revert hb; decide)]
  rw [held_split m c (Function.update (V23 m (Cert.Proof.KI.outs m) c) main_v35 o), arrays_two, hz,
    hne main_arg1 (by decide), hne main_v33 (by decide), hne main_v34 (by decide), hne main_arg0 (by decide),
    Function.update_self, ent_arg0, ent_arg1,
    show V23 m (Cert.Proof.KI.outs m) c main_v33 = hTab m from ent_tab m (Cert.Proof.KI.outs m) c 0, show V23 m (Cert.Proof.KI.outs m) c main_v34 = tTab m from ent_tab m (Cert.Proof.KI.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec9 osem := by decide

/-- What region 0 leaves in the output's array, by name: the fold of its write-backs. -/
theorem outs6 (c : Dev nD) : Cert.Proof.KI.outs m 24 main_v35 c = (dat0 m c).arrAt 1 (cfgA m).N :=
  Pipeline.withArrays_arr spec9 winFacts9.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KI.adm m) (Cert.Proof.KI.pdats m) () defs₀ Variants.none
      Cert.Proof.KI.L Cert.Proof.KI.lv (9 : Fin 16) where
  win := (launch9 (F := F)).win.to₀
  block_pos := (launch9 (F := F)).block_pos
  stage_whole := (launch9 (F := F)).stage_whole
  K := Fin 2
  osem := osem
  ho := ownSemFacts
  hbody c := (body_obligation m hH hTl c).loose
  hwaits := Pipeline.hwaits_of_owed_zero _ _ _ _ Cert.Proof.KI.L Cert.Proof.KI.lv (9 : Fin 16) fun _ _ => rfl
  pre c := iprop(StableHlo.held (c : Thread nD τ) (Pipeline.ucRefs τ sig) (V23 m (Cert.Proof.KI.outs m) c) ∗ Cert.Proof.KI.E 9 c)
  post c := iprop(StableHlo.held (c : Thread nD τ) (Pipeline.ucRefs τ sig) (V24 m (Cert.Proof.KI.outs m) c) ∗ Cert.Proof.KI.E 10 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KI.outs m 24 main_v35 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V23 m (Cert.Proof.KI.outs m) c) ∗ Cert.Proof.KI.E 9 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V24 m (Cert.Proof.KI.outs m) c) ∗ Cert.Proof.KI.E 10 c) := .rfl

end Cert.Proof.KI9

end
-- ==== Proof.KI10Chains.lean ====
/-
  Region 10 is entered from the valuation after item 24 of @main. No earlier item writes the node table, the relation row,
  the region's output array or the padded index rows, and the region's two tables are the slices cut out of the padded
  rows at offset 655360: each buffer the region is handed holds a function of the launch memory alone.
-/
import proofs.«414028_j29231547417249_2_alg».proof.Proof.KIAdm
import Idealize.ShloMosaic.Lib.StableHlo.Run

set_option maxRecDepth 4096

noncomputable section

namespace Cert.Proof.KI10

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V25 m outs c main_arg0 = m ((c : Thread nD τ).loc main_arg0) :=
  (V25_of m outs c main_arg0 (by decide)).trans <| (V24_of m outs c main_arg0 (by decide)).trans <| (V23_of m outs c main_arg0 (by decide)).trans <| (V22_of m outs c main_arg0 (by decide)).trans <| (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V25 m outs c main_arg1 = m ((c : Thread nD τ).loc main_arg1) :=
  (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V25 m outs c main_v38 = m ((c : Thread nD τ).loc main_v38) :=
  (V25_of m outs c main_v38 (by decide)).trans <| (V24_of m outs c main_v38 (by decide)).trans <| (V23_of m outs c main_v38 (by decide)).trans <| (V22_of m outs c main_v38 (by decide)).trans <| (V21_of m outs c main_v38 (by decide)).trans <| (V20_of m outs c main_v38 (by decide)).trans <| (V19_of m outs c main_v38 (by decide)).trans <| (V18_of m outs c main_v38 (by decide)).trans <| (V17_of m outs c main_v38 (by decide)).trans <| (V16_of m outs c main_v38 (by decide)).trans <| (V15_of m outs c main_v38 (by decide)).trans <| (V14_of m outs c main_v38 (by decide)).trans <| (V13_of m outs c main_v38 (by decide)).trans <| (V12_of m outs c main_v38 (by decide)).trans <| (V11_of m outs c main_v38 (by decide)).trans <| (V10_of m outs c main_v38 (by decide)).trans <| (V9_of m outs c main_v38 (by decide)).trans <| (V8_of m outs c main_v38 (by decide)).trans <| (V7_of m outs c main_v38 (by decide)).trans <| (V6_of m outs c main_v38 (by decide)).trans <| (V5_of m c main_v38 (by decide)).trans <| (V4_of m c main_v38 (by decide)).trans <| (V3_of m c main_v38 (by decide)).trans <| (V2_of m c main_v38 (by decide)).trans <| (V1_of m c main_v38 (by decide)).trans <| rfl
/-- The stretch before the region cuts the table out of the padded row, whatever the valuation it runs from. -/
theorem slice_h (X : Valuation τ sig (Elt F)) :
    StableHlo.after (hostOps10 (F := F)) X (Proc.devRef .tc main_v36)
      = extractStridedSlice S65536 ![655360] (X (Proc.devRef .tc main_v4)) slices_S1048576_S65536_655360 := by
  after_results
/-- The stretch before the region cuts the table out of the padded row, whatever the valuation it runs from. -/
theorem slice_t (X : Valuation τ sig (Elt F)) :
    StableHlo.after (hostOps10 (F := F)) X (Proc.devRef .tc main_v37)
      = extractStridedSlice S65536 ![655360] (X (Proc.devRef .tc main_v5)) slices_S1048576_S65536_655360 := by
  after_results
theorem ent_tab0 (c : Dev nD) : V25 m outs c main_v36 = Cert.Proof.KI.tv10 m main_v36 := by
  obtain rfl : c = (0 : Dev nD) := Subsingleton.elim _ _
  have e : V24 m outs (0 : Dev nD) main_v4 = V5 m (0 : Dev nD) main_v4 :=
    (V24_of m outs (0 : Dev nD) main_v4 (by decide)).trans <| (V23_of m outs (0 : Dev nD) main_v4 (by decide)).trans <| (V22_of m outs (0 : Dev nD) main_v4 (by decide)).trans <| (V21_of m outs (0 : Dev nD) main_v4 (by decide)).trans <| (V20_of m outs (0 : Dev nD) main_v4 (by decide)).trans <| (V19_of m outs (0 : Dev nD) main_v4 (by decide)).trans <| (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V24 m outs (0 : Dev nD))).trans ((congrArg (extractStridedSlice S65536 ![655360] · slices_S1048576_S65536_655360) e).trans (slice_h (V5 m (0 : Dev nD))).symm)
theorem ent_tab1 (c : Dev nD) : V25 m outs c main_v37 = Cert.Proof.KI.tv10 m main_v37 := by
  obtain rfl : c = (0 : Dev nD) := Subsingleton.elim _ _
  have e : V24 m outs (0 : Dev nD) main_v5 = V5 m (0 : Dev nD) main_v5 :=
    (V24_of m outs (0 : Dev nD) main_v5 (by decide)).trans <| (V23_of m outs (0 : Dev nD) main_v5 (by decide)).trans <| (V22_of m outs (0 : Dev nD) main_v5 (by decide)).trans <| (V21_of m outs (0 : Dev nD) main_v5 (by decide)).trans <| (V20_of m outs (0 : Dev nD) main_v5 (by decide)).trans <| (V19_of m outs (0 : Dev nD) main_v5 (by decide)).trans <| (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V24 m outs (0 : Dev nD))).trans ((congrArg (extractStridedSlice S65536 ![655360] · slices_S1048576_S65536_655360) e).trans (slice_t (V5 m (0 : Dev nD))).symm)
theorem ent_tab (c : Dev nD) (k : Fin 2) : V25 m outs c (pre10.ref k) = Cert.Proof.KI.tbl10 m k :=
  match k with
  | ⟨0, _⟩ => ent_tab0 m outs c
  | ⟨1, _⟩ => ent_tab1 m outs c

end Cert.Proof.KI10

end
-- ==== Proof.KI10Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.KernelIdeal
import proofs.«414028_j29231547417249_2_alg».proof.Proof.Gen.KernelIdeal.Launch
import Idealize.ShloMosaic.Lib.Pipeline.Dat

noncomputable section

namespace Cert.Proof.KI10

open Cert.KernelIdeal Cert.KernelIdeal.Gen Idealize.ShloMosaic

variable {F : FTy → Type} [FloatOps F] (a : (pcfg10 (F := F)).Adm)

/-! ## The points and their coordinates -/

theorem N_eq : (cfg10 a).N = 65536 := N_10

theorem lt_N (t : Fin (cfg10 a).N) : t.val < 65536 := Nat.lt_of_lt_of_eq t.isLt (N_eq a)

/-- Each value of the first coordinate is shared by 128 consecutive points, each value of the second by one. -/
theorem stride0 : grid10.stride 0 = 128 := by decide
theorem stride1 : grid10.stride 1 = 1 := by decide

theorem coords0 (t : Fin (cfg10 a).N) : (((cfg10 a).grid.coords t) 0).val = t.val / 128 := by
  have ht := lt_N a t
  show t.val / grid10.stride 0 % 512 = t.val / 128
  rw [stride0]; omega

theorem coords1 (t : Fin (cfg10 a).N) : (((cfg10 a).grid.coords t) 1).val = t.val % 128 := by
  show t.val / grid10.stride 1 % 128 = t.val % 128
  rw [stride1, Nat.div_one]

theorem flat_eq (t : Fin (cfg10 a).N) :
    (((cfg10 a).grid.coords t) 0).val * 128 + (((cfg10 a).grid.coords t) 1).val = t.val := by
  rw [coords0, coords1]; omega

/-! ## The windows' block indices -/

/-- Window 0's block index is constant. -/
theorem index0 (s t : Fin (cfg10 a).N) : ((cfg10 a).win 0).index s = ((cfg10 a).win 0).index t := rfl

/-- Window 1's block index at a point is the point's first coordinate. -/
theorem index1 (s : Fin (cfg10 a).N) : ((cfg10 a).win 1).index s = ![s.val / 128] := by
  have hs := lt_N a s
  show ![(BitVec.ofNat 32 (((cfg10 a).grid.coords s) 0).val).toNat] = ![s.val / 128]
  rw [coords0 a s, BitVec.toNat_ofNat, Nat.mod_eq_of_lt (by omega)]

/-! ## Fetches and write-backs -/

theorem fetch0 (t : Fin (cfg10 a).N) : ((cfg10 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg10 a).N) : ((cfg10 a).win 1).fetch t = false := by
  unfold Pipeline.Window.fetch
  show (!true && _) = false
  rfl

theorem flush0 (t : Fin (cfg10 a).N) : ((cfg10 a).win 0).flush t = false := by
  unfold Pipeline.Window.flush
  show (false && _) = false
  rfl

theorem flush1 (t : Fin (cfg10 a).N) : ((cfg10 a).win 1).flush t = decide (t.val % 128 = 127) := by
  have ht := lt_N a t
  have hN : (cfg10 a).grid.N = 65536 := N_eq a
  unfold Pipeline.Window.flush
  show (true && (decide (t.val + 1 = (cfg10 a).grid.N)
    || decide (∃ h : t.val + 1 < (cfg10 a).grid.N, ((cfg10 a).win 1).index ⟨t.val + 1, h⟩ ≠ ((cfg10 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg10 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg10 a).W) (t : Fin (cfg10 a).N) : (cfg10 a).idle w ((cfg10 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg10 a).N) :
    Scalar.cmpi .ne (Scalar.extui (Scalar.cmpi .eq (BitVec.ofNat 32 (((cfg10 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg10 a).N) (A : Vec F S1x256 .f32) (y : S1x256.Idx) :
    (((cfg10 a).win 0).blk t).view.read (Elt F) A y = A y := by
  show A ((((cfg10 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg10 a).N) (y : S128.Idx) :
    ((((cfg10 a).win 1).blk t).view.emb y (0 : Fin 1)).val = 128 * (t.val / 128) + (y 0).val := by
  have hi : ((cfg10 a).win 1).index t (0 : Fin 1) = t.val / 128 := by rw [index1]; rfl
  show ((cfg10 a).win 1).index t (0 : Fin 1) * 128 + 1 * (y 0).val = 128 * (t.val / 128) + (y 0).val
  rw [hi]; omega

end Cert.Proof.KI10

end
-- ==== Proof.KI10Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KI10Defs
import proofs.«414028_j29231547417249_2_alg».proof.Proof.Gen.KernelIdeal.Launch
import Idealize.ShloMosaic.Lib.Tactic

noncomputable section

namespace Cert.Proof.KI10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k10_pay2 j (k10_pay6 X18 X19 X20) (k10_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k10_pay2 j (k10_pay6 X18 X19 X20) (k10_pay7 X18 X19 X20)
              (m.view.readCov [⟨Rect.unit (s := S128) ![0] S128.size inb_S128_S128_0, k10_pay1 (F := F)⟩]
                (Rect.unit (s := S128) ![0] S128.size inb_S128_S128_0).toLoadRect)⟩,
          ⟨Rect.unit (s := S128) ![0] S128.size inb_S128_S128_0, k10_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid10.Coords) (M5 : Memref sig .tc .vmem S1x256 .f32) (h5 : M5.IsWhole) (M6 : Memref sig .tc .vmem S128 .f32) (h6 : M6.IsWhole)
    (hT : Bf (F := F) c (Memref.whole main_v36)) (tT : Bf (F := F) c (Memref.whole main_v37)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v36) hT ∗ pt c (Memref.whole main_v37) tT ∗ nodeSh c node
      ∗ (∃ s0, pt c (Memref.whole cc10_scratch0) s0) ∗ (∃ s1, pt c (Memref.whole cc10_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v36) hT ∗ pt c (Memref.whole main_v37) tT ∗ nodeSh c node
          ∗ (∃ s0, pt c (Memref.whole cc10_scratch0) s0) ∗ (∃ s1, pt c (Memref.whole cc10_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc10__lookup_kernel i (Memref.whole main_v36) (Memref.isWhole_whole _) (Memref.whole main_v37) (Memref.isWhole_whole _) (Memref.whole main_arg0) (Memref.isWhole_whole _)
          M5 h5 M6 h6 (Memref.whole cc10_scratch0) (Memref.isWhole_whole _) (Memref.whole cc10_scratch1) (Memref.isWhole_whole _) cc10_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid10.Coords) (M5 : Memref sig .tc .vmem S1x256 .f32) (h5 : M5.IsWhole) (M6 : Memref sig .tc .vmem S128 .f32) (h6 : M6.IsWhole)
    (hT : Bf (F := F) c (Memref.whole main_v36)) (tT : Bf (F := F) c (Memref.whole main_v37)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v36) hT ∗ pt c (Memref.whole main_v37) tT ∗ nodeSh c node
      ∗ (∃ s0, pt c (Memref.whole cc10_scratch0) s0) ∗ (∃ s1, pt c (Memref.whole cc10_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v36) hT ∗ pt c (Memref.whole main_v37) tT ∗ nodeSh c node
          ∗ (∃ s0, pt c (Memref.whole cc10_scratch0) s0) ∗ (∃ s1, pt c (Memref.whole cc10_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc10__lookup_kernel i (Memref.whole main_v36) (Memref.isWhole_whole _) (Memref.whole main_v37) (Memref.isWhole_whole _) (Memref.whole main_arg0) (Memref.isWhole_whole _)
          M5 h5 M6 h6 (Memref.whole cc10_scratch0) (Memref.isWhole_whole _) (Memref.whole cc10_scratch1) (Memref.isWhole_whole _) cc10_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KI10

end
-- ==== Proof.KI10Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KI10Data
import proofs.«414028_j29231547417249_2_alg».proof.Proof.KI10Points
import proofs.«414028_j29231547417249_2_alg».proof.Proof.KI10Body
import proofs.«414028_j29231547417249_2_alg».proof.Proof.Gen.KernelIdeal.Launch
import Idealize.ShloMosaic.Lib.Pipeline.Frame

noncomputable section

namespace Cert.Proof.KI10

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W10, bigSep_W10]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec10_0.stage ((cfgA m).slots t 0)) (hstage10_0 (((cfgA m).slots t 0).cast nbuf10_0))
      (spec10_1.stage ((cfgA m).slots t 1)) (hstage10_1 (((cfgA m).slots t 1).cast nbuf10_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec10_0.stage ((cfgA m).slots t 0)) (hstage10_0 (((cfgA m).slots t 0).cast nbuf10_0))
      (spec10_1.stage ((cfgA m).slots t 1)) (hstage10_1 (((cfgA m).slots t 1).cast nbuf10_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KI10

end
-- ==== Proof.KI10Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KIDats
import proofs.«414028_j29231547417249_2_alg».proof.Proof.KIThread
import proofs.«414028_j29231547417249_2_alg».proof.Proof.KI10Chains
import proofs.«414028_j29231547417249_2_alg».proof.Proof.KI10Oblig
import proofs.«414028_j29231547417249_2_alg».proof.Proof.Gen.KernelIdeal.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KI10

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 53 | 1 => .dma 54

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W10] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v36) (hTab m) ∗ pt c (Memref.whole main_v37) (tTab m))

/-- The invariant at the first point: the node table split into its shares, the tables, the two scratch rows out of the
    scoped rest. -/
theorem hin0 (c : Dev nD) :
    iprop(X0 m c ∗ Pipeline.prefHeld pre10 c (fun _ => fullShare) (Cert.Proof.KI.tbl10 m)
        ∗ Pipeline.scopedRest (Ix := Unit) (Name := ℕ) (U := UC) (Lvl := ℕ) (Val := Elt F) spec10 c)
      ⊢ Φv m c := by
  unfold Φv Pipeline.prefHeld
  rw [Gen.bigSep_W10, Gen.scopedRest10_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec10 c) := by
  unfold Φv
  rw [Gen.scopedRest10_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre10 spec10 \ {main_arg0}

theorem node_mem_rest : ({main_arg0} : Finset (Ref sig .tc)) ⊆ Pipeline.restRefsP sig pre10 spec10 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec10 c V : sProp 𝕄)
      = iprop(Pipeline.prefHeld pre10 c (fun _ => fullShare) (fun k => V (pre10.ref k))
          ∗ (((c : Thread nD τ).loc main_arg0) ↦{fullShare} V main_arg0)
          ∗ bigSep restZ fun b => ((c : Thread nD τ).loc b) ↦{fullShare} V b) := by
  rw [Pipeline.unscopedRest_split preFacts10 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v38) ↦{fullShare} V main_v38))
          ∗ ((((c : Thread nD τ).loc main_v36) ↦{fullShare} V main_v36) ∗ (((c : Thread nD τ).loc main_v37) ↦{fullShare} V main_v37))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts10.arr_unscoped winFacts10.arr_inj c, rest_split]
  unfold Pipeline.prefHeld
  rw [Gen.bigSep_W10, Gen.bigSep_W10]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v38) ↦{fullShare} G 1)) := by
  rw [Pipeline.arrays_eq (fun _ : Fin 1 => cfgA m) (fun _ c => dat0 m c) 0 c arr_whole10 ((dat0 m c).share_full fun _ => rfl) G, Gen.bigSep_W10]

/-- What bypasses the region: every other unscoped buffer, at its contents on entry. -/
abbrev Z0 (c : Dev nD) : sProp 𝕄 := bigSep restZ fun b => ((c : Thread nD τ).loc b) ↦{fullShare} V25 m (Cert.Proof.KI.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V25 m (Cert.Proof.KI.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre10 c (fun _ => fullShare) (Cert.Proof.KI.tbl10 m)
          ∗ (dat0 m c).owesAt () 0 ∗ X0 m c ∗ Z0 m c) := by
  rw [held_split m c (V25 m (Cert.Proof.KI.outs m) c), arrays_two, ent_arg0, ent_arg1, ent_out,
    show V25 m (Cert.Proof.KI.outs m) c main_v36 = hTab m from ent_tab m (Cert.Proof.KI.outs m) c 0, show V25 m (Cert.Proof.KI.outs m) c main_v37 = tTab m from ent_tab m (Cert.Proof.KI.outs m) c 1]
  unfold Pipeline.prefHeld
  rw [Gen.bigSep_W10]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v38)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V25 m (Cert.Proof.KI.outs m) c) main_v38 o)
          ∗ (∃ W, owes (c : Thread nD τ) (0 : CellTallies nD τ sig Unit) W)) := by
  have hne : ∀ b : Ref sig .tc, b ≠ main_v38 →
      Function.update (V25 m (Cert.Proof.KI.outs m) c) (Proc.devRef .tc main_v38) o (Proc.devRef .tc b) = V25 m (Cert.Proof.KI.outs m) c b :=
    fun b hb => Function.update_of_ne (StableHlo.devRef_ne_of_ne hb) _ _
  have hz : (bigSep restZ fun b => (((c : Thread nD τ).loc b) ↦{fullShare} Function.update (V25 m (Cert.Proof.KI.outs m) c) (Proc.devRef .tc main_v38) o b : sProp 𝕄))
      = Z0 m c :=
    BI.bigSep_congr fun b hb => by
      rw [hne b (fun e => by subst e; revert hb; decide)]
  rw [held_split m c (Function.update (V25 m (Cert.Proof.KI.outs m) c) main_v38 o), arrays_two, hz,
    hne main_arg1 (by decide), hne main_v36 (by decide), hne main_v37 (by decide), hne main_arg0 (by decide),
    Function.update_self, ent_arg0, ent_arg1,
    show V25 m (Cert.Proof.KI.outs m) c main_v36 = hTab m from ent_tab m (Cert.Proof.KI.outs m) c 0, show V25 m (Cert.Proof.KI.outs m) c main_v37 = tTab m from ent_tab m (Cert.Proof.KI.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec10 osem := by decide

/-- What region 0 leaves in the output's array, by name: the fold of its write-backs. -/
theorem outs6 (c : Dev nD) : Cert.Proof.KI.outs m 26 main_v38 c = (dat0 m c).arrAt 1 (cfgA m).N :=
  Pipeline.withArrays_arr spec10 winFacts10.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KI.adm m) (Cert.Proof.KI.pdats m) () defs₀ Variants.none
      Cert.Proof.KI.L Cert.Proof.KI.lv (10 : Fin 16) where
  win := (launch10 (F := F)).win.to₀
  block_pos := (launch10 (F := F)).block_pos
  stage_whole := (launch10 (F := F)).stage_whole
  K := Fin 2
  osem := osem
  ho := ownSemFacts
  hbody c := (body_obligation m hH hTl c).loose
  hwaits := Pipeline.hwaits_of_owed_zero _ _ _ _ Cert.Proof.KI.L Cert.Proof.KI.lv (10 : Fin 16) fun _ _ => rfl
  pre c := iprop(StableHlo.held (c : Thread nD τ) (Pipeline.ucRefs τ sig) (V25 m (Cert.Proof.KI.outs m) c) ∗ Cert.Proof.KI.E 10 c)
  post c := iprop(StableHlo.held (c : Thread nD τ) (Pipeline.ucRefs τ sig) (V26 m (Cert.Proof.KI.outs m) c) ∗ Cert.Proof.KI.E 11 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KI.outs m 26 main_v38 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V25 m (Cert.Proof.KI.outs m) c) ∗ Cert.Proof.KI.E 10 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V26 m (Cert.Proof.KI.outs m) c) ∗ Cert.Proof.KI.E 11 c) := .rfl

end Cert.Proof.KI10

end
-- ==== Proof.KI11Chains.lean ====
/-
  Region 11 is entered from the valuation after item 26 of @main. No earlier item writes the node table, the relation row,
  the region's output array or the padded index rows, and the region's two tables are the slices cut out of the padded
  rows at offset 720896: each buffer the region is handed holds a function of the launch memory alone.
-/
import proofs.«414028_j29231547417249_2_alg».proof.Proof.KIAdm
import Idealize.ShloMosaic.Lib.StableHlo.Run

set_option maxRecDepth 4096

noncomputable section

namespace Cert.Proof.KI11

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V27 m outs c main_arg0 = m ((c : Thread nD τ).loc main_arg0) :=
  (V27_of m outs c main_arg0 (by decide)).trans <| (V26_of m outs c main_arg0 (by decide)).trans <| (V25_of m outs c main_arg0 (by decide)).trans <| (V24_of m outs c main_arg0 (by decide)).trans <| (V23_of m outs c main_arg0 (by decide)).trans <| (V22_of m outs c main_arg0 (by decide)).trans <| (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V27 m outs c main_arg1 = m ((c : Thread nD τ).loc main_arg1) :=
  (V27_of m outs c main_arg1 (by decide)).trans <| (V26_of m outs c main_arg1 (by decide)).trans <| (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V27 m outs c main_v41 = m ((c : Thread nD τ).loc main_v41) :=
  (V27_of m outs c main_v41 (by decide)).trans <| (V26_of m outs c main_v41 (by decide)).trans <| (V25_of m outs c main_v41 (by decide)).trans <| (V24_of m outs c main_v41 (by decide)).trans <| (V23_of m outs c main_v41 (by decide)).trans <| (V22_of m outs c main_v41 (by decide)).trans <| (V21_of m outs c main_v41 (by decide)).trans <| (V20_of m outs c main_v41 (by decide)).trans <| (V19_of m outs c main_v41 (by decide)).trans <| (V18_of m outs c main_v41 (by decide)).trans <| (V17_of m outs c main_v41 (by decide)).trans <| (V16_of m outs c main_v41 (by decide)).trans <| (V15_of m outs c main_v41 (by decide)).trans <| (V14_of m outs c main_v41 (by decide)).trans <| (V13_of m outs c main_v41 (by decide)).trans <| (V12_of m outs c main_v41 (by decide)).trans <| (V11_of m outs c main_v41 (by decide)).trans <| (V10_of m outs c main_v41 (by decide)).trans <| (V9_of m outs c main_v41 (by decide)).trans <| (V8_of m outs c main_v41 (by decide)).trans <| (V7_of m outs c main_v41 (by decide)).trans <| (V6_of m outs c main_v41 (by decide)).trans <| (V5_of m c main_v41 (by decide)).trans <| (V4_of m c main_v41 (by decide)).trans <| (V3_of m c main_v41 (by decide)).trans <| (V2_of m c main_v41 (by decide)).trans <| (V1_of m c main_v41 (by decide)).trans <| rfl
/-- The stretch before the region cuts the table out of the padded row, whatever the valuation it runs from. -/
theorem slice_h (X : Valuation τ sig (Elt F)) :
    StableHlo.after (hostOps11 (F := F)) X (Proc.devRef .tc main_v39)
      = extractStridedSlice S65536 ![720896] (X (Proc.devRef .tc main_v4)) slices_S1048576_S65536_720896 := by
  after_results
/-- The stretch before the region cuts the table out of the padded row, whatever the valuation it runs from. -/
theorem slice_t (X : Valuation τ sig (Elt F)) :
    StableHlo.after (hostOps11 (F := F)) X (Proc.devRef .tc main_v40)
      = extractStridedSlice S65536 ![720896] (X (Proc.devRef .tc main_v5)) slices_S1048576_S65536_720896 := by
  after_results
theorem ent_tab0 (c : Dev nD) : V27 m outs c main_v39 = Cert.Proof.KI.tv11 m main_v39 := by
  obtain rfl : c = (0 : Dev nD) := Subsingleton.elim _ _
  have e : V26 m outs (0 : Dev nD) main_v4 = V5 m (0 : Dev nD) main_v4 :=
    (V26_of m outs (0 : Dev nD) main_v4 (by decide)).trans <| (V25_of m outs (0 : Dev nD) main_v4 (by decide)).trans <| (V24_of m outs (0 : Dev nD) main_v4 (by decide)).trans <| (V23_of m outs (0 : Dev nD) main_v4 (by decide)).trans <| (V22_of m outs (0 : Dev nD) main_v4 (by decide)).trans <| (V21_of m outs (0 : Dev nD) main_v4 (by decide)).trans <| (V20_of m outs (0 : Dev nD) main_v4 (by decide)).trans <| (V19_of m outs (0 : Dev nD) main_v4 (by decide)).trans <| (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V26 m outs (0 : Dev nD))).trans ((congrArg (extractStridedSlice S65536 ![720896] · slices_S1048576_S65536_720896) e).trans (slice_h (V5 m (0 : Dev nD))).symm)
theorem ent_tab1 (c : Dev nD) : V27 m outs c main_v40 = Cert.Proof.KI.tv11 m main_v40 := by
  obtain rfl : c = (0 : Dev nD) := Subsingleton.elim _ _
  have e : V26 m outs (0 : Dev nD) main_v5 = V5 m (0 : Dev nD) main_v5 :=
    (V26_of m outs (0 : Dev nD) main_v5 (by decide)).trans <| (V25_of m outs (0 : Dev nD) main_v5 (by decide)).trans <| (V24_of m outs (0 : Dev nD) main_v5 (by decide)).trans <| (V23_of m outs (0 : Dev nD) main_v5 (by decide)).trans <| (V22_of m outs (0 : Dev nD) main_v5 (by decide)).trans <| (V21_of m outs (0 : Dev nD) main_v5 (by decide)).trans <| (V20_of m outs (0 : Dev nD) main_v5 (by decide)).trans <| (V19_of m outs (0 : Dev nD) main_v5 (by decide)).trans <| (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V26 m outs (0 : Dev nD))).trans ((congrArg (extractStridedSlice S65536 ![720896] · slices_S1048576_S65536_720896) e).trans (slice_t (V5 m (0 : Dev nD))).symm)
theorem ent_tab (c : Dev nD) (k : Fin 2) : V27 m outs c (pre11.ref k) = Cert.Proof.KI.tbl11 m k :=
  match k with
  | ⟨0, _⟩ => ent_tab0 m outs c
  | ⟨1, _⟩ => ent_tab1 m outs c

end Cert.Proof.KI11

end
-- ==== Proof.KI11Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.KernelIdeal
import proofs.«414028_j29231547417249_2_alg».proof.Proof.Gen.KernelIdeal.Launch
import Idealize.ShloMosaic.Lib.Pipeline.Dat

noncomputable section

namespace Cert.Proof.KI11

open Cert.KernelIdeal Cert.KernelIdeal.Gen Idealize.ShloMosaic

variable {F : FTy → Type} [FloatOps F] (a : (pcfg11 (F := F)).Adm)

/-! ## The points and their coordinates -/

theorem N_eq : (cfg11 a).N = 65536 := N_11

theorem lt_N (t : Fin (cfg11 a).N) : t.val < 65536 := Nat.lt_of_lt_of_eq t.isLt (N_eq a)

/-- Each value of the first coordinate is shared by 128 consecutive points, each value of the second by one. -/
theorem stride0 : grid11.stride 0 = 128 := by decide
theorem stride1 : grid11.stride 1 = 1 := by decide

theorem coords0 (t : Fin (cfg11 a).N) : (((cfg11 a).grid.coords t) 0).val = t.val / 128 := by
  have ht := lt_N a t
  show t.val / grid11.stride 0 % 512 = t.val / 128
  rw [stride0]; omega

theorem coords1 (t : Fin (cfg11 a).N) : (((cfg11 a).grid.coords t) 1).val = t.val % 128 := by
  show t.val / grid11.stride 1 % 128 = t.val % 128
  rw [stride1, Nat.div_one]

theorem flat_eq (t : Fin (cfg11 a).N) :
    (((cfg11 a).grid.coords t) 0).val * 128 + (((cfg11 a).grid.coords t) 1).val = t.val := by
  rw [coords0, coords1]; omega

/-! ## The windows' block indices -/

/-- Window 0's block index is constant. -/
theorem index0 (s t : Fin (cfg11 a).N) : ((cfg11 a).win 0).index s = ((cfg11 a).win 0).index t := rfl

/-- Window 1's block index at a point is the point's first coordinate. -/
theorem index1 (s : Fin (cfg11 a).N) : ((cfg11 a).win 1).index s = ![s.val / 128] := by
  have hs := lt_N a s
  show ![(BitVec.ofNat 32 (((cfg11 a).grid.coords s) 0).val).toNat] = ![s.val / 128]
  rw [coords0 a s, BitVec.toNat_ofNat, Nat.mod_eq_of_lt (by omega)]

/-! ## Fetches and write-backs -/

theorem fetch0 (t : Fin (cfg11 a).N) : ((cfg11 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg11 a).N) : ((cfg11 a).win 1).fetch t = false := by
  unfold Pipeline.Window.fetch
  show (!true && _) = false
  rfl

theorem flush0 (t : Fin (cfg11 a).N) : ((cfg11 a).win 0).flush t = false := by
  unfold Pipeline.Window.flush
  show (false && _) = false
  rfl

theorem flush1 (t : Fin (cfg11 a).N) : ((cfg11 a).win 1).flush t = decide (t.val % 128 = 127) := by
  have ht := lt_N a t
  have hN : (cfg11 a).grid.N = 65536 := N_eq a
  unfold Pipeline.Window.flush
  show (true && (decide (t.val + 1 = (cfg11 a).grid.N)
    || decide (∃ h : t.val + 1 < (cfg11 a).grid.N, ((cfg11 a).win 1).index ⟨t.val + 1, h⟩ ≠ ((cfg11 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg11 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg11 a).W) (t : Fin (cfg11 a).N) : (cfg11 a).idle w ((cfg11 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg11 a).N) :
    Scalar.cmpi .ne (Scalar.extui (Scalar.cmpi .eq (BitVec.ofNat 32 (((cfg11 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg11 a).N) (A : Vec F S1x256 .f32) (y : S1x256.Idx) :
    (((cfg11 a).win 0).blk t).view.read (Elt F) A y = A y := by
  show A ((((cfg11 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg11 a).N) (y : S128.Idx) :
    ((((cfg11 a).win 1).blk t).view.emb y (0 : Fin 1)).val = 128 * (t.val / 128) + (y 0).val := by
  have hi : ((cfg11 a).win 1).index t (0 : Fin 1) = t.val / 128 := by rw [index1]; rfl
  show ((cfg11 a).win 1).index t (0 : Fin 1) * 128 + 1 * (y 0).val = 128 * (t.val / 128) + (y 0).val
  rw [hi]; omega

end Cert.Proof.KI11

end
-- ==== Proof.KI11Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KI11Defs
import proofs.«414028_j29231547417249_2_alg».proof.Proof.Gen.KernelIdeal.Launch
import Idealize.ShloMosaic.Lib.Tactic

noncomputable section

namespace Cert.Proof.KI11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k11_pay2 j (k11_pay6 X18 X19 X20) (k11_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k11_pay2 j (k11_pay6 X18 X19 X20) (k11_pay7 X18 X19 X20)
              (m.view.readCov [⟨Rect.unit (s := S128) ![0] S128.size inb_S128_S128_0, k11_pay1 (F := F)⟩]
                (Rect.unit (s := S128) ![0] S128.size inb_S128_S128_0).toLoadRect)⟩,
          ⟨Rect.unit (s := S128) ![0] S128.size inb_S128_S128_0, k11_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid11.Coords) (M5 : Memref sig .tc .vmem S1x256 .f32) (h5 : M5.IsWhole) (M6 : Memref sig .tc .vmem S128 .f32) (h6 : M6.IsWhole)
    (hT : Bf (F := F) c (Memref.whole main_v39)) (tT : Bf (F := F) c (Memref.whole main_v40)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v39) hT ∗ pt c (Memref.whole main_v40) tT ∗ nodeSh c node
      ∗ (∃ s0, pt c (Memref.whole cc11_scratch0) s0) ∗ (∃ s1, pt c (Memref.whole cc11_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v39) hT ∗ pt c (Memref.whole main_v40) tT ∗ nodeSh c node
          ∗ (∃ s0, pt c (Memref.whole cc11_scratch0) s0) ∗ (∃ s1, pt c (Memref.whole cc11_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc11__lookup_kernel i (Memref.whole main_v39) (Memref.isWhole_whole _) (Memref.whole main_v40) (Memref.isWhole_whole _) (Memref.whole main_arg0) (Memref.isWhole_whole _)
          M5 h5 M6 h6 (Memref.whole cc11_scratch0) (Memref.isWhole_whole _) (Memref.whole cc11_scratch1) (Memref.isWhole_whole _) cc11_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid11.Coords) (M5 : Memref sig .tc .vmem S1x256 .f32) (h5 : M5.IsWhole) (M6 : Memref sig .tc .vmem S128 .f32) (h6 : M6.IsWhole)
    (hT : Bf (F := F) c (Memref.whole main_v39)) (tT : Bf (F := F) c (Memref.whole main_v40)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v39) hT ∗ pt c (Memref.whole main_v40) tT ∗ nodeSh c node
      ∗ (∃ s0, pt c (Memref.whole cc11_scratch0) s0) ∗ (∃ s1, pt c (Memref.whole cc11_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v39) hT ∗ pt c (Memref.whole main_v40) tT ∗ nodeSh c node
          ∗ (∃ s0, pt c (Memref.whole cc11_scratch0) s0) ∗ (∃ s1, pt c (Memref.whole cc11_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc11__lookup_kernel i (Memref.whole main_v39) (Memref.isWhole_whole _) (Memref.whole main_v40) (Memref.isWhole_whole _) (Memref.whole main_arg0) (Memref.isWhole_whole _)
          M5 h5 M6 h6 (Memref.whole cc11_scratch0) (Memref.isWhole_whole _) (Memref.whole cc11_scratch1) (Memref.isWhole_whole _) cc11_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KI11

end
-- ==== Proof.KI11Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KI11Data
import proofs.«414028_j29231547417249_2_alg».proof.Proof.KI11Points
import proofs.«414028_j29231547417249_2_alg».proof.Proof.KI11Body
import proofs.«414028_j29231547417249_2_alg».proof.Proof.Gen.KernelIdeal.Launch
import Idealize.ShloMosaic.Lib.Pipeline.Frame

noncomputable section

namespace Cert.Proof.KI11

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W11, bigSep_W11]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec11_0.stage ((cfgA m).slots t 0)) (hstage11_0 (((cfgA m).slots t 0).cast nbuf11_0))
      (spec11_1.stage ((cfgA m).slots t 1)) (hstage11_1 (((cfgA m).slots t 1).cast nbuf11_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec11_0.stage ((cfgA m).slots t 0)) (hstage11_0 (((cfgA m).slots t 0).cast nbuf11_0))
      (spec11_1.stage ((cfgA m).slots t 1)) (hstage11_1 (((cfgA m).slots t 1).cast nbuf11_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KI11

end
-- ==== Proof.KI11Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KIDats
import proofs.«414028_j29231547417249_2_alg».proof.Proof.KIThread
import proofs.«414028_j29231547417249_2_alg».proof.Proof.KI11Chains
import proofs.«414028_j29231547417249_2_alg».proof.Proof.KI11Oblig
import proofs.«414028_j29231547417249_2_alg».proof.Proof.Gen.KernelIdeal.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KI11

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 58 | 1 => .dma 59

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W11] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v39) (hTab m) ∗ pt c (Memref.whole main_v40) (tTab m))

/-- The invariant at the first point: the node table split into its shares, the tables, the two scratch rows out of the
    scoped rest. -/
theorem hin0 (c : Dev nD) :
    iprop(X0 m c ∗ Pipeline.prefHeld pre11 c (fun _ => fullShare) (Cert.Proof.KI.tbl11 m)
        ∗ Pipeline.scopedRest (Ix := Unit) (Name := ℕ) (U := UC) (Lvl := ℕ) (Val := Elt F) spec11 c)
      ⊢ Φv m c := by
  unfold Φv Pipeline.prefHeld
  rw [Gen.bigSep_W11, Gen.scopedRest11_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec11 c) := by
  unfold Φv
  rw [Gen.scopedRest11_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre11 spec11 \ {main_arg0}

theorem node_mem_rest : ({main_arg0} : Finset (Ref sig .tc)) ⊆ Pipeline.restRefsP sig pre11 spec11 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec11 c V : sProp 𝕄)
      = iprop(Pipeline.prefHeld pre11 c (fun _ => fullShare) (fun k => V (pre11.ref k))
          ∗ (((c : Thread nD τ).loc main_arg0) ↦{fullShare} V main_arg0)
          ∗ bigSep restZ fun b => ((c : Thread nD τ).loc b) ↦{fullShare} V b) := by
  rw [Pipeline.unscopedRest_split preFacts11 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v41) ↦{fullShare} V main_v41))
          ∗ ((((c : Thread nD τ).loc main_v39) ↦{fullShare} V main_v39) ∗ (((c : Thread nD τ).loc main_v40) ↦{fullShare} V main_v40))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts11.arr_unscoped winFacts11.arr_inj c, rest_split]
  unfold Pipeline.prefHeld
  rw [Gen.bigSep_W11, Gen.bigSep_W11]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v41) ↦{fullShare} G 1)) := by
  rw [Pipeline.arrays_eq (fun _ : Fin 1 => cfgA m) (fun _ c => dat0 m c) 0 c arr_whole11 ((dat0 m c).share_full fun _ => rfl) G, Gen.bigSep_W11]

/-- What bypasses the region: every other unscoped buffer, at its contents on entry. -/
abbrev Z0 (c : Dev nD) : sProp 𝕄 := bigSep restZ fun b => ((c : Thread nD τ).loc b) ↦{fullShare} V27 m (Cert.Proof.KI.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V27 m (Cert.Proof.KI.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre11 c (fun _ => fullShare) (Cert.Proof.KI.tbl11 m)
          ∗ (dat0 m c).owesAt () 0 ∗ X0 m c ∗ Z0 m c) := by
  rw [held_split m c (V27 m (Cert.Proof.KI.outs m) c), arrays_two, ent_arg0, ent_arg1, ent_out,
    show V27 m (Cert.Proof.KI.outs m) c main_v39 = hTab m from ent_tab m (Cert.Proof.KI.outs m) c 0, show V27 m (Cert.Proof.KI.outs m) c main_v40 = tTab m from ent_tab m (Cert.Proof.KI.outs m) c 1]
  unfold Pipeline.prefHeld
  rw [Gen.bigSep_W11]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v41)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V27 m (Cert.Proof.KI.outs m) c) main_v41 o)
          ∗ (∃ W, owes (c : Thread nD τ) (0 : CellTallies nD τ sig Unit) W)) := by
  have hne : ∀ b : Ref sig .tc, b ≠ main_v41 →
      Function.update (V27 m (Cert.Proof.KI.outs m) c) (Proc.devRef .tc main_v41) o (Proc.devRef .tc b) = V27 m (Cert.Proof.KI.outs m) c b :=
    fun b hb => Function.update_of_ne (StableHlo.devRef_ne_of_ne hb) _ _
  have hz : (bigSep restZ fun b => (((c : Thread nD τ).loc b) ↦{fullShare} Function.update (V27 m (Cert.Proof.KI.outs m) c) (Proc.devRef .tc main_v41) o b : sProp 𝕄))
      = Z0 m c :=
    BI.bigSep_congr fun b hb => by
      rw [hne b (fun e => by subst e; revert hb; decide)]
  rw [held_split m c (Function.update (V27 m (Cert.Proof.KI.outs m) c) main_v41 o), arrays_two, hz,
    hne main_arg1 (by decide), hne main_v39 (by decide), hne main_v40 (by decide), hne main_arg0 (by decide),
    Function.update_self, ent_arg0, ent_arg1,
    show V27 m (Cert.Proof.KI.outs m) c main_v39 = hTab m from ent_tab m (Cert.Proof.KI.outs m) c 0, show V27 m (Cert.Proof.KI.outs m) c main_v40 = tTab m from ent_tab m (Cert.Proof.KI.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec11 osem := by decide

/-- What region 0 leaves in the output's array, by name: the fold of its write-backs. -/
theorem outs6 (c : Dev nD) : Cert.Proof.KI.outs m 28 main_v41 c = (dat0 m c).arrAt 1 (cfgA m).N :=
  Pipeline.withArrays_arr spec11 winFacts11.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KI.adm m) (Cert.Proof.KI.pdats m) () defs₀ Variants.none
      Cert.Proof.KI.L Cert.Proof.KI.lv (11 : Fin 16) where
  win := (launch11 (F := F)).win.to₀
  block_pos := (launch11 (F := F)).block_pos
  stage_whole := (launch11 (F := F)).stage_whole
  K := Fin 2
  osem := osem
  ho := ownSemFacts
  hbody c := (body_obligation m hH hTl c).loose
  hwaits := Pipeline.hwaits_of_owed_zero _ _ _ _ Cert.Proof.KI.L Cert.Proof.KI.lv (11 : Fin 16) fun _ _ => rfl
  pre c := iprop(StableHlo.held (c : Thread nD τ) (Pipeline.ucRefs τ sig) (V27 m (Cert.Proof.KI.outs m) c) ∗ Cert.Proof.KI.E 11 c)
  post c := iprop(StableHlo.held (c : Thread nD τ) (Pipeline.ucRefs τ sig) (V28 m (Cert.Proof.KI.outs m) c) ∗ Cert.Proof.KI.E 12 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KI.outs m 28 main_v41 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V27 m (Cert.Proof.KI.outs m) c) ∗ Cert.Proof.KI.E 11 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V28 m (Cert.Proof.KI.outs m) c) ∗ Cert.Proof.KI.E 12 c) := .rfl

end Cert.Proof.KI11

end
-- ==== Proof.KI12Chains.lean ====
/-
  Region 12 is entered from the valuation after item 28 of @main. No earlier item writes the node table, the relation row,
  the region's output array or the padded index rows, and the region's two tables are the slices cut out of the padded
  rows at offset 786432: each buffer the region is handed holds a function of the launch memory alone.
-/
import proofs.«414028_j29231547417249_2_alg».proof.Proof.KIAdm
import Idealize.ShloMosaic.Lib.StableHlo.Run

set_option maxRecDepth 4096

noncomputable section

namespace Cert.Proof.KI12

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V29 m outs c main_arg0 = m ((c : Thread nD τ).loc main_arg0) :=
  (V29_of m outs c main_arg0 (by decide)).trans <| (V28_of m outs c main_arg0 (by decide)).trans <| (V27_of m outs c main_arg0 (by decide)).trans <| (V26_of m outs c main_arg0 (by decide)).trans <| (V25_of m outs c main_arg0 (by decide)).trans <| (V24_of m outs c main_arg0 (by decide)).trans <| (V23_of m outs c main_arg0 (by decide)).trans <| (V22_of m outs c main_arg0 (by decide)).trans <| (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V29 m outs c main_arg1 = m ((c : Thread nD τ).loc main_arg1) :=
  (V29_of m outs c main_arg1 (by decide)).trans <| (V28_of m outs c main_arg1 (by decide)).trans <| (V27_of m outs c main_arg1 (by decide)).trans <| (V26_of m outs c main_arg1 (by decide)).trans <| (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V29 m outs c main_v44 = m ((c : Thread nD τ).loc main_v44) :=
  (V29_of m outs c main_v44 (by decide)).trans <| (V28_of m outs c main_v44 (by decide)).trans <| (V27_of m outs c main_v44 (by decide)).trans <| (V26_of m outs c main_v44 (by decide)).trans <| (V25_of m outs c main_v44 (by decide)).trans <| (V24_of m outs c main_v44 (by decide)).trans <| (V23_of m outs c main_v44 (by decide)).trans <| (V22_of m outs c main_v44 (by decide)).trans <| (V21_of m outs c main_v44 (by decide)).trans <| (V20_of m outs c main_v44 (by decide)).trans <| (V19_of m outs c main_v44 (by decide)).trans <| (V18_of m outs c main_v44 (by decide)).trans <| (V17_of m outs c main_v44 (by decide)).trans <| (V16_of m outs c main_v44 (by decide)).trans <| (V15_of m outs c main_v44 (by decide)).trans <| (V14_of m outs c main_v44 (by decide)).trans <| (V13_of m outs c main_v44 (by decide)).trans <| (V12_of m outs c main_v44 (by decide)).trans <| (V11_of m outs c main_v44 (by decide)).trans <| (V10_of m outs c main_v44 (by decide)).trans <| (V9_of m outs c main_v44 (by decide)).trans <| (V8_of m outs c main_v44 (by decide)).trans <| (V7_of m outs c main_v44 (by decide)).trans <| (V6_of m outs c main_v44 (by decide)).trans <| (V5_of m c main_v44 (by decide)).trans <| (V4_of m c main_v44 (by decide)).trans <| (V3_of m c main_v44 (by decide)).trans <| (V2_of m c main_v44 (by decide)).trans <| (V1_of m c main_v44 (by decide)).trans <| rfl
/-- The stretch before the region cuts the table out of the padded row, whatever the valuation it runs from. -/
theorem slice_h (X : Valuation τ sig (Elt F)) :
    StableHlo.after (hostOps12 (F := F)) X (Proc.devRef .tc main_v42)
      = extractStridedSlice S65536 ![786432] (X (Proc.devRef .tc main_v4)) slices_S1048576_S65536_786432 := by
  after_results
/-- The stretch before the region cuts the table out of the padded row, whatever the valuation it runs from. -/
theorem slice_t (X : Valuation τ sig (Elt F)) :
    StableHlo.after (hostOps12 (F := F)) X (Proc.devRef .tc main_v43)
      = extractStridedSlice S65536 ![786432] (X (Proc.devRef .tc main_v5)) slices_S1048576_S65536_786432 := by
  after_results
theorem ent_tab0 (c : Dev nD) : V29 m outs c main_v42 = Cert.Proof.KI.tv12 m main_v42 := by
  obtain rfl : c = (0 : Dev nD) := Subsingleton.elim _ _
  have e : V28 m outs (0 : Dev nD) main_v4 = V5 m (0 : Dev nD) main_v4 :=
    (V28_of m outs (0 : Dev nD) main_v4 (by decide)).trans <| (V27_of m outs (0 : Dev nD) main_v4 (by decide)).trans <| (V26_of m outs (0 : Dev nD) main_v4 (by decide)).trans <| (V25_of m outs (0 : Dev nD) main_v4 (by decide)).trans <| (V24_of m outs (0 : Dev nD) main_v4 (by decide)).trans <| (V23_of m outs (0 : Dev nD) main_v4 (by decide)).trans <| (V22_of m outs (0 : Dev nD) main_v4 (by decide)).trans <| (V21_of m outs (0 : Dev nD) main_v4 (by decide)).trans <| (V20_of m outs (0 : Dev nD) main_v4 (by decide)).trans <| (V19_of m outs (0 : Dev nD) main_v4 (by decide)).trans <| (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V28 m outs (0 : Dev nD))).trans ((congrArg (extractStridedSlice S65536 ![786432] · slices_S1048576_S65536_786432) e).trans (slice_h (V5 m (0 : Dev nD))).symm)
theorem ent_tab1 (c : Dev nD) : V29 m outs c main_v43 = Cert.Proof.KI.tv12 m main_v43 := by
  obtain rfl : c = (0 : Dev nD) := Subsingleton.elim _ _
  have e : V28 m outs (0 : Dev nD) main_v5 = V5 m (0 : Dev nD) main_v5 :=
    (V28_of m outs (0 : Dev nD) main_v5 (by decide)).trans <| (V27_of m outs (0 : Dev nD) main_v5 (by decide)).trans <| (V26_of m outs (0 : Dev nD) main_v5 (by decide)).trans <| (V25_of m outs (0 : Dev nD) main_v5 (by decide)).trans <| (V24_of m outs (0 : Dev nD) main_v5 (by decide)).trans <| (V23_of m outs (0 : Dev nD) main_v5 (by decide)).trans <| (V22_of m outs (0 : Dev nD) main_v5 (by decide)).trans <| (V21_of m outs (0 : Dev nD) main_v5 (by decide)).trans <| (V20_of m outs (0 : Dev nD) main_v5 (by decide)).trans <| (V19_of m outs (0 : Dev nD) main_v5 (by decide)).trans <| (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V28 m outs (0 : Dev nD))).trans ((congrArg (extractStridedSlice S65536 ![786432] · slices_S1048576_S65536_786432) e).trans (slice_t (V5 m (0 : Dev nD))).symm)
theorem ent_tab (c : Dev nD) (k : Fin 2) : V29 m outs c (pre12.ref k) = Cert.Proof.KI.tbl12 m k :=
  match k with
  | ⟨0, _⟩ => ent_tab0 m outs c
  | ⟨1, _⟩ => ent_tab1 m outs c

end Cert.Proof.KI12

end
-- ==== Proof.KI12Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.KernelIdeal
import proofs.«414028_j29231547417249_2_alg».proof.Proof.Gen.KernelIdeal.Launch
import Idealize.ShloMosaic.Lib.Pipeline.Dat

noncomputable section

namespace Cert.Proof.KI12

open Cert.KernelIdeal Cert.KernelIdeal.Gen Idealize.ShloMosaic

variable {F : FTy → Type} [FloatOps F] (a : (pcfg12 (F := F)).Adm)

/-! ## The points and their coordinates -/

theorem N_eq : (cfg12 a).N = 65536 := N_12

theorem lt_N (t : Fin (cfg12 a).N) : t.val < 65536 := Nat.lt_of_lt_of_eq t.isLt (N_eq a)

/-- Each value of the first coordinate is shared by 128 consecutive points, each value of the second by one. -/
theorem stride0 : grid12.stride 0 = 128 := by decide
theorem stride1 : grid12.stride 1 = 1 := by decide

theorem coords0 (t : Fin (cfg12 a).N) : (((cfg12 a).grid.coords t) 0).val = t.val / 128 := by
  have ht := lt_N a t
  show t.val / grid12.stride 0 % 512 = t.val / 128
  rw [stride0]; omega

theorem coords1 (t : Fin (cfg12 a).N) : (((cfg12 a).grid.coords t) 1).val = t.val % 128 := by
  show t.val / grid12.stride 1 % 128 = t.val % 128
  rw [stride1, Nat.div_one]

theorem flat_eq (t : Fin (cfg12 a).N) :
    (((cfg12 a).grid.coords t) 0).val * 128 + (((cfg12 a).grid.coords t) 1).val = t.val := by
  rw [coords0, coords1]; omega

/-! ## The windows' block indices -/

/-- Window 0's block index is constant. -/
theorem index0 (s t : Fin (cfg12 a).N) : ((cfg12 a).win 0).index s = ((cfg12 a).win 0).index t := rfl

/-- Window 1's block index at a point is the point's first coordinate. -/
theorem index1 (s : Fin (cfg12 a).N) : ((cfg12 a).win 1).index s = ![s.val / 128] := by
  have hs := lt_N a s
  show ![(BitVec.ofNat 32 (((cfg12 a).grid.coords s) 0).val).toNat] = ![s.val / 128]
  rw [coords0 a s, BitVec.toNat_ofNat, Nat.mod_eq_of_lt (by omega)]

/-! ## Fetches and write-backs -/

theorem fetch0 (t : Fin (cfg12 a).N) : ((cfg12 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg12 a).N) : ((cfg12 a).win 1).fetch t = false := by
  unfold Pipeline.Window.fetch
  show (!true && _) = false
  rfl

theorem flush0 (t : Fin (cfg12 a).N) : ((cfg12 a).win 0).flush t = false := by
  unfold Pipeline.Window.flush
  show (false && _) = false
  rfl

theorem flush1 (t : Fin (cfg12 a).N) : ((cfg12 a).win 1).flush t = decide (t.val % 128 = 127) := by
  have ht := lt_N a t
  have hN : (cfg12 a).grid.N = 65536 := N_eq a
  unfold Pipeline.Window.flush
  show (true && (decide (t.val + 1 = (cfg12 a).grid.N)
    || decide (∃ h : t.val + 1 < (cfg12 a).grid.N, ((cfg12 a).win 1).index ⟨t.val + 1, h⟩ ≠ ((cfg12 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg12 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg12 a).W) (t : Fin (cfg12 a).N) : (cfg12 a).idle w ((cfg12 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg12 a).N) :
    Scalar.cmpi .ne (Scalar.extui (Scalar.cmpi .eq (BitVec.ofNat 32 (((cfg12 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg12 a).N) (A : Vec F S1x256 .f32) (y : S1x256.Idx) :
    (((cfg12 a).win 0).blk t).view.read (Elt F) A y = A y := by
  show A ((((cfg12 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg12 a).N) (y : S128.Idx) :
    ((((cfg12 a).win 1).blk t).view.emb y (0 : Fin 1)).val = 128 * (t.val / 128) + (y 0).val := by
  have hi : ((cfg12 a).win 1).index t (0 : Fin 1) = t.val / 128 := by rw [index1]; rfl
  show ((cfg12 a).win 1).index t (0 : Fin 1) * 128 + 1 * (y 0).val = 128 * (t.val / 128) + (y 0).val
  rw [hi]; omega

end Cert.Proof.KI12

end
-- ==== Proof.KI12Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KI12Defs
import proofs.«414028_j29231547417249_2_alg».proof.Proof.Gen.KernelIdeal.Launch
import Idealize.ShloMosaic.Lib.Tactic

noncomputable section

namespace Cert.Proof.KI12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k12_pay2 j (k12_pay6 X18 X19 X20) (k12_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k12_pay2 j (k12_pay6 X18 X19 X20) (k12_pay7 X18 X19 X20)
              (m.view.readCov [⟨Rect.unit (s := S128) ![0] S128.size inb_S128_S128_0, k12_pay1 (F := F)⟩]
                (Rect.unit (s := S128) ![0] S128.size inb_S128_S128_0).toLoadRect)⟩,
          ⟨Rect.unit (s := S128) ![0] S128.size inb_S128_S128_0, k12_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid12.Coords) (M5 : Memref sig .tc .vmem S1x256 .f32) (h5 : M5.IsWhole) (M6 : Memref sig .tc .vmem S128 .f32) (h6 : M6.IsWhole)
    (hT : Bf (F := F) c (Memref.whole main_v42)) (tT : Bf (F := F) c (Memref.whole main_v43)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v42) hT ∗ pt c (Memref.whole main_v43) tT ∗ nodeSh c node
      ∗ (∃ s0, pt c (Memref.whole cc12_scratch0) s0) ∗ (∃ s1, pt c (Memref.whole cc12_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v42) hT ∗ pt c (Memref.whole main_v43) tT ∗ nodeSh c node
          ∗ (∃ s0, pt c (Memref.whole cc12_scratch0) s0) ∗ (∃ s1, pt c (Memref.whole cc12_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc12__lookup_kernel i (Memref.whole main_v42) (Memref.isWhole_whole _) (Memref.whole main_v43) (Memref.isWhole_whole _) (Memref.whole main_arg0) (Memref.isWhole_whole _)
          M5 h5 M6 h6 (Memref.whole cc12_scratch0) (Memref.isWhole_whole _) (Memref.whole cc12_scratch1) (Memref.isWhole_whole _) cc12_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid12.Coords) (M5 : Memref sig .tc .vmem S1x256 .f32) (h5 : M5.IsWhole) (M6 : Memref sig .tc .vmem S128 .f32) (h6 : M6.IsWhole)
    (hT : Bf (F := F) c (Memref.whole main_v42)) (tT : Bf (F := F) c (Memref.whole main_v43)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v42) hT ∗ pt c (Memref.whole main_v43) tT ∗ nodeSh c node
      ∗ (∃ s0, pt c (Memref.whole cc12_scratch0) s0) ∗ (∃ s1, pt c (Memref.whole cc12_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v42) hT ∗ pt c (Memref.whole main_v43) tT ∗ nodeSh c node
          ∗ (∃ s0, pt c (Memref.whole cc12_scratch0) s0) ∗ (∃ s1, pt c (Memref.whole cc12_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc12__lookup_kernel i (Memref.whole main_v42) (Memref.isWhole_whole _) (Memref.whole main_v43) (Memref.isWhole_whole _) (Memref.whole main_arg0) (Memref.isWhole_whole _)
          M5 h5 M6 h6 (Memref.whole cc12_scratch0) (Memref.isWhole_whole _) (Memref.whole cc12_scratch1) (Memref.isWhole_whole _) cc12_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KI12

end
-- ==== Proof.KI12Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KI12Data
import proofs.«414028_j29231547417249_2_alg».proof.Proof.KI12Points
import proofs.«414028_j29231547417249_2_alg».proof.Proof.KI12Body
import proofs.«414028_j29231547417249_2_alg».proof.Proof.Gen.KernelIdeal.Launch
import Idealize.ShloMosaic.Lib.Pipeline.Frame

noncomputable section

namespace Cert.Proof.KI12

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W12, bigSep_W12]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec12_0.stage ((cfgA m).slots t 0)) (hstage12_0 (((cfgA m).slots t 0).cast nbuf12_0))
      (spec12_1.stage ((cfgA m).slots t 1)) (hstage12_1 (((cfgA m).slots t 1).cast nbuf12_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec12_0.stage ((cfgA m).slots t 0)) (hstage12_0 (((cfgA m).slots t 0).cast nbuf12_0))
      (spec12_1.stage ((cfgA m).slots t 1)) (hstage12_1 (((cfgA m).slots t 1).cast nbuf12_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KI12

end
-- ==== Proof.KI12Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KIDats
import proofs.«414028_j29231547417249_2_alg».proof.Proof.KIThread
import proofs.«414028_j29231547417249_2_alg».proof.Proof.KI12Chains
import proofs.«414028_j29231547417249_2_alg».proof.Proof.KI12Oblig
import proofs.«414028_j29231547417249_2_alg».proof.Proof.Gen.KernelIdeal.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KI12

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 63 | 1 => .dma 64

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W12] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v42) (hTab m) ∗ pt c (Memref.whole main_v43) (tTab m))

/-- The invariant at the first point: the node table split into its shares, the tables, the two scratch rows out of the
    scoped rest. -/
theorem hin0 (c : Dev nD) :
    iprop(X0 m c ∗ Pipeline.prefHeld pre12 c (fun _ => fullShare) (Cert.Proof.KI.tbl12 m)
        ∗ Pipeline.scopedRest (Ix := Unit) (Name := ℕ) (U := UC) (Lvl := ℕ) (Val := Elt F) spec12 c)
      ⊢ Φv m c := by
  unfold Φv Pipeline.prefHeld
  rw [Gen.bigSep_W12, Gen.scopedRest12_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec12 c) := by
  unfold Φv
  rw [Gen.scopedRest12_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre12 spec12 \ {main_arg0}

theorem node_mem_rest : ({main_arg0} : Finset (Ref sig .tc)) ⊆ Pipeline.restRefsP sig pre12 spec12 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec12 c V : sProp 𝕄)
      = iprop(Pipeline.prefHeld pre12 c (fun _ => fullShare) (fun k => V (pre12.ref k))
          ∗ (((c : Thread nD τ).loc main_arg0) ↦{fullShare} V main_arg0)
          ∗ bigSep restZ fun b => ((c : Thread nD τ).loc b) ↦{fullShare} V b) := by
  rw [Pipeline.unscopedRest_split preFacts12 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v44) ↦{fullShare} V main_v44))
          ∗ ((((c : Thread nD τ).loc main_v42) ↦{fullShare} V main_v42) ∗ (((c : Thread nD τ).loc main_v43) ↦{fullShare} V main_v43))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts12.arr_unscoped winFacts12.arr_inj c, rest_split]
  unfold Pipeline.prefHeld
  rw [Gen.bigSep_W12, Gen.bigSep_W12]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v44) ↦{fullShare} G 1)) := by
  rw [Pipeline.arrays_eq (fun _ : Fin 1 => cfgA m) (fun _ c => dat0 m c) 0 c arr_whole12 ((dat0 m c).share_full fun _ => rfl) G, Gen.bigSep_W12]

/-- What bypasses the region: every other unscoped buffer, at its contents on entry. -/
abbrev Z0 (c : Dev nD) : sProp 𝕄 := bigSep restZ fun b => ((c : Thread nD τ).loc b) ↦{fullShare} V29 m (Cert.Proof.KI.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V29 m (Cert.Proof.KI.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre12 c (fun _ => fullShare) (Cert.Proof.KI.tbl12 m)
          ∗ (dat0 m c).owesAt () 0 ∗ X0 m c ∗ Z0 m c) := by
  rw [held_split m c (V29 m (Cert.Proof.KI.outs m) c), arrays_two, ent_arg0, ent_arg1, ent_out,
    show V29 m (Cert.Proof.KI.outs m) c main_v42 = hTab m from ent_tab m (Cert.Proof.KI.outs m) c 0, show V29 m (Cert.Proof.KI.outs m) c main_v43 = tTab m from ent_tab m (Cert.Proof.KI.outs m) c 1]
  unfold Pipeline.prefHeld
  rw [Gen.bigSep_W12]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v44)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V29 m (Cert.Proof.KI.outs m) c) main_v44 o)
          ∗ (∃ W, owes (c : Thread nD τ) (0 : CellTallies nD τ sig Unit) W)) := by
  have hne : ∀ b : Ref sig .tc, b ≠ main_v44 →
      Function.update (V29 m (Cert.Proof.KI.outs m) c) (Proc.devRef .tc main_v44) o (Proc.devRef .tc b) = V29 m (Cert.Proof.KI.outs m) c b :=
    fun b hb => Function.update_of_ne (StableHlo.devRef_ne_of_ne hb) _ _
  have hz : (bigSep restZ fun b => (((c : Thread nD τ).loc b) ↦{fullShare} Function.update (V29 m (Cert.Proof.KI.outs m) c) (Proc.devRef .tc main_v44) o b : sProp 𝕄))
      = Z0 m c :=
    BI.bigSep_congr fun b hb => by
      rw [hne b (fun e => by subst e; revert hb; decide)]
  rw [held_split m c (Function.update (V29 m (Cert.Proof.KI.outs m) c) main_v44 o), arrays_two, hz,
    hne main_arg1 (by decide), hne main_v42 (by decide), hne main_v43 (by decide), hne main_arg0 (by decide),
    Function.update_self, ent_arg0, ent_arg1,
    show V29 m (Cert.Proof.KI.outs m) c main_v42 = hTab m from ent_tab m (Cert.Proof.KI.outs m) c 0, show V29 m (Cert.Proof.KI.outs m) c main_v43 = tTab m from ent_tab m (Cert.Proof.KI.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec12 osem := by decide

/-- What region 0 leaves in the output's array, by name: the fold of its write-backs. -/
theorem outs6 (c : Dev nD) : Cert.Proof.KI.outs m 30 main_v44 c = (dat0 m c).arrAt 1 (cfgA m).N :=
  Pipeline.withArrays_arr spec12 winFacts12.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KI.adm m) (Cert.Proof.KI.pdats m) () defs₀ Variants.none
      Cert.Proof.KI.L Cert.Proof.KI.lv (12 : Fin 16) where
  win := (launch12 (F := F)).win.to₀
  block_pos := (launch12 (F := F)).block_pos
  stage_whole := (launch12 (F := F)).stage_whole
  K := Fin 2
  osem := osem
  ho := ownSemFacts
  hbody c := (body_obligation m hH hTl c).loose
  hwaits := Pipeline.hwaits_of_owed_zero _ _ _ _ Cert.Proof.KI.L Cert.Proof.KI.lv (12 : Fin 16) fun _ _ => rfl
  pre c := iprop(StableHlo.held (c : Thread nD τ) (Pipeline.ucRefs τ sig) (V29 m (Cert.Proof.KI.outs m) c) ∗ Cert.Proof.KI.E 12 c)
  post c := iprop(StableHlo.held (c : Thread nD τ) (Pipeline.ucRefs τ sig) (V30 m (Cert.Proof.KI.outs m) c) ∗ Cert.Proof.KI.E 13 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KI.outs m 30 main_v44 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V29 m (Cert.Proof.KI.outs m) c) ∗ Cert.Proof.KI.E 12 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V30 m (Cert.Proof.KI.outs m) c) ∗ Cert.Proof.KI.E 13 c) := .rfl

end Cert.Proof.KI12

end
-- ==== Proof.KI13Chains.lean ====
/-
  Region 13 is entered from the valuation after item 30 of @main. No earlier item writes the node table, the relation row,
  the region's output array or the padded index rows, and the region's two tables are the slices cut out of the padded
  rows at offset 851968: each buffer the region is handed holds a function of the launch memory alone.
-/
import proofs.«414028_j29231547417249_2_alg».proof.Proof.KIAdm
import Idealize.ShloMosaic.Lib.StableHlo.Run

set_option maxRecDepth 4096

noncomputable section

namespace Cert.Proof.KI13

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V31 m outs c main_arg0 = m ((c : Thread nD τ).loc main_arg0) :=
  (V31_of m outs c main_arg0 (by decide)).trans <| (V30_of m outs c main_arg0 (by decide)).trans <| (V29_of m outs c main_arg0 (by decide)).trans <| (V28_of m outs c main_arg0 (by decide)).trans <| (V27_of m outs c main_arg0 (by decide)).trans <| (V26_of m outs c main_arg0 (by decide)).trans <| (V25_of m outs c main_arg0 (by decide)).trans <| (V24_of m outs c main_arg0 (by decide)).trans <| (V23_of m outs c main_arg0 (by decide)).trans <| (V22_of m outs c main_arg0 (by decide)).trans <| (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V31 m outs c main_arg1 = m ((c : Thread nD τ).loc main_arg1) :=
  (V31_of m outs c main_arg1 (by decide)).trans <| (V30_of m outs c main_arg1 (by decide)).trans <| (V29_of m outs c main_arg1 (by decide)).trans <| (V28_of m outs c main_arg1 (by decide)).trans <| (V27_of m outs c main_arg1 (by decide)).trans <| (V26_of m outs c main_arg1 (by decide)).trans <| (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V31 m outs c main_v47 = m ((c : Thread nD τ).loc main_v47) :=
  (V31_of m outs c main_v47 (by decide)).trans <| (V30_of m outs c main_v47 (by decide)).trans <| (V29_of m outs c main_v47 (by decide)).trans <| (V28_of m outs c main_v47 (by decide)).trans <| (V27_of m outs c main_v47 (by decide)).trans <| (V26_of m outs c main_v47 (by decide)).trans <| (V25_of m outs c main_v47 (by decide)).trans <| (V24_of m outs c main_v47 (by decide)).trans <| (V23_of m outs c main_v47 (by decide)).trans <| (V22_of m outs c main_v47 (by decide)).trans <| (V21_of m outs c main_v47 (by decide)).trans <| (V20_of m outs c main_v47 (by decide)).trans <| (V19_of m outs c main_v47 (by decide)).trans <| (V18_of m outs c main_v47 (by decide)).trans <| (V17_of m outs c main_v47 (by decide)).trans <| (V16_of m outs c main_v47 (by decide)).trans <| (V15_of m outs c main_v47 (by decide)).trans <| (V14_of m outs c main_v47 (by decide)).trans <| (V13_of m outs c main_v47 (by decide)).trans <| (V12_of m outs c main_v47 (by decide)).trans <| (V11_of m outs c main_v47 (by decide)).trans <| (V10_of m outs c main_v47 (by decide)).trans <| (V9_of m outs c main_v47 (by decide)).trans <| (V8_of m outs c main_v47 (by decide)).trans <| (V7_of m outs c main_v47 (by decide)).trans <| (V6_of m outs c main_v47 (by decide)).trans <| (V5_of m c main_v47 (by decide)).trans <| (V4_of m c main_v47 (by decide)).trans <| (V3_of m c main_v47 (by decide)).trans <| (V2_of m c main_v47 (by decide)).trans <| (V1_of m c main_v47 (by decide)).trans <| rfl
/-- The stretch before the region cuts the table out of the padded row, whatever the valuation it runs from. -/
theorem slice_h (X : Valuation τ sig (Elt F)) :
    StableHlo.after (hostOps13 (F := F)) X (Proc.devRef .tc main_v45)
      = extractStridedSlice S65536 ![851968] (X (Proc.devRef .tc main_v4)) slices_S1048576_S65536_851968 := by
  after_results
/-- The stretch before the region cuts the table out of the padded row, whatever the valuation it runs from. -/
theorem slice_t (X : Valuation τ sig (Elt F)) :
    StableHlo.after (hostOps13 (F := F)) X (Proc.devRef .tc main_v46)
      = extractStridedSlice S65536 ![851968] (X (Proc.devRef .tc main_v5)) slices_S1048576_S65536_851968 := by
  after_results
theorem ent_tab0 (c : Dev nD) : V31 m outs c main_v45 = Cert.Proof.KI.tv13 m main_v45 := by
  obtain rfl : c = (0 : Dev nD) := Subsingleton.elim _ _
  have e : V30 m outs (0 : Dev nD) main_v4 = V5 m (0 : Dev nD) main_v4 :=
    (V30_of m outs (0 : Dev nD) main_v4 (by decide)).trans <| (V29_of m outs (0 : Dev nD) main_v4 (by decide)).trans <| (V28_of m outs (0 : Dev nD) main_v4 (by decide)).trans <| (V27_of m outs (0 : Dev nD) main_v4 (by decide)).trans <| (V26_of m outs (0 : Dev nD) main_v4 (by decide)).trans <| (V25_of m outs (0 : Dev nD) main_v4 (by decide)).trans <| (V24_of m outs (0 : Dev nD) main_v4 (by decide)).trans <| (V23_of m outs (0 : Dev nD) main_v4 (by decide)).trans <| (V22_of m outs (0 : Dev nD) main_v4 (by decide)).trans <| (V21_of m outs (0 : Dev nD) main_v4 (by decide)).trans <| (V20_of m outs (0 : Dev nD) main_v4 (by decide)).trans <| (V19_of m outs (0 : Dev nD) main_v4 (by decide)).trans <| (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V30 m outs (0 : Dev nD))).trans ((congrArg (extractStridedSlice S65536 ![851968] · slices_S1048576_S65536_851968) e).trans (slice_h (V5 m (0 : Dev nD))).symm)
theorem ent_tab1 (c : Dev nD) : V31 m outs c main_v46 = Cert.Proof.KI.tv13 m main_v46 := by
  obtain rfl : c = (0 : Dev nD) := Subsingleton.elim _ _
  have e : V30 m outs (0 : Dev nD) main_v5 = V5 m (0 : Dev nD) main_v5 :=
    (V30_of m outs (0 : Dev nD) main_v5 (by decide)).trans <| (V29_of m outs (0 : Dev nD) main_v5 (by decide)).trans <| (V28_of m outs (0 : Dev nD) main_v5 (by decide)).trans <| (V27_of m outs (0 : Dev nD) main_v5 (by decide)).trans <| (V26_of m outs (0 : Dev nD) main_v5 (by decide)).trans <| (V25_of m outs (0 : Dev nD) main_v5 (by decide)).trans <| (V24_of m outs (0 : Dev nD) main_v5 (by decide)).trans <| (V23_of m outs (0 : Dev nD) main_v5 (by decide)).trans <| (V22_of m outs (0 : Dev nD) main_v5 (by decide)).trans <| (V21_of m outs (0 : Dev nD) main_v5 (by decide)).trans <| (V20_of m outs (0 : Dev nD) main_v5 (by decide)).trans <| (V19_of m outs (0 : Dev nD) main_v5 (by decide)).trans <| (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V30 m outs (0 : Dev nD))).trans ((congrArg (extractStridedSlice S65536 ![851968] · slices_S1048576_S65536_851968) e).trans (slice_t (V5 m (0 : Dev nD))).symm)
theorem ent_tab (c : Dev nD) (k : Fin 2) : V31 m outs c (pre13.ref k) = Cert.Proof.KI.tbl13 m k :=
  match k with
  | ⟨0, _⟩ => ent_tab0 m outs c
  | ⟨1, _⟩ => ent_tab1 m outs c

end Cert.Proof.KI13

end
-- ==== Proof.KI13Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.KernelIdeal
import proofs.«414028_j29231547417249_2_alg».proof.Proof.Gen.KernelIdeal.Launch
import Idealize.ShloMosaic.Lib.Pipeline.Dat

noncomputable section

namespace Cert.Proof.KI13

open Cert.KernelIdeal Cert.KernelIdeal.Gen Idealize.ShloMosaic

variable {F : FTy → Type} [FloatOps F] (a : (pcfg13 (F := F)).Adm)

/-! ## The points and their coordinates -/

theorem N_eq : (cfg13 a).N = 65536 := N_13

theorem lt_N (t : Fin (cfg13 a).N) : t.val < 65536 := Nat.lt_of_lt_of_eq t.isLt (N_eq a)

/-- Each value of the first coordinate is shared by 128 consecutive points, each value of the second by one. -/
theorem stride0 : grid13.stride 0 = 128 := by decide
theorem stride1 : grid13.stride 1 = 1 := by decide

theorem coords0 (t : Fin (cfg13 a).N) : (((cfg13 a).grid.coords t) 0).val = t.val / 128 := by
  have ht := lt_N a t
  show t.val / grid13.stride 0 % 512 = t.val / 128
  rw [stride0]; omega

theorem coords1 (t : Fin (cfg13 a).N) : (((cfg13 a).grid.coords t) 1).val = t.val % 128 := by
  show t.val / grid13.stride 1 % 128 = t.val % 128
  rw [stride1, Nat.div_one]

theorem flat_eq (t : Fin (cfg13 a).N) :
    (((cfg13 a).grid.coords t) 0).val * 128 + (((cfg13 a).grid.coords t) 1).val = t.val := by
  rw [coords0, coords1]; omega

/-! ## The windows' block indices -/

/-- Window 0's block index is constant. -/
theorem index0 (s t : Fin (cfg13 a).N) : ((cfg13 a).win 0).index s = ((cfg13 a).win 0).index t := rfl

/-- Window 1's block index at a point is the point's first coordinate. -/
theorem index1 (s : Fin (cfg13 a).N) : ((cfg13 a).win 1).index s = ![s.val / 128] := by
  have hs := lt_N a s
  show ![(BitVec.ofNat 32 (((cfg13 a).grid.coords s) 0).val).toNat] = ![s.val / 128]
  rw [coords0 a s, BitVec.toNat_ofNat, Nat.mod_eq_of_lt (by omega)]

/-! ## Fetches and write-backs -/

theorem fetch0 (t : Fin (cfg13 a).N) : ((cfg13 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg13 a).N) : ((cfg13 a).win 1).fetch t = false := by
  unfold Pipeline.Window.fetch
  show (!true && _) = false
  rfl

theorem flush0 (t : Fin (cfg13 a).N) : ((cfg13 a).win 0).flush t = false := by
  unfold Pipeline.Window.flush
  show (false && _) = false
  rfl

theorem flush1 (t : Fin (cfg13 a).N) : ((cfg13 a).win 1).flush t = decide (t.val % 128 = 127) := by
  have ht := lt_N a t
  have hN : (cfg13 a).grid.N = 65536 := N_eq a
  unfold Pipeline.Window.flush
  show (true && (decide (t.val + 1 = (cfg13 a).grid.N)
    || decide (∃ h : t.val + 1 < (cfg13 a).grid.N, ((cfg13 a).win 1).index ⟨t.val + 1, h⟩ ≠ ((cfg13 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg13 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg13 a).W) (t : Fin (cfg13 a).N) : (cfg13 a).idle w ((cfg13 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg13 a).N) :
    Scalar.cmpi .ne (Scalar.extui (Scalar.cmpi .eq (BitVec.ofNat 32 (((cfg13 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg13 a).N) (A : Vec F S1x256 .f32) (y : S1x256.Idx) :
    (((cfg13 a).win 0).blk t).view.read (Elt F) A y = A y := by
  show A ((((cfg13 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg13 a).N) (y : S128.Idx) :
    ((((cfg13 a).win 1).blk t).view.emb y (0 : Fin 1)).val = 128 * (t.val / 128) + (y 0).val := by
  have hi : ((cfg13 a).win 1).index t (0 : Fin 1) = t.val / 128 := by rw [index1]; rfl
  show ((cfg13 a).win 1).index t (0 : Fin 1) * 128 + 1 * (y 0).val = 128 * (t.val / 128) + (y 0).val
  rw [hi]; omega

end Cert.Proof.KI13

end
-- ==== Proof.KI13Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KI13Defs
import proofs.«414028_j29231547417249_2_alg».proof.Proof.Gen.KernelIdeal.Launch
import Idealize.ShloMosaic.Lib.Tactic

noncomputable section

namespace Cert.Proof.KI13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k13_pay2 j (k13_pay6 X18 X19 X20) (k13_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k13_pay2 j (k13_pay6 X18 X19 X20) (k13_pay7 X18 X19 X20)
              (m.view.readCov [⟨Rect.unit (s := S128) ![0] S128.size inb_S128_S128_0, k13_pay1 (F := F)⟩]
                (Rect.unit (s := S128) ![0] S128.size inb_S128_S128_0).toLoadRect)⟩,
          ⟨Rect.unit (s := S128) ![0] S128.size inb_S128_S128_0, k13_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid13.Coords) (M5 : Memref sig .tc .vmem S1x256 .f32) (h5 : M5.IsWhole) (M6 : Memref sig .tc .vmem S128 .f32) (h6 : M6.IsWhole)
    (hT : Bf (F := F) c (Memref.whole main_v45)) (tT : Bf (F := F) c (Memref.whole main_v46)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v45) hT ∗ pt c (Memref.whole main_v46) tT ∗ nodeSh c node
      ∗ (∃ s0, pt c (Memref.whole cc13_scratch0) s0) ∗ (∃ s1, pt c (Memref.whole cc13_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v45) hT ∗ pt c (Memref.whole main_v46) tT ∗ nodeSh c node
          ∗ (∃ s0, pt c (Memref.whole cc13_scratch0) s0) ∗ (∃ s1, pt c (Memref.whole cc13_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc13__lookup_kernel i (Memref.whole main_v45) (Memref.isWhole_whole _) (Memref.whole main_v46) (Memref.isWhole_whole _) (Memref.whole main_arg0) (Memref.isWhole_whole _)
          M5 h5 M6 h6 (Memref.whole cc13_scratch0) (Memref.isWhole_whole _) (Memref.whole cc13_scratch1) (Memref.isWhole_whole _) cc13_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid13.Coords) (M5 : Memref sig .tc .vmem S1x256 .f32) (h5 : M5.IsWhole) (M6 : Memref sig .tc .vmem S128 .f32) (h6 : M6.IsWhole)
    (hT : Bf (F := F) c (Memref.whole main_v45)) (tT : Bf (F := F) c (Memref.whole main_v46)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v45) hT ∗ pt c (Memref.whole main_v46) tT ∗ nodeSh c node
      ∗ (∃ s0, pt c (Memref.whole cc13_scratch0) s0) ∗ (∃ s1, pt c (Memref.whole cc13_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v45) hT ∗ pt c (Memref.whole main_v46) tT ∗ nodeSh c node
          ∗ (∃ s0, pt c (Memref.whole cc13_scratch0) s0) ∗ (∃ s1, pt c (Memref.whole cc13_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc13__lookup_kernel i (Memref.whole main_v45) (Memref.isWhole_whole _) (Memref.whole main_v46) (Memref.isWhole_whole _) (Memref.whole main_arg0) (Memref.isWhole_whole _)
          M5 h5 M6 h6 (Memref.whole cc13_scratch0) (Memref.isWhole_whole _) (Memref.whole cc13_scratch1) (Memref.isWhole_whole _) cc13_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KI13

end
-- ==== Proof.KI13Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KI13Data
import proofs.«414028_j29231547417249_2_alg».proof.Proof.KI13Points
import proofs.«414028_j29231547417249_2_alg».proof.Proof.KI13Body
import proofs.«414028_j29231547417249_2_alg».proof.Proof.Gen.KernelIdeal.Launch
import Idealize.ShloMosaic.Lib.Pipeline.Frame

noncomputable section

namespace Cert.Proof.KI13

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W13, bigSep_W13]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec13_0.stage ((cfgA m).slots t 0)) (hstage13_0 (((cfgA m).slots t 0).cast nbuf13_0))
      (spec13_1.stage ((cfgA m).slots t 1)) (hstage13_1 (((cfgA m).slots t 1).cast nbuf13_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec13_0.stage ((cfgA m).slots t 0)) (hstage13_0 (((cfgA m).slots t 0).cast nbuf13_0))
      (spec13_1.stage ((cfgA m).slots t 1)) (hstage13_1 (((cfgA m).slots t 1).cast nbuf13_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KI13

end
-- ==== Proof.KI13Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KIDats
import proofs.«414028_j29231547417249_2_alg».proof.Proof.KIThread
import proofs.«414028_j29231547417249_2_alg».proof.Proof.KI13Chains
import proofs.«414028_j29231547417249_2_alg».proof.Proof.KI13Oblig
import proofs.«414028_j29231547417249_2_alg».proof.Proof.Gen.KernelIdeal.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KI13

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 68 | 1 => .dma 69

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W13] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v45) (hTab m) ∗ pt c (Memref.whole main_v46) (tTab m))

/-- The invariant at the first point: the node table split into its shares, the tables, the two scratch rows out of the
    scoped rest. -/
theorem hin0 (c : Dev nD) :
    iprop(X0 m c ∗ Pipeline.prefHeld pre13 c (fun _ => fullShare) (Cert.Proof.KI.tbl13 m)
        ∗ Pipeline.scopedRest (Ix := Unit) (Name := ℕ) (U := UC) (Lvl := ℕ) (Val := Elt F) spec13 c)
      ⊢ Φv m c := by
  unfold Φv Pipeline.prefHeld
  rw [Gen.bigSep_W13, Gen.scopedRest13_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec13 c) := by
  unfold Φv
  rw [Gen.scopedRest13_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre13 spec13 \ {main_arg0}

theorem node_mem_rest : ({main_arg0} : Finset (Ref sig .tc)) ⊆ Pipeline.restRefsP sig pre13 spec13 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec13 c V : sProp 𝕄)
      = iprop(Pipeline.prefHeld pre13 c (fun _ => fullShare) (fun k => V (pre13.ref k))
          ∗ (((c : Thread nD τ).loc main_arg0) ↦{fullShare} V main_arg0)
          ∗ bigSep restZ fun b => ((c : Thread nD τ).loc b) ↦{fullShare} V b) := by
  rw [Pipeline.unscopedRest_split preFacts13 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v47) ↦{fullShare} V main_v47))
          ∗ ((((c : Thread nD τ).loc main_v45) ↦{fullShare} V main_v45) ∗ (((c : Thread nD τ).loc main_v46) ↦{fullShare} V main_v46))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts13.arr_unscoped winFacts13.arr_inj c, rest_split]
  unfold Pipeline.prefHeld
  rw [Gen.bigSep_W13, Gen.bigSep_W13]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v47) ↦{fullShare} G 1)) := by
  rw [Pipeline.arrays_eq (fun _ : Fin 1 => cfgA m) (fun _ c => dat0 m c) 0 c arr_whole13 ((dat0 m c).share_full fun _ => rfl) G, Gen.bigSep_W13]

/-- What bypasses the region: every other unscoped buffer, at its contents on entry. -/
abbrev Z0 (c : Dev nD) : sProp 𝕄 := bigSep restZ fun b => ((c : Thread nD τ).loc b) ↦{fullShare} V31 m (Cert.Proof.KI.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V31 m (Cert.Proof.KI.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre13 c (fun _ => fullShare) (Cert.Proof.KI.tbl13 m)
          ∗ (dat0 m c).owesAt () 0 ∗ X0 m c ∗ Z0 m c) := by
  rw [held_split m c (V31 m (Cert.Proof.KI.outs m) c), arrays_two, ent_arg0, ent_arg1, ent_out,
    show V31 m (Cert.Proof.KI.outs m) c main_v45 = hTab m from ent_tab m (Cert.Proof.KI.outs m) c 0, show V31 m (Cert.Proof.KI.outs m) c main_v46 = tTab m from ent_tab m (Cert.Proof.KI.outs m) c 1]
  unfold Pipeline.prefHeld
  rw [Gen.bigSep_W13]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v47)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V31 m (Cert.Proof.KI.outs m) c) main_v47 o)
          ∗ (∃ W, owes (c : Thread nD τ) (0 : CellTallies nD τ sig Unit) W)) := by
  have hne : ∀ b : Ref sig .tc, b ≠ main_v47 →
      Function.update (V31 m (Cert.Proof.KI.outs m) c) (Proc.devRef .tc main_v47) o (Proc.devRef .tc b) = V31 m (Cert.Proof.KI.outs m) c b :=
    fun b hb => Function.update_of_ne (StableHlo.devRef_ne_of_ne hb) _ _
  have hz : (bigSep restZ fun b => (((c : Thread nD τ).loc b) ↦{fullShare} Function.update (V31 m (Cert.Proof.KI.outs m) c) (Proc.devRef .tc main_v47) o b : sProp 𝕄))
      = Z0 m c :=
    BI.bigSep_congr fun b hb => by
      rw [hne b (fun e => by subst e; revert hb; decide)]
  rw [held_split m c (Function.update (V31 m (Cert.Proof.KI.outs m) c) main_v47 o), arrays_two, hz,
    hne main_arg1 (by decide), hne main_v45 (by decide), hne main_v46 (by decide), hne main_arg0 (by decide),
    Function.update_self, ent_arg0, ent_arg1,
    show V31 m (Cert.Proof.KI.outs m) c main_v45 = hTab m from ent_tab m (Cert.Proof.KI.outs m) c 0, show V31 m (Cert.Proof.KI.outs m) c main_v46 = tTab m from ent_tab m (Cert.Proof.KI.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec13 osem := by decide

/-- What region 0 leaves in the output's array, by name: the fold of its write-backs. -/
theorem outs6 (c : Dev nD) : Cert.Proof.KI.outs m 32 main_v47 c = (dat0 m c).arrAt 1 (cfgA m).N :=
  Pipeline.withArrays_arr spec13 winFacts13.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KI.adm m) (Cert.Proof.KI.pdats m) () defs₀ Variants.none
      Cert.Proof.KI.L Cert.Proof.KI.lv (13 : Fin 16) where
  win := (launch13 (F := F)).win.to₀
  block_pos := (launch13 (F := F)).block_pos
  stage_whole := (launch13 (F := F)).stage_whole
  K := Fin 2
  osem := osem
  ho := ownSemFacts
  hbody c := (body_obligation m hH hTl c).loose
  hwaits := Pipeline.hwaits_of_owed_zero _ _ _ _ Cert.Proof.KI.L Cert.Proof.KI.lv (13 : Fin 16) fun _ _ => rfl
  pre c := iprop(StableHlo.held (c : Thread nD τ) (Pipeline.ucRefs τ sig) (V31 m (Cert.Proof.KI.outs m) c) ∗ Cert.Proof.KI.E 13 c)
  post c := iprop(StableHlo.held (c : Thread nD τ) (Pipeline.ucRefs τ sig) (V32 m (Cert.Proof.KI.outs m) c) ∗ Cert.Proof.KI.E 14 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KI.outs m 32 main_v47 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V31 m (Cert.Proof.KI.outs m) c) ∗ Cert.Proof.KI.E 13 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V32 m (Cert.Proof.KI.outs m) c) ∗ Cert.Proof.KI.E 14 c) := .rfl

end Cert.Proof.KI13

end
-- ==== Proof.KI14Chains.lean ====
/-
  Region 14 is entered from the valuation after item 32 of @main. No earlier item writes the node table, the relation row,
  the region's output array or the padded index rows, and the region's two tables are the slices cut out of the padded
  rows at offset 917504: each buffer the region is handed holds a function of the launch memory alone.
-/
import proofs.«414028_j29231547417249_2_alg».proof.Proof.KIAdm
import Idealize.ShloMosaic.Lib.StableHlo.Run

set_option maxRecDepth 4096

noncomputable section

namespace Cert.Proof.KI14

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V33 m outs c main_arg0 = m ((c : Thread nD τ).loc main_arg0) :=
  (V33_of m outs c main_arg0 (by decide)).trans <| (V32_of m outs c main_arg0 (by decide)).trans <| (V31_of m outs c main_arg0 (by decide)).trans <| (V30_of m outs c main_arg0 (by decide)).trans <| (V29_of m outs c main_arg0 (by decide)).trans <| (V28_of m outs c main_arg0 (by decide)).trans <| (V27_of m outs c main_arg0 (by decide)).trans <| (V26_of m outs c main_arg0 (by decide)).trans <| (V25_of m outs c main_arg0 (by decide)).trans <| (V24_of m outs c main_arg0 (by decide)).trans <| (V23_of m outs c main_arg0 (by decide)).trans <| (V22_of m outs c main_arg0 (by decide)).trans <| (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V33 m outs c main_arg1 = m ((c : Thread nD τ).loc main_arg1) :=
  (V33_of m outs c main_arg1 (by decide)).trans <| (V32_of m outs c main_arg1 (by decide)).trans <| (V31_of m outs c main_arg1 (by decide)).trans <| (V30_of m outs c main_arg1 (by decide)).trans <| (V29_of m outs c main_arg1 (by decide)).trans <| (V28_of m outs c main_arg1 (by decide)).trans <| (V27_of m outs c main_arg1 (by decide)).trans <| (V26_of m outs c main_arg1 (by decide)).trans <| (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V33 m outs c main_v50 = m ((c : Thread nD τ).loc main_v50) :=
  (V33_of m outs c main_v50 (by decide)).trans <| (V32_of m outs c main_v50 (by decide)).trans <| (V31_of m outs c main_v50 (by decide)).trans <| (V30_of m outs c main_v50 (by decide)).trans <| (V29_of m outs c main_v50 (by decide)).trans <| (V28_of m outs c main_v50 (by decide)).trans <| (V27_of m outs c main_v50 (by decide)).trans <| (V26_of m outs c main_v50 (by decide)).trans <| (V25_of m outs c main_v50 (by decide)).trans <| (V24_of m outs c main_v50 (by decide)).trans <| (V23_of m outs c main_v50 (by decide)).trans <| (V22_of m outs c main_v50 (by decide)).trans <| (V21_of m outs c main_v50 (by decide)).trans <| (V20_of m outs c main_v50 (by decide)).trans <| (V19_of m outs c main_v50 (by decide)).trans <| (V18_of m outs c main_v50 (by decide)).trans <| (V17_of m outs c main_v50 (by decide)).trans <| (V16_of m outs c main_v50 (by decide)).trans <| (V15_of m outs c main_v50 (by decide)).trans <| (V14_of m outs c main_v50 (by decide)).trans <| (V13_of m outs c main_v50 (by decide)).trans <| (V12_of m outs c main_v50 (by decide)).trans <| (V11_of m outs c main_v50 (by decide)).trans <| (V10_of m outs c main_v50 (by decide)).trans <| (V9_of m outs c main_v50 (by decide)).trans <| (V8_of m outs c main_v50 (by decide)).trans <| (V7_of m outs c main_v50 (by decide)).trans <| (V6_of m outs c main_v50 (by decide)).trans <| (V5_of m c main_v50 (by decide)).trans <| (V4_of m c main_v50 (by decide)).trans <| (V3_of m c main_v50 (by decide)).trans <| (V2_of m c main_v50 (by decide)).trans <| (V1_of m c main_v50 (by decide)).trans <| rfl
/-- The stretch before the region cuts the table out of the padded row, whatever the valuation it runs from. -/
theorem slice_h (X : Valuation τ sig (Elt F)) :
    StableHlo.after (hostOps14 (F := F)) X (Proc.devRef .tc main_v48)
      = extractStridedSlice S65536 ![917504] (X (Proc.devRef .tc main_v4)) slices_S1048576_S65536_917504 := by
  after_results
/-- The stretch before the region cuts the table out of the padded row, whatever the valuation it runs from. -/
theorem slice_t (X : Valuation τ sig (Elt F)) :
    StableHlo.after (hostOps14 (F := F)) X (Proc.devRef .tc main_v49)
      = extractStridedSlice S65536 ![917504] (X (Proc.devRef .tc main_v5)) slices_S1048576_S65536_917504 := by
  after_results
theorem ent_tab0 (c : Dev nD) : V33 m outs c main_v48 = Cert.Proof.KI.tv14 m main_v48 := by
  obtain rfl : c = (0 : Dev nD) := Subsingleton.elim _ _
  have e : V32 m outs (0 : Dev nD) main_v4 = V5 m (0 : Dev nD) main_v4 :=
    (V32_of m outs (0 : Dev nD) main_v4 (by decide)).trans <| (V31_of m outs (0 : Dev nD) main_v4 (by decide)).trans <| (V30_of m outs (0 : Dev nD) main_v4 (by decide)).trans <| (V29_of m outs (0 : Dev nD) main_v4 (by decide)).trans <| (V28_of m outs (0 : Dev nD) main_v4 (by decide)).trans <| (V27_of m outs (0 : Dev nD) main_v4 (by decide)).trans <| (V26_of m outs (0 : Dev nD) main_v4 (by decide)).trans <| (V25_of m outs (0 : Dev nD) main_v4 (by decide)).trans <| (V24_of m outs (0 : Dev nD) main_v4 (by decide)).trans <| (V23_of m outs (0 : Dev nD) main_v4 (by decide)).trans <| (V22_of m outs (0 : Dev nD) main_v4 (by decide)).trans <| (V21_of m outs (0 : Dev nD) main_v4 (by decide)).trans <| (V20_of m outs (0 : Dev nD) main_v4 (by decide)).trans <| (V19_of m outs (0 : Dev nD) main_v4 (by decide)).trans <| (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V32 m outs (0 : Dev nD))).trans ((congrArg (extractStridedSlice S65536 ![917504] · slices_S1048576_S65536_917504) e).trans (slice_h (V5 m (0 : Dev nD))).symm)
theorem ent_tab1 (c : Dev nD) : V33 m outs c main_v49 = Cert.Proof.KI.tv14 m main_v49 := by
  obtain rfl : c = (0 : Dev nD) := Subsingleton.elim _ _
  have e : V32 m outs (0 : Dev nD) main_v5 = V5 m (0 : Dev nD) main_v5 :=
    (V32_of m outs (0 : Dev nD) main_v5 (by decide)).trans <| (V31_of m outs (0 : Dev nD) main_v5 (by decide)).trans <| (V30_of m outs (0 : Dev nD) main_v5 (by decide)).trans <| (V29_of m outs (0 : Dev nD) main_v5 (by decide)).trans <| (V28_of m outs (0 : Dev nD) main_v5 (by decide)).trans <| (V27_of m outs (0 : Dev nD) main_v5 (by decide)).trans <| (V26_of m outs (0 : Dev nD) main_v5 (by decide)).trans <| (V25_of m outs (0 : Dev nD) main_v5 (by decide)).trans <| (V24_of m outs (0 : Dev nD) main_v5 (by decide)).trans <| (V23_of m outs (0 : Dev nD) main_v5 (by decide)).trans <| (V22_of m outs (0 : Dev nD) main_v5 (by decide)).trans <| (V21_of m outs (0 : Dev nD) main_v5 (by decide)).trans <| (V20_of m outs (0 : Dev nD) main_v5 (by decide)).trans <| (V19_of m outs (0 : Dev nD) main_v5 (by decide)).trans <| (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V32 m outs (0 : Dev nD))).trans ((congrArg (extractStridedSlice S65536 ![917504] · slices_S1048576_S65536_917504) e).trans (slice_t (V5 m (0 : Dev nD))).symm)
theorem ent_tab (c : Dev nD) (k : Fin 2) : V33 m outs c (pre14.ref k) = Cert.Proof.KI.tbl14 m k :=
  match k with
  | ⟨0, _⟩ => ent_tab0 m outs c
  | ⟨1, _⟩ => ent_tab1 m outs c

end Cert.Proof.KI14

end
-- ==== Proof.KI14Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.KernelIdeal
import proofs.«414028_j29231547417249_2_alg».proof.Proof.Gen.KernelIdeal.Launch
import Idealize.ShloMosaic.Lib.Pipeline.Dat

noncomputable section

namespace Cert.Proof.KI14

open Cert.KernelIdeal Cert.KernelIdeal.Gen Idealize.ShloMosaic

variable {F : FTy → Type} [FloatOps F] (a : (pcfg14 (F := F)).Adm)

/-! ## The points and their coordinates -/

theorem N_eq : (cfg14 a).N = 65536 := N_14

theorem lt_N (t : Fin (cfg14 a).N) : t.val < 65536 := Nat.lt_of_lt_of_eq t.isLt (N_eq a)

/-- Each value of the first coordinate is shared by 128 consecutive points, each value of the second by one. -/
theorem stride0 : grid14.stride 0 = 128 := by decide
theorem stride1 : grid14.stride 1 = 1 := by decide

theorem coords0 (t : Fin (cfg14 a).N) : (((cfg14 a).grid.coords t) 0).val = t.val / 128 := by
  have ht := lt_N a t
  show t.val / grid14.stride 0 % 512 = t.val / 128
  rw [stride0]; omega

theorem coords1 (t : Fin (cfg14 a).N) : (((cfg14 a).grid.coords t) 1).val = t.val % 128 := by
  show t.val / grid14.stride 1 % 128 = t.val % 128
  rw [stride1, Nat.div_one]

theorem flat_eq (t : Fin (cfg14 a).N) :
    (((cfg14 a).grid.coords t) 0).val * 128 + (((cfg14 a).grid.coords t) 1).val = t.val := by
  rw [coords0, coords1]; omega

/-! ## The windows' block indices -/

/-- Window 0's block index is constant. -/
theorem index0 (s t : Fin (cfg14 a).N) : ((cfg14 a).win 0).index s = ((cfg14 a).win 0).index t := rfl

/-- Window 1's block index at a point is the point's first coordinate. -/
theorem index1 (s : Fin (cfg14 a).N) : ((cfg14 a).win 1).index s = ![s.val / 128] := by
  have hs := lt_N a s
  show ![(BitVec.ofNat 32 (((cfg14 a).grid.coords s) 0).val).toNat] = ![s.val / 128]
  rw [coords0 a s, BitVec.toNat_ofNat, Nat.mod_eq_of_lt (by omega)]

/-! ## Fetches and write-backs -/

theorem fetch0 (t : Fin (cfg14 a).N) : ((cfg14 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg14 a).N) : ((cfg14 a).win 1).fetch t = false := by
  unfold Pipeline.Window.fetch
  show (!true && _) = false
  rfl

theorem flush0 (t : Fin (cfg14 a).N) : ((cfg14 a).win 0).flush t = false := by
  unfold Pipeline.Window.flush
  show (false && _) = false
  rfl

theorem flush1 (t : Fin (cfg14 a).N) : ((cfg14 a).win 1).flush t = decide (t.val % 128 = 127) := by
  have ht := lt_N a t
  have hN : (cfg14 a).grid.N = 65536 := N_eq a
  unfold Pipeline.Window.flush
  show (true && (decide (t.val + 1 = (cfg14 a).grid.N)
    || decide (∃ h : t.val + 1 < (cfg14 a).grid.N, ((cfg14 a).win 1).index ⟨t.val + 1, h⟩ ≠ ((cfg14 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg14 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg14 a).W) (t : Fin (cfg14 a).N) : (cfg14 a).idle w ((cfg14 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg14 a).N) :
    Scalar.cmpi .ne (Scalar.extui (Scalar.cmpi .eq (BitVec.ofNat 32 (((cfg14 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg14 a).N) (A : Vec F S1x256 .f32) (y : S1x256.Idx) :
    (((cfg14 a).win 0).blk t).view.read (Elt F) A y = A y := by
  show A ((((cfg14 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg14 a).N) (y : S128.Idx) :
    ((((cfg14 a).win 1).blk t).view.emb y (0 : Fin 1)).val = 128 * (t.val / 128) + (y 0).val := by
  have hi : ((cfg14 a).win 1).index t (0 : Fin 1) = t.val / 128 := by rw [index1]; rfl
  show ((cfg14 a).win 1).index t (0 : Fin 1) * 128 + 1 * (y 0).val = 128 * (t.val / 128) + (y 0).val
  rw [hi]; omega

end Cert.Proof.KI14

end
-- ==== Proof.KI14Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KI14Defs
import proofs.«414028_j29231547417249_2_alg».proof.Proof.Gen.KernelIdeal.Launch
import Idealize.ShloMosaic.Lib.Tactic

noncomputable section

namespace Cert.Proof.KI14

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k14_pay2 j (k14_pay6 X18 X19 X20) (k14_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k14_pay2 j (k14_pay6 X18 X19 X20) (k14_pay7 X18 X19 X20)
              (m.view.readCov [⟨Rect.unit (s := S128) ![0] S128.size inb_S128_S128_0, k14_pay1 (F := F)⟩]
                (Rect.unit (s := S128) ![0] S128.size inb_S128_S128_0).toLoadRect)⟩,
          ⟨Rect.unit (s := S128) ![0] S128.size inb_S128_S128_0, k14_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid14.Coords) (M5 : Memref sig .tc .vmem S1x256 .f32) (h5 : M5.IsWhole) (M6 : Memref sig .tc .vmem S128 .f32) (h6 : M6.IsWhole)
    (hT : Bf (F := F) c (Memref.whole main_v48)) (tT : Bf (F := F) c (Memref.whole main_v49)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v48) hT ∗ pt c (Memref.whole main_v49) tT ∗ nodeSh c node
      ∗ (∃ s0, pt c (Memref.whole cc14_scratch0) s0) ∗ (∃ s1, pt c (Memref.whole cc14_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v48) hT ∗ pt c (Memref.whole main_v49) tT ∗ nodeSh c node
          ∗ (∃ s0, pt c (Memref.whole cc14_scratch0) s0) ∗ (∃ s1, pt c (Memref.whole cc14_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc14__lookup_kernel i (Memref.whole main_v48) (Memref.isWhole_whole _) (Memref.whole main_v49) (Memref.isWhole_whole _) (Memref.whole main_arg0) (Memref.isWhole_whole _)
          M5 h5 M6 h6 (Memref.whole cc14_scratch0) (Memref.isWhole_whole _) (Memref.whole cc14_scratch1) (Memref.isWhole_whole _) cc14_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid14.Coords) (M5 : Memref sig .tc .vmem S1x256 .f32) (h5 : M5.IsWhole) (M6 : Memref sig .tc .vmem S128 .f32) (h6 : M6.IsWhole)
    (hT : Bf (F := F) c (Memref.whole main_v48)) (tT : Bf (F := F) c (Memref.whole main_v49)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v48) hT ∗ pt c (Memref.whole main_v49) tT ∗ nodeSh c node
      ∗ (∃ s0, pt c (Memref.whole cc14_scratch0) s0) ∗ (∃ s1, pt c (Memref.whole cc14_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v48) hT ∗ pt c (Memref.whole main_v49) tT ∗ nodeSh c node
          ∗ (∃ s0, pt c (Memref.whole cc14_scratch0) s0) ∗ (∃ s1, pt c (Memref.whole cc14_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc14__lookup_kernel i (Memref.whole main_v48) (Memref.isWhole_whole _) (Memref.whole main_v49) (Memref.isWhole_whole _) (Memref.whole main_arg0) (Memref.isWhole_whole _)
          M5 h5 M6 h6 (Memref.whole cc14_scratch0) (Memref.isWhole_whole _) (Memref.whole cc14_scratch1) (Memref.isWhole_whole _) cc14_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KI14

end
-- ==== Proof.KI14Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KI14Data
import proofs.«414028_j29231547417249_2_alg».proof.Proof.KI14Points
import proofs.«414028_j29231547417249_2_alg».proof.Proof.KI14Body
import proofs.«414028_j29231547417249_2_alg».proof.Proof.Gen.KernelIdeal.Launch
import Idealize.ShloMosaic.Lib.Pipeline.Frame

noncomputable section

namespace Cert.Proof.KI14

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W14, bigSep_W14]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec14_0.stage ((cfgA m).slots t 0)) (hstage14_0 (((cfgA m).slots t 0).cast nbuf14_0))
      (spec14_1.stage ((cfgA m).slots t 1)) (hstage14_1 (((cfgA m).slots t 1).cast nbuf14_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec14_0.stage ((cfgA m).slots t 0)) (hstage14_0 (((cfgA m).slots t 0).cast nbuf14_0))
      (spec14_1.stage ((cfgA m).slots t 1)) (hstage14_1 (((cfgA m).slots t 1).cast nbuf14_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KI14

end
-- ==== Proof.KI14Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KIDats
import proofs.«414028_j29231547417249_2_alg».proof.Proof.KIThread
import proofs.«414028_j29231547417249_2_alg».proof.Proof.KI14Chains
import proofs.«414028_j29231547417249_2_alg».proof.Proof.KI14Oblig
import proofs.«414028_j29231547417249_2_alg».proof.Proof.Gen.KernelIdeal.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KI14

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 73 | 1 => .dma 74

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W14] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v48) (hTab m) ∗ pt c (Memref.whole main_v49) (tTab m))

/-- The invariant at the first point: the node table split into its shares, the tables, the two scratch rows out of the
    scoped rest. -/
theorem hin0 (c : Dev nD) :
    iprop(X0 m c ∗ Pipeline.prefHeld pre14 c (fun _ => fullShare) (Cert.Proof.KI.tbl14 m)
        ∗ Pipeline.scopedRest (Ix := Unit) (Name := ℕ) (U := UC) (Lvl := ℕ) (Val := Elt F) spec14 c)
      ⊢ Φv m c := by
  unfold Φv Pipeline.prefHeld
  rw [Gen.bigSep_W14, Gen.scopedRest14_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec14 c) := by
  unfold Φv
  rw [Gen.scopedRest14_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre14 spec14 \ {main_arg0}

theorem node_mem_rest : ({main_arg0} : Finset (Ref sig .tc)) ⊆ Pipeline.restRefsP sig pre14 spec14 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec14 c V : sProp 𝕄)
      = iprop(Pipeline.prefHeld pre14 c (fun _ => fullShare) (fun k => V (pre14.ref k))
          ∗ (((c : Thread nD τ).loc main_arg0) ↦{fullShare} V main_arg0)
          ∗ bigSep restZ fun b => ((c : Thread nD τ).loc b) ↦{fullShare} V b) := by
  rw [Pipeline.unscopedRest_split preFacts14 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v50) ↦{fullShare} V main_v50))
          ∗ ((((c : Thread nD τ).loc main_v48) ↦{fullShare} V main_v48) ∗ (((c : Thread nD τ).loc main_v49) ↦{fullShare} V main_v49))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts14.arr_unscoped winFacts14.arr_inj c, rest_split]
  unfold Pipeline.prefHeld
  rw [Gen.bigSep_W14, Gen.bigSep_W14]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v50) ↦{fullShare} G 1)) := by
  rw [Pipeline.arrays_eq (fun _ : Fin 1 => cfgA m) (fun _ c => dat0 m c) 0 c arr_whole14 ((dat0 m c).share_full fun _ => rfl) G, Gen.bigSep_W14]

/-- What bypasses the region: every other unscoped buffer, at its contents on entry. -/
abbrev Z0 (c : Dev nD) : sProp 𝕄 := bigSep restZ fun b => ((c : Thread nD τ).loc b) ↦{fullShare} V33 m (Cert.Proof.KI.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V33 m (Cert.Proof.KI.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre14 c (fun _ => fullShare) (Cert.Proof.KI.tbl14 m)
          ∗ (dat0 m c).owesAt () 0 ∗ X0 m c ∗ Z0 m c) := by
  rw [held_split m c (V33 m (Cert.Proof.KI.outs m) c), arrays_two, ent_arg0, ent_arg1, ent_out,
    show V33 m (Cert.Proof.KI.outs m) c main_v48 = hTab m from ent_tab m (Cert.Proof.KI.outs m) c 0, show V33 m (Cert.Proof.KI.outs m) c main_v49 = tTab m from ent_tab m (Cert.Proof.KI.outs m) c 1]
  unfold Pipeline.prefHeld
  rw [Gen.bigSep_W14]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v50)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V33 m (Cert.Proof.KI.outs m) c) main_v50 o)
          ∗ (∃ W, owes (c : Thread nD τ) (0 : CellTallies nD τ sig Unit) W)) := by
  have hne : ∀ b : Ref sig .tc, b ≠ main_v50 →
      Function.update (V33 m (Cert.Proof.KI.outs m) c) (Proc.devRef .tc main_v50) o (Proc.devRef .tc b) = V33 m (Cert.Proof.KI.outs m) c b :=
    fun b hb => Function.update_of_ne (StableHlo.devRef_ne_of_ne hb) _ _
  have hz : (bigSep restZ fun b => (((c : Thread nD τ).loc b) ↦{fullShare} Function.update (V33 m (Cert.Proof.KI.outs m) c) (Proc.devRef .tc main_v50) o b : sProp 𝕄))
      = Z0 m c :=
    BI.bigSep_congr fun b hb => by
      rw [hne b (fun e => by subst e; revert hb; decide)]
  rw [held_split m c (Function.update (V33 m (Cert.Proof.KI.outs m) c) main_v50 o), arrays_two, hz,
    hne main_arg1 (by decide), hne main_v48 (by decide), hne main_v49 (by decide), hne main_arg0 (by decide),
    Function.update_self, ent_arg0, ent_arg1,
    show V33 m (Cert.Proof.KI.outs m) c main_v48 = hTab m from ent_tab m (Cert.Proof.KI.outs m) c 0, show V33 m (Cert.Proof.KI.outs m) c main_v49 = tTab m from ent_tab m (Cert.Proof.KI.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec14 osem := by decide

/-- What region 0 leaves in the output's array, by name: the fold of its write-backs. -/
theorem outs6 (c : Dev nD) : Cert.Proof.KI.outs m 34 main_v50 c = (dat0 m c).arrAt 1 (cfgA m).N :=
  Pipeline.withArrays_arr spec14 winFacts14.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KI.adm m) (Cert.Proof.KI.pdats m) () defs₀ Variants.none
      Cert.Proof.KI.L Cert.Proof.KI.lv (14 : Fin 16) where
  win := (launch14 (F := F)).win.to₀
  block_pos := (launch14 (F := F)).block_pos
  stage_whole := (launch14 (F := F)).stage_whole
  K := Fin 2
  osem := osem
  ho := ownSemFacts
  hbody c := (body_obligation m hH hTl c).loose
  hwaits := Pipeline.hwaits_of_owed_zero _ _ _ _ Cert.Proof.KI.L Cert.Proof.KI.lv (14 : Fin 16) fun _ _ => rfl
  pre c := iprop(StableHlo.held (c : Thread nD τ) (Pipeline.ucRefs τ sig) (V33 m (Cert.Proof.KI.outs m) c) ∗ Cert.Proof.KI.E 14 c)
  post c := iprop(StableHlo.held (c : Thread nD τ) (Pipeline.ucRefs τ sig) (V34 m (Cert.Proof.KI.outs m) c) ∗ Cert.Proof.KI.E 15 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KI.outs m 34 main_v50 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V33 m (Cert.Proof.KI.outs m) c) ∗ Cert.Proof.KI.E 14 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V34 m (Cert.Proof.KI.outs m) c) ∗ Cert.Proof.KI.E 15 c) := .rfl

end Cert.Proof.KI14

end
-- ==== Proof.KI15Chains.lean ====
/-
  Region 15 is entered from the valuation after item 34 of @main. No earlier item writes the node table, the relation row,
  the region's output array or the padded index rows, and the region's two tables are the slices cut out of the padded
  rows at offset 983040: each buffer the region is handed holds a function of the launch memory alone.
-/
import proofs.«414028_j29231547417249_2_alg».proof.Proof.KIAdm
import Idealize.ShloMosaic.Lib.StableHlo.Run

set_option maxRecDepth 4096

noncomputable section

namespace Cert.Proof.KI15

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V35 m outs c main_arg0 = m ((c : Thread nD τ).loc main_arg0) :=
  (V35_of m outs c main_arg0 (by decide)).trans <| (V34_of m outs c main_arg0 (by decide)).trans <| (V33_of m outs c main_arg0 (by decide)).trans <| (V32_of m outs c main_arg0 (by decide)).trans <| (V31_of m outs c main_arg0 (by decide)).trans <| (V30_of m outs c main_arg0 (by decide)).trans <| (V29_of m outs c main_arg0 (by decide)).trans <| (V28_of m outs c main_arg0 (by decide)).trans <| (V27_of m outs c main_arg0 (by decide)).trans <| (V26_of m outs c main_arg0 (by decide)).trans <| (V25_of m outs c main_arg0 (by decide)).trans <| (V24_of m outs c main_arg0 (by decide)).trans <| (V23_of m outs c main_arg0 (by decide)).trans <| (V22_of m outs c main_arg0 (by decide)).trans <| (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V35 m outs c main_arg1 = m ((c : Thread nD τ).loc main_arg1) :=
  (V35_of m outs c main_arg1 (by decide)).trans <| (V34_of m outs c main_arg1 (by decide)).trans <| (V33_of m outs c main_arg1 (by decide)).trans <| (V32_of m outs c main_arg1 (by decide)).trans <| (V31_of m outs c main_arg1 (by decide)).trans <| (V30_of m outs c main_arg1 (by decide)).trans <| (V29_of m outs c main_arg1 (by decide)).trans <| (V28_of m outs c main_arg1 (by decide)).trans <| (V27_of m outs c main_arg1 (by decide)).trans <| (V26_of m outs c main_arg1 (by decide)).trans <| (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V35 m outs c main_v53 = m ((c : Thread nD τ).loc main_v53) :=
  (V35_of m outs c main_v53 (by decide)).trans <| (V34_of m outs c main_v53 (by decide)).trans <| (V33_of m outs c main_v53 (by decide)).trans <| (V32_of m outs c main_v53 (by decide)).trans <| (V31_of m outs c main_v53 (by decide)).trans <| (V30_of m outs c main_v53 (by decide)).trans <| (V29_of m outs c main_v53 (by decide)).trans <| (V28_of m outs c main_v53 (by decide)).trans <| (V27_of m outs c main_v53 (by decide)).trans <| (V26_of m outs c main_v53 (by decide)).trans <| (V25_of m outs c main_v53 (by decide)).trans <| (V24_of m outs c main_v53 (by decide)).trans <| (V23_of m outs c main_v53 (by decide)).trans <| (V22_of m outs c main_v53 (by decide)).trans <| (V21_of m outs c main_v53 (by decide)).trans <| (V20_of m outs c main_v53 (by decide)).trans <| (V19_of m outs c main_v53 (by decide)).trans <| (V18_of m outs c main_v53 (by decide)).trans <| (V17_of m outs c main_v53 (by decide)).trans <| (V16_of m outs c main_v53 (by decide)).trans <| (V15_of m outs c main_v53 (by decide)).trans <| (V14_of m outs c main_v53 (by decide)).trans <| (V13_of m outs c main_v53 (by decide)).trans <| (V12_of m outs c main_v53 (by decide)).trans <| (V11_of m outs c main_v53 (by decide)).trans <| (V10_of m outs c main_v53 (by decide)).trans <| (V9_of m outs c main_v53 (by decide)).trans <| (V8_of m outs c main_v53 (by decide)).trans <| (V7_of m outs c main_v53 (by decide)).trans <| (V6_of m outs c main_v53 (by decide)).trans <| (V5_of m c main_v53 (by decide)).trans <| (V4_of m c main_v53 (by decide)).trans <| (V3_of m c main_v53 (by decide)).trans <| (V2_of m c main_v53 (by decide)).trans <| (V1_of m c main_v53 (by decide)).trans <| rfl
/-- The stretch before the region cuts the table out of the padded row, whatever the valuation it runs from. -/
theorem slice_h (X : Valuation τ sig (Elt F)) :
    StableHlo.after (hostOps15 (F := F)) X (Proc.devRef .tc main_v51)
      = extractStridedSlice S65536 ![983040] (X (Proc.devRef .tc main_v4)) slices_S1048576_S65536_983040 := by
  after_results
/-- The stretch before the region cuts the table out of the padded row, whatever the valuation it runs from. -/
theorem slice_t (X : Valuation τ sig (Elt F)) :
    StableHlo.after (hostOps15 (F := F)) X (Proc.devRef .tc main_v52)
      = extractStridedSlice S65536 ![983040] (X (Proc.devRef .tc main_v5)) slices_S1048576_S65536_983040 := by
  after_results
theorem ent_tab0 (c : Dev nD) : V35 m outs c main_v51 = Cert.Proof.KI.tv15 m main_v51 := by
  obtain rfl : c = (0 : Dev nD) := Subsingleton.elim _ _
  have e : V34 m outs (0 : Dev nD) main_v4 = V5 m (0 : Dev nD) main_v4 :=
    (V34_of m outs (0 : Dev nD) main_v4 (by decide)).trans <| (V33_of m outs (0 : Dev nD) main_v4 (by decide)).trans <| (V32_of m outs (0 : Dev nD) main_v4 (by decide)).trans <| (V31_of m outs (0 : Dev nD) main_v4 (by decide)).trans <| (V30_of m outs (0 : Dev nD) main_v4 (by decide)).trans <| (V29_of m outs (0 : Dev nD) main_v4 (by decide)).trans <| (V28_of m outs (0 : Dev nD) main_v4 (by decide)).trans <| (V27_of m outs (0 : Dev nD) main_v4 (by decide)).trans <| (V26_of m outs (0 : Dev nD) main_v4 (by decide)).trans <| (V25_of m outs (0 : Dev nD) main_v4 (by decide)).trans <| (V24_of m outs (0 : Dev nD) main_v4 (by decide)).trans <| (V23_of m outs (0 : Dev nD) main_v4 (by decide)).trans <| (V22_of m outs (0 : Dev nD) main_v4 (by decide)).trans <| (V21_of m outs (0 : Dev nD) main_v4 (by decide)).trans <| (V20_of m outs (0 : Dev nD) main_v4 (by decide)).trans <| (V19_of m outs (0 : Dev nD) main_v4 (by decide)).trans <| (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V34 m outs (0 : Dev nD))).trans ((congrArg (extractStridedSlice S65536 ![983040] · slices_S1048576_S65536_983040) e).trans (slice_h (V5 m (0 : Dev nD))).symm)
theorem ent_tab1 (c : Dev nD) : V35 m outs c main_v52 = Cert.Proof.KI.tv15 m main_v52 := by
  obtain rfl : c = (0 : Dev nD) := Subsingleton.elim _ _
  have e : V34 m outs (0 : Dev nD) main_v5 = V5 m (0 : Dev nD) main_v5 :=
    (V34_of m outs (0 : Dev nD) main_v5 (by decide)).trans <| (V33_of m outs (0 : Dev nD) main_v5 (by decide)).trans <| (V32_of m outs (0 : Dev nD) main_v5 (by decide)).trans <| (V31_of m outs (0 : Dev nD) main_v5 (by decide)).trans <| (V30_of m outs (0 : Dev nD) main_v5 (by decide)).trans <| (V29_of m outs (0 : Dev nD) main_v5 (by decide)).trans <| (V28_of m outs (0 : Dev nD) main_v5 (by decide)).trans <| (V27_of m outs (0 : Dev nD) main_v5 (by decide)).trans <| (V26_of m outs (0 : Dev nD) main_v5 (by decide)).trans <| (V25_of m outs (0 : Dev nD) main_v5 (by decide)).trans <| (V24_of m outs (0 : Dev nD) main_v5 (by decide)).trans <| (V23_of m outs (0 : Dev nD) main_v5 (by decide)).trans <| (V22_of m outs (0 : Dev nD) main_v5 (by decide)).trans <| (V21_of m outs (0 : Dev nD) main_v5 (by decide)).trans <| (V20_of m outs (0 : Dev nD) main_v5 (by decide)).trans <| (V19_of m outs (0 : Dev nD) main_v5 (by decide)).trans <| (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V34 m outs (0 : Dev nD))).trans ((congrArg (extractStridedSlice S65536 ![983040] · slices_S1048576_S65536_983040) e).trans (slice_t (V5 m (0 : Dev nD))).symm)
theorem ent_tab (c : Dev nD) (k : Fin 2) : V35 m outs c (pre15.ref k) = Cert.Proof.KI.tbl15 m k :=
  match k with
  | ⟨0, _⟩ => ent_tab0 m outs c
  | ⟨1, _⟩ => ent_tab1 m outs c

end Cert.Proof.KI15

end
-- ==== Proof.KI15Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.KernelIdeal
import proofs.«414028_j29231547417249_2_alg».proof.Proof.Gen.KernelIdeal.Launch
import Idealize.ShloMosaic.Lib.Pipeline.Dat

noncomputable section

namespace Cert.Proof.KI15

open Cert.KernelIdeal Cert.KernelIdeal.Gen Idealize.ShloMosaic

variable {F : FTy → Type} [FloatOps F] (a : (pcfg15 (F := F)).Adm)

/-! ## The points and their coordinates -/

theorem N_eq : (cfg15 a).N = 65536 := N_15

theorem lt_N (t : Fin (cfg15 a).N) : t.val < 65536 := Nat.lt_of_lt_of_eq t.isLt (N_eq a)

/-- Each value of the first coordinate is shared by 128 consecutive points, each value of the second by one. -/
theorem stride0 : grid15.stride 0 = 128 := by decide
theorem stride1 : grid15.stride 1 = 1 := by decide

theorem coords0 (t : Fin (cfg15 a).N) : (((cfg15 a).grid.coords t) 0).val = t.val / 128 := by
  have ht := lt_N a t
  show t.val / grid15.stride 0 % 512 = t.val / 128
  rw [stride0]; omega

theorem coords1 (t : Fin (cfg15 a).N) : (((cfg15 a).grid.coords t) 1).val = t.val % 128 := by
  show t.val / grid15.stride 1 % 128 = t.val % 128
  rw [stride1, Nat.div_one]

theorem flat_eq (t : Fin (cfg15 a).N) :
    (((cfg15 a).grid.coords t) 0).val * 128 + (((cfg15 a).grid.coords t) 1).val = t.val := by
  rw [coords0, coords1]; omega

/-! ## The windows' block indices -/

/-- Window 0's block index is constant. -/
theorem index0 (s t : Fin (cfg15 a).N) : ((cfg15 a).win 0).index s = ((cfg15 a).win 0).index t := rfl

/-- Window 1's block index at a point is the point's first coordinate. -/
theorem index1 (s : Fin (cfg15 a).N) : ((cfg15 a).win 1).index s = ![s.val / 128] := by
  have hs := lt_N a s
  show ![(BitVec.ofNat 32 (((cfg15 a).grid.coords s) 0).val).toNat] = ![s.val / 128]
  rw [coords0 a s, BitVec.toNat_ofNat, Nat.mod_eq_of_lt (by omega)]

/-! ## Fetches and write-backs -/

theorem fetch0 (t : Fin (cfg15 a).N) : ((cfg15 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg15 a).N) : ((cfg15 a).win 1).fetch t = false := by
  unfold Pipeline.Window.fetch
  show (!true && _) = false
  rfl

theorem flush0 (t : Fin (cfg15 a).N) : ((cfg15 a).win 0).flush t = false := by
  unfold Pipeline.Window.flush
  show (false && _) = false
  rfl

theorem flush1 (t : Fin (cfg15 a).N) : ((cfg15 a).win 1).flush t = decide (t.val % 128 = 127) := by
  have ht := lt_N a t
  have hN : (cfg15 a).grid.N = 65536 := N_eq a
  unfold Pipeline.Window.flush
  show (true && (decide (t.val + 1 = (cfg15 a).grid.N)
    || decide (∃ h : t.val + 1 < (cfg15 a).grid.N, ((cfg15 a).win 1).index ⟨t.val + 1, h⟩ ≠ ((cfg15 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg15 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg15 a).W) (t : Fin (cfg15 a).N) : (cfg15 a).idle w ((cfg15 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg15 a).N) :
    Scalar.cmpi .ne (Scalar.extui (Scalar.cmpi .eq (BitVec.ofNat 32 (((cfg15 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg15 a).N) (A : Vec F S1x256 .f32) (y : S1x256.Idx) :
    (((cfg15 a).win 0).blk t).view.read (Elt F) A y = A y := by
  show A ((((cfg15 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg15 a).N) (y : S128.Idx) :
    ((((cfg15 a).win 1).blk t).view.emb y (0 : Fin 1)).val = 128 * (t.val / 128) + (y 0).val := by
  have hi : ((cfg15 a).win 1).index t (0 : Fin 1) = t.val / 128 := by rw [index1]; rfl
  show ((cfg15 a).win 1).index t (0 : Fin 1) * 128 + 1 * (y 0).val = 128 * (t.val / 128) + (y 0).val
  rw [hi]; omega

end Cert.Proof.KI15

end
-- ==== Proof.KI15Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KI15Defs
import proofs.«414028_j29231547417249_2_alg».proof.Proof.Gen.KernelIdeal.Launch
import Idealize.ShloMosaic.Lib.Tactic

noncomputable section

namespace Cert.Proof.KI15

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k15_pay2 j (k15_pay6 X18 X19 X20) (k15_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k15_pay2 j (k15_pay6 X18 X19 X20) (k15_pay7 X18 X19 X20)
              (m.view.readCov [⟨Rect.unit (s := S128) ![0] S128.size inb_S128_S128_0, k15_pay1 (F := F)⟩]
                (Rect.unit (s := S128) ![0] S128.size inb_S128_S128_0).toLoadRect)⟩,
          ⟨Rect.unit (s := S128) ![0] S128.size inb_S128_S128_0, k15_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid15.Coords) (M5 : Memref sig .tc .vmem S1x256 .f32) (h5 : M5.IsWhole) (M6 : Memref sig .tc .vmem S128 .f32) (h6 : M6.IsWhole)
    (hT : Bf (F := F) c (Memref.whole main_v51)) (tT : Bf (F := F) c (Memref.whole main_v52)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v51) hT ∗ pt c (Memref.whole main_v52) tT ∗ nodeSh c node
      ∗ (∃ s0, pt c (Memref.whole cc15_scratch0) s0) ∗ (∃ s1, pt c (Memref.whole cc15_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v51) hT ∗ pt c (Memref.whole main_v52) tT ∗ nodeSh c node
          ∗ (∃ s0, pt c (Memref.whole cc15_scratch0) s0) ∗ (∃ s1, pt c (Memref.whole cc15_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc15__lookup_kernel i (Memref.whole main_v51) (Memref.isWhole_whole _) (Memref.whole main_v52) (Memref.isWhole_whole _) (Memref.whole main_arg0) (Memref.isWhole_whole _)
          M5 h5 M6 h6 (Memref.whole cc15_scratch0) (Memref.isWhole_whole _) (Memref.whole cc15_scratch1) (Memref.isWhole_whole _) cc15_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid15.Coords) (M5 : Memref sig .tc .vmem S1x256 .f32) (h5 : M5.IsWhole) (M6 : Memref sig .tc .vmem S128 .f32) (h6 : M6.IsWhole)
    (hT : Bf (F := F) c (Memref.whole main_v51)) (tT : Bf (F := F) c (Memref.whole main_v52)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v51) hT ∗ pt c (Memref.whole main_v52) tT ∗ nodeSh c node
      ∗ (∃ s0, pt c (Memref.whole cc15_scratch0) s0) ∗ (∃ s1, pt c (Memref.whole cc15_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v51) hT ∗ pt c (Memref.whole main_v52) tT ∗ nodeSh c node
          ∗ (∃ s0, pt c (Memref.whole cc15_scratch0) s0) ∗ (∃ s1, pt c (Memref.whole cc15_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc15__lookup_kernel i (Memref.whole main_v51) (Memref.isWhole_whole _) (Memref.whole main_v52) (Memref.isWhole_whole _) (Memref.whole main_arg0) (Memref.isWhole_whole _)
          M5 h5 M6 h6 (Memref.whole cc15_scratch0) (Memref.isWhole_whole _) (Memref.whole cc15_scratch1) (Memref.isWhole_whole _) cc15_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KI15

end
-- ==== Proof.KI15Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KI15Data
import proofs.«414028_j29231547417249_2_alg».proof.Proof.KI15Points
import proofs.«414028_j29231547417249_2_alg».proof.Proof.KI15Body
import proofs.«414028_j29231547417249_2_alg».proof.Proof.Gen.KernelIdeal.Launch
import Idealize.ShloMosaic.Lib.Pipeline.Frame

noncomputable section

namespace Cert.Proof.KI15

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W15, bigSep_W15]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec15_0.stage ((cfgA m).slots t 0)) (hstage15_0 (((cfgA m).slots t 0).cast nbuf15_0))
      (spec15_1.stage ((cfgA m).slots t 1)) (hstage15_1 (((cfgA m).slots t 1).cast nbuf15_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec15_0.stage ((cfgA m).slots t 0)) (hstage15_0 (((cfgA m).slots t 0).cast nbuf15_0))
      (spec15_1.stage ((cfgA m).slots t 1)) (hstage15_1 (((cfgA m).slots t 1).cast nbuf15_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KI15

end
-- ==== Proof.KI15Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KIDats
import proofs.«414028_j29231547417249_2_alg».proof.Proof.KIThread
import proofs.«414028_j29231547417249_2_alg».proof.Proof.KI15Chains
import proofs.«414028_j29231547417249_2_alg».proof.Proof.KI15Oblig
import proofs.«414028_j29231547417249_2_alg».proof.Proof.Gen.KernelIdeal.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KI15

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 78 | 1 => .dma 79

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W15] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v51) (hTab m) ∗ pt c (Memref.whole main_v52) (tTab m))

/-- The invariant at the first point: the node table split into its shares, the tables, the two scratch rows out of the
    scoped rest. -/
theorem hin0 (c : Dev nD) :
    iprop(X0 m c ∗ Pipeline.prefHeld pre15 c (fun _ => fullShare) (Cert.Proof.KI.tbl15 m)
        ∗ Pipeline.scopedRest (Ix := Unit) (Name := ℕ) (U := UC) (Lvl := ℕ) (Val := Elt F) spec15 c)
      ⊢ Φv m c := by
  unfold Φv Pipeline.prefHeld
  rw [Gen.bigSep_W15, Gen.scopedRest15_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec15 c) := by
  unfold Φv
  rw [Gen.scopedRest15_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre15 spec15 \ {main_arg0}

theorem node_mem_rest : ({main_arg0} : Finset (Ref sig .tc)) ⊆ Pipeline.restRefsP sig pre15 spec15 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec15 c V : sProp 𝕄)
      = iprop(Pipeline.prefHeld pre15 c (fun _ => fullShare) (fun k => V (pre15.ref k))
          ∗ (((c : Thread nD τ).loc main_arg0) ↦{fullShare} V main_arg0)
          ∗ bigSep restZ fun b => ((c : Thread nD τ).loc b) ↦{fullShare} V b) := by
  rw [Pipeline.unscopedRest_split preFacts15 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v53) ↦{fullShare} V main_v53))
          ∗ ((((c : Thread nD τ).loc main_v51) ↦{fullShare} V main_v51) ∗ (((c : Thread nD τ).loc main_v52) ↦{fullShare} V main_v52))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts15.arr_unscoped winFacts15.arr_inj c, rest_split]
  unfold Pipeline.prefHeld
  rw [Gen.bigSep_W15, Gen.bigSep_W15]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v53) ↦{fullShare} G 1)) := by
  rw [Pipeline.arrays_eq (fun _ : Fin 1 => cfgA m) (fun _ c => dat0 m c) 0 c arr_whole15 ((dat0 m c).share_full fun _ => rfl) G, Gen.bigSep_W15]

/-- What bypasses the region: every other unscoped buffer, at its contents on entry. -/
abbrev Z0 (c : Dev nD) : sProp 𝕄 := bigSep restZ fun b => ((c : Thread nD τ).loc b) ↦{fullShare} V35 m (Cert.Proof.KI.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V35 m (Cert.Proof.KI.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre15 c (fun _ => fullShare) (Cert.Proof.KI.tbl15 m)
          ∗ (dat0 m c).owesAt () 0 ∗ X0 m c ∗ Z0 m c) := by
  rw [held_split m c (V35 m (Cert.Proof.KI.outs m) c), arrays_two, ent_arg0, ent_arg1, ent_out,
    show V35 m (Cert.Proof.KI.outs m) c main_v51 = hTab m from ent_tab m (Cert.Proof.KI.outs m) c 0, show V35 m (Cert.Proof.KI.outs m) c main_v52 = tTab m from ent_tab m (Cert.Proof.KI.outs m) c 1]
  unfold Pipeline.prefHeld
  rw [Gen.bigSep_W15]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v53)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V35 m (Cert.Proof.KI.outs m) c) main_v53 o)
          ∗ (∃ W, owes (c : Thread nD τ) (0 : CellTallies nD τ sig Unit) W)) := by
  have hne : ∀ b : Ref sig .tc, b ≠ main_v53 →
      Function.update (V35 m (Cert.Proof.KI.outs m) c) (Proc.devRef .tc main_v53) o (Proc.devRef .tc b) = V35 m (Cert.Proof.KI.outs m) c b :=
    fun b hb => Function.update_of_ne (StableHlo.devRef_ne_of_ne hb) _ _
  have hz : (bigSep restZ fun b => (((c : Thread nD τ).loc b) ↦{fullShare} Function.update (V35 m (Cert.Proof.KI.outs m) c) (Proc.devRef .tc main_v53) o b : sProp 𝕄))
      = Z0 m c :=
    BI.bigSep_congr fun b hb => by
      rw [hne b (fun e => by subst e; revert hb; decide)]
  rw [held_split m c (Function.update (V35 m (Cert.Proof.KI.outs m) c) main_v53 o), arrays_two, hz,
    hne main_arg1 (by decide), hne main_v51 (by decide), hne main_v52 (by decide), hne main_arg0 (by decide),
    Function.update_self, ent_arg0, ent_arg1,
    show V35 m (Cert.Proof.KI.outs m) c main_v51 = hTab m from ent_tab m (Cert.Proof.KI.outs m) c 0, show V35 m (Cert.Proof.KI.outs m) c main_v52 = tTab m from ent_tab m (Cert.Proof.KI.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec15 osem := by decide

/-- What region 0 leaves in the output's array, by name: the fold of its write-backs. -/
theorem outs6 (c : Dev nD) : Cert.Proof.KI.outs m 36 main_v53 c = (dat0 m c).arrAt 1 (cfgA m).N :=
  Pipeline.withArrays_arr spec15 winFacts15.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KI.adm m) (Cert.Proof.KI.pdats m) () defs₀ Variants.none
      Cert.Proof.KI.L Cert.Proof.KI.lv (15 : Fin 16) where
  win := (launch15 (F := F)).win.to₀
  block_pos := (launch15 (F := F)).block_pos
  stage_whole := (launch15 (F := F)).stage_whole
  K := Fin 2
  osem := osem
  ho := ownSemFacts
  hbody c := (body_obligation m hH hTl c).loose
  hwaits := Pipeline.hwaits_of_owed_zero _ _ _ _ Cert.Proof.KI.L Cert.Proof.KI.lv (15 : Fin 16) fun _ _ => rfl
  pre c := iprop(StableHlo.held (c : Thread nD τ) (Pipeline.ucRefs τ sig) (V35 m (Cert.Proof.KI.outs m) c) ∗ Cert.Proof.KI.E 15 c)
  post c := iprop(StableHlo.held (c : Thread nD τ) (Pipeline.ucRefs τ sig) (V36 m (Cert.Proof.KI.outs m) c) ∗ Cert.Proof.KI.E 16 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KI.outs m 36 main_v53 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V35 m (Cert.Proof.KI.outs m) c) ∗ Cert.Proof.KI.E 15 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V36 m (Cert.Proof.KI.outs m) c) ∗ Cert.Proof.KI.E 16 c) := .rfl

end Cert.Proof.KI15

end
-- ==== Proof.KIValueCond.lean ====
/- The value form of the conditional frame of `Cert.KernelIdeal`: besides the arguments, the result buffer `main_v55`
   is read off the last valuation; and what that valuation holds there: the first 1000000 entries of the sixteen
   regions' outputs laid end to end. -/
import proofs.«414028_j29231547417249_2_alg».proof.Proof.KernelIdealRegions
import Idealize.ShloMosaic.Lib.Pipeline.Frame
import Idealize.ShloMosaic.Lib.Pipeline.Regions
import Idealize.ShloMosaic.Lib.StableHlo.Run
import Idealize.ShloMosaic.Lib.Pipeline.Value
import Idealize.ShloMosaic.Lib.ValueIdx

-- decided memberships over 143 references recurse past the default depth
set_option maxRecDepth 1084

noncomputable section

namespace Cert.Proof.KI

open Cert.KernelIdeal Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The frame with the result's value -/

-- `θ_run_regions_kit_dev`'s implicit arguments are found by unifying its conclusion with this one, which takes unfolding
-- plain definitions in a metavariable's type
set_option backward.isDefEq.respectTransparency.types false in
/-- The conditional frame, with the result: under the hypotheses of `GenP.frame_cond` every weakly fair execution of
    @main from memory `m` with zero counters terminates, every final memory holds each argument as launched, and the
    result buffer `main_v55` holds on core `c` what the last valuation `V37 m outs c` has there. -/
theorem value_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 16) → (pcfgs (F := F) p).Adm)
    (pdats : (p : Fin 16) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 17 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE16 : ∀ c : Dev nD, E 16 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) a pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) a pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) a pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) a pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) a pdats ι defs₀ 𝒱₀ L lv 8)
    (hpre8 : ∀ c : Dev nD, iprop(StableHlo.held (c : Thread nD τ) (Pipeline.ucRefs τ sig) (V21 m outs c) ∗ E 8 c) ⊢ R8.pre c)
    (hpost8 : ∀ c : Dev nD, R8.post c ⊢ iprop(StableHlo.held (c : Thread nD τ) (Pipeline.ucRefs τ sig) (V22 m outs c) ∗ E 9 c))
    (R9 : RegionSeg (pcfgs (F := F)) a pdats ι defs₀ 𝒱₀ L lv 9)
    (hpre9 : ∀ c : Dev nD, iprop(StableHlo.held (c : Thread nD τ) (Pipeline.ucRefs τ sig) (V23 m outs c) ∗ E 9 c) ⊢ R9.pre c)
    (hpost9 : ∀ c : Dev nD, R9.post c ⊢ iprop(StableHlo.held (c : Thread nD τ) (Pipeline.ucRefs τ sig) (V24 m outs c) ∗ E 10 c))
    (R10 : RegionSeg (pcfgs (F := F)) a pdats ι defs₀ 𝒱₀ L lv 10)
    (hpre10 : ∀ c : Dev nD, iprop(StableHlo.held (c : Thread nD τ) (Pipeline.ucRefs τ sig) (V25 m outs c) ∗ E 10 c) ⊢ R10.pre c)
    (hpost10 : ∀ c : Dev nD, R10.post c ⊢ iprop(StableHlo.held (c : Thread nD τ) (Pipeline.ucRefs τ sig) (V26 m outs c) ∗ E 11 c))
    (R11 : RegionSeg (pcfgs (F := F)) a pdats ι defs₀ 𝒱₀ L lv 11)
    (hpre11 : ∀ c : Dev nD, iprop(StableHlo.held (c : Thread nD τ) (Pipeline.ucRefs τ sig) (V27 m outs c) ∗ E 11 c) ⊢ R11.pre c)
    (hpost11 : ∀ c : Dev nD, R11.post c ⊢ iprop(StableHlo.held (c : Thread nD τ) (Pipeline.ucRefs τ sig) (V28 m outs c) ∗ E 12 c))
    (R12 : RegionSeg (pcfgs (F := F)) a pdats ι defs₀ 𝒱₀ L lv 12)
    (hpre12 : ∀ c : Dev nD, iprop(StableHlo.held (c : Thread nD τ) (Pipeline.ucRefs τ sig) (V29 m outs c) ∗ E 12 c) ⊢ R12.pre c)
    (hpost12 : ∀ c : Dev nD, R12.post c ⊢ iprop(StableHlo.held (c : Thread nD τ) (Pipeline.ucRefs τ sig) (V30 m outs c) ∗ E 13 c))
    (R13 : RegionSeg (pcfgs (F := F)) a pdats ι defs₀ 𝒱₀ L lv 13)
    (hpre13 : ∀ c : Dev nD, iprop(StableHlo.held (c : Thread nD τ) (Pipeline.ucRefs τ sig) (V31 m outs c) ∗ E 13 c) ⊢ R13.pre c)
    (hpost13 : ∀ c : Dev nD, R13.post c ⊢ iprop(StableHlo.held (c : Thread nD τ) (Pipeline.ucRefs τ sig) (V32 m outs c) ∗ E 14 c))
    (R14 : RegionSeg (pcfgs (F := F)) a pdats ι defs₀ 𝒱₀ L lv 14)
    (hpre14 : ∀ c : Dev nD, iprop(StableHlo.held (c : Thread nD τ) (Pipeline.ucRefs τ sig) (V33 m outs c) ∗ E 14 c) ⊢ R14.pre c)
    (hpost14 : ∀ c : Dev nD, R14.post c ⊢ iprop(StableHlo.held (c : Thread nD τ) (Pipeline.ucRefs τ sig) (V34 m outs c) ∗ E 15 c))
    (R15 : RegionSeg (pcfgs (F := F)) a pdats ι defs₀ 𝒱₀ L lv 15)
    (hpre15 : ∀ c : Dev nD, iprop(StableHlo.held (c : Thread nD τ) (Pipeline.ucRefs τ sig) (V35 m outs c) ∗ E 15 c) ⊢ R15.pre c)
    (hpost15 : ∀ c : Dev nD, R15.post c ⊢ iprop(StableHlo.held (c : Thread nD τ) (Pipeline.ucRefs τ sig) (V36 m outs c) ∗ E 16 c)) :
    θ_run defs (onTc (τ := τ) (main (F := F))) ⟨m, fun _ => 0, ρ⟩ (fun r => ∀ c : Dev nD,
      r.2.mem ((c.tc : Thread nD τ).loc main_v55) = V37 m outs c main_v55
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) a pdats ι (cellOf_inj a) EP defs₀ 𝒱₀ L lv m ρ main
    (segs m outs 𝒱₀ L lv E ι a pdats R0 R1 R2 R3 R4 R5 R6 R7 R8 R9 R10 R11 R12 R13 R14 R15)
    (fun c Q => by
      rewrite [main_chain c, Seg.run_eq_chain,
        show (segs m outs 𝒱₀ L lv E ι a pdats R0 R1 R2 R3 R4 R5 R6 R7 R8 R9 R10 R11 R12 R13 R14 R15 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V37 m outs c))
    (hch := fun c => ⟨.rfl, .rfl, .rfl, .rfl, .rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, hpost13 c, hpre14 c, hpost14 c, hpre15 c, hpost15 c, sep_mono .rfl (hE16 c)⟩)
    (hinit := ?_) (QY := fun c s => s.mem ((c.tc : Thread nD τ).loc main_v55) = V37 m outs c main_v55 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (V37 m outs c) s') $$ [Hh HSI]
    · isplitl [Hh] <;> iassumption
    icases Hr with ⟨%h, HSI⟩
    imodintro
    isplitr
    · ipureintro
      exact ⟨h (Proc.devRef .tc main_v55) (Finset.mem_filter.mpr ⟨StableHlo.devRef_mem_tcRefs main_v55, by decide⟩),
        (h (Proc.devRef .tc main_arg0) (Finset.mem_filter.mpr ⟨StableHlo.devRef_mem_tcRefs main_arg0, by decide⟩)).trans (V37_main_arg0 m outs c),
        (h (Proc.devRef .tc main_arg1) (Finset.mem_filter.mpr ⟨StableHlo.devRef_mem_tcRefs main_arg1, by decide⟩)).trans (V37_main_arg1 m outs c),
        (h (Proc.devRef .tc main_arg2) (Finset.mem_filter.mpr ⟨StableHlo.devRef_mem_tcRefs main_arg2, by decide⟩)).trans (V37_main_arg2 m outs c)⟩
    · iexact HSI

/-! ## What the last host stretch computes -/

/-- Region 0's output `main_v8` is not written again before the last host stretch. -/
private theorem V36_main_v8 (m : (ℓ : Loc nD τ sig) → Buf (Elt F) ℓ) (outs : Outs (F := F)) (c : Dev nD) :
    V36 m outs c main_v8 = outs 6 main_v8 c :=
  (V36_of m outs c main_v8 (by decide)).trans <| (V35_of m outs c main_v8 (by decide)).trans <| (V34_of m outs c main_v8 (by decide)).trans <| (V33_of m outs c main_v8 (by decide)).trans <| (V32_of m outs c main_v8 (by decide)).trans <| (V31_of m outs c main_v8 (by decide)).trans <| (V30_of m outs c main_v8 (by decide)).trans <| (V29_of m outs c main_v8 (by decide)).trans <| (V28_of m outs c main_v8 (by decide)).trans <| (V27_of m outs c main_v8 (by decide)).trans <| (V26_of m outs c main_v8 (by decide)).trans <| (V25_of m outs c main_v8 (by decide)).trans <| (V24_of m outs c main_v8 (by decide)).trans <| (V23_of m outs c main_v8 (by decide)).trans <| (V22_of m outs c main_v8 (by decide)).trans <| (V21_of m outs c main_v8 (by decide)).trans <| (V20_of m outs c main_v8 (by decide)).trans <| (V19_of m outs c main_v8 (by decide)).trans <| (V18_of m outs c main_v8 (by decide)).trans <| (V17_of m outs c main_v8 (by decide)).trans <| (V16_of m outs c main_v8 (by decide)).trans <| (V15_of m outs c main_v8 (by decide)).trans <| (V14_of m outs c main_v8 (by decide)).trans <| (V13_of m outs c main_v8 (by decide)).trans <| (V12_of m outs c main_v8 (by decide)).trans <| (V11_of m outs c main_v8 (by decide)).trans <| (V10_of m outs c main_v8 (by decide)).trans <| (V9_of m outs c main_v8 (by decide)).trans <| (V8_of m outs c main_v8 (by decide)).trans <| (V7_of m outs c main_v8 (by decide)).trans <| Function.update_self _ _ _
/-- Region 1's output `main_v11` is not written again before the last host stretch. -/
private theorem V36_main_v11 (m : (ℓ : Loc nD τ sig) → Buf (Elt F) ℓ) (outs : Outs (F := F)) (c : Dev nD) :
    V36 m outs c main_v11 = outs 8 main_v11 c :=
  (V36_of m outs c main_v11 (by decide)).trans <| (V35_of m outs c main_v11 (by decide)).trans <| (V34_of m outs c main_v11 (by decide)).trans <| (V33_of m outs c main_v11 (by decide)).trans <| (V32_of m outs c main_v11 (by decide)).trans <| (V31_of m outs c main_v11 (by decide)).trans <| (V30_of m outs c main_v11 (by decide)).trans <| (V29_of m outs c main_v11 (by decide)).trans <| (V28_of m outs c main_v11 (by decide)).trans <| (V27_of m outs c main_v11 (by decide)).trans <| (V26_of m outs c main_v11 (by decide)).trans <| (V25_of m outs c main_v11 (by decide)).trans <| (V24_of m outs c main_v11 (by decide)).trans <| (V23_of m outs c main_v11 (by decide)).trans <| (V22_of m outs c main_v11 (by decide)).trans <| (V21_of m outs c main_v11 (by decide)).trans <| (V20_of m outs c main_v11 (by decide)).trans <| (V19_of m outs c main_v11 (by decide)).trans <| (V18_of m outs c main_v11 (by decide)).trans <| (V17_of m outs c main_v11 (by decide)).trans <| (V16_of m outs c main_v11 (by decide)).trans <| (V15_of m outs c main_v11 (by decide)).trans <| (V14_of m outs c main_v11 (by decide)).trans <| (V13_of m outs c main_v11 (by decide)).trans <| (V12_of m outs c main_v11 (by decide)).trans <| (V11_of m outs c main_v11 (by decide)).trans <| (V10_of m outs c main_v11 (by decide)).trans <| (V9_of m outs c main_v11 (by decide)).trans <| Function.update_self _ _ _
/-- Region 2's output `main_v14` is not written again before the last host stretch. -/
private theorem V36_main_v14 (m : (ℓ : Loc nD τ sig) → Buf (Elt F) ℓ) (outs : Outs (F := F)) (c : Dev nD) :
    V36 m outs c main_v14 = outs 10 main_v14 c :=
  (V36_of m outs c main_v14 (by decide)).trans <| (V35_of m outs c main_v14 (by decide)).trans <| (V34_of m outs c main_v14 (by decide)).trans <| (V33_of m outs c main_v14 (by decide)).trans <| (V32_of m outs c main_v14 (by decide)).trans <| (V31_of m outs c main_v14 (by decide)).trans <| (V30_of m outs c main_v14 (by decide)).trans <| (V29_of m outs c main_v14 (by decide)).trans <| (V28_of m outs c main_v14 (by decide)).trans <| (V27_of m outs c main_v14 (by decide)).trans <| (V26_of m outs c main_v14 (by decide)).trans <| (V25_of m outs c main_v14 (by decide)).trans <| (V24_of m outs c main_v14 (by decide)).trans <| (V23_of m outs c main_v14 (by decide)).trans <| (V22_of m outs c main_v14 (by decide)).trans <| (V21_of m outs c main_v14 (by decide)).trans <| (V20_of m outs c main_v14 (by decide)).trans <| (V19_of m outs c main_v14 (by decide)).trans <| (V18_of m outs c main_v14 (by decide)).trans <| (V17_of m outs c main_v14 (by decide)).trans <| (V16_of m outs c main_v14 (by decide)).trans <| (V15_of m outs c main_v14 (by decide)).trans <| (V14_of m outs c main_v14 (by decide)).trans <| (V13_of m outs c main_v14 (by decide)).trans <| (V12_of m outs c main_v14 (by decide)).trans <| (V11_of m outs c main_v14 (by decide)).trans <| Function.update_self _ _ _
/-- Region 3's output `main_v17` is not written again before the last host stretch. -/
private theorem V36_main_v17 (m : (ℓ : Loc nD τ sig) → Buf (Elt F) ℓ) (outs : Outs (F := F)) (c : Dev nD) :
    V36 m outs c main_v17 = outs 12 main_v17 c :=
  (V36_of m outs c main_v17 (by decide)).trans <| (V35_of m outs c main_v17 (by decide)).trans <| (V34_of m outs c main_v17 (by decide)).trans <| (V33_of m outs c main_v17 (by decide)).trans <| (V32_of m outs c main_v17 (by decide)).trans <| (V31_of m outs c main_v17 (by decide)).trans <| (V30_of m outs c main_v17 (by decide)).trans <| (V29_of m outs c main_v17 (by decide)).trans <| (V28_of m outs c main_v17 (by decide)).trans <| (V27_of m outs c main_v17 (by decide)).trans <| (V26_of m outs c main_v17 (by decide)).trans <| (V25_of m outs c main_v17 (by decide)).trans <| (V24_of m outs c main_v17 (by decide)).trans <| (V23_of m outs c main_v17 (by decide)).trans <| (V22_of m outs c main_v17 (by decide)).trans <| (V21_of m outs c main_v17 (by decide)).trans <| (V20_of m outs c main_v17 (by decide)).trans <| (V19_of m outs c main_v17 (by decide)).trans <| (V18_of m outs c main_v17 (by decide)).trans <| (V17_of m outs c main_v17 (by decide)).trans <| (V16_of m outs c main_v17 (by decide)).trans <| (V15_of m outs c main_v17 (by decide)).trans <| (V14_of m outs c main_v17 (by decide)).trans <| (V13_of m outs c main_v17 (by decide)).trans <| Function.update_self _ _ _
/-- Region 4's output `main_v20` is not written again before the last host stretch. -/
private theorem V36_main_v20 (m : (ℓ : Loc nD τ sig) → Buf (Elt F) ℓ) (outs : Outs (F := F)) (c : Dev nD) :
    V36 m outs c main_v20 = outs 14 main_v20 c :=
  (V36_of m outs c main_v20 (by decide)).trans <| (V35_of m outs c main_v20 (by decide)).trans <| (V34_of m outs c main_v20 (by decide)).trans <| (V33_of m outs c main_v20 (by decide)).trans <| (V32_of m outs c main_v20 (by decide)).trans <| (V31_of m outs c main_v20 (by decide)).trans <| (V30_of m outs c main_v20 (by decide)).trans <| (V29_of m outs c main_v20 (by decide)).trans <| (V28_of m outs c main_v20 (by decide)).trans <| (V27_of m outs c main_v20 (by decide)).trans <| (V26_of m outs c main_v20 (by decide)).trans <| (V25_of m outs c main_v20 (by decide)).trans <| (V24_of m outs c main_v20 (by decide)).trans <| (V23_of m outs c main_v20 (by decide)).trans <| (V22_of m outs c main_v20 (by decide)).trans <| (V21_of m outs c main_v20 (by decide)).trans <| (V20_of m outs c main_v20 (by decide)).trans <| (V19_of m outs c main_v20 (by decide)).trans <| (V18_of m outs c main_v20 (by decide)).trans <| (V17_of m outs c main_v20 (by decide)).trans <| (V16_of m outs c main_v20 (by decide)).trans <| (V15_of m outs c main_v20 (by decide)).trans <| Function.update_self _ _ _
/-- Region 5's output `main_v23` is not written again before the last host stretch. -/
private theorem V36_main_v23 (m : (ℓ : Loc nD τ sig) → Buf (Elt F) ℓ) (outs : Outs (F := F)) (c : Dev nD) :
    V36 m outs c main_v23 = outs 16 main_v23 c :=
  (V36_of m outs c main_v23 (by decide)).trans <| (V35_of m outs c main_v23 (by decide)).trans <| (V34_of m outs c main_v23 (by decide)).trans <| (V33_of m outs c main_v23 (by decide)).trans <| (V32_of m outs c main_v23 (by decide)).trans <| (V31_of m outs c main_v23 (by decide)).trans <| (V30_of m outs c main_v23 (by decide)).trans <| (V29_of m outs c main_v23 (by decide)).trans <| (V28_of m outs c main_v23 (by decide)).trans <| (V27_of m outs c main_v23 (by decide)).trans <| (V26_of m outs c main_v23 (by decide)).trans <| (V25_of m outs c main_v23 (by decide)).trans <| (V24_of m outs c main_v23 (by decide)).trans <| (V23_of m outs c main_v23 (by decide)).trans <| (V22_of m outs c main_v23 (by decide)).trans <| (V21_of m outs c main_v23 (by decide)).trans <| (V20_of m outs c main_v23 (by decide)).trans <| (V19_of m outs c main_v23 (by decide)).trans <| (V18_of m outs c main_v23 (by decide)).trans <| (V17_of m outs c main_v23 (by decide)).trans <| Function.update_self _ _ _
/-- Region 6's output `main_v26` is not written again before the last host stretch. -/
private theorem V36_main_v26 (m : (ℓ : Loc nD τ sig) → Buf (Elt F) ℓ) (outs : Outs (F := F)) (c : Dev nD) :
    V36 m outs c main_v26 = outs 18 main_v26 c :=
  (V36_of m outs c main_v26 (by decide)).trans <| (V35_of m outs c main_v26 (by decide)).trans <| (V34_of m outs c main_v26 (by decide)).trans <| (V33_of m outs c main_v26 (by decide)).trans <| (V32_of m outs c main_v26 (by decide)).trans <| (V31_of m outs c main_v26 (by decide)).trans <| (V30_of m outs c main_v26 (by decide)).trans <| (V29_of m outs c main_v26 (by decide)).trans <| (V28_of m outs c main_v26 (by decide)).trans <| (V27_of m outs c main_v26 (by decide)).trans <| (V26_of m outs c main_v26 (by decide)).trans <| (V25_of m outs c main_v26 (by decide)).trans <| (V24_of m outs c main_v26 (by decide)).trans <| (V23_of m outs c main_v26 (by decide)).trans <| (V22_of m outs c main_v26 (by decide)).trans <| (V21_of m outs c main_v26 (by decide)).trans <| (V20_of m outs c main_v26 (by decide)).trans <| (V19_of m outs c main_v26 (by decide)).trans <| Function.update_self _ _ _
/-- Region 7's output `main_v29` is not written again before the last host stretch. -/
private theorem V36_main_v29 (m : (ℓ : Loc nD τ sig) → Buf (Elt F) ℓ) (outs : Outs (F := F)) (c : Dev nD) :
    V36 m outs c main_v29 = outs 20 main_v29 c :=
  (V36_of m outs c main_v29 (by decide)).trans <| (V35_of m outs c main_v29 (by decide)).trans <| (V34_of m outs c main_v29 (by decide)).trans <| (V33_of m outs c main_v29 (by decide)).trans <| (V32_of m outs c main_v29 (by decide)).trans <| (V31_of m outs c main_v29 (by decide)).trans <| (V30_of m outs c main_v29 (by decide)).trans <| (V29_of m outs c main_v29 (by decide)).trans <| (V28_of m outs c main_v29 (by decide)).trans <| (V27_of m outs c main_v29 (by decide)).trans <| (V26_of m outs c main_v29 (by decide)).trans <| (V25_of m outs c main_v29 (by decide)).trans <| (V24_of m outs c main_v29 (by decide)).trans <| (V23_of m outs c main_v29 (by decide)).trans <| (V22_of m outs c main_v29 (by decide)).trans <| (V21_of m outs c main_v29 (by decide)).trans <| Function.update_self _ _ _
/-- Region 8's output `main_v32` is not written again before the last host stretch. -/
private theorem V36_main_v32 (m : (ℓ : Loc nD τ sig) → Buf (Elt F) ℓ) (outs : Outs (F := F)) (c : Dev nD) :
    V36 m outs c main_v32 = outs 22 main_v32 c :=
  (V36_of m outs c main_v32 (by decide)).trans <| (V35_of m outs c main_v32 (by decide)).trans <| (V34_of m outs c main_v32 (by decide)).trans <| (V33_of m outs c main_v32 (by decide)).trans <| (V32_of m outs c main_v32 (by decide)).trans <| (V31_of m outs c main_v32 (by decide)).trans <| (V30_of m outs c main_v32 (by decide)).trans <| (V29_of m outs c main_v32 (by decide)).trans <| (V28_of m outs c main_v32 (by decide)).trans <| (V27_of m outs c main_v32 (by decide)).trans <| (V26_of m outs c main_v32 (by decide)).trans <| (V25_of m outs c main_v32 (by decide)).trans <| (V24_of m outs c main_v32 (by decide)).trans <| (V23_of m outs c main_v32 (by decide)).trans <| Function.update_self _ _ _
/-- Region 9's output `main_v35` is not written again before the last host stretch. -/
private theorem V36_main_v35 (m : (ℓ : Loc nD τ sig) → Buf (Elt F) ℓ) (outs : Outs (F := F)) (c : Dev nD) :
    V36 m outs c main_v35 = outs 24 main_v35 c :=
  (V36_of m outs c main_v35 (by decide)).trans <| (V35_of m outs c main_v35 (by decide)).trans <| (V34_of m outs c main_v35 (by decide)).trans <| (V33_of m outs c main_v35 (by decide)).trans <| (V32_of m outs c main_v35 (by decide)).trans <| (V31_of m outs c main_v35 (by decide)).trans <| (V30_of m outs c main_v35 (by decide)).trans <| (V29_of m outs c main_v35 (by decide)).trans <| (V28_of m outs c main_v35 (by decide)).trans <| (V27_of m outs c main_v35 (by decide)).trans <| (V26_of m outs c main_v35 (by decide)).trans <| (V25_of m outs c main_v35 (by decide)).trans <| Function.update_self _ _ _
/-- Region 10's output `main_v38` is not written again before the last host stretch. -/
private theorem V36_main_v38 (m : (ℓ : Loc nD τ sig) → Buf (Elt F) ℓ) (outs : Outs (F := F)) (c : Dev nD) :
    V36 m outs c main_v38 = outs 26 main_v38 c :=
  (V36_of m outs c main_v38 (by decide)).trans <| (V35_of m outs c main_v38 (by decide)).trans <| (V34_of m outs c main_v38 (by decide)).trans <| (V33_of m outs c main_v38 (by decide)).trans <| (V32_of m outs c main_v38 (by decide)).trans <| (V31_of m outs c main_v38 (by decide)).trans <| (V30_of m outs c main_v38 (by decide)).trans <| (V29_of m outs c main_v38 (by decide)).trans <| (V28_of m outs c main_v38 (by decide)).trans <| (V27_of m outs c main_v38 (by decide)).trans <| Function.update_self _ _ _
/-- Region 11's output `main_v41` is not written again before the last host stretch. -/
private theorem V36_main_v41 (m : (ℓ : Loc nD τ sig) → Buf (Elt F) ℓ) (outs : Outs (F := F)) (c : Dev nD) :
    V36 m outs c main_v41 = outs 28 main_v41 c :=
  (V36_of m outs c main_v41 (by decide)).trans <| (V35_of m outs c main_v41 (by decide)).trans <| (V34_of m outs c main_v41 (by decide)).trans <| (V33_of m outs c main_v41 (by decide)).trans <| (V32_of m outs c main_v41 (by decide)).trans <| (V31_of m outs c main_v41 (by decide)).trans <| (V30_of m outs c main_v41 (by decide)).trans <| (V29_of m outs c main_v41 (by decide)).trans <| Function.update_self _ _ _
/-- Region 12's output `main_v44` is not written again before the last host stretch. -/
private theorem V36_main_v44 (m : (ℓ : Loc nD τ sig) → Buf (Elt F) ℓ) (outs : Outs (F := F)) (c : Dev nD) :
    V36 m outs c main_v44 = outs 30 main_v44 c :=
  (V36_of m outs c main_v44 (by decide)).trans <| (V35_of m outs c main_v44 (by decide)).trans <| (V34_of m outs c main_v44 (by decide)).trans <| (V33_of m outs c main_v44 (by decide)).trans <| (V32_of m outs c main_v44 (by decide)).trans <| (V31_of m outs c main_v44 (by decide)).trans <| Function.update_self _ _ _
/-- Region 13's output `main_v47` is not written again before the last host stretch. -/
private theorem V36_main_v47 (m : (ℓ : Loc nD τ sig) → Buf (Elt F) ℓ) (outs : Outs (F := F)) (c : Dev nD) :
    V36 m outs c main_v47 = outs 32 main_v47 c :=
  (V36_of m outs c main_v47 (by decide)).trans <| (V35_of m outs c main_v47 (by decide)).trans <| (V34_of m outs c main_v47 (by decide)).trans <| (V33_of m outs c main_v47 (by decide)).trans <| Function.update_self _ _ _
/-- Region 14's output `main_v50` is not written again before the last host stretch. -/
private theorem V36_main_v50 (m : (ℓ : Loc nD τ sig) → Buf (Elt F) ℓ) (outs : Outs (F := F)) (c : Dev nD) :
    V36 m outs c main_v50 = outs 34 main_v50 c :=
  (V36_of m outs c main_v50 (by decide)).trans <| (V35_of m outs c main_v50 (by decide)).trans <| Function.update_self _ _ _
/-- Region 15's output `main_v53` is not written again before the last host stretch. -/
private theorem V36_main_v53 (m : (ℓ : Loc nD τ sig) → Buf (Elt F) ℓ) (outs : Outs (F := F)) (c : Dev nD) :
    V36 m outs c main_v53 = outs 36 main_v53 c :=
  Function.update_self _ _ _

/-- What the last valuation holds in the result buffer: the last host stretch lays the sixteen regions' outputs end to
    end (`main_v54`) and keeps the first 1000000 entries (`main_v55`); each output is still what its region left. -/
theorem tail_eq (m : (ℓ : Loc nD τ sig) → Buf (Elt F) ℓ) (outs : Outs (F := F)) (c : Dev nD) :
    V37 m outs c main_v55
      = extractStridedSlice S1000000 ![0] (concatenate S1048576 0 [⟨S65536, outs 6 main_v8 c⟩, ⟨S65536, outs 8 main_v11 c⟩, ⟨S65536, outs 10 main_v14 c⟩, ⟨S65536, outs 12 main_v17 c⟩, ⟨S65536, outs 14 main_v20 c⟩, ⟨S65536, outs 16 main_v23 c⟩, ⟨S65536, outs 18 main_v26 c⟩, ⟨S65536, outs 20 main_v29 c⟩, ⟨S65536, outs 22 main_v32 c⟩, ⟨S65536, outs 24 main_v35 c⟩, ⟨S65536, outs 26 main_v38 c⟩, ⟨S65536, outs 28 main_v41 c⟩, ⟨S65536, outs 30 main_v44 c⟩, ⟨S65536, outs 32 main_v47 c⟩, ⟨S65536, outs 34 main_v50 c⟩, ⟨S65536, outs 36 main_v53 c⟩] concatenates_S65536_S65536_S65536_S65536_S65536_S65536_S65536_S65536_S65536_S65536_S65536_S65536_S65536_S65536_S65536_S65536_S1048576_d0) slices_S1048576_S1000000_0 := by
  show StableHlo.after hostOps16 (V36 m outs c) (Proc.devRef .tc main_v55) = _
  after_results
  show extractStridedSlice S1000000 ![0] (concatenate S1048576 0 [⟨S65536, V36 m outs c main_v8⟩, ⟨S65536, V36 m outs c main_v11⟩, ⟨S65536, V36 m outs c main_v14⟩, ⟨S65536, V36 m outs c main_v17⟩, ⟨S65536, V36 m outs c main_v20⟩, ⟨S65536, V36 m outs c main_v23⟩, ⟨S65536, V36 m outs c main_v26⟩, ⟨S65536, V36 m outs c main_v29⟩, ⟨S65536, V36 m outs c main_v32⟩, ⟨S65536, V36 m outs c main_v35⟩, ⟨S65536, V36 m outs c main_v38⟩, ⟨S65536, V36 m outs c main_v41⟩, ⟨S65536, V36 m outs c main_v44⟩, ⟨S65536, V36 m outs c main_v47⟩, ⟨S65536, V36 m outs c main_v50⟩, ⟨S65536, V36 m outs c main_v53⟩] concatenates_S65536_S65536_S65536_S65536_S65536_S65536_S65536_S65536_S65536_S65536_S65536_S65536_S65536_S65536_S65536_S65536_S1048576_d0) slices_S1048576_S1000000_0 = _
  rw [V36_main_v8 m outs c, V36_main_v11 m outs c, V36_main_v14 m outs c, V36_main_v17 m outs c, V36_main_v20 m outs c, V36_main_v23 m outs c, V36_main_v26 m outs c, V36_main_v29 m outs c, V36_main_v32 m outs c, V36_main_v35 m outs c, V36_main_v38 m outs c, V36_main_v41 m outs c, V36_main_v44 m outs c, V36_main_v47 m outs c, V36_main_v50 m outs c, V36_main_v53 m outs c]

/-! ## The result read at an index -/

/-- The sixteen regions' outputs on core `c`, in the order the last host stretch lays them end to end: entry `K` is
    what region `K` leaves in `main_v(8+3K)`. -/
def chunk (outs : Outs (F := F)) (c : Dev nD) : Fin 16 → (⟨S65536, .f32⟩ : BufTy).Contents (Elt F) :=
  ![outs 6 main_v8 c, outs 8 main_v11 c, outs 10 main_v14 c, outs 12 main_v17 c, outs 14 main_v20 c, outs 16 main_v23 c, outs 18 main_v26 c, outs 20 main_v29 c, outs 22 main_v32 c, outs 24 main_v35 c, outs 26 main_v38 c, outs 28 main_v41 c, outs 30 main_v44 c, outs 32 main_v47 c, outs 34 main_v50 c, outs 36 main_v53 c]

/-- The result read at an index: entry `e` of `main_v55` is entry `e % 65536` of the output of region `e / 65536`. -/
theorem tail_apply (m : (ℓ : Loc nD τ sig) → Buf (Elt F) ℓ) (outs : Outs (F := F)) (c : Dev nD) (e : Fin 1000000) :
    (V37 m outs c main_v55 : (⟨S1000000, .f32⟩ : BufTy).Contents (Elt F)) (ValueIdx.ix1 e)
      = chunk outs c ⟨e.val / 65536, by have := e.isLt; omega⟩ (ValueIdx.ix1 ⟨e.val % 65536, Nat.mod_lt _ (by decide)⟩) := by
  rw [tail_eq]
  -- the slice starts at 0: entry `e` of it is entry `e` of the concatenation
  refine (extractStridedSlice_apply (s := S1048576) (t := S1000000) ![0] _ slices_S1048576_S1000000_0 (ValueIdx.ix1 e)
    (ValueIdx.ix1 ⟨e.val, by have := e.isLt; omega⟩) (fun a => match a with | ⟨0, _⟩ => (Nat.zero_add _).symm)).trans ?_
  -- sixteen pieces of one extent 65536: the quotient names the piece, the remainder the place in it
  exact concatenate_ofFn_apply (t := S1048576) (s₁ := S65536) 0 (chunk outs c) concatenates_S65536_S65536_S65536_S65536_S65536_S65536_S65536_S65536_S65536_S65536_S65536_S65536_S65536_S65536_S65536_S65536_S1048576_d0 rfl 65536 rfl
    (ValueIdx.ix1 ⟨e.val, by have := e.isLt; omega⟩) ⟨e.val / 65536, by have := e.isLt; omega⟩ rfl
    (ValueIdx.ix1 ⟨e.val % 65536, Nat.mod_lt _ (by decide)⟩) rfl (fun b hb => match b, hb with | ⟨0, _⟩, hb => absurd rfl hb)

end Cert.Proof.KI

end
-- ==== Proof.KITables.lean ====
/-
  What the sixteen regions' tables hold. The host operations before the regions cut row 0 (the head words) and row 1 (the tail
  words) out of the [2, 1000000] index array, lay each out as a list of 1000000 words, and pad each list with zeros to
  1048576 words. Region K's two tables are words 65536·K … 65536·K + 65535 of the two padded lists. So entry j of region
  K's table r is entry 65536·K + j of row r of the index array where that entry exists, and zero past the row's end. When
  every word of the index array is below 200000, so is every table entry: a padded entry is zero.
-/
import proofs.«414028_j29231547417249_2_alg».proof.Proof.KIAdm
import Idealize.ShloMosaic.Lib.KernelVsHost
import Idealize.ShloMosaic.Lib.Pipeline.Value
import Idealize.ShloMosaic.Lib.ValueLayout
import Idealize.ShloMosaic.Lib.ValueIdx
import Idealize.ShloMosaic.Lib.StableHlo.Run

noncomputable section

namespace Cert.Proof.KI

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ)

/-- Entry n of row r of the index array on core c, zero past the row's end. -/
def padRow (c : Dev nD) (r : Fin 2) (n : ℕ) : BitVec 32 :=
  if h : n < 1000000 then (m ((c : Thread nD τ).loc main_arg2) : IVec S2x1000000 32) (ValueIdx.ix2 r ⟨n, h⟩) else 0#32

/-- When every word of the index array is below 200000, so is every entry of a padded row. -/
theorem padRow_lt (hidx : ∀ i : S2x1000000.Idx, ((m (((0 : Dev nD) : Thread nD τ).loc main_arg2) : IVec S2x1000000 32) i).toNat < 200000)
    (r : Fin 2) (n : ℕ) : (padRow m 0 r n).toNat < 200000 := by
  unfold padRow
  split
  · exact hidx _
  · decide

/-! ## Layout operations at an index -/

/-- Row o of a [2, 1000000] array, laid out as a list and padded with zeros to 1048576 entries, read at entry n: the array's
    entry (o, n) when n is inside the row, zero past its end. -/
theorem padded_apply (A : IVec S2x1000000 32) (o : ℕ) (ho : o < 2) (hs : S2x1000000.Slices ![o, 0] S1x1000000)
    (hc : S1x1000000.ShapeCasts S1000000) (hp : S1000000.Pads (![0] : Fin 1 → Nat) ![48576] ![0] S1048576) (hu : 0 < S_.numel)
    (n : Fin 1048576) :
    pad S1048576 ![0] ![48576] ![0] (shapeCast S1000000 (extractStridedSlice S1x1000000 ![o, 0] A hs) hc) (constantI S_ 32 0#32) hp hu
        (ValueIdx.ix1 n)
      = if h : n.val < 1000000 then A (ValueIdx.ix2 (⟨o, ho⟩ : Fin 2) ⟨n.val, h⟩) else 0#32 := by
  by_cases h : n.val < 1000000
  · rw [dif_pos h]
    refine (pad_apply_of_inside _ _ _ _ _ hp hu (ValueIdx.ix1 n) (ValueIdx.ix1 (⟨n.val, h⟩ : Fin 1000000)) fun a => ?_).trans ?_
    · match a with
      | ⟨0, _⟩ => show n.val = 0 + n.val * (0 + 1); omega
    refine (ValueIdx.shapeCast_1a_a_apply _ hc ⟨n.val, h⟩).trans ?_
    exact ValueIdx.slice2_axis0_apply o A hs (0 : Fin 1) ⟨n.val, h⟩ ⟨o, ho⟩ (Nat.add_zero o).symm
  · rw [dif_neg h]
    refine (pad_apply_of_not_inside _ _ _ _ _ hp hu (ValueIdx.ix1 n) (0 : Fin 1) ?_).trans rfl
    show ¬(0 ≤ n.val ∧ (n.val - 0) % (0 + 1) = 0 ∧ (n.val - 0) / (0 + 1) < 1000000)
    omega

/-- Words o … o + 65535 of a list of 1048576, read at entry j: the list's entry o + j. -/
theorem chunk_apply {α : Type} (o : ℕ) (x : S1048576.Idx → α) (hs : S1048576.Slices ![o] S65536) (j : Fin 65536) (k : Fin 1048576)
    (hk : k.val = o + j.val) : extractStridedSlice S65536 ![o] x hs (ValueIdx.ix1 j) = x (ValueIdx.ix1 k) :=
  extractStridedSlice_apply _ _ _ _ _ fun ax => by
    match ax with
    | ⟨0, _⟩ => exact hk

/-! ## The host operations before the regions, over any contents -/

theorem rowH_of (X : Valuation τ sig (Elt F)) :
    (StableHlo.after (hostOps0 (F := F)) X (Proc.devRef .tc main_v1) : IVec S1000000 32)
      = shapeCast S1000000 (extractStridedSlice S1x1000000 ![0, 0] (X (Proc.devRef .tc main_arg2) : IVec S2x1000000 32) slices_S2x1000000_S1x1000000_0_0)
          shapeCasts_S1x1000000_S1000000 := by
  after_results
  rfl

theorem rowT_of (X : Valuation τ sig (Elt F)) :
    (StableHlo.after (hostOps0 (F := F)) X (Proc.devRef .tc main_v3) : IVec S1000000 32)
      = shapeCast S1000000 (extractStridedSlice S1x1000000 ![1, 0] (X (Proc.devRef .tc main_arg2) : IVec S2x1000000 32) slices_S2x1000000_S1x1000000_1_0)
          shapeCasts_S1x1000000_S1000000 := by
  after_results
  rfl

theorem zeroH_of (X : Valuation τ sig (Elt F)) :
    (StableHlo.after (hostOps0 (F := F)) X (Proc.devRef .tc main_c) : IVec S_ 32) = constantI S_ 32 0#32 := by
  after_results

theorem zeroT_of (X : Valuation τ sig (Elt F)) :
    (StableHlo.after (hostOps0_2 (F := F)) X (Proc.devRef .tc main_c_0) : IVec S_ 32) = constantI S_ 32 0#32 := by
  after_results

theorem padH_of (X : Valuation τ sig (Elt F)) :
    (StableHlo.after (hostOps0_1 (F := F)) X (Proc.devRef .tc main_v4) : IVec S1048576 32)
      = pad S1048576 ![0] ![48576] ![0] (X (Proc.devRef .tc main_v1) : IVec S1000000 32) (X (Proc.devRef .tc main_c) : IVec S_ 32)
          pads_S1000000_S1048576_0485760 h_S_ := by
  after_results
  rfl

theorem padT_of (X : Valuation τ sig (Elt F)) :
    (StableHlo.after (hostOps0_3 (F := F)) X (Proc.devRef .tc main_v5) : IVec S1048576 32)
      = pad S1048576 ![0] ![48576] ![0] (X (Proc.devRef .tc main_v3) : IVec S1000000 32) (X (Proc.devRef .tc main_c_0) : IVec S_ 32)
          pads_S1000000_S1048576_0485760 h_S_ := by
  after_results
  rfl

/-! ## The two padded lists -/

/-- The padded head list is row 0 of the index array, zero past its end. -/
theorem padH_read (n : Fin 1048576) : (V5 m (0 : Dev nD) main_v4 : IVec S1048576 32) (ValueIdx.ix1 n) = padRow m 0 0 n.val := by
  rw [V5_of m 0 main_v4 (by decide), V4_of m 0 main_v4 (by decide), V3_of m 0 main_v4 (by decide)]
  have e : (V2 m (0 : Dev nD) main_v4 : IVec S1048576 32)
      = pad S1048576 ![0] ![48576] ![0]
          (shapeCast S1000000 (extractStridedSlice S1x1000000 ![0, 0] (V0 m (0 : Dev nD) (Proc.devRef .tc main_arg2) : IVec S2x1000000 32) slices_S2x1000000_S1x1000000_0_0)
            shapeCasts_S1x1000000_S1000000)
          (constantI S_ 32 0#32) pads_S1000000_S1048576_0485760 h_S_ := by
    refine (padH_of (V1 m (0 : Dev nD))).trans ?_
    rw [← rowH_of (V0 m (0 : Dev nD)), ← zeroH_of (V0 m (0 : Dev nD))]
  rw [e]
  exact padded_apply _ 0 (by decide) _ _ _ _ n

/-- The padded tail list is row 1 of the index array, zero past its end. -/
theorem padT_read (n : Fin 1048576) : (V5 m (0 : Dev nD) main_v5 : IVec S1048576 32) (ValueIdx.ix1 n) = padRow m 0 1 n.val := by
  rw [V5_of m 0 main_v5 (by decide)]
  have e : (V4 m (0 : Dev nD) main_v5 : IVec S1048576 32)
      = pad S1048576 ![0] ![48576] ![0]
          (shapeCast S1000000 (extractStridedSlice S1x1000000 ![1, 0] (V0 m (0 : Dev nD) (Proc.devRef .tc main_arg2) : IVec S2x1000000 32) slices_S2x1000000_S1x1000000_1_0)
            shapeCasts_S1x1000000_S1000000)
          (constantI S_ 32 0#32) pads_S1000000_S1048576_0485760 h_S_ := by
    refine (padT_of (V3 m (0 : Dev nD))).trans ?_
    rw [V3_of m 0 main_v3 (by decide), V2_of m 0 main_v3 (by decide), ← rowT_of (V0 m (0 : Dev nD)), ← zeroT_of (V2 m (0 : Dev nD))]
  rw [e]
  exact padded_apply _ 1 (by decide) _ _ _ _ n

/-! ## Region 0 -/

theorem slice0_h (X : Valuation τ sig (Elt F)) :
    (StableHlo.after (hostOps0_4 (F := F)) X (Proc.devRef .tc main_v6) : IVec S65536 32)
      = extractStridedSlice S65536 ![0] (X (Proc.devRef .tc main_v4) : IVec S1048576 32) slices_S1048576_S65536_0 := by
  after_results

theorem slice0_t (X : Valuation τ sig (Elt F)) :
    (StableHlo.after (hostOps0_4 (F := F)) X (Proc.devRef .tc main_v7) : IVec S65536 32)
      = extractStridedSlice S65536 ![0] (X (Proc.devRef .tc main_v5) : IVec S1048576 32) slices_S1048576_S65536_0 := by
  after_results

/-- Entry j of region 0's table 0 is entry 0 + j of row 0 of the index array, zero past the row's end. -/
theorem tbl0_read0 (j : Fin 65536) : (tbl0 m 0 : IVec S65536 32) (ValueIdx.ix1 j) = padRow m 0 0 (65536 * 0 + j.val) := by
  show (StableHlo.after (hostOps0_4 (F := F)) (V4 m (0 : Dev nD)) (Proc.devRef .tc main_v6) : IVec S65536 32) (ValueIdx.ix1 j) = _
  rw [slice0_h]
  rw [← V5_of m 0 main_v4 (by decide)]
  have hj := j.isLt
  exact (chunk_apply 0 _ _ j ⟨65536 * 0 + j.val, by omega⟩ (by show 65536 * 0 + j.val = 0 + j.val; omega)).trans (padH_read m _)

/-- Entry j of region 0's table 1 is entry 0 + j of row 1 of the index array, zero past the row's end. -/
theorem tbl0_read1 (j : Fin 65536) : (tbl0 m 1 : IVec S65536 32) (ValueIdx.ix1 j) = padRow m 0 1 (65536 * 0 + j.val) := by
  show (StableHlo.after (hostOps0_4 (F := F)) (V4 m (0 : Dev nD)) (Proc.devRef .tc main_v7) : IVec S65536 32) (ValueIdx.ix1 j) = _
  rw [slice0_t]
  rw [← V5_of m 0 main_v5 (by decide)]
  have hj := j.isLt
  exact (chunk_apply 0 _ _ j ⟨65536 * 0 + j.val, by omega⟩ (by show 65536 * 0 + j.val = 0 + j.val; omega)).trans (padT_read m _)

theorem tbl0_lt0 (hidx : ∀ i : S2x1000000.Idx, ((m (((0 : Dev nD) : Thread nD τ).loc main_arg2) : IVec S2x1000000 32) i).toNat < 200000)
    (j : S65536.Idx) : ((tbl0 m 0 : IVec S65536 32) j).toNat < 200000 :=
  have e : (tbl0 m 0 : IVec S65536 32) j = padRow m 0 0 (65536 * 0 + (j 0).val) :=
    (congrArg (tbl0 m 0 : IVec S65536 32) (ValueIdx.eq_ix1 j)).trans (tbl0_read0 m (j 0))
  (congrArg BitVec.toNat e).trans_lt (padRow_lt m hidx _ _)

theorem tbl0_lt1 (hidx : ∀ i : S2x1000000.Idx, ((m (((0 : Dev nD) : Thread nD τ).loc main_arg2) : IVec S2x1000000 32) i).toNat < 200000)
    (j : S65536.Idx) : ((tbl0 m 1 : IVec S65536 32) j).toNat < 200000 :=
  have e : (tbl0 m 1 : IVec S65536 32) j = padRow m 0 1 (65536 * 0 + (j 0).val) :=
    (congrArg (tbl0 m 1 : IVec S65536 32) (ValueIdx.eq_ix1 j)).trans (tbl0_read1 m (j 0))
  (congrArg BitVec.toNat e).trans_lt (padRow_lt m hidx _ _)

/-! ## Region 1 -/

theorem slice1_h (X : Valuation τ sig (Elt F)) :
    (StableHlo.after (hostOps1 (F := F)) X (Proc.devRef .tc main_v9) : IVec S65536 32)
      = extractStridedSlice S65536 ![65536] (X (Proc.devRef .tc main_v4) : IVec S1048576 32) slices_S1048576_S65536_65536 := by
  after_results

theorem slice1_t (X : Valuation τ sig (Elt F)) :
    (StableHlo.after (hostOps1 (F := F)) X (Proc.devRef .tc main_v10) : IVec S65536 32)
      = extractStridedSlice S65536 ![65536] (X (Proc.devRef .tc main_v5) : IVec S1048576 32) slices_S1048576_S65536_65536 := by
  after_results

/-- Entry j of region 1's table 0 is entry 65536 + j of row 0 of the index array, zero past the row's end. -/
theorem tbl1_read0 (j : Fin 65536) : (tbl1 m 0 : IVec S65536 32) (ValueIdx.ix1 j) = padRow m 0 0 (65536 * 1 + j.val) := by
  show (StableHlo.after (hostOps1 (F := F)) (V5 m (0 : Dev nD)) (Proc.devRef .tc main_v9) : IVec S65536 32) (ValueIdx.ix1 j) = _
  rw [slice1_h]
  have hj := j.isLt
  exact (chunk_apply 65536 _ _ j ⟨65536 * 1 + j.val, by omega⟩ (by show 65536 * 1 + j.val = 65536 + j.val; omega)).trans (padH_read m _)

/-- Entry j of region 1's table 1 is entry 65536 + j of row 1 of the index array, zero past the row's end. -/
theorem tbl1_read1 (j : Fin 65536) : (tbl1 m 1 : IVec S65536 32) (ValueIdx.ix1 j) = padRow m 0 1 (65536 * 1 + j.val) := by
  show (StableHlo.after (hostOps1 (F := F)) (V5 m (0 : Dev nD)) (Proc.devRef .tc main_v10) : IVec S65536 32) (ValueIdx.ix1 j) = _
  rw [slice1_t]
  have hj := j.isLt
  exact (chunk_apply 65536 _ _ j ⟨65536 * 1 + j.val, by omega⟩ (by show 65536 * 1 + j.val = 65536 + j.val; omega)).trans (padT_read m _)

theorem tbl1_lt0 (hidx : ∀ i : S2x1000000.Idx, ((m (((0 : Dev nD) : Thread nD τ).loc main_arg2) : IVec S2x1000000 32) i).toNat < 200000)
    (j : S65536.Idx) : ((tbl1 m 0 : IVec S65536 32) j).toNat < 200000 :=
  have e : (tbl1 m 0 : IVec S65536 32) j = padRow m 0 0 (65536 * 1 + (j 0).val) :=
    (congrArg (tbl1 m 0 : IVec S65536 32) (ValueIdx.eq_ix1 j)).trans (tbl1_read0 m (j 0))
  (congrArg BitVec.toNat e).trans_lt (padRow_lt m hidx _ _)

theorem tbl1_lt1 (hidx : ∀ i : S2x1000000.Idx, ((m (((0 : Dev nD) : Thread nD τ).loc main_arg2) : IVec S2x1000000 32) i).toNat < 200000)
    (j : S65536.Idx) : ((tbl1 m 1 : IVec S65536 32) j).toNat < 200000 :=
  have e : (tbl1 m 1 : IVec S65536 32) j = padRow m 0 1 (65536 * 1 + (j 0).val) :=
    (congrArg (tbl1 m 1 : IVec S65536 32) (ValueIdx.eq_ix1 j)).trans (tbl1_read1 m (j 0))
  (congrArg BitVec.toNat e).trans_lt (padRow_lt m hidx _ _)

/-! ## Region 2 -/

theorem slice2_h (X : Valuation τ sig (Elt F)) :
    (StableHlo.after (hostOps2 (F := F)) X (Proc.devRef .tc main_v12) : IVec S65536 32)
      = extractStridedSlice S65536 ![131072] (X (Proc.devRef .tc main_v4) : IVec S1048576 32) slices_S1048576_S65536_131072 := by
  after_results

theorem slice2_t (X : Valuation τ sig (Elt F)) :
    (StableHlo.after (hostOps2 (F := F)) X (Proc.devRef .tc main_v13) : IVec S65536 32)
      = extractStridedSlice S65536 ![131072] (X (Proc.devRef .tc main_v5) : IVec S1048576 32) slices_S1048576_S65536_131072 := by
  after_results

/-- Entry j of region 2's table 0 is entry 131072 + j of row 0 of the index array, zero past the row's end. -/
theorem tbl2_read0 (j : Fin 65536) : (tbl2 m 0 : IVec S65536 32) (ValueIdx.ix1 j) = padRow m 0 0 (65536 * 2 + j.val) := by
  show (StableHlo.after (hostOps2 (F := F)) (V5 m (0 : Dev nD)) (Proc.devRef .tc main_v12) : IVec S65536 32) (ValueIdx.ix1 j) = _
  rw [slice2_h]
  have hj := j.isLt
  exact (chunk_apply 131072 _ _ j ⟨65536 * 2 + j.val, by omega⟩ (by show 65536 * 2 + j.val = 131072 + j.val; omega)).trans (padH_read m _)

/-- Entry j of region 2's table 1 is entry 131072 + j of row 1 of the index array, zero past the row's end. -/
theorem tbl2_read1 (j : Fin 65536) : (tbl2 m 1 : IVec S65536 32) (ValueIdx.ix1 j) = padRow m 0 1 (65536 * 2 + j.val) := by
  show (StableHlo.after (hostOps2 (F := F)) (V5 m (0 : Dev nD)) (Proc.devRef .tc main_v13) : IVec S65536 32) (ValueIdx.ix1 j) = _
  rw [slice2_t]
  have hj := j.isLt
  exact (chunk_apply 131072 _ _ j ⟨65536 * 2 + j.val, by omega⟩ (by show 65536 * 2 + j.val = 131072 + j.val; omega)).trans (padT_read m _)

theorem tbl2_lt0 (hidx : ∀ i : S2x1000000.Idx, ((m (((0 : Dev nD) : Thread nD τ).loc main_arg2) : IVec S2x1000000 32) i).toNat < 200000)
    (j : S65536.Idx) : ((tbl2 m 0 : IVec S65536 32) j).toNat < 200000 :=
  have e : (tbl2 m 0 : IVec S65536 32) j = padRow m 0 0 (65536 * 2 + (j 0).val) :=
    (congrArg (tbl2 m 0 : IVec S65536 32) (ValueIdx.eq_ix1 j)).trans (tbl2_read0 m (j 0))
  (congrArg BitVec.toNat e).trans_lt (padRow_lt m hidx _ _)

theorem tbl2_lt1 (hidx : ∀ i : S2x1000000.Idx, ((m (((0 : Dev nD) : Thread nD τ).loc main_arg2) : IVec S2x1000000 32) i).toNat < 200000)
    (j : S65536.Idx) : ((tbl2 m 1 : IVec S65536 32) j).toNat < 200000 :=
  have e : (tbl2 m 1 : IVec S65536 32) j = padRow m 0 1 (65536 * 2 + (j 0).val) :=
    (congrArg (tbl2 m 1 : IVec S65536 32) (ValueIdx.eq_ix1 j)).trans (tbl2_read1 m (j 0))
  (congrArg BitVec.toNat e).trans_lt (padRow_lt m hidx _ _)

/-! ## Region 3 -/

theorem slice3_h (X : Valuation τ sig (Elt F)) :
    (StableHlo.after (hostOps3 (F := F)) X (Proc.devRef .tc main_v15) : IVec S65536 32)
      = extractStridedSlice S65536 ![196608] (X (Proc.devRef .tc main_v4) : IVec S1048576 32) slices_S1048576_S65536_196608 := by
  after_results

theorem slice3_t (X : Valuation τ sig (Elt F)) :
    (StableHlo.after (hostOps3 (F := F)) X (Proc.devRef .tc main_v16) : IVec S65536 32)
      = extractStridedSlice S65536 ![196608] (X (Proc.devRef .tc main_v5) : IVec S1048576 32) slices_S1048576_S65536_196608 := by
  after_results

/-- Entry j of region 3's table 0 is entry 196608 + j of row 0 of the index array, zero past the row's end. -/
theorem tbl3_read0 (j : Fin 65536) : (tbl3 m 0 : IVec S65536 32) (ValueIdx.ix1 j) = padRow m 0 0 (65536 * 3 + j.val) := by
  show (StableHlo.after (hostOps3 (F := F)) (V5 m (0 : Dev nD)) (Proc.devRef .tc main_v15) : IVec S65536 32) (ValueIdx.ix1 j) = _
  rw [slice3_h]
  have hj := j.isLt
  exact (chunk_apply 196608 _ _ j ⟨65536 * 3 + j.val, by omega⟩ (by show 65536 * 3 + j.val = 196608 + j.val; omega)).trans (padH_read m _)

/-- Entry j of region 3's table 1 is entry 196608 + j of row 1 of the index array, zero past the row's end. -/
theorem tbl3_read1 (j : Fin 65536) : (tbl3 m 1 : IVec S65536 32) (ValueIdx.ix1 j) = padRow m 0 1 (65536 * 3 + j.val) := by
  show (StableHlo.after (hostOps3 (F := F)) (V5 m (0 : Dev nD)) (Proc.devRef .tc main_v16) : IVec S65536 32) (ValueIdx.ix1 j) = _
  rw [slice3_t]
  have hj := j.isLt
  exact (chunk_apply 196608 _ _ j ⟨65536 * 3 + j.val, by omega⟩ (by show 65536 * 3 + j.val = 196608 + j.val; omega)).trans (padT_read m _)

theorem tbl3_lt0 (hidx : ∀ i : S2x1000000.Idx, ((m (((0 : Dev nD) : Thread nD τ).loc main_arg2) : IVec S2x1000000 32) i).toNat < 200000)
    (j : S65536.Idx) : ((tbl3 m 0 : IVec S65536 32) j).toNat < 200000 :=
  have e : (tbl3 m 0 : IVec S65536 32) j = padRow m 0 0 (65536 * 3 + (j 0).val) :=
    (congrArg (tbl3 m 0 : IVec S65536 32) (ValueIdx.eq_ix1 j)).trans (tbl3_read0 m (j 0))
  (congrArg BitVec.toNat e).trans_lt (padRow_lt m hidx _ _)

theorem tbl3_lt1 (hidx : ∀ i : S2x1000000.Idx, ((m (((0 : Dev nD) : Thread nD τ).loc main_arg2) : IVec S2x1000000 32) i).toNat < 200000)
    (j : S65536.Idx) : ((tbl3 m 1 : IVec S65536 32) j).toNat < 200000 :=
  have e : (tbl3 m 1 : IVec S65536 32) j = padRow m 0 1 (65536 * 3 + (j 0).val) :=
    (congrArg (tbl3 m 1 : IVec S65536 32) (ValueIdx.eq_ix1 j)).trans (tbl3_read1 m (j 0))
  (congrArg BitVec.toNat e).trans_lt (padRow_lt m hidx _ _)

/-! ## Region 4 -/

theorem slice4_h (X : Valuation τ sig (Elt F)) :
    (StableHlo.after (hostOps4 (F := F)) X (Proc.devRef .tc main_v18) : IVec S65536 32)
      = extractStridedSlice S65536 ![262144] (X (Proc.devRef .tc main_v4) : IVec S1048576 32) slices_S1048576_S65536_262144 := by
  after_results

theorem slice4_t (X : Valuation τ sig (Elt F)) :
    (StableHlo.after (hostOps4 (F := F)) X (Proc.devRef .tc main_v19) : IVec S65536 32)
      = extractStridedSlice S65536 ![262144] (X (Proc.devRef .tc main_v5) : IVec S1048576 32) slices_S1048576_S65536_262144 := by
  after_results

/-- Entry j of region 4's table 0 is entry 262144 + j of row 0 of the index array, zero past the row's end. -/
theorem tbl4_read0 (j : Fin 65536) : (tbl4 m 0 : IVec S65536 32) (ValueIdx.ix1 j) = padRow m 0 0 (65536 * 4 + j.val) := by
  show (StableHlo.after (hostOps4 (F := F)) (V5 m (0 : Dev nD)) (Proc.devRef .tc main_v18) : IVec S65536 32) (ValueIdx.ix1 j) = _
  rw [slice4_h]
  have hj := j.isLt
  exact (chunk_apply 262144 _ _ j ⟨65536 * 4 + j.val, by omega⟩ (by show 65536 * 4 + j.val = 262144 + j.val; omega)).trans (padH_read m _)

/-- Entry j of region 4's table 1 is entry 262144 + j of row 1 of the index array, zero past the row's end. -/
theorem tbl4_read1 (j : Fin 65536) : (tbl4 m 1 : IVec S65536 32) (ValueIdx.ix1 j) = padRow m 0 1 (65536 * 4 + j.val) := by
  show (StableHlo.after (hostOps4 (F := F)) (V5 m (0 : Dev nD)) (Proc.devRef .tc main_v19) : IVec S65536 32) (ValueIdx.ix1 j) = _
  rw [slice4_t]
  have hj := j.isLt
  exact (chunk_apply 262144 _ _ j ⟨65536 * 4 + j.val, by omega⟩ (by show 65536 * 4 + j.val = 262144 + j.val; omega)).trans (padT_read m _)

theorem tbl4_lt0 (hidx : ∀ i : S2x1000000.Idx, ((m (((0 : Dev nD) : Thread nD τ).loc main_arg2) : IVec S2x1000000 32) i).toNat < 200000)
    (j : S65536.Idx) : ((tbl4 m 0 : IVec S65536 32) j).toNat < 200000 :=
  have e : (tbl4 m 0 : IVec S65536 32) j = padRow m 0 0 (65536 * 4 + (j 0).val) :=
    (congrArg (tbl4 m 0 : IVec S65536 32) (ValueIdx.eq_ix1 j)).trans (tbl4_read0 m (j 0))
  (congrArg BitVec.toNat e).trans_lt (padRow_lt m hidx _ _)

theorem tbl4_lt1 (hidx : ∀ i : S2x1000000.Idx, ((m (((0 : Dev nD) : Thread nD τ).loc main_arg2) : IVec S2x1000000 32) i).toNat < 200000)
    (j : S65536.Idx) : ((tbl4 m 1 : IVec S65536 32) j).toNat < 200000 :=
  have e : (tbl4 m 1 : IVec S65536 32) j = padRow m 0 1 (65536 * 4 + (j 0).val) :=
    (congrArg (tbl4 m 1 : IVec S65536 32) (ValueIdx.eq_ix1 j)).trans (tbl4_read1 m (j 0))
  (congrArg BitVec.toNat e).trans_lt (padRow_lt m hidx _ _)

/-! ## Region 5 -/

theorem slice5_h (X : Valuation τ sig (Elt F)) :
    (StableHlo.after (hostOps5 (F := F)) X (Proc.devRef .tc main_v21) : IVec S65536 32)
      = extractStridedSlice S65536 ![327680] (X (Proc.devRef .tc main_v4) : IVec S1048576 32) slices_S1048576_S65536_327680 := by
  after_results

theorem slice5_t (X : Valuation τ sig (Elt F)) :
    (StableHlo.after (hostOps5 (F := F)) X (Proc.devRef .tc main_v22) : IVec S65536 32)
      = extractStridedSlice S65536 ![327680] (X (Proc.devRef .tc main_v5) : IVec S1048576 32) slices_S1048576_S65536_327680 := by
  after_results

/-- Entry j of region 5's table 0 is entry 327680 + j of row 0 of the index array, zero past the row's end. -/
theorem tbl5_read0 (j : Fin 65536) : (tbl5 m 0 : IVec S65536 32) (ValueIdx.ix1 j) = padRow m 0 0 (65536 * 5 + j.val) := by
  show (StableHlo.after (hostOps5 (F := F)) (V5 m (0 : Dev nD)) (Proc.devRef .tc main_v21) : IVec S65536 32) (ValueIdx.ix1 j) = _
  rw [slice5_h]
  have hj := j.isLt
  exact (chunk_apply 327680 _ _ j ⟨65536 * 5 + j.val, by omega⟩ (by show 65536 * 5 + j.val = 327680 + j.val; omega)).trans (padH_read m _)

/-- Entry j of region 5's table 1 is entry 327680 + j of row 1 of the index array, zero past the row's end. -/
theorem tbl5_read1 (j : Fin 65536) : (tbl5 m 1 : IVec S65536 32) (ValueIdx.ix1 j) = padRow m 0 1 (65536 * 5 + j.val) := by
  show (StableHlo.after (hostOps5 (F := F)) (V5 m (0 : Dev nD)) (Proc.devRef .tc main_v22) : IVec S65536 32) (ValueIdx.ix1 j) = _
  rw [slice5_t]
  have hj := j.isLt
  exact (chunk_apply 327680 _ _ j ⟨65536 * 5 + j.val, by omega⟩ (by show 65536 * 5 + j.val = 327680 + j.val; omega)).trans (padT_read m _)

theorem tbl5_lt0 (hidx : ∀ i : S2x1000000.Idx, ((m (((0 : Dev nD) : Thread nD τ).loc main_arg2) : IVec S2x1000000 32) i).toNat < 200000)
    (j : S65536.Idx) : ((tbl5 m 0 : IVec S65536 32) j).toNat < 200000 :=
  have e : (tbl5 m 0 : IVec S65536 32) j = padRow m 0 0 (65536 * 5 + (j 0).val) :=
    (congrArg (tbl5 m 0 : IVec S65536 32) (ValueIdx.eq_ix1 j)).trans (tbl5_read0 m (j 0))
  (congrArg BitVec.toNat e).trans_lt (padRow_lt m hidx _ _)

theorem tbl5_lt1 (hidx : ∀ i : S2x1000000.Idx, ((m (((0 : Dev nD) : Thread nD τ).loc main_arg2) : IVec S2x1000000 32) i).toNat < 200000)
    (j : S65536.Idx) : ((tbl5 m 1 : IVec S65536 32) j).toNat < 200000 :=
  have e : (tbl5 m 1 : IVec S65536 32) j = padRow m 0 1 (65536 * 5 + (j 0).val) :=
    (congrArg (tbl5 m 1 : IVec S65536 32) (ValueIdx.eq_ix1 j)).trans (tbl5_read1 m (j 0))
  (congrArg BitVec.toNat e).trans_lt (padRow_lt m hidx _ _)

/-! ## Region 6 -/

theorem slice6_h (X : Valuation τ sig (Elt F)) :
    (StableHlo.after (hostOps6 (F := F)) X (Proc.devRef .tc main_v24) : IVec S65536 32)
      = extractStridedSlice S65536 ![393216] (X (Proc.devRef .tc main_v4) : IVec S1048576 32) slices_S1048576_S65536_393216 := by
  after_results

theorem slice6_t (X : Valuation τ sig (Elt F)) :
    (StableHlo.after (hostOps6 (F := F)) X (Proc.devRef .tc main_v25) : IVec S65536 32)
      = extractStridedSlice S65536 ![393216] (X (Proc.devRef .tc main_v5) : IVec S1048576 32) slices_S1048576_S65536_393216 := by
  after_results

/-- Entry j of region 6's table 0 is entry 393216 + j of row 0 of the index array, zero past the row's end. -/
theorem tbl6_read0 (j : Fin 65536) : (tbl6 m 0 : IVec S65536 32) (ValueIdx.ix1 j) = padRow m 0 0 (65536 * 6 + j.val) := by
  show (StableHlo.after (hostOps6 (F := F)) (V5 m (0 : Dev nD)) (Proc.devRef .tc main_v24) : IVec S65536 32) (ValueIdx.ix1 j) = _
  rw [slice6_h]
  have hj := j.isLt
  exact (chunk_apply 393216 _ _ j ⟨65536 * 6 + j.val, by omega⟩ (by show 65536 * 6 + j.val = 393216 + j.val; omega)).trans (padH_read m _)

/-- Entry j of region 6's table 1 is entry 393216 + j of row 1 of the index array, zero past the row's end. -/
theorem tbl6_read1 (j : Fin 65536) : (tbl6 m 1 : IVec S65536 32) (ValueIdx.ix1 j) = padRow m 0 1 (65536 * 6 + j.val) := by
  show (StableHlo.after (hostOps6 (F := F)) (V5 m (0 : Dev nD)) (Proc.devRef .tc main_v25) : IVec S65536 32) (ValueIdx.ix1 j) = _
  rw [slice6_t]
  have hj := j.isLt
  exact (chunk_apply 393216 _ _ j ⟨65536 * 6 + j.val, by omega⟩ (by show 65536 * 6 + j.val = 393216 + j.val; omega)).trans (padT_read m _)

theorem tbl6_lt0 (hidx : ∀ i : S2x1000000.Idx, ((m (((0 : Dev nD) : Thread nD τ).loc main_arg2) : IVec S2x1000000 32) i).toNat < 200000)
    (j : S65536.Idx) : ((tbl6 m 0 : IVec S65536 32) j).toNat < 200000 :=
  have e : (tbl6 m 0 : IVec S65536 32) j = padRow m 0 0 (65536 * 6 + (j 0).val) :=
    (congrArg (tbl6 m 0 : IVec S65536 32) (ValueIdx.eq_ix1 j)).trans (tbl6_read0 m (j 0))
  (congrArg BitVec.toNat e).trans_lt (padRow_lt m hidx _ _)

theorem tbl6_lt1 (hidx : ∀ i : S2x1000000.Idx, ((m (((0 : Dev nD) : Thread nD τ).loc main_arg2) : IVec S2x1000000 32) i).toNat < 200000)
    (j : S65536.Idx) : ((tbl6 m 1 : IVec S65536 32) j).toNat < 200000 :=
  have e : (tbl6 m 1 : IVec S65536 32) j = padRow m 0 1 (65536 * 6 + (j 0).val) :=
    (congrArg (tbl6 m 1 : IVec S65536 32) (ValueIdx.eq_ix1 j)).trans (tbl6_read1 m (j 0))
  (congrArg BitVec.toNat e).trans_lt (padRow_lt m hidx _ _)

/-! ## Region 7 -/

theorem slice7_h (X : Valuation τ sig (Elt F)) :
    (StableHlo.after (hostOps7 (F := F)) X (Proc.devRef .tc main_v27) : IVec S65536 32)
      = extractStridedSlice S65536 ![458752] (X (Proc.devRef .tc main_v4) : IVec S1048576 32) slices_S1048576_S65536_458752 := by
  after_results

theorem slice7_t (X : Valuation τ sig (Elt F)) :
    (StableHlo.after (hostOps7 (F := F)) X (Proc.devRef .tc main_v28) : IVec S65536 32)
      = extractStridedSlice S65536 ![458752] (X (Proc.devRef .tc main_v5) : IVec S1048576 32) slices_S1048576_S65536_458752 := by
  after_results

/-- Entry j of region 7's table 0 is entry 458752 + j of row 0 of the index array, zero past the row's end. -/
theorem tbl7_read0 (j : Fin 65536) : (tbl7 m 0 : IVec S65536 32) (ValueIdx.ix1 j) = padRow m 0 0 (65536 * 7 + j.val) := by
  show (StableHlo.after (hostOps7 (F := F)) (V5 m (0 : Dev nD)) (Proc.devRef .tc main_v27) : IVec S65536 32) (ValueIdx.ix1 j) = _
  rw [slice7_h]
  have hj := j.isLt
  exact (chunk_apply 458752 _ _ j ⟨65536 * 7 + j.val, by omega⟩ (by show 65536 * 7 + j.val = 458752 + j.val; omega)).trans (padH_read m _)

/-- Entry j of region 7's table 1 is entry 458752 + j of row 1 of the index array, zero past the row's end. -/
theorem tbl7_read1 (j : Fin 65536) : (tbl7 m 1 : IVec S65536 32) (ValueIdx.ix1 j) = padRow m 0 1 (65536 * 7 + j.val) := by
  show (StableHlo.after (hostOps7 (F := F)) (V5 m (0 : Dev nD)) (Proc.devRef .tc main_v28) : IVec S65536 32) (ValueIdx.ix1 j) = _
  rw [slice7_t]
  have hj := j.isLt
  exact (chunk_apply 458752 _ _ j ⟨65536 * 7 + j.val, by omega⟩ (by show 65536 * 7 + j.val = 458752 + j.val; omega)).trans (padT_read m _)

theorem tbl7_lt0 (hidx : ∀ i : S2x1000000.Idx, ((m (((0 : Dev nD) : Thread nD τ).loc main_arg2) : IVec S2x1000000 32) i).toNat < 200000)
    (j : S65536.Idx) : ((tbl7 m 0 : IVec S65536 32) j).toNat < 200000 :=
  have e : (tbl7 m 0 : IVec S65536 32) j = padRow m 0 0 (65536 * 7 + (j 0).val) :=
    (congrArg (tbl7 m 0 : IVec S65536 32) (ValueIdx.eq_ix1 j)).trans (tbl7_read0 m (j 0))
  (congrArg BitVec.toNat e).trans_lt (padRow_lt m hidx _ _)

theorem tbl7_lt1 (hidx : ∀ i : S2x1000000.Idx, ((m (((0 : Dev nD) : Thread nD τ).loc main_arg2) : IVec S2x1000000 32) i).toNat < 200000)
    (j : S65536.Idx) : ((tbl7 m 1 : IVec S65536 32) j).toNat < 200000 :=
  have e : (tbl7 m 1 : IVec S65536 32) j = padRow m 0 1 (65536 * 7 + (j 0).val) :=
    (congrArg (tbl7 m 1 : IVec S65536 32) (ValueIdx.eq_ix1 j)).trans (tbl7_read1 m (j 0))
  (congrArg BitVec.toNat e).trans_lt (padRow_lt m hidx _ _)

/-! ## Region 8 -/

theorem slice8_h (X : Valuation τ sig (Elt F)) :
    (StableHlo.after (hostOps8 (F := F)) X (Proc.devRef .tc main_v30) : IVec S65536 32)
      = extractStridedSlice S65536 ![524288] (X (Proc.devRef .tc main_v4) : IVec S1048576 32) slices_S1048576_S65536_524288 := by
  after_results

theorem slice8_t (X : Valuation τ sig (Elt F)) :
    (StableHlo.after (hostOps8 (F := F)) X (Proc.devRef .tc main_v31) : IVec S65536 32)
      = extractStridedSlice S65536 ![524288] (X (Proc.devRef .tc main_v5) : IVec S1048576 32) slices_S1048576_S65536_524288 := by
  after_results

/-- Entry j of region 8's table 0 is entry 524288 + j of row 0 of the index array, zero past the row's end. -/
theorem tbl8_read0 (j : Fin 65536) : (tbl8 m 0 : IVec S65536 32) (ValueIdx.ix1 j) = padRow m 0 0 (65536 * 8 + j.val) := by
  show (StableHlo.after (hostOps8 (F := F)) (V5 m (0 : Dev nD)) (Proc.devRef .tc main_v30) : IVec S65536 32) (ValueIdx.ix1 j) = _
  rw [slice8_h]
  have hj := j.isLt
  exact (chunk_apply 524288 _ _ j ⟨65536 * 8 + j.val, by omega⟩ (by show 65536 * 8 + j.val = 524288 + j.val; omega)).trans (padH_read m _)

/-- Entry j of region 8's table 1 is entry 524288 + j of row 1 of the index array, zero past the row's end. -/
theorem tbl8_read1 (j : Fin 65536) : (tbl8 m 1 : IVec S65536 32) (ValueIdx.ix1 j) = padRow m 0 1 (65536 * 8 + j.val) := by
  show (StableHlo.after (hostOps8 (F := F)) (V5 m (0 : Dev nD)) (Proc.devRef .tc main_v31) : IVec S65536 32) (ValueIdx.ix1 j) = _
  rw [slice8_t]
  have hj := j.isLt
  exact (chunk_apply 524288 _ _ j ⟨65536 * 8 + j.val, by omega⟩ (by show 65536 * 8 + j.val = 524288 + j.val; omega)).trans (padT_read m _)

theorem tbl8_lt0 (hidx : ∀ i : S2x1000000.Idx, ((m (((0 : Dev nD) : Thread nD τ).loc main_arg2) : IVec S2x1000000 32) i).toNat < 200000)
    (j : S65536.Idx) : ((tbl8 m 0 : IVec S65536 32) j).toNat < 200000 :=
  have e : (tbl8 m 0 : IVec S65536 32) j = padRow m 0 0 (65536 * 8 + (j 0).val) :=
    (congrArg (tbl8 m 0 : IVec S65536 32) (ValueIdx.eq_ix1 j)).trans (tbl8_read0 m (j 0))
  (congrArg BitVec.toNat e).trans_lt (padRow_lt m hidx _ _)

theorem tbl8_lt1 (hidx : ∀ i : S2x1000000.Idx, ((m (((0 : Dev nD) : Thread nD τ).loc main_arg2) : IVec S2x1000000 32) i).toNat < 200000)
    (j : S65536.Idx) : ((tbl8 m 1 : IVec S65536 32) j).toNat < 200000 :=
  have e : (tbl8 m 1 : IVec S65536 32) j = padRow m 0 1 (65536 * 8 + (j 0).val) :=
    (congrArg (tbl8 m 1 : IVec S65536 32) (ValueIdx.eq_ix1 j)).trans (tbl8_read1 m (j 0))
  (congrArg BitVec.toNat e).trans_lt (padRow_lt m hidx _ _)

/-! ## Region 9 -/

theorem slice9_h (X : Valuation τ sig (Elt F)) :
    (StableHlo.after (hostOps9 (F := F)) X (Proc.devRef .tc main_v33) : IVec S65536 32)
      = extractStridedSlice S65536 ![589824] (X (Proc.devRef .tc main_v4) : IVec S1048576 32) slices_S1048576_S65536_589824 := by
  after_results

theorem slice9_t (X : Valuation τ sig (Elt F)) :
    (StableHlo.after (hostOps9 (F := F)) X (Proc.devRef .tc main_v34) : IVec S65536 32)
      = extractStridedSlice S65536 ![589824] (X (Proc.devRef .tc main_v5) : IVec S1048576 32) slices_S1048576_S65536_589824 := by
  after_results

/-- Entry j of region 9's table 0 is entry 589824 + j of row 0 of the index array, zero past the row's end. -/
theorem tbl9_read0 (j : Fin 65536) : (tbl9 m 0 : IVec S65536 32) (ValueIdx.ix1 j) = padRow m 0 0 (65536 * 9 + j.val) := by
  show (StableHlo.after (hostOps9 (F := F)) (V5 m (0 : Dev nD)) (Proc.devRef .tc main_v33) : IVec S65536 32) (ValueIdx.ix1 j) = _
  rw [slice9_h]
  have hj := j.isLt
  exact (chunk_apply 589824 _ _ j ⟨65536 * 9 + j.val, by omega⟩ (by show 65536 * 9 + j.val = 589824 + j.val; omega)).trans (padH_read m _)

/-- Entry j of region 9's table 1 is entry 589824 + j of row 1 of the index array, zero past the row's end. -/
theorem tbl9_read1 (j : Fin 65536) : (tbl9 m 1 : IVec S65536 32) (ValueIdx.ix1 j) = padRow m 0 1 (65536 * 9 + j.val) := by
  show (StableHlo.after (hostOps9 (F := F)) (V5 m (0 : Dev nD)) (Proc.devRef .tc main_v34) : IVec S65536 32) (ValueIdx.ix1 j) = _
  rw [slice9_t]
  have hj := j.isLt
  exact (chunk_apply 589824 _ _ j ⟨65536 * 9 + j.val, by omega⟩ (by show 65536 * 9 + j.val = 589824 + j.val; omega)).trans (padT_read m _)

theorem tbl9_lt0 (hidx : ∀ i : S2x1000000.Idx, ((m (((0 : Dev nD) : Thread nD τ).loc main_arg2) : IVec S2x1000000 32) i).toNat < 200000)
    (j : S65536.Idx) : ((tbl9 m 0 : IVec S65536 32) j).toNat < 200000 :=
  have e : (tbl9 m 0 : IVec S65536 32) j = padRow m 0 0 (65536 * 9 + (j 0).val) :=
    (congrArg (tbl9 m 0 : IVec S65536 32) (ValueIdx.eq_ix1 j)).trans (tbl9_read0 m (j 0))
  (congrArg BitVec.toNat e).trans_lt (padRow_lt m hidx _ _)

theorem tbl9_lt1 (hidx : ∀ i : S2x1000000.Idx, ((m (((0 : Dev nD) : Thread nD τ).loc main_arg2) : IVec S2x1000000 32) i).toNat < 200000)
    (j : S65536.Idx) : ((tbl9 m 1 : IVec S65536 32) j).toNat < 200000 :=
  have e : (tbl9 m 1 : IVec S65536 32) j = padRow m 0 1 (65536 * 9 + (j 0).val) :=
    (congrArg (tbl9 m 1 : IVec S65536 32) (ValueIdx.eq_ix1 j)).trans (tbl9_read1 m (j 0))
  (congrArg BitVec.toNat e).trans_lt (padRow_lt m hidx _ _)

/-! ## Region 10 -/

theorem slice10_h (X : Valuation τ sig (Elt F)) :
    (StableHlo.after (hostOps10 (F := F)) X (Proc.devRef .tc main_v36) : IVec S65536 32)
      = extractStridedSlice S65536 ![655360] (X (Proc.devRef .tc main_v4) : IVec S1048576 32) slices_S1048576_S65536_655360 := by
  after_results

theorem slice10_t (X : Valuation τ sig (Elt F)) :
    (StableHlo.after (hostOps10 (F := F)) X (Proc.devRef .tc main_v37) : IVec S65536 32)
      = extractStridedSlice S65536 ![655360] (X (Proc.devRef .tc main_v5) : IVec S1048576 32) slices_S1048576_S65536_655360 := by
  after_results

/-- Entry j of region 10's table 0 is entry 655360 + j of row 0 of the index array, zero past the row's end. -/
theorem tbl10_read0 (j : Fin 65536) : (tbl10 m 0 : IVec S65536 32) (ValueIdx.ix1 j) = padRow m 0 0 (65536 * 10 + j.val) := by
  show (StableHlo.after (hostOps10 (F := F)) (V5 m (0 : Dev nD)) (Proc.devRef .tc main_v36) : IVec S65536 32) (ValueIdx.ix1 j) = _
  rw [slice10_h]
  have hj := j.isLt
  exact (chunk_apply 655360 _ _ j ⟨65536 * 10 + j.val, by omega⟩ (by show 65536 * 10 + j.val = 655360 + j.val; omega)).trans (padH_read m _)

/-- Entry j of region 10's table 1 is entry 655360 + j of row 1 of the index array, zero past the row's end. -/
theorem tbl10_read1 (j : Fin 65536) : (tbl10 m 1 : IVec S65536 32) (ValueIdx.ix1 j) = padRow m 0 1 (65536 * 10 + j.val) := by
  show (StableHlo.after (hostOps10 (F := F)) (V5 m (0 : Dev nD)) (Proc.devRef .tc main_v37) : IVec S65536 32) (ValueIdx.ix1 j) = _
  rw [slice10_t]
  have hj := j.isLt
  exact (chunk_apply 655360 _ _ j ⟨65536 * 10 + j.val, by omega⟩ (by show 65536 * 10 + j.val = 655360 + j.val; omega)).trans (padT_read m _)

theorem tbl10_lt0 (hidx : ∀ i : S2x1000000.Idx, ((m (((0 : Dev nD) : Thread nD τ).loc main_arg2) : IVec S2x1000000 32) i).toNat < 200000)
    (j : S65536.Idx) : ((tbl10 m 0 : IVec S65536 32) j).toNat < 200000 :=
  have e : (tbl10 m 0 : IVec S65536 32) j = padRow m 0 0 (65536 * 10 + (j 0).val) :=
    (congrArg (tbl10 m 0 : IVec S65536 32) (ValueIdx.eq_ix1 j)).trans (tbl10_read0 m (j 0))
  (congrArg BitVec.toNat e).trans_lt (padRow_lt m hidx _ _)

theorem tbl10_lt1 (hidx : ∀ i : S2x1000000.Idx, ((m (((0 : Dev nD) : Thread nD τ).loc main_arg2) : IVec S2x1000000 32) i).toNat < 200000)
    (j : S65536.Idx) : ((tbl10 m 1 : IVec S65536 32) j).toNat < 200000 :=
  have e : (tbl10 m 1 : IVec S65536 32) j = padRow m 0 1 (65536 * 10 + (j 0).val) :=
    (congrArg (tbl10 m 1 : IVec S65536 32) (ValueIdx.eq_ix1 j)).trans (tbl10_read1 m (j 0))
  (congrArg BitVec.toNat e).trans_lt (padRow_lt m hidx _ _)

/-! ## Region 11 -/

theorem slice11_h (X : Valuation τ sig (Elt F)) :
    (StableHlo.after (hostOps11 (F := F)) X (Proc.devRef .tc main_v39) : IVec S65536 32)
      = extractStridedSlice S65536 ![720896] (X (Proc.devRef .tc main_v4) : IVec S1048576 32) slices_S1048576_S65536_720896 := by
  after_results

theorem slice11_t (X : Valuation τ sig (Elt F)) :
    (StableHlo.after (hostOps11 (F := F)) X (Proc.devRef .tc main_v40) : IVec S65536 32)
      = extractStridedSlice S65536 ![720896] (X (Proc.devRef .tc main_v5) : IVec S1048576 32) slices_S1048576_S65536_720896 := by
  after_results

/-- Entry j of region 11's table 0 is entry 720896 + j of row 0 of the index array, zero past the row's end. -/
theorem tbl11_read0 (j : Fin 65536) : (tbl11 m 0 : IVec S65536 32) (ValueIdx.ix1 j) = padRow m 0 0 (65536 * 11 + j.val) := by
  show (StableHlo.after (hostOps11 (F := F)) (V5 m (0 : Dev nD)) (Proc.devRef .tc main_v39) : IVec S65536 32) (ValueIdx.ix1 j) = _
  rw [slice11_h]
  have hj := j.isLt
  exact (chunk_apply 720896 _ _ j ⟨65536 * 11 + j.val, by omega⟩ (by show 65536 * 11 + j.val = 720896 + j.val; omega)).trans (padH_read m _)

/-- Entry j of region 11's table 1 is entry 720896 + j of row 1 of the index array, zero past the row's end. -/
theorem tbl11_read1 (j : Fin 65536) : (tbl11 m 1 : IVec S65536 32) (ValueIdx.ix1 j) = padRow m 0 1 (65536 * 11 + j.val) := by
  show (StableHlo.after (hostOps11 (F := F)) (V5 m (0 : Dev nD)) (Proc.devRef .tc main_v40) : IVec S65536 32) (ValueIdx.ix1 j) = _
  rw [slice11_t]
  have hj := j.isLt
  exact (chunk_apply 720896 _ _ j ⟨65536 * 11 + j.val, by omega⟩ (by show 65536 * 11 + j.val = 720896 + j.val; omega)).trans (padT_read m _)

theorem tbl11_lt0 (hidx : ∀ i : S2x1000000.Idx, ((m (((0 : Dev nD) : Thread nD τ).loc main_arg2) : IVec S2x1000000 32) i).toNat < 200000)
    (j : S65536.Idx) : ((tbl11 m 0 : IVec S65536 32) j).toNat < 200000 :=
  have e : (tbl11 m 0 : IVec S65536 32) j = padRow m 0 0 (65536 * 11 + (j 0).val) :=
    (congrArg (tbl11 m 0 : IVec S65536 32) (ValueIdx.eq_ix1 j)).trans (tbl11_read0 m (j 0))
  (congrArg BitVec.toNat e).trans_lt (padRow_lt m hidx _ _)

theorem tbl11_lt1 (hidx : ∀ i : S2x1000000.Idx, ((m (((0 : Dev nD) : Thread nD τ).loc main_arg2) : IVec S2x1000000 32) i).toNat < 200000)
    (j : S65536.Idx) : ((tbl11 m 1 : IVec S65536 32) j).toNat < 200000 :=
  have e : (tbl11 m 1 : IVec S65536 32) j = padRow m 0 1 (65536 * 11 + (j 0).val) :=
    (congrArg (tbl11 m 1 : IVec S65536 32) (ValueIdx.eq_ix1 j)).trans (tbl11_read1 m (j 0))
  (congrArg BitVec.toNat e).trans_lt (padRow_lt m hidx _ _)

/-! ## Region 12 -/

theorem slice12_h (X : Valuation τ sig (Elt F)) :
    (StableHlo.after (hostOps12 (F := F)) X (Proc.devRef .tc main_v42) : IVec S65536 32)
      = extractStridedSlice S65536 ![786432] (X (Proc.devRef .tc main_v4) : IVec S1048576 32) slices_S1048576_S65536_786432 := by
  after_results

theorem slice12_t (X : Valuation τ sig (Elt F)) :
    (StableHlo.after (hostOps12 (F := F)) X (Proc.devRef .tc main_v43) : IVec S65536 32)
      = extractStridedSlice S65536 ![786432] (X (Proc.devRef .tc main_v5) : IVec S1048576 32) slices_S1048576_S65536_786432 := by
  after_results

/-- Entry j of region 12's table 0 is entry 786432 + j of row 0 of the index array, zero past the row's end. -/
theorem tbl12_read0 (j : Fin 65536) : (tbl12 m 0 : IVec S65536 32) (ValueIdx.ix1 j) = padRow m 0 0 (65536 * 12 + j.val) := by
  show (StableHlo.after (hostOps12 (F := F)) (V5 m (0 : Dev nD)) (Proc.devRef .tc main_v42) : IVec S65536 32) (ValueIdx.ix1 j) = _
  rw [slice12_h]
  have hj := j.isLt
  exact (chunk_apply 786432 _ _ j ⟨65536 * 12 + j.val, by omega⟩ (by show 65536 * 12 + j.val = 786432 + j.val; omega)).trans (padH_read m _)

/-- Entry j of region 12's table 1 is entry 786432 + j of row 1 of the index array, zero past the row's end. -/
theorem tbl12_read1 (j : Fin 65536) : (tbl12 m 1 : IVec S65536 32) (ValueIdx.ix1 j) = padRow m 0 1 (65536 * 12 + j.val) := by
  show (StableHlo.after (hostOps12 (F := F)) (V5 m (0 : Dev nD)) (Proc.devRef .tc main_v43) : IVec S65536 32) (ValueIdx.ix1 j) = _
  rw [slice12_t]
  have hj := j.isLt
  exact (chunk_apply 786432 _ _ j ⟨65536 * 12 + j.val, by omega⟩ (by show 65536 * 12 + j.val = 786432 + j.val; omega)).trans (padT_read m _)

theorem tbl12_lt0 (hidx : ∀ i : S2x1000000.Idx, ((m (((0 : Dev nD) : Thread nD τ).loc main_arg2) : IVec S2x1000000 32) i).toNat < 200000)
    (j : S65536.Idx) : ((tbl12 m 0 : IVec S65536 32) j).toNat < 200000 :=
  have e : (tbl12 m 0 : IVec S65536 32) j = padRow m 0 0 (65536 * 12 + (j 0).val) :=
    (congrArg (tbl12 m 0 : IVec S65536 32) (ValueIdx.eq_ix1 j)).trans (tbl12_read0 m (j 0))
  (congrArg BitVec.toNat e).trans_lt (padRow_lt m hidx _ _)

theorem tbl12_lt1 (hidx : ∀ i : S2x1000000.Idx, ((m (((0 : Dev nD) : Thread nD τ).loc main_arg2) : IVec S2x1000000 32) i).toNat < 200000)
    (j : S65536.Idx) : ((tbl12 m 1 : IVec S65536 32) j).toNat < 200000 :=
  have e : (tbl12 m 1 : IVec S65536 32) j = padRow m 0 1 (65536 * 12 + (j 0).val) :=
    (congrArg (tbl12 m 1 : IVec S65536 32) (ValueIdx.eq_ix1 j)).trans (tbl12_read1 m (j 0))
  (congrArg BitVec.toNat e).trans_lt (padRow_lt m hidx _ _)

/-! ## Region 13 -/

theorem slice13_h (X : Valuation τ sig (Elt F)) :
    (StableHlo.after (hostOps13 (F := F)) X (Proc.devRef .tc main_v45) : IVec S65536 32)
      = extractStridedSlice S65536 ![851968] (X (Proc.devRef .tc main_v4) : IVec S1048576 32) slices_S1048576_S65536_851968 := by
  after_results

theorem slice13_t (X : Valuation τ sig (Elt F)) :
    (StableHlo.after (hostOps13 (F := F)) X (Proc.devRef .tc main_v46) : IVec S65536 32)
      = extractStridedSlice S65536 ![851968] (X (Proc.devRef .tc main_v5) : IVec S1048576 32) slices_S1048576_S65536_851968 := by
  after_results

/-- Entry j of region 13's table 0 is entry 851968 + j of row 0 of the index array, zero past the row's end. -/
theorem tbl13_read0 (j : Fin 65536) : (tbl13 m 0 : IVec S65536 32) (ValueIdx.ix1 j) = padRow m 0 0 (65536 * 13 + j.val) := by
  show (StableHlo.after (hostOps13 (F := F)) (V5 m (0 : Dev nD)) (Proc.devRef .tc main_v45) : IVec S65536 32) (ValueIdx.ix1 j) = _
  rw [slice13_h]
  have hj := j.isLt
  exact (chunk_apply 851968 _ _ j ⟨65536 * 13 + j.val, by omega⟩ (by show 65536 * 13 + j.val = 851968 + j.val; omega)).trans (padH_read m _)

/-- Entry j of region 13's table 1 is entry 851968 + j of row 1 of the index array, zero past the row's end. -/
theorem tbl13_read1 (j : Fin 65536) : (tbl13 m 1 : IVec S65536 32) (ValueIdx.ix1 j) = padRow m 0 1 (65536 * 13 + j.val) := by
  show (StableHlo.after (hostOps13 (F := F)) (V5 m (0 : Dev nD)) (Proc.devRef .tc main_v46) : IVec S65536 32) (ValueIdx.ix1 j) = _
  rw [slice13_t]
  have hj := j.isLt
  exact (chunk_apply 851968 _ _ j ⟨65536 * 13 + j.val, by omega⟩ (by show 65536 * 13 + j.val = 851968 + j.val; omega)).trans (padT_read m _)

theorem tbl13_lt0 (hidx : ∀ i : S2x1000000.Idx, ((m (((0 : Dev nD) : Thread nD τ).loc main_arg2) : IVec S2x1000000 32) i).toNat < 200000)
    (j : S65536.Idx) : ((tbl13 m 0 : IVec S65536 32) j).toNat < 200000 :=
  have e : (tbl13 m 0 : IVec S65536 32) j = padRow m 0 0 (65536 * 13 + (j 0).val) :=
    (congrArg (tbl13 m 0 : IVec S65536 32) (ValueIdx.eq_ix1 j)).trans (tbl13_read0 m (j 0))
  (congrArg BitVec.toNat e).trans_lt (padRow_lt m hidx _ _)

theorem tbl13_lt1 (hidx : ∀ i : S2x1000000.Idx, ((m (((0 : Dev nD) : Thread nD τ).loc main_arg2) : IVec S2x1000000 32) i).toNat < 200000)
    (j : S65536.Idx) : ((tbl13 m 1 : IVec S65536 32) j).toNat < 200000 :=
  have e : (tbl13 m 1 : IVec S65536 32) j = padRow m 0 1 (65536 * 13 + (j 0).val) :=
    (congrArg (tbl13 m 1 : IVec S65536 32) (ValueIdx.eq_ix1 j)).trans (tbl13_read1 m (j 0))
  (congrArg BitVec.toNat e).trans_lt (padRow_lt m hidx _ _)

/-! ## Region 14 -/

theorem slice14_h (X : Valuation τ sig (Elt F)) :
    (StableHlo.after (hostOps14 (F := F)) X (Proc.devRef .tc main_v48) : IVec S65536 32)
      = extractStridedSlice S65536 ![917504] (X (Proc.devRef .tc main_v4) : IVec S1048576 32) slices_S1048576_S65536_917504 := by
  after_results

theorem slice14_t (X : Valuation τ sig (Elt F)) :
    (StableHlo.after (hostOps14 (F := F)) X (Proc.devRef .tc main_v49) : IVec S65536 32)
      = extractStridedSlice S65536 ![917504] (X (Proc.devRef .tc main_v5) : IVec S1048576 32) slices_S1048576_S65536_917504 := by
  after_results

/-- Entry j of region 14's table 0 is entry 917504 + j of row 0 of the index array, zero past the row's end. -/
theorem tbl14_read0 (j : Fin 65536) : (tbl14 m 0 : IVec S65536 32) (ValueIdx.ix1 j) = padRow m 0 0 (65536 * 14 + j.val) := by
  show (StableHlo.after (hostOps14 (F := F)) (V5 m (0 : Dev nD)) (Proc.devRef .tc main_v48) : IVec S65536 32) (ValueIdx.ix1 j) = _
  rw [slice14_h]
  have hj := j.isLt
  exact (chunk_apply 917504 _ _ j ⟨65536 * 14 + j.val, by omega⟩ (by show 65536 * 14 + j.val = 917504 + j.val; omega)).trans (padH_read m _)

/-- Entry j of region 14's table 1 is entry 917504 + j of row 1 of the index array, zero past the row's end. -/
theorem tbl14_read1 (j : Fin 65536) : (tbl14 m 1 : IVec S65536 32) (ValueIdx.ix1 j) = padRow m 0 1 (65536 * 14 + j.val) := by
  show (StableHlo.after (hostOps14 (F := F)) (V5 m (0 : Dev nD)) (Proc.devRef .tc main_v49) : IVec S65536 32) (ValueIdx.ix1 j) = _
  rw [slice14_t]
  have hj := j.isLt
  exact (chunk_apply 917504 _ _ j ⟨65536 * 14 + j.val, by omega⟩ (by show 65536 * 14 + j.val = 917504 + j.val; omega)).trans (padT_read m _)

theorem tbl14_lt0 (hidx : ∀ i : S2x1000000.Idx, ((m (((0 : Dev nD) : Thread nD τ).loc main_arg2) : IVec S2x1000000 32) i).toNat < 200000)
    (j : S65536.Idx) : ((tbl14 m 0 : IVec S65536 32) j).toNat < 200000 :=
  have e : (tbl14 m 0 : IVec S65536 32) j = padRow m 0 0 (65536 * 14 + (j 0).val) :=
    (congrArg (tbl14 m 0 : IVec S65536 32) (ValueIdx.eq_ix1 j)).trans (tbl14_read0 m (j 0))
  (congrArg BitVec.toNat e).trans_lt (padRow_lt m hidx _ _)

theorem tbl14_lt1 (hidx : ∀ i : S2x1000000.Idx, ((m (((0 : Dev nD) : Thread nD τ).loc main_arg2) : IVec S2x1000000 32) i).toNat < 200000)
    (j : S65536.Idx) : ((tbl14 m 1 : IVec S65536 32) j).toNat < 200000 :=
  have e : (tbl14 m 1 : IVec S65536 32) j = padRow m 0 1 (65536 * 14 + (j 0).val) :=
    (congrArg (tbl14 m 1 : IVec S65536 32) (ValueIdx.eq_ix1 j)).trans (tbl14_read1 m (j 0))
  (congrArg BitVec.toNat e).trans_lt (padRow_lt m hidx _ _)

/-! ## Region 15 -/

theorem slice15_h (X : Valuation τ sig (Elt F)) :
    (StableHlo.after (hostOps15 (F := F)) X (Proc.devRef .tc main_v51) : IVec S65536 32)
      = extractStridedSlice S65536 ![983040] (X (Proc.devRef .tc main_v4) : IVec S1048576 32) slices_S1048576_S65536_983040 := by
  after_results

theorem slice15_t (X : Valuation τ sig (Elt F)) :
    (StableHlo.after (hostOps15 (F := F)) X (Proc.devRef .tc main_v52) : IVec S65536 32)
      = extractStridedSlice S65536 ![983040] (X (Proc.devRef .tc main_v5) : IVec S1048576 32) slices_S1048576_S65536_983040 := by
  after_results

/-- Entry j of region 15's table 0 is entry 983040 + j of row 0 of the index array, zero past the row's end. -/
theorem tbl15_read0 (j : Fin 65536) : (tbl15 m 0 : IVec S65536 32) (ValueIdx.ix1 j) = padRow m 0 0 (65536 * 15 + j.val) := by
  show (StableHlo.after (hostOps15 (F := F)) (V5 m (0 : Dev nD)) (Proc.devRef .tc main_v51) : IVec S65536 32) (ValueIdx.ix1 j) = _
  rw [slice15_h]
  have hj := j.isLt
  exact (chunk_apply 983040 _ _ j ⟨65536 * 15 + j.val, by omega⟩ (by show 65536 * 15 + j.val = 983040 + j.val; omega)).trans (padH_read m _)

/-- Entry j of region 15's table 1 is entry 983040 + j of row 1 of the index array, zero past the row's end. -/
theorem tbl15_read1 (j : Fin 65536) : (tbl15 m 1 : IVec S65536 32) (ValueIdx.ix1 j) = padRow m 0 1 (65536 * 15 + j.val) := by
  show (StableHlo.after (hostOps15 (F := F)) (V5 m (0 : Dev nD)) (Proc.devRef .tc main_v52) : IVec S65536 32) (ValueIdx.ix1 j) = _
  rw [slice15_t]
  have hj := j.isLt
  exact (chunk_apply 983040 _ _ j ⟨65536 * 15 + j.val, by omega⟩ (by show 65536 * 15 + j.val = 983040 + j.val; omega)).trans (padT_read m _)

theorem tbl15_lt0 (hidx : ∀ i : S2x1000000.Idx, ((m (((0 : Dev nD) : Thread nD τ).loc main_arg2) : IVec S2x1000000 32) i).toNat < 200000)
    (j : S65536.Idx) : ((tbl15 m 0 : IVec S65536 32) j).toNat < 200000 :=
  have e : (tbl15 m 0 : IVec S65536 32) j = padRow m 0 0 (65536 * 15 + (j 0).val) :=
    (congrArg (tbl15 m 0 : IVec S65536 32) (ValueIdx.eq_ix1 j)).trans (tbl15_read0 m (j 0))
  (congrArg BitVec.toNat e).trans_lt (padRow_lt m hidx _ _)

theorem tbl15_lt1 (hidx : ∀ i : S2x1000000.Idx, ((m (((0 : Dev nD) : Thread nD τ).loc main_arg2) : IVec S2x1000000 32) i).toNat < 200000)
    (j : S65536.Idx) : ((tbl15 m 1 : IVec S65536 32) j).toNat < 200000 :=
  have e : (tbl15 m 1 : IVec S65536 32) j = padRow m 0 1 (65536 * 15 + (j 0).val) :=
    (congrArg (tbl15 m 1 : IVec S65536 32) (ValueIdx.eq_ix1 j)).trans (tbl15_read1 m (j 0))
  (congrArg BitVec.toNat e).trans_lt (padRow_lt m hidx _ _)

end Cert.Proof.KI
-- ==== Proof.KIRun.lean ====
/-
  The whole run. @main is host stretches around sixteen kernel regions; the conditional frame of the program's generated
  host side turns one segment record per region into a run of @main. Each region is entered holding every unscoped buffer
  at the valuation the items before it leave and the core owing nothing, and left the same way with its output array at
  the fold of its write-backs. The launch funds the pipelines' staging cells from the rounds algebra and the transfers'
  counters from the second component; nothing else is owed or held by the launch. Every weakly fair execution then
  terminates with the result array at the last valuation's contents and the three arguments as launched.
-/
import proofs.«414028_j29231547417249_2_alg».proof.Proof.KI0Region
import proofs.«414028_j29231547417249_2_alg».proof.Proof.KI1Region
import proofs.«414028_j29231547417249_2_alg».proof.Proof.KI2Region
import proofs.«414028_j29231547417249_2_alg».proof.Proof.KI3Region
import proofs.«414028_j29231547417249_2_alg».proof.Proof.KI4Region
import proofs.«414028_j29231547417249_2_alg».proof.Proof.KI5Region
import proofs.«414028_j29231547417249_2_alg».proof.Proof.KI6Region
import proofs.«414028_j29231547417249_2_alg».proof.Proof.KI7Region
import proofs.«414028_j29231547417249_2_alg».proof.Proof.KI8Region
import proofs.«414028_j29231547417249_2_alg».proof.Proof.KI9Region
import proofs.«414028_j29231547417249_2_alg».proof.Proof.KI10Region
import proofs.«414028_j29231547417249_2_alg».proof.Proof.KI11Region
import proofs.«414028_j29231547417249_2_alg».proof.Proof.KI12Region
import proofs.«414028_j29231547417249_2_alg».proof.Proof.KI13Region
import proofs.«414028_j29231547417249_2_alg».proof.Proof.KI14Region
import proofs.«414028_j29231547417249_2_alg».proof.Proof.KI15Region
import proofs.«414028_j29231547417249_2_alg».proof.Proof.KIValueCond
import proofs.«414028_j29231547417249_2_alg».proof.Proof.KITables
import proofs.«414028_j29231547417249_2_alg».proof.Proof.KIThread

noncomputable section

namespace Cert.Proof.KI

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Cert.Proof.KI0.UC ℕ

variable (m : (ℓ : Loc nD τ sig) → Buf (Elt F) ℓ) (ρ : Dev nD → PrngReg)

/-- The pipeline library's algebra is the left component of the proof's. -/
abbrev EP : Emb (UR sig nD τ) (MT nD τ sig Unit (Elt F) ℕ Cert.Proof.KI0.UC ℕ) := embL

/-- The launch element: the staging cells' rounds and the pipelines' transfers on the left, no counter yet on the right. -/
def u₀ : Cert.Proof.KI0.UC :=
  (initOf (Pipeline.cells (Pipeline.pin (pcfgs (F := F)) (adm m)) (cellOf_inj (adm m)))
    (Pipeline.launchToks (Pipeline.pin (pcfgs (F := F)) (adm m)) (cellOf_inj (adm m))), 1)

theorem hu₀ : (ownU (u₀ m) : sProp 𝕄) ⊢ |={Set.univ}=> iprop(BI.own (EP (F := F) (initOf (Pipeline.cells (Pipeline.pin (pcfgs (F := F)) (adm m)) (cellOf_inj (adm m)))
      (Pipeline.launchToks (Pipeline.pin (pcfgs (F := F)) (adm m)) (cellOf_inj (adm m))))) ∗ bigSep Finset.univ fun _ : Dev nD => (iprop(emp) : sProp 𝕄)) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (iprop(emp) : sProp 𝕄))) ∗ levAts L lv)
    ⊢ (|={Set.univ}=> bigSep Finset.univ (E (F := F) 0) : sProp 𝕄) := by
  have hm : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (E (F := F) 0) : sProp 𝕄) :=
    bigSep_mono fun c _ =>
      (show (iprop(unscopedSems0 c ∗ owes (c : Thread nD τ) (0 : CellTallies nD τ sig Unit) ∅
            ∗ Pipeline.launchCred (0 : Dev nD → CellTallies nD τ sig Unit) c ∗ prngReg c (ρ c) ∗ (iprop(emp) : sProp 𝕄)) : sProp 𝕄)
          ⊢ (iprop(∃ W, owes (c : Thread nD τ) (0 : CellTallies nD τ sig Unit) W) : sProp 𝕄) from by
        iintro ⟨-, HO, -⟩
        iexists ∅; iexact HO)
  iintro ⟨H, -⟩
  imodintro
  iapply hm
  iexact H

theorem hE16 (c : Dev nD) : E (F := F) 16 c ⊢ (iprop(∃ W, owes (c : Thread nD τ) (0 : CellTallies nD τ sig Unit) W) : sProp 𝕄) := .rfl

/-- The run, for any float family: the result array ends at the last valuation's contents, the arguments as launched. -/
theorem run_value (hidx : ∀ i : S2x1000000.Idx, ((m (((0 : Dev nD) : Thread nD τ).loc main_arg2) : IVec S2x1000000 32) i).toNat < 200000) :
    θ_run defs (onTc (τ := τ) (main (F := F))) ⟨m, fun _ => 0, ρ⟩ (fun r => ∀ c : Dev nD,
      r.2.mem ((c.tc : Thread nD τ).loc main_v55) = V37 m (outs m) c main_v55
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  value_cond m (EP (F := F)) () Variants.none L lv (fun _ _ => rfl) ρ (outs m) (adm m) (pdats m) 0 (fun _ => iprop(emp)) (u₀ m) (hu₀ m)
    (E (F := F)) (hE0 ρ) hE16
    (Cert.Proof.KI0.reg m (tbl0_lt0 m hidx) (tbl0_lt1 m hidx)) (Cert.Proof.KI0.hpre m _ _) (Cert.Proof.KI0.hpost m _ _)
    (Cert.Proof.KI1.reg m (tbl1_lt0 m hidx) (tbl1_lt1 m hidx)) (Cert.Proof.KI1.hpre m _ _) (Cert.Proof.KI1.hpost m _ _)
    (Cert.Proof.KI2.reg m (tbl2_lt0 m hidx) (tbl2_lt1 m hidx)) (Cert.Proof.KI2.hpre m _ _) (Cert.Proof.KI2.hpost m _ _)
    (Cert.Proof.KI3.reg m (tbl3_lt0 m hidx) (tbl3_lt1 m hidx)) (Cert.Proof.KI3.hpre m _ _) (Cert.Proof.KI3.hpost m _ _)
    (Cert.Proof.KI4.reg m (tbl4_lt0 m hidx) (tbl4_lt1 m hidx)) (Cert.Proof.KI4.hpre m _ _) (Cert.Proof.KI4.hpost m _ _)
    (Cert.Proof.KI5.reg m (tbl5_lt0 m hidx) (tbl5_lt1 m hidx)) (Cert.Proof.KI5.hpre m _ _) (Cert.Proof.KI5.hpost m _ _)
    (Cert.Proof.KI6.reg m (tbl6_lt0 m hidx) (tbl6_lt1 m hidx)) (Cert.Proof.KI6.hpre m _ _) (Cert.Proof.KI6.hpost m _ _)
    (Cert.Proof.KI7.reg m (tbl7_lt0 m hidx) (tbl7_lt1 m hidx)) (Cert.Proof.KI7.hpre m _ _) (Cert.Proof.KI7.hpost m _ _)
    (Cert.Proof.KI8.reg m (tbl8_lt0 m hidx) (tbl8_lt1 m hidx)) (Cert.Proof.KI8.hpre m _ _) (Cert.Proof.KI8.hpost m _ _)
    (Cert.Proof.KI9.reg m (tbl9_lt0 m hidx) (tbl9_lt1 m hidx)) (Cert.Proof.KI9.hpre m _ _) (Cert.Proof.KI9.hpost m _ _)
    (Cert.Proof.KI10.reg m (tbl10_lt0 m hidx) (tbl10_lt1 m hidx)) (Cert.Proof.KI10.hpre m _ _) (Cert.Proof.KI10.hpost m _ _)
    (Cert.Proof.KI11.reg m (tbl11_lt0 m hidx) (tbl11_lt1 m hidx)) (Cert.Proof.KI11.hpre m _ _) (Cert.Proof.KI11.hpost m _ _)
    (Cert.Proof.KI12.reg m (tbl12_lt0 m hidx) (tbl12_lt1 m hidx)) (Cert.Proof.KI12.hpre m _ _) (Cert.Proof.KI12.hpost m _ _)
    (Cert.Proof.KI13.reg m (tbl13_lt0 m hidx) (tbl13_lt1 m hidx)) (Cert.Proof.KI13.hpre m _ _) (Cert.Proof.KI13.hpost m _ _)
    (Cert.Proof.KI14.reg m (tbl14_lt0 m hidx) (tbl14_lt1 m hidx)) (Cert.Proof.KI14.hpre m _ _) (Cert.Proof.KI14.hpost m _ _)
    (Cert.Proof.KI15.reg m (tbl15_lt0 m hidx) (tbl15_lt1 m hidx)) (Cert.Proof.KI15.hpre m _ _) (Cert.Proof.KI15.hpost m _ _)

end Cert.Proof.KI

end
-- ==== Proof.KB0Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.Kernel
import proofs.«414028_j29231547417249_2_alg».proof.Proof.Gen.Kernel.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KB0

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 3) 0 ∗ semVal ((c : Thread nD τ), SemLoc.dma 4) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid0.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid0.Coords) : Rect S65536 := Rect.unit (s := S65536) (k0_off1 i) S1.size (k0_off1_inb i)

/-- the table word the body reads at point i: the table's contents at the index the one-word load names -/
def tword (T : IVec S65536 32) (i : grid0.Coords) : BitVec 32 :=
  T ((rT i).toLoadRect.idx (Shape.Idx.first (numel1_S1.symm ▸ Nat.one_pos)))

theorem flat_lt (i : grid0.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k0_off1_val (i : grid0.Coords) : k0_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid0.Coords) :
    tword T i = T (ValueIdx.ix1 ⟨(i 0).val * 128 + (i 1).val, flat_lt i⟩) := by
  unfold tword
  congr 1
  funext d
  match d with
  | ⟨0, _⟩ => exact Fin.ext (by show k0_off1 i 0 + 1 * 0 = (i 0).val * 128 + (i 1).val; have := k0_off1_val i; omega)

/-- the words the two one-word loads return are the table words -/
theorem tword_v6 (c : Dev nD) (hT : Bf (F := F) c (Memref.whole main_v6)) (i : grid0.Coords) (h) :
    View.readAt (Elt F) (Memref.whole main_v6).view (rT i).toLoadRect hT (Shape.Idx.first h) = tword hT i := rfl
theorem tword_v7 (c : Dev nD) (tT : Bf (F := F) c (Memref.whole main_v7)) (i : grid0.Coords) (h) :
    View.readAt (Elt F) (Memref.whole main_v7).view (rT i).toLoadRect tT (Shape.Idx.first h) = tword tT i := rfl

/-- a word below the table's height names a row inside the table: the two conditions the body assumes -/
theorem chk1_of_lt (w : BitVec 32) (h : w.toNat < 200000) : k0_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k0_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k0_pay2 j (k0_pay6 hrow trow rel) (k0_pay7 hrow trow rel) (k0_pay1 (F := F))
/-- after a later step: the point's contribution added to the block's contents -/
def stepv (hrow trow rel : Vec F S1x256 .f32) (j : BitVec 32) (acc : Vec F S128 .f32) : Vec F S128 .f32 :=
  k0_pay2 j (k0_pay6 hrow trow rel) (k0_pay7 hrow trow rel) acc

theorem firstv_apply (hrow trow rel : Vec F S1x256 .f32) (j : BitVec 32) (y : S128.Idx) :
    firstv hrow trow rel j y = k0_pay2 j (k0_pay6 hrow trow rel) (k0_pay7 hrow trow rel) (k0_pay1 (F := F)) y := rfl
theorem stepv_apply (hrow trow rel : Vec F S1x256 .f32) (j : BitVec 32) (acc : Vec F S128 .f32) (y : S128.Idx) :
    stepv hrow trow rel j acc y = k0_pay2 j (k0_pay6 hrow trow rel) (k0_pay7 hrow trow rel) acc y := rfl

end Cert.Proof.KB0

end
-- ==== Proof.KBAdm.lean ====
/-
  The contents of the prefetched tables, region by region. Before any region runs, the host operations cut the two rows
  of the index array out, pad each with zeros to 1048576 entries, and hand region K entries 65536·K … 65536·(K+1) − 1
  of each padded row as its two tables. No region writes a table or the padded rows, so each table is a function of the
  launch memory alone. The index maps of the windows read no table: every contents is admissible.
-/
import proofs.«414028_j29231547417249_2_alg».proof.Proof.KernelRegions

noncomputable section

namespace Cert.Proof.KB

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ)

/-- The two tables region 0 reads: chunk 0 of the padded head list and of the padded tail list, as the slices before the
    region leave them. -/
def tv0 : Valuation τ sig (Elt F) := V5 m (0 : Dev nD)
def tbl0 : pre0.Contents (Elt F) := fun j => tv0 m (pre0.ref j)
/-- The two tables region 1 reads: chunk 1 of the padded head list and of the padded tail list, as the slices before the
    region leave them. -/
def tv1 : Valuation τ sig (Elt F) := StableHlo.after (hostOps1 (F := F)) (V5 m (0 : Dev nD))
def tbl1 : pre1.Contents (Elt F) := fun j => tv1 m (pre1.ref j)
/-- The two tables region 2 reads: chunk 2 of the padded head list and of the padded tail list, as the slices before the
    region leave them. -/
def tv2 : Valuation τ sig (Elt F) := StableHlo.after (hostOps2 (F := F)) (V5 m (0 : Dev nD))
def tbl2 : pre2.Contents (Elt F) := fun j => tv2 m (pre2.ref j)
/-- The two tables region 3 reads: chunk 3 of the padded head list and of the padded tail list, as the slices before the
    region leave them. -/
def tv3 : Valuation τ sig (Elt F) := StableHlo.after (hostOps3 (F := F)) (V5 m (0 : Dev nD))
def tbl3 : pre3.Contents (Elt F) := fun j => tv3 m (pre3.ref j)
/-- The two tables region 4 reads: chunk 4 of the padded head list and of the padded tail list, as the slices before the
    region leave them. -/
def tv4 : Valuation τ sig (Elt F) := StableHlo.after (hostOps4 (F := F)) (V5 m (0 : Dev nD))
def tbl4 : pre4.Contents (Elt F) := fun j => tv4 m (pre4.ref j)
/-- The two tables region 5 reads: chunk 5 of the padded head list and of the padded tail list, as the slices before the
    region leave them. -/
def tv5 : Valuation τ sig (Elt F) := StableHlo.after (hostOps5 (F := F)) (V5 m (0 : Dev nD))
def tbl5 : pre5.Contents (Elt F) := fun j => tv5 m (pre5.ref j)
/-- The two tables region 6 reads: chunk 6 of the padded head list and of the padded tail list, as the slices before the
    region leave them. -/
def tv6 : Valuation τ sig (Elt F) := StableHlo.after (hostOps6 (F := F)) (V5 m (0 : Dev nD))
def tbl6 : pre6.Contents (Elt F) := fun j => tv6 m (pre6.ref j)
/-- The two tables region 7 reads: chunk 7 of the padded head list and of the padded tail list, as the slices before the
    region leave them. -/
def tv7 : Valuation τ sig (Elt F) := StableHlo.after (hostOps7 (F := F)) (V5 m (0 : Dev nD))
def tbl7 : pre7.Contents (Elt F) := fun j => tv7 m (pre7.ref j)
/-- The two tables region 8 reads: chunk 8 of the padded head list and of the padded tail list, as the slices before the
    region leave them. -/
def tv8 : Valuation τ sig (Elt F) := StableHlo.after (hostOps8 (F := F)) (V5 m (0 : Dev nD))
def tbl8 : pre8.Contents (Elt F) := fun j => tv8 m (pre8.ref j)
/-- The two tables region 9 reads: chunk 9 of the padded head list and of the padded tail list, as the slices before the
    region leave them. -/
def tv9 : Valuation τ sig (Elt F) := StableHlo.after (hostOps9 (F := F)) (V5 m (0 : Dev nD))
def tbl9 : pre9.Contents (Elt F) := fun j => tv9 m (pre9.ref j)
/-- The two tables region 10 reads: chunk 10 of the padded head list and of the padded tail list, as the slices before the
    region leave them. -/
def tv10 : Valuation τ sig (Elt F) := StableHlo.after (hostOps10 (F := F)) (V5 m (0 : Dev nD))
def tbl10 : pre10.Contents (Elt F) := fun j => tv10 m (pre10.ref j)
/-- The two tables region 11 reads: chunk 11 of the padded head list and of the padded tail list, as the slices before the
    region leave them. -/
def tv11 : Valuation τ sig (Elt F) := StableHlo.after (hostOps11 (F := F)) (V5 m (0 : Dev nD))
def tbl11 : pre11.Contents (Elt F) := fun j => tv11 m (pre11.ref j)
/-- The two tables region 12 reads: chunk 12 of the padded head list and of the padded tail list, as the slices before the
    region leave them. -/
def tv12 : Valuation τ sig (Elt F) := StableHlo.after (hostOps12 (F := F)) (V5 m (0 : Dev nD))
def tbl12 : pre12.Contents (Elt F) := fun j => tv12 m (pre12.ref j)
/-- The two tables region 13 reads: chunk 13 of the padded head list and of the padded tail list, as the slices before the
    region leave them. -/
def tv13 : Valuation τ sig (Elt F) := StableHlo.after (hostOps13 (F := F)) (V5 m (0 : Dev nD))
def tbl13 : pre13.Contents (Elt F) := fun j => tv13 m (pre13.ref j)
/-- The two tables region 14 reads: chunk 14 of the padded head list and of the padded tail list, as the slices before the
    region leave them. -/
def tv14 : Valuation τ sig (Elt F) := StableHlo.after (hostOps14 (F := F)) (V5 m (0 : Dev nD))
def tbl14 : pre14.Contents (Elt F) := fun j => tv14 m (pre14.ref j)
/-- The two tables region 15 reads: chunk 15 of the padded head list and of the padded tail list, as the slices before the
    region leave them. -/
def tv15 : Valuation τ sig (Elt F) := StableHlo.after (hostOps15 (F := F)) (V5 m (0 : Dev nD))
def tbl15 : pre15.Contents (Elt F) := fun j => tv15 m (pre15.ref j)

/-- Every region's tables at those contents. -/
def adm : (p : Fin 16) → (pcfgs (F := F) p).Adm
  | ⟨0, _⟩ => ⟨tbl0 m, trivial⟩
  | ⟨1, _⟩ => ⟨tbl1 m, trivial⟩
  | ⟨2, _⟩ => ⟨tbl2 m, trivial⟩
  | ⟨3, _⟩ => ⟨tbl3 m, trivial⟩
  | ⟨4, _⟩ => ⟨tbl4 m, trivial⟩
  | ⟨5, _⟩ => ⟨tbl5 m, trivial⟩
  | ⟨6, _⟩ => ⟨tbl6 m, trivial⟩
  | ⟨7, _⟩ => ⟨tbl7 m, trivial⟩
  | ⟨8, _⟩ => ⟨tbl8 m, trivial⟩
  | ⟨9, _⟩ => ⟨tbl9 m, trivial⟩
  | ⟨10, _⟩ => ⟨tbl10 m, trivial⟩
  | ⟨11, _⟩ => ⟨tbl11 m, trivial⟩
  | ⟨12, _⟩ => ⟨tbl12 m, trivial⟩
  | ⟨13, _⟩ => ⟨tbl13 m, trivial⟩
  | ⟨14, _⟩ => ⟨tbl14 m, trivial⟩
  | ⟨15, _⟩ => ⟨tbl15 m, trivial⟩
  | ⟨_ + 16, h⟩ => absurd h (Nat.not_lt.2 (Nat.le_add_left _ _))

end Cert.Proof.KB

end
-- ==== Proof.KB0Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KB0Defs
import proofs.«414028_j29231547417249_2_alg».proof.Proof.KBAdm
import Idealize.ShloMosaic.Lib.Pipeline.Dat
import Idealize.ShloMosaic.Lib.Pipeline.Kit

noncomputable section

namespace Cert.Proof.KB0

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg0 (F := F)).Adm := Cert.Proof.KB.adm m (0 : Fin 16)
abbrev cfgA : Pipeline.Cfg sig Λ₀ := cfg0 (adm0 m)
abbrev hTab : IVec S65536 32 := Cert.Proof.KB.tbl0 m 0
abbrev tTab : IVec S65536 32 := Cert.Proof.KB.tbl0 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v6) (hTab m) ∗ pt c (Memref.whole main_v7) (tTab m) ∗ nodeSh c (nodeA m c)
    ∗ ((Memref.whole main_arg0).view.loc (c : Thread nD τ) ↦[Finset.univ]{Transfers.shareDrop fullShare 2} nodeA m c)
    ∗ (∃ s0, pt c (Memref.whole cc0_scratch0) s0) ∗ (∃ s1, pt c (Memref.whole cc0_scratch1) s1) ∗ sems0 c
    ∗ Pipeline.scopedRestBut (Ix := Unit) (Name := ℕ) (U := UC) (Lvl := ℕ) (Val := Elt F) spec0 c [cc0_scratch0, cc0_scratch1])

/-- Region 0's proof data on core `c`. -/
def dat0 (c : Dev nD) : Dat τ (Elt F) Unit ℕ UC ℕ (cfgA m) c where
  A w := m ((c : Thread nD τ).loc (Pipeline.arrRef spec0 w))
  after w t := match w with
    | ⟨0, _⟩ => relA m c
    | ⟨1, _⟩ => accA m c t.val t.isLt
  Φ _ := Φv m c
  q _ := fullShare
  owed _ := 0

end Cert.Proof.KB0

end
-- ==== Proof.KB1Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.Kernel
import proofs.«414028_j29231547417249_2_alg».proof.Proof.Gen.Kernel.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KB1

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 8) 0 ∗ semVal ((c : Thread nD τ), SemLoc.dma 9) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid1.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid1.Coords) : Rect S65536 := Rect.unit (s := S65536) (k1_off1 i) S1.size (k1_off1_inb i)

/-- the table word the body reads at point i: the table's contents at the index the one-word load names -/
def tword (T : IVec S65536 32) (i : grid1.Coords) : BitVec 32 :=
  T ((rT i).toLoadRect.idx (Shape.Idx.first (numel1_S1.symm ▸ Nat.one_pos)))

theorem flat_lt (i : grid1.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k1_off1_val (i : grid1.Coords) : k1_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid1.Coords) :
    tword T i = T (ValueIdx.ix1 ⟨(i 0).val * 128 + (i 1).val, flat_lt i⟩) := by
  unfold tword
  congr 1
  funext d
  match d with
  | ⟨0, _⟩ => exact Fin.ext (by show k1_off1 i 0 + 1 * 0 = (i 0).val * 128 + (i 1).val; have := k1_off1_val i; omega)

/-- the words the two one-word loads return are the table words -/
theorem tword_v6 (c : Dev nD) (hT : Bf (F := F) c (Memref.whole main_v9)) (i : grid1.Coords) (h) :
    View.readAt (Elt F) (Memref.whole main_v9).view (rT i).toLoadRect hT (Shape.Idx.first h) = tword hT i := rfl
theorem tword_v7 (c : Dev nD) (tT : Bf (F := F) c (Memref.whole main_v10)) (i : grid1.Coords) (h) :
    View.readAt (Elt F) (Memref.whole main_v10).view (rT i).toLoadRect tT (Shape.Idx.first h) = tword tT i := rfl

/-- a word below the table's height names a row inside the table: the two conditions the body assumes -/
theorem chk1_of_lt (w : BitVec 32) (h : w.toNat < 200000) : k1_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k1_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k1_pay2 j (k1_pay6 hrow trow rel) (k1_pay7 hrow trow rel) (k1_pay1 (F := F))
/-- after a later step: the point's contribution added to the block's contents -/
def stepv (hrow trow rel : Vec F S1x256 .f32) (j : BitVec 32) (acc : Vec F S128 .f32) : Vec F S128 .f32 :=
  k1_pay2 j (k1_pay6 hrow trow rel) (k1_pay7 hrow trow rel) acc

theorem firstv_apply (hrow trow rel : Vec F S1x256 .f32) (j : BitVec 32) (y : S128.Idx) :
    firstv hrow trow rel j y = k1_pay2 j (k1_pay6 hrow trow rel) (k1_pay7 hrow trow rel) (k1_pay1 (F := F)) y := rfl
theorem stepv_apply (hrow trow rel : Vec F S1x256 .f32) (j : BitVec 32) (acc : Vec F S128 .f32) (y : S128.Idx) :
    stepv hrow trow rel j acc y = k1_pay2 j (k1_pay6 hrow trow rel) (k1_pay7 hrow trow rel) acc y := rfl

end Cert.Proof.KB1

end
-- ==== Proof.KB1Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KB1Defs
import proofs.«414028_j29231547417249_2_alg».proof.Proof.KBAdm
import Idealize.ShloMosaic.Lib.Pipeline.Dat
import Idealize.ShloMosaic.Lib.Pipeline.Kit

noncomputable section

namespace Cert.Proof.KB1

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg1 (F := F)).Adm := Cert.Proof.KB.adm m (1 : Fin 16)
abbrev cfgA : Pipeline.Cfg sig Λ₀ := cfg1 (adm0 m)
abbrev hTab : IVec S65536 32 := Cert.Proof.KB.tbl1 m 0
abbrev tTab : IVec S65536 32 := Cert.Proof.KB.tbl1 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v9) (hTab m) ∗ pt c (Memref.whole main_v10) (tTab m) ∗ nodeSh c (nodeA m c)
    ∗ ((Memref.whole main_arg0).view.loc (c : Thread nD τ) ↦[Finset.univ]{Transfers.shareDrop fullShare 2} nodeA m c)
    ∗ (∃ s0, pt c (Memref.whole cc1_scratch0) s0) ∗ (∃ s1, pt c (Memref.whole cc1_scratch1) s1) ∗ sems0 c
    ∗ Pipeline.scopedRestBut (Ix := Unit) (Name := ℕ) (U := UC) (Lvl := ℕ) (Val := Elt F) spec1 c [cc1_scratch0, cc1_scratch1])

/-- Region 0's proof data on core `c`. -/
def dat0 (c : Dev nD) : Dat τ (Elt F) Unit ℕ UC ℕ (cfgA m) c where
  A w := m ((c : Thread nD τ).loc (Pipeline.arrRef spec1 w))
  after w t := match w with
    | ⟨0, _⟩ => relA m c
    | ⟨1, _⟩ => accA m c t.val t.isLt
  Φ _ := Φv m c
  q _ := fullShare
  owed _ := 0

end Cert.Proof.KB1

end
-- ==== Proof.KB2Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.Kernel
import proofs.«414028_j29231547417249_2_alg».proof.Proof.Gen.Kernel.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KB2

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 13) 0 ∗ semVal ((c : Thread nD τ), SemLoc.dma 14) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid2.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid2.Coords) : Rect S65536 := Rect.unit (s := S65536) (k2_off1 i) S1.size (k2_off1_inb i)

/-- the table word the body reads at point i: the table's contents at the index the one-word load names -/
def tword (T : IVec S65536 32) (i : grid2.Coords) : BitVec 32 :=
  T ((rT i).toLoadRect.idx (Shape.Idx.first (numel1_S1.symm ▸ Nat.one_pos)))

theorem flat_lt (i : grid2.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k2_off1_val (i : grid2.Coords) : k2_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid2.Coords) :
    tword T i = T (ValueIdx.ix1 ⟨(i 0).val * 128 + (i 1).val, flat_lt i⟩) := by
  unfold tword
  congr 1
  funext d
  match d with
  | ⟨0, _⟩ => exact Fin.ext (by show k2_off1 i 0 + 1 * 0 = (i 0).val * 128 + (i 1).val; have := k2_off1_val i; omega)

/-- the words the two one-word loads return are the table words -/
theorem tword_v6 (c : Dev nD) (hT : Bf (F := F) c (Memref.whole main_v12)) (i : grid2.Coords) (h) :
    View.readAt (Elt F) (Memref.whole main_v12).view (rT i).toLoadRect hT (Shape.Idx.first h) = tword hT i := rfl
theorem tword_v7 (c : Dev nD) (tT : Bf (F := F) c (Memref.whole main_v13)) (i : grid2.Coords) (h) :
    View.readAt (Elt F) (Memref.whole main_v13).view (rT i).toLoadRect tT (Shape.Idx.first h) = tword tT i := rfl

/-- a word below the table's height names a row inside the table: the two conditions the body assumes -/
theorem chk1_of_lt (w : BitVec 32) (h : w.toNat < 200000) : k2_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k2_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k2_pay2 j (k2_pay6 hrow trow rel) (k2_pay7 hrow trow rel) (k2_pay1 (F := F))
/-- after a later step: the point's contribution added to the block's contents -/
def stepv (hrow trow rel : Vec F S1x256 .f32) (j : BitVec 32) (acc : Vec F S128 .f32) : Vec F S128 .f32 :=
  k2_pay2 j (k2_pay6 hrow trow rel) (k2_pay7 hrow trow rel) acc

theorem firstv_apply (hrow trow rel : Vec F S1x256 .f32) (j : BitVec 32) (y : S128.Idx) :
    firstv hrow trow rel j y = k2_pay2 j (k2_pay6 hrow trow rel) (k2_pay7 hrow trow rel) (k2_pay1 (F := F)) y := rfl
theorem stepv_apply (hrow trow rel : Vec F S1x256 .f32) (j : BitVec 32) (acc : Vec F S128 .f32) (y : S128.Idx) :
    stepv hrow trow rel j acc y = k2_pay2 j (k2_pay6 hrow trow rel) (k2_pay7 hrow trow rel) acc y := rfl

end Cert.Proof.KB2

end
-- ==== Proof.KB2Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KB2Defs
import proofs.«414028_j29231547417249_2_alg».proof.Proof.KBAdm
import Idealize.ShloMosaic.Lib.Pipeline.Dat
import Idealize.ShloMosaic.Lib.Pipeline.Kit

noncomputable section

namespace Cert.Proof.KB2

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg2 (F := F)).Adm := Cert.Proof.KB.adm m (2 : Fin 16)
abbrev cfgA : Pipeline.Cfg sig Λ₀ := cfg2 (adm0 m)
abbrev hTab : IVec S65536 32 := Cert.Proof.KB.tbl2 m 0
abbrev tTab : IVec S65536 32 := Cert.Proof.KB.tbl2 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v12) (hTab m) ∗ pt c (Memref.whole main_v13) (tTab m) ∗ nodeSh c (nodeA m c)
    ∗ ((Memref.whole main_arg0).view.loc (c : Thread nD τ) ↦[Finset.univ]{Transfers.shareDrop fullShare 2} nodeA m c)
    ∗ (∃ s0, pt c (Memref.whole cc2_scratch0) s0) ∗ (∃ s1, pt c (Memref.whole cc2_scratch1) s1) ∗ sems0 c
    ∗ Pipeline.scopedRestBut (Ix := Unit) (Name := ℕ) (U := UC) (Lvl := ℕ) (Val := Elt F) spec2 c [cc2_scratch0, cc2_scratch1])

/-- Region 0's proof data on core `c`. -/
def dat0 (c : Dev nD) : Dat τ (Elt F) Unit ℕ UC ℕ (cfgA m) c where
  A w := m ((c : Thread nD τ).loc (Pipeline.arrRef spec2 w))
  after w t := match w with
    | ⟨0, _⟩ => relA m c
    | ⟨1, _⟩ => accA m c t.val t.isLt
  Φ _ := Φv m c
  q _ := fullShare
  owed _ := 0

end Cert.Proof.KB2

end
-- ==== Proof.KB3Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.Kernel
import proofs.«414028_j29231547417249_2_alg».proof.Proof.Gen.Kernel.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KB3

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 18) 0 ∗ semVal ((c : Thread nD τ), SemLoc.dma 19) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid3.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid3.Coords) : Rect S65536 := Rect.unit (s := S65536) (k3_off1 i) S1.size (k3_off1_inb i)

/-- the table word the body reads at point i: the table's contents at the index the one-word load names -/
def tword (T : IVec S65536 32) (i : grid3.Coords) : BitVec 32 :=
  T ((rT i).toLoadRect.idx (Shape.Idx.first (numel1_S1.symm ▸ Nat.one_pos)))

theorem flat_lt (i : grid3.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k3_off1_val (i : grid3.Coords) : k3_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid3.Coords) :
    tword T i = T (ValueIdx.ix1 ⟨(i 0).val * 128 + (i 1).val, flat_lt i⟩) := by
  unfold tword
  congr 1
  funext d
  match d with
  | ⟨0, _⟩ => exact Fin.ext (by show k3_off1 i 0 + 1 * 0 = (i 0).val * 128 + (i 1).val; have := k3_off1_val i; omega)

/-- the words the two one-word loads return are the table words -/
theorem tword_v6 (c : Dev nD) (hT : Bf (F := F) c (Memref.whole main_v15)) (i : grid3.Coords) (h) :
    View.readAt (Elt F) (Memref.whole main_v15).view (rT i).toLoadRect hT (Shape.Idx.first h) = tword hT i := rfl
theorem tword_v7 (c : Dev nD) (tT : Bf (F := F) c (Memref.whole main_v16)) (i : grid3.Coords) (h) :
    View.readAt (Elt F) (Memref.whole main_v16).view (rT i).toLoadRect tT (Shape.Idx.first h) = tword tT i := rfl

/-- a word below the table's height names a row inside the table: the two conditions the body assumes -/
theorem chk1_of_lt (w : BitVec 32) (h : w.toNat < 200000) : k3_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k3_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k3_pay2 j (k3_pay6 hrow trow rel) (k3_pay7 hrow trow rel) (k3_pay1 (F := F))
/-- after a later step: the point's contribution added to the block's contents -/
def stepv (hrow trow rel : Vec F S1x256 .f32) (j : BitVec 32) (acc : Vec F S128 .f32) : Vec F S128 .f32 :=
  k3_pay2 j (k3_pay6 hrow trow rel) (k3_pay7 hrow trow rel) acc

theorem firstv_apply (hrow trow rel : Vec F S1x256 .f32) (j : BitVec 32) (y : S128.Idx) :
    firstv hrow trow rel j y = k3_pay2 j (k3_pay6 hrow trow rel) (k3_pay7 hrow trow rel) (k3_pay1 (F := F)) y := rfl
theorem stepv_apply (hrow trow rel : Vec F S1x256 .f32) (j : BitVec 32) (acc : Vec F S128 .f32) (y : S128.Idx) :
    stepv hrow trow rel j acc y = k3_pay2 j (k3_pay6 hrow trow rel) (k3_pay7 hrow trow rel) acc y := rfl

end Cert.Proof.KB3

end
-- ==== Proof.KB3Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KB3Defs
import proofs.«414028_j29231547417249_2_alg».proof.Proof.KBAdm
import Idealize.ShloMosaic.Lib.Pipeline.Dat
import Idealize.ShloMosaic.Lib.Pipeline.Kit

noncomputable section

namespace Cert.Proof.KB3

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg3 (F := F)).Adm := Cert.Proof.KB.adm m (3 : Fin 16)
abbrev cfgA : Pipeline.Cfg sig Λ₀ := cfg3 (adm0 m)
abbrev hTab : IVec S65536 32 := Cert.Proof.KB.tbl3 m 0
abbrev tTab : IVec S65536 32 := Cert.Proof.KB.tbl3 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v15) (hTab m) ∗ pt c (Memref.whole main_v16) (tTab m) ∗ nodeSh c (nodeA m c)
    ∗ ((Memref.whole main_arg0).view.loc (c : Thread nD τ) ↦[Finset.univ]{Transfers.shareDrop fullShare 2} nodeA m c)
    ∗ (∃ s0, pt c (Memref.whole cc3_scratch0) s0) ∗ (∃ s1, pt c (Memref.whole cc3_scratch1) s1) ∗ sems0 c
    ∗ Pipeline.scopedRestBut (Ix := Unit) (Name := ℕ) (U := UC) (Lvl := ℕ) (Val := Elt F) spec3 c [cc3_scratch0, cc3_scratch1])

/-- Region 0's proof data on core `c`. -/
def dat0 (c : Dev nD) : Dat τ (Elt F) Unit ℕ UC ℕ (cfgA m) c where
  A w := m ((c : Thread nD τ).loc (Pipeline.arrRef spec3 w))
  after w t := match w with
    | ⟨0, _⟩ => relA m c
    | ⟨1, _⟩ => accA m c t.val t.isLt
  Φ _ := Φv m c
  q _ := fullShare
  owed _ := 0

end Cert.Proof.KB3

end
-- ==== Proof.KB4Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.Kernel
import proofs.«414028_j29231547417249_2_alg».proof.Proof.Gen.Kernel.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KB4

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 23) 0 ∗ semVal ((c : Thread nD τ), SemLoc.dma 24) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid4.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid4.Coords) : Rect S65536 := Rect.unit (s := S65536) (k4_off1 i) S1.size (k4_off1_inb i)

/-- the table word the body reads at point i: the table's contents at the index the one-word load names -/
def tword (T : IVec S65536 32) (i : grid4.Coords) : BitVec 32 :=
  T ((rT i).toLoadRect.idx (Shape.Idx.first (numel1_S1.symm ▸ Nat.one_pos)))

theorem flat_lt (i : grid4.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k4_off1_val (i : grid4.Coords) : k4_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid4.Coords) :
    tword T i = T (ValueIdx.ix1 ⟨(i 0).val * 128 + (i 1).val, flat_lt i⟩) := by
  unfold tword
  congr 1
  funext d
  match d with
  | ⟨0, _⟩ => exact Fin.ext (by show k4_off1 i 0 + 1 * 0 = (i 0).val * 128 + (i 1).val; have := k4_off1_val i; omega)

/-- the words the two one-word loads return are the table words -/
theorem tword_v6 (c : Dev nD) (hT : Bf (F := F) c (Memref.whole main_v18)) (i : grid4.Coords) (h) :
    View.readAt (Elt F) (Memref.whole main_v18).view (rT i).toLoadRect hT (Shape.Idx.first h) = tword hT i := rfl
theorem tword_v7 (c : Dev nD) (tT : Bf (F := F) c (Memref.whole main_v19)) (i : grid4.Coords) (h) :
    View.readAt (Elt F) (Memref.whole main_v19).view (rT i).toLoadRect tT (Shape.Idx.first h) = tword tT i := rfl

/-- a word below the table's height names a row inside the table: the two conditions the body assumes -/
theorem chk1_of_lt (w : BitVec 32) (h : w.toNat < 200000) : k4_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k4_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k4_pay2 j (k4_pay6 hrow trow rel) (k4_pay7 hrow trow rel) (k4_pay1 (F := F))
/-- after a later step: the point's contribution added to the block's contents -/
def stepv (hrow trow rel : Vec F S1x256 .f32) (j : BitVec 32) (acc : Vec F S128 .f32) : Vec F S128 .f32 :=
  k4_pay2 j (k4_pay6 hrow trow rel) (k4_pay7 hrow trow rel) acc

theorem firstv_apply (hrow trow rel : Vec F S1x256 .f32) (j : BitVec 32) (y : S128.Idx) :
    firstv hrow trow rel j y = k4_pay2 j (k4_pay6 hrow trow rel) (k4_pay7 hrow trow rel) (k4_pay1 (F := F)) y := rfl
theorem stepv_apply (hrow trow rel : Vec F S1x256 .f32) (j : BitVec 32) (acc : Vec F S128 .f32) (y : S128.Idx) :
    stepv hrow trow rel j acc y = k4_pay2 j (k4_pay6 hrow trow rel) (k4_pay7 hrow trow rel) acc y := rfl

end Cert.Proof.KB4

end
-- ==== Proof.KB4Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KB4Defs
import proofs.«414028_j29231547417249_2_alg».proof.Proof.KBAdm
import Idealize.ShloMosaic.Lib.Pipeline.Dat
import Idealize.ShloMosaic.Lib.Pipeline.Kit

noncomputable section

namespace Cert.Proof.KB4

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg4 (F := F)).Adm := Cert.Proof.KB.adm m (4 : Fin 16)
abbrev cfgA : Pipeline.Cfg sig Λ₀ := cfg4 (adm0 m)
abbrev hTab : IVec S65536 32 := Cert.Proof.KB.tbl4 m 0
abbrev tTab : IVec S65536 32 := Cert.Proof.KB.tbl4 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v18) (hTab m) ∗ pt c (Memref.whole main_v19) (tTab m) ∗ nodeSh c (nodeA m c)
    ∗ ((Memref.whole main_arg0).view.loc (c : Thread nD τ) ↦[Finset.univ]{Transfers.shareDrop fullShare 2} nodeA m c)
    ∗ (∃ s0, pt c (Memref.whole cc4_scratch0) s0) ∗ (∃ s1, pt c (Memref.whole cc4_scratch1) s1) ∗ sems0 c
    ∗ Pipeline.scopedRestBut (Ix := Unit) (Name := ℕ) (U := UC) (Lvl := ℕ) (Val := Elt F) spec4 c [cc4_scratch0, cc4_scratch1])

/-- Region 0's proof data on core `c`. -/
def dat0 (c : Dev nD) : Dat τ (Elt F) Unit ℕ UC ℕ (cfgA m) c where
  A w := m ((c : Thread nD τ).loc (Pipeline.arrRef spec4 w))
  after w t := match w with
    | ⟨0, _⟩ => relA m c
    | ⟨1, _⟩ => accA m c t.val t.isLt
  Φ _ := Φv m c
  q _ := fullShare
  owed _ := 0

end Cert.Proof.KB4

end
-- ==== Proof.KB5Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.Kernel
import proofs.«414028_j29231547417249_2_alg».proof.Proof.Gen.Kernel.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KB5

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 28) 0 ∗ semVal ((c : Thread nD τ), SemLoc.dma 29) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid5.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid5.Coords) : Rect S65536 := Rect.unit (s := S65536) (k5_off1 i) S1.size (k5_off1_inb i)

/-- the table word the body reads at point i: the table's contents at the index the one-word load names -/
def tword (T : IVec S65536 32) (i : grid5.Coords) : BitVec 32 :=
  T ((rT i).toLoadRect.idx (Shape.Idx.first (numel1_S1.symm ▸ Nat.one_pos)))

theorem flat_lt (i : grid5.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k5_off1_val (i : grid5.Coords) : k5_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid5.Coords) :
    tword T i = T (ValueIdx.ix1 ⟨(i 0).val * 128 + (i 1).val, flat_lt i⟩) := by
  unfold tword
  congr 1
  funext d
  match d with
  | ⟨0, _⟩ => exact Fin.ext (by show k5_off1 i 0 + 1 * 0 = (i 0).val * 128 + (i 1).val; have := k5_off1_val i; omega)

/-- the words the two one-word loads return are the table words -/
theorem tword_v6 (c : Dev nD) (hT : Bf (F := F) c (Memref.whole main_v21)) (i : grid5.Coords) (h) :
    View.readAt (Elt F) (Memref.whole main_v21).view (rT i).toLoadRect hT (Shape.Idx.first h) = tword hT i := rfl
theorem tword_v7 (c : Dev nD) (tT : Bf (F := F) c (Memref.whole main_v22)) (i : grid5.Coords) (h) :
    View.readAt (Elt F) (Memref.whole main_v22).view (rT i).toLoadRect tT (Shape.Idx.first h) = tword tT i := rfl

/-- a word below the table's height names a row inside the table: the two conditions the body assumes -/
theorem chk1_of_lt (w : BitVec 32) (h : w.toNat < 200000) : k5_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k5_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k5_pay2 j (k5_pay6 hrow trow rel) (k5_pay7 hrow trow rel) (k5_pay1 (F := F))
/-- after a later step: the point's contribution added to the block's contents -/
def stepv (hrow trow rel : Vec F S1x256 .f32) (j : BitVec 32) (acc : Vec F S128 .f32) : Vec F S128 .f32 :=
  k5_pay2 j (k5_pay6 hrow trow rel) (k5_pay7 hrow trow rel) acc

theorem firstv_apply (hrow trow rel : Vec F S1x256 .f32) (j : BitVec 32) (y : S128.Idx) :
    firstv hrow trow rel j y = k5_pay2 j (k5_pay6 hrow trow rel) (k5_pay7 hrow trow rel) (k5_pay1 (F := F)) y := rfl
theorem stepv_apply (hrow trow rel : Vec F S1x256 .f32) (j : BitVec 32) (acc : Vec F S128 .f32) (y : S128.Idx) :
    stepv hrow trow rel j acc y = k5_pay2 j (k5_pay6 hrow trow rel) (k5_pay7 hrow trow rel) acc y := rfl

end Cert.Proof.KB5

end
-- ==== Proof.KB5Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KB5Defs
import proofs.«414028_j29231547417249_2_alg».proof.Proof.KBAdm
import Idealize.ShloMosaic.Lib.Pipeline.Dat
import Idealize.ShloMosaic.Lib.Pipeline.Kit

noncomputable section

namespace Cert.Proof.KB5

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg5 (F := F)).Adm := Cert.Proof.KB.adm m (5 : Fin 16)
abbrev cfgA : Pipeline.Cfg sig Λ₀ := cfg5 (adm0 m)
abbrev hTab : IVec S65536 32 := Cert.Proof.KB.tbl5 m 0
abbrev tTab : IVec S65536 32 := Cert.Proof.KB.tbl5 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v21) (hTab m) ∗ pt c (Memref.whole main_v22) (tTab m) ∗ nodeSh c (nodeA m c)
    ∗ ((Memref.whole main_arg0).view.loc (c : Thread nD τ) ↦[Finset.univ]{Transfers.shareDrop fullShare 2} nodeA m c)
    ∗ (∃ s0, pt c (Memref.whole cc5_scratch0) s0) ∗ (∃ s1, pt c (Memref.whole cc5_scratch1) s1) ∗ sems0 c
    ∗ Pipeline.scopedRestBut (Ix := Unit) (Name := ℕ) (U := UC) (Lvl := ℕ) (Val := Elt F) spec5 c [cc5_scratch0, cc5_scratch1])

/-- Region 0's proof data on core `c`. -/
def dat0 (c : Dev nD) : Dat τ (Elt F) Unit ℕ UC ℕ (cfgA m) c where
  A w := m ((c : Thread nD τ).loc (Pipeline.arrRef spec5 w))
  after w t := match w with
    | ⟨0, _⟩ => relA m c
    | ⟨1, _⟩ => accA m c t.val t.isLt
  Φ _ := Φv m c
  q _ := fullShare
  owed _ := 0

end Cert.Proof.KB5

end
-- ==== Proof.KB6Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.Kernel
import proofs.«414028_j29231547417249_2_alg».proof.Proof.Gen.Kernel.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KB6

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 33) 0 ∗ semVal ((c : Thread nD τ), SemLoc.dma 34) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid6.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid6.Coords) : Rect S65536 := Rect.unit (s := S65536) (k6_off1 i) S1.size (k6_off1_inb i)

/-- the table word the body reads at point i: the table's contents at the index the one-word load names -/
def tword (T : IVec S65536 32) (i : grid6.Coords) : BitVec 32 :=
  T ((rT i).toLoadRect.idx (Shape.Idx.first (numel1_S1.symm ▸ Nat.one_pos)))

theorem flat_lt (i : grid6.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k6_off1_val (i : grid6.Coords) : k6_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid6.Coords) :
    tword T i = T (ValueIdx.ix1 ⟨(i 0).val * 128 + (i 1).val, flat_lt i⟩) := by
  unfold tword
  congr 1
  funext d
  match d with
  | ⟨0, _⟩ => exact Fin.ext (by show k6_off1 i 0 + 1 * 0 = (i 0).val * 128 + (i 1).val; have := k6_off1_val i; omega)

/-- the words the two one-word loads return are the table words -/
theorem tword_v6 (c : Dev nD) (hT : Bf (F := F) c (Memref.whole main_v24)) (i : grid6.Coords) (h) :
    View.readAt (Elt F) (Memref.whole main_v24).view (rT i).toLoadRect hT (Shape.Idx.first h) = tword hT i := rfl
theorem tword_v7 (c : Dev nD) (tT : Bf (F := F) c (Memref.whole main_v25)) (i : grid6.Coords) (h) :
    View.readAt (Elt F) (Memref.whole main_v25).view (rT i).toLoadRect tT (Shape.Idx.first h) = tword tT i := rfl

/-- a word below the table's height names a row inside the table: the two conditions the body assumes -/
theorem chk1_of_lt (w : BitVec 32) (h : w.toNat < 200000) : k6_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k6_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k6_pay2 j (k6_pay6 hrow trow rel) (k6_pay7 hrow trow rel) (k6_pay1 (F := F))
/-- after a later step: the point's contribution added to the block's contents -/
def stepv (hrow trow rel : Vec F S1x256 .f32) (j : BitVec 32) (acc : Vec F S128 .f32) : Vec F S128 .f32 :=
  k6_pay2 j (k6_pay6 hrow trow rel) (k6_pay7 hrow trow rel) acc

theorem firstv_apply (hrow trow rel : Vec F S1x256 .f32) (j : BitVec 32) (y : S128.Idx) :
    firstv hrow trow rel j y = k6_pay2 j (k6_pay6 hrow trow rel) (k6_pay7 hrow trow rel) (k6_pay1 (F := F)) y := rfl
theorem stepv_apply (hrow trow rel : Vec F S1x256 .f32) (j : BitVec 32) (acc : Vec F S128 .f32) (y : S128.Idx) :
    stepv hrow trow rel j acc y = k6_pay2 j (k6_pay6 hrow trow rel) (k6_pay7 hrow trow rel) acc y := rfl

end Cert.Proof.KB6

end
-- ==== Proof.KB6Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KB6Defs
import proofs.«414028_j29231547417249_2_alg».proof.Proof.KBAdm
import Idealize.ShloMosaic.Lib.Pipeline.Dat
import Idealize.ShloMosaic.Lib.Pipeline.Kit

noncomputable section

namespace Cert.Proof.KB6

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg6 (F := F)).Adm := Cert.Proof.KB.adm m (6 : Fin 16)
abbrev cfgA : Pipeline.Cfg sig Λ₀ := cfg6 (adm0 m)
abbrev hTab : IVec S65536 32 := Cert.Proof.KB.tbl6 m 0
abbrev tTab : IVec S65536 32 := Cert.Proof.KB.tbl6 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v24) (hTab m) ∗ pt c (Memref.whole main_v25) (tTab m) ∗ nodeSh c (nodeA m c)
    ∗ ((Memref.whole main_arg0).view.loc (c : Thread nD τ) ↦[Finset.univ]{Transfers.shareDrop fullShare 2} nodeA m c)
    ∗ (∃ s0, pt c (Memref.whole cc6_scratch0) s0) ∗ (∃ s1, pt c (Memref.whole cc6_scratch1) s1) ∗ sems0 c
    ∗ Pipeline.scopedRestBut (Ix := Unit) (Name := ℕ) (U := UC) (Lvl := ℕ) (Val := Elt F) spec6 c [cc6_scratch0, cc6_scratch1])

/-- Region 0's proof data on core `c`. -/
def dat0 (c : Dev nD) : Dat τ (Elt F) Unit ℕ UC ℕ (cfgA m) c where
  A w := m ((c : Thread nD τ).loc (Pipeline.arrRef spec6 w))
  after w t := match w with
    | ⟨0, _⟩ => relA m c
    | ⟨1, _⟩ => accA m c t.val t.isLt
  Φ _ := Φv m c
  q _ := fullShare
  owed _ := 0

end Cert.Proof.KB6

end
-- ==== Proof.KB7Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.Kernel
import proofs.«414028_j29231547417249_2_alg».proof.Proof.Gen.Kernel.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KB7

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 38) 0 ∗ semVal ((c : Thread nD τ), SemLoc.dma 39) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid7.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid7.Coords) : Rect S65536 := Rect.unit (s := S65536) (k7_off1 i) S1.size (k7_off1_inb i)

/-- the table word the body reads at point i: the table's contents at the index the one-word load names -/
def tword (T : IVec S65536 32) (i : grid7.Coords) : BitVec 32 :=
  T ((rT i).toLoadRect.idx (Shape.Idx.first (numel1_S1.symm ▸ Nat.one_pos)))

theorem flat_lt (i : grid7.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k7_off1_val (i : grid7.Coords) : k7_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid7.Coords) :
    tword T i = T (ValueIdx.ix1 ⟨(i 0).val * 128 + (i 1).val, flat_lt i⟩) := by
  unfold tword
  congr 1
  funext d
  match d with
  | ⟨0, _⟩ => exact Fin.ext (by show k7_off1 i 0 + 1 * 0 = (i 0).val * 128 + (i 1).val; have := k7_off1_val i; omega)

/-- the words the two one-word loads return are the table words -/
theorem tword_v6 (c : Dev nD) (hT : Bf (F := F) c (Memref.whole main_v27)) (i : grid7.Coords) (h) :
    View.readAt (Elt F) (Memref.whole main_v27).view (rT i).toLoadRect hT (Shape.Idx.first h) = tword hT i := rfl
theorem tword_v7 (c : Dev nD) (tT : Bf (F := F) c (Memref.whole main_v28)) (i : grid7.Coords) (h) :
    View.readAt (Elt F) (Memref.whole main_v28).view (rT i).toLoadRect tT (Shape.Idx.first h) = tword tT i := rfl

/-- a word below the table's height names a row inside the table: the two conditions the body assumes -/
theorem chk1_of_lt (w : BitVec 32) (h : w.toNat < 200000) : k7_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k7_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k7_pay2 j (k7_pay6 hrow trow rel) (k7_pay7 hrow trow rel) (k7_pay1 (F := F))
/-- after a later step: the point's contribution added to the block's contents -/
def stepv (hrow trow rel : Vec F S1x256 .f32) (j : BitVec 32) (acc : Vec F S128 .f32) : Vec F S128 .f32 :=
  k7_pay2 j (k7_pay6 hrow trow rel) (k7_pay7 hrow trow rel) acc

theorem firstv_apply (hrow trow rel : Vec F S1x256 .f32) (j : BitVec 32) (y : S128.Idx) :
    firstv hrow trow rel j y = k7_pay2 j (k7_pay6 hrow trow rel) (k7_pay7 hrow trow rel) (k7_pay1 (F := F)) y := rfl
theorem stepv_apply (hrow trow rel : Vec F S1x256 .f32) (j : BitVec 32) (acc : Vec F S128 .f32) (y : S128.Idx) :
    stepv hrow trow rel j acc y = k7_pay2 j (k7_pay6 hrow trow rel) (k7_pay7 hrow trow rel) acc y := rfl

end Cert.Proof.KB7

end
-- ==== Proof.KB7Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KB7Defs
import proofs.«414028_j29231547417249_2_alg».proof.Proof.KBAdm
import Idealize.ShloMosaic.Lib.Pipeline.Dat
import Idealize.ShloMosaic.Lib.Pipeline.Kit

noncomputable section

namespace Cert.Proof.KB7

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg7 (F := F)).Adm := Cert.Proof.KB.adm m (7 : Fin 16)
abbrev cfgA : Pipeline.Cfg sig Λ₀ := cfg7 (adm0 m)
abbrev hTab : IVec S65536 32 := Cert.Proof.KB.tbl7 m 0
abbrev tTab : IVec S65536 32 := Cert.Proof.KB.tbl7 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v27) (hTab m) ∗ pt c (Memref.whole main_v28) (tTab m) ∗ nodeSh c (nodeA m c)
    ∗ ((Memref.whole main_arg0).view.loc (c : Thread nD τ) ↦[Finset.univ]{Transfers.shareDrop fullShare 2} nodeA m c)
    ∗ (∃ s0, pt c (Memref.whole cc7_scratch0) s0) ∗ (∃ s1, pt c (Memref.whole cc7_scratch1) s1) ∗ sems0 c
    ∗ Pipeline.scopedRestBut (Ix := Unit) (Name := ℕ) (U := UC) (Lvl := ℕ) (Val := Elt F) spec7 c [cc7_scratch0, cc7_scratch1])

/-- Region 0's proof data on core `c`. -/
def dat0 (c : Dev nD) : Dat τ (Elt F) Unit ℕ UC ℕ (cfgA m) c where
  A w := m ((c : Thread nD τ).loc (Pipeline.arrRef spec7 w))
  after w t := match w with
    | ⟨0, _⟩ => relA m c
    | ⟨1, _⟩ => accA m c t.val t.isLt
  Φ _ := Φv m c
  q _ := fullShare
  owed _ := 0

end Cert.Proof.KB7

end
-- ==== Proof.KB8Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.Kernel
import proofs.«414028_j29231547417249_2_alg».proof.Proof.Gen.Kernel.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KB8

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 43) 0 ∗ semVal ((c : Thread nD τ), SemLoc.dma 44) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid8.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid8.Coords) : Rect S65536 := Rect.unit (s := S65536) (k8_off1 i) S1.size (k8_off1_inb i)

/-- the table word the body reads at point i: the table's contents at the index the one-word load names -/
def tword (T : IVec S65536 32) (i : grid8.Coords) : BitVec 32 :=
  T ((rT i).toLoadRect.idx (Shape.Idx.first (numel1_S1.symm ▸ Nat.one_pos)))

theorem flat_lt (i : grid8.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k8_off1_val (i : grid8.Coords) : k8_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid8.Coords) :
    tword T i = T (ValueIdx.ix1 ⟨(i 0).val * 128 + (i 1).val, flat_lt i⟩) := by
  unfold tword
  congr 1
  funext d
  match d with
  | ⟨0, _⟩ => exact Fin.ext (by show k8_off1 i 0 + 1 * 0 = (i 0).val * 128 + (i 1).val; have := k8_off1_val i; omega)

/-- the words the two one-word loads return are the table words -/
theorem tword_v6 (c : Dev nD) (hT : Bf (F := F) c (Memref.whole main_v30)) (i : grid8.Coords) (h) :
    View.readAt (Elt F) (Memref.whole main_v30).view (rT i).toLoadRect hT (Shape.Idx.first h) = tword hT i := rfl
theorem tword_v7 (c : Dev nD) (tT : Bf (F := F) c (Memref.whole main_v31)) (i : grid8.Coords) (h) :
    View.readAt (Elt F) (Memref.whole main_v31).view (rT i).toLoadRect tT (Shape.Idx.first h) = tword tT i := rfl

/-- a word below the table's height names a row inside the table: the two conditions the body assumes -/
theorem chk1_of_lt (w : BitVec 32) (h : w.toNat < 200000) : k8_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k8_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k8_pay2 j (k8_pay6 hrow trow rel) (k8_pay7 hrow trow rel) (k8_pay1 (F := F))
/-- after a later step: the point's contribution added to the block's contents -/
def stepv (hrow trow rel : Vec F S1x256 .f32) (j : BitVec 32) (acc : Vec F S128 .f32) : Vec F S128 .f32 :=
  k8_pay2 j (k8_pay6 hrow trow rel) (k8_pay7 hrow trow rel) acc

theorem firstv_apply (hrow trow rel : Vec F S1x256 .f32) (j : BitVec 32) (y : S128.Idx) :
    firstv hrow trow rel j y = k8_pay2 j (k8_pay6 hrow trow rel) (k8_pay7 hrow trow rel) (k8_pay1 (F := F)) y := rfl
theorem stepv_apply (hrow trow rel : Vec F S1x256 .f32) (j : BitVec 32) (acc : Vec F S128 .f32) (y : S128.Idx) :
    stepv hrow trow rel j acc y = k8_pay2 j (k8_pay6 hrow trow rel) (k8_pay7 hrow trow rel) acc y := rfl

end Cert.Proof.KB8

end
-- ==== Proof.KB8Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KB8Defs
import proofs.«414028_j29231547417249_2_alg».proof.Proof.KBAdm
import Idealize.ShloMosaic.Lib.Pipeline.Dat
import Idealize.ShloMosaic.Lib.Pipeline.Kit

noncomputable section

namespace Cert.Proof.KB8

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg8 (F := F)).Adm := Cert.Proof.KB.adm m (8 : Fin 16)
abbrev cfgA : Pipeline.Cfg sig Λ₀ := cfg8 (adm0 m)
abbrev hTab : IVec S65536 32 := Cert.Proof.KB.tbl8 m 0
abbrev tTab : IVec S65536 32 := Cert.Proof.KB.tbl8 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v30) (hTab m) ∗ pt c (Memref.whole main_v31) (tTab m) ∗ nodeSh c (nodeA m c)
    ∗ ((Memref.whole main_arg0).view.loc (c : Thread nD τ) ↦[Finset.univ]{Transfers.shareDrop fullShare 2} nodeA m c)
    ∗ (∃ s0, pt c (Memref.whole cc8_scratch0) s0) ∗ (∃ s1, pt c (Memref.whole cc8_scratch1) s1) ∗ sems0 c
    ∗ Pipeline.scopedRestBut (Ix := Unit) (Name := ℕ) (U := UC) (Lvl := ℕ) (Val := Elt F) spec8 c [cc8_scratch0, cc8_scratch1])

/-- Region 0's proof data on core `c`. -/
def dat0 (c : Dev nD) : Dat τ (Elt F) Unit ℕ UC ℕ (cfgA m) c where
  A w := m ((c : Thread nD τ).loc (Pipeline.arrRef spec8 w))
  after w t := match w with
    | ⟨0, _⟩ => relA m c
    | ⟨1, _⟩ => accA m c t.val t.isLt
  Φ _ := Φv m c
  q _ := fullShare
  owed _ := 0

end Cert.Proof.KB8

end
-- ==== Proof.KB9Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.Kernel
import proofs.«414028_j29231547417249_2_alg».proof.Proof.Gen.Kernel.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KB9

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 48) 0 ∗ semVal ((c : Thread nD τ), SemLoc.dma 49) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid9.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid9.Coords) : Rect S65536 := Rect.unit (s := S65536) (k9_off1 i) S1.size (k9_off1_inb i)

/-- the table word the body reads at point i: the table's contents at the index the one-word load names -/
def tword (T : IVec S65536 32) (i : grid9.Coords) : BitVec 32 :=
  T ((rT i).toLoadRect.idx (Shape.Idx.first (numel1_S1.symm ▸ Nat.one_pos)))

theorem flat_lt (i : grid9.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k9_off1_val (i : grid9.Coords) : k9_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid9.Coords) :
    tword T i = T (ValueIdx.ix1 ⟨(i 0).val * 128 + (i 1).val, flat_lt i⟩) := by
  unfold tword
  congr 1
  funext d
  match d with
  | ⟨0, _⟩ => exact Fin.ext (by show k9_off1 i 0 + 1 * 0 = (i 0).val * 128 + (i 1).val; have := k9_off1_val i; omega)

/-- the words the two one-word loads return are the table words -/
theorem tword_v6 (c : Dev nD) (hT : Bf (F := F) c (Memref.whole main_v33)) (i : grid9.Coords) (h) :
    View.readAt (Elt F) (Memref.whole main_v33).view (rT i).toLoadRect hT (Shape.Idx.first h) = tword hT i := rfl
theorem tword_v7 (c : Dev nD) (tT : Bf (F := F) c (Memref.whole main_v34)) (i : grid9.Coords) (h) :
    View.readAt (Elt F) (Memref.whole main_v34).view (rT i).toLoadRect tT (Shape.Idx.first h) = tword tT i := rfl

/-- a word below the table's height names a row inside the table: the two conditions the body assumes -/
theorem chk1_of_lt (w : BitVec 32) (h : w.toNat < 200000) : k9_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k9_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k9_pay2 j (k9_pay6 hrow trow rel) (k9_pay7 hrow trow rel) (k9_pay1 (F := F))
/-- after a later step: the point's contribution added to the block's contents -/
def stepv (hrow trow rel : Vec F S1x256 .f32) (j : BitVec 32) (acc : Vec F S128 .f32) : Vec F S128 .f32 :=
  k9_pay2 j (k9_pay6 hrow trow rel) (k9_pay7 hrow trow rel) acc

theorem firstv_apply (hrow trow rel : Vec F S1x256 .f32) (j : BitVec 32) (y : S128.Idx) :
    firstv hrow trow rel j y = k9_pay2 j (k9_pay6 hrow trow rel) (k9_pay7 hrow trow rel) (k9_pay1 (F := F)) y := rfl
theorem stepv_apply (hrow trow rel : Vec F S1x256 .f32) (j : BitVec 32) (acc : Vec F S128 .f32) (y : S128.Idx) :
    stepv hrow trow rel j acc y = k9_pay2 j (k9_pay6 hrow trow rel) (k9_pay7 hrow trow rel) acc y := rfl

end Cert.Proof.KB9

end
-- ==== Proof.KB9Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KB9Defs
import proofs.«414028_j29231547417249_2_alg».proof.Proof.KBAdm
import Idealize.ShloMosaic.Lib.Pipeline.Dat
import Idealize.ShloMosaic.Lib.Pipeline.Kit

noncomputable section

namespace Cert.Proof.KB9

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg9 (F := F)).Adm := Cert.Proof.KB.adm m (9 : Fin 16)
abbrev cfgA : Pipeline.Cfg sig Λ₀ := cfg9 (adm0 m)
abbrev hTab : IVec S65536 32 := Cert.Proof.KB.tbl9 m 0
abbrev tTab : IVec S65536 32 := Cert.Proof.KB.tbl9 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v33) (hTab m) ∗ pt c (Memref.whole main_v34) (tTab m) ∗ nodeSh c (nodeA m c)
    ∗ ((Memref.whole main_arg0).view.loc (c : Thread nD τ) ↦[Finset.univ]{Transfers.shareDrop fullShare 2} nodeA m c)
    ∗ (∃ s0, pt c (Memref.whole cc9_scratch0) s0) ∗ (∃ s1, pt c (Memref.whole cc9_scratch1) s1) ∗ sems0 c
    ∗ Pipeline.scopedRestBut (Ix := Unit) (Name := ℕ) (U := UC) (Lvl := ℕ) (Val := Elt F) spec9 c [cc9_scratch0, cc9_scratch1])

/-- Region 0's proof data on core `c`. -/
def dat0 (c : Dev nD) : Dat τ (Elt F) Unit ℕ UC ℕ (cfgA m) c where
  A w := m ((c : Thread nD τ).loc (Pipeline.arrRef spec9 w))
  after w t := match w with
    | ⟨0, _⟩ => relA m c
    | ⟨1, _⟩ => accA m c t.val t.isLt
  Φ _ := Φv m c
  q _ := fullShare
  owed _ := 0

end Cert.Proof.KB9

end
-- ==== Proof.KB10Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.Kernel
import proofs.«414028_j29231547417249_2_alg».proof.Proof.Gen.Kernel.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KB10

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 53) 0 ∗ semVal ((c : Thread nD τ), SemLoc.dma 54) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid10.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid10.Coords) : Rect S65536 := Rect.unit (s := S65536) (k10_off1 i) S1.size (k10_off1_inb i)

/-- the table word the body reads at point i: the table's contents at the index the one-word load names -/
def tword (T : IVec S65536 32) (i : grid10.Coords) : BitVec 32 :=
  T ((rT i).toLoadRect.idx (Shape.Idx.first (numel1_S1.symm ▸ Nat.one_pos)))

theorem flat_lt (i : grid10.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k10_off1_val (i : grid10.Coords) : k10_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid10.Coords) :
    tword T i = T (ValueIdx.ix1 ⟨(i 0).val * 128 + (i 1).val, flat_lt i⟩) := by
  unfold tword
  congr 1
  funext d
  match d with
  | ⟨0, _⟩ => exact Fin.ext (by show k10_off1 i 0 + 1 * 0 = (i 0).val * 128 + (i 1).val; have := k10_off1_val i; omega)

/-- the words the two one-word loads return are the table words -/
theorem tword_v6 (c : Dev nD) (hT : Bf (F := F) c (Memref.whole main_v36)) (i : grid10.Coords) (h) :
    View.readAt (Elt F) (Memref.whole main_v36).view (rT i).toLoadRect hT (Shape.Idx.first h) = tword hT i := rfl
theorem tword_v7 (c : Dev nD) (tT : Bf (F := F) c (Memref.whole main_v37)) (i : grid10.Coords) (h) :
    View.readAt (Elt F) (Memref.whole main_v37).view (rT i).toLoadRect tT (Shape.Idx.first h) = tword tT i := rfl

/-- a word below the table's height names a row inside the table: the two conditions the body assumes -/
theorem chk1_of_lt (w : BitVec 32) (h : w.toNat < 200000) : k10_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k10_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k10_pay2 j (k10_pay6 hrow trow rel) (k10_pay7 hrow trow rel) (k10_pay1 (F := F))
/-- after a later step: the point's contribution added to the block's contents -/
def stepv (hrow trow rel : Vec F S1x256 .f32) (j : BitVec 32) (acc : Vec F S128 .f32) : Vec F S128 .f32 :=
  k10_pay2 j (k10_pay6 hrow trow rel) (k10_pay7 hrow trow rel) acc

theorem firstv_apply (hrow trow rel : Vec F S1x256 .f32) (j : BitVec 32) (y : S128.Idx) :
    firstv hrow trow rel j y = k10_pay2 j (k10_pay6 hrow trow rel) (k10_pay7 hrow trow rel) (k10_pay1 (F := F)) y := rfl
theorem stepv_apply (hrow trow rel : Vec F S1x256 .f32) (j : BitVec 32) (acc : Vec F S128 .f32) (y : S128.Idx) :
    stepv hrow trow rel j acc y = k10_pay2 j (k10_pay6 hrow trow rel) (k10_pay7 hrow trow rel) acc y := rfl

end Cert.Proof.KB10

end
-- ==== Proof.KB10Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KB10Defs
import proofs.«414028_j29231547417249_2_alg».proof.Proof.KBAdm
import Idealize.ShloMosaic.Lib.Pipeline.Dat
import Idealize.ShloMosaic.Lib.Pipeline.Kit

noncomputable section

namespace Cert.Proof.KB10

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg10 (F := F)).Adm := Cert.Proof.KB.adm m (10 : Fin 16)
abbrev cfgA : Pipeline.Cfg sig Λ₀ := cfg10 (adm0 m)
abbrev hTab : IVec S65536 32 := Cert.Proof.KB.tbl10 m 0
abbrev tTab : IVec S65536 32 := Cert.Proof.KB.tbl10 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v36) (hTab m) ∗ pt c (Memref.whole main_v37) (tTab m) ∗ nodeSh c (nodeA m c)
    ∗ ((Memref.whole main_arg0).view.loc (c : Thread nD τ) ↦[Finset.univ]{Transfers.shareDrop fullShare 2} nodeA m c)
    ∗ (∃ s0, pt c (Memref.whole cc10_scratch0) s0) ∗ (∃ s1, pt c (Memref.whole cc10_scratch1) s1) ∗ sems0 c
    ∗ Pipeline.scopedRestBut (Ix := Unit) (Name := ℕ) (U := UC) (Lvl := ℕ) (Val := Elt F) spec10 c [cc10_scratch0, cc10_scratch1])

/-- Region 0's proof data on core `c`. -/
def dat0 (c : Dev nD) : Dat τ (Elt F) Unit ℕ UC ℕ (cfgA m) c where
  A w := m ((c : Thread nD τ).loc (Pipeline.arrRef spec10 w))
  after w t := match w with
    | ⟨0, _⟩ => relA m c
    | ⟨1, _⟩ => accA m c t.val t.isLt
  Φ _ := Φv m c
  q _ := fullShare
  owed _ := 0

end Cert.Proof.KB10

end
-- ==== Proof.KB11Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.Kernel
import proofs.«414028_j29231547417249_2_alg».proof.Proof.Gen.Kernel.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KB11

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 58) 0 ∗ semVal ((c : Thread nD τ), SemLoc.dma 59) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid11.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid11.Coords) : Rect S65536 := Rect.unit (s := S65536) (k11_off1 i) S1.size (k11_off1_inb i)

/-- the table word the body reads at point i: the table's contents at the index the one-word load names -/
def tword (T : IVec S65536 32) (i : grid11.Coords) : BitVec 32 :=
  T ((rT i).toLoadRect.idx (Shape.Idx.first (numel1_S1.symm ▸ Nat.one_pos)))

theorem flat_lt (i : grid11.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k11_off1_val (i : grid11.Coords) : k11_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid11.Coords) :
    tword T i = T (ValueIdx.ix1 ⟨(i 0).val * 128 + (i 1).val, flat_lt i⟩) := by
  unfold tword
  congr 1
  funext d
  match d with
  | ⟨0, _⟩ => exact Fin.ext (by show k11_off1 i 0 + 1 * 0 = (i 0).val * 128 + (i 1).val; have := k11_off1_val i; omega)

/-- the words the two one-word loads return are the table words -/
theorem tword_v6 (c : Dev nD) (hT : Bf (F := F) c (Memref.whole main_v39)) (i : grid11.Coords) (h) :
    View.readAt (Elt F) (Memref.whole main_v39).view (rT i).toLoadRect hT (Shape.Idx.first h) = tword hT i := rfl
theorem tword_v7 (c : Dev nD) (tT : Bf (F := F) c (Memref.whole main_v40)) (i : grid11.Coords) (h) :
    View.readAt (Elt F) (Memref.whole main_v40).view (rT i).toLoadRect tT (Shape.Idx.first h) = tword tT i := rfl

/-- a word below the table's height names a row inside the table: the two conditions the body assumes -/
theorem chk1_of_lt (w : BitVec 32) (h : w.toNat < 200000) : k11_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k11_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k11_pay2 j (k11_pay6 hrow trow rel) (k11_pay7 hrow trow rel) (k11_pay1 (F := F))
/-- after a later step: the point's contribution added to the block's contents -/
def stepv (hrow trow rel : Vec F S1x256 .f32) (j : BitVec 32) (acc : Vec F S128 .f32) : Vec F S128 .f32 :=
  k11_pay2 j (k11_pay6 hrow trow rel) (k11_pay7 hrow trow rel) acc

theorem firstv_apply (hrow trow rel : Vec F S1x256 .f32) (j : BitVec 32) (y : S128.Idx) :
    firstv hrow trow rel j y = k11_pay2 j (k11_pay6 hrow trow rel) (k11_pay7 hrow trow rel) (k11_pay1 (F := F)) y := rfl
theorem stepv_apply (hrow trow rel : Vec F S1x256 .f32) (j : BitVec 32) (acc : Vec F S128 .f32) (y : S128.Idx) :
    stepv hrow trow rel j acc y = k11_pay2 j (k11_pay6 hrow trow rel) (k11_pay7 hrow trow rel) acc y := rfl

end Cert.Proof.KB11

end
-- ==== Proof.KB11Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KB11Defs
import proofs.«414028_j29231547417249_2_alg».proof.Proof.KBAdm
import Idealize.ShloMosaic.Lib.Pipeline.Dat
import Idealize.ShloMosaic.Lib.Pipeline.Kit

noncomputable section

namespace Cert.Proof.KB11

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg11 (F := F)).Adm := Cert.Proof.KB.adm m (11 : Fin 16)
abbrev cfgA : Pipeline.Cfg sig Λ₀ := cfg11 (adm0 m)
abbrev hTab : IVec S65536 32 := Cert.Proof.KB.tbl11 m 0
abbrev tTab : IVec S65536 32 := Cert.Proof.KB.tbl11 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v39) (hTab m) ∗ pt c (Memref.whole main_v40) (tTab m) ∗ nodeSh c (nodeA m c)
    ∗ ((Memref.whole main_arg0).view.loc (c : Thread nD τ) ↦[Finset.univ]{Transfers.shareDrop fullShare 2} nodeA m c)
    ∗ (∃ s0, pt c (Memref.whole cc11_scratch0) s0) ∗ (∃ s1, pt c (Memref.whole cc11_scratch1) s1) ∗ sems0 c
    ∗ Pipeline.scopedRestBut (Ix := Unit) (Name := ℕ) (U := UC) (Lvl := ℕ) (Val := Elt F) spec11 c [cc11_scratch0, cc11_scratch1])

/-- Region 0's proof data on core `c`. -/
def dat0 (c : Dev nD) : Dat τ (Elt F) Unit ℕ UC ℕ (cfgA m) c where
  A w := m ((c : Thread nD τ).loc (Pipeline.arrRef spec11 w))
  after w t := match w with
    | ⟨0, _⟩ => relA m c
    | ⟨1, _⟩ => accA m c t.val t.isLt
  Φ _ := Φv m c
  q _ := fullShare
  owed _ := 0

end Cert.Proof.KB11

end
-- ==== Proof.KB12Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.Kernel
import proofs.«414028_j29231547417249_2_alg».proof.Proof.Gen.Kernel.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KB12

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 63) 0 ∗ semVal ((c : Thread nD τ), SemLoc.dma 64) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid12.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid12.Coords) : Rect S65536 := Rect.unit (s := S65536) (k12_off1 i) S1.size (k12_off1_inb i)

/-- the table word the body reads at point i: the table's contents at the index the one-word load names -/
def tword (T : IVec S65536 32) (i : grid12.Coords) : BitVec 32 :=
  T ((rT i).toLoadRect.idx (Shape.Idx.first (numel1_S1.symm ▸ Nat.one_pos)))

theorem flat_lt (i : grid12.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k12_off1_val (i : grid12.Coords) : k12_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid12.Coords) :
    tword T i = T (ValueIdx.ix1 ⟨(i 0).val * 128 + (i 1).val, flat_lt i⟩) := by
  unfold tword
  congr 1
  funext d
  match d with
  | ⟨0, _⟩ => exact Fin.ext (by show k12_off1 i 0 + 1 * 0 = (i 0).val * 128 + (i 1).val; have := k12_off1_val i; omega)

/-- the words the two one-word loads return are the table words -/
theorem tword_v6 (c : Dev nD) (hT : Bf (F := F) c (Memref.whole main_v42)) (i : grid12.Coords) (h) :
    View.readAt (Elt F) (Memref.whole main_v42).view (rT i).toLoadRect hT (Shape.Idx.first h) = tword hT i := rfl
theorem tword_v7 (c : Dev nD) (tT : Bf (F := F) c (Memref.whole main_v43)) (i : grid12.Coords) (h) :
    View.readAt (Elt F) (Memref.whole main_v43).view (rT i).toLoadRect tT (Shape.Idx.first h) = tword tT i := rfl

/-- a word below the table's height names a row inside the table: the two conditions the body assumes -/
theorem chk1_of_lt (w : BitVec 32) (h : w.toNat < 200000) : k12_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k12_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k12_pay2 j (k12_pay6 hrow trow rel) (k12_pay7 hrow trow rel) (k12_pay1 (F := F))
/-- after a later step: the point's contribution added to the block's contents -/
def stepv (hrow trow rel : Vec F S1x256 .f32) (j : BitVec 32) (acc : Vec F S128 .f32) : Vec F S128 .f32 :=
  k12_pay2 j (k12_pay6 hrow trow rel) (k12_pay7 hrow trow rel) acc

theorem firstv_apply (hrow trow rel : Vec F S1x256 .f32) (j : BitVec 32) (y : S128.Idx) :
    firstv hrow trow rel j y = k12_pay2 j (k12_pay6 hrow trow rel) (k12_pay7 hrow trow rel) (k12_pay1 (F := F)) y := rfl
theorem stepv_apply (hrow trow rel : Vec F S1x256 .f32) (j : BitVec 32) (acc : Vec F S128 .f32) (y : S128.Idx) :
    stepv hrow trow rel j acc y = k12_pay2 j (k12_pay6 hrow trow rel) (k12_pay7 hrow trow rel) acc y := rfl

end Cert.Proof.KB12

end
-- ==== Proof.KB12Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KB12Defs
import proofs.«414028_j29231547417249_2_alg».proof.Proof.KBAdm
import Idealize.ShloMosaic.Lib.Pipeline.Dat
import Idealize.ShloMosaic.Lib.Pipeline.Kit

noncomputable section

namespace Cert.Proof.KB12

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg12 (F := F)).Adm := Cert.Proof.KB.adm m (12 : Fin 16)
abbrev cfgA : Pipeline.Cfg sig Λ₀ := cfg12 (adm0 m)
abbrev hTab : IVec S65536 32 := Cert.Proof.KB.tbl12 m 0
abbrev tTab : IVec S65536 32 := Cert.Proof.KB.tbl12 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v42) (hTab m) ∗ pt c (Memref.whole main_v43) (tTab m) ∗ nodeSh c (nodeA m c)
    ∗ ((Memref.whole main_arg0).view.loc (c : Thread nD τ) ↦[Finset.univ]{Transfers.shareDrop fullShare 2} nodeA m c)
    ∗ (∃ s0, pt c (Memref.whole cc12_scratch0) s0) ∗ (∃ s1, pt c (Memref.whole cc12_scratch1) s1) ∗ sems0 c
    ∗ Pipeline.scopedRestBut (Ix := Unit) (Name := ℕ) (U := UC) (Lvl := ℕ) (Val := Elt F) spec12 c [cc12_scratch0, cc12_scratch1])

/-- Region 0's proof data on core `c`. -/
def dat0 (c : Dev nD) : Dat τ (Elt F) Unit ℕ UC ℕ (cfgA m) c where
  A w := m ((c : Thread nD τ).loc (Pipeline.arrRef spec12 w))
  after w t := match w with
    | ⟨0, _⟩ => relA m c
    | ⟨1, _⟩ => accA m c t.val t.isLt
  Φ _ := Φv m c
  q _ := fullShare
  owed _ := 0

end Cert.Proof.KB12

end
-- ==== Proof.KB13Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.Kernel
import proofs.«414028_j29231547417249_2_alg».proof.Proof.Gen.Kernel.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KB13

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 68) 0 ∗ semVal ((c : Thread nD τ), SemLoc.dma 69) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid13.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid13.Coords) : Rect S65536 := Rect.unit (s := S65536) (k13_off1 i) S1.size (k13_off1_inb i)

/-- the table word the body reads at point i: the table's contents at the index the one-word load names -/
def tword (T : IVec S65536 32) (i : grid13.Coords) : BitVec 32 :=
  T ((rT i).toLoadRect.idx (Shape.Idx.first (numel1_S1.symm ▸ Nat.one_pos)))

theorem flat_lt (i : grid13.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k13_off1_val (i : grid13.Coords) : k13_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid13.Coords) :
    tword T i = T (ValueIdx.ix1 ⟨(i 0).val * 128 + (i 1).val, flat_lt i⟩) := by
  unfold tword
  congr 1
  funext d
  match d with
  | ⟨0, _⟩ => exact Fin.ext (by show k13_off1 i 0 + 1 * 0 = (i 0).val * 128 + (i 1).val; have := k13_off1_val i; omega)

/-- the words the two one-word loads return are the table words -/
theorem tword_v6 (c : Dev nD) (hT : Bf (F := F) c (Memref.whole main_v45)) (i : grid13.Coords) (h) :
    View.readAt (Elt F) (Memref.whole main_v45).view (rT i).toLoadRect hT (Shape.Idx.first h) = tword hT i := rfl
theorem tword_v7 (c : Dev nD) (tT : Bf (F := F) c (Memref.whole main_v46)) (i : grid13.Coords) (h) :
    View.readAt (Elt F) (Memref.whole main_v46).view (rT i).toLoadRect tT (Shape.Idx.first h) = tword tT i := rfl

/-- a word below the table's height names a row inside the table: the two conditions the body assumes -/
theorem chk1_of_lt (w : BitVec 32) (h : w.toNat < 200000) : k13_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k13_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k13_pay2 j (k13_pay6 hrow trow rel) (k13_pay7 hrow trow rel) (k13_pay1 (F := F))
/-- after a later step: the point's contribution added to the block's contents -/
def stepv (hrow trow rel : Vec F S1x256 .f32) (j : BitVec 32) (acc : Vec F S128 .f32) : Vec F S128 .f32 :=
  k13_pay2 j (k13_pay6 hrow trow rel) (k13_pay7 hrow trow rel) acc

theorem firstv_apply (hrow trow rel : Vec F S1x256 .f32) (j : BitVec 32) (y : S128.Idx) :
    firstv hrow trow rel j y = k13_pay2 j (k13_pay6 hrow trow rel) (k13_pay7 hrow trow rel) (k13_pay1 (F := F)) y := rfl
theorem stepv_apply (hrow trow rel : Vec F S1x256 .f32) (j : BitVec 32) (acc : Vec F S128 .f32) (y : S128.Idx) :
    stepv hrow trow rel j acc y = k13_pay2 j (k13_pay6 hrow trow rel) (k13_pay7 hrow trow rel) acc y := rfl

end Cert.Proof.KB13

end
-- ==== Proof.KB13Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KB13Defs
import proofs.«414028_j29231547417249_2_alg».proof.Proof.KBAdm
import Idealize.ShloMosaic.Lib.Pipeline.Dat
import Idealize.ShloMosaic.Lib.Pipeline.Kit

noncomputable section

namespace Cert.Proof.KB13

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg13 (F := F)).Adm := Cert.Proof.KB.adm m (13 : Fin 16)
abbrev cfgA : Pipeline.Cfg sig Λ₀ := cfg13 (adm0 m)
abbrev hTab : IVec S65536 32 := Cert.Proof.KB.tbl13 m 0
abbrev tTab : IVec S65536 32 := Cert.Proof.KB.tbl13 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v45) (hTab m) ∗ pt c (Memref.whole main_v46) (tTab m) ∗ nodeSh c (nodeA m c)
    ∗ ((Memref.whole main_arg0).view.loc (c : Thread nD τ) ↦[Finset.univ]{Transfers.shareDrop fullShare 2} nodeA m c)
    ∗ (∃ s0, pt c (Memref.whole cc13_scratch0) s0) ∗ (∃ s1, pt c (Memref.whole cc13_scratch1) s1) ∗ sems0 c
    ∗ Pipeline.scopedRestBut (Ix := Unit) (Name := ℕ) (U := UC) (Lvl := ℕ) (Val := Elt F) spec13 c [cc13_scratch0, cc13_scratch1])

/-- Region 0's proof data on core `c`. -/
def dat0 (c : Dev nD) : Dat τ (Elt F) Unit ℕ UC ℕ (cfgA m) c where
  A w := m ((c : Thread nD τ).loc (Pipeline.arrRef spec13 w))
  after w t := match w with
    | ⟨0, _⟩ => relA m c
    | ⟨1, _⟩ => accA m c t.val t.isLt
  Φ _ := Φv m c
  q _ := fullShare
  owed _ := 0

end Cert.Proof.KB13

end
-- ==== Proof.KB14Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.Kernel
import proofs.«414028_j29231547417249_2_alg».proof.Proof.Gen.Kernel.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KB14

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 73) 0 ∗ semVal ((c : Thread nD τ), SemLoc.dma 74) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid14.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid14.Coords) : Rect S65536 := Rect.unit (s := S65536) (k14_off1 i) S1.size (k14_off1_inb i)

/-- the table word the body reads at point i: the table's contents at the index the one-word load names -/
def tword (T : IVec S65536 32) (i : grid14.Coords) : BitVec 32 :=
  T ((rT i).toLoadRect.idx (Shape.Idx.first (numel1_S1.symm ▸ Nat.one_pos)))

theorem flat_lt (i : grid14.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k14_off1_val (i : grid14.Coords) : k14_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid14.Coords) :
    tword T i = T (ValueIdx.ix1 ⟨(i 0).val * 128 + (i 1).val, flat_lt i⟩) := by
  unfold tword
  congr 1
  funext d
  match d with
  | ⟨0, _⟩ => exact Fin.ext (by show k14_off1 i 0 + 1 * 0 = (i 0).val * 128 + (i 1).val; have := k14_off1_val i; omega)

/-- the words the two one-word loads return are the table words -/
theorem tword_v6 (c : Dev nD) (hT : Bf (F := F) c (Memref.whole main_v48)) (i : grid14.Coords) (h) :
    View.readAt (Elt F) (Memref.whole main_v48).view (rT i).toLoadRect hT (Shape.Idx.first h) = tword hT i := rfl
theorem tword_v7 (c : Dev nD) (tT : Bf (F := F) c (Memref.whole main_v49)) (i : grid14.Coords) (h) :
    View.readAt (Elt F) (Memref.whole main_v49).view (rT i).toLoadRect tT (Shape.Idx.first h) = tword tT i := rfl

/-- a word below the table's height names a row inside the table: the two conditions the body assumes -/
theorem chk1_of_lt (w : BitVec 32) (h : w.toNat < 200000) : k14_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k14_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k14_pay2 j (k14_pay6 hrow trow rel) (k14_pay7 hrow trow rel) (k14_pay1 (F := F))
/-- after a later step: the point's contribution added to the block's contents -/
def stepv (hrow trow rel : Vec F S1x256 .f32) (j : BitVec 32) (acc : Vec F S128 .f32) : Vec F S128 .f32 :=
  k14_pay2 j (k14_pay6 hrow trow rel) (k14_pay7 hrow trow rel) acc

theorem firstv_apply (hrow trow rel : Vec F S1x256 .f32) (j : BitVec 32) (y : S128.Idx) :
    firstv hrow trow rel j y = k14_pay2 j (k14_pay6 hrow trow rel) (k14_pay7 hrow trow rel) (k14_pay1 (F := F)) y := rfl
theorem stepv_apply (hrow trow rel : Vec F S1x256 .f32) (j : BitVec 32) (acc : Vec F S128 .f32) (y : S128.Idx) :
    stepv hrow trow rel j acc y = k14_pay2 j (k14_pay6 hrow trow rel) (k14_pay7 hrow trow rel) acc y := rfl

end Cert.Proof.KB14

end
-- ==== Proof.KB14Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KB14Defs
import proofs.«414028_j29231547417249_2_alg».proof.Proof.KBAdm
import Idealize.ShloMosaic.Lib.Pipeline.Dat
import Idealize.ShloMosaic.Lib.Pipeline.Kit

noncomputable section

namespace Cert.Proof.KB14

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg14 (F := F)).Adm := Cert.Proof.KB.adm m (14 : Fin 16)
abbrev cfgA : Pipeline.Cfg sig Λ₀ := cfg14 (adm0 m)
abbrev hTab : IVec S65536 32 := Cert.Proof.KB.tbl14 m 0
abbrev tTab : IVec S65536 32 := Cert.Proof.KB.tbl14 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v48) (hTab m) ∗ pt c (Memref.whole main_v49) (tTab m) ∗ nodeSh c (nodeA m c)
    ∗ ((Memref.whole main_arg0).view.loc (c : Thread nD τ) ↦[Finset.univ]{Transfers.shareDrop fullShare 2} nodeA m c)
    ∗ (∃ s0, pt c (Memref.whole cc14_scratch0) s0) ∗ (∃ s1, pt c (Memref.whole cc14_scratch1) s1) ∗ sems0 c
    ∗ Pipeline.scopedRestBut (Ix := Unit) (Name := ℕ) (U := UC) (Lvl := ℕ) (Val := Elt F) spec14 c [cc14_scratch0, cc14_scratch1])

/-- Region 0's proof data on core `c`. -/
def dat0 (c : Dev nD) : Dat τ (Elt F) Unit ℕ UC ℕ (cfgA m) c where
  A w := m ((c : Thread nD τ).loc (Pipeline.arrRef spec14 w))
  after w t := match w with
    | ⟨0, _⟩ => relA m c
    | ⟨1, _⟩ => accA m c t.val t.isLt
  Φ _ := Φv m c
  q _ := fullShare
  owed _ := 0

end Cert.Proof.KB14

end
-- ==== Proof.KB15Defs.lean ====
/-
  Region 0's kernel body at a symbolic grid point: the names its runs are stated with, and the pure facts behind
  them. At point (i0, i1) of the (512, 128) grid the body reads word i0 * 128 + i1 of the head table and of the tail
  table, copies the two rows of the node table those words name into two scratch blocks, and adds the point's
  contribution, computed from the two rows and the relation block, into the output block (zeroed first when i1 = 0).
  Here: the table word (`tword`), a row of the node table as a block (`rowB`), what the output block holds after a
  first step (`firstv`) and after a later one (`stepv`); that the one-word loads return the table words, that a word
  below the table's height meets the conditions the body assumes, that the node table read through the slice at such
  a word is that row, and that a whole block loaded back after a whole-block write is the payload written.
-/
import proofs.«414028_j29231547417249_2_alg».proof.Proof.Gen.Kernel
import proofs.«414028_j29231547417249_2_alg».proof.Proof.Gen.Kernel.Skeleton
import proofs.«414028_j29231547417249_2_alg».proof.Proof.Spec
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.ValueIdx

noncomputable section

namespace Cert.Proof.KB15

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's rounds copy and the transfers' counters. -/
abbrev UC : Type := UR sig nD τ × Counters
local notation "𝕄" => MT nD τ sig Unit (Elt F) ℕ UC ℕ

/-- A memref's buffer contents on device c's TensorCore, and the buffer held whole at contents f. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two transfer semaphores at zero. -/
abbrev sems0 (c : Dev nD) : sProp 𝕄 :=
  iprop(semVal ((c : Thread nD τ), SemLoc.dma 78) 0 ∗ semVal ((c : Thread nD τ), SemLoc.dma 79) 0)

/-- the node table under its two read shares -/
abbrev nodeSh (c : Dev nD) (node : Bf (F := F) c (Memref.whole main_arg0)) : sProp 𝕄 :=
  iprop(((Memref.whole main_arg0).view.loc (c : Thread nD τ) ↦[Finset.univ]{Transfers.shareTok fullShare 2 0} node)
    ∗ ((Memref.whole main_arg0).view.loc (c : Thread nD τ) ↦[Finset.univ]{Transfers.shareTok fullShare 2 1} node))

/-- The branch condition "i1 = 0" as the body computes it. -/
abbrev IsFirst (i : grid15.Coords) : Prop := Scalar.cmpi .ne (Scalar.extui (Scalar.cmpi .eq (BitVec.ofNat 32 (i 1).val) 0#32)) 0#32 = 1#1

/-! ## The table word read at a grid point -/

/-- the rectangle of the one table word read at point i -/
abbrev rT (i : grid15.Coords) : Rect S65536 := Rect.unit (s := S65536) (k15_off1 i) S1.size (k15_off1_inb i)

/-- the table word the body reads at point i: the table's contents at the index the one-word load names -/
def tword (T : IVec S65536 32) (i : grid15.Coords) : BitVec 32 :=
  T ((rT i).toLoadRect.idx (Shape.Idx.first (numel1_S1.symm ▸ Nat.one_pos)))

theorem flat_lt (i : grid15.Coords) : (i 0).val * 128 + (i 1).val < 65536 := by
  have h0 : (i 0).val < 512 := (i 0).isLt
  have h1 : (i 1).val < 128 := (i 1).isLt
  omega

/-- the word offset the body computes on 32-bit words is i0 * 128 + i1: nothing wraps below 65536 -/
theorem k15_off1_val (i : grid15.Coords) : k15_off1 i 0 = (i 0).val * 128 + (i 1).val := by
  have h0 : (i 0).val < 512 := (i 0).isLt
  have h1 : (i 1).val < 128 := (i 1).isLt
  show (Scalar.indexCast (Scalar.addi (Scalar.muli (BitVec.ofNat 32 (i 0).val) 128#32) (BitVec.ofNat 32 (i 1).val))).toNat = _
  simp only [Scalar.indexCast, Scalar.addi, Scalar.muli, IntOp.addi, IntOp.muli, BitVec.toNat_add, BitVec.toNat_mul, BitVec.toNat_ofNat, Nat.reducePow, Nat.reduceMod]
  omega

theorem tword_eq (T : IVec S65536 32) (i : grid15.Coords) :
    tword T i = T (ValueIdx.ix1 ⟨(i 0).val * 128 + (i 1).val, flat_lt i⟩) := by
  unfold tword
  congr 1
  funext d
  match d with
  | ⟨0, _⟩ => exact Fin.ext (by show k15_off1 i 0 + 1 * 0 = (i 0).val * 128 + (i 1).val; have := k15_off1_val i; omega)

/-- the words the two one-word loads return are the table words -/
theorem tword_v6 (c : Dev nD) (hT : Bf (F := F) c (Memref.whole main_v51)) (i : grid15.Coords) (h) :
    View.readAt (Elt F) (Memref.whole main_v51).view (rT i).toLoadRect hT (Shape.Idx.first h) = tword hT i := rfl
theorem tword_v7 (c : Dev nD) (tT : Bf (F := F) c (Memref.whole main_v52)) (i : grid15.Coords) (h) :
    View.readAt (Elt F) (Memref.whole main_v52).view (rT i).toLoadRect tT (Shape.Idx.first h) = tword tT i := rfl

/-- a word below the table's height names a row inside the table: the two conditions the body assumes -/
theorem chk1_of_lt (w : BitVec 32) (h : w.toNat < 200000) : k15_chk1 w := by
  refine ⟨fun a => ?_, fun a => ?_⟩ <;> fin_cases a
  · show w.toNat + 1 ≤ 200000; omega
  · show 0 + 256 ≤ 256; omega
  · show w.toNat + 1 ≤ 200000; omega
  · show 0 + 256 ≤ 256; omega
theorem chk2_of_lt (w : BitVec 32) (h : w.toNat < 200000) : k15_chk2 w := by
  intro a; fin_cases a
  · show w.toNat + 1 ≤ 200000; omega
  · show 0 + 256 ≤ 256; omega

/-! ## A row of the node table -/

/-- row w of the node table as a (1,256) block -/
def rowB (node : Vec F S200000x256 .f32) (w : BitVec 32) : Vec F S1x256 .f32 :=
  fun y => node (ValueIdx.ix2 (Cert.Proof.Spec.rowOf w) ⟨(y 1).val, (y 1).isLt⟩)

/-- the node table read through the (1,256) slice at row w is row w -/
theorem read_row (c : Dev nD) (node : Bf (F := F) c (Memref.whole main_arg0)) (w : BitVec 32) (off : Fin 2 → Nat)
    (hoff : off = ![w.toNat, 0]) (inb) (hh) (hw : w.toNat < 200000) :
    View.read (Elt F) ((Memref.whole main_arg0).slice (Rect.unit (s := S200000x256) off S1x256.size inb) hh).view node
      = rowB node w := by
  subst hoff
  funext y
  show node _ = node _
  congr 1
  funext a
  match a with
  | ⟨0, _⟩ =>
    have hy : (y 0).val < 1 := (y 0).isLt
    exact Fin.ext (by show w.toNat + 1 * (y 0).val = (Cert.Proof.Spec.rowOf w).val; rw [Cert.Proof.Spec.rowOf_val_of_lt w hw]; omega)
  | ⟨1, _⟩ => exact Fin.ext (by show 0 + 1 * (y 1).val = (y 1).val; omega)

/-! ## Whole-block loads and the transfers' read-back -/

/-- a whole (1,256) block written through a view and loaded back whole is the payload -/
theorem readback256 {sp : Space} (m : Memref sig .tc sp S1x256 .f32) (f : m.view.ty.Contents (Elt F)) (P : Vec F S1x256 .f32) :
    View.readAt (Elt F) m.view (Rect.unit (s := S1x256) ![0, 0] S1x256.size inb_S1x256_S1x256_0_0).toLoadRect
      (View.write (Elt F) m.view f P Finset.univ) = P := by
  rw [View.readAt_eq_ld, View.read_write_univ]
  exact View.ld_unit_zero (by funext a; fin_cases a <;> rfl) _ P

/-- a whole-block load reads the contents -/
theorem load256 {sp : Space} (m : Memref sig .tc sp S1x256 .f32) (f : m.view.ty.Contents (Elt F)) :
    View.readAt (Elt F) m.view (Rect.unit (s := S1x256) ![0, 0] S1x256.size inb_S1x256_S1x256_0_0).toLoadRect f
      = m.view.read (Elt F) f := by
  rw [View.readAt_eq_ld]
  exact View.ld_unit_zero (by funext a; fin_cases a <;> rfl) _ _
theorem load128 {sp : Space} (m : Memref sig .tc sp S128 .f32) (f : m.view.ty.Contents (Elt F)) :
    View.readAt (Elt F) m.view (Rect.unit (s := S128) ![0] S128.size inb_S128_S128_0).toLoadRect f
      = m.view.read (Elt F) f := by
  rw [View.readAt_eq_ld]
  exact View.ld_unit_zero (by funext a; fin_cases a; rfl) _ _

/-! ## What the body leaves in the output block -/

/-- the output block after a first step: the zero block stored, read back, and the point's contribution added -/
def firstv (hrow trow rel : Vec F S1x256 .f32) (j : BitVec 32) : Vec F S128 .f32 :=
  k15_pay2 j (k15_pay6 hrow trow rel) (k15_pay7 hrow trow rel) (k15_pay1 (F := F))
/-- after a later step: the point's contribution added to the block's contents -/
def stepv (hrow trow rel : Vec F S1x256 .f32) (j : BitVec 32) (acc : Vec F S128 .f32) : Vec F S128 .f32 :=
  k15_pay2 j (k15_pay6 hrow trow rel) (k15_pay7 hrow trow rel) acc

theorem firstv_apply (hrow trow rel : Vec F S1x256 .f32) (j : BitVec 32) (y : S128.Idx) :
    firstv hrow trow rel j y = k15_pay2 j (k15_pay6 hrow trow rel) (k15_pay7 hrow trow rel) (k15_pay1 (F := F)) y := rfl
theorem stepv_apply (hrow trow rel : Vec F S1x256 .f32) (j : BitVec 32) (acc : Vec F S128 .f32) (y : S128.Idx) :
    stepv hrow trow rel j acc y = k15_pay2 j (k15_pay6 hrow trow rel) (k15_pay7 hrow trow rel) acc y := rfl

end Cert.Proof.KB15

end
-- ==== Proof.KB15Data.lean ====
/-
  Region 0's proof data. The grid has 512 rows of 128 steps; step (i, j) gathers the two table rows edge 128·i + j names,
  forms the edge's score and adds score × (one-hot of lane j) onto the output block of row i, which stays in its staging
  buffer through the 128 steps of the row and is written back after the last. So what the block holds after point t is a
  fold over the steps of t's row so far: `accA`, by recursion on the point — a row's first step starts from the zero
  block, every other from what the step before left. The relation row's window holds the whole (1, 256) array at every
  point. The invariant carried from point to point is what the body borrows beside its windows: the two tables, the node
  table under its two read shares and the share left over, the two scratch rows at anything, the two transfer semaphores at zero, and the scoped
  buffers the region never touches.
-/
import proofs.«414028_j29231547417249_2_alg».proof.Proof.KB15Defs
import proofs.«414028_j29231547417249_2_alg».proof.Proof.KBAdm
import Idealize.ShloMosaic.Lib.Pipeline.Dat
import Idealize.ShloMosaic.Lib.Pipeline.Kit

noncomputable section

namespace Cert.Proof.KB15

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-- Region 0's tables at their contents, and the pipeline pinned there. -/
abbrev adm0 : (pcfg15 (F := F)).Adm := Cert.Proof.KB.adm m (15 : Fin 16)
abbrev cfgA : Pipeline.Cfg sig Λ₀ := cfg15 (adm0 m)
abbrev hTab : IVec S65536 32 := Cert.Proof.KB.tbl15 m 0
abbrev tTab : IVec S65536 32 := Cert.Proof.KB.tbl15 m 1
/-- The node table and the relation row as launched. -/
abbrev nodeA (c : Dev nD) : Vec F S200000x256 .f32 := m ((c : Thread nD τ).loc main_arg0)
abbrev relA (c : Dev nD) : Vec F S1x256 .f32 := m ((c : Thread nD τ).loc main_arg1)
/-- The two rows point `t` gathers, and its lane. -/
abbrev hrow (c : Dev nD) (t : Fin (cfgA m).N) : Vec F S1x256 .f32 := rowB (nodeA m c) (tword (hTab m) ((cfgA m).grid.coords t))
abbrev trow (c : Dev nD) (t : Fin (cfgA m).N) : Vec F S1x256 .f32 := rowB (nodeA m c) (tword (tTab m) ((cfgA m).grid.coords t))
abbrev lane (t : Fin (cfgA m).N) : BitVec 32 := BitVec.ofNat 32 (((cfgA m).grid.coords t) 1).val

/-- The output block after point `k`. -/
def accA (c : Dev nD) : (k : ℕ) → (hk : k < (cfgA m).N) → Vec F S128 .f32
  | 0, hk => firstv (hrow m c ⟨0, hk⟩) (trow m c ⟨0, hk⟩) (relA m c) (lane m ⟨0, hk⟩)
  | k + 1, hk =>
    if (k + 1) % 128 = 0 then firstv (hrow m c ⟨k + 1, hk⟩) (trow m c ⟨k + 1, hk⟩) (relA m c) (lane m ⟨k + 1, hk⟩)
    else stepv (hrow m c ⟨k + 1, hk⟩) (trow m c ⟨k + 1, hk⟩) (relA m c) (lane m ⟨k + 1, hk⟩) (accA c k (Nat.lt_of_succ_lt hk))

theorem accA_first (c : Dev nD) (t : Fin (cfgA m).N) (h : t.val % 128 = 0) :
    accA m c t.val t.isLt = firstv (hrow m c t) (trow m c t) (relA m c) (lane m t) := by
  obtain ⟨k, hk⟩ := t
  cases k with
  | zero => rfl
  | succ k => show (if (k + 1) % 128 = 0 then _ else _) = _; rw [if_pos h]

theorem accA_step (c : Dev nD) (t : Fin (cfgA m).N) (h : t.val % 128 ≠ 0) (hp : t.val - 1 < (cfgA m).N) :
    accA m c t.val t.isLt = stepv (hrow m c t) (trow m c t) (relA m c) (lane m t) (accA m c (t.val - 1) hp) := by
  obtain ⟨k, hk⟩ := t
  cases k with
  | zero => exact absurd rfl h
  | succ k => show (if (k + 1) % 128 = 0 then _ else _) = _; rw [if_neg h]; rfl

/-- What the body borrows beside its windows, the same before every point. -/
def Φv (c : Dev nD) : sProp 𝕄 :=
  iprop(pt c (Memref.whole main_v51) (hTab m) ∗ pt c (Memref.whole main_v52) (tTab m) ∗ nodeSh c (nodeA m c)
    ∗ ((Memref.whole main_arg0).view.loc (c : Thread nD τ) ↦[Finset.univ]{Transfers.shareDrop fullShare 2} nodeA m c)
    ∗ (∃ s0, pt c (Memref.whole cc15_scratch0) s0) ∗ (∃ s1, pt c (Memref.whole cc15_scratch1) s1) ∗ sems0 c
    ∗ Pipeline.scopedRestBut (Ix := Unit) (Name := ℕ) (U := UC) (Lvl := ℕ) (Val := Elt F) spec15 c [cc15_scratch0, cc15_scratch1])

/-- Region 0's proof data on core `c`. -/
def dat0 (c : Dev nD) : Dat τ (Elt F) Unit ℕ UC ℕ (cfgA m) c where
  A w := m ((c : Thread nD τ).loc (Pipeline.arrRef spec15 w))
  after w t := match w with
    | ⟨0, _⟩ => relA m c
    | ⟨1, _⟩ => accA m c t.val t.isLt
  Φ _ := Φv m c
  q _ := fullShare
  owed _ := 0

end Cert.Proof.KB15

end
-- ==== Proof.KBDats.lean ====
/-
  The sixteen regions' proof data as one family over the region's number, and what each region leaves in the one
  buffer it may change: its output array at what the pipeline's write-backs fold to (the library's `arrAt` at the last
  point). Every other buffer a region finds, it leaves.
-/
import proofs.«414028_j29231547417249_2_alg».proof.Proof.KB0Data
import proofs.«414028_j29231547417249_2_alg».proof.Proof.KB1Data
import proofs.«414028_j29231547417249_2_alg».proof.Proof.KB2Data
import proofs.«414028_j29231547417249_2_alg».proof.Proof.KB3Data
import proofs.«414028_j29231547417249_2_alg».proof.Proof.KB4Data
import proofs.«414028_j29231547417249_2_alg».proof.Proof.KB5Data
import proofs.«414028_j29231547417249_2_alg».proof.Proof.KB6Data
import proofs.«414028_j29231547417249_2_alg».proof.Proof.KB7Data
import proofs.«414028_j29231547417249_2_alg».proof.Proof.KB8Data
import proofs.«414028_j29231547417249_2_alg».proof.Proof.KB9Data
import proofs.«414028_j29231547417249_2_alg».proof.Proof.KB10Data
import proofs.«414028_j29231547417249_2_alg».proof.Proof.KB11Data
import proofs.«414028_j29231547417249_2_alg».proof.Proof.KB12Data
import proofs.«414028_j29231547417249_2_alg».proof.Proof.KB13Data
import proofs.«414028_j29231547417249_2_alg».proof.Proof.KB14Data
import proofs.«414028_j29231547417249_2_alg».proof.Proof.KB15Data
import proofs.«414028_j29231547417249_2_alg».proof.Proof.KernelRegions
import Idealize.ShloMosaic.Lib.Pipeline.FrameSuffix

noncomputable section

namespace Cert.Proof.KB

open Cert.Kernel Cert.Kernel.Gen Cert.Kernel.GenP
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The proof data of region `p` on core `c`. -/
def pdats : (p : Fin 16) → (c : Dev nD) → Dat τ (Elt F) Unit ℕ Cert.Proof.KB0.UC ℕ (Pipeline.pin (pcfgs (F := F)) (adm m) p) c
  | ⟨0, _⟩ => fun c => Cert.Proof.KB0.dat0 m c
  | ⟨1, _⟩ => fun c => Cert.Proof.KB1.dat0 m c
  | ⟨2, _⟩ => fun c => Cert.Proof.KB2.dat0 m c
  | ⟨3, _⟩ => fun c => Cert.Proof.KB3.dat0 m c
  | ⟨4, _⟩ => fun c => Cert.Proof.KB4.dat0 m c
  | ⟨5, _⟩ => fun c => Cert.Proof.KB5.dat0 m c
  | ⟨6, _⟩ => fun c => Cert.Proof.KB6.dat0 m c
  | ⟨7, _⟩ => fun c => Cert.Proof.KB7.dat0 m c
  | ⟨8, _⟩ => fun c => Cert.Proof.KB8.dat0 m c
  | ⟨9, _⟩ => fun c => Cert.Proof.KB9.dat0 m c
  | ⟨10, _⟩ => fun c => Cert.Proof.KB10.dat0 m c
  | ⟨11, _⟩ => fun c => Cert.Proof.KB11.dat0 m c
  | ⟨12, _⟩ => fun c => Cert.Proof.KB12.dat0 m c
  | ⟨13, _⟩ => fun c => Cert.Proof.KB13.dat0 m c
  | ⟨14, _⟩ => fun c => Cert.Proof.KB14.dat0 m c
  | ⟨15, _⟩ => fun c => Cert.Proof.KB15.dat0 m c
  | ⟨_ + 16, h⟩ => absurd h (Nat.not_lt.2 (Nat.le_add_left _ _))

/-- What the regions leave: after region K (item 2K+5 of @main) its output array holds the fold of its write-backs. -/
def outs : Outs (F := F) := fun J r c =>
  match J with
  | 6 => Pipeline.withArrays spec0 c (V0 m c) (fun w => (Cert.Proof.KB0.dat0 m c).arrAt w (Cert.Proof.KB0.cfgA m).N) r
  | 8 => Pipeline.withArrays spec1 c (V0 m c) (fun w => (Cert.Proof.KB1.dat0 m c).arrAt w (Cert.Proof.KB1.cfgA m).N) r
  | 10 => Pipeline.withArrays spec2 c (V0 m c) (fun w => (Cert.Proof.KB2.dat0 m c).arrAt w (Cert.Proof.KB2.cfgA m).N) r
  | 12 => Pipeline.withArrays spec3 c (V0 m c) (fun w => (Cert.Proof.KB3.dat0 m c).arrAt w (Cert.Proof.KB3.cfgA m).N) r
  | 14 => Pipeline.withArrays spec4 c (V0 m c) (fun w => (Cert.Proof.KB4.dat0 m c).arrAt w (Cert.Proof.KB4.cfgA m).N) r
  | 16 => Pipeline.withArrays spec5 c (V0 m c) (fun w => (Cert.Proof.KB5.dat0 m c).arrAt w (Cert.Proof.KB5.cfgA m).N) r
  | 18 => Pipeline.withArrays spec6 c (V0 m c) (fun w => (Cert.Proof.KB6.dat0 m c).arrAt w (Cert.Proof.KB6.cfgA m).N) r
  | 20 => Pipeline.withArrays spec7 c (V0 m c) (fun w => (Cert.Proof.KB7.dat0 m c).arrAt w (Cert.Proof.KB7.cfgA m).N) r
  | 22 => Pipeline.withArrays spec8 c (V0 m c) (fun w => (Cert.Proof.KB8.dat0 m c).arrAt w (Cert.Proof.KB8.cfgA m).N) r
  | 24 => Pipeline.withArrays spec9 c (V0 m c) (fun w => (Cert.Proof.KB9.dat0 m c).arrAt w (Cert.Proof.KB9.cfgA m).N) r
  | 26 => Pipeline.withArrays spec10 c (V0 m c) (fun w => (Cert.Proof.KB10.dat0 m c).arrAt w (Cert.Proof.KB10.cfgA m).N) r
  | 28 => Pipeline.withArrays spec11 c (V0 m c) (fun w => (Cert.Proof.KB11.dat0 m c).arrAt w (Cert.Proof.KB11.cfgA m).N) r
  | 30 => Pipeline.withArrays spec12 c (V0 m c) (fun w => (Cert.Proof.KB12.dat0 m c).arrAt w (Cert.Proof.KB12.cfgA m).N) r
  | 32 => Pipeline.withArrays spec13 c (V0 m c) (fun w => (Cert.Proof.KB13.dat0 m c).arrAt w (Cert.Proof.KB13.cfgA m).N) r
  | 34 => Pipeline.withArrays spec14 c (V0 m c) (fun w => (Cert.Proof.KB14.dat0 m c).arrAt w (Cert.Proof.KB14.cfgA m).N) r
  | 36 => Pipeline.withArrays spec15 c (V0 m c) (fun w => (Cert.Proof.KB15.dat0 m c).arrAt w (Cert.Proof.KB15.cfgA m).N) r
  | _ => V0 m c r

end Cert.Proof.KB

end
-- ==== Proof.KBThread.lean ====
/-
  What every region's record shares. No core owes another anything, so no level is assigned to any cell; and beside
  the unscoped buffers, all a core carries from one item of @main to the next is what it owes: nothing, under some
  set of recorded waits.
-/
import proofs.«414028_j29231547417249_2_alg».proof.Proof.KB0Defs

noncomputable section

namespace Cert.Proof.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ Cert.Proof.KB0.UC ℕ

/-- No level is assigned to any cell. -/
abbrev L : GSem nD τ sig → Finset Unit := fun _ => ∅
abbrev lv : GSem nD τ sig → Unit → ℕ := fun _ _ => 0

/-- The thread state beside the buffers, before item j: the core owes nothing. -/
abbrev E (j : Fin 17) (c : Dev nD) : sProp 𝕄 :=
  iprop(∃ W, owes (c : Thread nD τ) (0 : CellTallies nD τ sig Unit) W)

end Cert.Proof.KB

end
-- ==== Proof.KB0Chains.lean ====
/-
  Region 0 is entered from the valuation after item 4 of @main. No earlier item writes the node table, the relation row,
  the region's output array or the padded index rows, and the region's two tables are the slices cut out of the padded
  rows at offset 0: each buffer the region is handed holds a function of the launch memory alone.
-/
import proofs.«414028_j29231547417249_2_alg».proof.Proof.KBAdm
import Idealize.ShloMosaic.Lib.StableHlo.Run

set_option maxRecDepth 4096

noncomputable section

namespace Cert.Proof.KB0

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V5 m c main_arg0 = m ((c : Thread nD τ).loc main_arg0) :=
  (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V5 m c main_arg1 = m ((c : Thread nD τ).loc main_arg1) :=
  (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V5 m c main_v8 = m ((c : Thread nD τ).loc main_v8) :=
  (V5_of m c main_v8 (by decide)).trans <| (V4_of m c main_v8 (by decide)).trans <| (V3_of m c main_v8 (by decide)).trans <| (V2_of m c main_v8 (by decide)).trans <| (V1_of m c main_v8 (by decide)).trans <| rfl
/-- The stretch before the region cuts the table out of the padded row, whatever the valuation it runs from. -/
theorem slice_h (X : Valuation τ sig (Elt F)) :
    StableHlo.after (hostOps0_4 (F := F)) X (Proc.devRef .tc main_v6)
      = extractStridedSlice S65536 ![0] (X (Proc.devRef .tc main_v4)) slices_S1048576_S65536_0 := by
  after_results
/-- The stretch before the region cuts the table out of the padded row, whatever the valuation it runs from. -/
theorem slice_t (X : Valuation τ sig (Elt F)) :
    StableHlo.after (hostOps0_4 (F := F)) X (Proc.devRef .tc main_v7)
      = extractStridedSlice S65536 ![0] (X (Proc.devRef .tc main_v5)) slices_S1048576_S65536_0 := by
  after_results
theorem ent_tab0 (c : Dev nD) : V5 m c main_v6 = Cert.Proof.KB.tv0 m main_v6 := by
  obtain rfl : c = (0 : Dev nD) := Subsingleton.elim _ _
  rfl
theorem ent_tab1 (c : Dev nD) : V5 m c main_v7 = Cert.Proof.KB.tv0 m main_v7 := by
  obtain rfl : c = (0 : Dev nD) := Subsingleton.elim _ _
  rfl
theorem ent_tab (c : Dev nD) (k : Fin 2) : V5 m c (pre0.ref k) = Cert.Proof.KB.tbl0 m k :=
  match k with
  | ⟨0, _⟩ => ent_tab0 m c
  | ⟨1, _⟩ => ent_tab1 m c

end Cert.Proof.KB0

end
-- ==== Proof.KB0Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.Kernel
import proofs.«414028_j29231547417249_2_alg».proof.Proof.Gen.Kernel.Launch
import Idealize.ShloMosaic.Lib.Pipeline.Dat

noncomputable section

namespace Cert.Proof.KB0

open Cert.Kernel Cert.Kernel.Gen Idealize.ShloMosaic

variable {F : FTy → Type} [FloatOps F] (a : (pcfg0 (F := F)).Adm)

/-! ## The points and their coordinates -/

theorem N_eq : (cfg0 a).N = 65536 := N_0

theorem lt_N (t : Fin (cfg0 a).N) : t.val < 65536 := Nat.lt_of_lt_of_eq t.isLt (N_eq a)

/-- Each value of the first coordinate is shared by 128 consecutive points, each value of the second by one. -/
theorem stride0 : grid0.stride 0 = 128 := by decide
theorem stride1 : grid0.stride 1 = 1 := by decide

theorem coords0 (t : Fin (cfg0 a).N) : (((cfg0 a).grid.coords t) 0).val = t.val / 128 := by
  have ht := lt_N a t
  show t.val / grid0.stride 0 % 512 = t.val / 128
  rw [stride0]; omega

theorem coords1 (t : Fin (cfg0 a).N) : (((cfg0 a).grid.coords t) 1).val = t.val % 128 := by
  show t.val / grid0.stride 1 % 128 = t.val % 128
  rw [stride1, Nat.div_one]

theorem flat_eq (t : Fin (cfg0 a).N) :
    (((cfg0 a).grid.coords t) 0).val * 128 + (((cfg0 a).grid.coords t) 1).val = t.val := by
  rw [coords0, coords1]; omega

/-! ## The windows' block indices -/

/-- Window 0's block index is constant. -/
theorem index0 (s t : Fin (cfg0 a).N) : ((cfg0 a).win 0).index s = ((cfg0 a).win 0).index t := rfl

/-- Window 1's block index at a point is the point's first coordinate. -/
theorem index1 (s : Fin (cfg0 a).N) : ((cfg0 a).win 1).index s = ![s.val / 128] := by
  have hs := lt_N a s
  show ![(BitVec.ofNat 32 (((cfg0 a).grid.coords s) 0).val).toNat] = ![s.val / 128]
  rw [coords0 a s, BitVec.toNat_ofNat, Nat.mod_eq_of_lt (by omega)]

/-! ## Fetches and write-backs -/

theorem fetch0 (t : Fin (cfg0 a).N) : ((cfg0 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg0 a).N) : ((cfg0 a).win 1).fetch t = false := by
  unfold Pipeline.Window.fetch
  show (!true && _) = false
  rfl

theorem flush0 (t : Fin (cfg0 a).N) : ((cfg0 a).win 0).flush t = false := by
  unfold Pipeline.Window.flush
  show (false && _) = false
  rfl

theorem flush1 (t : Fin (cfg0 a).N) : ((cfg0 a).win 1).flush t = decide (t.val % 128 = 127) := by
  have ht := lt_N a t
  have hN : (cfg0 a).grid.N = 65536 := N_eq a
  unfold Pipeline.Window.flush
  show (true && (decide (t.val + 1 = (cfg0 a).grid.N)
    || decide (∃ h : t.val + 1 < (cfg0 a).grid.N, ((cfg0 a).win 1).index ⟨t.val + 1, h⟩ ≠ ((cfg0 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg0 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg0 a).W) (t : Fin (cfg0 a).N) : (cfg0 a).idle w ((cfg0 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg0 a).N) :
    Scalar.cmpi .ne (Scalar.extui (Scalar.cmpi .eq (BitVec.ofNat 32 (((cfg0 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg0 a).N) (A : Vec F S1x256 .f32) (y : S1x256.Idx) :
    (((cfg0 a).win 0).blk t).view.read (Elt F) A y = A y := by
  show A ((((cfg0 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg0 a).N) (y : S128.Idx) :
    ((((cfg0 a).win 1).blk t).view.emb y (0 : Fin 1)).val = 128 * (t.val / 128) + (y 0).val := by
  have hi : ((cfg0 a).win 1).index t (0 : Fin 1) = t.val / 128 := by rw [index1]; rfl
  show ((cfg0 a).win 1).index t (0 : Fin 1) * 128 + 1 * (y 0).val = 128 * (t.val / 128) + (y 0).val
  rw [hi]; omega

end Cert.Proof.KB0

end
-- ==== Proof.KB0Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KB0Defs
import proofs.«414028_j29231547417249_2_alg».proof.Proof.Gen.Kernel.Launch
import Idealize.ShloMosaic.Lib.Tactic

noncomputable section

namespace Cert.Proof.KB0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k0_pay2 j (k0_pay6 X18 X19 X20) (k0_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k0_pay2 j (k0_pay6 X18 X19 X20) (k0_pay7 X18 X19 X20)
              (m.view.readCov [⟨Rect.unit (s := S128) ![0] S128.size inb_S128_S128_0, k0_pay1 (F := F)⟩]
                (Rect.unit (s := S128) ![0] S128.size inb_S128_S128_0).toLoadRect)⟩,
          ⟨Rect.unit (s := S128) ![0] S128.size inb_S128_S128_0, k0_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid0.Coords) (M5 : Memref sig .tc .vmem S1x256 .f32) (h5 : M5.IsWhole) (M6 : Memref sig .tc .vmem S128 .f32) (h6 : M6.IsWhole)
    (hT : Bf (F := F) c (Memref.whole main_v6)) (tT : Bf (F := F) c (Memref.whole main_v7)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v6) hT ∗ pt c (Memref.whole main_v7) tT ∗ nodeSh c node
      ∗ (∃ s0, pt c (Memref.whole cc0_scratch0) s0) ∗ (∃ s1, pt c (Memref.whole cc0_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v6) hT ∗ pt c (Memref.whole main_v7) tT ∗ nodeSh c node
          ∗ (∃ s0, pt c (Memref.whole cc0_scratch0) s0) ∗ (∃ s1, pt c (Memref.whole cc0_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc0__lookup_kernel i (Memref.whole main_v6) (Memref.isWhole_whole _) (Memref.whole main_v7) (Memref.isWhole_whole _) (Memref.whole main_arg0) (Memref.isWhole_whole _)
          M5 h5 M6 h6 (Memref.whole cc0_scratch0) (Memref.isWhole_whole _) (Memref.whole cc0_scratch1) (Memref.isWhole_whole _) cc0_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid0.Coords) (M5 : Memref sig .tc .vmem S1x256 .f32) (h5 : M5.IsWhole) (M6 : Memref sig .tc .vmem S128 .f32) (h6 : M6.IsWhole)
    (hT : Bf (F := F) c (Memref.whole main_v6)) (tT : Bf (F := F) c (Memref.whole main_v7)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v6) hT ∗ pt c (Memref.whole main_v7) tT ∗ nodeSh c node
      ∗ (∃ s0, pt c (Memref.whole cc0_scratch0) s0) ∗ (∃ s1, pt c (Memref.whole cc0_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v6) hT ∗ pt c (Memref.whole main_v7) tT ∗ nodeSh c node
          ∗ (∃ s0, pt c (Memref.whole cc0_scratch0) s0) ∗ (∃ s1, pt c (Memref.whole cc0_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc0__lookup_kernel i (Memref.whole main_v6) (Memref.isWhole_whole _) (Memref.whole main_v7) (Memref.isWhole_whole _) (Memref.whole main_arg0) (Memref.isWhole_whole _)
          M5 h5 M6 h6 (Memref.whole cc0_scratch0) (Memref.isWhole_whole _) (Memref.whole cc0_scratch1) (Memref.isWhole_whole _) cc0_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KB0

end
-- ==== Proof.KB0Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KB0Data
import proofs.«414028_j29231547417249_2_alg».proof.Proof.KB0Points
import proofs.«414028_j29231547417249_2_alg».proof.Proof.KB0Body
import proofs.«414028_j29231547417249_2_alg».proof.Proof.Gen.Kernel.Launch
import Idealize.ShloMosaic.Lib.Pipeline.Frame

noncomputable section

namespace Cert.Proof.KB0

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W0, bigSep_W0]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec0_0.stage ((cfgA m).slots t 0)) (hstage0_0 (((cfgA m).slots t 0).cast nbuf0_0))
      (spec0_1.stage ((cfgA m).slots t 1)) (hstage0_1 (((cfgA m).slots t 1).cast nbuf0_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec0_0.stage ((cfgA m).slots t 0)) (hstage0_0 (((cfgA m).slots t 0).cast nbuf0_0))
      (spec0_1.stage ((cfgA m).slots t 1)) (hstage0_1 (((cfgA m).slots t 1).cast nbuf0_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KB0

end
-- ==== Proof.KB0Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KBDats
import proofs.«414028_j29231547417249_2_alg».proof.Proof.KBThread
import proofs.«414028_j29231547417249_2_alg».proof.Proof.KB0Chains
import proofs.«414028_j29231547417249_2_alg».proof.Proof.KB0Oblig
import proofs.«414028_j29231547417249_2_alg».proof.Proof.Gen.Kernel.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KB0

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 3 | 1 => .dma 4

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W0] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v6) (hTab m) ∗ pt c (Memref.whole main_v7) (tTab m))

/-- The invariant at the first point: the node table split into its shares, the tables, the two scratch rows out of the
    scoped rest. -/
theorem hin0 (c : Dev nD) :
    iprop(X0 m c ∗ Pipeline.prefHeld pre0 c (fun _ => fullShare) (Cert.Proof.KB.tbl0 m)
        ∗ Pipeline.scopedRest (Ix := Unit) (Name := ℕ) (U := UC) (Lvl := ℕ) (Val := Elt F) spec0 c)
      ⊢ Φv m c := by
  unfold Φv Pipeline.prefHeld
  rw [Gen.bigSep_W0, Gen.scopedRest0_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec0 c) := by
  unfold Φv
  rw [Gen.scopedRest0_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre0 spec0 \ {main_arg0}

theorem node_mem_rest : ({main_arg0} : Finset (Ref sig .tc)) ⊆ Pipeline.restRefsP sig pre0 spec0 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec0 c V : sProp 𝕄)
      = iprop(Pipeline.prefHeld pre0 c (fun _ => fullShare) (fun k => V (pre0.ref k))
          ∗ (((c : Thread nD τ).loc main_arg0) ↦{fullShare} V main_arg0)
          ∗ bigSep restZ fun b => ((c : Thread nD τ).loc b) ↦{fullShare} V b) := by
  rw [Pipeline.unscopedRest_split preFacts0 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v8) ↦{fullShare} V main_v8))
          ∗ ((((c : Thread nD τ).loc main_v6) ↦{fullShare} V main_v6) ∗ (((c : Thread nD τ).loc main_v7) ↦{fullShare} V main_v7))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts0.arr_unscoped winFacts0.arr_inj c, rest_split]
  unfold Pipeline.prefHeld
  rw [Gen.bigSep_W0, Gen.bigSep_W0]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v8) ↦{fullShare} G 1)) := by
  rw [Pipeline.arrays_eq (fun _ : Fin 1 => cfgA m) (fun _ c => dat0 m c) 0 c arr_whole0 ((dat0 m c).share_full fun _ => rfl) G, Gen.bigSep_W0]

/-- What bypasses the region: every other unscoped buffer, at its contents on entry. -/
abbrev Z0 (c : Dev nD) : sProp 𝕄 := bigSep restZ fun b => ((c : Thread nD τ).loc b) ↦{fullShare} V5 m c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V5 m c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre0 c (fun _ => fullShare) (Cert.Proof.KB.tbl0 m)
          ∗ (dat0 m c).owesAt () 0 ∗ X0 m c ∗ Z0 m c) := by
  rw [held_split m c (V5 m c), arrays_two, ent_arg0, ent_arg1, ent_out,
    show V5 m c main_v6 = hTab m from ent_tab m c 0, show V5 m c main_v7 = tTab m from ent_tab m c 1]
  unfold Pipeline.prefHeld
  rw [Gen.bigSep_W0]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v8)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V5 m c) main_v8 o)
          ∗ (∃ W, owes (c : Thread nD τ) (0 : CellTallies nD τ sig Unit) W)) := by
  have hne : ∀ b : Ref sig .tc, b ≠ main_v8 →
      Function.update (V5 m c) (Proc.devRef .tc main_v8) o (Proc.devRef .tc b) = V5 m c b :=
    fun b hb => Function.update_of_ne (StableHlo.devRef_ne_of_ne hb) _ _
  have hz : (bigSep restZ fun b => (((c : Thread nD τ).loc b) ↦{fullShare} Function.update (V5 m c) (Proc.devRef .tc main_v8) o b : sProp 𝕄))
      = Z0 m c :=
    BI.bigSep_congr fun b hb => by
      rw [hne b (fun e => by subst e; revert hb; decide)]
  rw [held_split m c (Function.update (V5 m c) main_v8 o), arrays_two, hz,
    hne main_arg1 (by decide), hne main_v6 (by decide), hne main_v7 (by decide), hne main_arg0 (by decide),
    Function.update_self, ent_arg0, ent_arg1,
    show V5 m c main_v6 = hTab m from ent_tab m c 0, show V5 m c main_v7 = tTab m from ent_tab m c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec0 osem := by decide

/-- What region 0 leaves in the output's array, by name: the fold of its write-backs. -/
theorem outs6 (c : Dev nD) : Cert.Proof.KB.outs m 6 main_v8 c = (dat0 m c).arrAt 1 (cfgA m).N :=
  Pipeline.withArrays_arr spec0 winFacts0.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KB.adm m) (Cert.Proof.KB.pdats m) () defs₀ Variants.none
      Cert.Proof.KB.L Cert.Proof.KB.lv (0 : Fin 16) where
  win := (launch0 (F := F)).win.to₀
  block_pos := (launch0 (F := F)).block_pos
  stage_whole := (launch0 (F := F)).stage_whole
  K := Fin 2
  osem := osem
  ho := ownSemFacts
  hbody c := (body_obligation m hH hTl c).loose
  hwaits := Pipeline.hwaits_of_owed_zero _ _ _ _ Cert.Proof.KB.L Cert.Proof.KB.lv (0 : Fin 16) fun _ _ => rfl
  pre c := iprop(StableHlo.held (c : Thread nD τ) (Pipeline.ucRefs τ sig) (V5 m c) ∗ Cert.Proof.KB.E 0 c)
  post c := iprop(StableHlo.held (c : Thread nD τ) (Pipeline.ucRefs τ sig) (V6 m (Cert.Proof.KB.outs m) c) ∗ Cert.Proof.KB.E 1 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KB.outs m 6 main_v8 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V5 m c) ∗ Cert.Proof.KB.E 0 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V6 m (Cert.Proof.KB.outs m) c) ∗ Cert.Proof.KB.E 1 c) := .rfl

end Cert.Proof.KB0

end
-- ==== Proof.KB1Chains.lean ====
/-
  Region 1 is entered from the valuation after item 6 of @main. No earlier item writes the node table, the relation row,
  the region's output array or the padded index rows, and the region's two tables are the slices cut out of the padded
  rows at offset 65536: each buffer the region is handed holds a function of the launch memory alone.
-/
import proofs.«414028_j29231547417249_2_alg».proof.Proof.KBAdm
import Idealize.ShloMosaic.Lib.StableHlo.Run

set_option maxRecDepth 4096

noncomputable section

namespace Cert.Proof.KB1

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V7 m outs c main_arg0 = m ((c : Thread nD τ).loc main_arg0) :=
  (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V7 m outs c main_arg1 = m ((c : Thread nD τ).loc main_arg1) :=
  (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V7 m outs c main_v11 = m ((c : Thread nD τ).loc main_v11) :=
  (V7_of m outs c main_v11 (by decide)).trans <| (V6_of m outs c main_v11 (by decide)).trans <| (V5_of m c main_v11 (by decide)).trans <| (V4_of m c main_v11 (by decide)).trans <| (V3_of m c main_v11 (by decide)).trans <| (V2_of m c main_v11 (by decide)).trans <| (V1_of m c main_v11 (by decide)).trans <| rfl
/-- The stretch before the region cuts the table out of the padded row, whatever the valuation it runs from. -/
theorem slice_h (X : Valuation τ sig (Elt F)) :
    StableHlo.after (hostOps1 (F := F)) X (Proc.devRef .tc main_v9)
      = extractStridedSlice S65536 ![65536] (X (Proc.devRef .tc main_v4)) slices_S1048576_S65536_65536 := by
  after_results
/-- The stretch before the region cuts the table out of the padded row, whatever the valuation it runs from. -/
theorem slice_t (X : Valuation τ sig (Elt F)) :
    StableHlo.after (hostOps1 (F := F)) X (Proc.devRef .tc main_v10)
      = extractStridedSlice S65536 ![65536] (X (Proc.devRef .tc main_v5)) slices_S1048576_S65536_65536 := by
  after_results
theorem ent_tab0 (c : Dev nD) : V7 m outs c main_v9 = Cert.Proof.KB.tv1 m main_v9 := by
  obtain rfl : c = (0 : Dev nD) := Subsingleton.elim _ _
  have e : V6 m outs (0 : Dev nD) main_v4 = V5 m (0 : Dev nD) main_v4 :=
    (V6_of m outs (0 : Dev nD) main_v4 (by decide)).trans <| rfl
  exact (slice_h (V6 m outs (0 : Dev nD))).trans ((congrArg (extractStridedSlice S65536 ![65536] · slices_S1048576_S65536_65536) e).trans (slice_h (V5 m (0 : Dev nD))).symm)
theorem ent_tab1 (c : Dev nD) : V7 m outs c main_v10 = Cert.Proof.KB.tv1 m main_v10 := by
  obtain rfl : c = (0 : Dev nD) := Subsingleton.elim _ _
  have e : V6 m outs (0 : Dev nD) main_v5 = V5 m (0 : Dev nD) main_v5 :=
    (V6_of m outs (0 : Dev nD) main_v5 (by decide)).trans <| rfl
  exact (slice_t (V6 m outs (0 : Dev nD))).trans ((congrArg (extractStridedSlice S65536 ![65536] · slices_S1048576_S65536_65536) e).trans (slice_t (V5 m (0 : Dev nD))).symm)
theorem ent_tab (c : Dev nD) (k : Fin 2) : V7 m outs c (pre1.ref k) = Cert.Proof.KB.tbl1 m k :=
  match k with
  | ⟨0, _⟩ => ent_tab0 m outs c
  | ⟨1, _⟩ => ent_tab1 m outs c

end Cert.Proof.KB1

end
-- ==== Proof.KB1Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.Kernel
import proofs.«414028_j29231547417249_2_alg».proof.Proof.Gen.Kernel.Launch
import Idealize.ShloMosaic.Lib.Pipeline.Dat

noncomputable section

namespace Cert.Proof.KB1

open Cert.Kernel Cert.Kernel.Gen Idealize.ShloMosaic

variable {F : FTy → Type} [FloatOps F] (a : (pcfg1 (F := F)).Adm)

/-! ## The points and their coordinates -/

theorem N_eq : (cfg1 a).N = 65536 := N_1

theorem lt_N (t : Fin (cfg1 a).N) : t.val < 65536 := Nat.lt_of_lt_of_eq t.isLt (N_eq a)

/-- Each value of the first coordinate is shared by 128 consecutive points, each value of the second by one. -/
theorem stride0 : grid1.stride 0 = 128 := by decide
theorem stride1 : grid1.stride 1 = 1 := by decide

theorem coords0 (t : Fin (cfg1 a).N) : (((cfg1 a).grid.coords t) 0).val = t.val / 128 := by
  have ht := lt_N a t
  show t.val / grid1.stride 0 % 512 = t.val / 128
  rw [stride0]; omega

theorem coords1 (t : Fin (cfg1 a).N) : (((cfg1 a).grid.coords t) 1).val = t.val % 128 := by
  show t.val / grid1.stride 1 % 128 = t.val % 128
  rw [stride1, Nat.div_one]

theorem flat_eq (t : Fin (cfg1 a).N) :
    (((cfg1 a).grid.coords t) 0).val * 128 + (((cfg1 a).grid.coords t) 1).val = t.val := by
  rw [coords0, coords1]; omega

/-! ## The windows' block indices -/

/-- Window 0's block index is constant. -/
theorem index0 (s t : Fin (cfg1 a).N) : ((cfg1 a).win 0).index s = ((cfg1 a).win 0).index t := rfl

/-- Window 1's block index at a point is the point's first coordinate. -/
theorem index1 (s : Fin (cfg1 a).N) : ((cfg1 a).win 1).index s = ![s.val / 128] := by
  have hs := lt_N a s
  show ![(BitVec.ofNat 32 (((cfg1 a).grid.coords s) 0).val).toNat] = ![s.val / 128]
  rw [coords0 a s, BitVec.toNat_ofNat, Nat.mod_eq_of_lt (by omega)]

/-! ## Fetches and write-backs -/

theorem fetch0 (t : Fin (cfg1 a).N) : ((cfg1 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg1 a).N) : ((cfg1 a).win 1).fetch t = false := by
  unfold Pipeline.Window.fetch
  show (!true && _) = false
  rfl

theorem flush0 (t : Fin (cfg1 a).N) : ((cfg1 a).win 0).flush t = false := by
  unfold Pipeline.Window.flush
  show (false && _) = false
  rfl

theorem flush1 (t : Fin (cfg1 a).N) : ((cfg1 a).win 1).flush t = decide (t.val % 128 = 127) := by
  have ht := lt_N a t
  have hN : (cfg1 a).grid.N = 65536 := N_eq a
  unfold Pipeline.Window.flush
  show (true && (decide (t.val + 1 = (cfg1 a).grid.N)
    || decide (∃ h : t.val + 1 < (cfg1 a).grid.N, ((cfg1 a).win 1).index ⟨t.val + 1, h⟩ ≠ ((cfg1 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg1 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg1 a).W) (t : Fin (cfg1 a).N) : (cfg1 a).idle w ((cfg1 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg1 a).N) :
    Scalar.cmpi .ne (Scalar.extui (Scalar.cmpi .eq (BitVec.ofNat 32 (((cfg1 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg1 a).N) (A : Vec F S1x256 .f32) (y : S1x256.Idx) :
    (((cfg1 a).win 0).blk t).view.read (Elt F) A y = A y := by
  show A ((((cfg1 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg1 a).N) (y : S128.Idx) :
    ((((cfg1 a).win 1).blk t).view.emb y (0 : Fin 1)).val = 128 * (t.val / 128) + (y 0).val := by
  have hi : ((cfg1 a).win 1).index t (0 : Fin 1) = t.val / 128 := by rw [index1]; rfl
  show ((cfg1 a).win 1).index t (0 : Fin 1) * 128 + 1 * (y 0).val = 128 * (t.val / 128) + (y 0).val
  rw [hi]; omega

end Cert.Proof.KB1

end
-- ==== Proof.KB1Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KB1Defs
import proofs.«414028_j29231547417249_2_alg».proof.Proof.Gen.Kernel.Launch
import Idealize.ShloMosaic.Lib.Tactic

noncomputable section

namespace Cert.Proof.KB1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k1_pay2 j (k1_pay6 X18 X19 X20) (k1_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k1_pay2 j (k1_pay6 X18 X19 X20) (k1_pay7 X18 X19 X20)
              (m.view.readCov [⟨Rect.unit (s := S128) ![0] S128.size inb_S128_S128_0, k1_pay1 (F := F)⟩]
                (Rect.unit (s := S128) ![0] S128.size inb_S128_S128_0).toLoadRect)⟩,
          ⟨Rect.unit (s := S128) ![0] S128.size inb_S128_S128_0, k1_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid1.Coords) (M5 : Memref sig .tc .vmem S1x256 .f32) (h5 : M5.IsWhole) (M6 : Memref sig .tc .vmem S128 .f32) (h6 : M6.IsWhole)
    (hT : Bf (F := F) c (Memref.whole main_v9)) (tT : Bf (F := F) c (Memref.whole main_v10)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v9) hT ∗ pt c (Memref.whole main_v10) tT ∗ nodeSh c node
      ∗ (∃ s0, pt c (Memref.whole cc1_scratch0) s0) ∗ (∃ s1, pt c (Memref.whole cc1_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v9) hT ∗ pt c (Memref.whole main_v10) tT ∗ nodeSh c node
          ∗ (∃ s0, pt c (Memref.whole cc1_scratch0) s0) ∗ (∃ s1, pt c (Memref.whole cc1_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc1__lookup_kernel i (Memref.whole main_v9) (Memref.isWhole_whole _) (Memref.whole main_v10) (Memref.isWhole_whole _) (Memref.whole main_arg0) (Memref.isWhole_whole _)
          M5 h5 M6 h6 (Memref.whole cc1_scratch0) (Memref.isWhole_whole _) (Memref.whole cc1_scratch1) (Memref.isWhole_whole _) cc1_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid1.Coords) (M5 : Memref sig .tc .vmem S1x256 .f32) (h5 : M5.IsWhole) (M6 : Memref sig .tc .vmem S128 .f32) (h6 : M6.IsWhole)
    (hT : Bf (F := F) c (Memref.whole main_v9)) (tT : Bf (F := F) c (Memref.whole main_v10)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v9) hT ∗ pt c (Memref.whole main_v10) tT ∗ nodeSh c node
      ∗ (∃ s0, pt c (Memref.whole cc1_scratch0) s0) ∗ (∃ s1, pt c (Memref.whole cc1_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v9) hT ∗ pt c (Memref.whole main_v10) tT ∗ nodeSh c node
          ∗ (∃ s0, pt c (Memref.whole cc1_scratch0) s0) ∗ (∃ s1, pt c (Memref.whole cc1_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc1__lookup_kernel i (Memref.whole main_v9) (Memref.isWhole_whole _) (Memref.whole main_v10) (Memref.isWhole_whole _) (Memref.whole main_arg0) (Memref.isWhole_whole _)
          M5 h5 M6 h6 (Memref.whole cc1_scratch0) (Memref.isWhole_whole _) (Memref.whole cc1_scratch1) (Memref.isWhole_whole _) cc1_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KB1

end
-- ==== Proof.KB1Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KB1Data
import proofs.«414028_j29231547417249_2_alg».proof.Proof.KB1Points
import proofs.«414028_j29231547417249_2_alg».proof.Proof.KB1Body
import proofs.«414028_j29231547417249_2_alg».proof.Proof.Gen.Kernel.Launch
import Idealize.ShloMosaic.Lib.Pipeline.Frame

noncomputable section

namespace Cert.Proof.KB1

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W1, bigSep_W1]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec1_0.stage ((cfgA m).slots t 0)) (hstage1_0 (((cfgA m).slots t 0).cast nbuf1_0))
      (spec1_1.stage ((cfgA m).slots t 1)) (hstage1_1 (((cfgA m).slots t 1).cast nbuf1_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec1_0.stage ((cfgA m).slots t 0)) (hstage1_0 (((cfgA m).slots t 0).cast nbuf1_0))
      (spec1_1.stage ((cfgA m).slots t 1)) (hstage1_1 (((cfgA m).slots t 1).cast nbuf1_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KB1

end
-- ==== Proof.KB1Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KBDats
import proofs.«414028_j29231547417249_2_alg».proof.Proof.KBThread
import proofs.«414028_j29231547417249_2_alg».proof.Proof.KB1Chains
import proofs.«414028_j29231547417249_2_alg».proof.Proof.KB1Oblig
import proofs.«414028_j29231547417249_2_alg».proof.Proof.Gen.Kernel.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KB1

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 8 | 1 => .dma 9

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W1] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v9) (hTab m) ∗ pt c (Memref.whole main_v10) (tTab m))

/-- The invariant at the first point: the node table split into its shares, the tables, the two scratch rows out of the
    scoped rest. -/
theorem hin0 (c : Dev nD) :
    iprop(X0 m c ∗ Pipeline.prefHeld pre1 c (fun _ => fullShare) (Cert.Proof.KB.tbl1 m)
        ∗ Pipeline.scopedRest (Ix := Unit) (Name := ℕ) (U := UC) (Lvl := ℕ) (Val := Elt F) spec1 c)
      ⊢ Φv m c := by
  unfold Φv Pipeline.prefHeld
  rw [Gen.bigSep_W1, Gen.scopedRest1_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec1 c) := by
  unfold Φv
  rw [Gen.scopedRest1_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre1 spec1 \ {main_arg0}

theorem node_mem_rest : ({main_arg0} : Finset (Ref sig .tc)) ⊆ Pipeline.restRefsP sig pre1 spec1 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec1 c V : sProp 𝕄)
      = iprop(Pipeline.prefHeld pre1 c (fun _ => fullShare) (fun k => V (pre1.ref k))
          ∗ (((c : Thread nD τ).loc main_arg0) ↦{fullShare} V main_arg0)
          ∗ bigSep restZ fun b => ((c : Thread nD τ).loc b) ↦{fullShare} V b) := by
  rw [Pipeline.unscopedRest_split preFacts1 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v11) ↦{fullShare} V main_v11))
          ∗ ((((c : Thread nD τ).loc main_v9) ↦{fullShare} V main_v9) ∗ (((c : Thread nD τ).loc main_v10) ↦{fullShare} V main_v10))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts1.arr_unscoped winFacts1.arr_inj c, rest_split]
  unfold Pipeline.prefHeld
  rw [Gen.bigSep_W1, Gen.bigSep_W1]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v11) ↦{fullShare} G 1)) := by
  rw [Pipeline.arrays_eq (fun _ : Fin 1 => cfgA m) (fun _ c => dat0 m c) 0 c arr_whole1 ((dat0 m c).share_full fun _ => rfl) G, Gen.bigSep_W1]

/-- What bypasses the region: every other unscoped buffer, at its contents on entry. -/
abbrev Z0 (c : Dev nD) : sProp 𝕄 := bigSep restZ fun b => ((c : Thread nD τ).loc b) ↦{fullShare} V7 m (Cert.Proof.KB.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V7 m (Cert.Proof.KB.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre1 c (fun _ => fullShare) (Cert.Proof.KB.tbl1 m)
          ∗ (dat0 m c).owesAt () 0 ∗ X0 m c ∗ Z0 m c) := by
  rw [held_split m c (V7 m (Cert.Proof.KB.outs m) c), arrays_two, ent_arg0, ent_arg1, ent_out,
    show V7 m (Cert.Proof.KB.outs m) c main_v9 = hTab m from ent_tab m (Cert.Proof.KB.outs m) c 0, show V7 m (Cert.Proof.KB.outs m) c main_v10 = tTab m from ent_tab m (Cert.Proof.KB.outs m) c 1]
  unfold Pipeline.prefHeld
  rw [Gen.bigSep_W1]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v11)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V7 m (Cert.Proof.KB.outs m) c) main_v11 o)
          ∗ (∃ W, owes (c : Thread nD τ) (0 : CellTallies nD τ sig Unit) W)) := by
  have hne : ∀ b : Ref sig .tc, b ≠ main_v11 →
      Function.update (V7 m (Cert.Proof.KB.outs m) c) (Proc.devRef .tc main_v11) o (Proc.devRef .tc b) = V7 m (Cert.Proof.KB.outs m) c b :=
    fun b hb => Function.update_of_ne (StableHlo.devRef_ne_of_ne hb) _ _
  have hz : (bigSep restZ fun b => (((c : Thread nD τ).loc b) ↦{fullShare} Function.update (V7 m (Cert.Proof.KB.outs m) c) (Proc.devRef .tc main_v11) o b : sProp 𝕄))
      = Z0 m c :=
    BI.bigSep_congr fun b hb => by
      rw [hne b (fun e => by subst e; revert hb; decide)]
  rw [held_split m c (Function.update (V7 m (Cert.Proof.KB.outs m) c) main_v11 o), arrays_two, hz,
    hne main_arg1 (by decide), hne main_v9 (by decide), hne main_v10 (by decide), hne main_arg0 (by decide),
    Function.update_self, ent_arg0, ent_arg1,
    show V7 m (Cert.Proof.KB.outs m) c main_v9 = hTab m from ent_tab m (Cert.Proof.KB.outs m) c 0, show V7 m (Cert.Proof.KB.outs m) c main_v10 = tTab m from ent_tab m (Cert.Proof.KB.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec1 osem := by decide

/-- What region 0 leaves in the output's array, by name: the fold of its write-backs. -/
theorem outs6 (c : Dev nD) : Cert.Proof.KB.outs m 8 main_v11 c = (dat0 m c).arrAt 1 (cfgA m).N :=
  Pipeline.withArrays_arr spec1 winFacts1.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KB.adm m) (Cert.Proof.KB.pdats m) () defs₀ Variants.none
      Cert.Proof.KB.L Cert.Proof.KB.lv (1 : Fin 16) where
  win := (launch1 (F := F)).win.to₀
  block_pos := (launch1 (F := F)).block_pos
  stage_whole := (launch1 (F := F)).stage_whole
  K := Fin 2
  osem := osem
  ho := ownSemFacts
  hbody c := (body_obligation m hH hTl c).loose
  hwaits := Pipeline.hwaits_of_owed_zero _ _ _ _ Cert.Proof.KB.L Cert.Proof.KB.lv (1 : Fin 16) fun _ _ => rfl
  pre c := iprop(StableHlo.held (c : Thread nD τ) (Pipeline.ucRefs τ sig) (V7 m (Cert.Proof.KB.outs m) c) ∗ Cert.Proof.KB.E 1 c)
  post c := iprop(StableHlo.held (c : Thread nD τ) (Pipeline.ucRefs τ sig) (V8 m (Cert.Proof.KB.outs m) c) ∗ Cert.Proof.KB.E 2 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KB.outs m 8 main_v11 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V7 m (Cert.Proof.KB.outs m) c) ∗ Cert.Proof.KB.E 1 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V8 m (Cert.Proof.KB.outs m) c) ∗ Cert.Proof.KB.E 2 c) := .rfl

end Cert.Proof.KB1

end
-- ==== Proof.KB2Chains.lean ====
/-
  Region 2 is entered from the valuation after item 8 of @main. No earlier item writes the node table, the relation row,
  the region's output array or the padded index rows, and the region's two tables are the slices cut out of the padded
  rows at offset 131072: each buffer the region is handed holds a function of the launch memory alone.
-/
import proofs.«414028_j29231547417249_2_alg».proof.Proof.KBAdm
import Idealize.ShloMosaic.Lib.StableHlo.Run

set_option maxRecDepth 4096

noncomputable section

namespace Cert.Proof.KB2

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V9 m outs c main_arg0 = m ((c : Thread nD τ).loc main_arg0) :=
  (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V9 m outs c main_arg1 = m ((c : Thread nD τ).loc main_arg1) :=
  (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V9 m outs c main_v14 = m ((c : Thread nD τ).loc main_v14) :=
  (V9_of m outs c main_v14 (by decide)).trans <| (V8_of m outs c main_v14 (by decide)).trans <| (V7_of m outs c main_v14 (by decide)).trans <| (V6_of m outs c main_v14 (by decide)).trans <| (V5_of m c main_v14 (by decide)).trans <| (V4_of m c main_v14 (by decide)).trans <| (V3_of m c main_v14 (by decide)).trans <| (V2_of m c main_v14 (by decide)).trans <| (V1_of m c main_v14 (by decide)).trans <| rfl
/-- The stretch before the region cuts the table out of the padded row, whatever the valuation it runs from. -/
theorem slice_h (X : Valuation τ sig (Elt F)) :
    StableHlo.after (hostOps2 (F := F)) X (Proc.devRef .tc main_v12)
      = extractStridedSlice S65536 ![131072] (X (Proc.devRef .tc main_v4)) slices_S1048576_S65536_131072 := by
  after_results
/-- The stretch before the region cuts the table out of the padded row, whatever the valuation it runs from. -/
theorem slice_t (X : Valuation τ sig (Elt F)) :
    StableHlo.after (hostOps2 (F := F)) X (Proc.devRef .tc main_v13)
      = extractStridedSlice S65536 ![131072] (X (Proc.devRef .tc main_v5)) slices_S1048576_S65536_131072 := by
  after_results
theorem ent_tab0 (c : Dev nD) : V9 m outs c main_v12 = Cert.Proof.KB.tv2 m main_v12 := by
  obtain rfl : c = (0 : Dev nD) := Subsingleton.elim _ _
  have e : V8 m outs (0 : Dev nD) main_v4 = V5 m (0 : Dev nD) main_v4 :=
    (V8_of m outs (0 : Dev nD) main_v4 (by decide)).trans <| (V7_of m outs (0 : Dev nD) main_v4 (by decide)).trans <| (V6_of m outs (0 : Dev nD) main_v4 (by decide)).trans <| rfl
  exact (slice_h (V8 m outs (0 : Dev nD))).trans ((congrArg (extractStridedSlice S65536 ![131072] · slices_S1048576_S65536_131072) e).trans (slice_h (V5 m (0 : Dev nD))).symm)
theorem ent_tab1 (c : Dev nD) : V9 m outs c main_v13 = Cert.Proof.KB.tv2 m main_v13 := by
  obtain rfl : c = (0 : Dev nD) := Subsingleton.elim _ _
  have e : V8 m outs (0 : Dev nD) main_v5 = V5 m (0 : Dev nD) main_v5 :=
    (V8_of m outs (0 : Dev nD) main_v5 (by decide)).trans <| (V7_of m outs (0 : Dev nD) main_v5 (by decide)).trans <| (V6_of m outs (0 : Dev nD) main_v5 (by decide)).trans <| rfl
  exact (slice_t (V8 m outs (0 : Dev nD))).trans ((congrArg (extractStridedSlice S65536 ![131072] · slices_S1048576_S65536_131072) e).trans (slice_t (V5 m (0 : Dev nD))).symm)
theorem ent_tab (c : Dev nD) (k : Fin 2) : V9 m outs c (pre2.ref k) = Cert.Proof.KB.tbl2 m k :=
  match k with
  | ⟨0, _⟩ => ent_tab0 m outs c
  | ⟨1, _⟩ => ent_tab1 m outs c

end Cert.Proof.KB2

end
-- ==== Proof.KB2Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.Kernel
import proofs.«414028_j29231547417249_2_alg».proof.Proof.Gen.Kernel.Launch
import Idealize.ShloMosaic.Lib.Pipeline.Dat

noncomputable section

namespace Cert.Proof.KB2

open Cert.Kernel Cert.Kernel.Gen Idealize.ShloMosaic

variable {F : FTy → Type} [FloatOps F] (a : (pcfg2 (F := F)).Adm)

/-! ## The points and their coordinates -/

theorem N_eq : (cfg2 a).N = 65536 := N_2

theorem lt_N (t : Fin (cfg2 a).N) : t.val < 65536 := Nat.lt_of_lt_of_eq t.isLt (N_eq a)

/-- Each value of the first coordinate is shared by 128 consecutive points, each value of the second by one. -/
theorem stride0 : grid2.stride 0 = 128 := by decide
theorem stride1 : grid2.stride 1 = 1 := by decide

theorem coords0 (t : Fin (cfg2 a).N) : (((cfg2 a).grid.coords t) 0).val = t.val / 128 := by
  have ht := lt_N a t
  show t.val / grid2.stride 0 % 512 = t.val / 128
  rw [stride0]; omega

theorem coords1 (t : Fin (cfg2 a).N) : (((cfg2 a).grid.coords t) 1).val = t.val % 128 := by
  show t.val / grid2.stride 1 % 128 = t.val % 128
  rw [stride1, Nat.div_one]

theorem flat_eq (t : Fin (cfg2 a).N) :
    (((cfg2 a).grid.coords t) 0).val * 128 + (((cfg2 a).grid.coords t) 1).val = t.val := by
  rw [coords0, coords1]; omega

/-! ## The windows' block indices -/

/-- Window 0's block index is constant. -/
theorem index0 (s t : Fin (cfg2 a).N) : ((cfg2 a).win 0).index s = ((cfg2 a).win 0).index t := rfl

/-- Window 1's block index at a point is the point's first coordinate. -/
theorem index1 (s : Fin (cfg2 a).N) : ((cfg2 a).win 1).index s = ![s.val / 128] := by
  have hs := lt_N a s
  show ![(BitVec.ofNat 32 (((cfg2 a).grid.coords s) 0).val).toNat] = ![s.val / 128]
  rw [coords0 a s, BitVec.toNat_ofNat, Nat.mod_eq_of_lt (by omega)]

/-! ## Fetches and write-backs -/

theorem fetch0 (t : Fin (cfg2 a).N) : ((cfg2 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg2 a).N) : ((cfg2 a).win 1).fetch t = false := by
  unfold Pipeline.Window.fetch
  show (!true && _) = false
  rfl

theorem flush0 (t : Fin (cfg2 a).N) : ((cfg2 a).win 0).flush t = false := by
  unfold Pipeline.Window.flush
  show (false && _) = false
  rfl

theorem flush1 (t : Fin (cfg2 a).N) : ((cfg2 a).win 1).flush t = decide (t.val % 128 = 127) := by
  have ht := lt_N a t
  have hN : (cfg2 a).grid.N = 65536 := N_eq a
  unfold Pipeline.Window.flush
  show (true && (decide (t.val + 1 = (cfg2 a).grid.N)
    || decide (∃ h : t.val + 1 < (cfg2 a).grid.N, ((cfg2 a).win 1).index ⟨t.val + 1, h⟩ ≠ ((cfg2 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg2 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg2 a).W) (t : Fin (cfg2 a).N) : (cfg2 a).idle w ((cfg2 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg2 a).N) :
    Scalar.cmpi .ne (Scalar.extui (Scalar.cmpi .eq (BitVec.ofNat 32 (((cfg2 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg2 a).N) (A : Vec F S1x256 .f32) (y : S1x256.Idx) :
    (((cfg2 a).win 0).blk t).view.read (Elt F) A y = A y := by
  show A ((((cfg2 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg2 a).N) (y : S128.Idx) :
    ((((cfg2 a).win 1).blk t).view.emb y (0 : Fin 1)).val = 128 * (t.val / 128) + (y 0).val := by
  have hi : ((cfg2 a).win 1).index t (0 : Fin 1) = t.val / 128 := by rw [index1]; rfl
  show ((cfg2 a).win 1).index t (0 : Fin 1) * 128 + 1 * (y 0).val = 128 * (t.val / 128) + (y 0).val
  rw [hi]; omega

end Cert.Proof.KB2

end
-- ==== Proof.KB2Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KB2Defs
import proofs.«414028_j29231547417249_2_alg».proof.Proof.Gen.Kernel.Launch
import Idealize.ShloMosaic.Lib.Tactic

noncomputable section

namespace Cert.Proof.KB2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k2_pay2 j (k2_pay6 X18 X19 X20) (k2_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k2_pay2 j (k2_pay6 X18 X19 X20) (k2_pay7 X18 X19 X20)
              (m.view.readCov [⟨Rect.unit (s := S128) ![0] S128.size inb_S128_S128_0, k2_pay1 (F := F)⟩]
                (Rect.unit (s := S128) ![0] S128.size inb_S128_S128_0).toLoadRect)⟩,
          ⟨Rect.unit (s := S128) ![0] S128.size inb_S128_S128_0, k2_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid2.Coords) (M5 : Memref sig .tc .vmem S1x256 .f32) (h5 : M5.IsWhole) (M6 : Memref sig .tc .vmem S128 .f32) (h6 : M6.IsWhole)
    (hT : Bf (F := F) c (Memref.whole main_v12)) (tT : Bf (F := F) c (Memref.whole main_v13)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v12) hT ∗ pt c (Memref.whole main_v13) tT ∗ nodeSh c node
      ∗ (∃ s0, pt c (Memref.whole cc2_scratch0) s0) ∗ (∃ s1, pt c (Memref.whole cc2_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v12) hT ∗ pt c (Memref.whole main_v13) tT ∗ nodeSh c node
          ∗ (∃ s0, pt c (Memref.whole cc2_scratch0) s0) ∗ (∃ s1, pt c (Memref.whole cc2_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc2__lookup_kernel i (Memref.whole main_v12) (Memref.isWhole_whole _) (Memref.whole main_v13) (Memref.isWhole_whole _) (Memref.whole main_arg0) (Memref.isWhole_whole _)
          M5 h5 M6 h6 (Memref.whole cc2_scratch0) (Memref.isWhole_whole _) (Memref.whole cc2_scratch1) (Memref.isWhole_whole _) cc2_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid2.Coords) (M5 : Memref sig .tc .vmem S1x256 .f32) (h5 : M5.IsWhole) (M6 : Memref sig .tc .vmem S128 .f32) (h6 : M6.IsWhole)
    (hT : Bf (F := F) c (Memref.whole main_v12)) (tT : Bf (F := F) c (Memref.whole main_v13)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v12) hT ∗ pt c (Memref.whole main_v13) tT ∗ nodeSh c node
      ∗ (∃ s0, pt c (Memref.whole cc2_scratch0) s0) ∗ (∃ s1, pt c (Memref.whole cc2_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v12) hT ∗ pt c (Memref.whole main_v13) tT ∗ nodeSh c node
          ∗ (∃ s0, pt c (Memref.whole cc2_scratch0) s0) ∗ (∃ s1, pt c (Memref.whole cc2_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc2__lookup_kernel i (Memref.whole main_v12) (Memref.isWhole_whole _) (Memref.whole main_v13) (Memref.isWhole_whole _) (Memref.whole main_arg0) (Memref.isWhole_whole _)
          M5 h5 M6 h6 (Memref.whole cc2_scratch0) (Memref.isWhole_whole _) (Memref.whole cc2_scratch1) (Memref.isWhole_whole _) cc2_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KB2

end
-- ==== Proof.KB2Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KB2Data
import proofs.«414028_j29231547417249_2_alg».proof.Proof.KB2Points
import proofs.«414028_j29231547417249_2_alg».proof.Proof.KB2Body
import proofs.«414028_j29231547417249_2_alg».proof.Proof.Gen.Kernel.Launch
import Idealize.ShloMosaic.Lib.Pipeline.Frame

noncomputable section

namespace Cert.Proof.KB2

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W2, bigSep_W2]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec2_0.stage ((cfgA m).slots t 0)) (hstage2_0 (((cfgA m).slots t 0).cast nbuf2_0))
      (spec2_1.stage ((cfgA m).slots t 1)) (hstage2_1 (((cfgA m).slots t 1).cast nbuf2_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec2_0.stage ((cfgA m).slots t 0)) (hstage2_0 (((cfgA m).slots t 0).cast nbuf2_0))
      (spec2_1.stage ((cfgA m).slots t 1)) (hstage2_1 (((cfgA m).slots t 1).cast nbuf2_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KB2

end
-- ==== Proof.KB2Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KBDats
import proofs.«414028_j29231547417249_2_alg».proof.Proof.KBThread
import proofs.«414028_j29231547417249_2_alg».proof.Proof.KB2Chains
import proofs.«414028_j29231547417249_2_alg».proof.Proof.KB2Oblig
import proofs.«414028_j29231547417249_2_alg».proof.Proof.Gen.Kernel.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KB2

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 13 | 1 => .dma 14

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W2] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v12) (hTab m) ∗ pt c (Memref.whole main_v13) (tTab m))

/-- The invariant at the first point: the node table split into its shares, the tables, the two scratch rows out of the
    scoped rest. -/
theorem hin0 (c : Dev nD) :
    iprop(X0 m c ∗ Pipeline.prefHeld pre2 c (fun _ => fullShare) (Cert.Proof.KB.tbl2 m)
        ∗ Pipeline.scopedRest (Ix := Unit) (Name := ℕ) (U := UC) (Lvl := ℕ) (Val := Elt F) spec2 c)
      ⊢ Φv m c := by
  unfold Φv Pipeline.prefHeld
  rw [Gen.bigSep_W2, Gen.scopedRest2_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec2 c) := by
  unfold Φv
  rw [Gen.scopedRest2_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre2 spec2 \ {main_arg0}

theorem node_mem_rest : ({main_arg0} : Finset (Ref sig .tc)) ⊆ Pipeline.restRefsP sig pre2 spec2 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec2 c V : sProp 𝕄)
      = iprop(Pipeline.prefHeld pre2 c (fun _ => fullShare) (fun k => V (pre2.ref k))
          ∗ (((c : Thread nD τ).loc main_arg0) ↦{fullShare} V main_arg0)
          ∗ bigSep restZ fun b => ((c : Thread nD τ).loc b) ↦{fullShare} V b) := by
  rw [Pipeline.unscopedRest_split preFacts2 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v14) ↦{fullShare} V main_v14))
          ∗ ((((c : Thread nD τ).loc main_v12) ↦{fullShare} V main_v12) ∗ (((c : Thread nD τ).loc main_v13) ↦{fullShare} V main_v13))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts2.arr_unscoped winFacts2.arr_inj c, rest_split]
  unfold Pipeline.prefHeld
  rw [Gen.bigSep_W2, Gen.bigSep_W2]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v14) ↦{fullShare} G 1)) := by
  rw [Pipeline.arrays_eq (fun _ : Fin 1 => cfgA m) (fun _ c => dat0 m c) 0 c arr_whole2 ((dat0 m c).share_full fun _ => rfl) G, Gen.bigSep_W2]

/-- What bypasses the region: every other unscoped buffer, at its contents on entry. -/
abbrev Z0 (c : Dev nD) : sProp 𝕄 := bigSep restZ fun b => ((c : Thread nD τ).loc b) ↦{fullShare} V9 m (Cert.Proof.KB.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V9 m (Cert.Proof.KB.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre2 c (fun _ => fullShare) (Cert.Proof.KB.tbl2 m)
          ∗ (dat0 m c).owesAt () 0 ∗ X0 m c ∗ Z0 m c) := by
  rw [held_split m c (V9 m (Cert.Proof.KB.outs m) c), arrays_two, ent_arg0, ent_arg1, ent_out,
    show V9 m (Cert.Proof.KB.outs m) c main_v12 = hTab m from ent_tab m (Cert.Proof.KB.outs m) c 0, show V9 m (Cert.Proof.KB.outs m) c main_v13 = tTab m from ent_tab m (Cert.Proof.KB.outs m) c 1]
  unfold Pipeline.prefHeld
  rw [Gen.bigSep_W2]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v14)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V9 m (Cert.Proof.KB.outs m) c) main_v14 o)
          ∗ (∃ W, owes (c : Thread nD τ) (0 : CellTallies nD τ sig Unit) W)) := by
  have hne : ∀ b : Ref sig .tc, b ≠ main_v14 →
      Function.update (V9 m (Cert.Proof.KB.outs m) c) (Proc.devRef .tc main_v14) o (Proc.devRef .tc b) = V9 m (Cert.Proof.KB.outs m) c b :=
    fun b hb => Function.update_of_ne (StableHlo.devRef_ne_of_ne hb) _ _
  have hz : (bigSep restZ fun b => (((c : Thread nD τ).loc b) ↦{fullShare} Function.update (V9 m (Cert.Proof.KB.outs m) c) (Proc.devRef .tc main_v14) o b : sProp 𝕄))
      = Z0 m c :=
    BI.bigSep_congr fun b hb => by
      rw [hne b (fun e => by subst e; revert hb; decide)]
  rw [held_split m c (Function.update (V9 m (Cert.Proof.KB.outs m) c) main_v14 o), arrays_two, hz,
    hne main_arg1 (by decide), hne main_v12 (by decide), hne main_v13 (by decide), hne main_arg0 (by decide),
    Function.update_self, ent_arg0, ent_arg1,
    show V9 m (Cert.Proof.KB.outs m) c main_v12 = hTab m from ent_tab m (Cert.Proof.KB.outs m) c 0, show V9 m (Cert.Proof.KB.outs m) c main_v13 = tTab m from ent_tab m (Cert.Proof.KB.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec2 osem := by decide

/-- What region 0 leaves in the output's array, by name: the fold of its write-backs. -/
theorem outs6 (c : Dev nD) : Cert.Proof.KB.outs m 10 main_v14 c = (dat0 m c).arrAt 1 (cfgA m).N :=
  Pipeline.withArrays_arr spec2 winFacts2.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KB.adm m) (Cert.Proof.KB.pdats m) () defs₀ Variants.none
      Cert.Proof.KB.L Cert.Proof.KB.lv (2 : Fin 16) where
  win := (launch2 (F := F)).win.to₀
  block_pos := (launch2 (F := F)).block_pos
  stage_whole := (launch2 (F := F)).stage_whole
  K := Fin 2
  osem := osem
  ho := ownSemFacts
  hbody c := (body_obligation m hH hTl c).loose
  hwaits := Pipeline.hwaits_of_owed_zero _ _ _ _ Cert.Proof.KB.L Cert.Proof.KB.lv (2 : Fin 16) fun _ _ => rfl
  pre c := iprop(StableHlo.held (c : Thread nD τ) (Pipeline.ucRefs τ sig) (V9 m (Cert.Proof.KB.outs m) c) ∗ Cert.Proof.KB.E 2 c)
  post c := iprop(StableHlo.held (c : Thread nD τ) (Pipeline.ucRefs τ sig) (V10 m (Cert.Proof.KB.outs m) c) ∗ Cert.Proof.KB.E 3 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KB.outs m 10 main_v14 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V9 m (Cert.Proof.KB.outs m) c) ∗ Cert.Proof.KB.E 2 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V10 m (Cert.Proof.KB.outs m) c) ∗ Cert.Proof.KB.E 3 c) := .rfl

end Cert.Proof.KB2

end
-- ==== Proof.KB3Chains.lean ====
/-
  Region 3 is entered from the valuation after item 10 of @main. No earlier item writes the node table, the relation row,
  the region's output array or the padded index rows, and the region's two tables are the slices cut out of the padded
  rows at offset 196608: each buffer the region is handed holds a function of the launch memory alone.
-/
import proofs.«414028_j29231547417249_2_alg».proof.Proof.KBAdm
import Idealize.ShloMosaic.Lib.StableHlo.Run

set_option maxRecDepth 4096

noncomputable section

namespace Cert.Proof.KB3

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V11 m outs c main_arg0 = m ((c : Thread nD τ).loc main_arg0) :=
  (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V11 m outs c main_arg1 = m ((c : Thread nD τ).loc main_arg1) :=
  (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V11 m outs c main_v17 = m ((c : Thread nD τ).loc main_v17) :=
  (V11_of m outs c main_v17 (by decide)).trans <| (V10_of m outs c main_v17 (by decide)).trans <| (V9_of m outs c main_v17 (by decide)).trans <| (V8_of m outs c main_v17 (by decide)).trans <| (V7_of m outs c main_v17 (by decide)).trans <| (V6_of m outs c main_v17 (by decide)).trans <| (V5_of m c main_v17 (by decide)).trans <| (V4_of m c main_v17 (by decide)).trans <| (V3_of m c main_v17 (by decide)).trans <| (V2_of m c main_v17 (by decide)).trans <| (V1_of m c main_v17 (by decide)).trans <| rfl
/-- The stretch before the region cuts the table out of the padded row, whatever the valuation it runs from. -/
theorem slice_h (X : Valuation τ sig (Elt F)) :
    StableHlo.after (hostOps3 (F := F)) X (Proc.devRef .tc main_v15)
      = extractStridedSlice S65536 ![196608] (X (Proc.devRef .tc main_v4)) slices_S1048576_S65536_196608 := by
  after_results
/-- The stretch before the region cuts the table out of the padded row, whatever the valuation it runs from. -/
theorem slice_t (X : Valuation τ sig (Elt F)) :
    StableHlo.after (hostOps3 (F := F)) X (Proc.devRef .tc main_v16)
      = extractStridedSlice S65536 ![196608] (X (Proc.devRef .tc main_v5)) slices_S1048576_S65536_196608 := by
  after_results
theorem ent_tab0 (c : Dev nD) : V11 m outs c main_v15 = Cert.Proof.KB.tv3 m main_v15 := by
  obtain rfl : c = (0 : Dev nD) := Subsingleton.elim _ _
  have e : V10 m outs (0 : Dev nD) main_v4 = V5 m (0 : Dev nD) main_v4 :=
    (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V10 m outs (0 : Dev nD))).trans ((congrArg (extractStridedSlice S65536 ![196608] · slices_S1048576_S65536_196608) e).trans (slice_h (V5 m (0 : Dev nD))).symm)
theorem ent_tab1 (c : Dev nD) : V11 m outs c main_v16 = Cert.Proof.KB.tv3 m main_v16 := by
  obtain rfl : c = (0 : Dev nD) := Subsingleton.elim _ _
  have e : V10 m outs (0 : Dev nD) main_v5 = V5 m (0 : Dev nD) main_v5 :=
    (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V10 m outs (0 : Dev nD))).trans ((congrArg (extractStridedSlice S65536 ![196608] · slices_S1048576_S65536_196608) e).trans (slice_t (V5 m (0 : Dev nD))).symm)
theorem ent_tab (c : Dev nD) (k : Fin 2) : V11 m outs c (pre3.ref k) = Cert.Proof.KB.tbl3 m k :=
  match k with
  | ⟨0, _⟩ => ent_tab0 m outs c
  | ⟨1, _⟩ => ent_tab1 m outs c

end Cert.Proof.KB3

end
-- ==== Proof.KB3Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.Kernel
import proofs.«414028_j29231547417249_2_alg».proof.Proof.Gen.Kernel.Launch
import Idealize.ShloMosaic.Lib.Pipeline.Dat

noncomputable section

namespace Cert.Proof.KB3

open Cert.Kernel Cert.Kernel.Gen Idealize.ShloMosaic

variable {F : FTy → Type} [FloatOps F] (a : (pcfg3 (F := F)).Adm)

/-! ## The points and their coordinates -/

theorem N_eq : (cfg3 a).N = 65536 := N_3

theorem lt_N (t : Fin (cfg3 a).N) : t.val < 65536 := Nat.lt_of_lt_of_eq t.isLt (N_eq a)

/-- Each value of the first coordinate is shared by 128 consecutive points, each value of the second by one. -/
theorem stride0 : grid3.stride 0 = 128 := by decide
theorem stride1 : grid3.stride 1 = 1 := by decide

theorem coords0 (t : Fin (cfg3 a).N) : (((cfg3 a).grid.coords t) 0).val = t.val / 128 := by
  have ht := lt_N a t
  show t.val / grid3.stride 0 % 512 = t.val / 128
  rw [stride0]; omega

theorem coords1 (t : Fin (cfg3 a).N) : (((cfg3 a).grid.coords t) 1).val = t.val % 128 := by
  show t.val / grid3.stride 1 % 128 = t.val % 128
  rw [stride1, Nat.div_one]

theorem flat_eq (t : Fin (cfg3 a).N) :
    (((cfg3 a).grid.coords t) 0).val * 128 + (((cfg3 a).grid.coords t) 1).val = t.val := by
  rw [coords0, coords1]; omega

/-! ## The windows' block indices -/

/-- Window 0's block index is constant. -/
theorem index0 (s t : Fin (cfg3 a).N) : ((cfg3 a).win 0).index s = ((cfg3 a).win 0).index t := rfl

/-- Window 1's block index at a point is the point's first coordinate. -/
theorem index1 (s : Fin (cfg3 a).N) : ((cfg3 a).win 1).index s = ![s.val / 128] := by
  have hs := lt_N a s
  show ![(BitVec.ofNat 32 (((cfg3 a).grid.coords s) 0).val).toNat] = ![s.val / 128]
  rw [coords0 a s, BitVec.toNat_ofNat, Nat.mod_eq_of_lt (by omega)]

/-! ## Fetches and write-backs -/

theorem fetch0 (t : Fin (cfg3 a).N) : ((cfg3 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg3 a).N) : ((cfg3 a).win 1).fetch t = false := by
  unfold Pipeline.Window.fetch
  show (!true && _) = false
  rfl

theorem flush0 (t : Fin (cfg3 a).N) : ((cfg3 a).win 0).flush t = false := by
  unfold Pipeline.Window.flush
  show (false && _) = false
  rfl

theorem flush1 (t : Fin (cfg3 a).N) : ((cfg3 a).win 1).flush t = decide (t.val % 128 = 127) := by
  have ht := lt_N a t
  have hN : (cfg3 a).grid.N = 65536 := N_eq a
  unfold Pipeline.Window.flush
  show (true && (decide (t.val + 1 = (cfg3 a).grid.N)
    || decide (∃ h : t.val + 1 < (cfg3 a).grid.N, ((cfg3 a).win 1).index ⟨t.val + 1, h⟩ ≠ ((cfg3 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg3 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg3 a).W) (t : Fin (cfg3 a).N) : (cfg3 a).idle w ((cfg3 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg3 a).N) :
    Scalar.cmpi .ne (Scalar.extui (Scalar.cmpi .eq (BitVec.ofNat 32 (((cfg3 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg3 a).N) (A : Vec F S1x256 .f32) (y : S1x256.Idx) :
    (((cfg3 a).win 0).blk t).view.read (Elt F) A y = A y := by
  show A ((((cfg3 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg3 a).N) (y : S128.Idx) :
    ((((cfg3 a).win 1).blk t).view.emb y (0 : Fin 1)).val = 128 * (t.val / 128) + (y 0).val := by
  have hi : ((cfg3 a).win 1).index t (0 : Fin 1) = t.val / 128 := by rw [index1]; rfl
  show ((cfg3 a).win 1).index t (0 : Fin 1) * 128 + 1 * (y 0).val = 128 * (t.val / 128) + (y 0).val
  rw [hi]; omega

end Cert.Proof.KB3

end
-- ==== Proof.KB3Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KB3Defs
import proofs.«414028_j29231547417249_2_alg».proof.Proof.Gen.Kernel.Launch
import Idealize.ShloMosaic.Lib.Tactic

noncomputable section

namespace Cert.Proof.KB3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k3_pay2 j (k3_pay6 X18 X19 X20) (k3_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k3_pay2 j (k3_pay6 X18 X19 X20) (k3_pay7 X18 X19 X20)
              (m.view.readCov [⟨Rect.unit (s := S128) ![0] S128.size inb_S128_S128_0, k3_pay1 (F := F)⟩]
                (Rect.unit (s := S128) ![0] S128.size inb_S128_S128_0).toLoadRect)⟩,
          ⟨Rect.unit (s := S128) ![0] S128.size inb_S128_S128_0, k3_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid3.Coords) (M5 : Memref sig .tc .vmem S1x256 .f32) (h5 : M5.IsWhole) (M6 : Memref sig .tc .vmem S128 .f32) (h6 : M6.IsWhole)
    (hT : Bf (F := F) c (Memref.whole main_v15)) (tT : Bf (F := F) c (Memref.whole main_v16)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v15) hT ∗ pt c (Memref.whole main_v16) tT ∗ nodeSh c node
      ∗ (∃ s0, pt c (Memref.whole cc3_scratch0) s0) ∗ (∃ s1, pt c (Memref.whole cc3_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v15) hT ∗ pt c (Memref.whole main_v16) tT ∗ nodeSh c node
          ∗ (∃ s0, pt c (Memref.whole cc3_scratch0) s0) ∗ (∃ s1, pt c (Memref.whole cc3_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc3__lookup_kernel i (Memref.whole main_v15) (Memref.isWhole_whole _) (Memref.whole main_v16) (Memref.isWhole_whole _) (Memref.whole main_arg0) (Memref.isWhole_whole _)
          M5 h5 M6 h6 (Memref.whole cc3_scratch0) (Memref.isWhole_whole _) (Memref.whole cc3_scratch1) (Memref.isWhole_whole _) cc3_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid3.Coords) (M5 : Memref sig .tc .vmem S1x256 .f32) (h5 : M5.IsWhole) (M6 : Memref sig .tc .vmem S128 .f32) (h6 : M6.IsWhole)
    (hT : Bf (F := F) c (Memref.whole main_v15)) (tT : Bf (F := F) c (Memref.whole main_v16)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v15) hT ∗ pt c (Memref.whole main_v16) tT ∗ nodeSh c node
      ∗ (∃ s0, pt c (Memref.whole cc3_scratch0) s0) ∗ (∃ s1, pt c (Memref.whole cc3_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v15) hT ∗ pt c (Memref.whole main_v16) tT ∗ nodeSh c node
          ∗ (∃ s0, pt c (Memref.whole cc3_scratch0) s0) ∗ (∃ s1, pt c (Memref.whole cc3_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc3__lookup_kernel i (Memref.whole main_v15) (Memref.isWhole_whole _) (Memref.whole main_v16) (Memref.isWhole_whole _) (Memref.whole main_arg0) (Memref.isWhole_whole _)
          M5 h5 M6 h6 (Memref.whole cc3_scratch0) (Memref.isWhole_whole _) (Memref.whole cc3_scratch1) (Memref.isWhole_whole _) cc3_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KB3

end
-- ==== Proof.KB3Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KB3Data
import proofs.«414028_j29231547417249_2_alg».proof.Proof.KB3Points
import proofs.«414028_j29231547417249_2_alg».proof.Proof.KB3Body
import proofs.«414028_j29231547417249_2_alg».proof.Proof.Gen.Kernel.Launch
import Idealize.ShloMosaic.Lib.Pipeline.Frame

noncomputable section

namespace Cert.Proof.KB3

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W3, bigSep_W3]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec3_0.stage ((cfgA m).slots t 0)) (hstage3_0 (((cfgA m).slots t 0).cast nbuf3_0))
      (spec3_1.stage ((cfgA m).slots t 1)) (hstage3_1 (((cfgA m).slots t 1).cast nbuf3_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec3_0.stage ((cfgA m).slots t 0)) (hstage3_0 (((cfgA m).slots t 0).cast nbuf3_0))
      (spec3_1.stage ((cfgA m).slots t 1)) (hstage3_1 (((cfgA m).slots t 1).cast nbuf3_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KB3

end
-- ==== Proof.KB3Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KBDats
import proofs.«414028_j29231547417249_2_alg».proof.Proof.KBThread
import proofs.«414028_j29231547417249_2_alg».proof.Proof.KB3Chains
import proofs.«414028_j29231547417249_2_alg».proof.Proof.KB3Oblig
import proofs.«414028_j29231547417249_2_alg».proof.Proof.Gen.Kernel.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KB3

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 18 | 1 => .dma 19

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W3] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v15) (hTab m) ∗ pt c (Memref.whole main_v16) (tTab m))

/-- The invariant at the first point: the node table split into its shares, the tables, the two scratch rows out of the
    scoped rest. -/
theorem hin0 (c : Dev nD) :
    iprop(X0 m c ∗ Pipeline.prefHeld pre3 c (fun _ => fullShare) (Cert.Proof.KB.tbl3 m)
        ∗ Pipeline.scopedRest (Ix := Unit) (Name := ℕ) (U := UC) (Lvl := ℕ) (Val := Elt F) spec3 c)
      ⊢ Φv m c := by
  unfold Φv Pipeline.prefHeld
  rw [Gen.bigSep_W3, Gen.scopedRest3_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec3 c) := by
  unfold Φv
  rw [Gen.scopedRest3_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre3 spec3 \ {main_arg0}

theorem node_mem_rest : ({main_arg0} : Finset (Ref sig .tc)) ⊆ Pipeline.restRefsP sig pre3 spec3 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec3 c V : sProp 𝕄)
      = iprop(Pipeline.prefHeld pre3 c (fun _ => fullShare) (fun k => V (pre3.ref k))
          ∗ (((c : Thread nD τ).loc main_arg0) ↦{fullShare} V main_arg0)
          ∗ bigSep restZ fun b => ((c : Thread nD τ).loc b) ↦{fullShare} V b) := by
  rw [Pipeline.unscopedRest_split preFacts3 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v17) ↦{fullShare} V main_v17))
          ∗ ((((c : Thread nD τ).loc main_v15) ↦{fullShare} V main_v15) ∗ (((c : Thread nD τ).loc main_v16) ↦{fullShare} V main_v16))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts3.arr_unscoped winFacts3.arr_inj c, rest_split]
  unfold Pipeline.prefHeld
  rw [Gen.bigSep_W3, Gen.bigSep_W3]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v17) ↦{fullShare} G 1)) := by
  rw [Pipeline.arrays_eq (fun _ : Fin 1 => cfgA m) (fun _ c => dat0 m c) 0 c arr_whole3 ((dat0 m c).share_full fun _ => rfl) G, Gen.bigSep_W3]

/-- What bypasses the region: every other unscoped buffer, at its contents on entry. -/
abbrev Z0 (c : Dev nD) : sProp 𝕄 := bigSep restZ fun b => ((c : Thread nD τ).loc b) ↦{fullShare} V11 m (Cert.Proof.KB.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V11 m (Cert.Proof.KB.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre3 c (fun _ => fullShare) (Cert.Proof.KB.tbl3 m)
          ∗ (dat0 m c).owesAt () 0 ∗ X0 m c ∗ Z0 m c) := by
  rw [held_split m c (V11 m (Cert.Proof.KB.outs m) c), arrays_two, ent_arg0, ent_arg1, ent_out,
    show V11 m (Cert.Proof.KB.outs m) c main_v15 = hTab m from ent_tab m (Cert.Proof.KB.outs m) c 0, show V11 m (Cert.Proof.KB.outs m) c main_v16 = tTab m from ent_tab m (Cert.Proof.KB.outs m) c 1]
  unfold Pipeline.prefHeld
  rw [Gen.bigSep_W3]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v17)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V11 m (Cert.Proof.KB.outs m) c) main_v17 o)
          ∗ (∃ W, owes (c : Thread nD τ) (0 : CellTallies nD τ sig Unit) W)) := by
  have hne : ∀ b : Ref sig .tc, b ≠ main_v17 →
      Function.update (V11 m (Cert.Proof.KB.outs m) c) (Proc.devRef .tc main_v17) o (Proc.devRef .tc b) = V11 m (Cert.Proof.KB.outs m) c b :=
    fun b hb => Function.update_of_ne (StableHlo.devRef_ne_of_ne hb) _ _
  have hz : (bigSep restZ fun b => (((c : Thread nD τ).loc b) ↦{fullShare} Function.update (V11 m (Cert.Proof.KB.outs m) c) (Proc.devRef .tc main_v17) o b : sProp 𝕄))
      = Z0 m c :=
    BI.bigSep_congr fun b hb => by
      rw [hne b (fun e => by subst e; revert hb; decide)]
  rw [held_split m c (Function.update (V11 m (Cert.Proof.KB.outs m) c) main_v17 o), arrays_two, hz,
    hne main_arg1 (by decide), hne main_v15 (by decide), hne main_v16 (by decide), hne main_arg0 (by decide),
    Function.update_self, ent_arg0, ent_arg1,
    show V11 m (Cert.Proof.KB.outs m) c main_v15 = hTab m from ent_tab m (Cert.Proof.KB.outs m) c 0, show V11 m (Cert.Proof.KB.outs m) c main_v16 = tTab m from ent_tab m (Cert.Proof.KB.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec3 osem := by decide

/-- What region 0 leaves in the output's array, by name: the fold of its write-backs. -/
theorem outs6 (c : Dev nD) : Cert.Proof.KB.outs m 12 main_v17 c = (dat0 m c).arrAt 1 (cfgA m).N :=
  Pipeline.withArrays_arr spec3 winFacts3.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KB.adm m) (Cert.Proof.KB.pdats m) () defs₀ Variants.none
      Cert.Proof.KB.L Cert.Proof.KB.lv (3 : Fin 16) where
  win := (launch3 (F := F)).win.to₀
  block_pos := (launch3 (F := F)).block_pos
  stage_whole := (launch3 (F := F)).stage_whole
  K := Fin 2
  osem := osem
  ho := ownSemFacts
  hbody c := (body_obligation m hH hTl c).loose
  hwaits := Pipeline.hwaits_of_owed_zero _ _ _ _ Cert.Proof.KB.L Cert.Proof.KB.lv (3 : Fin 16) fun _ _ => rfl
  pre c := iprop(StableHlo.held (c : Thread nD τ) (Pipeline.ucRefs τ sig) (V11 m (Cert.Proof.KB.outs m) c) ∗ Cert.Proof.KB.E 3 c)
  post c := iprop(StableHlo.held (c : Thread nD τ) (Pipeline.ucRefs τ sig) (V12 m (Cert.Proof.KB.outs m) c) ∗ Cert.Proof.KB.E 4 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KB.outs m 12 main_v17 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V11 m (Cert.Proof.KB.outs m) c) ∗ Cert.Proof.KB.E 3 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V12 m (Cert.Proof.KB.outs m) c) ∗ Cert.Proof.KB.E 4 c) := .rfl

end Cert.Proof.KB3

end
-- ==== Proof.KB4Chains.lean ====
/-
  Region 4 is entered from the valuation after item 12 of @main. No earlier item writes the node table, the relation row,
  the region's output array or the padded index rows, and the region's two tables are the slices cut out of the padded
  rows at offset 262144: each buffer the region is handed holds a function of the launch memory alone.
-/
import proofs.«414028_j29231547417249_2_alg».proof.Proof.KBAdm
import Idealize.ShloMosaic.Lib.StableHlo.Run

set_option maxRecDepth 4096

noncomputable section

namespace Cert.Proof.KB4

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V13 m outs c main_arg0 = m ((c : Thread nD τ).loc main_arg0) :=
  (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V13 m outs c main_arg1 = m ((c : Thread nD τ).loc main_arg1) :=
  (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V13 m outs c main_v20 = m ((c : Thread nD τ).loc main_v20) :=
  (V13_of m outs c main_v20 (by decide)).trans <| (V12_of m outs c main_v20 (by decide)).trans <| (V11_of m outs c main_v20 (by decide)).trans <| (V10_of m outs c main_v20 (by decide)).trans <| (V9_of m outs c main_v20 (by decide)).trans <| (V8_of m outs c main_v20 (by decide)).trans <| (V7_of m outs c main_v20 (by decide)).trans <| (V6_of m outs c main_v20 (by decide)).trans <| (V5_of m c main_v20 (by decide)).trans <| (V4_of m c main_v20 (by decide)).trans <| (V3_of m c main_v20 (by decide)).trans <| (V2_of m c main_v20 (by decide)).trans <| (V1_of m c main_v20 (by decide)).trans <| rfl
/-- The stretch before the region cuts the table out of the padded row, whatever the valuation it runs from. -/
theorem slice_h (X : Valuation τ sig (Elt F)) :
    StableHlo.after (hostOps4 (F := F)) X (Proc.devRef .tc main_v18)
      = extractStridedSlice S65536 ![262144] (X (Proc.devRef .tc main_v4)) slices_S1048576_S65536_262144 := by
  after_results
/-- The stretch before the region cuts the table out of the padded row, whatever the valuation it runs from. -/
theorem slice_t (X : Valuation τ sig (Elt F)) :
    StableHlo.after (hostOps4 (F := F)) X (Proc.devRef .tc main_v19)
      = extractStridedSlice S65536 ![262144] (X (Proc.devRef .tc main_v5)) slices_S1048576_S65536_262144 := by
  after_results
theorem ent_tab0 (c : Dev nD) : V13 m outs c main_v18 = Cert.Proof.KB.tv4 m main_v18 := by
  obtain rfl : c = (0 : Dev nD) := Subsingleton.elim _ _
  have e : V12 m outs (0 : Dev nD) main_v4 = V5 m (0 : Dev nD) main_v4 :=
    (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V12 m outs (0 : Dev nD))).trans ((congrArg (extractStridedSlice S65536 ![262144] · slices_S1048576_S65536_262144) e).trans (slice_h (V5 m (0 : Dev nD))).symm)
theorem ent_tab1 (c : Dev nD) : V13 m outs c main_v19 = Cert.Proof.KB.tv4 m main_v19 := by
  obtain rfl : c = (0 : Dev nD) := Subsingleton.elim _ _
  have e : V12 m outs (0 : Dev nD) main_v5 = V5 m (0 : Dev nD) main_v5 :=
    (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V12 m outs (0 : Dev nD))).trans ((congrArg (extractStridedSlice S65536 ![262144] · slices_S1048576_S65536_262144) e).trans (slice_t (V5 m (0 : Dev nD))).symm)
theorem ent_tab (c : Dev nD) (k : Fin 2) : V13 m outs c (pre4.ref k) = Cert.Proof.KB.tbl4 m k :=
  match k with
  | ⟨0, _⟩ => ent_tab0 m outs c
  | ⟨1, _⟩ => ent_tab1 m outs c

end Cert.Proof.KB4

end
-- ==== Proof.KB4Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.Kernel
import proofs.«414028_j29231547417249_2_alg».proof.Proof.Gen.Kernel.Launch
import Idealize.ShloMosaic.Lib.Pipeline.Dat

noncomputable section

namespace Cert.Proof.KB4

open Cert.Kernel Cert.Kernel.Gen Idealize.ShloMosaic

variable {F : FTy → Type} [FloatOps F] (a : (pcfg4 (F := F)).Adm)

/-! ## The points and their coordinates -/

theorem N_eq : (cfg4 a).N = 65536 := N_4

theorem lt_N (t : Fin (cfg4 a).N) : t.val < 65536 := Nat.lt_of_lt_of_eq t.isLt (N_eq a)

/-- Each value of the first coordinate is shared by 128 consecutive points, each value of the second by one. -/
theorem stride0 : grid4.stride 0 = 128 := by decide
theorem stride1 : grid4.stride 1 = 1 := by decide

theorem coords0 (t : Fin (cfg4 a).N) : (((cfg4 a).grid.coords t) 0).val = t.val / 128 := by
  have ht := lt_N a t
  show t.val / grid4.stride 0 % 512 = t.val / 128
  rw [stride0]; omega

theorem coords1 (t : Fin (cfg4 a).N) : (((cfg4 a).grid.coords t) 1).val = t.val % 128 := by
  show t.val / grid4.stride 1 % 128 = t.val % 128
  rw [stride1, Nat.div_one]

theorem flat_eq (t : Fin (cfg4 a).N) :
    (((cfg4 a).grid.coords t) 0).val * 128 + (((cfg4 a).grid.coords t) 1).val = t.val := by
  rw [coords0, coords1]; omega

/-! ## The windows' block indices -/

/-- Window 0's block index is constant. -/
theorem index0 (s t : Fin (cfg4 a).N) : ((cfg4 a).win 0).index s = ((cfg4 a).win 0).index t := rfl

/-- Window 1's block index at a point is the point's first coordinate. -/
theorem index1 (s : Fin (cfg4 a).N) : ((cfg4 a).win 1).index s = ![s.val / 128] := by
  have hs := lt_N a s
  show ![(BitVec.ofNat 32 (((cfg4 a).grid.coords s) 0).val).toNat] = ![s.val / 128]
  rw [coords0 a s, BitVec.toNat_ofNat, Nat.mod_eq_of_lt (by omega)]

/-! ## Fetches and write-backs -/

theorem fetch0 (t : Fin (cfg4 a).N) : ((cfg4 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg4 a).N) : ((cfg4 a).win 1).fetch t = false := by
  unfold Pipeline.Window.fetch
  show (!true && _) = false
  rfl

theorem flush0 (t : Fin (cfg4 a).N) : ((cfg4 a).win 0).flush t = false := by
  unfold Pipeline.Window.flush
  show (false && _) = false
  rfl

theorem flush1 (t : Fin (cfg4 a).N) : ((cfg4 a).win 1).flush t = decide (t.val % 128 = 127) := by
  have ht := lt_N a t
  have hN : (cfg4 a).grid.N = 65536 := N_eq a
  unfold Pipeline.Window.flush
  show (true && (decide (t.val + 1 = (cfg4 a).grid.N)
    || decide (∃ h : t.val + 1 < (cfg4 a).grid.N, ((cfg4 a).win 1).index ⟨t.val + 1, h⟩ ≠ ((cfg4 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg4 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg4 a).W) (t : Fin (cfg4 a).N) : (cfg4 a).idle w ((cfg4 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg4 a).N) :
    Scalar.cmpi .ne (Scalar.extui (Scalar.cmpi .eq (BitVec.ofNat 32 (((cfg4 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg4 a).N) (A : Vec F S1x256 .f32) (y : S1x256.Idx) :
    (((cfg4 a).win 0).blk t).view.read (Elt F) A y = A y := by
  show A ((((cfg4 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg4 a).N) (y : S128.Idx) :
    ((((cfg4 a).win 1).blk t).view.emb y (0 : Fin 1)).val = 128 * (t.val / 128) + (y 0).val := by
  have hi : ((cfg4 a).win 1).index t (0 : Fin 1) = t.val / 128 := by rw [index1]; rfl
  show ((cfg4 a).win 1).index t (0 : Fin 1) * 128 + 1 * (y 0).val = 128 * (t.val / 128) + (y 0).val
  rw [hi]; omega

end Cert.Proof.KB4

end
-- ==== Proof.KB4Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KB4Defs
import proofs.«414028_j29231547417249_2_alg».proof.Proof.Gen.Kernel.Launch
import Idealize.ShloMosaic.Lib.Tactic

noncomputable section

namespace Cert.Proof.KB4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k4_pay2 j (k4_pay6 X18 X19 X20) (k4_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k4_pay2 j (k4_pay6 X18 X19 X20) (k4_pay7 X18 X19 X20)
              (m.view.readCov [⟨Rect.unit (s := S128) ![0] S128.size inb_S128_S128_0, k4_pay1 (F := F)⟩]
                (Rect.unit (s := S128) ![0] S128.size inb_S128_S128_0).toLoadRect)⟩,
          ⟨Rect.unit (s := S128) ![0] S128.size inb_S128_S128_0, k4_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid4.Coords) (M5 : Memref sig .tc .vmem S1x256 .f32) (h5 : M5.IsWhole) (M6 : Memref sig .tc .vmem S128 .f32) (h6 : M6.IsWhole)
    (hT : Bf (F := F) c (Memref.whole main_v18)) (tT : Bf (F := F) c (Memref.whole main_v19)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v18) hT ∗ pt c (Memref.whole main_v19) tT ∗ nodeSh c node
      ∗ (∃ s0, pt c (Memref.whole cc4_scratch0) s0) ∗ (∃ s1, pt c (Memref.whole cc4_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v18) hT ∗ pt c (Memref.whole main_v19) tT ∗ nodeSh c node
          ∗ (∃ s0, pt c (Memref.whole cc4_scratch0) s0) ∗ (∃ s1, pt c (Memref.whole cc4_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc4__lookup_kernel i (Memref.whole main_v18) (Memref.isWhole_whole _) (Memref.whole main_v19) (Memref.isWhole_whole _) (Memref.whole main_arg0) (Memref.isWhole_whole _)
          M5 h5 M6 h6 (Memref.whole cc4_scratch0) (Memref.isWhole_whole _) (Memref.whole cc4_scratch1) (Memref.isWhole_whole _) cc4_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid4.Coords) (M5 : Memref sig .tc .vmem S1x256 .f32) (h5 : M5.IsWhole) (M6 : Memref sig .tc .vmem S128 .f32) (h6 : M6.IsWhole)
    (hT : Bf (F := F) c (Memref.whole main_v18)) (tT : Bf (F := F) c (Memref.whole main_v19)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v18) hT ∗ pt c (Memref.whole main_v19) tT ∗ nodeSh c node
      ∗ (∃ s0, pt c (Memref.whole cc4_scratch0) s0) ∗ (∃ s1, pt c (Memref.whole cc4_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v18) hT ∗ pt c (Memref.whole main_v19) tT ∗ nodeSh c node
          ∗ (∃ s0, pt c (Memref.whole cc4_scratch0) s0) ∗ (∃ s1, pt c (Memref.whole cc4_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc4__lookup_kernel i (Memref.whole main_v18) (Memref.isWhole_whole _) (Memref.whole main_v19) (Memref.isWhole_whole _) (Memref.whole main_arg0) (Memref.isWhole_whole _)
          M5 h5 M6 h6 (Memref.whole cc4_scratch0) (Memref.isWhole_whole _) (Memref.whole cc4_scratch1) (Memref.isWhole_whole _) cc4_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KB4

end
-- ==== Proof.KB4Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KB4Data
import proofs.«414028_j29231547417249_2_alg».proof.Proof.KB4Points
import proofs.«414028_j29231547417249_2_alg».proof.Proof.KB4Body
import proofs.«414028_j29231547417249_2_alg».proof.Proof.Gen.Kernel.Launch
import Idealize.ShloMosaic.Lib.Pipeline.Frame

noncomputable section

namespace Cert.Proof.KB4

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W4, bigSep_W4]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec4_0.stage ((cfgA m).slots t 0)) (hstage4_0 (((cfgA m).slots t 0).cast nbuf4_0))
      (spec4_1.stage ((cfgA m).slots t 1)) (hstage4_1 (((cfgA m).slots t 1).cast nbuf4_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec4_0.stage ((cfgA m).slots t 0)) (hstage4_0 (((cfgA m).slots t 0).cast nbuf4_0))
      (spec4_1.stage ((cfgA m).slots t 1)) (hstage4_1 (((cfgA m).slots t 1).cast nbuf4_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KB4

end
-- ==== Proof.KB4Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KBDats
import proofs.«414028_j29231547417249_2_alg».proof.Proof.KBThread
import proofs.«414028_j29231547417249_2_alg».proof.Proof.KB4Chains
import proofs.«414028_j29231547417249_2_alg».proof.Proof.KB4Oblig
import proofs.«414028_j29231547417249_2_alg».proof.Proof.Gen.Kernel.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KB4

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 23 | 1 => .dma 24

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W4] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v18) (hTab m) ∗ pt c (Memref.whole main_v19) (tTab m))

/-- The invariant at the first point: the node table split into its shares, the tables, the two scratch rows out of the
    scoped rest. -/
theorem hin0 (c : Dev nD) :
    iprop(X0 m c ∗ Pipeline.prefHeld pre4 c (fun _ => fullShare) (Cert.Proof.KB.tbl4 m)
        ∗ Pipeline.scopedRest (Ix := Unit) (Name := ℕ) (U := UC) (Lvl := ℕ) (Val := Elt F) spec4 c)
      ⊢ Φv m c := by
  unfold Φv Pipeline.prefHeld
  rw [Gen.bigSep_W4, Gen.scopedRest4_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec4 c) := by
  unfold Φv
  rw [Gen.scopedRest4_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre4 spec4 \ {main_arg0}

theorem node_mem_rest : ({main_arg0} : Finset (Ref sig .tc)) ⊆ Pipeline.restRefsP sig pre4 spec4 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec4 c V : sProp 𝕄)
      = iprop(Pipeline.prefHeld pre4 c (fun _ => fullShare) (fun k => V (pre4.ref k))
          ∗ (((c : Thread nD τ).loc main_arg0) ↦{fullShare} V main_arg0)
          ∗ bigSep restZ fun b => ((c : Thread nD τ).loc b) ↦{fullShare} V b) := by
  rw [Pipeline.unscopedRest_split preFacts4 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v20) ↦{fullShare} V main_v20))
          ∗ ((((c : Thread nD τ).loc main_v18) ↦{fullShare} V main_v18) ∗ (((c : Thread nD τ).loc main_v19) ↦{fullShare} V main_v19))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts4.arr_unscoped winFacts4.arr_inj c, rest_split]
  unfold Pipeline.prefHeld
  rw [Gen.bigSep_W4, Gen.bigSep_W4]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v20) ↦{fullShare} G 1)) := by
  rw [Pipeline.arrays_eq (fun _ : Fin 1 => cfgA m) (fun _ c => dat0 m c) 0 c arr_whole4 ((dat0 m c).share_full fun _ => rfl) G, Gen.bigSep_W4]

/-- What bypasses the region: every other unscoped buffer, at its contents on entry. -/
abbrev Z0 (c : Dev nD) : sProp 𝕄 := bigSep restZ fun b => ((c : Thread nD τ).loc b) ↦{fullShare} V13 m (Cert.Proof.KB.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V13 m (Cert.Proof.KB.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre4 c (fun _ => fullShare) (Cert.Proof.KB.tbl4 m)
          ∗ (dat0 m c).owesAt () 0 ∗ X0 m c ∗ Z0 m c) := by
  rw [held_split m c (V13 m (Cert.Proof.KB.outs m) c), arrays_two, ent_arg0, ent_arg1, ent_out,
    show V13 m (Cert.Proof.KB.outs m) c main_v18 = hTab m from ent_tab m (Cert.Proof.KB.outs m) c 0, show V13 m (Cert.Proof.KB.outs m) c main_v19 = tTab m from ent_tab m (Cert.Proof.KB.outs m) c 1]
  unfold Pipeline.prefHeld
  rw [Gen.bigSep_W4]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v20)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V13 m (Cert.Proof.KB.outs m) c) main_v20 o)
          ∗ (∃ W, owes (c : Thread nD τ) (0 : CellTallies nD τ sig Unit) W)) := by
  have hne : ∀ b : Ref sig .tc, b ≠ main_v20 →
      Function.update (V13 m (Cert.Proof.KB.outs m) c) (Proc.devRef .tc main_v20) o (Proc.devRef .tc b) = V13 m (Cert.Proof.KB.outs m) c b :=
    fun b hb => Function.update_of_ne (StableHlo.devRef_ne_of_ne hb) _ _
  have hz : (bigSep restZ fun b => (((c : Thread nD τ).loc b) ↦{fullShare} Function.update (V13 m (Cert.Proof.KB.outs m) c) (Proc.devRef .tc main_v20) o b : sProp 𝕄))
      = Z0 m c :=
    BI.bigSep_congr fun b hb => by
      rw [hne b (fun e => by subst e; revert hb; decide)]
  rw [held_split m c (Function.update (V13 m (Cert.Proof.KB.outs m) c) main_v20 o), arrays_two, hz,
    hne main_arg1 (by decide), hne main_v18 (by decide), hne main_v19 (by decide), hne main_arg0 (by decide),
    Function.update_self, ent_arg0, ent_arg1,
    show V13 m (Cert.Proof.KB.outs m) c main_v18 = hTab m from ent_tab m (Cert.Proof.KB.outs m) c 0, show V13 m (Cert.Proof.KB.outs m) c main_v19 = tTab m from ent_tab m (Cert.Proof.KB.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec4 osem := by decide

/-- What region 0 leaves in the output's array, by name: the fold of its write-backs. -/
theorem outs6 (c : Dev nD) : Cert.Proof.KB.outs m 14 main_v20 c = (dat0 m c).arrAt 1 (cfgA m).N :=
  Pipeline.withArrays_arr spec4 winFacts4.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KB.adm m) (Cert.Proof.KB.pdats m) () defs₀ Variants.none
      Cert.Proof.KB.L Cert.Proof.KB.lv (4 : Fin 16) where
  win := (launch4 (F := F)).win.to₀
  block_pos := (launch4 (F := F)).block_pos
  stage_whole := (launch4 (F := F)).stage_whole
  K := Fin 2
  osem := osem
  ho := ownSemFacts
  hbody c := (body_obligation m hH hTl c).loose
  hwaits := Pipeline.hwaits_of_owed_zero _ _ _ _ Cert.Proof.KB.L Cert.Proof.KB.lv (4 : Fin 16) fun _ _ => rfl
  pre c := iprop(StableHlo.held (c : Thread nD τ) (Pipeline.ucRefs τ sig) (V13 m (Cert.Proof.KB.outs m) c) ∗ Cert.Proof.KB.E 4 c)
  post c := iprop(StableHlo.held (c : Thread nD τ) (Pipeline.ucRefs τ sig) (V14 m (Cert.Proof.KB.outs m) c) ∗ Cert.Proof.KB.E 5 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KB.outs m 14 main_v20 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V13 m (Cert.Proof.KB.outs m) c) ∗ Cert.Proof.KB.E 4 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V14 m (Cert.Proof.KB.outs m) c) ∗ Cert.Proof.KB.E 5 c) := .rfl

end Cert.Proof.KB4

end
-- ==== Proof.KB5Chains.lean ====
/-
  Region 5 is entered from the valuation after item 14 of @main. No earlier item writes the node table, the relation row,
  the region's output array or the padded index rows, and the region's two tables are the slices cut out of the padded
  rows at offset 327680: each buffer the region is handed holds a function of the launch memory alone.
-/
import proofs.«414028_j29231547417249_2_alg».proof.Proof.KBAdm
import Idealize.ShloMosaic.Lib.StableHlo.Run

set_option maxRecDepth 4096

noncomputable section

namespace Cert.Proof.KB5

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V15 m outs c main_arg0 = m ((c : Thread nD τ).loc main_arg0) :=
  (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V15 m outs c main_arg1 = m ((c : Thread nD τ).loc main_arg1) :=
  (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V15 m outs c main_v23 = m ((c : Thread nD τ).loc main_v23) :=
  (V15_of m outs c main_v23 (by decide)).trans <| (V14_of m outs c main_v23 (by decide)).trans <| (V13_of m outs c main_v23 (by decide)).trans <| (V12_of m outs c main_v23 (by decide)).trans <| (V11_of m outs c main_v23 (by decide)).trans <| (V10_of m outs c main_v23 (by decide)).trans <| (V9_of m outs c main_v23 (by decide)).trans <| (V8_of m outs c main_v23 (by decide)).trans <| (V7_of m outs c main_v23 (by decide)).trans <| (V6_of m outs c main_v23 (by decide)).trans <| (V5_of m c main_v23 (by decide)).trans <| (V4_of m c main_v23 (by decide)).trans <| (V3_of m c main_v23 (by decide)).trans <| (V2_of m c main_v23 (by decide)).trans <| (V1_of m c main_v23 (by decide)).trans <| rfl
/-- The stretch before the region cuts the table out of the padded row, whatever the valuation it runs from. -/
theorem slice_h (X : Valuation τ sig (Elt F)) :
    StableHlo.after (hostOps5 (F := F)) X (Proc.devRef .tc main_v21)
      = extractStridedSlice S65536 ![327680] (X (Proc.devRef .tc main_v4)) slices_S1048576_S65536_327680 := by
  after_results
/-- The stretch before the region cuts the table out of the padded row, whatever the valuation it runs from. -/
theorem slice_t (X : Valuation τ sig (Elt F)) :
    StableHlo.after (hostOps5 (F := F)) X (Proc.devRef .tc main_v22)
      = extractStridedSlice S65536 ![327680] (X (Proc.devRef .tc main_v5)) slices_S1048576_S65536_327680 := by
  after_results
theorem ent_tab0 (c : Dev nD) : V15 m outs c main_v21 = Cert.Proof.KB.tv5 m main_v21 := by
  obtain rfl : c = (0 : Dev nD) := Subsingleton.elim _ _
  have e : V14 m outs (0 : Dev nD) main_v4 = V5 m (0 : Dev nD) main_v4 :=
    (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V14 m outs (0 : Dev nD))).trans ((congrArg (extractStridedSlice S65536 ![327680] · slices_S1048576_S65536_327680) e).trans (slice_h (V5 m (0 : Dev nD))).symm)
theorem ent_tab1 (c : Dev nD) : V15 m outs c main_v22 = Cert.Proof.KB.tv5 m main_v22 := by
  obtain rfl : c = (0 : Dev nD) := Subsingleton.elim _ _
  have e : V14 m outs (0 : Dev nD) main_v5 = V5 m (0 : Dev nD) main_v5 :=
    (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V14 m outs (0 : Dev nD))).trans ((congrArg (extractStridedSlice S65536 ![327680] · slices_S1048576_S65536_327680) e).trans (slice_t (V5 m (0 : Dev nD))).symm)
theorem ent_tab (c : Dev nD) (k : Fin 2) : V15 m outs c (pre5.ref k) = Cert.Proof.KB.tbl5 m k :=
  match k with
  | ⟨0, _⟩ => ent_tab0 m outs c
  | ⟨1, _⟩ => ent_tab1 m outs c

end Cert.Proof.KB5

end
-- ==== Proof.KB5Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.Kernel
import proofs.«414028_j29231547417249_2_alg».proof.Proof.Gen.Kernel.Launch
import Idealize.ShloMosaic.Lib.Pipeline.Dat

noncomputable section

namespace Cert.Proof.KB5

open Cert.Kernel Cert.Kernel.Gen Idealize.ShloMosaic

variable {F : FTy → Type} [FloatOps F] (a : (pcfg5 (F := F)).Adm)

/-! ## The points and their coordinates -/

theorem N_eq : (cfg5 a).N = 65536 := N_5

theorem lt_N (t : Fin (cfg5 a).N) : t.val < 65536 := Nat.lt_of_lt_of_eq t.isLt (N_eq a)

/-- Each value of the first coordinate is shared by 128 consecutive points, each value of the second by one. -/
theorem stride0 : grid5.stride 0 = 128 := by decide
theorem stride1 : grid5.stride 1 = 1 := by decide

theorem coords0 (t : Fin (cfg5 a).N) : (((cfg5 a).grid.coords t) 0).val = t.val / 128 := by
  have ht := lt_N a t
  show t.val / grid5.stride 0 % 512 = t.val / 128
  rw [stride0]; omega

theorem coords1 (t : Fin (cfg5 a).N) : (((cfg5 a).grid.coords t) 1).val = t.val % 128 := by
  show t.val / grid5.stride 1 % 128 = t.val % 128
  rw [stride1, Nat.div_one]

theorem flat_eq (t : Fin (cfg5 a).N) :
    (((cfg5 a).grid.coords t) 0).val * 128 + (((cfg5 a).grid.coords t) 1).val = t.val := by
  rw [coords0, coords1]; omega

/-! ## The windows' block indices -/

/-- Window 0's block index is constant. -/
theorem index0 (s t : Fin (cfg5 a).N) : ((cfg5 a).win 0).index s = ((cfg5 a).win 0).index t := rfl

/-- Window 1's block index at a point is the point's first coordinate. -/
theorem index1 (s : Fin (cfg5 a).N) : ((cfg5 a).win 1).index s = ![s.val / 128] := by
  have hs := lt_N a s
  show ![(BitVec.ofNat 32 (((cfg5 a).grid.coords s) 0).val).toNat] = ![s.val / 128]
  rw [coords0 a s, BitVec.toNat_ofNat, Nat.mod_eq_of_lt (by omega)]

/-! ## Fetches and write-backs -/

theorem fetch0 (t : Fin (cfg5 a).N) : ((cfg5 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg5 a).N) : ((cfg5 a).win 1).fetch t = false := by
  unfold Pipeline.Window.fetch
  show (!true && _) = false
  rfl

theorem flush0 (t : Fin (cfg5 a).N) : ((cfg5 a).win 0).flush t = false := by
  unfold Pipeline.Window.flush
  show (false && _) = false
  rfl

theorem flush1 (t : Fin (cfg5 a).N) : ((cfg5 a).win 1).flush t = decide (t.val % 128 = 127) := by
  have ht := lt_N a t
  have hN : (cfg5 a).grid.N = 65536 := N_eq a
  unfold Pipeline.Window.flush
  show (true && (decide (t.val + 1 = (cfg5 a).grid.N)
    || decide (∃ h : t.val + 1 < (cfg5 a).grid.N, ((cfg5 a).win 1).index ⟨t.val + 1, h⟩ ≠ ((cfg5 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg5 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg5 a).W) (t : Fin (cfg5 a).N) : (cfg5 a).idle w ((cfg5 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg5 a).N) :
    Scalar.cmpi .ne (Scalar.extui (Scalar.cmpi .eq (BitVec.ofNat 32 (((cfg5 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg5 a).N) (A : Vec F S1x256 .f32) (y : S1x256.Idx) :
    (((cfg5 a).win 0).blk t).view.read (Elt F) A y = A y := by
  show A ((((cfg5 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg5 a).N) (y : S128.Idx) :
    ((((cfg5 a).win 1).blk t).view.emb y (0 : Fin 1)).val = 128 * (t.val / 128) + (y 0).val := by
  have hi : ((cfg5 a).win 1).index t (0 : Fin 1) = t.val / 128 := by rw [index1]; rfl
  show ((cfg5 a).win 1).index t (0 : Fin 1) * 128 + 1 * (y 0).val = 128 * (t.val / 128) + (y 0).val
  rw [hi]; omega

end Cert.Proof.KB5

end
-- ==== Proof.KB5Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KB5Defs
import proofs.«414028_j29231547417249_2_alg».proof.Proof.Gen.Kernel.Launch
import Idealize.ShloMosaic.Lib.Tactic

noncomputable section

namespace Cert.Proof.KB5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k5_pay2 j (k5_pay6 X18 X19 X20) (k5_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k5_pay2 j (k5_pay6 X18 X19 X20) (k5_pay7 X18 X19 X20)
              (m.view.readCov [⟨Rect.unit (s := S128) ![0] S128.size inb_S128_S128_0, k5_pay1 (F := F)⟩]
                (Rect.unit (s := S128) ![0] S128.size inb_S128_S128_0).toLoadRect)⟩,
          ⟨Rect.unit (s := S128) ![0] S128.size inb_S128_S128_0, k5_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid5.Coords) (M5 : Memref sig .tc .vmem S1x256 .f32) (h5 : M5.IsWhole) (M6 : Memref sig .tc .vmem S128 .f32) (h6 : M6.IsWhole)
    (hT : Bf (F := F) c (Memref.whole main_v21)) (tT : Bf (F := F) c (Memref.whole main_v22)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v21) hT ∗ pt c (Memref.whole main_v22) tT ∗ nodeSh c node
      ∗ (∃ s0, pt c (Memref.whole cc5_scratch0) s0) ∗ (∃ s1, pt c (Memref.whole cc5_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v21) hT ∗ pt c (Memref.whole main_v22) tT ∗ nodeSh c node
          ∗ (∃ s0, pt c (Memref.whole cc5_scratch0) s0) ∗ (∃ s1, pt c (Memref.whole cc5_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc5__lookup_kernel i (Memref.whole main_v21) (Memref.isWhole_whole _) (Memref.whole main_v22) (Memref.isWhole_whole _) (Memref.whole main_arg0) (Memref.isWhole_whole _)
          M5 h5 M6 h6 (Memref.whole cc5_scratch0) (Memref.isWhole_whole _) (Memref.whole cc5_scratch1) (Memref.isWhole_whole _) cc5_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid5.Coords) (M5 : Memref sig .tc .vmem S1x256 .f32) (h5 : M5.IsWhole) (M6 : Memref sig .tc .vmem S128 .f32) (h6 : M6.IsWhole)
    (hT : Bf (F := F) c (Memref.whole main_v21)) (tT : Bf (F := F) c (Memref.whole main_v22)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v21) hT ∗ pt c (Memref.whole main_v22) tT ∗ nodeSh c node
      ∗ (∃ s0, pt c (Memref.whole cc5_scratch0) s0) ∗ (∃ s1, pt c (Memref.whole cc5_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v21) hT ∗ pt c (Memref.whole main_v22) tT ∗ nodeSh c node
          ∗ (∃ s0, pt c (Memref.whole cc5_scratch0) s0) ∗ (∃ s1, pt c (Memref.whole cc5_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc5__lookup_kernel i (Memref.whole main_v21) (Memref.isWhole_whole _) (Memref.whole main_v22) (Memref.isWhole_whole _) (Memref.whole main_arg0) (Memref.isWhole_whole _)
          M5 h5 M6 h6 (Memref.whole cc5_scratch0) (Memref.isWhole_whole _) (Memref.whole cc5_scratch1) (Memref.isWhole_whole _) cc5_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KB5

end
-- ==== Proof.KB5Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KB5Data
import proofs.«414028_j29231547417249_2_alg».proof.Proof.KB5Points
import proofs.«414028_j29231547417249_2_alg».proof.Proof.KB5Body
import proofs.«414028_j29231547417249_2_alg».proof.Proof.Gen.Kernel.Launch
import Idealize.ShloMosaic.Lib.Pipeline.Frame

noncomputable section

namespace Cert.Proof.KB5

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W5, bigSep_W5]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec5_0.stage ((cfgA m).slots t 0)) (hstage5_0 (((cfgA m).slots t 0).cast nbuf5_0))
      (spec5_1.stage ((cfgA m).slots t 1)) (hstage5_1 (((cfgA m).slots t 1).cast nbuf5_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec5_0.stage ((cfgA m).slots t 0)) (hstage5_0 (((cfgA m).slots t 0).cast nbuf5_0))
      (spec5_1.stage ((cfgA m).slots t 1)) (hstage5_1 (((cfgA m).slots t 1).cast nbuf5_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KB5

end
-- ==== Proof.KB5Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KBDats
import proofs.«414028_j29231547417249_2_alg».proof.Proof.KBThread
import proofs.«414028_j29231547417249_2_alg».proof.Proof.KB5Chains
import proofs.«414028_j29231547417249_2_alg».proof.Proof.KB5Oblig
import proofs.«414028_j29231547417249_2_alg».proof.Proof.Gen.Kernel.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KB5

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 28 | 1 => .dma 29

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W5] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v21) (hTab m) ∗ pt c (Memref.whole main_v22) (tTab m))

/-- The invariant at the first point: the node table split into its shares, the tables, the two scratch rows out of the
    scoped rest. -/
theorem hin0 (c : Dev nD) :
    iprop(X0 m c ∗ Pipeline.prefHeld pre5 c (fun _ => fullShare) (Cert.Proof.KB.tbl5 m)
        ∗ Pipeline.scopedRest (Ix := Unit) (Name := ℕ) (U := UC) (Lvl := ℕ) (Val := Elt F) spec5 c)
      ⊢ Φv m c := by
  unfold Φv Pipeline.prefHeld
  rw [Gen.bigSep_W5, Gen.scopedRest5_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec5 c) := by
  unfold Φv
  rw [Gen.scopedRest5_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre5 spec5 \ {main_arg0}

theorem node_mem_rest : ({main_arg0} : Finset (Ref sig .tc)) ⊆ Pipeline.restRefsP sig pre5 spec5 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec5 c V : sProp 𝕄)
      = iprop(Pipeline.prefHeld pre5 c (fun _ => fullShare) (fun k => V (pre5.ref k))
          ∗ (((c : Thread nD τ).loc main_arg0) ↦{fullShare} V main_arg0)
          ∗ bigSep restZ fun b => ((c : Thread nD τ).loc b) ↦{fullShare} V b) := by
  rw [Pipeline.unscopedRest_split preFacts5 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v23) ↦{fullShare} V main_v23))
          ∗ ((((c : Thread nD τ).loc main_v21) ↦{fullShare} V main_v21) ∗ (((c : Thread nD τ).loc main_v22) ↦{fullShare} V main_v22))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts5.arr_unscoped winFacts5.arr_inj c, rest_split]
  unfold Pipeline.prefHeld
  rw [Gen.bigSep_W5, Gen.bigSep_W5]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v23) ↦{fullShare} G 1)) := by
  rw [Pipeline.arrays_eq (fun _ : Fin 1 => cfgA m) (fun _ c => dat0 m c) 0 c arr_whole5 ((dat0 m c).share_full fun _ => rfl) G, Gen.bigSep_W5]

/-- What bypasses the region: every other unscoped buffer, at its contents on entry. -/
abbrev Z0 (c : Dev nD) : sProp 𝕄 := bigSep restZ fun b => ((c : Thread nD τ).loc b) ↦{fullShare} V15 m (Cert.Proof.KB.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V15 m (Cert.Proof.KB.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre5 c (fun _ => fullShare) (Cert.Proof.KB.tbl5 m)
          ∗ (dat0 m c).owesAt () 0 ∗ X0 m c ∗ Z0 m c) := by
  rw [held_split m c (V15 m (Cert.Proof.KB.outs m) c), arrays_two, ent_arg0, ent_arg1, ent_out,
    show V15 m (Cert.Proof.KB.outs m) c main_v21 = hTab m from ent_tab m (Cert.Proof.KB.outs m) c 0, show V15 m (Cert.Proof.KB.outs m) c main_v22 = tTab m from ent_tab m (Cert.Proof.KB.outs m) c 1]
  unfold Pipeline.prefHeld
  rw [Gen.bigSep_W5]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v23)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V15 m (Cert.Proof.KB.outs m) c) main_v23 o)
          ∗ (∃ W, owes (c : Thread nD τ) (0 : CellTallies nD τ sig Unit) W)) := by
  have hne : ∀ b : Ref sig .tc, b ≠ main_v23 →
      Function.update (V15 m (Cert.Proof.KB.outs m) c) (Proc.devRef .tc main_v23) o (Proc.devRef .tc b) = V15 m (Cert.Proof.KB.outs m) c b :=
    fun b hb => Function.update_of_ne (StableHlo.devRef_ne_of_ne hb) _ _
  have hz : (bigSep restZ fun b => (((c : Thread nD τ).loc b) ↦{fullShare} Function.update (V15 m (Cert.Proof.KB.outs m) c) (Proc.devRef .tc main_v23) o b : sProp 𝕄))
      = Z0 m c :=
    BI.bigSep_congr fun b hb => by
      rw [hne b (fun e => by subst e; revert hb; decide)]
  rw [held_split m c (Function.update (V15 m (Cert.Proof.KB.outs m) c) main_v23 o), arrays_two, hz,
    hne main_arg1 (by decide), hne main_v21 (by decide), hne main_v22 (by decide), hne main_arg0 (by decide),
    Function.update_self, ent_arg0, ent_arg1,
    show V15 m (Cert.Proof.KB.outs m) c main_v21 = hTab m from ent_tab m (Cert.Proof.KB.outs m) c 0, show V15 m (Cert.Proof.KB.outs m) c main_v22 = tTab m from ent_tab m (Cert.Proof.KB.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec5 osem := by decide

/-- What region 0 leaves in the output's array, by name: the fold of its write-backs. -/
theorem outs6 (c : Dev nD) : Cert.Proof.KB.outs m 16 main_v23 c = (dat0 m c).arrAt 1 (cfgA m).N :=
  Pipeline.withArrays_arr spec5 winFacts5.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KB.adm m) (Cert.Proof.KB.pdats m) () defs₀ Variants.none
      Cert.Proof.KB.L Cert.Proof.KB.lv (5 : Fin 16) where
  win := (launch5 (F := F)).win.to₀
  block_pos := (launch5 (F := F)).block_pos
  stage_whole := (launch5 (F := F)).stage_whole
  K := Fin 2
  osem := osem
  ho := ownSemFacts
  hbody c := (body_obligation m hH hTl c).loose
  hwaits := Pipeline.hwaits_of_owed_zero _ _ _ _ Cert.Proof.KB.L Cert.Proof.KB.lv (5 : Fin 16) fun _ _ => rfl
  pre c := iprop(StableHlo.held (c : Thread nD τ) (Pipeline.ucRefs τ sig) (V15 m (Cert.Proof.KB.outs m) c) ∗ Cert.Proof.KB.E 5 c)
  post c := iprop(StableHlo.held (c : Thread nD τ) (Pipeline.ucRefs τ sig) (V16 m (Cert.Proof.KB.outs m) c) ∗ Cert.Proof.KB.E 6 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KB.outs m 16 main_v23 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V15 m (Cert.Proof.KB.outs m) c) ∗ Cert.Proof.KB.E 5 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V16 m (Cert.Proof.KB.outs m) c) ∗ Cert.Proof.KB.E 6 c) := .rfl

end Cert.Proof.KB5

end
-- ==== Proof.KB6Chains.lean ====
/-
  Region 6 is entered from the valuation after item 16 of @main. No earlier item writes the node table, the relation row,
  the region's output array or the padded index rows, and the region's two tables are the slices cut out of the padded
  rows at offset 393216: each buffer the region is handed holds a function of the launch memory alone.
-/
import proofs.«414028_j29231547417249_2_alg».proof.Proof.KBAdm
import Idealize.ShloMosaic.Lib.StableHlo.Run

set_option maxRecDepth 4096

noncomputable section

namespace Cert.Proof.KB6

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V17 m outs c main_arg0 = m ((c : Thread nD τ).loc main_arg0) :=
  (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V17 m outs c main_arg1 = m ((c : Thread nD τ).loc main_arg1) :=
  (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V17 m outs c main_v26 = m ((c : Thread nD τ).loc main_v26) :=
  (V17_of m outs c main_v26 (by decide)).trans <| (V16_of m outs c main_v26 (by decide)).trans <| (V15_of m outs c main_v26 (by decide)).trans <| (V14_of m outs c main_v26 (by decide)).trans <| (V13_of m outs c main_v26 (by decide)).trans <| (V12_of m outs c main_v26 (by decide)).trans <| (V11_of m outs c main_v26 (by decide)).trans <| (V10_of m outs c main_v26 (by decide)).trans <| (V9_of m outs c main_v26 (by decide)).trans <| (V8_of m outs c main_v26 (by decide)).trans <| (V7_of m outs c main_v26 (by decide)).trans <| (V6_of m outs c main_v26 (by decide)).trans <| (V5_of m c main_v26 (by decide)).trans <| (V4_of m c main_v26 (by decide)).trans <| (V3_of m c main_v26 (by decide)).trans <| (V2_of m c main_v26 (by decide)).trans <| (V1_of m c main_v26 (by decide)).trans <| rfl
/-- The stretch before the region cuts the table out of the padded row, whatever the valuation it runs from. -/
theorem slice_h (X : Valuation τ sig (Elt F)) :
    StableHlo.after (hostOps6 (F := F)) X (Proc.devRef .tc main_v24)
      = extractStridedSlice S65536 ![393216] (X (Proc.devRef .tc main_v4)) slices_S1048576_S65536_393216 := by
  after_results
/-- The stretch before the region cuts the table out of the padded row, whatever the valuation it runs from. -/
theorem slice_t (X : Valuation τ sig (Elt F)) :
    StableHlo.after (hostOps6 (F := F)) X (Proc.devRef .tc main_v25)
      = extractStridedSlice S65536 ![393216] (X (Proc.devRef .tc main_v5)) slices_S1048576_S65536_393216 := by
  after_results
theorem ent_tab0 (c : Dev nD) : V17 m outs c main_v24 = Cert.Proof.KB.tv6 m main_v24 := by
  obtain rfl : c = (0 : Dev nD) := Subsingleton.elim _ _
  have e : V16 m outs (0 : Dev nD) main_v4 = V5 m (0 : Dev nD) main_v4 :=
    (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V16 m outs (0 : Dev nD))).trans ((congrArg (extractStridedSlice S65536 ![393216] · slices_S1048576_S65536_393216) e).trans (slice_h (V5 m (0 : Dev nD))).symm)
theorem ent_tab1 (c : Dev nD) : V17 m outs c main_v25 = Cert.Proof.KB.tv6 m main_v25 := by
  obtain rfl : c = (0 : Dev nD) := Subsingleton.elim _ _
  have e : V16 m outs (0 : Dev nD) main_v5 = V5 m (0 : Dev nD) main_v5 :=
    (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V16 m outs (0 : Dev nD))).trans ((congrArg (extractStridedSlice S65536 ![393216] · slices_S1048576_S65536_393216) e).trans (slice_t (V5 m (0 : Dev nD))).symm)
theorem ent_tab (c : Dev nD) (k : Fin 2) : V17 m outs c (pre6.ref k) = Cert.Proof.KB.tbl6 m k :=
  match k with
  | ⟨0, _⟩ => ent_tab0 m outs c
  | ⟨1, _⟩ => ent_tab1 m outs c

end Cert.Proof.KB6

end
-- ==== Proof.KB6Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.Kernel
import proofs.«414028_j29231547417249_2_alg».proof.Proof.Gen.Kernel.Launch
import Idealize.ShloMosaic.Lib.Pipeline.Dat

noncomputable section

namespace Cert.Proof.KB6

open Cert.Kernel Cert.Kernel.Gen Idealize.ShloMosaic

variable {F : FTy → Type} [FloatOps F] (a : (pcfg6 (F := F)).Adm)

/-! ## The points and their coordinates -/

theorem N_eq : (cfg6 a).N = 65536 := N_6

theorem lt_N (t : Fin (cfg6 a).N) : t.val < 65536 := Nat.lt_of_lt_of_eq t.isLt (N_eq a)

/-- Each value of the first coordinate is shared by 128 consecutive points, each value of the second by one. -/
theorem stride0 : grid6.stride 0 = 128 := by decide
theorem stride1 : grid6.stride 1 = 1 := by decide

theorem coords0 (t : Fin (cfg6 a).N) : (((cfg6 a).grid.coords t) 0).val = t.val / 128 := by
  have ht := lt_N a t
  show t.val / grid6.stride 0 % 512 = t.val / 128
  rw [stride0]; omega

theorem coords1 (t : Fin (cfg6 a).N) : (((cfg6 a).grid.coords t) 1).val = t.val % 128 := by
  show t.val / grid6.stride 1 % 128 = t.val % 128
  rw [stride1, Nat.div_one]

theorem flat_eq (t : Fin (cfg6 a).N) :
    (((cfg6 a).grid.coords t) 0).val * 128 + (((cfg6 a).grid.coords t) 1).val = t.val := by
  rw [coords0, coords1]; omega

/-! ## The windows' block indices -/

/-- Window 0's block index is constant. -/
theorem index0 (s t : Fin (cfg6 a).N) : ((cfg6 a).win 0).index s = ((cfg6 a).win 0).index t := rfl

/-- Window 1's block index at a point is the point's first coordinate. -/
theorem index1 (s : Fin (cfg6 a).N) : ((cfg6 a).win 1).index s = ![s.val / 128] := by
  have hs := lt_N a s
  show ![(BitVec.ofNat 32 (((cfg6 a).grid.coords s) 0).val).toNat] = ![s.val / 128]
  rw [coords0 a s, BitVec.toNat_ofNat, Nat.mod_eq_of_lt (by omega)]

/-! ## Fetches and write-backs -/

theorem fetch0 (t : Fin (cfg6 a).N) : ((cfg6 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg6 a).N) : ((cfg6 a).win 1).fetch t = false := by
  unfold Pipeline.Window.fetch
  show (!true && _) = false
  rfl

theorem flush0 (t : Fin (cfg6 a).N) : ((cfg6 a).win 0).flush t = false := by
  unfold Pipeline.Window.flush
  show (false && _) = false
  rfl

theorem flush1 (t : Fin (cfg6 a).N) : ((cfg6 a).win 1).flush t = decide (t.val % 128 = 127) := by
  have ht := lt_N a t
  have hN : (cfg6 a).grid.N = 65536 := N_eq a
  unfold Pipeline.Window.flush
  show (true && (decide (t.val + 1 = (cfg6 a).grid.N)
    || decide (∃ h : t.val + 1 < (cfg6 a).grid.N, ((cfg6 a).win 1).index ⟨t.val + 1, h⟩ ≠ ((cfg6 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg6 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg6 a).W) (t : Fin (cfg6 a).N) : (cfg6 a).idle w ((cfg6 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg6 a).N) :
    Scalar.cmpi .ne (Scalar.extui (Scalar.cmpi .eq (BitVec.ofNat 32 (((cfg6 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg6 a).N) (A : Vec F S1x256 .f32) (y : S1x256.Idx) :
    (((cfg6 a).win 0).blk t).view.read (Elt F) A y = A y := by
  show A ((((cfg6 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg6 a).N) (y : S128.Idx) :
    ((((cfg6 a).win 1).blk t).view.emb y (0 : Fin 1)).val = 128 * (t.val / 128) + (y 0).val := by
  have hi : ((cfg6 a).win 1).index t (0 : Fin 1) = t.val / 128 := by rw [index1]; rfl
  show ((cfg6 a).win 1).index t (0 : Fin 1) * 128 + 1 * (y 0).val = 128 * (t.val / 128) + (y 0).val
  rw [hi]; omega

end Cert.Proof.KB6

end
-- ==== Proof.KB6Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KB6Defs
import proofs.«414028_j29231547417249_2_alg».proof.Proof.Gen.Kernel.Launch
import Idealize.ShloMosaic.Lib.Tactic

noncomputable section

namespace Cert.Proof.KB6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k6_pay2 j (k6_pay6 X18 X19 X20) (k6_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k6_pay2 j (k6_pay6 X18 X19 X20) (k6_pay7 X18 X19 X20)
              (m.view.readCov [⟨Rect.unit (s := S128) ![0] S128.size inb_S128_S128_0, k6_pay1 (F := F)⟩]
                (Rect.unit (s := S128) ![0] S128.size inb_S128_S128_0).toLoadRect)⟩,
          ⟨Rect.unit (s := S128) ![0] S128.size inb_S128_S128_0, k6_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid6.Coords) (M5 : Memref sig .tc .vmem S1x256 .f32) (h5 : M5.IsWhole) (M6 : Memref sig .tc .vmem S128 .f32) (h6 : M6.IsWhole)
    (hT : Bf (F := F) c (Memref.whole main_v24)) (tT : Bf (F := F) c (Memref.whole main_v25)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v24) hT ∗ pt c (Memref.whole main_v25) tT ∗ nodeSh c node
      ∗ (∃ s0, pt c (Memref.whole cc6_scratch0) s0) ∗ (∃ s1, pt c (Memref.whole cc6_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v24) hT ∗ pt c (Memref.whole main_v25) tT ∗ nodeSh c node
          ∗ (∃ s0, pt c (Memref.whole cc6_scratch0) s0) ∗ (∃ s1, pt c (Memref.whole cc6_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc6__lookup_kernel i (Memref.whole main_v24) (Memref.isWhole_whole _) (Memref.whole main_v25) (Memref.isWhole_whole _) (Memref.whole main_arg0) (Memref.isWhole_whole _)
          M5 h5 M6 h6 (Memref.whole cc6_scratch0) (Memref.isWhole_whole _) (Memref.whole cc6_scratch1) (Memref.isWhole_whole _) cc6_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid6.Coords) (M5 : Memref sig .tc .vmem S1x256 .f32) (h5 : M5.IsWhole) (M6 : Memref sig .tc .vmem S128 .f32) (h6 : M6.IsWhole)
    (hT : Bf (F := F) c (Memref.whole main_v24)) (tT : Bf (F := F) c (Memref.whole main_v25)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v24) hT ∗ pt c (Memref.whole main_v25) tT ∗ nodeSh c node
      ∗ (∃ s0, pt c (Memref.whole cc6_scratch0) s0) ∗ (∃ s1, pt c (Memref.whole cc6_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v24) hT ∗ pt c (Memref.whole main_v25) tT ∗ nodeSh c node
          ∗ (∃ s0, pt c (Memref.whole cc6_scratch0) s0) ∗ (∃ s1, pt c (Memref.whole cc6_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc6__lookup_kernel i (Memref.whole main_v24) (Memref.isWhole_whole _) (Memref.whole main_v25) (Memref.isWhole_whole _) (Memref.whole main_arg0) (Memref.isWhole_whole _)
          M5 h5 M6 h6 (Memref.whole cc6_scratch0) (Memref.isWhole_whole _) (Memref.whole cc6_scratch1) (Memref.isWhole_whole _) cc6_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KB6

end
-- ==== Proof.KB6Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KB6Data
import proofs.«414028_j29231547417249_2_alg».proof.Proof.KB6Points
import proofs.«414028_j29231547417249_2_alg».proof.Proof.KB6Body
import proofs.«414028_j29231547417249_2_alg».proof.Proof.Gen.Kernel.Launch
import Idealize.ShloMosaic.Lib.Pipeline.Frame

noncomputable section

namespace Cert.Proof.KB6

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W6, bigSep_W6]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec6_0.stage ((cfgA m).slots t 0)) (hstage6_0 (((cfgA m).slots t 0).cast nbuf6_0))
      (spec6_1.stage ((cfgA m).slots t 1)) (hstage6_1 (((cfgA m).slots t 1).cast nbuf6_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec6_0.stage ((cfgA m).slots t 0)) (hstage6_0 (((cfgA m).slots t 0).cast nbuf6_0))
      (spec6_1.stage ((cfgA m).slots t 1)) (hstage6_1 (((cfgA m).slots t 1).cast nbuf6_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KB6

end
-- ==== Proof.KB6Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KBDats
import proofs.«414028_j29231547417249_2_alg».proof.Proof.KBThread
import proofs.«414028_j29231547417249_2_alg».proof.Proof.KB6Chains
import proofs.«414028_j29231547417249_2_alg».proof.Proof.KB6Oblig
import proofs.«414028_j29231547417249_2_alg».proof.Proof.Gen.Kernel.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KB6

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 33 | 1 => .dma 34

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W6] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v24) (hTab m) ∗ pt c (Memref.whole main_v25) (tTab m))

/-- The invariant at the first point: the node table split into its shares, the tables, the two scratch rows out of the
    scoped rest. -/
theorem hin0 (c : Dev nD) :
    iprop(X0 m c ∗ Pipeline.prefHeld pre6 c (fun _ => fullShare) (Cert.Proof.KB.tbl6 m)
        ∗ Pipeline.scopedRest (Ix := Unit) (Name := ℕ) (U := UC) (Lvl := ℕ) (Val := Elt F) spec6 c)
      ⊢ Φv m c := by
  unfold Φv Pipeline.prefHeld
  rw [Gen.bigSep_W6, Gen.scopedRest6_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec6 c) := by
  unfold Φv
  rw [Gen.scopedRest6_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre6 spec6 \ {main_arg0}

theorem node_mem_rest : ({main_arg0} : Finset (Ref sig .tc)) ⊆ Pipeline.restRefsP sig pre6 spec6 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec6 c V : sProp 𝕄)
      = iprop(Pipeline.prefHeld pre6 c (fun _ => fullShare) (fun k => V (pre6.ref k))
          ∗ (((c : Thread nD τ).loc main_arg0) ↦{fullShare} V main_arg0)
          ∗ bigSep restZ fun b => ((c : Thread nD τ).loc b) ↦{fullShare} V b) := by
  rw [Pipeline.unscopedRest_split preFacts6 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v26) ↦{fullShare} V main_v26))
          ∗ ((((c : Thread nD τ).loc main_v24) ↦{fullShare} V main_v24) ∗ (((c : Thread nD τ).loc main_v25) ↦{fullShare} V main_v25))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts6.arr_unscoped winFacts6.arr_inj c, rest_split]
  unfold Pipeline.prefHeld
  rw [Gen.bigSep_W6, Gen.bigSep_W6]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v26) ↦{fullShare} G 1)) := by
  rw [Pipeline.arrays_eq (fun _ : Fin 1 => cfgA m) (fun _ c => dat0 m c) 0 c arr_whole6 ((dat0 m c).share_full fun _ => rfl) G, Gen.bigSep_W6]

/-- What bypasses the region: every other unscoped buffer, at its contents on entry. -/
abbrev Z0 (c : Dev nD) : sProp 𝕄 := bigSep restZ fun b => ((c : Thread nD τ).loc b) ↦{fullShare} V17 m (Cert.Proof.KB.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V17 m (Cert.Proof.KB.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre6 c (fun _ => fullShare) (Cert.Proof.KB.tbl6 m)
          ∗ (dat0 m c).owesAt () 0 ∗ X0 m c ∗ Z0 m c) := by
  rw [held_split m c (V17 m (Cert.Proof.KB.outs m) c), arrays_two, ent_arg0, ent_arg1, ent_out,
    show V17 m (Cert.Proof.KB.outs m) c main_v24 = hTab m from ent_tab m (Cert.Proof.KB.outs m) c 0, show V17 m (Cert.Proof.KB.outs m) c main_v25 = tTab m from ent_tab m (Cert.Proof.KB.outs m) c 1]
  unfold Pipeline.prefHeld
  rw [Gen.bigSep_W6]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v26)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V17 m (Cert.Proof.KB.outs m) c) main_v26 o)
          ∗ (∃ W, owes (c : Thread nD τ) (0 : CellTallies nD τ sig Unit) W)) := by
  have hne : ∀ b : Ref sig .tc, b ≠ main_v26 →
      Function.update (V17 m (Cert.Proof.KB.outs m) c) (Proc.devRef .tc main_v26) o (Proc.devRef .tc b) = V17 m (Cert.Proof.KB.outs m) c b :=
    fun b hb => Function.update_of_ne (StableHlo.devRef_ne_of_ne hb) _ _
  have hz : (bigSep restZ fun b => (((c : Thread nD τ).loc b) ↦{fullShare} Function.update (V17 m (Cert.Proof.KB.outs m) c) (Proc.devRef .tc main_v26) o b : sProp 𝕄))
      = Z0 m c :=
    BI.bigSep_congr fun b hb => by
      rw [hne b (fun e => by subst e; revert hb; decide)]
  rw [held_split m c (Function.update (V17 m (Cert.Proof.KB.outs m) c) main_v26 o), arrays_two, hz,
    hne main_arg1 (by decide), hne main_v24 (by decide), hne main_v25 (by decide), hne main_arg0 (by decide),
    Function.update_self, ent_arg0, ent_arg1,
    show V17 m (Cert.Proof.KB.outs m) c main_v24 = hTab m from ent_tab m (Cert.Proof.KB.outs m) c 0, show V17 m (Cert.Proof.KB.outs m) c main_v25 = tTab m from ent_tab m (Cert.Proof.KB.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec6 osem := by decide

/-- What region 0 leaves in the output's array, by name: the fold of its write-backs. -/
theorem outs6 (c : Dev nD) : Cert.Proof.KB.outs m 18 main_v26 c = (dat0 m c).arrAt 1 (cfgA m).N :=
  Pipeline.withArrays_arr spec6 winFacts6.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KB.adm m) (Cert.Proof.KB.pdats m) () defs₀ Variants.none
      Cert.Proof.KB.L Cert.Proof.KB.lv (6 : Fin 16) where
  win := (launch6 (F := F)).win.to₀
  block_pos := (launch6 (F := F)).block_pos
  stage_whole := (launch6 (F := F)).stage_whole
  K := Fin 2
  osem := osem
  ho := ownSemFacts
  hbody c := (body_obligation m hH hTl c).loose
  hwaits := Pipeline.hwaits_of_owed_zero _ _ _ _ Cert.Proof.KB.L Cert.Proof.KB.lv (6 : Fin 16) fun _ _ => rfl
  pre c := iprop(StableHlo.held (c : Thread nD τ) (Pipeline.ucRefs τ sig) (V17 m (Cert.Proof.KB.outs m) c) ∗ Cert.Proof.KB.E 6 c)
  post c := iprop(StableHlo.held (c : Thread nD τ) (Pipeline.ucRefs τ sig) (V18 m (Cert.Proof.KB.outs m) c) ∗ Cert.Proof.KB.E 7 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KB.outs m 18 main_v26 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V17 m (Cert.Proof.KB.outs m) c) ∗ Cert.Proof.KB.E 6 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V18 m (Cert.Proof.KB.outs m) c) ∗ Cert.Proof.KB.E 7 c) := .rfl

end Cert.Proof.KB6

end
-- ==== Proof.KB7Chains.lean ====
/-
  Region 7 is entered from the valuation after item 18 of @main. No earlier item writes the node table, the relation row,
  the region's output array or the padded index rows, and the region's two tables are the slices cut out of the padded
  rows at offset 458752: each buffer the region is handed holds a function of the launch memory alone.
-/
import proofs.«414028_j29231547417249_2_alg».proof.Proof.KBAdm
import Idealize.ShloMosaic.Lib.StableHlo.Run

set_option maxRecDepth 4096

noncomputable section

namespace Cert.Proof.KB7

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V19 m outs c main_arg0 = m ((c : Thread nD τ).loc main_arg0) :=
  (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V19 m outs c main_arg1 = m ((c : Thread nD τ).loc main_arg1) :=
  (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V19 m outs c main_v29 = m ((c : Thread nD τ).loc main_v29) :=
  (V19_of m outs c main_v29 (by decide)).trans <| (V18_of m outs c main_v29 (by decide)).trans <| (V17_of m outs c main_v29 (by decide)).trans <| (V16_of m outs c main_v29 (by decide)).trans <| (V15_of m outs c main_v29 (by decide)).trans <| (V14_of m outs c main_v29 (by decide)).trans <| (V13_of m outs c main_v29 (by decide)).trans <| (V12_of m outs c main_v29 (by decide)).trans <| (V11_of m outs c main_v29 (by decide)).trans <| (V10_of m outs c main_v29 (by decide)).trans <| (V9_of m outs c main_v29 (by decide)).trans <| (V8_of m outs c main_v29 (by decide)).trans <| (V7_of m outs c main_v29 (by decide)).trans <| (V6_of m outs c main_v29 (by decide)).trans <| (V5_of m c main_v29 (by decide)).trans <| (V4_of m c main_v29 (by decide)).trans <| (V3_of m c main_v29 (by decide)).trans <| (V2_of m c main_v29 (by decide)).trans <| (V1_of m c main_v29 (by decide)).trans <| rfl
/-- The stretch before the region cuts the table out of the padded row, whatever the valuation it runs from. -/
theorem slice_h (X : Valuation τ sig (Elt F)) :
    StableHlo.after (hostOps7 (F := F)) X (Proc.devRef .tc main_v27)
      = extractStridedSlice S65536 ![458752] (X (Proc.devRef .tc main_v4)) slices_S1048576_S65536_458752 := by
  after_results
/-- The stretch before the region cuts the table out of the padded row, whatever the valuation it runs from. -/
theorem slice_t (X : Valuation τ sig (Elt F)) :
    StableHlo.after (hostOps7 (F := F)) X (Proc.devRef .tc main_v28)
      = extractStridedSlice S65536 ![458752] (X (Proc.devRef .tc main_v5)) slices_S1048576_S65536_458752 := by
  after_results
theorem ent_tab0 (c : Dev nD) : V19 m outs c main_v27 = Cert.Proof.KB.tv7 m main_v27 := by
  obtain rfl : c = (0 : Dev nD) := Subsingleton.elim _ _
  have e : V18 m outs (0 : Dev nD) main_v4 = V5 m (0 : Dev nD) main_v4 :=
    (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V18 m outs (0 : Dev nD))).trans ((congrArg (extractStridedSlice S65536 ![458752] · slices_S1048576_S65536_458752) e).trans (slice_h (V5 m (0 : Dev nD))).symm)
theorem ent_tab1 (c : Dev nD) : V19 m outs c main_v28 = Cert.Proof.KB.tv7 m main_v28 := by
  obtain rfl : c = (0 : Dev nD) := Subsingleton.elim _ _
  have e : V18 m outs (0 : Dev nD) main_v5 = V5 m (0 : Dev nD) main_v5 :=
    (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V18 m outs (0 : Dev nD))).trans ((congrArg (extractStridedSlice S65536 ![458752] · slices_S1048576_S65536_458752) e).trans (slice_t (V5 m (0 : Dev nD))).symm)
theorem ent_tab (c : Dev nD) (k : Fin 2) : V19 m outs c (pre7.ref k) = Cert.Proof.KB.tbl7 m k :=
  match k with
  | ⟨0, _⟩ => ent_tab0 m outs c
  | ⟨1, _⟩ => ent_tab1 m outs c

end Cert.Proof.KB7

end
-- ==== Proof.KB7Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.Kernel
import proofs.«414028_j29231547417249_2_alg».proof.Proof.Gen.Kernel.Launch
import Idealize.ShloMosaic.Lib.Pipeline.Dat

noncomputable section

namespace Cert.Proof.KB7

open Cert.Kernel Cert.Kernel.Gen Idealize.ShloMosaic

variable {F : FTy → Type} [FloatOps F] (a : (pcfg7 (F := F)).Adm)

/-! ## The points and their coordinates -/

theorem N_eq : (cfg7 a).N = 65536 := N_7

theorem lt_N (t : Fin (cfg7 a).N) : t.val < 65536 := Nat.lt_of_lt_of_eq t.isLt (N_eq a)

/-- Each value of the first coordinate is shared by 128 consecutive points, each value of the second by one. -/
theorem stride0 : grid7.stride 0 = 128 := by decide
theorem stride1 : grid7.stride 1 = 1 := by decide

theorem coords0 (t : Fin (cfg7 a).N) : (((cfg7 a).grid.coords t) 0).val = t.val / 128 := by
  have ht := lt_N a t
  show t.val / grid7.stride 0 % 512 = t.val / 128
  rw [stride0]; omega

theorem coords1 (t : Fin (cfg7 a).N) : (((cfg7 a).grid.coords t) 1).val = t.val % 128 := by
  show t.val / grid7.stride 1 % 128 = t.val % 128
  rw [stride1, Nat.div_one]

theorem flat_eq (t : Fin (cfg7 a).N) :
    (((cfg7 a).grid.coords t) 0).val * 128 + (((cfg7 a).grid.coords t) 1).val = t.val := by
  rw [coords0, coords1]; omega

/-! ## The windows' block indices -/

/-- Window 0's block index is constant. -/
theorem index0 (s t : Fin (cfg7 a).N) : ((cfg7 a).win 0).index s = ((cfg7 a).win 0).index t := rfl

/-- Window 1's block index at a point is the point's first coordinate. -/
theorem index1 (s : Fin (cfg7 a).N) : ((cfg7 a).win 1).index s = ![s.val / 128] := by
  have hs := lt_N a s
  show ![(BitVec.ofNat 32 (((cfg7 a).grid.coords s) 0).val).toNat] = ![s.val / 128]
  rw [coords0 a s, BitVec.toNat_ofNat, Nat.mod_eq_of_lt (by omega)]

/-! ## Fetches and write-backs -/

theorem fetch0 (t : Fin (cfg7 a).N) : ((cfg7 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg7 a).N) : ((cfg7 a).win 1).fetch t = false := by
  unfold Pipeline.Window.fetch
  show (!true && _) = false
  rfl

theorem flush0 (t : Fin (cfg7 a).N) : ((cfg7 a).win 0).flush t = false := by
  unfold Pipeline.Window.flush
  show (false && _) = false
  rfl

theorem flush1 (t : Fin (cfg7 a).N) : ((cfg7 a).win 1).flush t = decide (t.val % 128 = 127) := by
  have ht := lt_N a t
  have hN : (cfg7 a).grid.N = 65536 := N_eq a
  unfold Pipeline.Window.flush
  show (true && (decide (t.val + 1 = (cfg7 a).grid.N)
    || decide (∃ h : t.val + 1 < (cfg7 a).grid.N, ((cfg7 a).win 1).index ⟨t.val + 1, h⟩ ≠ ((cfg7 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg7 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg7 a).W) (t : Fin (cfg7 a).N) : (cfg7 a).idle w ((cfg7 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg7 a).N) :
    Scalar.cmpi .ne (Scalar.extui (Scalar.cmpi .eq (BitVec.ofNat 32 (((cfg7 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg7 a).N) (A : Vec F S1x256 .f32) (y : S1x256.Idx) :
    (((cfg7 a).win 0).blk t).view.read (Elt F) A y = A y := by
  show A ((((cfg7 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg7 a).N) (y : S128.Idx) :
    ((((cfg7 a).win 1).blk t).view.emb y (0 : Fin 1)).val = 128 * (t.val / 128) + (y 0).val := by
  have hi : ((cfg7 a).win 1).index t (0 : Fin 1) = t.val / 128 := by rw [index1]; rfl
  show ((cfg7 a).win 1).index t (0 : Fin 1) * 128 + 1 * (y 0).val = 128 * (t.val / 128) + (y 0).val
  rw [hi]; omega

end Cert.Proof.KB7

end
-- ==== Proof.KB7Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KB7Defs
import proofs.«414028_j29231547417249_2_alg».proof.Proof.Gen.Kernel.Launch
import Idealize.ShloMosaic.Lib.Tactic

noncomputable section

namespace Cert.Proof.KB7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k7_pay2 j (k7_pay6 X18 X19 X20) (k7_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k7_pay2 j (k7_pay6 X18 X19 X20) (k7_pay7 X18 X19 X20)
              (m.view.readCov [⟨Rect.unit (s := S128) ![0] S128.size inb_S128_S128_0, k7_pay1 (F := F)⟩]
                (Rect.unit (s := S128) ![0] S128.size inb_S128_S128_0).toLoadRect)⟩,
          ⟨Rect.unit (s := S128) ![0] S128.size inb_S128_S128_0, k7_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid7.Coords) (M5 : Memref sig .tc .vmem S1x256 .f32) (h5 : M5.IsWhole) (M6 : Memref sig .tc .vmem S128 .f32) (h6 : M6.IsWhole)
    (hT : Bf (F := F) c (Memref.whole main_v27)) (tT : Bf (F := F) c (Memref.whole main_v28)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v27) hT ∗ pt c (Memref.whole main_v28) tT ∗ nodeSh c node
      ∗ (∃ s0, pt c (Memref.whole cc7_scratch0) s0) ∗ (∃ s1, pt c (Memref.whole cc7_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v27) hT ∗ pt c (Memref.whole main_v28) tT ∗ nodeSh c node
          ∗ (∃ s0, pt c (Memref.whole cc7_scratch0) s0) ∗ (∃ s1, pt c (Memref.whole cc7_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc7__lookup_kernel i (Memref.whole main_v27) (Memref.isWhole_whole _) (Memref.whole main_v28) (Memref.isWhole_whole _) (Memref.whole main_arg0) (Memref.isWhole_whole _)
          M5 h5 M6 h6 (Memref.whole cc7_scratch0) (Memref.isWhole_whole _) (Memref.whole cc7_scratch1) (Memref.isWhole_whole _) cc7_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid7.Coords) (M5 : Memref sig .tc .vmem S1x256 .f32) (h5 : M5.IsWhole) (M6 : Memref sig .tc .vmem S128 .f32) (h6 : M6.IsWhole)
    (hT : Bf (F := F) c (Memref.whole main_v27)) (tT : Bf (F := F) c (Memref.whole main_v28)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v27) hT ∗ pt c (Memref.whole main_v28) tT ∗ nodeSh c node
      ∗ (∃ s0, pt c (Memref.whole cc7_scratch0) s0) ∗ (∃ s1, pt c (Memref.whole cc7_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v27) hT ∗ pt c (Memref.whole main_v28) tT ∗ nodeSh c node
          ∗ (∃ s0, pt c (Memref.whole cc7_scratch0) s0) ∗ (∃ s1, pt c (Memref.whole cc7_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc7__lookup_kernel i (Memref.whole main_v27) (Memref.isWhole_whole _) (Memref.whole main_v28) (Memref.isWhole_whole _) (Memref.whole main_arg0) (Memref.isWhole_whole _)
          M5 h5 M6 h6 (Memref.whole cc7_scratch0) (Memref.isWhole_whole _) (Memref.whole cc7_scratch1) (Memref.isWhole_whole _) cc7_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KB7

end
-- ==== Proof.KB7Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KB7Data
import proofs.«414028_j29231547417249_2_alg».proof.Proof.KB7Points
import proofs.«414028_j29231547417249_2_alg».proof.Proof.KB7Body
import proofs.«414028_j29231547417249_2_alg».proof.Proof.Gen.Kernel.Launch
import Idealize.ShloMosaic.Lib.Pipeline.Frame

noncomputable section

namespace Cert.Proof.KB7

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W7, bigSep_W7]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec7_0.stage ((cfgA m).slots t 0)) (hstage7_0 (((cfgA m).slots t 0).cast nbuf7_0))
      (spec7_1.stage ((cfgA m).slots t 1)) (hstage7_1 (((cfgA m).slots t 1).cast nbuf7_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec7_0.stage ((cfgA m).slots t 0)) (hstage7_0 (((cfgA m).slots t 0).cast nbuf7_0))
      (spec7_1.stage ((cfgA m).slots t 1)) (hstage7_1 (((cfgA m).slots t 1).cast nbuf7_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KB7

end
-- ==== Proof.KB7Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KBDats
import proofs.«414028_j29231547417249_2_alg».proof.Proof.KBThread
import proofs.«414028_j29231547417249_2_alg».proof.Proof.KB7Chains
import proofs.«414028_j29231547417249_2_alg».proof.Proof.KB7Oblig
import proofs.«414028_j29231547417249_2_alg».proof.Proof.Gen.Kernel.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KB7

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 38 | 1 => .dma 39

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W7] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v27) (hTab m) ∗ pt c (Memref.whole main_v28) (tTab m))

/-- The invariant at the first point: the node table split into its shares, the tables, the two scratch rows out of the
    scoped rest. -/
theorem hin0 (c : Dev nD) :
    iprop(X0 m c ∗ Pipeline.prefHeld pre7 c (fun _ => fullShare) (Cert.Proof.KB.tbl7 m)
        ∗ Pipeline.scopedRest (Ix := Unit) (Name := ℕ) (U := UC) (Lvl := ℕ) (Val := Elt F) spec7 c)
      ⊢ Φv m c := by
  unfold Φv Pipeline.prefHeld
  rw [Gen.bigSep_W7, Gen.scopedRest7_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec7 c) := by
  unfold Φv
  rw [Gen.scopedRest7_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre7 spec7 \ {main_arg0}

theorem node_mem_rest : ({main_arg0} : Finset (Ref sig .tc)) ⊆ Pipeline.restRefsP sig pre7 spec7 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec7 c V : sProp 𝕄)
      = iprop(Pipeline.prefHeld pre7 c (fun _ => fullShare) (fun k => V (pre7.ref k))
          ∗ (((c : Thread nD τ).loc main_arg0) ↦{fullShare} V main_arg0)
          ∗ bigSep restZ fun b => ((c : Thread nD τ).loc b) ↦{fullShare} V b) := by
  rw [Pipeline.unscopedRest_split preFacts7 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v29) ↦{fullShare} V main_v29))
          ∗ ((((c : Thread nD τ).loc main_v27) ↦{fullShare} V main_v27) ∗ (((c : Thread nD τ).loc main_v28) ↦{fullShare} V main_v28))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts7.arr_unscoped winFacts7.arr_inj c, rest_split]
  unfold Pipeline.prefHeld
  rw [Gen.bigSep_W7, Gen.bigSep_W7]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v29) ↦{fullShare} G 1)) := by
  rw [Pipeline.arrays_eq (fun _ : Fin 1 => cfgA m) (fun _ c => dat0 m c) 0 c arr_whole7 ((dat0 m c).share_full fun _ => rfl) G, Gen.bigSep_W7]

/-- What bypasses the region: every other unscoped buffer, at its contents on entry. -/
abbrev Z0 (c : Dev nD) : sProp 𝕄 := bigSep restZ fun b => ((c : Thread nD τ).loc b) ↦{fullShare} V19 m (Cert.Proof.KB.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V19 m (Cert.Proof.KB.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre7 c (fun _ => fullShare) (Cert.Proof.KB.tbl7 m)
          ∗ (dat0 m c).owesAt () 0 ∗ X0 m c ∗ Z0 m c) := by
  rw [held_split m c (V19 m (Cert.Proof.KB.outs m) c), arrays_two, ent_arg0, ent_arg1, ent_out,
    show V19 m (Cert.Proof.KB.outs m) c main_v27 = hTab m from ent_tab m (Cert.Proof.KB.outs m) c 0, show V19 m (Cert.Proof.KB.outs m) c main_v28 = tTab m from ent_tab m (Cert.Proof.KB.outs m) c 1]
  unfold Pipeline.prefHeld
  rw [Gen.bigSep_W7]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v29)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V19 m (Cert.Proof.KB.outs m) c) main_v29 o)
          ∗ (∃ W, owes (c : Thread nD τ) (0 : CellTallies nD τ sig Unit) W)) := by
  have hne : ∀ b : Ref sig .tc, b ≠ main_v29 →
      Function.update (V19 m (Cert.Proof.KB.outs m) c) (Proc.devRef .tc main_v29) o (Proc.devRef .tc b) = V19 m (Cert.Proof.KB.outs m) c b :=
    fun b hb => Function.update_of_ne (StableHlo.devRef_ne_of_ne hb) _ _
  have hz : (bigSep restZ fun b => (((c : Thread nD τ).loc b) ↦{fullShare} Function.update (V19 m (Cert.Proof.KB.outs m) c) (Proc.devRef .tc main_v29) o b : sProp 𝕄))
      = Z0 m c :=
    BI.bigSep_congr fun b hb => by
      rw [hne b (fun e => by subst e; revert hb; decide)]
  rw [held_split m c (Function.update (V19 m (Cert.Proof.KB.outs m) c) main_v29 o), arrays_two, hz,
    hne main_arg1 (by decide), hne main_v27 (by decide), hne main_v28 (by decide), hne main_arg0 (by decide),
    Function.update_self, ent_arg0, ent_arg1,
    show V19 m (Cert.Proof.KB.outs m) c main_v27 = hTab m from ent_tab m (Cert.Proof.KB.outs m) c 0, show V19 m (Cert.Proof.KB.outs m) c main_v28 = tTab m from ent_tab m (Cert.Proof.KB.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec7 osem := by decide

/-- What region 0 leaves in the output's array, by name: the fold of its write-backs. -/
theorem outs6 (c : Dev nD) : Cert.Proof.KB.outs m 20 main_v29 c = (dat0 m c).arrAt 1 (cfgA m).N :=
  Pipeline.withArrays_arr spec7 winFacts7.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KB.adm m) (Cert.Proof.KB.pdats m) () defs₀ Variants.none
      Cert.Proof.KB.L Cert.Proof.KB.lv (7 : Fin 16) where
  win := (launch7 (F := F)).win.to₀
  block_pos := (launch7 (F := F)).block_pos
  stage_whole := (launch7 (F := F)).stage_whole
  K := Fin 2
  osem := osem
  ho := ownSemFacts
  hbody c := (body_obligation m hH hTl c).loose
  hwaits := Pipeline.hwaits_of_owed_zero _ _ _ _ Cert.Proof.KB.L Cert.Proof.KB.lv (7 : Fin 16) fun _ _ => rfl
  pre c := iprop(StableHlo.held (c : Thread nD τ) (Pipeline.ucRefs τ sig) (V19 m (Cert.Proof.KB.outs m) c) ∗ Cert.Proof.KB.E 7 c)
  post c := iprop(StableHlo.held (c : Thread nD τ) (Pipeline.ucRefs τ sig) (V20 m (Cert.Proof.KB.outs m) c) ∗ Cert.Proof.KB.E 8 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KB.outs m 20 main_v29 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V19 m (Cert.Proof.KB.outs m) c) ∗ Cert.Proof.KB.E 7 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V20 m (Cert.Proof.KB.outs m) c) ∗ Cert.Proof.KB.E 8 c) := .rfl

end Cert.Proof.KB7

end
-- ==== Proof.KB8Chains.lean ====
/-
  Region 8 is entered from the valuation after item 20 of @main. No earlier item writes the node table, the relation row,
  the region's output array or the padded index rows, and the region's two tables are the slices cut out of the padded
  rows at offset 524288: each buffer the region is handed holds a function of the launch memory alone.
-/
import proofs.«414028_j29231547417249_2_alg».proof.Proof.KBAdm
import Idealize.ShloMosaic.Lib.StableHlo.Run

set_option maxRecDepth 4096

noncomputable section

namespace Cert.Proof.KB8

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V21 m outs c main_arg0 = m ((c : Thread nD τ).loc main_arg0) :=
  (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V21 m outs c main_arg1 = m ((c : Thread nD τ).loc main_arg1) :=
  (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V21 m outs c main_v32 = m ((c : Thread nD τ).loc main_v32) :=
  (V21_of m outs c main_v32 (by decide)).trans <| (V20_of m outs c main_v32 (by decide)).trans <| (V19_of m outs c main_v32 (by decide)).trans <| (V18_of m outs c main_v32 (by decide)).trans <| (V17_of m outs c main_v32 (by decide)).trans <| (V16_of m outs c main_v32 (by decide)).trans <| (V15_of m outs c main_v32 (by decide)).trans <| (V14_of m outs c main_v32 (by decide)).trans <| (V13_of m outs c main_v32 (by decide)).trans <| (V12_of m outs c main_v32 (by decide)).trans <| (V11_of m outs c main_v32 (by decide)).trans <| (V10_of m outs c main_v32 (by decide)).trans <| (V9_of m outs c main_v32 (by decide)).trans <| (V8_of m outs c main_v32 (by decide)).trans <| (V7_of m outs c main_v32 (by decide)).trans <| (V6_of m outs c main_v32 (by decide)).trans <| (V5_of m c main_v32 (by decide)).trans <| (V4_of m c main_v32 (by decide)).trans <| (V3_of m c main_v32 (by decide)).trans <| (V2_of m c main_v32 (by decide)).trans <| (V1_of m c main_v32 (by decide)).trans <| rfl
/-- The stretch before the region cuts the table out of the padded row, whatever the valuation it runs from. -/
theorem slice_h (X : Valuation τ sig (Elt F)) :
    StableHlo.after (hostOps8 (F := F)) X (Proc.devRef .tc main_v30)
      = extractStridedSlice S65536 ![524288] (X (Proc.devRef .tc main_v4)) slices_S1048576_S65536_524288 := by
  after_results
/-- The stretch before the region cuts the table out of the padded row, whatever the valuation it runs from. -/
theorem slice_t (X : Valuation τ sig (Elt F)) :
    StableHlo.after (hostOps8 (F := F)) X (Proc.devRef .tc main_v31)
      = extractStridedSlice S65536 ![524288] (X (Proc.devRef .tc main_v5)) slices_S1048576_S65536_524288 := by
  after_results
theorem ent_tab0 (c : Dev nD) : V21 m outs c main_v30 = Cert.Proof.KB.tv8 m main_v30 := by
  obtain rfl : c = (0 : Dev nD) := Subsingleton.elim _ _
  have e : V20 m outs (0 : Dev nD) main_v4 = V5 m (0 : Dev nD) main_v4 :=
    (V20_of m outs (0 : Dev nD) main_v4 (by decide)).trans <| (V19_of m outs (0 : Dev nD) main_v4 (by decide)).trans <| (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V20 m outs (0 : Dev nD))).trans ((congrArg (extractStridedSlice S65536 ![524288] · slices_S1048576_S65536_524288) e).trans (slice_h (V5 m (0 : Dev nD))).symm)
theorem ent_tab1 (c : Dev nD) : V21 m outs c main_v31 = Cert.Proof.KB.tv8 m main_v31 := by
  obtain rfl : c = (0 : Dev nD) := Subsingleton.elim _ _
  have e : V20 m outs (0 : Dev nD) main_v5 = V5 m (0 : Dev nD) main_v5 :=
    (V20_of m outs (0 : Dev nD) main_v5 (by decide)).trans <| (V19_of m outs (0 : Dev nD) main_v5 (by decide)).trans <| (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V20 m outs (0 : Dev nD))).trans ((congrArg (extractStridedSlice S65536 ![524288] · slices_S1048576_S65536_524288) e).trans (slice_t (V5 m (0 : Dev nD))).symm)
theorem ent_tab (c : Dev nD) (k : Fin 2) : V21 m outs c (pre8.ref k) = Cert.Proof.KB.tbl8 m k :=
  match k with
  | ⟨0, _⟩ => ent_tab0 m outs c
  | ⟨1, _⟩ => ent_tab1 m outs c

end Cert.Proof.KB8

end
-- ==== Proof.KB8Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.Kernel
import proofs.«414028_j29231547417249_2_alg».proof.Proof.Gen.Kernel.Launch
import Idealize.ShloMosaic.Lib.Pipeline.Dat

noncomputable section

namespace Cert.Proof.KB8

open Cert.Kernel Cert.Kernel.Gen Idealize.ShloMosaic

variable {F : FTy → Type} [FloatOps F] (a : (pcfg8 (F := F)).Adm)

/-! ## The points and their coordinates -/

theorem N_eq : (cfg8 a).N = 65536 := N_8

theorem lt_N (t : Fin (cfg8 a).N) : t.val < 65536 := Nat.lt_of_lt_of_eq t.isLt (N_eq a)

/-- Each value of the first coordinate is shared by 128 consecutive points, each value of the second by one. -/
theorem stride0 : grid8.stride 0 = 128 := by decide
theorem stride1 : grid8.stride 1 = 1 := by decide

theorem coords0 (t : Fin (cfg8 a).N) : (((cfg8 a).grid.coords t) 0).val = t.val / 128 := by
  have ht := lt_N a t
  show t.val / grid8.stride 0 % 512 = t.val / 128
  rw [stride0]; omega

theorem coords1 (t : Fin (cfg8 a).N) : (((cfg8 a).grid.coords t) 1).val = t.val % 128 := by
  show t.val / grid8.stride 1 % 128 = t.val % 128
  rw [stride1, Nat.div_one]

theorem flat_eq (t : Fin (cfg8 a).N) :
    (((cfg8 a).grid.coords t) 0).val * 128 + (((cfg8 a).grid.coords t) 1).val = t.val := by
  rw [coords0, coords1]; omega

/-! ## The windows' block indices -/

/-- Window 0's block index is constant. -/
theorem index0 (s t : Fin (cfg8 a).N) : ((cfg8 a).win 0).index s = ((cfg8 a).win 0).index t := rfl

/-- Window 1's block index at a point is the point's first coordinate. -/
theorem index1 (s : Fin (cfg8 a).N) : ((cfg8 a).win 1).index s = ![s.val / 128] := by
  have hs := lt_N a s
  show ![(BitVec.ofNat 32 (((cfg8 a).grid.coords s) 0).val).toNat] = ![s.val / 128]
  rw [coords0 a s, BitVec.toNat_ofNat, Nat.mod_eq_of_lt (by omega)]

/-! ## Fetches and write-backs -/

theorem fetch0 (t : Fin (cfg8 a).N) : ((cfg8 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg8 a).N) : ((cfg8 a).win 1).fetch t = false := by
  unfold Pipeline.Window.fetch
  show (!true && _) = false
  rfl

theorem flush0 (t : Fin (cfg8 a).N) : ((cfg8 a).win 0).flush t = false := by
  unfold Pipeline.Window.flush
  show (false && _) = false
  rfl

theorem flush1 (t : Fin (cfg8 a).N) : ((cfg8 a).win 1).flush t = decide (t.val % 128 = 127) := by
  have ht := lt_N a t
  have hN : (cfg8 a).grid.N = 65536 := N_eq a
  unfold Pipeline.Window.flush
  show (true && (decide (t.val + 1 = (cfg8 a).grid.N)
    || decide (∃ h : t.val + 1 < (cfg8 a).grid.N, ((cfg8 a).win 1).index ⟨t.val + 1, h⟩ ≠ ((cfg8 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg8 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg8 a).W) (t : Fin (cfg8 a).N) : (cfg8 a).idle w ((cfg8 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg8 a).N) :
    Scalar.cmpi .ne (Scalar.extui (Scalar.cmpi .eq (BitVec.ofNat 32 (((cfg8 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg8 a).N) (A : Vec F S1x256 .f32) (y : S1x256.Idx) :
    (((cfg8 a).win 0).blk t).view.read (Elt F) A y = A y := by
  show A ((((cfg8 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg8 a).N) (y : S128.Idx) :
    ((((cfg8 a).win 1).blk t).view.emb y (0 : Fin 1)).val = 128 * (t.val / 128) + (y 0).val := by
  have hi : ((cfg8 a).win 1).index t (0 : Fin 1) = t.val / 128 := by rw [index1]; rfl
  show ((cfg8 a).win 1).index t (0 : Fin 1) * 128 + 1 * (y 0).val = 128 * (t.val / 128) + (y 0).val
  rw [hi]; omega

end Cert.Proof.KB8

end
-- ==== Proof.KB8Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KB8Defs
import proofs.«414028_j29231547417249_2_alg».proof.Proof.Gen.Kernel.Launch
import Idealize.ShloMosaic.Lib.Tactic

noncomputable section

namespace Cert.Proof.KB8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k8_pay2 j (k8_pay6 X18 X19 X20) (k8_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k8_pay2 j (k8_pay6 X18 X19 X20) (k8_pay7 X18 X19 X20)
              (m.view.readCov [⟨Rect.unit (s := S128) ![0] S128.size inb_S128_S128_0, k8_pay1 (F := F)⟩]
                (Rect.unit (s := S128) ![0] S128.size inb_S128_S128_0).toLoadRect)⟩,
          ⟨Rect.unit (s := S128) ![0] S128.size inb_S128_S128_0, k8_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid8.Coords) (M5 : Memref sig .tc .vmem S1x256 .f32) (h5 : M5.IsWhole) (M6 : Memref sig .tc .vmem S128 .f32) (h6 : M6.IsWhole)
    (hT : Bf (F := F) c (Memref.whole main_v30)) (tT : Bf (F := F) c (Memref.whole main_v31)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v30) hT ∗ pt c (Memref.whole main_v31) tT ∗ nodeSh c node
      ∗ (∃ s0, pt c (Memref.whole cc8_scratch0) s0) ∗ (∃ s1, pt c (Memref.whole cc8_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v30) hT ∗ pt c (Memref.whole main_v31) tT ∗ nodeSh c node
          ∗ (∃ s0, pt c (Memref.whole cc8_scratch0) s0) ∗ (∃ s1, pt c (Memref.whole cc8_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc8__lookup_kernel i (Memref.whole main_v30) (Memref.isWhole_whole _) (Memref.whole main_v31) (Memref.isWhole_whole _) (Memref.whole main_arg0) (Memref.isWhole_whole _)
          M5 h5 M6 h6 (Memref.whole cc8_scratch0) (Memref.isWhole_whole _) (Memref.whole cc8_scratch1) (Memref.isWhole_whole _) cc8_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid8.Coords) (M5 : Memref sig .tc .vmem S1x256 .f32) (h5 : M5.IsWhole) (M6 : Memref sig .tc .vmem S128 .f32) (h6 : M6.IsWhole)
    (hT : Bf (F := F) c (Memref.whole main_v30)) (tT : Bf (F := F) c (Memref.whole main_v31)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v30) hT ∗ pt c (Memref.whole main_v31) tT ∗ nodeSh c node
      ∗ (∃ s0, pt c (Memref.whole cc8_scratch0) s0) ∗ (∃ s1, pt c (Memref.whole cc8_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v30) hT ∗ pt c (Memref.whole main_v31) tT ∗ nodeSh c node
          ∗ (∃ s0, pt c (Memref.whole cc8_scratch0) s0) ∗ (∃ s1, pt c (Memref.whole cc8_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc8__lookup_kernel i (Memref.whole main_v30) (Memref.isWhole_whole _) (Memref.whole main_v31) (Memref.isWhole_whole _) (Memref.whole main_arg0) (Memref.isWhole_whole _)
          M5 h5 M6 h6 (Memref.whole cc8_scratch0) (Memref.isWhole_whole _) (Memref.whole cc8_scratch1) (Memref.isWhole_whole _) cc8_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KB8

end
-- ==== Proof.KB8Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KB8Data
import proofs.«414028_j29231547417249_2_alg».proof.Proof.KB8Points
import proofs.«414028_j29231547417249_2_alg».proof.Proof.KB8Body
import proofs.«414028_j29231547417249_2_alg».proof.Proof.Gen.Kernel.Launch
import Idealize.ShloMosaic.Lib.Pipeline.Frame

noncomputable section

namespace Cert.Proof.KB8

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W8, bigSep_W8]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec8_0.stage ((cfgA m).slots t 0)) (hstage8_0 (((cfgA m).slots t 0).cast nbuf8_0))
      (spec8_1.stage ((cfgA m).slots t 1)) (hstage8_1 (((cfgA m).slots t 1).cast nbuf8_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec8_0.stage ((cfgA m).slots t 0)) (hstage8_0 (((cfgA m).slots t 0).cast nbuf8_0))
      (spec8_1.stage ((cfgA m).slots t 1)) (hstage8_1 (((cfgA m).slots t 1).cast nbuf8_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KB8

end
-- ==== Proof.KB8Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KBDats
import proofs.«414028_j29231547417249_2_alg».proof.Proof.KBThread
import proofs.«414028_j29231547417249_2_alg».proof.Proof.KB8Chains
import proofs.«414028_j29231547417249_2_alg».proof.Proof.KB8Oblig
import proofs.«414028_j29231547417249_2_alg».proof.Proof.Gen.Kernel.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KB8

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 43 | 1 => .dma 44

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W8] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v30) (hTab m) ∗ pt c (Memref.whole main_v31) (tTab m))

/-- The invariant at the first point: the node table split into its shares, the tables, the two scratch rows out of the
    scoped rest. -/
theorem hin0 (c : Dev nD) :
    iprop(X0 m c ∗ Pipeline.prefHeld pre8 c (fun _ => fullShare) (Cert.Proof.KB.tbl8 m)
        ∗ Pipeline.scopedRest (Ix := Unit) (Name := ℕ) (U := UC) (Lvl := ℕ) (Val := Elt F) spec8 c)
      ⊢ Φv m c := by
  unfold Φv Pipeline.prefHeld
  rw [Gen.bigSep_W8, Gen.scopedRest8_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec8 c) := by
  unfold Φv
  rw [Gen.scopedRest8_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre8 spec8 \ {main_arg0}

theorem node_mem_rest : ({main_arg0} : Finset (Ref sig .tc)) ⊆ Pipeline.restRefsP sig pre8 spec8 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec8 c V : sProp 𝕄)
      = iprop(Pipeline.prefHeld pre8 c (fun _ => fullShare) (fun k => V (pre8.ref k))
          ∗ (((c : Thread nD τ).loc main_arg0) ↦{fullShare} V main_arg0)
          ∗ bigSep restZ fun b => ((c : Thread nD τ).loc b) ↦{fullShare} V b) := by
  rw [Pipeline.unscopedRest_split preFacts8 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v32) ↦{fullShare} V main_v32))
          ∗ ((((c : Thread nD τ).loc main_v30) ↦{fullShare} V main_v30) ∗ (((c : Thread nD τ).loc main_v31) ↦{fullShare} V main_v31))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts8.arr_unscoped winFacts8.arr_inj c, rest_split]
  unfold Pipeline.prefHeld
  rw [Gen.bigSep_W8, Gen.bigSep_W8]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v32) ↦{fullShare} G 1)) := by
  rw [Pipeline.arrays_eq (fun _ : Fin 1 => cfgA m) (fun _ c => dat0 m c) 0 c arr_whole8 ((dat0 m c).share_full fun _ => rfl) G, Gen.bigSep_W8]

/-- What bypasses the region: every other unscoped buffer, at its contents on entry. -/
abbrev Z0 (c : Dev nD) : sProp 𝕄 := bigSep restZ fun b => ((c : Thread nD τ).loc b) ↦{fullShare} V21 m (Cert.Proof.KB.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V21 m (Cert.Proof.KB.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre8 c (fun _ => fullShare) (Cert.Proof.KB.tbl8 m)
          ∗ (dat0 m c).owesAt () 0 ∗ X0 m c ∗ Z0 m c) := by
  rw [held_split m c (V21 m (Cert.Proof.KB.outs m) c), arrays_two, ent_arg0, ent_arg1, ent_out,
    show V21 m (Cert.Proof.KB.outs m) c main_v30 = hTab m from ent_tab m (Cert.Proof.KB.outs m) c 0, show V21 m (Cert.Proof.KB.outs m) c main_v31 = tTab m from ent_tab m (Cert.Proof.KB.outs m) c 1]
  unfold Pipeline.prefHeld
  rw [Gen.bigSep_W8]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v32)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V21 m (Cert.Proof.KB.outs m) c) main_v32 o)
          ∗ (∃ W, owes (c : Thread nD τ) (0 : CellTallies nD τ sig Unit) W)) := by
  have hne : ∀ b : Ref sig .tc, b ≠ main_v32 →
      Function.update (V21 m (Cert.Proof.KB.outs m) c) (Proc.devRef .tc main_v32) o (Proc.devRef .tc b) = V21 m (Cert.Proof.KB.outs m) c b :=
    fun b hb => Function.update_of_ne (StableHlo.devRef_ne_of_ne hb) _ _
  have hz : (bigSep restZ fun b => (((c : Thread nD τ).loc b) ↦{fullShare} Function.update (V21 m (Cert.Proof.KB.outs m) c) (Proc.devRef .tc main_v32) o b : sProp 𝕄))
      = Z0 m c :=
    BI.bigSep_congr fun b hb => by
      rw [hne b (fun e => by subst e; revert hb; decide)]
  rw [held_split m c (Function.update (V21 m (Cert.Proof.KB.outs m) c) main_v32 o), arrays_two, hz,
    hne main_arg1 (by decide), hne main_v30 (by decide), hne main_v31 (by decide), hne main_arg0 (by decide),
    Function.update_self, ent_arg0, ent_arg1,
    show V21 m (Cert.Proof.KB.outs m) c main_v30 = hTab m from ent_tab m (Cert.Proof.KB.outs m) c 0, show V21 m (Cert.Proof.KB.outs m) c main_v31 = tTab m from ent_tab m (Cert.Proof.KB.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec8 osem := by decide

/-- What region 0 leaves in the output's array, by name: the fold of its write-backs. -/
theorem outs6 (c : Dev nD) : Cert.Proof.KB.outs m 22 main_v32 c = (dat0 m c).arrAt 1 (cfgA m).N :=
  Pipeline.withArrays_arr spec8 winFacts8.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KB.adm m) (Cert.Proof.KB.pdats m) () defs₀ Variants.none
      Cert.Proof.KB.L Cert.Proof.KB.lv (8 : Fin 16) where
  win := (launch8 (F := F)).win.to₀
  block_pos := (launch8 (F := F)).block_pos
  stage_whole := (launch8 (F := F)).stage_whole
  K := Fin 2
  osem := osem
  ho := ownSemFacts
  hbody c := (body_obligation m hH hTl c).loose
  hwaits := Pipeline.hwaits_of_owed_zero _ _ _ _ Cert.Proof.KB.L Cert.Proof.KB.lv (8 : Fin 16) fun _ _ => rfl
  pre c := iprop(StableHlo.held (c : Thread nD τ) (Pipeline.ucRefs τ sig) (V21 m (Cert.Proof.KB.outs m) c) ∗ Cert.Proof.KB.E 8 c)
  post c := iprop(StableHlo.held (c : Thread nD τ) (Pipeline.ucRefs τ sig) (V22 m (Cert.Proof.KB.outs m) c) ∗ Cert.Proof.KB.E 9 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KB.outs m 22 main_v32 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V21 m (Cert.Proof.KB.outs m) c) ∗ Cert.Proof.KB.E 8 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V22 m (Cert.Proof.KB.outs m) c) ∗ Cert.Proof.KB.E 9 c) := .rfl

end Cert.Proof.KB8

end
-- ==== Proof.KB9Chains.lean ====
/-
  Region 9 is entered from the valuation after item 22 of @main. No earlier item writes the node table, the relation row,
  the region's output array or the padded index rows, and the region's two tables are the slices cut out of the padded
  rows at offset 589824: each buffer the region is handed holds a function of the launch memory alone.
-/
import proofs.«414028_j29231547417249_2_alg».proof.Proof.KBAdm
import Idealize.ShloMosaic.Lib.StableHlo.Run

set_option maxRecDepth 4096

noncomputable section

namespace Cert.Proof.KB9

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V23 m outs c main_arg0 = m ((c : Thread nD τ).loc main_arg0) :=
  (V23_of m outs c main_arg0 (by decide)).trans <| (V22_of m outs c main_arg0 (by decide)).trans <| (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V23 m outs c main_arg1 = m ((c : Thread nD τ).loc main_arg1) :=
  (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V23 m outs c main_v35 = m ((c : Thread nD τ).loc main_v35) :=
  (V23_of m outs c main_v35 (by decide)).trans <| (V22_of m outs c main_v35 (by decide)).trans <| (V21_of m outs c main_v35 (by decide)).trans <| (V20_of m outs c main_v35 (by decide)).trans <| (V19_of m outs c main_v35 (by decide)).trans <| (V18_of m outs c main_v35 (by decide)).trans <| (V17_of m outs c main_v35 (by decide)).trans <| (V16_of m outs c main_v35 (by decide)).trans <| (V15_of m outs c main_v35 (by decide)).trans <| (V14_of m outs c main_v35 (by decide)).trans <| (V13_of m outs c main_v35 (by decide)).trans <| (V12_of m outs c main_v35 (by decide)).trans <| (V11_of m outs c main_v35 (by decide)).trans <| (V10_of m outs c main_v35 (by decide)).trans <| (V9_of m outs c main_v35 (by decide)).trans <| (V8_of m outs c main_v35 (by decide)).trans <| (V7_of m outs c main_v35 (by decide)).trans <| (V6_of m outs c main_v35 (by decide)).trans <| (V5_of m c main_v35 (by decide)).trans <| (V4_of m c main_v35 (by decide)).trans <| (V3_of m c main_v35 (by decide)).trans <| (V2_of m c main_v35 (by decide)).trans <| (V1_of m c main_v35 (by decide)).trans <| rfl
/-- The stretch before the region cuts the table out of the padded row, whatever the valuation it runs from. -/
theorem slice_h (X : Valuation τ sig (Elt F)) :
    StableHlo.after (hostOps9 (F := F)) X (Proc.devRef .tc main_v33)
      = extractStridedSlice S65536 ![589824] (X (Proc.devRef .tc main_v4)) slices_S1048576_S65536_589824 := by
  after_results
/-- The stretch before the region cuts the table out of the padded row, whatever the valuation it runs from. -/
theorem slice_t (X : Valuation τ sig (Elt F)) :
    StableHlo.after (hostOps9 (F := F)) X (Proc.devRef .tc main_v34)
      = extractStridedSlice S65536 ![589824] (X (Proc.devRef .tc main_v5)) slices_S1048576_S65536_589824 := by
  after_results
theorem ent_tab0 (c : Dev nD) : V23 m outs c main_v33 = Cert.Proof.KB.tv9 m main_v33 := by
  obtain rfl : c = (0 : Dev nD) := Subsingleton.elim _ _
  have e : V22 m outs (0 : Dev nD) main_v4 = V5 m (0 : Dev nD) main_v4 :=
    (V22_of m outs (0 : Dev nD) main_v4 (by decide)).trans <| (V21_of m outs (0 : Dev nD) main_v4 (by decide)).trans <| (V20_of m outs (0 : Dev nD) main_v4 (by decide)).trans <| (V19_of m outs (0 : Dev nD) main_v4 (by decide)).trans <| (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V22 m outs (0 : Dev nD))).trans ((congrArg (extractStridedSlice S65536 ![589824] · slices_S1048576_S65536_589824) e).trans (slice_h (V5 m (0 : Dev nD))).symm)
theorem ent_tab1 (c : Dev nD) : V23 m outs c main_v34 = Cert.Proof.KB.tv9 m main_v34 := by
  obtain rfl : c = (0 : Dev nD) := Subsingleton.elim _ _
  have e : V22 m outs (0 : Dev nD) main_v5 = V5 m (0 : Dev nD) main_v5 :=
    (V22_of m outs (0 : Dev nD) main_v5 (by decide)).trans <| (V21_of m outs (0 : Dev nD) main_v5 (by decide)).trans <| (V20_of m outs (0 : Dev nD) main_v5 (by decide)).trans <| (V19_of m outs (0 : Dev nD) main_v5 (by decide)).trans <| (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V22 m outs (0 : Dev nD))).trans ((congrArg (extractStridedSlice S65536 ![589824] · slices_S1048576_S65536_589824) e).trans (slice_t (V5 m (0 : Dev nD))).symm)
theorem ent_tab (c : Dev nD) (k : Fin 2) : V23 m outs c (pre9.ref k) = Cert.Proof.KB.tbl9 m k :=
  match k with
  | ⟨0, _⟩ => ent_tab0 m outs c
  | ⟨1, _⟩ => ent_tab1 m outs c

end Cert.Proof.KB9

end
-- ==== Proof.KB9Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.Kernel
import proofs.«414028_j29231547417249_2_alg».proof.Proof.Gen.Kernel.Launch
import Idealize.ShloMosaic.Lib.Pipeline.Dat

noncomputable section

namespace Cert.Proof.KB9

open Cert.Kernel Cert.Kernel.Gen Idealize.ShloMosaic

variable {F : FTy → Type} [FloatOps F] (a : (pcfg9 (F := F)).Adm)

/-! ## The points and their coordinates -/

theorem N_eq : (cfg9 a).N = 65536 := N_9

theorem lt_N (t : Fin (cfg9 a).N) : t.val < 65536 := Nat.lt_of_lt_of_eq t.isLt (N_eq a)

/-- Each value of the first coordinate is shared by 128 consecutive points, each value of the second by one. -/
theorem stride0 : grid9.stride 0 = 128 := by decide
theorem stride1 : grid9.stride 1 = 1 := by decide

theorem coords0 (t : Fin (cfg9 a).N) : (((cfg9 a).grid.coords t) 0).val = t.val / 128 := by
  have ht := lt_N a t
  show t.val / grid9.stride 0 % 512 = t.val / 128
  rw [stride0]; omega

theorem coords1 (t : Fin (cfg9 a).N) : (((cfg9 a).grid.coords t) 1).val = t.val % 128 := by
  show t.val / grid9.stride 1 % 128 = t.val % 128
  rw [stride1, Nat.div_one]

theorem flat_eq (t : Fin (cfg9 a).N) :
    (((cfg9 a).grid.coords t) 0).val * 128 + (((cfg9 a).grid.coords t) 1).val = t.val := by
  rw [coords0, coords1]; omega

/-! ## The windows' block indices -/

/-- Window 0's block index is constant. -/
theorem index0 (s t : Fin (cfg9 a).N) : ((cfg9 a).win 0).index s = ((cfg9 a).win 0).index t := rfl

/-- Window 1's block index at a point is the point's first coordinate. -/
theorem index1 (s : Fin (cfg9 a).N) : ((cfg9 a).win 1).index s = ![s.val / 128] := by
  have hs := lt_N a s
  show ![(BitVec.ofNat 32 (((cfg9 a).grid.coords s) 0).val).toNat] = ![s.val / 128]
  rw [coords0 a s, BitVec.toNat_ofNat, Nat.mod_eq_of_lt (by omega)]

/-! ## Fetches and write-backs -/

theorem fetch0 (t : Fin (cfg9 a).N) : ((cfg9 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg9 a).N) : ((cfg9 a).win 1).fetch t = false := by
  unfold Pipeline.Window.fetch
  show (!true && _) = false
  rfl

theorem flush0 (t : Fin (cfg9 a).N) : ((cfg9 a).win 0).flush t = false := by
  unfold Pipeline.Window.flush
  show (false && _) = false
  rfl

theorem flush1 (t : Fin (cfg9 a).N) : ((cfg9 a).win 1).flush t = decide (t.val % 128 = 127) := by
  have ht := lt_N a t
  have hN : (cfg9 a).grid.N = 65536 := N_eq a
  unfold Pipeline.Window.flush
  show (true && (decide (t.val + 1 = (cfg9 a).grid.N)
    || decide (∃ h : t.val + 1 < (cfg9 a).grid.N, ((cfg9 a).win 1).index ⟨t.val + 1, h⟩ ≠ ((cfg9 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg9 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg9 a).W) (t : Fin (cfg9 a).N) : (cfg9 a).idle w ((cfg9 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg9 a).N) :
    Scalar.cmpi .ne (Scalar.extui (Scalar.cmpi .eq (BitVec.ofNat 32 (((cfg9 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg9 a).N) (A : Vec F S1x256 .f32) (y : S1x256.Idx) :
    (((cfg9 a).win 0).blk t).view.read (Elt F) A y = A y := by
  show A ((((cfg9 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg9 a).N) (y : S128.Idx) :
    ((((cfg9 a).win 1).blk t).view.emb y (0 : Fin 1)).val = 128 * (t.val / 128) + (y 0).val := by
  have hi : ((cfg9 a).win 1).index t (0 : Fin 1) = t.val / 128 := by rw [index1]; rfl
  show ((cfg9 a).win 1).index t (0 : Fin 1) * 128 + 1 * (y 0).val = 128 * (t.val / 128) + (y 0).val
  rw [hi]; omega

end Cert.Proof.KB9

end
-- ==== Proof.KB9Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KB9Defs
import proofs.«414028_j29231547417249_2_alg».proof.Proof.Gen.Kernel.Launch
import Idealize.ShloMosaic.Lib.Tactic

noncomputable section

namespace Cert.Proof.KB9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k9_pay2 j (k9_pay6 X18 X19 X20) (k9_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k9_pay2 j (k9_pay6 X18 X19 X20) (k9_pay7 X18 X19 X20)
              (m.view.readCov [⟨Rect.unit (s := S128) ![0] S128.size inb_S128_S128_0, k9_pay1 (F := F)⟩]
                (Rect.unit (s := S128) ![0] S128.size inb_S128_S128_0).toLoadRect)⟩,
          ⟨Rect.unit (s := S128) ![0] S128.size inb_S128_S128_0, k9_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid9.Coords) (M5 : Memref sig .tc .vmem S1x256 .f32) (h5 : M5.IsWhole) (M6 : Memref sig .tc .vmem S128 .f32) (h6 : M6.IsWhole)
    (hT : Bf (F := F) c (Memref.whole main_v33)) (tT : Bf (F := F) c (Memref.whole main_v34)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v33) hT ∗ pt c (Memref.whole main_v34) tT ∗ nodeSh c node
      ∗ (∃ s0, pt c (Memref.whole cc9_scratch0) s0) ∗ (∃ s1, pt c (Memref.whole cc9_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v33) hT ∗ pt c (Memref.whole main_v34) tT ∗ nodeSh c node
          ∗ (∃ s0, pt c (Memref.whole cc9_scratch0) s0) ∗ (∃ s1, pt c (Memref.whole cc9_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc9__lookup_kernel i (Memref.whole main_v33) (Memref.isWhole_whole _) (Memref.whole main_v34) (Memref.isWhole_whole _) (Memref.whole main_arg0) (Memref.isWhole_whole _)
          M5 h5 M6 h6 (Memref.whole cc9_scratch0) (Memref.isWhole_whole _) (Memref.whole cc9_scratch1) (Memref.isWhole_whole _) cc9_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid9.Coords) (M5 : Memref sig .tc .vmem S1x256 .f32) (h5 : M5.IsWhole) (M6 : Memref sig .tc .vmem S128 .f32) (h6 : M6.IsWhole)
    (hT : Bf (F := F) c (Memref.whole main_v33)) (tT : Bf (F := F) c (Memref.whole main_v34)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v33) hT ∗ pt c (Memref.whole main_v34) tT ∗ nodeSh c node
      ∗ (∃ s0, pt c (Memref.whole cc9_scratch0) s0) ∗ (∃ s1, pt c (Memref.whole cc9_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v33) hT ∗ pt c (Memref.whole main_v34) tT ∗ nodeSh c node
          ∗ (∃ s0, pt c (Memref.whole cc9_scratch0) s0) ∗ (∃ s1, pt c (Memref.whole cc9_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc9__lookup_kernel i (Memref.whole main_v33) (Memref.isWhole_whole _) (Memref.whole main_v34) (Memref.isWhole_whole _) (Memref.whole main_arg0) (Memref.isWhole_whole _)
          M5 h5 M6 h6 (Memref.whole cc9_scratch0) (Memref.isWhole_whole _) (Memref.whole cc9_scratch1) (Memref.isWhole_whole _) cc9_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KB9

end
-- ==== Proof.KB9Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KB9Data
import proofs.«414028_j29231547417249_2_alg».proof.Proof.KB9Points
import proofs.«414028_j29231547417249_2_alg».proof.Proof.KB9Body
import proofs.«414028_j29231547417249_2_alg».proof.Proof.Gen.Kernel.Launch
import Idealize.ShloMosaic.Lib.Pipeline.Frame

noncomputable section

namespace Cert.Proof.KB9

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W9, bigSep_W9]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec9_0.stage ((cfgA m).slots t 0)) (hstage9_0 (((cfgA m).slots t 0).cast nbuf9_0))
      (spec9_1.stage ((cfgA m).slots t 1)) (hstage9_1 (((cfgA m).slots t 1).cast nbuf9_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec9_0.stage ((cfgA m).slots t 0)) (hstage9_0 (((cfgA m).slots t 0).cast nbuf9_0))
      (spec9_1.stage ((cfgA m).slots t 1)) (hstage9_1 (((cfgA m).slots t 1).cast nbuf9_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KB9

end
-- ==== Proof.KB9Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KBDats
import proofs.«414028_j29231547417249_2_alg».proof.Proof.KBThread
import proofs.«414028_j29231547417249_2_alg».proof.Proof.KB9Chains
import proofs.«414028_j29231547417249_2_alg».proof.Proof.KB9Oblig
import proofs.«414028_j29231547417249_2_alg».proof.Proof.Gen.Kernel.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KB9

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 48 | 1 => .dma 49

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W9] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v33) (hTab m) ∗ pt c (Memref.whole main_v34) (tTab m))

/-- The invariant at the first point: the node table split into its shares, the tables, the two scratch rows out of the
    scoped rest. -/
theorem hin0 (c : Dev nD) :
    iprop(X0 m c ∗ Pipeline.prefHeld pre9 c (fun _ => fullShare) (Cert.Proof.KB.tbl9 m)
        ∗ Pipeline.scopedRest (Ix := Unit) (Name := ℕ) (U := UC) (Lvl := ℕ) (Val := Elt F) spec9 c)
      ⊢ Φv m c := by
  unfold Φv Pipeline.prefHeld
  rw [Gen.bigSep_W9, Gen.scopedRest9_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec9 c) := by
  unfold Φv
  rw [Gen.scopedRest9_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre9 spec9 \ {main_arg0}

theorem node_mem_rest : ({main_arg0} : Finset (Ref sig .tc)) ⊆ Pipeline.restRefsP sig pre9 spec9 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec9 c V : sProp 𝕄)
      = iprop(Pipeline.prefHeld pre9 c (fun _ => fullShare) (fun k => V (pre9.ref k))
          ∗ (((c : Thread nD τ).loc main_arg0) ↦{fullShare} V main_arg0)
          ∗ bigSep restZ fun b => ((c : Thread nD τ).loc b) ↦{fullShare} V b) := by
  rw [Pipeline.unscopedRest_split preFacts9 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v35) ↦{fullShare} V main_v35))
          ∗ ((((c : Thread nD τ).loc main_v33) ↦{fullShare} V main_v33) ∗ (((c : Thread nD τ).loc main_v34) ↦{fullShare} V main_v34))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts9.arr_unscoped winFacts9.arr_inj c, rest_split]
  unfold Pipeline.prefHeld
  rw [Gen.bigSep_W9, Gen.bigSep_W9]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v35) ↦{fullShare} G 1)) := by
  rw [Pipeline.arrays_eq (fun _ : Fin 1 => cfgA m) (fun _ c => dat0 m c) 0 c arr_whole9 ((dat0 m c).share_full fun _ => rfl) G, Gen.bigSep_W9]

/-- What bypasses the region: every other unscoped buffer, at its contents on entry. -/
abbrev Z0 (c : Dev nD) : sProp 𝕄 := bigSep restZ fun b => ((c : Thread nD τ).loc b) ↦{fullShare} V23 m (Cert.Proof.KB.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V23 m (Cert.Proof.KB.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre9 c (fun _ => fullShare) (Cert.Proof.KB.tbl9 m)
          ∗ (dat0 m c).owesAt () 0 ∗ X0 m c ∗ Z0 m c) := by
  rw [held_split m c (V23 m (Cert.Proof.KB.outs m) c), arrays_two, ent_arg0, ent_arg1, ent_out,
    show V23 m (Cert.Proof.KB.outs m) c main_v33 = hTab m from ent_tab m (Cert.Proof.KB.outs m) c 0, show V23 m (Cert.Proof.KB.outs m) c main_v34 = tTab m from ent_tab m (Cert.Proof.KB.outs m) c 1]
  unfold Pipeline.prefHeld
  rw [Gen.bigSep_W9]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v35)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V23 m (Cert.Proof.KB.outs m) c) main_v35 o)
          ∗ (∃ W, owes (c : Thread nD τ) (0 : CellTallies nD τ sig Unit) W)) := by
  have hne : ∀ b : Ref sig .tc, b ≠ main_v35 →
      Function.update (V23 m (Cert.Proof.KB.outs m) c) (Proc.devRef .tc main_v35) o (Proc.devRef .tc b) = V23 m (Cert.Proof.KB.outs m) c b :=
    fun b hb => Function.update_of_ne (StableHlo.devRef_ne_of_ne hb) _ _
  have hz : (bigSep restZ fun b => (((c : Thread nD τ).loc b) ↦{fullShare} Function.update (V23 m (Cert.Proof.KB.outs m) c) (Proc.devRef .tc main_v35) o b : sProp 𝕄))
      = Z0 m c :=
    BI.bigSep_congr fun b hb => by
      rw [hne b (fun e => by subst e; revert hb; decide)]
  rw [held_split m c (Function.update (V23 m (Cert.Proof.KB.outs m) c) main_v35 o), arrays_two, hz,
    hne main_arg1 (by decide), hne main_v33 (by decide), hne main_v34 (by decide), hne main_arg0 (by decide),
    Function.update_self, ent_arg0, ent_arg1,
    show V23 m (Cert.Proof.KB.outs m) c main_v33 = hTab m from ent_tab m (Cert.Proof.KB.outs m) c 0, show V23 m (Cert.Proof.KB.outs m) c main_v34 = tTab m from ent_tab m (Cert.Proof.KB.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec9 osem := by decide

/-- What region 0 leaves in the output's array, by name: the fold of its write-backs. -/
theorem outs6 (c : Dev nD) : Cert.Proof.KB.outs m 24 main_v35 c = (dat0 m c).arrAt 1 (cfgA m).N :=
  Pipeline.withArrays_arr spec9 winFacts9.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KB.adm m) (Cert.Proof.KB.pdats m) () defs₀ Variants.none
      Cert.Proof.KB.L Cert.Proof.KB.lv (9 : Fin 16) where
  win := (launch9 (F := F)).win.to₀
  block_pos := (launch9 (F := F)).block_pos
  stage_whole := (launch9 (F := F)).stage_whole
  K := Fin 2
  osem := osem
  ho := ownSemFacts
  hbody c := (body_obligation m hH hTl c).loose
  hwaits := Pipeline.hwaits_of_owed_zero _ _ _ _ Cert.Proof.KB.L Cert.Proof.KB.lv (9 : Fin 16) fun _ _ => rfl
  pre c := iprop(StableHlo.held (c : Thread nD τ) (Pipeline.ucRefs τ sig) (V23 m (Cert.Proof.KB.outs m) c) ∗ Cert.Proof.KB.E 9 c)
  post c := iprop(StableHlo.held (c : Thread nD τ) (Pipeline.ucRefs τ sig) (V24 m (Cert.Proof.KB.outs m) c) ∗ Cert.Proof.KB.E 10 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KB.outs m 24 main_v35 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V23 m (Cert.Proof.KB.outs m) c) ∗ Cert.Proof.KB.E 9 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V24 m (Cert.Proof.KB.outs m) c) ∗ Cert.Proof.KB.E 10 c) := .rfl

end Cert.Proof.KB9

end
-- ==== Proof.KB10Chains.lean ====
/-
  Region 10 is entered from the valuation after item 24 of @main. No earlier item writes the node table, the relation row,
  the region's output array or the padded index rows, and the region's two tables are the slices cut out of the padded
  rows at offset 655360: each buffer the region is handed holds a function of the launch memory alone.
-/
import proofs.«414028_j29231547417249_2_alg».proof.Proof.KBAdm
import Idealize.ShloMosaic.Lib.StableHlo.Run

set_option maxRecDepth 4096

noncomputable section

namespace Cert.Proof.KB10

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V25 m outs c main_arg0 = m ((c : Thread nD τ).loc main_arg0) :=
  (V25_of m outs c main_arg0 (by decide)).trans <| (V24_of m outs c main_arg0 (by decide)).trans <| (V23_of m outs c main_arg0 (by decide)).trans <| (V22_of m outs c main_arg0 (by decide)).trans <| (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V25 m outs c main_arg1 = m ((c : Thread nD τ).loc main_arg1) :=
  (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V25 m outs c main_v38 = m ((c : Thread nD τ).loc main_v38) :=
  (V25_of m outs c main_v38 (by decide)).trans <| (V24_of m outs c main_v38 (by decide)).trans <| (V23_of m outs c main_v38 (by decide)).trans <| (V22_of m outs c main_v38 (by decide)).trans <| (V21_of m outs c main_v38 (by decide)).trans <| (V20_of m outs c main_v38 (by decide)).trans <| (V19_of m outs c main_v38 (by decide)).trans <| (V18_of m outs c main_v38 (by decide)).trans <| (V17_of m outs c main_v38 (by decide)).trans <| (V16_of m outs c main_v38 (by decide)).trans <| (V15_of m outs c main_v38 (by decide)).trans <| (V14_of m outs c main_v38 (by decide)).trans <| (V13_of m outs c main_v38 (by decide)).trans <| (V12_of m outs c main_v38 (by decide)).trans <| (V11_of m outs c main_v38 (by decide)).trans <| (V10_of m outs c main_v38 (by decide)).trans <| (V9_of m outs c main_v38 (by decide)).trans <| (V8_of m outs c main_v38 (by decide)).trans <| (V7_of m outs c main_v38 (by decide)).trans <| (V6_of m outs c main_v38 (by decide)).trans <| (V5_of m c main_v38 (by decide)).trans <| (V4_of m c main_v38 (by decide)).trans <| (V3_of m c main_v38 (by decide)).trans <| (V2_of m c main_v38 (by decide)).trans <| (V1_of m c main_v38 (by decide)).trans <| rfl
/-- The stretch before the region cuts the table out of the padded row, whatever the valuation it runs from. -/
theorem slice_h (X : Valuation τ sig (Elt F)) :
    StableHlo.after (hostOps10 (F := F)) X (Proc.devRef .tc main_v36)
      = extractStridedSlice S65536 ![655360] (X (Proc.devRef .tc main_v4)) slices_S1048576_S65536_655360 := by
  after_results
/-- The stretch before the region cuts the table out of the padded row, whatever the valuation it runs from. -/
theorem slice_t (X : Valuation τ sig (Elt F)) :
    StableHlo.after (hostOps10 (F := F)) X (Proc.devRef .tc main_v37)
      = extractStridedSlice S65536 ![655360] (X (Proc.devRef .tc main_v5)) slices_S1048576_S65536_655360 := by
  after_results
theorem ent_tab0 (c : Dev nD) : V25 m outs c main_v36 = Cert.Proof.KB.tv10 m main_v36 := by
  obtain rfl : c = (0 : Dev nD) := Subsingleton.elim _ _
  have e : V24 m outs (0 : Dev nD) main_v4 = V5 m (0 : Dev nD) main_v4 :=
    (V24_of m outs (0 : Dev nD) main_v4 (by decide)).trans <| (V23_of m outs (0 : Dev nD) main_v4 (by decide)).trans <| (V22_of m outs (0 : Dev nD) main_v4 (by decide)).trans <| (V21_of m outs (0 : Dev nD) main_v4 (by decide)).trans <| (V20_of m outs (0 : Dev nD) main_v4 (by decide)).trans <| (V19_of m outs (0 : Dev nD) main_v4 (by decide)).trans <| (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V24 m outs (0 : Dev nD))).trans ((congrArg (extractStridedSlice S65536 ![655360] · slices_S1048576_S65536_655360) e).trans (slice_h (V5 m (0 : Dev nD))).symm)
theorem ent_tab1 (c : Dev nD) : V25 m outs c main_v37 = Cert.Proof.KB.tv10 m main_v37 := by
  obtain rfl : c = (0 : Dev nD) := Subsingleton.elim _ _
  have e : V24 m outs (0 : Dev nD) main_v5 = V5 m (0 : Dev nD) main_v5 :=
    (V24_of m outs (0 : Dev nD) main_v5 (by decide)).trans <| (V23_of m outs (0 : Dev nD) main_v5 (by decide)).trans <| (V22_of m outs (0 : Dev nD) main_v5 (by decide)).trans <| (V21_of m outs (0 : Dev nD) main_v5 (by decide)).trans <| (V20_of m outs (0 : Dev nD) main_v5 (by decide)).trans <| (V19_of m outs (0 : Dev nD) main_v5 (by decide)).trans <| (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V24 m outs (0 : Dev nD))).trans ((congrArg (extractStridedSlice S65536 ![655360] · slices_S1048576_S65536_655360) e).trans (slice_t (V5 m (0 : Dev nD))).symm)
theorem ent_tab (c : Dev nD) (k : Fin 2) : V25 m outs c (pre10.ref k) = Cert.Proof.KB.tbl10 m k :=
  match k with
  | ⟨0, _⟩ => ent_tab0 m outs c
  | ⟨1, _⟩ => ent_tab1 m outs c

end Cert.Proof.KB10

end
-- ==== Proof.KB10Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.Kernel
import proofs.«414028_j29231547417249_2_alg».proof.Proof.Gen.Kernel.Launch
import Idealize.ShloMosaic.Lib.Pipeline.Dat

noncomputable section

namespace Cert.Proof.KB10

open Cert.Kernel Cert.Kernel.Gen Idealize.ShloMosaic

variable {F : FTy → Type} [FloatOps F] (a : (pcfg10 (F := F)).Adm)

/-! ## The points and their coordinates -/

theorem N_eq : (cfg10 a).N = 65536 := N_10

theorem lt_N (t : Fin (cfg10 a).N) : t.val < 65536 := Nat.lt_of_lt_of_eq t.isLt (N_eq a)

/-- Each value of the first coordinate is shared by 128 consecutive points, each value of the second by one. -/
theorem stride0 : grid10.stride 0 = 128 := by decide
theorem stride1 : grid10.stride 1 = 1 := by decide

theorem coords0 (t : Fin (cfg10 a).N) : (((cfg10 a).grid.coords t) 0).val = t.val / 128 := by
  have ht := lt_N a t
  show t.val / grid10.stride 0 % 512 = t.val / 128
  rw [stride0]; omega

theorem coords1 (t : Fin (cfg10 a).N) : (((cfg10 a).grid.coords t) 1).val = t.val % 128 := by
  show t.val / grid10.stride 1 % 128 = t.val % 128
  rw [stride1, Nat.div_one]

theorem flat_eq (t : Fin (cfg10 a).N) :
    (((cfg10 a).grid.coords t) 0).val * 128 + (((cfg10 a).grid.coords t) 1).val = t.val := by
  rw [coords0, coords1]; omega

/-! ## The windows' block indices -/

/-- Window 0's block index is constant. -/
theorem index0 (s t : Fin (cfg10 a).N) : ((cfg10 a).win 0).index s = ((cfg10 a).win 0).index t := rfl

/-- Window 1's block index at a point is the point's first coordinate. -/
theorem index1 (s : Fin (cfg10 a).N) : ((cfg10 a).win 1).index s = ![s.val / 128] := by
  have hs := lt_N a s
  show ![(BitVec.ofNat 32 (((cfg10 a).grid.coords s) 0).val).toNat] = ![s.val / 128]
  rw [coords0 a s, BitVec.toNat_ofNat, Nat.mod_eq_of_lt (by omega)]

/-! ## Fetches and write-backs -/

theorem fetch0 (t : Fin (cfg10 a).N) : ((cfg10 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg10 a).N) : ((cfg10 a).win 1).fetch t = false := by
  unfold Pipeline.Window.fetch
  show (!true && _) = false
  rfl

theorem flush0 (t : Fin (cfg10 a).N) : ((cfg10 a).win 0).flush t = false := by
  unfold Pipeline.Window.flush
  show (false && _) = false
  rfl

theorem flush1 (t : Fin (cfg10 a).N) : ((cfg10 a).win 1).flush t = decide (t.val % 128 = 127) := by
  have ht := lt_N a t
  have hN : (cfg10 a).grid.N = 65536 := N_eq a
  unfold Pipeline.Window.flush
  show (true && (decide (t.val + 1 = (cfg10 a).grid.N)
    || decide (∃ h : t.val + 1 < (cfg10 a).grid.N, ((cfg10 a).win 1).index ⟨t.val + 1, h⟩ ≠ ((cfg10 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg10 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg10 a).W) (t : Fin (cfg10 a).N) : (cfg10 a).idle w ((cfg10 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg10 a).N) :
    Scalar.cmpi .ne (Scalar.extui (Scalar.cmpi .eq (BitVec.ofNat 32 (((cfg10 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg10 a).N) (A : Vec F S1x256 .f32) (y : S1x256.Idx) :
    (((cfg10 a).win 0).blk t).view.read (Elt F) A y = A y := by
  show A ((((cfg10 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg10 a).N) (y : S128.Idx) :
    ((((cfg10 a).win 1).blk t).view.emb y (0 : Fin 1)).val = 128 * (t.val / 128) + (y 0).val := by
  have hi : ((cfg10 a).win 1).index t (0 : Fin 1) = t.val / 128 := by rw [index1]; rfl
  show ((cfg10 a).win 1).index t (0 : Fin 1) * 128 + 1 * (y 0).val = 128 * (t.val / 128) + (y 0).val
  rw [hi]; omega

end Cert.Proof.KB10

end
-- ==== Proof.KB10Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KB10Defs
import proofs.«414028_j29231547417249_2_alg».proof.Proof.Gen.Kernel.Launch
import Idealize.ShloMosaic.Lib.Tactic

noncomputable section

namespace Cert.Proof.KB10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k10_pay2 j (k10_pay6 X18 X19 X20) (k10_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k10_pay2 j (k10_pay6 X18 X19 X20) (k10_pay7 X18 X19 X20)
              (m.view.readCov [⟨Rect.unit (s := S128) ![0] S128.size inb_S128_S128_0, k10_pay1 (F := F)⟩]
                (Rect.unit (s := S128) ![0] S128.size inb_S128_S128_0).toLoadRect)⟩,
          ⟨Rect.unit (s := S128) ![0] S128.size inb_S128_S128_0, k10_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid10.Coords) (M5 : Memref sig .tc .vmem S1x256 .f32) (h5 : M5.IsWhole) (M6 : Memref sig .tc .vmem S128 .f32) (h6 : M6.IsWhole)
    (hT : Bf (F := F) c (Memref.whole main_v36)) (tT : Bf (F := F) c (Memref.whole main_v37)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v36) hT ∗ pt c (Memref.whole main_v37) tT ∗ nodeSh c node
      ∗ (∃ s0, pt c (Memref.whole cc10_scratch0) s0) ∗ (∃ s1, pt c (Memref.whole cc10_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v36) hT ∗ pt c (Memref.whole main_v37) tT ∗ nodeSh c node
          ∗ (∃ s0, pt c (Memref.whole cc10_scratch0) s0) ∗ (∃ s1, pt c (Memref.whole cc10_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc10__lookup_kernel i (Memref.whole main_v36) (Memref.isWhole_whole _) (Memref.whole main_v37) (Memref.isWhole_whole _) (Memref.whole main_arg0) (Memref.isWhole_whole _)
          M5 h5 M6 h6 (Memref.whole cc10_scratch0) (Memref.isWhole_whole _) (Memref.whole cc10_scratch1) (Memref.isWhole_whole _) cc10_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid10.Coords) (M5 : Memref sig .tc .vmem S1x256 .f32) (h5 : M5.IsWhole) (M6 : Memref sig .tc .vmem S128 .f32) (h6 : M6.IsWhole)
    (hT : Bf (F := F) c (Memref.whole main_v36)) (tT : Bf (F := F) c (Memref.whole main_v37)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v36) hT ∗ pt c (Memref.whole main_v37) tT ∗ nodeSh c node
      ∗ (∃ s0, pt c (Memref.whole cc10_scratch0) s0) ∗ (∃ s1, pt c (Memref.whole cc10_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v36) hT ∗ pt c (Memref.whole main_v37) tT ∗ nodeSh c node
          ∗ (∃ s0, pt c (Memref.whole cc10_scratch0) s0) ∗ (∃ s1, pt c (Memref.whole cc10_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc10__lookup_kernel i (Memref.whole main_v36) (Memref.isWhole_whole _) (Memref.whole main_v37) (Memref.isWhole_whole _) (Memref.whole main_arg0) (Memref.isWhole_whole _)
          M5 h5 M6 h6 (Memref.whole cc10_scratch0) (Memref.isWhole_whole _) (Memref.whole cc10_scratch1) (Memref.isWhole_whole _) cc10_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KB10

end
-- ==== Proof.KB10Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KB10Data
import proofs.«414028_j29231547417249_2_alg».proof.Proof.KB10Points
import proofs.«414028_j29231547417249_2_alg».proof.Proof.KB10Body
import proofs.«414028_j29231547417249_2_alg».proof.Proof.Gen.Kernel.Launch
import Idealize.ShloMosaic.Lib.Pipeline.Frame

noncomputable section

namespace Cert.Proof.KB10

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W10, bigSep_W10]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec10_0.stage ((cfgA m).slots t 0)) (hstage10_0 (((cfgA m).slots t 0).cast nbuf10_0))
      (spec10_1.stage ((cfgA m).slots t 1)) (hstage10_1 (((cfgA m).slots t 1).cast nbuf10_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec10_0.stage ((cfgA m).slots t 0)) (hstage10_0 (((cfgA m).slots t 0).cast nbuf10_0))
      (spec10_1.stage ((cfgA m).slots t 1)) (hstage10_1 (((cfgA m).slots t 1).cast nbuf10_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KB10

end
-- ==== Proof.KB10Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KBDats
import proofs.«414028_j29231547417249_2_alg».proof.Proof.KBThread
import proofs.«414028_j29231547417249_2_alg».proof.Proof.KB10Chains
import proofs.«414028_j29231547417249_2_alg».proof.Proof.KB10Oblig
import proofs.«414028_j29231547417249_2_alg».proof.Proof.Gen.Kernel.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KB10

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 53 | 1 => .dma 54

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W10] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v36) (hTab m) ∗ pt c (Memref.whole main_v37) (tTab m))

/-- The invariant at the first point: the node table split into its shares, the tables, the two scratch rows out of the
    scoped rest. -/
theorem hin0 (c : Dev nD) :
    iprop(X0 m c ∗ Pipeline.prefHeld pre10 c (fun _ => fullShare) (Cert.Proof.KB.tbl10 m)
        ∗ Pipeline.scopedRest (Ix := Unit) (Name := ℕ) (U := UC) (Lvl := ℕ) (Val := Elt F) spec10 c)
      ⊢ Φv m c := by
  unfold Φv Pipeline.prefHeld
  rw [Gen.bigSep_W10, Gen.scopedRest10_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec10 c) := by
  unfold Φv
  rw [Gen.scopedRest10_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre10 spec10 \ {main_arg0}

theorem node_mem_rest : ({main_arg0} : Finset (Ref sig .tc)) ⊆ Pipeline.restRefsP sig pre10 spec10 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec10 c V : sProp 𝕄)
      = iprop(Pipeline.prefHeld pre10 c (fun _ => fullShare) (fun k => V (pre10.ref k))
          ∗ (((c : Thread nD τ).loc main_arg0) ↦{fullShare} V main_arg0)
          ∗ bigSep restZ fun b => ((c : Thread nD τ).loc b) ↦{fullShare} V b) := by
  rw [Pipeline.unscopedRest_split preFacts10 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v38) ↦{fullShare} V main_v38))
          ∗ ((((c : Thread nD τ).loc main_v36) ↦{fullShare} V main_v36) ∗ (((c : Thread nD τ).loc main_v37) ↦{fullShare} V main_v37))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts10.arr_unscoped winFacts10.arr_inj c, rest_split]
  unfold Pipeline.prefHeld
  rw [Gen.bigSep_W10, Gen.bigSep_W10]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v38) ↦{fullShare} G 1)) := by
  rw [Pipeline.arrays_eq (fun _ : Fin 1 => cfgA m) (fun _ c => dat0 m c) 0 c arr_whole10 ((dat0 m c).share_full fun _ => rfl) G, Gen.bigSep_W10]

/-- What bypasses the region: every other unscoped buffer, at its contents on entry. -/
abbrev Z0 (c : Dev nD) : sProp 𝕄 := bigSep restZ fun b => ((c : Thread nD τ).loc b) ↦{fullShare} V25 m (Cert.Proof.KB.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V25 m (Cert.Proof.KB.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre10 c (fun _ => fullShare) (Cert.Proof.KB.tbl10 m)
          ∗ (dat0 m c).owesAt () 0 ∗ X0 m c ∗ Z0 m c) := by
  rw [held_split m c (V25 m (Cert.Proof.KB.outs m) c), arrays_two, ent_arg0, ent_arg1, ent_out,
    show V25 m (Cert.Proof.KB.outs m) c main_v36 = hTab m from ent_tab m (Cert.Proof.KB.outs m) c 0, show V25 m (Cert.Proof.KB.outs m) c main_v37 = tTab m from ent_tab m (Cert.Proof.KB.outs m) c 1]
  unfold Pipeline.prefHeld
  rw [Gen.bigSep_W10]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v38)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V25 m (Cert.Proof.KB.outs m) c) main_v38 o)
          ∗ (∃ W, owes (c : Thread nD τ) (0 : CellTallies nD τ sig Unit) W)) := by
  have hne : ∀ b : Ref sig .tc, b ≠ main_v38 →
      Function.update (V25 m (Cert.Proof.KB.outs m) c) (Proc.devRef .tc main_v38) o (Proc.devRef .tc b) = V25 m (Cert.Proof.KB.outs m) c b :=
    fun b hb => Function.update_of_ne (StableHlo.devRef_ne_of_ne hb) _ _
  have hz : (bigSep restZ fun b => (((c : Thread nD τ).loc b) ↦{fullShare} Function.update (V25 m (Cert.Proof.KB.outs m) c) (Proc.devRef .tc main_v38) o b : sProp 𝕄))
      = Z0 m c :=
    BI.bigSep_congr fun b hb => by
      rw [hne b (fun e => by subst e; revert hb; decide)]
  rw [held_split m c (Function.update (V25 m (Cert.Proof.KB.outs m) c) main_v38 o), arrays_two, hz,
    hne main_arg1 (by decide), hne main_v36 (by decide), hne main_v37 (by decide), hne main_arg0 (by decide),
    Function.update_self, ent_arg0, ent_arg1,
    show V25 m (Cert.Proof.KB.outs m) c main_v36 = hTab m from ent_tab m (Cert.Proof.KB.outs m) c 0, show V25 m (Cert.Proof.KB.outs m) c main_v37 = tTab m from ent_tab m (Cert.Proof.KB.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec10 osem := by decide

/-- What region 0 leaves in the output's array, by name: the fold of its write-backs. -/
theorem outs6 (c : Dev nD) : Cert.Proof.KB.outs m 26 main_v38 c = (dat0 m c).arrAt 1 (cfgA m).N :=
  Pipeline.withArrays_arr spec10 winFacts10.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KB.adm m) (Cert.Proof.KB.pdats m) () defs₀ Variants.none
      Cert.Proof.KB.L Cert.Proof.KB.lv (10 : Fin 16) where
  win := (launch10 (F := F)).win.to₀
  block_pos := (launch10 (F := F)).block_pos
  stage_whole := (launch10 (F := F)).stage_whole
  K := Fin 2
  osem := osem
  ho := ownSemFacts
  hbody c := (body_obligation m hH hTl c).loose
  hwaits := Pipeline.hwaits_of_owed_zero _ _ _ _ Cert.Proof.KB.L Cert.Proof.KB.lv (10 : Fin 16) fun _ _ => rfl
  pre c := iprop(StableHlo.held (c : Thread nD τ) (Pipeline.ucRefs τ sig) (V25 m (Cert.Proof.KB.outs m) c) ∗ Cert.Proof.KB.E 10 c)
  post c := iprop(StableHlo.held (c : Thread nD τ) (Pipeline.ucRefs τ sig) (V26 m (Cert.Proof.KB.outs m) c) ∗ Cert.Proof.KB.E 11 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KB.outs m 26 main_v38 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V25 m (Cert.Proof.KB.outs m) c) ∗ Cert.Proof.KB.E 10 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V26 m (Cert.Proof.KB.outs m) c) ∗ Cert.Proof.KB.E 11 c) := .rfl

end Cert.Proof.KB10

end
-- ==== Proof.KB11Chains.lean ====
/-
  Region 11 is entered from the valuation after item 26 of @main. No earlier item writes the node table, the relation row,
  the region's output array or the padded index rows, and the region's two tables are the slices cut out of the padded
  rows at offset 720896: each buffer the region is handed holds a function of the launch memory alone.
-/
import proofs.«414028_j29231547417249_2_alg».proof.Proof.KBAdm
import Idealize.ShloMosaic.Lib.StableHlo.Run

set_option maxRecDepth 4096

noncomputable section

namespace Cert.Proof.KB11

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V27 m outs c main_arg0 = m ((c : Thread nD τ).loc main_arg0) :=
  (V27_of m outs c main_arg0 (by decide)).trans <| (V26_of m outs c main_arg0 (by decide)).trans <| (V25_of m outs c main_arg0 (by decide)).trans <| (V24_of m outs c main_arg0 (by decide)).trans <| (V23_of m outs c main_arg0 (by decide)).trans <| (V22_of m outs c main_arg0 (by decide)).trans <| (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V27 m outs c main_arg1 = m ((c : Thread nD τ).loc main_arg1) :=
  (V27_of m outs c main_arg1 (by decide)).trans <| (V26_of m outs c main_arg1 (by decide)).trans <| (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V27 m outs c main_v41 = m ((c : Thread nD τ).loc main_v41) :=
  (V27_of m outs c main_v41 (by decide)).trans <| (V26_of m outs c main_v41 (by decide)).trans <| (V25_of m outs c main_v41 (by decide)).trans <| (V24_of m outs c main_v41 (by decide)).trans <| (V23_of m outs c main_v41 (by decide)).trans <| (V22_of m outs c main_v41 (by decide)).trans <| (V21_of m outs c main_v41 (by decide)).trans <| (V20_of m outs c main_v41 (by decide)).trans <| (V19_of m outs c main_v41 (by decide)).trans <| (V18_of m outs c main_v41 (by decide)).trans <| (V17_of m outs c main_v41 (by decide)).trans <| (V16_of m outs c main_v41 (by decide)).trans <| (V15_of m outs c main_v41 (by decide)).trans <| (V14_of m outs c main_v41 (by decide)).trans <| (V13_of m outs c main_v41 (by decide)).trans <| (V12_of m outs c main_v41 (by decide)).trans <| (V11_of m outs c main_v41 (by decide)).trans <| (V10_of m outs c main_v41 (by decide)).trans <| (V9_of m outs c main_v41 (by decide)).trans <| (V8_of m outs c main_v41 (by decide)).trans <| (V7_of m outs c main_v41 (by decide)).trans <| (V6_of m outs c main_v41 (by decide)).trans <| (V5_of m c main_v41 (by decide)).trans <| (V4_of m c main_v41 (by decide)).trans <| (V3_of m c main_v41 (by decide)).trans <| (V2_of m c main_v41 (by decide)).trans <| (V1_of m c main_v41 (by decide)).trans <| rfl
/-- The stretch before the region cuts the table out of the padded row, whatever the valuation it runs from. -/
theorem slice_h (X : Valuation τ sig (Elt F)) :
    StableHlo.after (hostOps11 (F := F)) X (Proc.devRef .tc main_v39)
      = extractStridedSlice S65536 ![720896] (X (Proc.devRef .tc main_v4)) slices_S1048576_S65536_720896 := by
  after_results
/-- The stretch before the region cuts the table out of the padded row, whatever the valuation it runs from. -/
theorem slice_t (X : Valuation τ sig (Elt F)) :
    StableHlo.after (hostOps11 (F := F)) X (Proc.devRef .tc main_v40)
      = extractStridedSlice S65536 ![720896] (X (Proc.devRef .tc main_v5)) slices_S1048576_S65536_720896 := by
  after_results
theorem ent_tab0 (c : Dev nD) : V27 m outs c main_v39 = Cert.Proof.KB.tv11 m main_v39 := by
  obtain rfl : c = (0 : Dev nD) := Subsingleton.elim _ _
  have e : V26 m outs (0 : Dev nD) main_v4 = V5 m (0 : Dev nD) main_v4 :=
    (V26_of m outs (0 : Dev nD) main_v4 (by decide)).trans <| (V25_of m outs (0 : Dev nD) main_v4 (by decide)).trans <| (V24_of m outs (0 : Dev nD) main_v4 (by decide)).trans <| (V23_of m outs (0 : Dev nD) main_v4 (by decide)).trans <| (V22_of m outs (0 : Dev nD) main_v4 (by decide)).trans <| (V21_of m outs (0 : Dev nD) main_v4 (by decide)).trans <| (V20_of m outs (0 : Dev nD) main_v4 (by decide)).trans <| (V19_of m outs (0 : Dev nD) main_v4 (by decide)).trans <| (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V26 m outs (0 : Dev nD))).trans ((congrArg (extractStridedSlice S65536 ![720896] · slices_S1048576_S65536_720896) e).trans (slice_h (V5 m (0 : Dev nD))).symm)
theorem ent_tab1 (c : Dev nD) : V27 m outs c main_v40 = Cert.Proof.KB.tv11 m main_v40 := by
  obtain rfl : c = (0 : Dev nD) := Subsingleton.elim _ _
  have e : V26 m outs (0 : Dev nD) main_v5 = V5 m (0 : Dev nD) main_v5 :=
    (V26_of m outs (0 : Dev nD) main_v5 (by decide)).trans <| (V25_of m outs (0 : Dev nD) main_v5 (by decide)).trans <| (V24_of m outs (0 : Dev nD) main_v5 (by decide)).trans <| (V23_of m outs (0 : Dev nD) main_v5 (by decide)).trans <| (V22_of m outs (0 : Dev nD) main_v5 (by decide)).trans <| (V21_of m outs (0 : Dev nD) main_v5 (by decide)).trans <| (V20_of m outs (0 : Dev nD) main_v5 (by decide)).trans <| (V19_of m outs (0 : Dev nD) main_v5 (by decide)).trans <| (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V26 m outs (0 : Dev nD))).trans ((congrArg (extractStridedSlice S65536 ![720896] · slices_S1048576_S65536_720896) e).trans (slice_t (V5 m (0 : Dev nD))).symm)
theorem ent_tab (c : Dev nD) (k : Fin 2) : V27 m outs c (pre11.ref k) = Cert.Proof.KB.tbl11 m k :=
  match k with
  | ⟨0, _⟩ => ent_tab0 m outs c
  | ⟨1, _⟩ => ent_tab1 m outs c

end Cert.Proof.KB11

end
-- ==== Proof.KB11Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.Kernel
import proofs.«414028_j29231547417249_2_alg».proof.Proof.Gen.Kernel.Launch
import Idealize.ShloMosaic.Lib.Pipeline.Dat

noncomputable section

namespace Cert.Proof.KB11

open Cert.Kernel Cert.Kernel.Gen Idealize.ShloMosaic

variable {F : FTy → Type} [FloatOps F] (a : (pcfg11 (F := F)).Adm)

/-! ## The points and their coordinates -/

theorem N_eq : (cfg11 a).N = 65536 := N_11

theorem lt_N (t : Fin (cfg11 a).N) : t.val < 65536 := Nat.lt_of_lt_of_eq t.isLt (N_eq a)

/-- Each value of the first coordinate is shared by 128 consecutive points, each value of the second by one. -/
theorem stride0 : grid11.stride 0 = 128 := by decide
theorem stride1 : grid11.stride 1 = 1 := by decide

theorem coords0 (t : Fin (cfg11 a).N) : (((cfg11 a).grid.coords t) 0).val = t.val / 128 := by
  have ht := lt_N a t
  show t.val / grid11.stride 0 % 512 = t.val / 128
  rw [stride0]; omega

theorem coords1 (t : Fin (cfg11 a).N) : (((cfg11 a).grid.coords t) 1).val = t.val % 128 := by
  show t.val / grid11.stride 1 % 128 = t.val % 128
  rw [stride1, Nat.div_one]

theorem flat_eq (t : Fin (cfg11 a).N) :
    (((cfg11 a).grid.coords t) 0).val * 128 + (((cfg11 a).grid.coords t) 1).val = t.val := by
  rw [coords0, coords1]; omega

/-! ## The windows' block indices -/

/-- Window 0's block index is constant. -/
theorem index0 (s t : Fin (cfg11 a).N) : ((cfg11 a).win 0).index s = ((cfg11 a).win 0).index t := rfl

/-- Window 1's block index at a point is the point's first coordinate. -/
theorem index1 (s : Fin (cfg11 a).N) : ((cfg11 a).win 1).index s = ![s.val / 128] := by
  have hs := lt_N a s
  show ![(BitVec.ofNat 32 (((cfg11 a).grid.coords s) 0).val).toNat] = ![s.val / 128]
  rw [coords0 a s, BitVec.toNat_ofNat, Nat.mod_eq_of_lt (by omega)]

/-! ## Fetches and write-backs -/

theorem fetch0 (t : Fin (cfg11 a).N) : ((cfg11 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg11 a).N) : ((cfg11 a).win 1).fetch t = false := by
  unfold Pipeline.Window.fetch
  show (!true && _) = false
  rfl

theorem flush0 (t : Fin (cfg11 a).N) : ((cfg11 a).win 0).flush t = false := by
  unfold Pipeline.Window.flush
  show (false && _) = false
  rfl

theorem flush1 (t : Fin (cfg11 a).N) : ((cfg11 a).win 1).flush t = decide (t.val % 128 = 127) := by
  have ht := lt_N a t
  have hN : (cfg11 a).grid.N = 65536 := N_eq a
  unfold Pipeline.Window.flush
  show (true && (decide (t.val + 1 = (cfg11 a).grid.N)
    || decide (∃ h : t.val + 1 < (cfg11 a).grid.N, ((cfg11 a).win 1).index ⟨t.val + 1, h⟩ ≠ ((cfg11 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg11 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg11 a).W) (t : Fin (cfg11 a).N) : (cfg11 a).idle w ((cfg11 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg11 a).N) :
    Scalar.cmpi .ne (Scalar.extui (Scalar.cmpi .eq (BitVec.ofNat 32 (((cfg11 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg11 a).N) (A : Vec F S1x256 .f32) (y : S1x256.Idx) :
    (((cfg11 a).win 0).blk t).view.read (Elt F) A y = A y := by
  show A ((((cfg11 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg11 a).N) (y : S128.Idx) :
    ((((cfg11 a).win 1).blk t).view.emb y (0 : Fin 1)).val = 128 * (t.val / 128) + (y 0).val := by
  have hi : ((cfg11 a).win 1).index t (0 : Fin 1) = t.val / 128 := by rw [index1]; rfl
  show ((cfg11 a).win 1).index t (0 : Fin 1) * 128 + 1 * (y 0).val = 128 * (t.val / 128) + (y 0).val
  rw [hi]; omega

end Cert.Proof.KB11

end
-- ==== Proof.KB11Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KB11Defs
import proofs.«414028_j29231547417249_2_alg».proof.Proof.Gen.Kernel.Launch
import Idealize.ShloMosaic.Lib.Tactic

noncomputable section

namespace Cert.Proof.KB11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k11_pay2 j (k11_pay6 X18 X19 X20) (k11_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k11_pay2 j (k11_pay6 X18 X19 X20) (k11_pay7 X18 X19 X20)
              (m.view.readCov [⟨Rect.unit (s := S128) ![0] S128.size inb_S128_S128_0, k11_pay1 (F := F)⟩]
                (Rect.unit (s := S128) ![0] S128.size inb_S128_S128_0).toLoadRect)⟩,
          ⟨Rect.unit (s := S128) ![0] S128.size inb_S128_S128_0, k11_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid11.Coords) (M5 : Memref sig .tc .vmem S1x256 .f32) (h5 : M5.IsWhole) (M6 : Memref sig .tc .vmem S128 .f32) (h6 : M6.IsWhole)
    (hT : Bf (F := F) c (Memref.whole main_v39)) (tT : Bf (F := F) c (Memref.whole main_v40)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v39) hT ∗ pt c (Memref.whole main_v40) tT ∗ nodeSh c node
      ∗ (∃ s0, pt c (Memref.whole cc11_scratch0) s0) ∗ (∃ s1, pt c (Memref.whole cc11_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v39) hT ∗ pt c (Memref.whole main_v40) tT ∗ nodeSh c node
          ∗ (∃ s0, pt c (Memref.whole cc11_scratch0) s0) ∗ (∃ s1, pt c (Memref.whole cc11_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc11__lookup_kernel i (Memref.whole main_v39) (Memref.isWhole_whole _) (Memref.whole main_v40) (Memref.isWhole_whole _) (Memref.whole main_arg0) (Memref.isWhole_whole _)
          M5 h5 M6 h6 (Memref.whole cc11_scratch0) (Memref.isWhole_whole _) (Memref.whole cc11_scratch1) (Memref.isWhole_whole _) cc11_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid11.Coords) (M5 : Memref sig .tc .vmem S1x256 .f32) (h5 : M5.IsWhole) (M6 : Memref sig .tc .vmem S128 .f32) (h6 : M6.IsWhole)
    (hT : Bf (F := F) c (Memref.whole main_v39)) (tT : Bf (F := F) c (Memref.whole main_v40)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v39) hT ∗ pt c (Memref.whole main_v40) tT ∗ nodeSh c node
      ∗ (∃ s0, pt c (Memref.whole cc11_scratch0) s0) ∗ (∃ s1, pt c (Memref.whole cc11_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v39) hT ∗ pt c (Memref.whole main_v40) tT ∗ nodeSh c node
          ∗ (∃ s0, pt c (Memref.whole cc11_scratch0) s0) ∗ (∃ s1, pt c (Memref.whole cc11_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc11__lookup_kernel i (Memref.whole main_v39) (Memref.isWhole_whole _) (Memref.whole main_v40) (Memref.isWhole_whole _) (Memref.whole main_arg0) (Memref.isWhole_whole _)
          M5 h5 M6 h6 (Memref.whole cc11_scratch0) (Memref.isWhole_whole _) (Memref.whole cc11_scratch1) (Memref.isWhole_whole _) cc11_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KB11

end
-- ==== Proof.KB11Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KB11Data
import proofs.«414028_j29231547417249_2_alg».proof.Proof.KB11Points
import proofs.«414028_j29231547417249_2_alg».proof.Proof.KB11Body
import proofs.«414028_j29231547417249_2_alg».proof.Proof.Gen.Kernel.Launch
import Idealize.ShloMosaic.Lib.Pipeline.Frame

noncomputable section

namespace Cert.Proof.KB11

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W11, bigSep_W11]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec11_0.stage ((cfgA m).slots t 0)) (hstage11_0 (((cfgA m).slots t 0).cast nbuf11_0))
      (spec11_1.stage ((cfgA m).slots t 1)) (hstage11_1 (((cfgA m).slots t 1).cast nbuf11_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec11_0.stage ((cfgA m).slots t 0)) (hstage11_0 (((cfgA m).slots t 0).cast nbuf11_0))
      (spec11_1.stage ((cfgA m).slots t 1)) (hstage11_1 (((cfgA m).slots t 1).cast nbuf11_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KB11

end
-- ==== Proof.KB11Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KBDats
import proofs.«414028_j29231547417249_2_alg».proof.Proof.KBThread
import proofs.«414028_j29231547417249_2_alg».proof.Proof.KB11Chains
import proofs.«414028_j29231547417249_2_alg».proof.Proof.KB11Oblig
import proofs.«414028_j29231547417249_2_alg».proof.Proof.Gen.Kernel.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KB11

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 58 | 1 => .dma 59

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W11] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v39) (hTab m) ∗ pt c (Memref.whole main_v40) (tTab m))

/-- The invariant at the first point: the node table split into its shares, the tables, the two scratch rows out of the
    scoped rest. -/
theorem hin0 (c : Dev nD) :
    iprop(X0 m c ∗ Pipeline.prefHeld pre11 c (fun _ => fullShare) (Cert.Proof.KB.tbl11 m)
        ∗ Pipeline.scopedRest (Ix := Unit) (Name := ℕ) (U := UC) (Lvl := ℕ) (Val := Elt F) spec11 c)
      ⊢ Φv m c := by
  unfold Φv Pipeline.prefHeld
  rw [Gen.bigSep_W11, Gen.scopedRest11_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec11 c) := by
  unfold Φv
  rw [Gen.scopedRest11_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre11 spec11 \ {main_arg0}

theorem node_mem_rest : ({main_arg0} : Finset (Ref sig .tc)) ⊆ Pipeline.restRefsP sig pre11 spec11 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec11 c V : sProp 𝕄)
      = iprop(Pipeline.prefHeld pre11 c (fun _ => fullShare) (fun k => V (pre11.ref k))
          ∗ (((c : Thread nD τ).loc main_arg0) ↦{fullShare} V main_arg0)
          ∗ bigSep restZ fun b => ((c : Thread nD τ).loc b) ↦{fullShare} V b) := by
  rw [Pipeline.unscopedRest_split preFacts11 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v41) ↦{fullShare} V main_v41))
          ∗ ((((c : Thread nD τ).loc main_v39) ↦{fullShare} V main_v39) ∗ (((c : Thread nD τ).loc main_v40) ↦{fullShare} V main_v40))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts11.arr_unscoped winFacts11.arr_inj c, rest_split]
  unfold Pipeline.prefHeld
  rw [Gen.bigSep_W11, Gen.bigSep_W11]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v41) ↦{fullShare} G 1)) := by
  rw [Pipeline.arrays_eq (fun _ : Fin 1 => cfgA m) (fun _ c => dat0 m c) 0 c arr_whole11 ((dat0 m c).share_full fun _ => rfl) G, Gen.bigSep_W11]

/-- What bypasses the region: every other unscoped buffer, at its contents on entry. -/
abbrev Z0 (c : Dev nD) : sProp 𝕄 := bigSep restZ fun b => ((c : Thread nD τ).loc b) ↦{fullShare} V27 m (Cert.Proof.KB.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V27 m (Cert.Proof.KB.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre11 c (fun _ => fullShare) (Cert.Proof.KB.tbl11 m)
          ∗ (dat0 m c).owesAt () 0 ∗ X0 m c ∗ Z0 m c) := by
  rw [held_split m c (V27 m (Cert.Proof.KB.outs m) c), arrays_two, ent_arg0, ent_arg1, ent_out,
    show V27 m (Cert.Proof.KB.outs m) c main_v39 = hTab m from ent_tab m (Cert.Proof.KB.outs m) c 0, show V27 m (Cert.Proof.KB.outs m) c main_v40 = tTab m from ent_tab m (Cert.Proof.KB.outs m) c 1]
  unfold Pipeline.prefHeld
  rw [Gen.bigSep_W11]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v41)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V27 m (Cert.Proof.KB.outs m) c) main_v41 o)
          ∗ (∃ W, owes (c : Thread nD τ) (0 : CellTallies nD τ sig Unit) W)) := by
  have hne : ∀ b : Ref sig .tc, b ≠ main_v41 →
      Function.update (V27 m (Cert.Proof.KB.outs m) c) (Proc.devRef .tc main_v41) o (Proc.devRef .tc b) = V27 m (Cert.Proof.KB.outs m) c b :=
    fun b hb => Function.update_of_ne (StableHlo.devRef_ne_of_ne hb) _ _
  have hz : (bigSep restZ fun b => (((c : Thread nD τ).loc b) ↦{fullShare} Function.update (V27 m (Cert.Proof.KB.outs m) c) (Proc.devRef .tc main_v41) o b : sProp 𝕄))
      = Z0 m c :=
    BI.bigSep_congr fun b hb => by
      rw [hne b (fun e => by subst e; revert hb; decide)]
  rw [held_split m c (Function.update (V27 m (Cert.Proof.KB.outs m) c) main_v41 o), arrays_two, hz,
    hne main_arg1 (by decide), hne main_v39 (by decide), hne main_v40 (by decide), hne main_arg0 (by decide),
    Function.update_self, ent_arg0, ent_arg1,
    show V27 m (Cert.Proof.KB.outs m) c main_v39 = hTab m from ent_tab m (Cert.Proof.KB.outs m) c 0, show V27 m (Cert.Proof.KB.outs m) c main_v40 = tTab m from ent_tab m (Cert.Proof.KB.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec11 osem := by decide

/-- What region 0 leaves in the output's array, by name: the fold of its write-backs. -/
theorem outs6 (c : Dev nD) : Cert.Proof.KB.outs m 28 main_v41 c = (dat0 m c).arrAt 1 (cfgA m).N :=
  Pipeline.withArrays_arr spec11 winFacts11.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KB.adm m) (Cert.Proof.KB.pdats m) () defs₀ Variants.none
      Cert.Proof.KB.L Cert.Proof.KB.lv (11 : Fin 16) where
  win := (launch11 (F := F)).win.to₀
  block_pos := (launch11 (F := F)).block_pos
  stage_whole := (launch11 (F := F)).stage_whole
  K := Fin 2
  osem := osem
  ho := ownSemFacts
  hbody c := (body_obligation m hH hTl c).loose
  hwaits := Pipeline.hwaits_of_owed_zero _ _ _ _ Cert.Proof.KB.L Cert.Proof.KB.lv (11 : Fin 16) fun _ _ => rfl
  pre c := iprop(StableHlo.held (c : Thread nD τ) (Pipeline.ucRefs τ sig) (V27 m (Cert.Proof.KB.outs m) c) ∗ Cert.Proof.KB.E 11 c)
  post c := iprop(StableHlo.held (c : Thread nD τ) (Pipeline.ucRefs τ sig) (V28 m (Cert.Proof.KB.outs m) c) ∗ Cert.Proof.KB.E 12 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KB.outs m 28 main_v41 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V27 m (Cert.Proof.KB.outs m) c) ∗ Cert.Proof.KB.E 11 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V28 m (Cert.Proof.KB.outs m) c) ∗ Cert.Proof.KB.E 12 c) := .rfl

end Cert.Proof.KB11

end
-- ==== Proof.KB12Chains.lean ====
/-
  Region 12 is entered from the valuation after item 28 of @main. No earlier item writes the node table, the relation row,
  the region's output array or the padded index rows, and the region's two tables are the slices cut out of the padded
  rows at offset 786432: each buffer the region is handed holds a function of the launch memory alone.
-/
import proofs.«414028_j29231547417249_2_alg».proof.Proof.KBAdm
import Idealize.ShloMosaic.Lib.StableHlo.Run

set_option maxRecDepth 4096

noncomputable section

namespace Cert.Proof.KB12

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V29 m outs c main_arg0 = m ((c : Thread nD τ).loc main_arg0) :=
  (V29_of m outs c main_arg0 (by decide)).trans <| (V28_of m outs c main_arg0 (by decide)).trans <| (V27_of m outs c main_arg0 (by decide)).trans <| (V26_of m outs c main_arg0 (by decide)).trans <| (V25_of m outs c main_arg0 (by decide)).trans <| (V24_of m outs c main_arg0 (by decide)).trans <| (V23_of m outs c main_arg0 (by decide)).trans <| (V22_of m outs c main_arg0 (by decide)).trans <| (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V29 m outs c main_arg1 = m ((c : Thread nD τ).loc main_arg1) :=
  (V29_of m outs c main_arg1 (by decide)).trans <| (V28_of m outs c main_arg1 (by decide)).trans <| (V27_of m outs c main_arg1 (by decide)).trans <| (V26_of m outs c main_arg1 (by decide)).trans <| (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V29 m outs c main_v44 = m ((c : Thread nD τ).loc main_v44) :=
  (V29_of m outs c main_v44 (by decide)).trans <| (V28_of m outs c main_v44 (by decide)).trans <| (V27_of m outs c main_v44 (by decide)).trans <| (V26_of m outs c main_v44 (by decide)).trans <| (V25_of m outs c main_v44 (by decide)).trans <| (V24_of m outs c main_v44 (by decide)).trans <| (V23_of m outs c main_v44 (by decide)).trans <| (V22_of m outs c main_v44 (by decide)).trans <| (V21_of m outs c main_v44 (by decide)).trans <| (V20_of m outs c main_v44 (by decide)).trans <| (V19_of m outs c main_v44 (by decide)).trans <| (V18_of m outs c main_v44 (by decide)).trans <| (V17_of m outs c main_v44 (by decide)).trans <| (V16_of m outs c main_v44 (by decide)).trans <| (V15_of m outs c main_v44 (by decide)).trans <| (V14_of m outs c main_v44 (by decide)).trans <| (V13_of m outs c main_v44 (by decide)).trans <| (V12_of m outs c main_v44 (by decide)).trans <| (V11_of m outs c main_v44 (by decide)).trans <| (V10_of m outs c main_v44 (by decide)).trans <| (V9_of m outs c main_v44 (by decide)).trans <| (V8_of m outs c main_v44 (by decide)).trans <| (V7_of m outs c main_v44 (by decide)).trans <| (V6_of m outs c main_v44 (by decide)).trans <| (V5_of m c main_v44 (by decide)).trans <| (V4_of m c main_v44 (by decide)).trans <| (V3_of m c main_v44 (by decide)).trans <| (V2_of m c main_v44 (by decide)).trans <| (V1_of m c main_v44 (by decide)).trans <| rfl
/-- The stretch before the region cuts the table out of the padded row, whatever the valuation it runs from. -/
theorem slice_h (X : Valuation τ sig (Elt F)) :
    StableHlo.after (hostOps12 (F := F)) X (Proc.devRef .tc main_v42)
      = extractStridedSlice S65536 ![786432] (X (Proc.devRef .tc main_v4)) slices_S1048576_S65536_786432 := by
  after_results
/-- The stretch before the region cuts the table out of the padded row, whatever the valuation it runs from. -/
theorem slice_t (X : Valuation τ sig (Elt F)) :
    StableHlo.after (hostOps12 (F := F)) X (Proc.devRef .tc main_v43)
      = extractStridedSlice S65536 ![786432] (X (Proc.devRef .tc main_v5)) slices_S1048576_S65536_786432 := by
  after_results
theorem ent_tab0 (c : Dev nD) : V29 m outs c main_v42 = Cert.Proof.KB.tv12 m main_v42 := by
  obtain rfl : c = (0 : Dev nD) := Subsingleton.elim _ _
  have e : V28 m outs (0 : Dev nD) main_v4 = V5 m (0 : Dev nD) main_v4 :=
    (V28_of m outs (0 : Dev nD) main_v4 (by decide)).trans <| (V27_of m outs (0 : Dev nD) main_v4 (by decide)).trans <| (V26_of m outs (0 : Dev nD) main_v4 (by decide)).trans <| (V25_of m outs (0 : Dev nD) main_v4 (by decide)).trans <| (V24_of m outs (0 : Dev nD) main_v4 (by decide)).trans <| (V23_of m outs (0 : Dev nD) main_v4 (by decide)).trans <| (V22_of m outs (0 : Dev nD) main_v4 (by decide)).trans <| (V21_of m outs (0 : Dev nD) main_v4 (by decide)).trans <| (V20_of m outs (0 : Dev nD) main_v4 (by decide)).trans <| (V19_of m outs (0 : Dev nD) main_v4 (by decide)).trans <| (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V28 m outs (0 : Dev nD))).trans ((congrArg (extractStridedSlice S65536 ![786432] · slices_S1048576_S65536_786432) e).trans (slice_h (V5 m (0 : Dev nD))).symm)
theorem ent_tab1 (c : Dev nD) : V29 m outs c main_v43 = Cert.Proof.KB.tv12 m main_v43 := by
  obtain rfl : c = (0 : Dev nD) := Subsingleton.elim _ _
  have e : V28 m outs (0 : Dev nD) main_v5 = V5 m (0 : Dev nD) main_v5 :=
    (V28_of m outs (0 : Dev nD) main_v5 (by decide)).trans <| (V27_of m outs (0 : Dev nD) main_v5 (by decide)).trans <| (V26_of m outs (0 : Dev nD) main_v5 (by decide)).trans <| (V25_of m outs (0 : Dev nD) main_v5 (by decide)).trans <| (V24_of m outs (0 : Dev nD) main_v5 (by decide)).trans <| (V23_of m outs (0 : Dev nD) main_v5 (by decide)).trans <| (V22_of m outs (0 : Dev nD) main_v5 (by decide)).trans <| (V21_of m outs (0 : Dev nD) main_v5 (by decide)).trans <| (V20_of m outs (0 : Dev nD) main_v5 (by decide)).trans <| (V19_of m outs (0 : Dev nD) main_v5 (by decide)).trans <| (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V28 m outs (0 : Dev nD))).trans ((congrArg (extractStridedSlice S65536 ![786432] · slices_S1048576_S65536_786432) e).trans (slice_t (V5 m (0 : Dev nD))).symm)
theorem ent_tab (c : Dev nD) (k : Fin 2) : V29 m outs c (pre12.ref k) = Cert.Proof.KB.tbl12 m k :=
  match k with
  | ⟨0, _⟩ => ent_tab0 m outs c
  | ⟨1, _⟩ => ent_tab1 m outs c

end Cert.Proof.KB12

end
-- ==== Proof.KB12Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.Kernel
import proofs.«414028_j29231547417249_2_alg».proof.Proof.Gen.Kernel.Launch
import Idealize.ShloMosaic.Lib.Pipeline.Dat

noncomputable section

namespace Cert.Proof.KB12

open Cert.Kernel Cert.Kernel.Gen Idealize.ShloMosaic

variable {F : FTy → Type} [FloatOps F] (a : (pcfg12 (F := F)).Adm)

/-! ## The points and their coordinates -/

theorem N_eq : (cfg12 a).N = 65536 := N_12

theorem lt_N (t : Fin (cfg12 a).N) : t.val < 65536 := Nat.lt_of_lt_of_eq t.isLt (N_eq a)

/-- Each value of the first coordinate is shared by 128 consecutive points, each value of the second by one. -/
theorem stride0 : grid12.stride 0 = 128 := by decide
theorem stride1 : grid12.stride 1 = 1 := by decide

theorem coords0 (t : Fin (cfg12 a).N) : (((cfg12 a).grid.coords t) 0).val = t.val / 128 := by
  have ht := lt_N a t
  show t.val / grid12.stride 0 % 512 = t.val / 128
  rw [stride0]; omega

theorem coords1 (t : Fin (cfg12 a).N) : (((cfg12 a).grid.coords t) 1).val = t.val % 128 := by
  show t.val / grid12.stride 1 % 128 = t.val % 128
  rw [stride1, Nat.div_one]

theorem flat_eq (t : Fin (cfg12 a).N) :
    (((cfg12 a).grid.coords t) 0).val * 128 + (((cfg12 a).grid.coords t) 1).val = t.val := by
  rw [coords0, coords1]; omega

/-! ## The windows' block indices -/

/-- Window 0's block index is constant. -/
theorem index0 (s t : Fin (cfg12 a).N) : ((cfg12 a).win 0).index s = ((cfg12 a).win 0).index t := rfl

/-- Window 1's block index at a point is the point's first coordinate. -/
theorem index1 (s : Fin (cfg12 a).N) : ((cfg12 a).win 1).index s = ![s.val / 128] := by
  have hs := lt_N a s
  show ![(BitVec.ofNat 32 (((cfg12 a).grid.coords s) 0).val).toNat] = ![s.val / 128]
  rw [coords0 a s, BitVec.toNat_ofNat, Nat.mod_eq_of_lt (by omega)]

/-! ## Fetches and write-backs -/

theorem fetch0 (t : Fin (cfg12 a).N) : ((cfg12 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg12 a).N) : ((cfg12 a).win 1).fetch t = false := by
  unfold Pipeline.Window.fetch
  show (!true && _) = false
  rfl

theorem flush0 (t : Fin (cfg12 a).N) : ((cfg12 a).win 0).flush t = false := by
  unfold Pipeline.Window.flush
  show (false && _) = false
  rfl

theorem flush1 (t : Fin (cfg12 a).N) : ((cfg12 a).win 1).flush t = decide (t.val % 128 = 127) := by
  have ht := lt_N a t
  have hN : (cfg12 a).grid.N = 65536 := N_eq a
  unfold Pipeline.Window.flush
  show (true && (decide (t.val + 1 = (cfg12 a).grid.N)
    || decide (∃ h : t.val + 1 < (cfg12 a).grid.N, ((cfg12 a).win 1).index ⟨t.val + 1, h⟩ ≠ ((cfg12 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg12 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg12 a).W) (t : Fin (cfg12 a).N) : (cfg12 a).idle w ((cfg12 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg12 a).N) :
    Scalar.cmpi .ne (Scalar.extui (Scalar.cmpi .eq (BitVec.ofNat 32 (((cfg12 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg12 a).N) (A : Vec F S1x256 .f32) (y : S1x256.Idx) :
    (((cfg12 a).win 0).blk t).view.read (Elt F) A y = A y := by
  show A ((((cfg12 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg12 a).N) (y : S128.Idx) :
    ((((cfg12 a).win 1).blk t).view.emb y (0 : Fin 1)).val = 128 * (t.val / 128) + (y 0).val := by
  have hi : ((cfg12 a).win 1).index t (0 : Fin 1) = t.val / 128 := by rw [index1]; rfl
  show ((cfg12 a).win 1).index t (0 : Fin 1) * 128 + 1 * (y 0).val = 128 * (t.val / 128) + (y 0).val
  rw [hi]; omega

end Cert.Proof.KB12

end
-- ==== Proof.KB12Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KB12Defs
import proofs.«414028_j29231547417249_2_alg».proof.Proof.Gen.Kernel.Launch
import Idealize.ShloMosaic.Lib.Tactic

noncomputable section

namespace Cert.Proof.KB12

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k12_pay2 j (k12_pay6 X18 X19 X20) (k12_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k12_pay2 j (k12_pay6 X18 X19 X20) (k12_pay7 X18 X19 X20)
              (m.view.readCov [⟨Rect.unit (s := S128) ![0] S128.size inb_S128_S128_0, k12_pay1 (F := F)⟩]
                (Rect.unit (s := S128) ![0] S128.size inb_S128_S128_0).toLoadRect)⟩,
          ⟨Rect.unit (s := S128) ![0] S128.size inb_S128_S128_0, k12_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid12.Coords) (M5 : Memref sig .tc .vmem S1x256 .f32) (h5 : M5.IsWhole) (M6 : Memref sig .tc .vmem S128 .f32) (h6 : M6.IsWhole)
    (hT : Bf (F := F) c (Memref.whole main_v42)) (tT : Bf (F := F) c (Memref.whole main_v43)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v42) hT ∗ pt c (Memref.whole main_v43) tT ∗ nodeSh c node
      ∗ (∃ s0, pt c (Memref.whole cc12_scratch0) s0) ∗ (∃ s1, pt c (Memref.whole cc12_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v42) hT ∗ pt c (Memref.whole main_v43) tT ∗ nodeSh c node
          ∗ (∃ s0, pt c (Memref.whole cc12_scratch0) s0) ∗ (∃ s1, pt c (Memref.whole cc12_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc12__lookup_kernel i (Memref.whole main_v42) (Memref.isWhole_whole _) (Memref.whole main_v43) (Memref.isWhole_whole _) (Memref.whole main_arg0) (Memref.isWhole_whole _)
          M5 h5 M6 h6 (Memref.whole cc12_scratch0) (Memref.isWhole_whole _) (Memref.whole cc12_scratch1) (Memref.isWhole_whole _) cc12_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid12.Coords) (M5 : Memref sig .tc .vmem S1x256 .f32) (h5 : M5.IsWhole) (M6 : Memref sig .tc .vmem S128 .f32) (h6 : M6.IsWhole)
    (hT : Bf (F := F) c (Memref.whole main_v42)) (tT : Bf (F := F) c (Memref.whole main_v43)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v42) hT ∗ pt c (Memref.whole main_v43) tT ∗ nodeSh c node
      ∗ (∃ s0, pt c (Memref.whole cc12_scratch0) s0) ∗ (∃ s1, pt c (Memref.whole cc12_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v42) hT ∗ pt c (Memref.whole main_v43) tT ∗ nodeSh c node
          ∗ (∃ s0, pt c (Memref.whole cc12_scratch0) s0) ∗ (∃ s1, pt c (Memref.whole cc12_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc12__lookup_kernel i (Memref.whole main_v42) (Memref.isWhole_whole _) (Memref.whole main_v43) (Memref.isWhole_whole _) (Memref.whole main_arg0) (Memref.isWhole_whole _)
          M5 h5 M6 h6 (Memref.whole cc12_scratch0) (Memref.isWhole_whole _) (Memref.whole cc12_scratch1) (Memref.isWhole_whole _) cc12_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KB12

end
-- ==== Proof.KB12Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KB12Data
import proofs.«414028_j29231547417249_2_alg».proof.Proof.KB12Points
import proofs.«414028_j29231547417249_2_alg».proof.Proof.KB12Body
import proofs.«414028_j29231547417249_2_alg».proof.Proof.Gen.Kernel.Launch
import Idealize.ShloMosaic.Lib.Pipeline.Frame

noncomputable section

namespace Cert.Proof.KB12

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W12, bigSep_W12]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec12_0.stage ((cfgA m).slots t 0)) (hstage12_0 (((cfgA m).slots t 0).cast nbuf12_0))
      (spec12_1.stage ((cfgA m).slots t 1)) (hstage12_1 (((cfgA m).slots t 1).cast nbuf12_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec12_0.stage ((cfgA m).slots t 0)) (hstage12_0 (((cfgA m).slots t 0).cast nbuf12_0))
      (spec12_1.stage ((cfgA m).slots t 1)) (hstage12_1 (((cfgA m).slots t 1).cast nbuf12_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KB12

end
-- ==== Proof.KB12Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KBDats
import proofs.«414028_j29231547417249_2_alg».proof.Proof.KBThread
import proofs.«414028_j29231547417249_2_alg».proof.Proof.KB12Chains
import proofs.«414028_j29231547417249_2_alg».proof.Proof.KB12Oblig
import proofs.«414028_j29231547417249_2_alg».proof.Proof.Gen.Kernel.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KB12

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 63 | 1 => .dma 64

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W12] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v42) (hTab m) ∗ pt c (Memref.whole main_v43) (tTab m))

/-- The invariant at the first point: the node table split into its shares, the tables, the two scratch rows out of the
    scoped rest. -/
theorem hin0 (c : Dev nD) :
    iprop(X0 m c ∗ Pipeline.prefHeld pre12 c (fun _ => fullShare) (Cert.Proof.KB.tbl12 m)
        ∗ Pipeline.scopedRest (Ix := Unit) (Name := ℕ) (U := UC) (Lvl := ℕ) (Val := Elt F) spec12 c)
      ⊢ Φv m c := by
  unfold Φv Pipeline.prefHeld
  rw [Gen.bigSep_W12, Gen.scopedRest12_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec12 c) := by
  unfold Φv
  rw [Gen.scopedRest12_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre12 spec12 \ {main_arg0}

theorem node_mem_rest : ({main_arg0} : Finset (Ref sig .tc)) ⊆ Pipeline.restRefsP sig pre12 spec12 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec12 c V : sProp 𝕄)
      = iprop(Pipeline.prefHeld pre12 c (fun _ => fullShare) (fun k => V (pre12.ref k))
          ∗ (((c : Thread nD τ).loc main_arg0) ↦{fullShare} V main_arg0)
          ∗ bigSep restZ fun b => ((c : Thread nD τ).loc b) ↦{fullShare} V b) := by
  rw [Pipeline.unscopedRest_split preFacts12 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v44) ↦{fullShare} V main_v44))
          ∗ ((((c : Thread nD τ).loc main_v42) ↦{fullShare} V main_v42) ∗ (((c : Thread nD τ).loc main_v43) ↦{fullShare} V main_v43))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts12.arr_unscoped winFacts12.arr_inj c, rest_split]
  unfold Pipeline.prefHeld
  rw [Gen.bigSep_W12, Gen.bigSep_W12]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v44) ↦{fullShare} G 1)) := by
  rw [Pipeline.arrays_eq (fun _ : Fin 1 => cfgA m) (fun _ c => dat0 m c) 0 c arr_whole12 ((dat0 m c).share_full fun _ => rfl) G, Gen.bigSep_W12]

/-- What bypasses the region: every other unscoped buffer, at its contents on entry. -/
abbrev Z0 (c : Dev nD) : sProp 𝕄 := bigSep restZ fun b => ((c : Thread nD τ).loc b) ↦{fullShare} V29 m (Cert.Proof.KB.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V29 m (Cert.Proof.KB.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre12 c (fun _ => fullShare) (Cert.Proof.KB.tbl12 m)
          ∗ (dat0 m c).owesAt () 0 ∗ X0 m c ∗ Z0 m c) := by
  rw [held_split m c (V29 m (Cert.Proof.KB.outs m) c), arrays_two, ent_arg0, ent_arg1, ent_out,
    show V29 m (Cert.Proof.KB.outs m) c main_v42 = hTab m from ent_tab m (Cert.Proof.KB.outs m) c 0, show V29 m (Cert.Proof.KB.outs m) c main_v43 = tTab m from ent_tab m (Cert.Proof.KB.outs m) c 1]
  unfold Pipeline.prefHeld
  rw [Gen.bigSep_W12]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v44)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V29 m (Cert.Proof.KB.outs m) c) main_v44 o)
          ∗ (∃ W, owes (c : Thread nD τ) (0 : CellTallies nD τ sig Unit) W)) := by
  have hne : ∀ b : Ref sig .tc, b ≠ main_v44 →
      Function.update (V29 m (Cert.Proof.KB.outs m) c) (Proc.devRef .tc main_v44) o (Proc.devRef .tc b) = V29 m (Cert.Proof.KB.outs m) c b :=
    fun b hb => Function.update_of_ne (StableHlo.devRef_ne_of_ne hb) _ _
  have hz : (bigSep restZ fun b => (((c : Thread nD τ).loc b) ↦{fullShare} Function.update (V29 m (Cert.Proof.KB.outs m) c) (Proc.devRef .tc main_v44) o b : sProp 𝕄))
      = Z0 m c :=
    BI.bigSep_congr fun b hb => by
      rw [hne b (fun e => by subst e; revert hb; decide)]
  rw [held_split m c (Function.update (V29 m (Cert.Proof.KB.outs m) c) main_v44 o), arrays_two, hz,
    hne main_arg1 (by decide), hne main_v42 (by decide), hne main_v43 (by decide), hne main_arg0 (by decide),
    Function.update_self, ent_arg0, ent_arg1,
    show V29 m (Cert.Proof.KB.outs m) c main_v42 = hTab m from ent_tab m (Cert.Proof.KB.outs m) c 0, show V29 m (Cert.Proof.KB.outs m) c main_v43 = tTab m from ent_tab m (Cert.Proof.KB.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec12 osem := by decide

/-- What region 0 leaves in the output's array, by name: the fold of its write-backs. -/
theorem outs6 (c : Dev nD) : Cert.Proof.KB.outs m 30 main_v44 c = (dat0 m c).arrAt 1 (cfgA m).N :=
  Pipeline.withArrays_arr spec12 winFacts12.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KB.adm m) (Cert.Proof.KB.pdats m) () defs₀ Variants.none
      Cert.Proof.KB.L Cert.Proof.KB.lv (12 : Fin 16) where
  win := (launch12 (F := F)).win.to₀
  block_pos := (launch12 (F := F)).block_pos
  stage_whole := (launch12 (F := F)).stage_whole
  K := Fin 2
  osem := osem
  ho := ownSemFacts
  hbody c := (body_obligation m hH hTl c).loose
  hwaits := Pipeline.hwaits_of_owed_zero _ _ _ _ Cert.Proof.KB.L Cert.Proof.KB.lv (12 : Fin 16) fun _ _ => rfl
  pre c := iprop(StableHlo.held (c : Thread nD τ) (Pipeline.ucRefs τ sig) (V29 m (Cert.Proof.KB.outs m) c) ∗ Cert.Proof.KB.E 12 c)
  post c := iprop(StableHlo.held (c : Thread nD τ) (Pipeline.ucRefs τ sig) (V30 m (Cert.Proof.KB.outs m) c) ∗ Cert.Proof.KB.E 13 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KB.outs m 30 main_v44 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V29 m (Cert.Proof.KB.outs m) c) ∗ Cert.Proof.KB.E 12 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V30 m (Cert.Proof.KB.outs m) c) ∗ Cert.Proof.KB.E 13 c) := .rfl

end Cert.Proof.KB12

end
-- ==== Proof.KB13Chains.lean ====
/-
  Region 13 is entered from the valuation after item 30 of @main. No earlier item writes the node table, the relation row,
  the region's output array or the padded index rows, and the region's two tables are the slices cut out of the padded
  rows at offset 851968: each buffer the region is handed holds a function of the launch memory alone.
-/
import proofs.«414028_j29231547417249_2_alg».proof.Proof.KBAdm
import Idealize.ShloMosaic.Lib.StableHlo.Run

set_option maxRecDepth 4096

noncomputable section

namespace Cert.Proof.KB13

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V31 m outs c main_arg0 = m ((c : Thread nD τ).loc main_arg0) :=
  (V31_of m outs c main_arg0 (by decide)).trans <| (V30_of m outs c main_arg0 (by decide)).trans <| (V29_of m outs c main_arg0 (by decide)).trans <| (V28_of m outs c main_arg0 (by decide)).trans <| (V27_of m outs c main_arg0 (by decide)).trans <| (V26_of m outs c main_arg0 (by decide)).trans <| (V25_of m outs c main_arg0 (by decide)).trans <| (V24_of m outs c main_arg0 (by decide)).trans <| (V23_of m outs c main_arg0 (by decide)).trans <| (V22_of m outs c main_arg0 (by decide)).trans <| (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V31 m outs c main_arg1 = m ((c : Thread nD τ).loc main_arg1) :=
  (V31_of m outs c main_arg1 (by decide)).trans <| (V30_of m outs c main_arg1 (by decide)).trans <| (V29_of m outs c main_arg1 (by decide)).trans <| (V28_of m outs c main_arg1 (by decide)).trans <| (V27_of m outs c main_arg1 (by decide)).trans <| (V26_of m outs c main_arg1 (by decide)).trans <| (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V31 m outs c main_v47 = m ((c : Thread nD τ).loc main_v47) :=
  (V31_of m outs c main_v47 (by decide)).trans <| (V30_of m outs c main_v47 (by decide)).trans <| (V29_of m outs c main_v47 (by decide)).trans <| (V28_of m outs c main_v47 (by decide)).trans <| (V27_of m outs c main_v47 (by decide)).trans <| (V26_of m outs c main_v47 (by decide)).trans <| (V25_of m outs c main_v47 (by decide)).trans <| (V24_of m outs c main_v47 (by decide)).trans <| (V23_of m outs c main_v47 (by decide)).trans <| (V22_of m outs c main_v47 (by decide)).trans <| (V21_of m outs c main_v47 (by decide)).trans <| (V20_of m outs c main_v47 (by decide)).trans <| (V19_of m outs c main_v47 (by decide)).trans <| (V18_of m outs c main_v47 (by decide)).trans <| (V17_of m outs c main_v47 (by decide)).trans <| (V16_of m outs c main_v47 (by decide)).trans <| (V15_of m outs c main_v47 (by decide)).trans <| (V14_of m outs c main_v47 (by decide)).trans <| (V13_of m outs c main_v47 (by decide)).trans <| (V12_of m outs c main_v47 (by decide)).trans <| (V11_of m outs c main_v47 (by decide)).trans <| (V10_of m outs c main_v47 (by decide)).trans <| (V9_of m outs c main_v47 (by decide)).trans <| (V8_of m outs c main_v47 (by decide)).trans <| (V7_of m outs c main_v47 (by decide)).trans <| (V6_of m outs c main_v47 (by decide)).trans <| (V5_of m c main_v47 (by decide)).trans <| (V4_of m c main_v47 (by decide)).trans <| (V3_of m c main_v47 (by decide)).trans <| (V2_of m c main_v47 (by decide)).trans <| (V1_of m c main_v47 (by decide)).trans <| rfl
/-- The stretch before the region cuts the table out of the padded row, whatever the valuation it runs from. -/
theorem slice_h (X : Valuation τ sig (Elt F)) :
    StableHlo.after (hostOps13 (F := F)) X (Proc.devRef .tc main_v45)
      = extractStridedSlice S65536 ![851968] (X (Proc.devRef .tc main_v4)) slices_S1048576_S65536_851968 := by
  after_results
/-- The stretch before the region cuts the table out of the padded row, whatever the valuation it runs from. -/
theorem slice_t (X : Valuation τ sig (Elt F)) :
    StableHlo.after (hostOps13 (F := F)) X (Proc.devRef .tc main_v46)
      = extractStridedSlice S65536 ![851968] (X (Proc.devRef .tc main_v5)) slices_S1048576_S65536_851968 := by
  after_results
theorem ent_tab0 (c : Dev nD) : V31 m outs c main_v45 = Cert.Proof.KB.tv13 m main_v45 := by
  obtain rfl : c = (0 : Dev nD) := Subsingleton.elim _ _
  have e : V30 m outs (0 : Dev nD) main_v4 = V5 m (0 : Dev nD) main_v4 :=
    (V30_of m outs (0 : Dev nD) main_v4 (by decide)).trans <| (V29_of m outs (0 : Dev nD) main_v4 (by decide)).trans <| (V28_of m outs (0 : Dev nD) main_v4 (by decide)).trans <| (V27_of m outs (0 : Dev nD) main_v4 (by decide)).trans <| (V26_of m outs (0 : Dev nD) main_v4 (by decide)).trans <| (V25_of m outs (0 : Dev nD) main_v4 (by decide)).trans <| (V24_of m outs (0 : Dev nD) main_v4 (by decide)).trans <| (V23_of m outs (0 : Dev nD) main_v4 (by decide)).trans <| (V22_of m outs (0 : Dev nD) main_v4 (by decide)).trans <| (V21_of m outs (0 : Dev nD) main_v4 (by decide)).trans <| (V20_of m outs (0 : Dev nD) main_v4 (by decide)).trans <| (V19_of m outs (0 : Dev nD) main_v4 (by decide)).trans <| (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V30 m outs (0 : Dev nD))).trans ((congrArg (extractStridedSlice S65536 ![851968] · slices_S1048576_S65536_851968) e).trans (slice_h (V5 m (0 : Dev nD))).symm)
theorem ent_tab1 (c : Dev nD) : V31 m outs c main_v46 = Cert.Proof.KB.tv13 m main_v46 := by
  obtain rfl : c = (0 : Dev nD) := Subsingleton.elim _ _
  have e : V30 m outs (0 : Dev nD) main_v5 = V5 m (0 : Dev nD) main_v5 :=
    (V30_of m outs (0 : Dev nD) main_v5 (by decide)).trans <| (V29_of m outs (0 : Dev nD) main_v5 (by decide)).trans <| (V28_of m outs (0 : Dev nD) main_v5 (by decide)).trans <| (V27_of m outs (0 : Dev nD) main_v5 (by decide)).trans <| (V26_of m outs (0 : Dev nD) main_v5 (by decide)).trans <| (V25_of m outs (0 : Dev nD) main_v5 (by decide)).trans <| (V24_of m outs (0 : Dev nD) main_v5 (by decide)).trans <| (V23_of m outs (0 : Dev nD) main_v5 (by decide)).trans <| (V22_of m outs (0 : Dev nD) main_v5 (by decide)).trans <| (V21_of m outs (0 : Dev nD) main_v5 (by decide)).trans <| (V20_of m outs (0 : Dev nD) main_v5 (by decide)).trans <| (V19_of m outs (0 : Dev nD) main_v5 (by decide)).trans <| (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V30 m outs (0 : Dev nD))).trans ((congrArg (extractStridedSlice S65536 ![851968] · slices_S1048576_S65536_851968) e).trans (slice_t (V5 m (0 : Dev nD))).symm)
theorem ent_tab (c : Dev nD) (k : Fin 2) : V31 m outs c (pre13.ref k) = Cert.Proof.KB.tbl13 m k :=
  match k with
  | ⟨0, _⟩ => ent_tab0 m outs c
  | ⟨1, _⟩ => ent_tab1 m outs c

end Cert.Proof.KB13

end
-- ==== Proof.KB13Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.Kernel
import proofs.«414028_j29231547417249_2_alg».proof.Proof.Gen.Kernel.Launch
import Idealize.ShloMosaic.Lib.Pipeline.Dat

noncomputable section

namespace Cert.Proof.KB13

open Cert.Kernel Cert.Kernel.Gen Idealize.ShloMosaic

variable {F : FTy → Type} [FloatOps F] (a : (pcfg13 (F := F)).Adm)

/-! ## The points and their coordinates -/

theorem N_eq : (cfg13 a).N = 65536 := N_13

theorem lt_N (t : Fin (cfg13 a).N) : t.val < 65536 := Nat.lt_of_lt_of_eq t.isLt (N_eq a)

/-- Each value of the first coordinate is shared by 128 consecutive points, each value of the second by one. -/
theorem stride0 : grid13.stride 0 = 128 := by decide
theorem stride1 : grid13.stride 1 = 1 := by decide

theorem coords0 (t : Fin (cfg13 a).N) : (((cfg13 a).grid.coords t) 0).val = t.val / 128 := by
  have ht := lt_N a t
  show t.val / grid13.stride 0 % 512 = t.val / 128
  rw [stride0]; omega

theorem coords1 (t : Fin (cfg13 a).N) : (((cfg13 a).grid.coords t) 1).val = t.val % 128 := by
  show t.val / grid13.stride 1 % 128 = t.val % 128
  rw [stride1, Nat.div_one]

theorem flat_eq (t : Fin (cfg13 a).N) :
    (((cfg13 a).grid.coords t) 0).val * 128 + (((cfg13 a).grid.coords t) 1).val = t.val := by
  rw [coords0, coords1]; omega

/-! ## The windows' block indices -/

/-- Window 0's block index is constant. -/
theorem index0 (s t : Fin (cfg13 a).N) : ((cfg13 a).win 0).index s = ((cfg13 a).win 0).index t := rfl

/-- Window 1's block index at a point is the point's first coordinate. -/
theorem index1 (s : Fin (cfg13 a).N) : ((cfg13 a).win 1).index s = ![s.val / 128] := by
  have hs := lt_N a s
  show ![(BitVec.ofNat 32 (((cfg13 a).grid.coords s) 0).val).toNat] = ![s.val / 128]
  rw [coords0 a s, BitVec.toNat_ofNat, Nat.mod_eq_of_lt (by omega)]

/-! ## Fetches and write-backs -/

theorem fetch0 (t : Fin (cfg13 a).N) : ((cfg13 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg13 a).N) : ((cfg13 a).win 1).fetch t = false := by
  unfold Pipeline.Window.fetch
  show (!true && _) = false
  rfl

theorem flush0 (t : Fin (cfg13 a).N) : ((cfg13 a).win 0).flush t = false := by
  unfold Pipeline.Window.flush
  show (false && _) = false
  rfl

theorem flush1 (t : Fin (cfg13 a).N) : ((cfg13 a).win 1).flush t = decide (t.val % 128 = 127) := by
  have ht := lt_N a t
  have hN : (cfg13 a).grid.N = 65536 := N_eq a
  unfold Pipeline.Window.flush
  show (true && (decide (t.val + 1 = (cfg13 a).grid.N)
    || decide (∃ h : t.val + 1 < (cfg13 a).grid.N, ((cfg13 a).win 1).index ⟨t.val + 1, h⟩ ≠ ((cfg13 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg13 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg13 a).W) (t : Fin (cfg13 a).N) : (cfg13 a).idle w ((cfg13 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg13 a).N) :
    Scalar.cmpi .ne (Scalar.extui (Scalar.cmpi .eq (BitVec.ofNat 32 (((cfg13 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg13 a).N) (A : Vec F S1x256 .f32) (y : S1x256.Idx) :
    (((cfg13 a).win 0).blk t).view.read (Elt F) A y = A y := by
  show A ((((cfg13 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg13 a).N) (y : S128.Idx) :
    ((((cfg13 a).win 1).blk t).view.emb y (0 : Fin 1)).val = 128 * (t.val / 128) + (y 0).val := by
  have hi : ((cfg13 a).win 1).index t (0 : Fin 1) = t.val / 128 := by rw [index1]; rfl
  show ((cfg13 a).win 1).index t (0 : Fin 1) * 128 + 1 * (y 0).val = 128 * (t.val / 128) + (y 0).val
  rw [hi]; omega

end Cert.Proof.KB13

end
-- ==== Proof.KB13Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KB13Defs
import proofs.«414028_j29231547417249_2_alg».proof.Proof.Gen.Kernel.Launch
import Idealize.ShloMosaic.Lib.Tactic

noncomputable section

namespace Cert.Proof.KB13

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k13_pay2 j (k13_pay6 X18 X19 X20) (k13_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k13_pay2 j (k13_pay6 X18 X19 X20) (k13_pay7 X18 X19 X20)
              (m.view.readCov [⟨Rect.unit (s := S128) ![0] S128.size inb_S128_S128_0, k13_pay1 (F := F)⟩]
                (Rect.unit (s := S128) ![0] S128.size inb_S128_S128_0).toLoadRect)⟩,
          ⟨Rect.unit (s := S128) ![0] S128.size inb_S128_S128_0, k13_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid13.Coords) (M5 : Memref sig .tc .vmem S1x256 .f32) (h5 : M5.IsWhole) (M6 : Memref sig .tc .vmem S128 .f32) (h6 : M6.IsWhole)
    (hT : Bf (F := F) c (Memref.whole main_v45)) (tT : Bf (F := F) c (Memref.whole main_v46)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v45) hT ∗ pt c (Memref.whole main_v46) tT ∗ nodeSh c node
      ∗ (∃ s0, pt c (Memref.whole cc13_scratch0) s0) ∗ (∃ s1, pt c (Memref.whole cc13_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v45) hT ∗ pt c (Memref.whole main_v46) tT ∗ nodeSh c node
          ∗ (∃ s0, pt c (Memref.whole cc13_scratch0) s0) ∗ (∃ s1, pt c (Memref.whole cc13_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc13__lookup_kernel i (Memref.whole main_v45) (Memref.isWhole_whole _) (Memref.whole main_v46) (Memref.isWhole_whole _) (Memref.whole main_arg0) (Memref.isWhole_whole _)
          M5 h5 M6 h6 (Memref.whole cc13_scratch0) (Memref.isWhole_whole _) (Memref.whole cc13_scratch1) (Memref.isWhole_whole _) cc13_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid13.Coords) (M5 : Memref sig .tc .vmem S1x256 .f32) (h5 : M5.IsWhole) (M6 : Memref sig .tc .vmem S128 .f32) (h6 : M6.IsWhole)
    (hT : Bf (F := F) c (Memref.whole main_v45)) (tT : Bf (F := F) c (Memref.whole main_v46)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v45) hT ∗ pt c (Memref.whole main_v46) tT ∗ nodeSh c node
      ∗ (∃ s0, pt c (Memref.whole cc13_scratch0) s0) ∗ (∃ s1, pt c (Memref.whole cc13_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v45) hT ∗ pt c (Memref.whole main_v46) tT ∗ nodeSh c node
          ∗ (∃ s0, pt c (Memref.whole cc13_scratch0) s0) ∗ (∃ s1, pt c (Memref.whole cc13_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc13__lookup_kernel i (Memref.whole main_v45) (Memref.isWhole_whole _) (Memref.whole main_v46) (Memref.isWhole_whole _) (Memref.whole main_arg0) (Memref.isWhole_whole _)
          M5 h5 M6 h6 (Memref.whole cc13_scratch0) (Memref.isWhole_whole _) (Memref.whole cc13_scratch1) (Memref.isWhole_whole _) cc13_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KB13

end
-- ==== Proof.KB13Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KB13Data
import proofs.«414028_j29231547417249_2_alg».proof.Proof.KB13Points
import proofs.«414028_j29231547417249_2_alg».proof.Proof.KB13Body
import proofs.«414028_j29231547417249_2_alg».proof.Proof.Gen.Kernel.Launch
import Idealize.ShloMosaic.Lib.Pipeline.Frame

noncomputable section

namespace Cert.Proof.KB13

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W13, bigSep_W13]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec13_0.stage ((cfgA m).slots t 0)) (hstage13_0 (((cfgA m).slots t 0).cast nbuf13_0))
      (spec13_1.stage ((cfgA m).slots t 1)) (hstage13_1 (((cfgA m).slots t 1).cast nbuf13_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec13_0.stage ((cfgA m).slots t 0)) (hstage13_0 (((cfgA m).slots t 0).cast nbuf13_0))
      (spec13_1.stage ((cfgA m).slots t 1)) (hstage13_1 (((cfgA m).slots t 1).cast nbuf13_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KB13

end
-- ==== Proof.KB13Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KBDats
import proofs.«414028_j29231547417249_2_alg».proof.Proof.KBThread
import proofs.«414028_j29231547417249_2_alg».proof.Proof.KB13Chains
import proofs.«414028_j29231547417249_2_alg».proof.Proof.KB13Oblig
import proofs.«414028_j29231547417249_2_alg».proof.Proof.Gen.Kernel.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KB13

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 68 | 1 => .dma 69

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W13] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v45) (hTab m) ∗ pt c (Memref.whole main_v46) (tTab m))

/-- The invariant at the first point: the node table split into its shares, the tables, the two scratch rows out of the
    scoped rest. -/
theorem hin0 (c : Dev nD) :
    iprop(X0 m c ∗ Pipeline.prefHeld pre13 c (fun _ => fullShare) (Cert.Proof.KB.tbl13 m)
        ∗ Pipeline.scopedRest (Ix := Unit) (Name := ℕ) (U := UC) (Lvl := ℕ) (Val := Elt F) spec13 c)
      ⊢ Φv m c := by
  unfold Φv Pipeline.prefHeld
  rw [Gen.bigSep_W13, Gen.scopedRest13_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec13 c) := by
  unfold Φv
  rw [Gen.scopedRest13_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre13 spec13 \ {main_arg0}

theorem node_mem_rest : ({main_arg0} : Finset (Ref sig .tc)) ⊆ Pipeline.restRefsP sig pre13 spec13 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec13 c V : sProp 𝕄)
      = iprop(Pipeline.prefHeld pre13 c (fun _ => fullShare) (fun k => V (pre13.ref k))
          ∗ (((c : Thread nD τ).loc main_arg0) ↦{fullShare} V main_arg0)
          ∗ bigSep restZ fun b => ((c : Thread nD τ).loc b) ↦{fullShare} V b) := by
  rw [Pipeline.unscopedRest_split preFacts13 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v47) ↦{fullShare} V main_v47))
          ∗ ((((c : Thread nD τ).loc main_v45) ↦{fullShare} V main_v45) ∗ (((c : Thread nD τ).loc main_v46) ↦{fullShare} V main_v46))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts13.arr_unscoped winFacts13.arr_inj c, rest_split]
  unfold Pipeline.prefHeld
  rw [Gen.bigSep_W13, Gen.bigSep_W13]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v47) ↦{fullShare} G 1)) := by
  rw [Pipeline.arrays_eq (fun _ : Fin 1 => cfgA m) (fun _ c => dat0 m c) 0 c arr_whole13 ((dat0 m c).share_full fun _ => rfl) G, Gen.bigSep_W13]

/-- What bypasses the region: every other unscoped buffer, at its contents on entry. -/
abbrev Z0 (c : Dev nD) : sProp 𝕄 := bigSep restZ fun b => ((c : Thread nD τ).loc b) ↦{fullShare} V31 m (Cert.Proof.KB.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V31 m (Cert.Proof.KB.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre13 c (fun _ => fullShare) (Cert.Proof.KB.tbl13 m)
          ∗ (dat0 m c).owesAt () 0 ∗ X0 m c ∗ Z0 m c) := by
  rw [held_split m c (V31 m (Cert.Proof.KB.outs m) c), arrays_two, ent_arg0, ent_arg1, ent_out,
    show V31 m (Cert.Proof.KB.outs m) c main_v45 = hTab m from ent_tab m (Cert.Proof.KB.outs m) c 0, show V31 m (Cert.Proof.KB.outs m) c main_v46 = tTab m from ent_tab m (Cert.Proof.KB.outs m) c 1]
  unfold Pipeline.prefHeld
  rw [Gen.bigSep_W13]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v47)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V31 m (Cert.Proof.KB.outs m) c) main_v47 o)
          ∗ (∃ W, owes (c : Thread nD τ) (0 : CellTallies nD τ sig Unit) W)) := by
  have hne : ∀ b : Ref sig .tc, b ≠ main_v47 →
      Function.update (V31 m (Cert.Proof.KB.outs m) c) (Proc.devRef .tc main_v47) o (Proc.devRef .tc b) = V31 m (Cert.Proof.KB.outs m) c b :=
    fun b hb => Function.update_of_ne (StableHlo.devRef_ne_of_ne hb) _ _
  have hz : (bigSep restZ fun b => (((c : Thread nD τ).loc b) ↦{fullShare} Function.update (V31 m (Cert.Proof.KB.outs m) c) (Proc.devRef .tc main_v47) o b : sProp 𝕄))
      = Z0 m c :=
    BI.bigSep_congr fun b hb => by
      rw [hne b (fun e => by subst e; revert hb; decide)]
  rw [held_split m c (Function.update (V31 m (Cert.Proof.KB.outs m) c) main_v47 o), arrays_two, hz,
    hne main_arg1 (by decide), hne main_v45 (by decide), hne main_v46 (by decide), hne main_arg0 (by decide),
    Function.update_self, ent_arg0, ent_arg1,
    show V31 m (Cert.Proof.KB.outs m) c main_v45 = hTab m from ent_tab m (Cert.Proof.KB.outs m) c 0, show V31 m (Cert.Proof.KB.outs m) c main_v46 = tTab m from ent_tab m (Cert.Proof.KB.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec13 osem := by decide

/-- What region 0 leaves in the output's array, by name: the fold of its write-backs. -/
theorem outs6 (c : Dev nD) : Cert.Proof.KB.outs m 32 main_v47 c = (dat0 m c).arrAt 1 (cfgA m).N :=
  Pipeline.withArrays_arr spec13 winFacts13.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KB.adm m) (Cert.Proof.KB.pdats m) () defs₀ Variants.none
      Cert.Proof.KB.L Cert.Proof.KB.lv (13 : Fin 16) where
  win := (launch13 (F := F)).win.to₀
  block_pos := (launch13 (F := F)).block_pos
  stage_whole := (launch13 (F := F)).stage_whole
  K := Fin 2
  osem := osem
  ho := ownSemFacts
  hbody c := (body_obligation m hH hTl c).loose
  hwaits := Pipeline.hwaits_of_owed_zero _ _ _ _ Cert.Proof.KB.L Cert.Proof.KB.lv (13 : Fin 16) fun _ _ => rfl
  pre c := iprop(StableHlo.held (c : Thread nD τ) (Pipeline.ucRefs τ sig) (V31 m (Cert.Proof.KB.outs m) c) ∗ Cert.Proof.KB.E 13 c)
  post c := iprop(StableHlo.held (c : Thread nD τ) (Pipeline.ucRefs τ sig) (V32 m (Cert.Proof.KB.outs m) c) ∗ Cert.Proof.KB.E 14 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KB.outs m 32 main_v47 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V31 m (Cert.Proof.KB.outs m) c) ∗ Cert.Proof.KB.E 13 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V32 m (Cert.Proof.KB.outs m) c) ∗ Cert.Proof.KB.E 14 c) := .rfl

end Cert.Proof.KB13

end
-- ==== Proof.KB14Chains.lean ====
/-
  Region 14 is entered from the valuation after item 32 of @main. No earlier item writes the node table, the relation row,
  the region's output array or the padded index rows, and the region's two tables are the slices cut out of the padded
  rows at offset 917504: each buffer the region is handed holds a function of the launch memory alone.
-/
import proofs.«414028_j29231547417249_2_alg».proof.Proof.KBAdm
import Idealize.ShloMosaic.Lib.StableHlo.Run

set_option maxRecDepth 4096

noncomputable section

namespace Cert.Proof.KB14

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V33 m outs c main_arg0 = m ((c : Thread nD τ).loc main_arg0) :=
  (V33_of m outs c main_arg0 (by decide)).trans <| (V32_of m outs c main_arg0 (by decide)).trans <| (V31_of m outs c main_arg0 (by decide)).trans <| (V30_of m outs c main_arg0 (by decide)).trans <| (V29_of m outs c main_arg0 (by decide)).trans <| (V28_of m outs c main_arg0 (by decide)).trans <| (V27_of m outs c main_arg0 (by decide)).trans <| (V26_of m outs c main_arg0 (by decide)).trans <| (V25_of m outs c main_arg0 (by decide)).trans <| (V24_of m outs c main_arg0 (by decide)).trans <| (V23_of m outs c main_arg0 (by decide)).trans <| (V22_of m outs c main_arg0 (by decide)).trans <| (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V33 m outs c main_arg1 = m ((c : Thread nD τ).loc main_arg1) :=
  (V33_of m outs c main_arg1 (by decide)).trans <| (V32_of m outs c main_arg1 (by decide)).trans <| (V31_of m outs c main_arg1 (by decide)).trans <| (V30_of m outs c main_arg1 (by decide)).trans <| (V29_of m outs c main_arg1 (by decide)).trans <| (V28_of m outs c main_arg1 (by decide)).trans <| (V27_of m outs c main_arg1 (by decide)).trans <| (V26_of m outs c main_arg1 (by decide)).trans <| (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V33 m outs c main_v50 = m ((c : Thread nD τ).loc main_v50) :=
  (V33_of m outs c main_v50 (by decide)).trans <| (V32_of m outs c main_v50 (by decide)).trans <| (V31_of m outs c main_v50 (by decide)).trans <| (V30_of m outs c main_v50 (by decide)).trans <| (V29_of m outs c main_v50 (by decide)).trans <| (V28_of m outs c main_v50 (by decide)).trans <| (V27_of m outs c main_v50 (by decide)).trans <| (V26_of m outs c main_v50 (by decide)).trans <| (V25_of m outs c main_v50 (by decide)).trans <| (V24_of m outs c main_v50 (by decide)).trans <| (V23_of m outs c main_v50 (by decide)).trans <| (V22_of m outs c main_v50 (by decide)).trans <| (V21_of m outs c main_v50 (by decide)).trans <| (V20_of m outs c main_v50 (by decide)).trans <| (V19_of m outs c main_v50 (by decide)).trans <| (V18_of m outs c main_v50 (by decide)).trans <| (V17_of m outs c main_v50 (by decide)).trans <| (V16_of m outs c main_v50 (by decide)).trans <| (V15_of m outs c main_v50 (by decide)).trans <| (V14_of m outs c main_v50 (by decide)).trans <| (V13_of m outs c main_v50 (by decide)).trans <| (V12_of m outs c main_v50 (by decide)).trans <| (V11_of m outs c main_v50 (by decide)).trans <| (V10_of m outs c main_v50 (by decide)).trans <| (V9_of m outs c main_v50 (by decide)).trans <| (V8_of m outs c main_v50 (by decide)).trans <| (V7_of m outs c main_v50 (by decide)).trans <| (V6_of m outs c main_v50 (by decide)).trans <| (V5_of m c main_v50 (by decide)).trans <| (V4_of m c main_v50 (by decide)).trans <| (V3_of m c main_v50 (by decide)).trans <| (V2_of m c main_v50 (by decide)).trans <| (V1_of m c main_v50 (by decide)).trans <| rfl
/-- The stretch before the region cuts the table out of the padded row, whatever the valuation it runs from. -/
theorem slice_h (X : Valuation τ sig (Elt F)) :
    StableHlo.after (hostOps14 (F := F)) X (Proc.devRef .tc main_v48)
      = extractStridedSlice S65536 ![917504] (X (Proc.devRef .tc main_v4)) slices_S1048576_S65536_917504 := by
  after_results
/-- The stretch before the region cuts the table out of the padded row, whatever the valuation it runs from. -/
theorem slice_t (X : Valuation τ sig (Elt F)) :
    StableHlo.after (hostOps14 (F := F)) X (Proc.devRef .tc main_v49)
      = extractStridedSlice S65536 ![917504] (X (Proc.devRef .tc main_v5)) slices_S1048576_S65536_917504 := by
  after_results
theorem ent_tab0 (c : Dev nD) : V33 m outs c main_v48 = Cert.Proof.KB.tv14 m main_v48 := by
  obtain rfl : c = (0 : Dev nD) := Subsingleton.elim _ _
  have e : V32 m outs (0 : Dev nD) main_v4 = V5 m (0 : Dev nD) main_v4 :=
    (V32_of m outs (0 : Dev nD) main_v4 (by decide)).trans <| (V31_of m outs (0 : Dev nD) main_v4 (by decide)).trans <| (V30_of m outs (0 : Dev nD) main_v4 (by decide)).trans <| (V29_of m outs (0 : Dev nD) main_v4 (by decide)).trans <| (V28_of m outs (0 : Dev nD) main_v4 (by decide)).trans <| (V27_of m outs (0 : Dev nD) main_v4 (by decide)).trans <| (V26_of m outs (0 : Dev nD) main_v4 (by decide)).trans <| (V25_of m outs (0 : Dev nD) main_v4 (by decide)).trans <| (V24_of m outs (0 : Dev nD) main_v4 (by decide)).trans <| (V23_of m outs (0 : Dev nD) main_v4 (by decide)).trans <| (V22_of m outs (0 : Dev nD) main_v4 (by decide)).trans <| (V21_of m outs (0 : Dev nD) main_v4 (by decide)).trans <| (V20_of m outs (0 : Dev nD) main_v4 (by decide)).trans <| (V19_of m outs (0 : Dev nD) main_v4 (by decide)).trans <| (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V32 m outs (0 : Dev nD))).trans ((congrArg (extractStridedSlice S65536 ![917504] · slices_S1048576_S65536_917504) e).trans (slice_h (V5 m (0 : Dev nD))).symm)
theorem ent_tab1 (c : Dev nD) : V33 m outs c main_v49 = Cert.Proof.KB.tv14 m main_v49 := by
  obtain rfl : c = (0 : Dev nD) := Subsingleton.elim _ _
  have e : V32 m outs (0 : Dev nD) main_v5 = V5 m (0 : Dev nD) main_v5 :=
    (V32_of m outs (0 : Dev nD) main_v5 (by decide)).trans <| (V31_of m outs (0 : Dev nD) main_v5 (by decide)).trans <| (V30_of m outs (0 : Dev nD) main_v5 (by decide)).trans <| (V29_of m outs (0 : Dev nD) main_v5 (by decide)).trans <| (V28_of m outs (0 : Dev nD) main_v5 (by decide)).trans <| (V27_of m outs (0 : Dev nD) main_v5 (by decide)).trans <| (V26_of m outs (0 : Dev nD) main_v5 (by decide)).trans <| (V25_of m outs (0 : Dev nD) main_v5 (by decide)).trans <| (V24_of m outs (0 : Dev nD) main_v5 (by decide)).trans <| (V23_of m outs (0 : Dev nD) main_v5 (by decide)).trans <| (V22_of m outs (0 : Dev nD) main_v5 (by decide)).trans <| (V21_of m outs (0 : Dev nD) main_v5 (by decide)).trans <| (V20_of m outs (0 : Dev nD) main_v5 (by decide)).trans <| (V19_of m outs (0 : Dev nD) main_v5 (by decide)).trans <| (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V32 m outs (0 : Dev nD))).trans ((congrArg (extractStridedSlice S65536 ![917504] · slices_S1048576_S65536_917504) e).trans (slice_t (V5 m (0 : Dev nD))).symm)
theorem ent_tab (c : Dev nD) (k : Fin 2) : V33 m outs c (pre14.ref k) = Cert.Proof.KB.tbl14 m k :=
  match k with
  | ⟨0, _⟩ => ent_tab0 m outs c
  | ⟨1, _⟩ => ent_tab1 m outs c

end Cert.Proof.KB14

end
-- ==== Proof.KB14Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.Kernel
import proofs.«414028_j29231547417249_2_alg».proof.Proof.Gen.Kernel.Launch
import Idealize.ShloMosaic.Lib.Pipeline.Dat

noncomputable section

namespace Cert.Proof.KB14

open Cert.Kernel Cert.Kernel.Gen Idealize.ShloMosaic

variable {F : FTy → Type} [FloatOps F] (a : (pcfg14 (F := F)).Adm)

/-! ## The points and their coordinates -/

theorem N_eq : (cfg14 a).N = 65536 := N_14

theorem lt_N (t : Fin (cfg14 a).N) : t.val < 65536 := Nat.lt_of_lt_of_eq t.isLt (N_eq a)

/-- Each value of the first coordinate is shared by 128 consecutive points, each value of the second by one. -/
theorem stride0 : grid14.stride 0 = 128 := by decide
theorem stride1 : grid14.stride 1 = 1 := by decide

theorem coords0 (t : Fin (cfg14 a).N) : (((cfg14 a).grid.coords t) 0).val = t.val / 128 := by
  have ht := lt_N a t
  show t.val / grid14.stride 0 % 512 = t.val / 128
  rw [stride0]; omega

theorem coords1 (t : Fin (cfg14 a).N) : (((cfg14 a).grid.coords t) 1).val = t.val % 128 := by
  show t.val / grid14.stride 1 % 128 = t.val % 128
  rw [stride1, Nat.div_one]

theorem flat_eq (t : Fin (cfg14 a).N) :
    (((cfg14 a).grid.coords t) 0).val * 128 + (((cfg14 a).grid.coords t) 1).val = t.val := by
  rw [coords0, coords1]; omega

/-! ## The windows' block indices -/

/-- Window 0's block index is constant. -/
theorem index0 (s t : Fin (cfg14 a).N) : ((cfg14 a).win 0).index s = ((cfg14 a).win 0).index t := rfl

/-- Window 1's block index at a point is the point's first coordinate. -/
theorem index1 (s : Fin (cfg14 a).N) : ((cfg14 a).win 1).index s = ![s.val / 128] := by
  have hs := lt_N a s
  show ![(BitVec.ofNat 32 (((cfg14 a).grid.coords s) 0).val).toNat] = ![s.val / 128]
  rw [coords0 a s, BitVec.toNat_ofNat, Nat.mod_eq_of_lt (by omega)]

/-! ## Fetches and write-backs -/

theorem fetch0 (t : Fin (cfg14 a).N) : ((cfg14 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg14 a).N) : ((cfg14 a).win 1).fetch t = false := by
  unfold Pipeline.Window.fetch
  show (!true && _) = false
  rfl

theorem flush0 (t : Fin (cfg14 a).N) : ((cfg14 a).win 0).flush t = false := by
  unfold Pipeline.Window.flush
  show (false && _) = false
  rfl

theorem flush1 (t : Fin (cfg14 a).N) : ((cfg14 a).win 1).flush t = decide (t.val % 128 = 127) := by
  have ht := lt_N a t
  have hN : (cfg14 a).grid.N = 65536 := N_eq a
  unfold Pipeline.Window.flush
  show (true && (decide (t.val + 1 = (cfg14 a).grid.N)
    || decide (∃ h : t.val + 1 < (cfg14 a).grid.N, ((cfg14 a).win 1).index ⟨t.val + 1, h⟩ ≠ ((cfg14 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg14 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg14 a).W) (t : Fin (cfg14 a).N) : (cfg14 a).idle w ((cfg14 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg14 a).N) :
    Scalar.cmpi .ne (Scalar.extui (Scalar.cmpi .eq (BitVec.ofNat 32 (((cfg14 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg14 a).N) (A : Vec F S1x256 .f32) (y : S1x256.Idx) :
    (((cfg14 a).win 0).blk t).view.read (Elt F) A y = A y := by
  show A ((((cfg14 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg14 a).N) (y : S128.Idx) :
    ((((cfg14 a).win 1).blk t).view.emb y (0 : Fin 1)).val = 128 * (t.val / 128) + (y 0).val := by
  have hi : ((cfg14 a).win 1).index t (0 : Fin 1) = t.val / 128 := by rw [index1]; rfl
  show ((cfg14 a).win 1).index t (0 : Fin 1) * 128 + 1 * (y 0).val = 128 * (t.val / 128) + (y 0).val
  rw [hi]; omega

end Cert.Proof.KB14

end
-- ==== Proof.KB14Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KB14Defs
import proofs.«414028_j29231547417249_2_alg».proof.Proof.Gen.Kernel.Launch
import Idealize.ShloMosaic.Lib.Tactic

noncomputable section

namespace Cert.Proof.KB14

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k14_pay2 j (k14_pay6 X18 X19 X20) (k14_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k14_pay2 j (k14_pay6 X18 X19 X20) (k14_pay7 X18 X19 X20)
              (m.view.readCov [⟨Rect.unit (s := S128) ![0] S128.size inb_S128_S128_0, k14_pay1 (F := F)⟩]
                (Rect.unit (s := S128) ![0] S128.size inb_S128_S128_0).toLoadRect)⟩,
          ⟨Rect.unit (s := S128) ![0] S128.size inb_S128_S128_0, k14_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid14.Coords) (M5 : Memref sig .tc .vmem S1x256 .f32) (h5 : M5.IsWhole) (M6 : Memref sig .tc .vmem S128 .f32) (h6 : M6.IsWhole)
    (hT : Bf (F := F) c (Memref.whole main_v48)) (tT : Bf (F := F) c (Memref.whole main_v49)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v48) hT ∗ pt c (Memref.whole main_v49) tT ∗ nodeSh c node
      ∗ (∃ s0, pt c (Memref.whole cc14_scratch0) s0) ∗ (∃ s1, pt c (Memref.whole cc14_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v48) hT ∗ pt c (Memref.whole main_v49) tT ∗ nodeSh c node
          ∗ (∃ s0, pt c (Memref.whole cc14_scratch0) s0) ∗ (∃ s1, pt c (Memref.whole cc14_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc14__lookup_kernel i (Memref.whole main_v48) (Memref.isWhole_whole _) (Memref.whole main_v49) (Memref.isWhole_whole _) (Memref.whole main_arg0) (Memref.isWhole_whole _)
          M5 h5 M6 h6 (Memref.whole cc14_scratch0) (Memref.isWhole_whole _) (Memref.whole cc14_scratch1) (Memref.isWhole_whole _) cc14_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid14.Coords) (M5 : Memref sig .tc .vmem S1x256 .f32) (h5 : M5.IsWhole) (M6 : Memref sig .tc .vmem S128 .f32) (h6 : M6.IsWhole)
    (hT : Bf (F := F) c (Memref.whole main_v48)) (tT : Bf (F := F) c (Memref.whole main_v49)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v48) hT ∗ pt c (Memref.whole main_v49) tT ∗ nodeSh c node
      ∗ (∃ s0, pt c (Memref.whole cc14_scratch0) s0) ∗ (∃ s1, pt c (Memref.whole cc14_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v48) hT ∗ pt c (Memref.whole main_v49) tT ∗ nodeSh c node
          ∗ (∃ s0, pt c (Memref.whole cc14_scratch0) s0) ∗ (∃ s1, pt c (Memref.whole cc14_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc14__lookup_kernel i (Memref.whole main_v48) (Memref.isWhole_whole _) (Memref.whole main_v49) (Memref.isWhole_whole _) (Memref.whole main_arg0) (Memref.isWhole_whole _)
          M5 h5 M6 h6 (Memref.whole cc14_scratch0) (Memref.isWhole_whole _) (Memref.whole cc14_scratch1) (Memref.isWhole_whole _) cc14_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KB14

end
-- ==== Proof.KB14Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KB14Data
import proofs.«414028_j29231547417249_2_alg».proof.Proof.KB14Points
import proofs.«414028_j29231547417249_2_alg».proof.Proof.KB14Body
import proofs.«414028_j29231547417249_2_alg».proof.Proof.Gen.Kernel.Launch
import Idealize.ShloMosaic.Lib.Pipeline.Frame

noncomputable section

namespace Cert.Proof.KB14

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W14, bigSep_W14]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec14_0.stage ((cfgA m).slots t 0)) (hstage14_0 (((cfgA m).slots t 0).cast nbuf14_0))
      (spec14_1.stage ((cfgA m).slots t 1)) (hstage14_1 (((cfgA m).slots t 1).cast nbuf14_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec14_0.stage ((cfgA m).slots t 0)) (hstage14_0 (((cfgA m).slots t 0).cast nbuf14_0))
      (spec14_1.stage ((cfgA m).slots t 1)) (hstage14_1 (((cfgA m).slots t 1).cast nbuf14_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KB14

end
-- ==== Proof.KB14Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KBDats
import proofs.«414028_j29231547417249_2_alg».proof.Proof.KBThread
import proofs.«414028_j29231547417249_2_alg».proof.Proof.KB14Chains
import proofs.«414028_j29231547417249_2_alg».proof.Proof.KB14Oblig
import proofs.«414028_j29231547417249_2_alg».proof.Proof.Gen.Kernel.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KB14

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 73 | 1 => .dma 74

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W14] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v48) (hTab m) ∗ pt c (Memref.whole main_v49) (tTab m))

/-- The invariant at the first point: the node table split into its shares, the tables, the two scratch rows out of the
    scoped rest. -/
theorem hin0 (c : Dev nD) :
    iprop(X0 m c ∗ Pipeline.prefHeld pre14 c (fun _ => fullShare) (Cert.Proof.KB.tbl14 m)
        ∗ Pipeline.scopedRest (Ix := Unit) (Name := ℕ) (U := UC) (Lvl := ℕ) (Val := Elt F) spec14 c)
      ⊢ Φv m c := by
  unfold Φv Pipeline.prefHeld
  rw [Gen.bigSep_W14, Gen.scopedRest14_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec14 c) := by
  unfold Φv
  rw [Gen.scopedRest14_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre14 spec14 \ {main_arg0}

theorem node_mem_rest : ({main_arg0} : Finset (Ref sig .tc)) ⊆ Pipeline.restRefsP sig pre14 spec14 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec14 c V : sProp 𝕄)
      = iprop(Pipeline.prefHeld pre14 c (fun _ => fullShare) (fun k => V (pre14.ref k))
          ∗ (((c : Thread nD τ).loc main_arg0) ↦{fullShare} V main_arg0)
          ∗ bigSep restZ fun b => ((c : Thread nD τ).loc b) ↦{fullShare} V b) := by
  rw [Pipeline.unscopedRest_split preFacts14 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v50) ↦{fullShare} V main_v50))
          ∗ ((((c : Thread nD τ).loc main_v48) ↦{fullShare} V main_v48) ∗ (((c : Thread nD τ).loc main_v49) ↦{fullShare} V main_v49))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts14.arr_unscoped winFacts14.arr_inj c, rest_split]
  unfold Pipeline.prefHeld
  rw [Gen.bigSep_W14, Gen.bigSep_W14]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v50) ↦{fullShare} G 1)) := by
  rw [Pipeline.arrays_eq (fun _ : Fin 1 => cfgA m) (fun _ c => dat0 m c) 0 c arr_whole14 ((dat0 m c).share_full fun _ => rfl) G, Gen.bigSep_W14]

/-- What bypasses the region: every other unscoped buffer, at its contents on entry. -/
abbrev Z0 (c : Dev nD) : sProp 𝕄 := bigSep restZ fun b => ((c : Thread nD τ).loc b) ↦{fullShare} V33 m (Cert.Proof.KB.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V33 m (Cert.Proof.KB.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre14 c (fun _ => fullShare) (Cert.Proof.KB.tbl14 m)
          ∗ (dat0 m c).owesAt () 0 ∗ X0 m c ∗ Z0 m c) := by
  rw [held_split m c (V33 m (Cert.Proof.KB.outs m) c), arrays_two, ent_arg0, ent_arg1, ent_out,
    show V33 m (Cert.Proof.KB.outs m) c main_v48 = hTab m from ent_tab m (Cert.Proof.KB.outs m) c 0, show V33 m (Cert.Proof.KB.outs m) c main_v49 = tTab m from ent_tab m (Cert.Proof.KB.outs m) c 1]
  unfold Pipeline.prefHeld
  rw [Gen.bigSep_W14]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v50)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V33 m (Cert.Proof.KB.outs m) c) main_v50 o)
          ∗ (∃ W, owes (c : Thread nD τ) (0 : CellTallies nD τ sig Unit) W)) := by
  have hne : ∀ b : Ref sig .tc, b ≠ main_v50 →
      Function.update (V33 m (Cert.Proof.KB.outs m) c) (Proc.devRef .tc main_v50) o (Proc.devRef .tc b) = V33 m (Cert.Proof.KB.outs m) c b :=
    fun b hb => Function.update_of_ne (StableHlo.devRef_ne_of_ne hb) _ _
  have hz : (bigSep restZ fun b => (((c : Thread nD τ).loc b) ↦{fullShare} Function.update (V33 m (Cert.Proof.KB.outs m) c) (Proc.devRef .tc main_v50) o b : sProp 𝕄))
      = Z0 m c :=
    BI.bigSep_congr fun b hb => by
      rw [hne b (fun e => by subst e; revert hb; decide)]
  rw [held_split m c (Function.update (V33 m (Cert.Proof.KB.outs m) c) main_v50 o), arrays_two, hz,
    hne main_arg1 (by decide), hne main_v48 (by decide), hne main_v49 (by decide), hne main_arg0 (by decide),
    Function.update_self, ent_arg0, ent_arg1,
    show V33 m (Cert.Proof.KB.outs m) c main_v48 = hTab m from ent_tab m (Cert.Proof.KB.outs m) c 0, show V33 m (Cert.Proof.KB.outs m) c main_v49 = tTab m from ent_tab m (Cert.Proof.KB.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec14 osem := by decide

/-- What region 0 leaves in the output's array, by name: the fold of its write-backs. -/
theorem outs6 (c : Dev nD) : Cert.Proof.KB.outs m 34 main_v50 c = (dat0 m c).arrAt 1 (cfgA m).N :=
  Pipeline.withArrays_arr spec14 winFacts14.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KB.adm m) (Cert.Proof.KB.pdats m) () defs₀ Variants.none
      Cert.Proof.KB.L Cert.Proof.KB.lv (14 : Fin 16) where
  win := (launch14 (F := F)).win.to₀
  block_pos := (launch14 (F := F)).block_pos
  stage_whole := (launch14 (F := F)).stage_whole
  K := Fin 2
  osem := osem
  ho := ownSemFacts
  hbody c := (body_obligation m hH hTl c).loose
  hwaits := Pipeline.hwaits_of_owed_zero _ _ _ _ Cert.Proof.KB.L Cert.Proof.KB.lv (14 : Fin 16) fun _ _ => rfl
  pre c := iprop(StableHlo.held (c : Thread nD τ) (Pipeline.ucRefs τ sig) (V33 m (Cert.Proof.KB.outs m) c) ∗ Cert.Proof.KB.E 14 c)
  post c := iprop(StableHlo.held (c : Thread nD τ) (Pipeline.ucRefs τ sig) (V34 m (Cert.Proof.KB.outs m) c) ∗ Cert.Proof.KB.E 15 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KB.outs m 34 main_v50 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V33 m (Cert.Proof.KB.outs m) c) ∗ Cert.Proof.KB.E 14 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V34 m (Cert.Proof.KB.outs m) c) ∗ Cert.Proof.KB.E 15 c) := .rfl

end Cert.Proof.KB14

end
-- ==== Proof.KB15Chains.lean ====
/-
  Region 15 is entered from the valuation after item 34 of @main. No earlier item writes the node table, the relation row,
  the region's output array or the padded index rows, and the region's two tables are the slices cut out of the padded
  rows at offset 983040: each buffer the region is handed holds a function of the launch memory alone.
-/
import proofs.«414028_j29231547417249_2_alg».proof.Proof.KBAdm
import Idealize.ShloMosaic.Lib.StableHlo.Run

set_option maxRecDepth 4096

noncomputable section

namespace Cert.Proof.KB15

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ) (outs : Outs (F := F))

theorem ent_arg0 (c : Dev nD) : V35 m outs c main_arg0 = m ((c : Thread nD τ).loc main_arg0) :=
  (V35_of m outs c main_arg0 (by decide)).trans <| (V34_of m outs c main_arg0 (by decide)).trans <| (V33_of m outs c main_arg0 (by decide)).trans <| (V32_of m outs c main_arg0 (by decide)).trans <| (V31_of m outs c main_arg0 (by decide)).trans <| (V30_of m outs c main_arg0 (by decide)).trans <| (V29_of m outs c main_arg0 (by decide)).trans <| (V28_of m outs c main_arg0 (by decide)).trans <| (V27_of m outs c main_arg0 (by decide)).trans <| (V26_of m outs c main_arg0 (by decide)).trans <| (V25_of m outs c main_arg0 (by decide)).trans <| (V24_of m outs c main_arg0 (by decide)).trans <| (V23_of m outs c main_arg0 (by decide)).trans <| (V22_of m outs c main_arg0 (by decide)).trans <| (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem ent_arg1 (c : Dev nD) : V35 m outs c main_arg1 = m ((c : Thread nD τ).loc main_arg1) :=
  (V35_of m outs c main_arg1 (by decide)).trans <| (V34_of m outs c main_arg1 (by decide)).trans <| (V33_of m outs c main_arg1 (by decide)).trans <| (V32_of m outs c main_arg1 (by decide)).trans <| (V31_of m outs c main_arg1 (by decide)).trans <| (V30_of m outs c main_arg1 (by decide)).trans <| (V29_of m outs c main_arg1 (by decide)).trans <| (V28_of m outs c main_arg1 (by decide)).trans <| (V27_of m outs c main_arg1 (by decide)).trans <| (V26_of m outs c main_arg1 (by decide)).trans <| (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem ent_out (c : Dev nD) : V35 m outs c main_v53 = m ((c : Thread nD τ).loc main_v53) :=
  (V35_of m outs c main_v53 (by decide)).trans <| (V34_of m outs c main_v53 (by decide)).trans <| (V33_of m outs c main_v53 (by decide)).trans <| (V32_of m outs c main_v53 (by decide)).trans <| (V31_of m outs c main_v53 (by decide)).trans <| (V30_of m outs c main_v53 (by decide)).trans <| (V29_of m outs c main_v53 (by decide)).trans <| (V28_of m outs c main_v53 (by decide)).trans <| (V27_of m outs c main_v53 (by decide)).trans <| (V26_of m outs c main_v53 (by decide)).trans <| (V25_of m outs c main_v53 (by decide)).trans <| (V24_of m outs c main_v53 (by decide)).trans <| (V23_of m outs c main_v53 (by decide)).trans <| (V22_of m outs c main_v53 (by decide)).trans <| (V21_of m outs c main_v53 (by decide)).trans <| (V20_of m outs c main_v53 (by decide)).trans <| (V19_of m outs c main_v53 (by decide)).trans <| (V18_of m outs c main_v53 (by decide)).trans <| (V17_of m outs c main_v53 (by decide)).trans <| (V16_of m outs c main_v53 (by decide)).trans <| (V15_of m outs c main_v53 (by decide)).trans <| (V14_of m outs c main_v53 (by decide)).trans <| (V13_of m outs c main_v53 (by decide)).trans <| (V12_of m outs c main_v53 (by decide)).trans <| (V11_of m outs c main_v53 (by decide)).trans <| (V10_of m outs c main_v53 (by decide)).trans <| (V9_of m outs c main_v53 (by decide)).trans <| (V8_of m outs c main_v53 (by decide)).trans <| (V7_of m outs c main_v53 (by decide)).trans <| (V6_of m outs c main_v53 (by decide)).trans <| (V5_of m c main_v53 (by decide)).trans <| (V4_of m c main_v53 (by decide)).trans <| (V3_of m c main_v53 (by decide)).trans <| (V2_of m c main_v53 (by decide)).trans <| (V1_of m c main_v53 (by decide)).trans <| rfl
/-- The stretch before the region cuts the table out of the padded row, whatever the valuation it runs from. -/
theorem slice_h (X : Valuation τ sig (Elt F)) :
    StableHlo.after (hostOps15 (F := F)) X (Proc.devRef .tc main_v51)
      = extractStridedSlice S65536 ![983040] (X (Proc.devRef .tc main_v4)) slices_S1048576_S65536_983040 := by
  after_results
/-- The stretch before the region cuts the table out of the padded row, whatever the valuation it runs from. -/
theorem slice_t (X : Valuation τ sig (Elt F)) :
    StableHlo.after (hostOps15 (F := F)) X (Proc.devRef .tc main_v52)
      = extractStridedSlice S65536 ![983040] (X (Proc.devRef .tc main_v5)) slices_S1048576_S65536_983040 := by
  after_results
theorem ent_tab0 (c : Dev nD) : V35 m outs c main_v51 = Cert.Proof.KB.tv15 m main_v51 := by
  obtain rfl : c = (0 : Dev nD) := Subsingleton.elim _ _
  have e : V34 m outs (0 : Dev nD) main_v4 = V5 m (0 : Dev nD) main_v4 :=
    (V34_of m outs (0 : Dev nD) main_v4 (by decide)).trans <| (V33_of m outs (0 : Dev nD) main_v4 (by decide)).trans <| (V32_of m outs (0 : Dev nD) main_v4 (by decide)).trans <| (V31_of m outs (0 : Dev nD) main_v4 (by decide)).trans <| (V30_of m outs (0 : Dev nD) main_v4 (by decide)).trans <| (V29_of m outs (0 : Dev nD) main_v4 (by decide)).trans <| (V28_of m outs (0 : Dev nD) main_v4 (by decide)).trans <| (V27_of m outs (0 : Dev nD) main_v4 (by decide)).trans <| (V26_of m outs (0 : Dev nD) main_v4 (by decide)).trans <| (V25_of m outs (0 : Dev nD) main_v4 (by decide)).trans <| (V24_of m outs (0 : Dev nD) main_v4 (by decide)).trans <| (V23_of m outs (0 : Dev nD) main_v4 (by decide)).trans <| (V22_of m outs (0 : Dev nD) main_v4 (by decide)).trans <| (V21_of m outs (0 : Dev nD) main_v4 (by decide)).trans <| (V20_of m outs (0 : Dev nD) main_v4 (by decide)).trans <| (V19_of m outs (0 : Dev nD) main_v4 (by decide)).trans <| (V18_of m outs (0 : Dev nD) main_v4 (by decide)).trans <| (V17_of m outs (0 : Dev nD) main_v4 (by decide)).trans <| (V16_of m outs (0 : Dev nD) main_v4 (by decide)).trans <| (V15_of m outs (0 : Dev nD) main_v4 (by decide)).trans <| (V14_of m outs (0 : Dev nD) main_v4 (by decide)).trans <| (V13_of m outs (0 : Dev nD) main_v4 (by decide)).trans <| (V12_of m outs (0 : Dev nD) main_v4 (by decide)).trans <| (V11_of m outs (0 : Dev nD) main_v4 (by decide)).trans <| (V10_of m outs (0 : Dev nD) main_v4 (by decide)).trans <| (V9_of m outs (0 : Dev nD) main_v4 (by decide)).trans <| (V8_of m outs (0 : Dev nD) main_v4 (by decide)).trans <| (V7_of m outs (0 : Dev nD) main_v4 (by decide)).trans <| (V6_of m outs (0 : Dev nD) main_v4 (by decide)).trans <| rfl
  exact (slice_h (V34 m outs (0 : Dev nD))).trans ((congrArg (extractStridedSlice S65536 ![983040] · slices_S1048576_S65536_983040) e).trans (slice_h (V5 m (0 : Dev nD))).symm)
theorem ent_tab1 (c : Dev nD) : V35 m outs c main_v52 = Cert.Proof.KB.tv15 m main_v52 := by
  obtain rfl : c = (0 : Dev nD) := Subsingleton.elim _ _
  have e : V34 m outs (0 : Dev nD) main_v5 = V5 m (0 : Dev nD) main_v5 :=
    (V34_of m outs (0 : Dev nD) main_v5 (by decide)).trans <| (V33_of m outs (0 : Dev nD) main_v5 (by decide)).trans <| (V32_of m outs (0 : Dev nD) main_v5 (by decide)).trans <| (V31_of m outs (0 : Dev nD) main_v5 (by decide)).trans <| (V30_of m outs (0 : Dev nD) main_v5 (by decide)).trans <| (V29_of m outs (0 : Dev nD) main_v5 (by decide)).trans <| (V28_of m outs (0 : Dev nD) main_v5 (by decide)).trans <| (V27_of m outs (0 : Dev nD) main_v5 (by decide)).trans <| (V26_of m outs (0 : Dev nD) main_v5 (by decide)).trans <| (V25_of m outs (0 : Dev nD) main_v5 (by decide)).trans <| (V24_of m outs (0 : Dev nD) main_v5 (by decide)).trans <| (V23_of m outs (0 : Dev nD) main_v5 (by decide)).trans <| (V22_of m outs (0 : Dev nD) main_v5 (by decide)).trans <| (V21_of m outs (0 : Dev nD) main_v5 (by decide)).trans <| (V20_of m outs (0 : Dev nD) main_v5 (by decide)).trans <| (V19_of m outs (0 : Dev nD) main_v5 (by decide)).trans <| (V18_of m outs (0 : Dev nD) main_v5 (by decide)).trans <| (V17_of m outs (0 : Dev nD) main_v5 (by decide)).trans <| (V16_of m outs (0 : Dev nD) main_v5 (by decide)).trans <| (V15_of m outs (0 : Dev nD) main_v5 (by decide)).trans <| (V14_of m outs (0 : Dev nD) main_v5 (by decide)).trans <| (V13_of m outs (0 : Dev nD) main_v5 (by decide)).trans <| (V12_of m outs (0 : Dev nD) main_v5 (by decide)).trans <| (V11_of m outs (0 : Dev nD) main_v5 (by decide)).trans <| (V10_of m outs (0 : Dev nD) main_v5 (by decide)).trans <| (V9_of m outs (0 : Dev nD) main_v5 (by decide)).trans <| (V8_of m outs (0 : Dev nD) main_v5 (by decide)).trans <| (V7_of m outs (0 : Dev nD) main_v5 (by decide)).trans <| (V6_of m outs (0 : Dev nD) main_v5 (by decide)).trans <| rfl
  exact (slice_t (V34 m outs (0 : Dev nD))).trans ((congrArg (extractStridedSlice S65536 ![983040] · slices_S1048576_S65536_983040) e).trans (slice_t (V5 m (0 : Dev nD))).symm)
theorem ent_tab (c : Dev nD) (k : Fin 2) : V35 m outs c (pre15.ref k) = Cert.Proof.KB.tbl15 m k :=
  match k with
  | ⟨0, _⟩ => ent_tab0 m outs c
  | ⟨1, _⟩ => ent_tab1 m outs c

end Cert.Proof.KB15

end
-- ==== Proof.KB15Points.lean ====
/-
  The grid points of kernel region 0, at a symbolic point.

  The grid is 512 x 128, run in row-major order: point `t` (of 65536) has first coordinate `t / 128` and second
  coordinate `t % 128`. Window 0 (the relation row, an input) has one block, the whole (1, 256) array, at every
  point: it is fetched at point 0 only. Window 1 (the result, an output of 65536 entries in blocks of 128) has block
  index the first coordinate: its block is written back at the last point of each row of the grid, where the second
  coordinate is 127. No point is idle. Nothing here reads the prefetched tables: every statement is for arbitrary
  admissible contents of them.
-/
import proofs.«414028_j29231547417249_2_alg».proof.Proof.Gen.Kernel
import proofs.«414028_j29231547417249_2_alg».proof.Proof.Gen.Kernel.Launch
import Idealize.ShloMosaic.Lib.Pipeline.Dat

noncomputable section

namespace Cert.Proof.KB15

open Cert.Kernel Cert.Kernel.Gen Idealize.ShloMosaic

variable {F : FTy → Type} [FloatOps F] (a : (pcfg15 (F := F)).Adm)

/-! ## The points and their coordinates -/

theorem N_eq : (cfg15 a).N = 65536 := N_15

theorem lt_N (t : Fin (cfg15 a).N) : t.val < 65536 := Nat.lt_of_lt_of_eq t.isLt (N_eq a)

/-- Each value of the first coordinate is shared by 128 consecutive points, each value of the second by one. -/
theorem stride0 : grid15.stride 0 = 128 := by decide
theorem stride1 : grid15.stride 1 = 1 := by decide

theorem coords0 (t : Fin (cfg15 a).N) : (((cfg15 a).grid.coords t) 0).val = t.val / 128 := by
  have ht := lt_N a t
  show t.val / grid15.stride 0 % 512 = t.val / 128
  rw [stride0]; omega

theorem coords1 (t : Fin (cfg15 a).N) : (((cfg15 a).grid.coords t) 1).val = t.val % 128 := by
  show t.val / grid15.stride 1 % 128 = t.val % 128
  rw [stride1, Nat.div_one]

theorem flat_eq (t : Fin (cfg15 a).N) :
    (((cfg15 a).grid.coords t) 0).val * 128 + (((cfg15 a).grid.coords t) 1).val = t.val := by
  rw [coords0, coords1]; omega

/-! ## The windows' block indices -/

/-- Window 0's block index is constant. -/
theorem index0 (s t : Fin (cfg15 a).N) : ((cfg15 a).win 0).index s = ((cfg15 a).win 0).index t := rfl

/-- Window 1's block index at a point is the point's first coordinate. -/
theorem index1 (s : Fin (cfg15 a).N) : ((cfg15 a).win 1).index s = ![s.val / 128] := by
  have hs := lt_N a s
  show ![(BitVec.ofNat 32 (((cfg15 a).grid.coords s) 0).val).toNat] = ![s.val / 128]
  rw [coords0 a s, BitVec.toNat_ofNat, Nat.mod_eq_of_lt (by omega)]

/-! ## Fetches and write-backs -/

theorem fetch0 (t : Fin (cfg15 a).N) : ((cfg15 a).win 0).fetch t = decide (t.val = 0) := by
  unfold Pipeline.Window.fetch
  rw [decide_eq_false (p := ∃ h : 0 < t.val, _) (fun ⟨_, hne⟩ => hne (index0 a _ _))]
  show (!false && (decide (t.val = 0) || false)) = decide (t.val = 0)
  cases decide (t.val = 0) <;> rfl

theorem fetch1 (t : Fin (cfg15 a).N) : ((cfg15 a).win 1).fetch t = false := by
  unfold Pipeline.Window.fetch
  show (!true && _) = false
  rfl

theorem flush0 (t : Fin (cfg15 a).N) : ((cfg15 a).win 0).flush t = false := by
  unfold Pipeline.Window.flush
  show (false && _) = false
  rfl

theorem flush1 (t : Fin (cfg15 a).N) : ((cfg15 a).win 1).flush t = decide (t.val % 128 = 127) := by
  have ht := lt_N a t
  have hN : (cfg15 a).grid.N = 65536 := N_eq a
  unfold Pipeline.Window.flush
  show (true && (decide (t.val + 1 = (cfg15 a).grid.N)
    || decide (∃ h : t.val + 1 < (cfg15 a).grid.N, ((cfg15 a).win 1).index ⟨t.val + 1, h⟩ ≠ ((cfg15 a).win 1).index t)))
      = decide (t.val % 128 = 127)
  rw [Bool.true_and, Bool.eq_iff_iff, Bool.or_eq_true, decide_eq_true_eq, decide_eq_true_eq, decide_eq_true_eq]
  constructor
  · rintro (h | ⟨h, hne⟩)
    · omega
    · rw [index1, index1] at hne
      by_contra hc
      exact hne (by rw [show (t.val + 1) / 128 = t.val / 128 by omega])
  · intro h
    by_cases hl : t.val + 1 = (cfg15 a).grid.N
    · exact .inl hl
    · refine .inr ⟨by omega, ?_⟩
      rw [index1, index1]
      intro he
      have h2 : (t.val + 1) / 128 = t.val / 128 := congrFun he 0
      omega

/-- No window is idle at any point. -/
theorem idle_eq (w : Fin (cfg15 a).W) (t : Fin (cfg15 a).N) : (cfg15 a).idle w ((cfg15 a).grid.coords t) = false := rfl

/-! ## The body's test "second grid coordinate is 0" -/

/-- On a word below 128: compare with zero, widen the bit, test it against zero. -/
theorem isFirst_word (c : Nat) (hc : c < 128) :
    Scalar.cmpi .ne (Scalar.extui (Scalar.cmpi .eq (BitVec.ofNat 32 c) 0#32)) 0#32 = 1#1 ↔ c = 0 := by
  by_cases h0 : c = 0
  · subst h0
    exact ⟨fun _ => rfl, fun _ => by decide⟩
  · have hne : (BitVec.ofNat 32 c == 0#32) = false := by
      rw [beq_eq_false_iff_ne]
      intro h
      apply h0
      have h1 := congrArg BitVec.toNat h
      rw [BitVec.toNat_ofNat, Nat.mod_eq_of_lt (by omega)] at h1
      exact h1
    have hz : Scalar.cmpi .eq (BitVec.ofNat 32 c) 0#32 = 0#1 := by
      show BitVec.ofBool (BitVec.ofNat 32 c == 0#32) = 0#1
      rw [hne]; rfl
    rw [hz]
    exact ⟨fun h => absurd h (by decide), fun h => absurd h h0⟩

/-- The body's test "second grid coordinate is 0", as the kernel computes it on 32-bit words. -/
theorem isFirst_iff (t : Fin (cfg15 a).N) :
    Scalar.cmpi .ne (Scalar.extui (Scalar.cmpi .eq (BitVec.ofNat 32 (((cfg15 a).grid.coords t) 1).val) 0#32)) 0#32 = 1#1
      ↔ t.val % 128 = 0 := by
  rw [coords1]
  exact isFirst_word _ (Nat.mod_lt _ (by decide))

/-! ## The windows' blocks -/

/-- Window 0's block is the whole (1, 256) array at every point. -/
theorem blk0_read (t : Fin (cfg15 a).N) (A : Vec F S1x256 .f32) (y : S1x256.Idx) :
    (((cfg15 a).win 0).blk t).view.read (Elt F) A y = A y := by
  show A ((((cfg15 a).win 0).rect t).emb y) = A y
  refine congrArg A (funext fun (b : Fin 2) => Fin.ext ?_)
  match b with
  | ⟨0, _⟩ => show 0 * 1 + 1 * (y 0).val = (y 0).val; omega
  | ⟨1, _⟩ => show 0 * 256 + 1 * (y 1).val = (y 1).val; omega

/-- Window 1's block at point `t` is entries `128 * (t / 128)` to `128 * (t / 128) + 127` of the result array. -/
theorem blk1_emb (t : Fin (cfg15 a).N) (y : S128.Idx) :
    ((((cfg15 a).win 1).blk t).view.emb y (0 : Fin 1)).val = 128 * (t.val / 128) + (y 0).val := by
  have hi : ((cfg15 a).win 1).index t (0 : Fin 1) = t.val / 128 := by rw [index1]; rfl
  show ((cfg15 a).win 1).index t (0 : Fin 1) * 128 + 1 * (y 0).val = 128 * (t.val / 128) + (y 0).val
  rw [hi]; omega

end Cert.Proof.KB15

end
-- ==== Proof.KB15Body.lean ====
/-
  Region 0's kernel body run at a symbolic grid point, generic in the float family. At point (i0, i1) the body reads
  word i0 * 128 + i1 of the head table and of the tail table (each assumed below the node table's height), copies the
  two node-table rows those words name into the two scratch blocks by its own transfers (the node table read under
  two read shares, one per transfer), waits for both, loads the two scratch blocks and the relation block, and stores
  into the output block: at a first step (i1 = 0) the zero block and then the point's contribution added to the zero
  block read back; at a later step the contribution added to the block's contents. One run each, from the tables, the
  node table's two shares, the scratch blocks, the two semaphores at zero, the waits owed and the two staged blocks,
  all handed back: `run_first` leaves the output block at `firstv` and `run_step` at `stepv` of the two rows
  `rowB node (tword · i)`. The scratch block loaded back after its transfer is the transfer's payload, the node table
  read through the one-row slice, which is that row because the word is below the table's height.
-/
import proofs.«414028_j29231547417249_2_alg».proof.Proof.KB15Defs
import proofs.«414028_j29231547417249_2_alg».proof.Proof.Gen.Kernel.Launch
import Idealize.ShloMosaic.Lib.Tactic

noncomputable section

namespace Cert.Proof.KB15

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-! ## The output block after the body's stores -/

theorem zero1 : (![0] : Fin 1 → Nat) = fun _ => 0 := by funext a; fin_cases a; rfl

/-- A later step's one whole-block store leaves its payload: the loads in it read the two rows, the relation block
    and the block's contents. -/
theorem out_step {sp : Space} (m : Memref sig .tc sp S128 .f32) (X18 X19 X20 hrow trow rel : Vec F S1x256 .f32)
    (V51 acc : Vec F S128 .f32) (j : BitVec 32) (e18 : X18 = hrow) (e19 : X19 = trow) (e20 : X20 = rel) (e51 : V51 = acc) :
    m.view.read (Elt F) (m.view.writes (Elt F) m.view.junk
        [⟨Rect.unit (s := S128) ![0] S128.size inb_S128_S128_0, k15_pay2 j (k15_pay6 X18 X19 X20) (k15_pay7 X18 X19 X20) V51⟩])
      = stepv hrow trow rel j acc := by
  subst e18 e19 e20 e51
  rw [View.read_writes_junk_eq_canon]
  exact View.canon_unit_zero zero1 _ _

/-- A first step's two whole-block stores leave the later one's payload, whose last argument is the zero block read
    back through the earlier store. -/
theorem out_first {sp : Space} (m : Memref sig .tc sp S128 .f32) (X18 X19 X20 hrow trow rel : Vec F S1x256 .f32)
    (j : BitVec 32) (e18 : X18 = hrow) (e19 : X19 = trow) (e20 : X20 = rel) :
    m.view.read (Elt F) (m.view.writes (Elt F) m.view.junk
        [⟨Rect.unit (s := S128) ![0] S128.size inb_S128_S128_0,
            k15_pay2 j (k15_pay6 X18 X19 X20) (k15_pay7 X18 X19 X20)
              (m.view.readCov [⟨Rect.unit (s := S128) ![0] S128.size inb_S128_S128_0, k15_pay1 (F := F)⟩]
                (Rect.unit (s := S128) ![0] S128.size inb_S128_S128_0).toLoadRect)⟩,
          ⟨Rect.unit (s := S128) ![0] S128.size inb_S128_S128_0, k15_pay1 (F := F)⟩])
      = firstv hrow trow rel j := by
  subst e18 e19 e20
  rw [View.read_writes_junk_eq_canon, View.readCov_unit_zero m.view zero1]
  exact View.canon_cons_unit_zero zero1 _ _ _

/-- A first step (i1 = 0): the output block, whatever it held, ends at `firstv` of the two rows the table words name
    and the relation block; everything else is handed back as it was taken (the scratch blocks rewritten). -/
theorem run_first (c : Dev nD) (i : grid15.Coords) (M5 : Memref sig .tc .vmem S1x256 .f32) (h5 : M5.IsWhole) (M6 : Memref sig .tc .vmem S128 .f32) (h6 : M6.IsWhole)
    (hT : Bf (F := F) c (Memref.whole main_v51)) (tT : Bf (F := F) c (Memref.whole main_v52)) (node : Bf (F := F) c (Memref.whole main_arg0))
    (x5 : Vec F S1x256 .f32) (W : Waits sig Unit)
    (hw1 : (tword hT i).toNat < 200000) (hw2 : (tword tT i).toNat < 200000) (hF : IsFirst i) (Q : PUnit → sProp 𝕄) :
    iprop(pt c (Memref.whole main_v51) hT ∗ pt c (Memref.whole main_v52) tT ∗ nodeSh c node
      ∗ (∃ s0, pt c (Memref.whole cc15_scratch0) s0) ∗ (∃ s1, pt c (Memref.whole cc15_scratch1) s1) ∗ sems0 c ∗ (∃ W, owes (c : Thread nD τ) 0 W)
      ∗ owns (c : Thread nD τ) M5 fullShare x5 ∗ (∃ d, owns (c : Thread nD τ) M6 fullShare d)
      ∗ (iprop(pt c (Memref.whole main_v51) hT ∗ pt c (Memref.whole main_v52) tT ∗ nodeSh c node
          ∗ (∃ s0, pt c (Memref.whole cc15_scratch0) s0) ∗ (∃ s1, pt c (Memref.whole cc15_scratch1) s1) ∗ sems0 c ∗ (∃ W, owes (c : Thread nD τ) 0 W)
          ∗ owns (c : Thread nD τ) M5 fullShare x5
          ∗ owns (c : Thread nD τ) M6 fullShare (firstv (rowB node (tword hT i)) (rowB node (tword tT i)) x5 (BitVec.ofNat 32 (i 1).val))) -∗ Q ⟨⟩))
    ⊢ wp frame (wpE (defs₀ (F := F)) Variants.none c none) Set.univ
        (cc15__lookup_kernel i (Memref.whole main_v51) (Memref.isWhole_whole _) (Memref.whole main_v52) (Memref.isWhole_whole _) (Memref.whole main_arg0) (Memref.isWhole_whole _)
          M5 h5 M6 h6 (Memref.whole cc15_scratch0) (Memref.isWhole_whole _) (Memref.whole cc15_scratch1) (Memref.isWhole_whole _) cc15_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%d6, %f6, %hf6, H6⟩, Hk⟩
  subst hf5
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_first M6 _ _ _ _ _ _ _
    ((readback256 _ _ _).trans (read_row c node _ _ rfl _ _ hw1))
    ((readback256 _ _ _).trans (read_row c node _ _ rfl _ _ hw2))
    (load256 M5 f5)

/-- A later step (i1 ≠ 0): the output block at contents `acc` ends at `stepv` of the two rows, the relation block and
    `acc`; everything else is handed back as it was taken (the scratch blocks rewritten). -/
theorem run_step (c : Dev nD) (i : grid15.Coords) (M5 : Memref sig .tc .vmem S1x256 .f32) (h5 : M5.IsWhole) (M6 : Memref sig .tc .vmem S128 .f32) (h6 : M6.IsWhole)
    (hT : Bf (F := F) c (Memref.whole main_v51)) (tT : Bf (F := F) c (Memref.whole main_v52)) (node : Bf (F := F) c (Memref.whole main_arg0))
    (x5 : Vec F S1x256 .f32) (acc : Vec F S128 .f32) (W : Waits sig Unit)
    (hw1 : (tword hT i).toNat < 200000) (hw2 : (tword tT i).toNat < 200000) (hF : ¬ IsFirst i) (Q : PUnit → sProp 𝕄) :
    iprop(pt c (Memref.whole main_v51) hT ∗ pt c (Memref.whole main_v52) tT ∗ nodeSh c node
      ∗ (∃ s0, pt c (Memref.whole cc15_scratch0) s0) ∗ (∃ s1, pt c (Memref.whole cc15_scratch1) s1) ∗ sems0 c ∗ (∃ W, owes (c : Thread nD τ) 0 W)
      ∗ owns (c : Thread nD τ) M5 fullShare x5 ∗ owns (c : Thread nD τ) M6 fullShare acc
      ∗ (iprop(pt c (Memref.whole main_v51) hT ∗ pt c (Memref.whole main_v52) tT ∗ nodeSh c node
          ∗ (∃ s0, pt c (Memref.whole cc15_scratch0) s0) ∗ (∃ s1, pt c (Memref.whole cc15_scratch1) s1) ∗ sems0 c ∗ (∃ W, owes (c : Thread nD τ) 0 W)
          ∗ owns (c : Thread nD τ) M5 fullShare x5
          ∗ owns (c : Thread nD τ) M6 fullShare (stepv (rowB node (tword hT i)) (rowB node (tword tT i)) x5 (BitVec.ofNat 32 (i 1).val) acc)) -∗ Q ⟨⟩))
    ⊢ wp frame (wpE (defs₀ (F := F)) Variants.none c none) Set.univ
        (cc15__lookup_kernel i (Memref.whole main_v51) (Memref.isWhole_whole _) (Memref.whole main_v52) (Memref.isWhole_whole _) (Memref.whole main_arg0) (Memref.isWhole_whole _)
          M5 h5 M6 h6 (Memref.whole cc15_scratch0) (Memref.isWhole_whole _) (Memref.whole cc15_scratch1) (Memref.isWhole_whole _) cc15_scratch2) Q := by
  unfold owns
  iintro ⟨HhT, HtT, ⟨Hn0, Hn1⟩, ⟨%s0, Hs0⟩, ⟨%s1, Hs1⟩, ⟨Hd0, Hd1⟩, ⟨%W0, HO⟩, ⟨%f5, %hf5, H5⟩, ⟨%f6, %hf6, H6⟩, Hk⟩
  subst hf5 hf6
  sl_exec! (disch := first | assumption | exact chk1_of_lt _ hw1 | exact chk2_of_lt _ hw2)
  sl_step
  iapply Hk
  isplitl [HhT]; · iexact HhT
  isplitl [HtT]; · iexact HtT
  isplitl [Hn0 Hn1]; · isplitl [Hn0]; (· iexact Hn0); iexact Hn1
  isplitl [Hs0]; · iexists _; iexact Hs0
  isplitl [Hs1]; · iexists _; iexact Hs1
  isplitl [Hd0 Hd1]; · isplitl [Hd0]; (· iexact Hd0); iexact Hd1
  isplitl [HO]; · iexists _; iexact HO
  isplitl [H5]; · iexists f5; isplitr; (· ipureintro; rfl); iexact H5
  iexists _; isplitr; swap; (· iexact H6); ipureintro
  sl_unfold_run_names
  exact out_step M6 _ _ _ _ _ _ _ _ _
    ((readback256 _ _ _).trans (read_row c node _ _ rfl _ _ hw1))
    ((readback256 _ _ _).trans (read_row c node _ _ rfl _ _ hw2))
    (load256 M5 f5)
    (load128 M6 f6)

end Cert.Proof.KB15

end
-- ==== Proof.KB15Oblig.lean ====
/-
  Region 0's body obligation. The kernel runs over 512 rows of 128 steps. The relation row's window holds the whole
  (1, 256) array at every point: the fetch at point 0 fills it, and no later point fetches it or writes it back, so
  each point finds what the body, which only reads it, left there. The output window's block stays in its buffer
  through the 128 steps of a row and is written back after the last: at a row's first step the buffer holds anything
  (it is the run's first point, or the point before wrote the block back) and the body stores the zero block and adds
  the point's contribution; at a later step it holds what the step before left, and the body adds the point's
  contribution to that. So the obligation at a point is the body's run of the point's kind, between two copies of the
  invariant (the tables, the node table, the scratch rows and the semaphores come back as they were), with the two
  table words of the point naming rows of the node table.
-/
import proofs.«414028_j29231547417249_2_alg».proof.Proof.KB15Data
import proofs.«414028_j29231547417249_2_alg».proof.Proof.KB15Points
import proofs.«414028_j29231547417249_2_alg».proof.Proof.KB15Body
import proofs.«414028_j29231547417249_2_alg».proof.Proof.Gen.Kernel.Launch
import Idealize.ShloMosaic.Lib.Pipeline.Frame

noncomputable section

namespace Cert.Proof.KB15

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## What the windows' buffers hold when the body runs -/

/-- The point before a later one. -/
abbrev prev (t : Fin (cfgA m).N) : Fin (cfgA m).N := ⟨t.val - 1, Nat.lt_of_le_of_lt (Nat.sub_le _ _) t.isLt⟩

/-- The relation window's buffer holds the relation row at every point: at point 0 the fetch has just filled it
    with the whole array; later nothing has touched it since the body, which leaves the row there. -/
theorem before_0 (c : Dev nD) (t : Fin (cfgA m).N) (d) : (dat0 m c).before (0 : Fin 2) t d = relA m c := by
  by_cases h0 : t.val = 0
  · have hf : ((cfgA m).win (0 : Fin 2)).fetch t = true := (fetch0 (adm0 m) t).trans (decide_eq_true h0)
    rw [(dat0 m c).before_fetched (0 : Fin 2) t hf]
    unfold Dat.fetched Dat.blockOf
    dsimp only [dat0]
    funext y
    exact blk0_read (adm0 m) t (relA m c) y
  · have hf : ((cfgA m).win (0 : Fin 2)).fetch t = false := (fetch0 (adm0 m) t).trans (decide_eq_false h0)
    have hl : ((cfgA m).win (0 : Fin 2)).flush (prev m t) = false := flush0 (adm0 m) (prev m t)
    rw [(dat0 m c).before_of_pos (0 : Fin 2) t h0 hf, hl, if_neg Bool.false_ne_true]
    unfold Dat.left Dat.kept
    dsimp only [dat0]
    rfl

/-- At a row's first step the output window's buffer holds anything: it is the run's first point, or the point
    before wrote the block back. -/
theorem before_1_first (c : Dev nD) (t : Fin (cfgA m).N) (h : t.val % 128 = 0) (d) :
    (dat0 m c).before (1 : Fin 2) t d = d := by
  have hf : ((cfgA m).win (1 : Fin 2)).fetch t = false := fetch1 (adm0 m) t
  by_cases h0 : t.val = 0
  · unfold Dat.before
    rw [hf, if_neg Bool.false_ne_true, if_pos h0]
  · have hl : ((cfgA m).win (1 : Fin 2)).flush (prev m t) = true :=
      (flush1 (adm0 m) (prev m t)).trans (decide_eq_true (by show (t.val - 1) % 128 = 127; omega))
    rw [(dat0 m c).before_of_pos (1 : Fin 2) t h0 hf, hl, if_pos rfl]

/-- At a later step of a row it holds what the step before left. -/
theorem before_1_step (c : Dev nD) (t : Fin (cfgA m).N) (h : t.val % 128 ≠ 0) (d) :
    (dat0 m c).before (1 : Fin 2) t d = accA m c (t.val - 1) (prev m t).isLt := by
  have h0 : t.val ≠ 0 := fun h' => h (by rw [h'])
  have hf : ((cfgA m).win (1 : Fin 2)).fetch t = false := fetch1 (adm0 m) t
  have hl : ((cfgA m).win (1 : Fin 2)).flush (prev m t) = false :=
    (flush1 (adm0 m) (prev m t)).trans (decide_eq_false (by show ¬ (t.val - 1) % 128 = 127; omega))
  rw [(dat0 m c).before_of_pos (1 : Fin 2) t h0 hf, hl, if_neg Bool.false_ne_true]
  unfold Dat.left Dat.kept
  dsimp only [dat0]
  rfl

theorem after_0 (c : Dev nD) (t : Fin (cfgA m).N) : (dat0 m c).after (0 : Fin 2) t = relA m c := by dsimp only [dat0]
theorem after_1 (c : Dev nD) (t : Fin (cfgA m).N) : (dat0 m c).after (1 : Fin 2) t = accA m c t.val t.isLt := by dsimp only [dat0]

/-- The core owes nothing before any point, and no bound is put on its recorded pairs. -/
theorem owesAt_intro (c : Dev nD) (t : Fin ((cfgA m).N + 1)) (W' : Waits sig Unit) :
    owes (c : Thread nD τ) 0 W' ⊢ ((dat0 m c).owesAt () t : sProp 𝕄) := by
  unfold Dat.owesAt Pipeline.owesWithin
  rw [show (dat0 m c).owed t = 0 from rfl]
  iintro HO; iexists W'; isplitr; · ipureintro; exact fun _ _ => Or.inl trivial
  iexact HO

/-! ## The obligation -/

/-- At every point the body runs from the invariant, the core's owing nothing and the two windows' buffers at what
    they then hold, to the same with the output buffer at the fold so far: by the point's kind, the run of that kind.
    Every table word is below the node table's height, so the two words of the point name rows of it. -/
theorem body_obligation (hH : ∀ j : S65536.Idx, ((hTab m) j).toNat < 200000) (hTl : ∀ j : S65536.Idx, ((tTab m) j).toNat < 200000) (c : Dev nD) :
    BodyObligation (dat0 (F := F) m c) (defs₀ (F := F)) Variants.none () Set.univ := fun t => by
  rw [bigSep_W15, bigSep_W15]
  unfold Dat.owesAt Pipeline.owesWithin
  rw [show (dat0 m c).owed t.castSucc = 0 from rfl]
  have hw1 : (tword (hTab m) ((cfgA m).grid.coords t)).toNat < 200000 := by rw [tword_eq]; exact hH _
  have hw2 : (tword (tTab m) ((cfgA m).grid.coords t)).toNat < 200000 := by rw [tword_eq]; exact hTl _
  by_cases hF : IsFirst ((cfgA m).grid.coords t)
  · -- a row's first step: the output buffer at anything, left at the first step's block
    have h0 : t.val % 128 = 0 := (isFirst_iff (adm0 m) t).mp hF
    simp only [idle_eq (adm0 m), before_0, after_0, after_1, before_1_first m c t h0]
    rw [show (dat0 m c).Φ t.castSucc = Φv m c from rfl, show (dat0 m c).Φ t.succ = Φv m c from rfl, accA_first m c t h0]
    unfold Φv
    iintro ⟨⟨HA, HB, HN, HD, HS0, HS1, HSem, HR⟩, ⟨%Wt, %hW, HO⟩, ⟨%d0, H0⟩, ⟨%d1, H1⟩⟩
    iapply (run_first c ((cfgA m).grid.coords t) (spec15_0.stage ((cfgA m).slots t 0)) (hstage15_0 (((cfgA m).slots t 0).cast nbuf15_0))
      (spec15_1.stage ((cfgA m).slots t 1)) (hstage15_1 (((cfgA m).slots t 1).cast nbuf15_1))
      (hTab m) (tTab m) (nodeA m c) (relA m c) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexists _; iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1
  · -- a later step: the output buffer at what the step before left
    have h0 : t.val % 128 ≠ 0 := fun h => hF ((isFirst_iff (adm0 m) t).mpr h)
    simp only [idle_eq (adm0 m), before_0, after_0, after_1, before_1_step m c t h0]
    rw [show (dat0 m c).Φ t.castSucc = Φv m c from rfl, show (dat0 m c).Φ t.succ = Φv m c from rfl,
      accA_step m c t h0 (prev m t).isLt]
    unfold Φv
    iintro ⟨⟨HA, HB, HN, HD, HS0, HS1, HSem, HR⟩, ⟨%Wt, %hW, HO⟩, ⟨%d0, H0⟩, ⟨%d1, H1⟩⟩
    iapply (run_step c ((cfgA m).grid.coords t) (spec15_0.stage ((cfgA m).slots t 0)) (hstage15_0 (((cfgA m).slots t 0).cast nbuf15_0))
      (spec15_1.stage ((cfgA m).slots t 1)) (hstage15_1 (((cfgA m).slots t 1).cast nbuf15_1))
      (hTab m) (tTab m) (nodeA m c) (relA m c) (accA m c (t.val - 1) (prev m t).isLt) Wt hw1 hw2 hF _)
    isplitl [HA]; · iexact HA
    isplitl [HB]; · iexact HB
    isplitl [HN]; · iexact HN
    isplitl [HS0]; · iexact HS0
    isplitl [HS1]; · iexact HS1
    isplitl [HSem]; · iexact HSem
    isplitl [HO]; · iexists _; iexact HO
    isplitl [H0]; · iexact H0
    isplitl [H1]; · iexact H1
    iintro ⟨HA, HB, HN, HS0, HS1, HSem, ⟨%W2, HO⟩, H0, H1⟩
    isplitl [HA HB HN HD HS0 HS1 HSem HR]
    · isplitl [HA]; · iexact HA
      isplitl [HB]; · iexact HB
      isplitl [HN]; · iexact HN
      isplitl [HD]; · iexact HD
      isplitl [HS0]; · iexact HS0
      isplitl [HS1]; · iexact HS1
      isplitl [HSem]; · iexact HSem
      iexact HR
    isplitl [HO]; · iapply (owesAt_intro m c); iexact HO
    isplitl [H0]; · iexact H0
    iexact H1

end Cert.Proof.KB15

end
-- ==== Proof.KB15Region.lean ====
/-
  Region 0's segment record: the kernel region's protocol around the thread states @main's frame is proved over.
  The region is entered with every unscoped buffer whole at the contents the host stretches before it leave, and the
  core owing nothing. Of those buffers the two windows' arrays (the relation row, read; the output array, written) go
  to the pipeline at the proof data's entry contents; the two tables go to the pipeline, which hands them to the
  invariant; the node table, which the body reads by its own transfers, goes into the invariant split into its two
  read shares and the share left over, beside the kernel's two transfer semaphores at zero and the two scratch rows
  out of the scoped buffers; every other unscoped buffer passes the region by. At the last point the invariant gives
  all of it back — the shares joined into the whole node table — and the region is left with the output's array at
  what the write-backs fold to and every other buffer at the contents it came with: the entry valuation updated at
  the output's array.
-/
import proofs.«414028_j29231547417249_2_alg».proof.Proof.KBDats
import proofs.«414028_j29231547417249_2_alg».proof.Proof.KBThread
import proofs.«414028_j29231547417249_2_alg».proof.Proof.KB15Chains
import proofs.«414028_j29231547417249_2_alg».proof.Proof.KB15Oblig
import proofs.«414028_j29231547417249_2_alg».proof.Proof.Gen.Kernel.Launch
import Idealize.ShloMosaic.Lib.Transfers
import Idealize.ShloMosaic.Lib.Pipeline.Frame
import Idealize.ShloMosaic.Lib.Pipeline.Regions
import Idealize.ShloMosaic.Lib.Pipeline.RegionsLoop
import Idealize.ShloMosaic.Lib.Pipeline.FrameSuffix

-- decided memberships among the program's 143 references recurse past the default depth
set_option maxRecDepth 4096

noncomputable section

namespace Cert.Proof.KB15

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UC ℕ

variable (m : (ℓ : Loc nD τ sig) → Buf (Elt F) ℓ)

/-! ## The invariant's ends -/

/-- The kernel's own semaphores: the two its transfers complete on. -/
abbrev osem : Fin 2 → SemLoc sig := fun | 0 => .dma 78 | 1 => .dma 79

/-- Held at zero, they are the two of `sems0`. -/
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1] (by decide) (by decide)

/-- The node table whole is its two read shares and the share left over. -/
theorem node_shares (c : Dev nD) (node : Bf (F := F) c (Memref.whole main_arg0)) :
    (pt c (Memref.whole main_arg0) node : sProp 𝕄)
      ⊣⊢ iprop(nodeSh c node ∗ ((Memref.whole main_arg0).view.loc (c : Thread nD τ) ↦[Finset.univ]{Transfers.shareDrop fullShare 2} node)) := by
  have h := Transfers.pointsTo_toks (nD := nD) (τ := τ) (sig := sig) (Ix := Unit) (Val := Elt F) (Name := ℕ) (U := UC) (Lvl := ℕ)
    (ℓ := (Memref.whole main_arg0).view.loc (c : Thread nD τ)) (S := Finset.univ) (f := node) fullShare 2
  rw [Gen.bigSep_W15] at h
  exact ⟨h.1.trans sep_comm, sep_comm.trans h.2⟩

/-- What enters the invariant beside the tables: the node table whole at its launch contents and the two semaphores at zero. -/
abbrev X0 (c : Dev nD) : sProp 𝕄 := iprop(pt c (Memref.whole main_arg0) (nodeA m c) ∗ sems0 c)
/-- What the invariant gives back: the node table and the two tables, whole, at the contents they came with. -/
abbrev Y0 (c : Dev nD) : sProp 𝕄 :=
  iprop(pt c (Memref.whole main_arg0) (nodeA m c) ∗ pt c (Memref.whole main_v51) (hTab m) ∗ pt c (Memref.whole main_v52) (tTab m))

/-- The invariant at the first point: the node table split into its shares, the tables, the two scratch rows out of the
    scoped rest. -/
theorem hin0 (c : Dev nD) :
    iprop(X0 m c ∗ Pipeline.prefHeld pre15 c (fun _ => fullShare) (Cert.Proof.KB.tbl15 m)
        ∗ Pipeline.scopedRest (Ix := Unit) (Name := ℕ) (U := UC) (Lvl := ℕ) (Val := Elt F) spec15 c)
      ⊢ Φv m c := by
  unfold Φv Pipeline.prefHeld
  rw [Gen.bigSep_W15, Gen.scopedRest15_split]
  iintro ⟨⟨Hn, Hs⟩, ⟨Hh, Ht⟩, ⟨⟨Hs0, Hs1⟩, Hr⟩⟩
  ihave Hn' := (node_shares c (nodeA m c)).1 $$ Hn
  icases Hn' with ⟨Hsh, Hd⟩
  isplitl [Hh]; · iexact Hh
  isplitl [Ht]; · iexact Ht
  isplitl [Hsh]; · iexact Hsh
  isplitl [Hd]; · iexact Hd
  isplitl [Hs0]; · iexact Hs0
  isplitl [Hs1]; · iexact Hs1
  isplitl [Hs]; · iexact Hs
  iexact Hr

/-- The invariant at the last point gives everything back: the shares joined, the scratch rows into the scoped rest. -/
theorem hout0 (c : Dev nD) :
    Φv m c ⊢ iprop(Y0 m c ∗ sems0 c ∗ Pipeline.scopedRest (Ix := Unit) (Name := ℕ) (U := UC) (Lvl := ℕ) (Val := Elt F) spec15 c) := by
  unfold Φv
  rw [Gen.scopedRest15_split]
  iintro ⟨Hh, Ht, Hsh, Hd, Hs0, Hs1, Hs, Hr⟩
  ihave Hn := (node_shares c (nodeA m c)).2 $$ [Hsh Hd]
  · isplitl [Hsh]; · iexact Hsh
    iexact Hd
  isplitl [Hn Hh Ht]
  · isplitl [Hn]; · iexact Hn
    isplitl [Hh]; · iexact Hh
    iexact Ht
  isplitl [Hs]; · iexact Hs
  isplitl [Hs0 Hs1]
  · isplitl [Hs0]; · iexact Hs0
    iexact Hs1
  iexact Hr

/-! ## The unscoped buffers, sorted -/

/-- The unscoped buffers that are no window's array, no table, and not the node table. -/
abbrev restZ : Finset (Ref sig .tc) := Pipeline.restRefsP sig pre15 spec15 \ {main_arg0}

theorem node_mem_rest : ({main_arg0} : Finset (Ref sig .tc)) ⊆ Pipeline.restRefsP sig pre15 spec15 := by decide

/-- The unscoped buffers that are no window's array: the two tables, the node table, the others. -/
theorem rest_split (c : Dev nD) (V : (b : Ref sig .tc) → Buf (Elt F) ((c : Thread nD τ).loc b)) :
    (Pipeline.unscopedRest (Ix := Unit) (Name := ℕ) (U := UC) (Lvl := ℕ) spec15 c V : sProp 𝕄)
      = iprop(Pipeline.prefHeld pre15 c (fun _ => fullShare) (fun k => V (pre15.ref k))
          ∗ (((c : Thread nD τ).loc main_arg0) ↦{fullShare} V main_arg0)
          ∗ bigSep restZ fun b => ((c : Thread nD τ).loc b) ↦{fullShare} V b) := by
  rw [Pipeline.unscopedRest_split preFacts15 c V]
  unfold Pipeline.unscopedRestP
  rw [BI.bigSep_sdiff_split node_mem_rest, BI.bigSep_singleton]
  rfl

include m in
/-- Every unscoped buffer held at a valuation: the two windows' arrays, the two tables, the node table, the others. -/
theorem held_split (c : Dev nD) (V : Valuation τ sig (Elt F)) :
    (StableHlo.held (c : Thread nD τ) (Pipeline.ucRefs τ sig) V : sProp 𝕄)
      = iprop(((((c : Thread nD τ).loc main_arg1) ↦{fullShare} V main_arg1) ∗ (((c : Thread nD τ).loc main_v53) ↦{fullShare} V main_v53))
          ∗ ((((c : Thread nD τ).loc main_v51) ↦{fullShare} V main_v51) ∗ (((c : Thread nD τ).loc main_v52) ↦{fullShare} V main_v52))
          ∗ (((c : Thread nD τ).loc main_arg0) ↦{fullShare} V main_arg0)
          ∗ bigSep restZ fun b => ((c : Thread nD τ).loc b) ↦{fullShare} V b) := by
  rw [← Pipeline.unscopedBufs_held (Ix := Unit) (Name := ℕ) (U := UC) (Lvl := ℕ),
    Pipeline.unscopedBufs_split (fun _ : Fin 1 => cfgA m) 0 winFacts15.arr_unscoped winFacts15.arr_inj c, rest_split]
  unfold Pipeline.prefHeld
  rw [Gen.bigSep_W15, Gen.bigSep_W15]
  rfl

/-- The windows' arrays at contents F: the relation row's and the output's. -/
theorem arrays_two (c : Dev nD) (G : (w : Fin (cfgA m).W) → Buf (Elt F) (((cfgA m).win w).arr.view.loc (c : Thread nD τ))) :
    ((dat0 m c).arrays G : sProp 𝕄)
      = iprop((((c : Thread nD τ).loc main_arg1) ↦{fullShare} G 0) ∗ (((c : Thread nD τ).loc main_v53) ↦{fullShare} G 1)) := by
  rw [Pipeline.arrays_eq (fun _ : Fin 1 => cfgA m) (fun _ c => dat0 m c) 0 c arr_whole15 ((dat0 m c).share_full fun _ => rfl) G, Gen.bigSep_W15]

/-- What bypasses the region: every other unscoped buffer, at its contents on entry. -/
abbrev Z0 (c : Dev nD) : sProp 𝕄 := bigSep restZ fun b => ((c : Thread nD τ).loc b) ↦{fullShare} V35 m (Cert.Proof.KB.outs m) c b

/-! ## Entry and exit -/

/-- ENTRY. The unscoped buffers at the contents before the region are the two arrays at the proof data's entry contents,
    the two tables at their contents, the node table at its launch contents and the others; the core owes nothing. -/
theorem hentry0 (c : Dev nD) (R : sProp 𝕄) :
    iprop((StableHlo.held (c : Thread nD τ) (Pipeline.ucRefs τ sig) (V35 m (Cert.Proof.KB.outs m) c)
          ∗ (∃ W, owes (c : Thread nD τ) (0 : CellTallies nD τ sig Unit) W))
        ∗ sems0 c ∗ R)
      ⊢ |={Set.univ}=> iprop((dat0 m c).arrays ((dat0 m c).arrAt · 0)
          ∗ Pipeline.prefHeld pre15 c (fun _ => fullShare) (Cert.Proof.KB.tbl15 m)
          ∗ (dat0 m c).owesAt () 0 ∗ X0 m c ∗ Z0 m c) := by
  rw [held_split m c (V35 m (Cert.Proof.KB.outs m) c), arrays_two, ent_arg0, ent_arg1, ent_out,
    show V35 m (Cert.Proof.KB.outs m) c main_v51 = hTab m from ent_tab m (Cert.Proof.KB.outs m) c 0, show V35 m (Cert.Proof.KB.outs m) c main_v52 = tTab m from ent_tab m (Cert.Proof.KB.outs m) c 1]
  unfold Pipeline.prefHeld
  rw [Gen.bigSep_W15]
  iintro ⟨⟨⟨⟨Ha0, Ha1⟩, ⟨Hh, Ht⟩, Hn, Hz⟩, HO⟩, Hos, -⟩
  imodintro
  isplitl [Ha0 Ha1]
  · isplitl [Ha0]; · iexact Ha0
    iexact Ha1
  isplitl [Hh Ht]
  · isplitl [Hh]; · iexact Hh
    iexact Ht
  isplitl [HO]
  · unfold Pipeline.Dat.owesAt Pipeline.owesWithin
    icases HO with ⟨%W, HO⟩; iexists W; isplitr; · ipureintro; exact fun _ _ => Or.inl trivial
    iexact HO
  isplitl [Hn Hos]
  · isplitl [Hn]; · iexact Hn
    iexact Hos
  iexact Hz

/-- EXIT. The relation row's array is as it came (an input is never written), the output's array holds what the
    write-backs fold to, the tables, the node table and the others are as they came: the unscoped buffers at the
    entry contents updated at the output's array. -/
theorem hexit0 (c : Dev nD) (o : Buf (Elt F) ((c : Thread nD τ).loc main_v53)) (ho : o = (dat0 m c).arrAt 1 (cfgA m).N) :
    iprop((dat0 m c).arrays ((dat0 m c).arrAt · (cfgA m).N) ∗ (dat0 m c).owesAt () (Fin.last (cfgA m).N) ∗ Y0 m c ∗ Z0 m c)
      ⊢ |={Set.univ}=> iprop(StableHlo.held (c : Thread nD τ) (Pipeline.ucRefs τ sig) (Function.update (V35 m (Cert.Proof.KB.outs m) c) main_v53 o)
          ∗ (∃ W, owes (c : Thread nD τ) (0 : CellTallies nD τ sig Unit) W)) := by
  have hne : ∀ b : Ref sig .tc, b ≠ main_v53 →
      Function.update (V35 m (Cert.Proof.KB.outs m) c) (Proc.devRef .tc main_v53) o (Proc.devRef .tc b) = V35 m (Cert.Proof.KB.outs m) c b :=
    fun b hb => Function.update_of_ne (StableHlo.devRef_ne_of_ne hb) _ _
  have hz : (bigSep restZ fun b => (((c : Thread nD τ).loc b) ↦{fullShare} Function.update (V35 m (Cert.Proof.KB.outs m) c) (Proc.devRef .tc main_v53) o b : sProp 𝕄))
      = Z0 m c :=
    BI.bigSep_congr fun b hb => by
      rw [hne b (fun e => by subst e; revert hb; decide)]
  rw [held_split m c (Function.update (V35 m (Cert.Proof.KB.outs m) c) main_v53 o), arrays_two, hz,
    hne main_arg1 (by decide), hne main_v51 (by decide), hne main_v52 (by decide), hne main_arg0 (by decide),
    Function.update_self, ent_arg0, ent_arg1,
    show V35 m (Cert.Proof.KB.outs m) c main_v51 = hTab m from ent_tab m (Cert.Proof.KB.outs m) c 0, show V35 m (Cert.Proof.KB.outs m) c main_v52 = tTab m from ent_tab m (Cert.Proof.KB.outs m) c 1,
    (dat0 m c).arrAt_in 0 rfl (cfgA m).N, ho]
  iintro ⟨⟨Ha0, Ha1⟩, HO, ⟨Hn, Hh, Ht⟩, Hz⟩
  imodintro
  isplitr [HO]
  · isplitl [Ha0 Ha1]
    · isplitl [Ha0]; · iexact Ha0
      iexact Ha1
    isplitl [Hh Ht]
    · isplitl [Hh]; · iexact Hh
      iexact Ht
    isplitl [Hn]; · iexact Hn
    iexact Hz
  · unfold Pipeline.Dat.owesAt Pipeline.owesWithin
    icases HO with ⟨%W, -, HO⟩; iexists W; iexact HO

/-! ## The record -/

theorem ownSemFacts : Pipeline.OwnSemFacts spec15 osem := by decide

/-- What region 0 leaves in the output's array, by name: the fold of its write-backs. -/
theorem outs6 (c : Dev nD) : Cert.Proof.KB.outs m 36 main_v53 c = (dat0 m c).arrAt 1 (cfgA m).N :=
  Pipeline.withArrays_arr spec15 winFacts15.arr_inj c (V0 m c) (fun w => (dat0 m c).arrAt w (cfgA m).N) 1

-- the library's lemmas are stated over the pinned family: unification may unfold plain definitions in a metavariable's type
set_option backward.isDefEq.respectTransparency.types false in
/-- REGION 0 over the thread states: entered from every unscoped buffer at the contents before it, left with the output's
    array at what the write-backs fold to and every other buffer as it came. The two windows' arrays go to the pipeline,
    the tables to the pipeline and then the invariant, the node table and the two transfer semaphores into the invariant
    and back, every other unscoped buffer past the region. -/
def reg (hH : ∀ j : S65536.Idx, ((hTab m) j).toNat < 200000) (hTl : ∀ j : S65536.Idx, ((tTab m) j).toNat < 200000) :
    Pipeline.RegionSeg (pcfgs (F := F)) (Cert.Proof.KB.adm m) (Cert.Proof.KB.pdats m) () defs₀ Variants.none
      Cert.Proof.KB.L Cert.Proof.KB.lv (15 : Fin 16) where
  win := (launch15 (F := F)).win.to₀
  block_pos := (launch15 (F := F)).block_pos
  stage_whole := (launch15 (F := F)).stage_whole
  K := Fin 2
  osem := osem
  ho := ownSemFacts
  hbody c := (body_obligation m hH hTl c).loose
  hwaits := Pipeline.hwaits_of_owed_zero _ _ _ _ Cert.Proof.KB.L Cert.Proof.KB.lv (15 : Fin 16) fun _ _ => rfl
  pre c := iprop(StableHlo.held (c : Thread nD τ) (Pipeline.ucRefs τ sig) (V35 m (Cert.Proof.KB.outs m) c) ∗ Cert.Proof.KB.E 15 c)
  post c := iprop(StableHlo.held (c : Thread nD τ) (Pipeline.ucRefs τ sig) (V36 m (Cert.Proof.KB.outs m) c) ∗ Cert.Proof.KB.E 16 c)
  X c := X0 m c
  Y c := Y0 m c
  Z c := Z0 m c
  hentry c := by rw [ownSems0_eq]; exact hentry0 m c _
  hin c := hin0 m c
  hout c := by rw [ownSems0_eq]; exact hout0 m c
  hexit c := hexit0 m c (Cert.Proof.KB.outs m 36 main_v53 c) (outs6 m c)

theorem hpre (hH : ∀ j : S65536.Idx, ((hTab m) j).toNat < 200000) (hTl : ∀ j : S65536.Idx, ((tTab m) j).toNat < 200000) (c : Dev nD) :
    iprop(StableHlo.held (c : Thread nD τ) (Pipeline.ucRefs τ sig) (V35 m (Cert.Proof.KB.outs m) c) ∗ Cert.Proof.KB.E 15 c) ⊢ (reg m hH hTl).pre c := .rfl
theorem hpost (hH : ∀ j : S65536.Idx, ((hTab m) j).toNat < 200000) (hTl : ∀ j : S65536.Idx, ((tTab m) j).toNat < 200000) (c : Dev nD) :
    (reg m hH hTl).post c ⊢ iprop(StableHlo.held (c : Thread nD τ) (Pipeline.ucRefs τ sig) (V36 m (Cert.Proof.KB.outs m) c) ∗ Cert.Proof.KB.E 16 c) := .rfl

end Cert.Proof.KB15

end
-- ==== Proof.KBValueCond.lean ====
/- The value form of the conditional frame of `Cert.Kernel`: besides the arguments, the result buffer `main_v55`
   is read off the last valuation; and what that valuation holds there: the first 1000000 entries of the sixteen
   regions' outputs laid end to end. -/
import proofs.«414028_j29231547417249_2_alg».proof.Proof.KernelRegions
import Idealize.ShloMosaic.Lib.Pipeline.Frame
import Idealize.ShloMosaic.Lib.Pipeline.Regions
import Idealize.ShloMosaic.Lib.StableHlo.Run
import Idealize.ShloMosaic.Lib.Pipeline.Value
import Idealize.ShloMosaic.Lib.ValueIdx

-- decided memberships over 143 references recurse past the default depth
set_option maxRecDepth 1084

noncomputable section

namespace Cert.Proof.KB

open Cert.Kernel Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The frame with the result's value -/

-- `θ_run_regions_kit_dev`'s implicit arguments are found by unifying its conclusion with this one, which takes unfolding
-- plain definitions in a metavariable's type
set_option backward.isDefEq.respectTransparency.types false in
/-- The conditional frame, with the result: under the hypotheses of `GenP.frame_cond` every weakly fair execution of
    @main from memory `m` with zero counters terminates, every final memory holds each argument as launched, and the
    result buffer `main_v55` holds on core `c` what the last valuation `V37 m outs c` has there. -/
theorem value_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 16) → (pcfgs (F := F) p).Adm)
    (pdats : (p : Fin 16) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 17 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE16 : ∀ c : Dev nD, E 16 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) a pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) a pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) a pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) a pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) a pdats ι defs₀ 𝒱₀ L lv 8)
    (hpre8 : ∀ c : Dev nD, iprop(StableHlo.held (c : Thread nD τ) (Pipeline.ucRefs τ sig) (V21 m outs c) ∗ E 8 c) ⊢ R8.pre c)
    (hpost8 : ∀ c : Dev nD, R8.post c ⊢ iprop(StableHlo.held (c : Thread nD τ) (Pipeline.ucRefs τ sig) (V22 m outs c) ∗ E 9 c))
    (R9 : RegionSeg (pcfgs (F := F)) a pdats ι defs₀ 𝒱₀ L lv 9)
    (hpre9 : ∀ c : Dev nD, iprop(StableHlo.held (c : Thread nD τ) (Pipeline.ucRefs τ sig) (V23 m outs c) ∗ E 9 c) ⊢ R9.pre c)
    (hpost9 : ∀ c : Dev nD, R9.post c ⊢ iprop(StableHlo.held (c : Thread nD τ) (Pipeline.ucRefs τ sig) (V24 m outs c) ∗ E 10 c))
    (R10 : RegionSeg (pcfgs (F := F)) a pdats ι defs₀ 𝒱₀ L lv 10)
    (hpre10 : ∀ c : Dev nD, iprop(StableHlo.held (c : Thread nD τ) (Pipeline.ucRefs τ sig) (V25 m outs c) ∗ E 10 c) ⊢ R10.pre c)
    (hpost10 : ∀ c : Dev nD, R10.post c ⊢ iprop(StableHlo.held (c : Thread nD τ) (Pipeline.ucRefs τ sig) (V26 m outs c) ∗ E 11 c))
    (R11 : RegionSeg (pcfgs (F := F)) a pdats ι defs₀ 𝒱₀ L lv 11)
    (hpre11 : ∀ c : Dev nD, iprop(StableHlo.held (c : Thread nD τ) (Pipeline.ucRefs τ sig) (V27 m outs c) ∗ E 11 c) ⊢ R11.pre c)
    (hpost11 : ∀ c : Dev nD, R11.post c ⊢ iprop(StableHlo.held (c : Thread nD τ) (Pipeline.ucRefs τ sig) (V28 m outs c) ∗ E 12 c))
    (R12 : RegionSeg (pcfgs (F := F)) a pdats ι defs₀ 𝒱₀ L lv 12)
    (hpre12 : ∀ c : Dev nD, iprop(StableHlo.held (c : Thread nD τ) (Pipeline.ucRefs τ sig) (V29 m outs c) ∗ E 12 c) ⊢ R12.pre c)
    (hpost12 : ∀ c : Dev nD, R12.post c ⊢ iprop(StableHlo.held (c : Thread nD τ) (Pipeline.ucRefs τ sig) (V30 m outs c) ∗ E 13 c))
    (R13 : RegionSeg (pcfgs (F := F)) a pdats ι defs₀ 𝒱₀ L lv 13)
    (hpre13 : ∀ c : Dev nD, iprop(StableHlo.held (c : Thread nD τ) (Pipeline.ucRefs τ sig) (V31 m outs c) ∗ E 13 c) ⊢ R13.pre c)
    (hpost13 : ∀ c : Dev nD, R13.post c ⊢ iprop(StableHlo.held (c : Thread nD τ) (Pipeline.ucRefs τ sig) (V32 m outs c) ∗ E 14 c))
    (R14 : RegionSeg (pcfgs (F := F)) a pdats ι defs₀ 𝒱₀ L lv 14)
    (hpre14 : ∀ c : Dev nD, iprop(StableHlo.held (c : Thread nD τ) (Pipeline.ucRefs τ sig) (V33 m outs c) ∗ E 14 c) ⊢ R14.pre c)
    (hpost14 : ∀ c : Dev nD, R14.post c ⊢ iprop(StableHlo.held (c : Thread nD τ) (Pipeline.ucRefs τ sig) (V34 m outs c) ∗ E 15 c))
    (R15 : RegionSeg (pcfgs (F := F)) a pdats ι defs₀ 𝒱₀ L lv 15)
    (hpre15 : ∀ c : Dev nD, iprop(StableHlo.held (c : Thread nD τ) (Pipeline.ucRefs τ sig) (V35 m outs c) ∗ E 15 c) ⊢ R15.pre c)
    (hpost15 : ∀ c : Dev nD, R15.post c ⊢ iprop(StableHlo.held (c : Thread nD τ) (Pipeline.ucRefs τ sig) (V36 m outs c) ∗ E 16 c)) :
    θ_run defs (onTc (τ := τ) (main (F := F))) ⟨m, fun _ => 0, ρ⟩ (fun r => ∀ c : Dev nD,
      r.2.mem ((c.tc : Thread nD τ).loc main_v55) = V37 m outs c main_v55
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) a pdats ι (cellOf_inj a) EP defs₀ 𝒱₀ L lv m ρ main
    (segs m outs 𝒱₀ L lv E ι a pdats R0 R1 R2 R3 R4 R5 R6 R7 R8 R9 R10 R11 R12 R13 R14 R15)
    (fun c Q => by
      rewrite [main_chain c, Seg.run_eq_chain,
        show (segs m outs 𝒱₀ L lv E ι a pdats R0 R1 R2 R3 R4 R5 R6 R7 R8 R9 R10 R11 R12 R13 R14 R15 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V37 m outs c))
    (hch := fun c => ⟨.rfl, .rfl, .rfl, .rfl, .rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, hpost13 c, hpre14 c, hpost14 c, hpre15 c, hpost15 c, sep_mono .rfl (hE16 c)⟩)
    (hinit := ?_) (QY := fun c s => s.mem ((c.tc : Thread nD τ).loc main_v55) = V37 m outs c main_v55 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (V37 m outs c) s') $$ [Hh HSI]
    · isplitl [Hh] <;> iassumption
    icases Hr with ⟨%h, HSI⟩
    imodintro
    isplitr
    · ipureintro
      exact ⟨h (Proc.devRef .tc main_v55) (Finset.mem_filter.mpr ⟨StableHlo.devRef_mem_tcRefs main_v55, by decide⟩),
        (h (Proc.devRef .tc main_arg0) (Finset.mem_filter.mpr ⟨StableHlo.devRef_mem_tcRefs main_arg0, by decide⟩)).trans (V37_main_arg0 m outs c),
        (h (Proc.devRef .tc main_arg1) (Finset.mem_filter.mpr ⟨StableHlo.devRef_mem_tcRefs main_arg1, by decide⟩)).trans (V37_main_arg1 m outs c),
        (h (Proc.devRef .tc main_arg2) (Finset.mem_filter.mpr ⟨StableHlo.devRef_mem_tcRefs main_arg2, by decide⟩)).trans (V37_main_arg2 m outs c)⟩
    · iexact HSI

/-! ## What the last host stretch computes -/

/-- Region 0's output `main_v8` is not written again before the last host stretch. -/
private theorem V36_main_v8 (m : (ℓ : Loc nD τ sig) → Buf (Elt F) ℓ) (outs : Outs (F := F)) (c : Dev nD) :
    V36 m outs c main_v8 = outs 6 main_v8 c :=
  (V36_of m outs c main_v8 (by decide)).trans <| (V35_of m outs c main_v8 (by decide)).trans <| (V34_of m outs c main_v8 (by decide)).trans <| (V33_of m outs c main_v8 (by decide)).trans <| (V32_of m outs c main_v8 (by decide)).trans <| (V31_of m outs c main_v8 (by decide)).trans <| (V30_of m outs c main_v8 (by decide)).trans <| (V29_of m outs c main_v8 (by decide)).trans <| (V28_of m outs c main_v8 (by decide)).trans <| (V27_of m outs c main_v8 (by decide)).trans <| (V26_of m outs c main_v8 (by decide)).trans <| (V25_of m outs c main_v8 (by decide)).trans <| (V24_of m outs c main_v8 (by decide)).trans <| (V23_of m outs c main_v8 (by decide)).trans <| (V22_of m outs c main_v8 (by decide)).trans <| (V21_of m outs c main_v8 (by decide)).trans <| (V20_of m outs c main_v8 (by decide)).trans <| (V19_of m outs c main_v8 (by decide)).trans <| (V18_of m outs c main_v8 (by decide)).trans <| (V17_of m outs c main_v8 (by decide)).trans <| (V16_of m outs c main_v8 (by decide)).trans <| (V15_of m outs c main_v8 (by decide)).trans <| (V14_of m outs c main_v8 (by decide)).trans <| (V13_of m outs c main_v8 (by decide)).trans <| (V12_of m outs c main_v8 (by decide)).trans <| (V11_of m outs c main_v8 (by decide)).trans <| (V10_of m outs c main_v8 (by decide)).trans <| (V9_of m outs c main_v8 (by decide)).trans <| (V8_of m outs c main_v8 (by decide)).trans <| (V7_of m outs c main_v8 (by decide)).trans <| Function.update_self _ _ _
/-- Region 1's output `main_v11` is not written again before the last host stretch. -/
private theorem V36_main_v11 (m : (ℓ : Loc nD τ sig) → Buf (Elt F) ℓ) (outs : Outs (F := F)) (c : Dev nD) :
    V36 m outs c main_v11 = outs 8 main_v11 c :=
  (V36_of m outs c main_v11 (by decide)).trans <| (V35_of m outs c main_v11 (by decide)).trans <| (V34_of m outs c main_v11 (by decide)).trans <| (V33_of m outs c main_v11 (by decide)).trans <| (V32_of m outs c main_v11 (by decide)).trans <| (V31_of m outs c main_v11 (by decide)).trans <| (V30_of m outs c main_v11 (by decide)).trans <| (V29_of m outs c main_v11 (by decide)).trans <| (V28_of m outs c main_v11 (by decide)).trans <| (V27_of m outs c main_v11 (by decide)).trans <| (V26_of m outs c main_v11 (by decide)).trans <| (V25_of m outs c main_v11 (by decide)).trans <| (V24_of m outs c main_v11 (by decide)).trans <| (V23_of m outs c main_v11 (by decide)).trans <| (V22_of m outs c main_v11 (by decide)).trans <| (V21_of m outs c main_v11 (by decide)).trans <| (V20_of m outs c main_v11 (by decide)).trans <| (V19_of m outs c main_v11 (by decide)).trans <| (V18_of m outs c main_v11 (by decide)).trans <| (V17_of m outs c main_v11 (by decide)).trans <| (V16_of m outs c main_v11 (by decide)).trans <| (V15_of m outs c main_v11 (by decide)).trans <| (V14_of m outs c main_v11 (by decide)).trans <| (V13_of m outs c main_v11 (by decide)).trans <| (V12_of m outs c main_v11 (by decide)).trans <| (V11_of m outs c main_v11 (by decide)).trans <| (V10_of m outs c main_v11 (by decide)).trans <| (V9_of m outs c main_v11 (by decide)).trans <| Function.update_self _ _ _
/-- Region 2's output `main_v14` is not written again before the last host stretch. -/
private theorem V36_main_v14 (m : (ℓ : Loc nD τ sig) → Buf (Elt F) ℓ) (outs : Outs (F := F)) (c : Dev nD) :
    V36 m outs c main_v14 = outs 10 main_v14 c :=
  (V36_of m outs c main_v14 (by decide)).trans <| (V35_of m outs c main_v14 (by decide)).trans <| (V34_of m outs c main_v14 (by decide)).trans <| (V33_of m outs c main_v14 (by decide)).trans <| (V32_of m outs c main_v14 (by decide)).trans <| (V31_of m outs c main_v14 (by decide)).trans <| (V30_of m outs c main_v14 (by decide)).trans <| (V29_of m outs c main_v14 (by decide)).trans <| (V28_of m outs c main_v14 (by decide)).trans <| (V27_of m outs c main_v14 (by decide)).trans <| (V26_of m outs c main_v14 (by decide)).trans <| (V25_of m outs c main_v14 (by decide)).trans <| (V24_of m outs c main_v14 (by decide)).trans <| (V23_of m outs c main_v14 (by decide)).trans <| (V22_of m outs c main_v14 (by decide)).trans <| (V21_of m outs c main_v14 (by decide)).trans <| (V20_of m outs c main_v14 (by decide)).trans <| (V19_of m outs c main_v14 (by decide)).trans <| (V18_of m outs c main_v14 (by decide)).trans <| (V17_of m outs c main_v14 (by decide)).trans <| (V16_of m outs c main_v14 (by decide)).trans <| (V15_of m outs c main_v14 (by decide)).trans <| (V14_of m outs c main_v14 (by decide)).trans <| (V13_of m outs c main_v14 (by decide)).trans <| (V12_of m outs c main_v14 (by decide)).trans <| (V11_of m outs c main_v14 (by decide)).trans <| Function.update_self _ _ _
/-- Region 3's output `main_v17` is not written again before the last host stretch. -/
private theorem V36_main_v17 (m : (ℓ : Loc nD τ sig) → Buf (Elt F) ℓ) (outs : Outs (F := F)) (c : Dev nD) :
    V36 m outs c main_v17 = outs 12 main_v17 c :=
  (V36_of m outs c main_v17 (by decide)).trans <| (V35_of m outs c main_v17 (by decide)).trans <| (V34_of m outs c main_v17 (by decide)).trans <| (V33_of m outs c main_v17 (by decide)).trans <| (V32_of m outs c main_v17 (by decide)).trans <| (V31_of m outs c main_v17 (by decide)).trans <| (V30_of m outs c main_v17 (by decide)).trans <| (V29_of m outs c main_v17 (by decide)).trans <| (V28_of m outs c main_v17 (by decide)).trans <| (V27_of m outs c main_v17 (by decide)).trans <| (V26_of m outs c main_v17 (by decide)).trans <| (V25_of m outs c main_v17 (by decide)).trans <| (V24_of m outs c main_v17 (by decide)).trans <| (V23_of m outs c main_v17 (by decide)).trans <| (V22_of m outs c main_v17 (by decide)).trans <| (V21_of m outs c main_v17 (by decide)).trans <| (V20_of m outs c main_v17 (by decide)).trans <| (V19_of m outs c main_v17 (by decide)).trans <| (V18_of m outs c main_v17 (by decide)).trans <| (V17_of m outs c main_v17 (by decide)).trans <| (V16_of m outs c main_v17 (by decide)).trans <| (V15_of m outs c main_v17 (by decide)).trans <| (V14_of m outs c main_v17 (by decide)).trans <| (V13_of m outs c main_v17 (by decide)).trans <| Function.update_self _ _ _
/-- Region 4's output `main_v20` is not written again before the last host stretch. -/
private theorem V36_main_v20 (m : (ℓ : Loc nD τ sig) → Buf (Elt F) ℓ) (outs : Outs (F := F)) (c : Dev nD) :
    V36 m outs c main_v20 = outs 14 main_v20 c :=
  (V36_of m outs c main_v20 (by decide)).trans <| (V35_of m outs c main_v20 (by decide)).trans <| (V34_of m outs c main_v20 (by decide)).trans <| (V33_of m outs c main_v20 (by decide)).trans <| (V32_of m outs c main_v20 (by decide)).trans <| (V31_of m outs c main_v20 (by decide)).trans <| (V30_of m outs c main_v20 (by decide)).trans <| (V29_of m outs c main_v20 (by decide)).trans <| (V28_of m outs c main_v20 (by decide)).trans <| (V27_of m outs c main_v20 (by decide)).trans <| (V26_of m outs c main_v20 (by decide)).trans <| (V25_of m outs c main_v20 (by decide)).trans <| (V24_of m outs c main_v20 (by decide)).trans <| (V23_of m outs c main_v20 (by decide)).trans <| (V22_of m outs c main_v20 (by decide)).trans <| (V21_of m outs c main_v20 (by decide)).trans <| (V20_of m outs c main_v20 (by decide)).trans <| (V19_of m outs c main_v20 (by decide)).trans <| (V18_of m outs c main_v20 (by decide)).trans <| (V17_of m outs c main_v20 (by decide)).trans <| (V16_of m outs c main_v20 (by decide)).trans <| (V15_of m outs c main_v20 (by decide)).trans <| Function.update_self _ _ _
/-- Region 5's output `main_v23` is not written again before the last host stretch. -/
private theorem V36_main_v23 (m : (ℓ : Loc nD τ sig) → Buf (Elt F) ℓ) (outs : Outs (F := F)) (c : Dev nD) :
    V36 m outs c main_v23 = outs 16 main_v23 c :=
  (V36_of m outs c main_v23 (by decide)).trans <| (V35_of m outs c main_v23 (by decide)).trans <| (V34_of m outs c main_v23 (by decide)).trans <| (V33_of m outs c main_v23 (by decide)).trans <| (V32_of m outs c main_v23 (by decide)).trans <| (V31_of m outs c main_v23 (by decide)).trans <| (V30_of m outs c main_v23 (by decide)).trans <| (V29_of m outs c main_v23 (by decide)).trans <| (V28_of m outs c main_v23 (by decide)).trans <| (V27_of m outs c main_v23 (by decide)).trans <| (V26_of m outs c main_v23 (by decide)).trans <| (V25_of m outs c main_v23 (by decide)).trans <| (V24_of m outs c main_v23 (by decide)).trans <| (V23_of m outs c main_v23 (by decide)).trans <| (V22_of m outs c main_v23 (by decide)).trans <| (V21_of m outs c main_v23 (by decide)).trans <| (V20_of m outs c main_v23 (by decide)).trans <| (V19_of m outs c main_v23 (by decide)).trans <| (V18_of m outs c main_v23 (by decide)).trans <| (V17_of m outs c main_v23 (by decide)).trans <| Function.update_self _ _ _
/-- Region 6's output `main_v26` is not written again before the last host stretch. -/
private theorem V36_main_v26 (m : (ℓ : Loc nD τ sig) → Buf (Elt F) ℓ) (outs : Outs (F := F)) (c : Dev nD) :
    V36 m outs c main_v26 = outs 18 main_v26 c :=
  (V36_of m outs c main_v26 (by decide)).trans <| (V35_of m outs c main_v26 (by decide)).trans <| (V34_of m outs c main_v26 (by decide)).trans <| (V33_of m outs c main_v26 (by decide)).trans <| (V32_of m outs c main_v26 (by decide)).trans <| (V31_of m outs c main_v26 (by decide)).trans <| (V30_of m outs c main_v26 (by decide)).trans <| (V29_of m outs c main_v26 (by decide)).trans <| (V28_of m outs c main_v26 (by decide)).trans <| (V27_of m outs c main_v26 (by decide)).trans <| (V26_of m outs c main_v26 (by decide)).trans <| (V25_of m outs c main_v26 (by decide)).trans <| (V24_of m outs c main_v26 (by decide)).trans <| (V23_of m outs c main_v26 (by decide)).trans <| (V22_of m outs c main_v26 (by decide)).trans <| (V21_of m outs c main_v26 (by decide)).trans <| (V20_of m outs c main_v26 (by decide)).trans <| (V19_of m outs c main_v26 (by decide)).trans <| Function.update_self _ _ _
/-- Region 7's output `main_v29` is not written again before the last host stretch. -/
private theorem V36_main_v29 (m : (ℓ : Loc nD τ sig) → Buf (Elt F) ℓ) (outs : Outs (F := F)) (c : Dev nD) :
    V36 m outs c main_v29 = outs 20 main_v29 c :=
  (V36_of m outs c main_v29 (by decide)).trans <| (V35_of m outs c main_v29 (by decide)).trans <| (V34_of m outs c main_v29 (by decide)).trans <| (V33_of m outs c main_v29 (by decide)).trans <| (V32_of m outs c main_v29 (by decide)).trans <| (V31_of m outs c main_v29 (by decide)).trans <| (V30_of m outs c main_v29 (by decide)).trans <| (V29_of m outs c main_v29 (by decide)).trans <| (V28_of m outs c main_v29 (by decide)).trans <| (V27_of m outs c main_v29 (by decide)).trans <| (V26_of m outs c main_v29 (by decide)).trans <| (V25_of m outs c main_v29 (by decide)).trans <| (V24_of m outs c main_v29 (by decide)).trans <| (V23_of m outs c main_v29 (by decide)).trans <| (V22_of m outs c main_v29 (by decide)).trans <| (V21_of m outs c main_v29 (by decide)).trans <| Function.update_self _ _ _
/-- Region 8's output `main_v32` is not written again before the last host stretch. -/
private theorem V36_main_v32 (m : (ℓ : Loc nD τ sig) → Buf (Elt F) ℓ) (outs : Outs (F := F)) (c : Dev nD) :
    V36 m outs c main_v32 = outs 22 main_v32 c :=
  (V36_of m outs c main_v32 (by decide)).trans <| (V35_of m outs c main_v32 (by decide)).trans <| (V34_of m outs c main_v32 (by decide)).trans <| (V33_of m outs c main_v32 (by decide)).trans <| (V32_of m outs c main_v32 (by decide)).trans <| (V31_of m outs c main_v32 (by decide)).trans <| (V30_of m outs c main_v32 (by decide)).trans <| (V29_of m outs c main_v32 (by decide)).trans <| (V28_of m outs c main_v32 (by decide)).trans <| (V27_of m outs c main_v32 (by decide)).trans <| (V26_of m outs c main_v32 (by decide)).trans <| (V25_of m outs c main_v32 (by decide)).trans <| (V24_of m outs c main_v32 (by decide)).trans <| (V23_of m outs c main_v32 (by decide)).trans <| Function.update_self _ _ _
/-- Region 9's output `main_v35` is not written again before the last host stretch. -/
private theorem V36_main_v35 (m : (ℓ : Loc nD τ sig) → Buf (Elt F) ℓ) (outs : Outs (F := F)) (c : Dev nD) :
    V36 m outs c main_v35 = outs 24 main_v35 c :=
  (V36_of m outs c main_v35 (by decide)).trans <| (V35_of m outs c main_v35 (by decide)).trans <| (V34_of m outs c main_v35 (by decide)).trans <| (V33_of m outs c main_v35 (by decide)).trans <| (V32_of m outs c main_v35 (by decide)).trans <| (V31_of m outs c main_v35 (by decide)).trans <| (V30_of m outs c main_v35 (by decide)).trans <| (V29_of m outs c main_v35 (by decide)).trans <| (V28_of m outs c main_v35 (by decide)).trans <| (V27_of m outs c main_v35 (by decide)).trans <| (V26_of m outs c main_v35 (by decide)).trans <| (V25_of m outs c main_v35 (by decide)).trans <| Function.update_self _ _ _
/-- Region 10's output `main_v38` is not written again before the last host stretch. -/
private theorem V36_main_v38 (m : (ℓ : Loc nD τ sig) → Buf (Elt F) ℓ) (outs : Outs (F := F)) (c : Dev nD) :
    V36 m outs c main_v38 = outs 26 main_v38 c :=
  (V36_of m outs c main_v38 (by decide)).trans <| (V35_of m outs c main_v38 (by decide)).trans <| (V34_of m outs c main_v38 (by decide)).trans <| (V33_of m outs c main_v38 (by decide)).trans <| (V32_of m outs c main_v38 (by decide)).trans <| (V31_of m outs c main_v38 (by decide)).trans <| (V30_of m outs c main_v38 (by decide)).trans <| (V29_of m outs c main_v38 (by decide)).trans <| (V28_of m outs c main_v38 (by decide)).trans <| (V27_of m outs c main_v38 (by decide)).trans <| Function.update_self _ _ _
/-- Region 11's output `main_v41` is not written again before the last host stretch. -/
private theorem V36_main_v41 (m : (ℓ : Loc nD τ sig) → Buf (Elt F) ℓ) (outs : Outs (F := F)) (c : Dev nD) :
    V36 m outs c main_v41 = outs 28 main_v41 c :=
  (V36_of m outs c main_v41 (by decide)).trans <| (V35_of m outs c main_v41 (by decide)).trans <| (V34_of m outs c main_v41 (by decide)).trans <| (V33_of m outs c main_v41 (by decide)).trans <| (V32_of m outs c main_v41 (by decide)).trans <| (V31_of m outs c main_v41 (by decide)).trans <| (V30_of m outs c main_v41 (by decide)).trans <| (V29_of m outs c main_v41 (by decide)).trans <| Function.update_self _ _ _
/-- Region 12's output `main_v44` is not written again before the last host stretch. -/
private theorem V36_main_v44 (m : (ℓ : Loc nD τ sig) → Buf (Elt F) ℓ) (outs : Outs (F := F)) (c : Dev nD) :
    V36 m outs c main_v44 = outs 30 main_v44 c :=
  (V36_of m outs c main_v44 (by decide)).trans <| (V35_of m outs c main_v44 (by decide)).trans <| (V34_of m outs c main_v44 (by decide)).trans <| (V33_of m outs c main_v44 (by decide)).trans <| (V32_of m outs c main_v44 (by decide)).trans <| (V31_of m outs c main_v44 (by decide)).trans <| Function.update_self _ _ _
/-- Region 13's output `main_v47` is not written again before the last host stretch. -/
private theorem V36_main_v47 (m : (ℓ : Loc nD τ sig) → Buf (Elt F) ℓ) (outs : Outs (F := F)) (c : Dev nD) :
    V36 m outs c main_v47 = outs 32 main_v47 c :=
  (V36_of m outs c main_v47 (by decide)).trans <| (V35_of m outs c main_v47 (by decide)).trans <| (V34_of m outs c main_v47 (by decide)).trans <| (V33_of m outs c main_v47 (by decide)).trans <| Function.update_self _ _ _
/-- Region 14's output `main_v50` is not written again before the last host stretch. -/
private theorem V36_main_v50 (m : (ℓ : Loc nD τ sig) → Buf (Elt F) ℓ) (outs : Outs (F := F)) (c : Dev nD) :
    V36 m outs c main_v50 = outs 34 main_v50 c :=
  (V36_of m outs c main_v50 (by decide)).trans <| (V35_of m outs c main_v50 (by decide)).trans <| Function.update_self _ _ _
/-- Region 15's output `main_v53` is not written again before the last host stretch. -/
private theorem V36_main_v53 (m : (ℓ : Loc nD τ sig) → Buf (Elt F) ℓ) (outs : Outs (F := F)) (c : Dev nD) :
    V36 m outs c main_v53 = outs 36 main_v53 c :=
  Function.update_self _ _ _

/-- What the last valuation holds in the result buffer: the last host stretch lays the sixteen regions' outputs end to
    end (`main_v54`) and keeps the first 1000000 entries (`main_v55`); each output is still what its region left. -/
theorem tail_eq (m : (ℓ : Loc nD τ sig) → Buf (Elt F) ℓ) (outs : Outs (F := F)) (c : Dev nD) :
    V37 m outs c main_v55
      = extractStridedSlice S1000000 ![0] (concatenate S1048576 0 [⟨S65536, outs 6 main_v8 c⟩, ⟨S65536, outs 8 main_v11 c⟩, ⟨S65536, outs 10 main_v14 c⟩, ⟨S65536, outs 12 main_v17 c⟩, ⟨S65536, outs 14 main_v20 c⟩, ⟨S65536, outs 16 main_v23 c⟩, ⟨S65536, outs 18 main_v26 c⟩, ⟨S65536, outs 20 main_v29 c⟩, ⟨S65536, outs 22 main_v32 c⟩, ⟨S65536, outs 24 main_v35 c⟩, ⟨S65536, outs 26 main_v38 c⟩, ⟨S65536, outs 28 main_v41 c⟩, ⟨S65536, outs 30 main_v44 c⟩, ⟨S65536, outs 32 main_v47 c⟩, ⟨S65536, outs 34 main_v50 c⟩, ⟨S65536, outs 36 main_v53 c⟩] concatenates_S65536_S65536_S65536_S65536_S65536_S65536_S65536_S65536_S65536_S65536_S65536_S65536_S65536_S65536_S65536_S65536_S1048576_d0) slices_S1048576_S1000000_0 := by
  show StableHlo.after hostOps16 (V36 m outs c) (Proc.devRef .tc main_v55) = _
  after_results
  show extractStridedSlice S1000000 ![0] (concatenate S1048576 0 [⟨S65536, V36 m outs c main_v8⟩, ⟨S65536, V36 m outs c main_v11⟩, ⟨S65536, V36 m outs c main_v14⟩, ⟨S65536, V36 m outs c main_v17⟩, ⟨S65536, V36 m outs c main_v20⟩, ⟨S65536, V36 m outs c main_v23⟩, ⟨S65536, V36 m outs c main_v26⟩, ⟨S65536, V36 m outs c main_v29⟩, ⟨S65536, V36 m outs c main_v32⟩, ⟨S65536, V36 m outs c main_v35⟩, ⟨S65536, V36 m outs c main_v38⟩, ⟨S65536, V36 m outs c main_v41⟩, ⟨S65536, V36 m outs c main_v44⟩, ⟨S65536, V36 m outs c main_v47⟩, ⟨S65536, V36 m outs c main_v50⟩, ⟨S65536, V36 m outs c main_v53⟩] concatenates_S65536_S65536_S65536_S65536_S65536_S65536_S65536_S65536_S65536_S65536_S65536_S65536_S65536_S65536_S65536_S65536_S1048576_d0) slices_S1048576_S1000000_0 = _
  rw [V36_main_v8 m outs c, V36_main_v11 m outs c, V36_main_v14 m outs c, V36_main_v17 m outs c, V36_main_v20 m outs c, V36_main_v23 m outs c, V36_main_v26 m outs c, V36_main_v29 m outs c, V36_main_v32 m outs c, V36_main_v35 m outs c, V36_main_v38 m outs c, V36_main_v41 m outs c, V36_main_v44 m outs c, V36_main_v47 m outs c, V36_main_v50 m outs c, V36_main_v53 m outs c]

/-! ## The result read at an index -/

/-- The sixteen regions' outputs on core `c`, in the order the last host stretch lays them end to end: entry `K` is
    what region `K` leaves in `main_v(8+3K)`. -/
def chunk (outs : Outs (F := F)) (c : Dev nD) : Fin 16 → (⟨S65536, .f32⟩ : BufTy).Contents (Elt F) :=
  ![outs 6 main_v8 c, outs 8 main_v11 c, outs 10 main_v14 c, outs 12 main_v17 c, outs 14 main_v20 c, outs 16 main_v23 c, outs 18 main_v26 c, outs 20 main_v29 c, outs 22 main_v32 c, outs 24 main_v35 c, outs 26 main_v38 c, outs 28 main_v41 c, outs 30 main_v44 c, outs 32 main_v47 c, outs 34 main_v50 c, outs 36 main_v53 c]

/-- The result read at an index: entry `e` of `main_v55` is entry `e % 65536` of the output of region `e / 65536`. -/
theorem tail_apply (m : (ℓ : Loc nD τ sig) → Buf (Elt F) ℓ) (outs : Outs (F := F)) (c : Dev nD) (e : Fin 1000000) :
    (V37 m outs c main_v55 : (⟨S1000000, .f32⟩ : BufTy).Contents (Elt F)) (ValueIdx.ix1 e)
      = chunk outs c ⟨e.val / 65536, by have := e.isLt; omega⟩ (ValueIdx.ix1 ⟨e.val % 65536, Nat.mod_lt _ (by decide)⟩) := by
  rw [tail_eq]
  -- the slice starts at 0: entry `e` of it is entry `e` of the concatenation
  refine (extractStridedSlice_apply (s := S1048576) (t := S1000000) ![0] _ slices_S1048576_S1000000_0 (ValueIdx.ix1 e)
    (ValueIdx.ix1 ⟨e.val, by have := e.isLt; omega⟩) (fun a => match a with | ⟨0, _⟩ => (Nat.zero_add _).symm)).trans ?_
  -- sixteen pieces of one extent 65536: the quotient names the piece, the remainder the place in it
  exact concatenate_ofFn_apply (t := S1048576) (s₁ := S65536) 0 (chunk outs c) concatenates_S65536_S65536_S65536_S65536_S65536_S65536_S65536_S65536_S65536_S65536_S65536_S65536_S65536_S65536_S65536_S65536_S1048576_d0 rfl 65536 rfl
    (ValueIdx.ix1 ⟨e.val, by have := e.isLt; omega⟩) ⟨e.val / 65536, by have := e.isLt; omega⟩ rfl
    (ValueIdx.ix1 ⟨e.val % 65536, Nat.mod_lt _ (by decide)⟩) rfl (fun b hb => match b, hb with | ⟨0, _⟩, hb => absurd rfl hb)

end Cert.Proof.KB

end
-- ==== Proof.KBTables.lean ====
/-
  What the sixteen regions' tables hold. The host operations before the regions cut row 0 (the head words) and row 1 (the tail
  words) out of the [2, 1000000] index array, lay each out as a list of 1000000 words, and pad each list with zeros to
  1048576 words. Region K's two tables are words 65536·K … 65536·K + 65535 of the two padded lists. So entry j of region
  K's table r is entry 65536·K + j of row r of the index array where that entry exists, and zero past the row's end. When
  every word of the index array is below 200000, so is every table entry: a padded entry is zero.
-/
import proofs.«414028_j29231547417249_2_alg».proof.Proof.KBAdm
import Idealize.ShloMosaic.Lib.KernelVsHost
import Idealize.ShloMosaic.Lib.Pipeline.Value
import Idealize.ShloMosaic.Lib.ValueLayout
import Idealize.ShloMosaic.Lib.ValueIdx
import Idealize.ShloMosaic.Lib.StableHlo.Run

noncomputable section

namespace Cert.Proof.KB

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ)

/-- Entry n of row r of the index array on core c, zero past the row's end. -/
def padRow (c : Dev nD) (r : Fin 2) (n : ℕ) : BitVec 32 :=
  if h : n < 1000000 then (m ((c : Thread nD τ).loc main_arg2) : IVec S2x1000000 32) (ValueIdx.ix2 r ⟨n, h⟩) else 0#32

/-- When every word of the index array is below 200000, so is every entry of a padded row. -/
theorem padRow_lt (hidx : ∀ i : S2x1000000.Idx, ((m (((0 : Dev nD) : Thread nD τ).loc main_arg2) : IVec S2x1000000 32) i).toNat < 200000)
    (r : Fin 2) (n : ℕ) : (padRow m 0 r n).toNat < 200000 := by
  unfold padRow
  split
  · exact hidx _
  · decide

/-! ## Layout operations at an index -/

/-- Row o of a [2, 1000000] array, laid out as a list and padded with zeros to 1048576 entries, read at entry n: the array's
    entry (o, n) when n is inside the row, zero past its end. -/
theorem padded_apply (A : IVec S2x1000000 32) (o : ℕ) (ho : o < 2) (hs : S2x1000000.Slices ![o, 0] S1x1000000)
    (hc : S1x1000000.ShapeCasts S1000000) (hp : S1000000.Pads (![0] : Fin 1 → Nat) ![48576] ![0] S1048576) (hu : 0 < S_.numel)
    (n : Fin 1048576) :
    pad S1048576 ![0] ![48576] ![0] (shapeCast S1000000 (extractStridedSlice S1x1000000 ![o, 0] A hs) hc) (constantI S_ 32 0#32) hp hu
        (ValueIdx.ix1 n)
      = if h : n.val < 1000000 then A (ValueIdx.ix2 (⟨o, ho⟩ : Fin 2) ⟨n.val, h⟩) else 0#32 := by
  by_cases h : n.val < 1000000
  · rw [dif_pos h]
    refine (pad_apply_of_inside _ _ _ _ _ hp hu (ValueIdx.ix1 n) (ValueIdx.ix1 (⟨n.val, h⟩ : Fin 1000000)) fun a => ?_).trans ?_
    · match a with
      | ⟨0, _⟩ => show n.val = 0 + n.val * (0 + 1); omega
    refine (ValueIdx.shapeCast_1a_a_apply _ hc ⟨n.val, h⟩).trans ?_
    exact ValueIdx.slice2_axis0_apply o A hs (0 : Fin 1) ⟨n.val, h⟩ ⟨o, ho⟩ (Nat.add_zero o).symm
  · rw [dif_neg h]
    refine (pad_apply_of_not_inside _ _ _ _ _ hp hu (ValueIdx.ix1 n) (0 : Fin 1) ?_).trans rfl
    show ¬(0 ≤ n.val ∧ (n.val - 0) % (0 + 1) = 0 ∧ (n.val - 0) / (0 + 1) < 1000000)
    omega

/-- Words o … o + 65535 of a list of 1048576, read at entry j: the list's entry o + j. -/
theorem chunk_apply {α : Type} (o : ℕ) (x : S1048576.Idx → α) (hs : S1048576.Slices ![o] S65536) (j : Fin 65536) (k : Fin 1048576)
    (hk : k.val = o + j.val) : extractStridedSlice S65536 ![o] x hs (ValueIdx.ix1 j) = x (ValueIdx.ix1 k) :=
  extractStridedSlice_apply _ _ _ _ _ fun ax => by
    match ax with
    | ⟨0, _⟩ => exact hk

/-! ## The host operations before the regions, over any contents -/

theorem rowH_of (X : Valuation τ sig (Elt F)) :
    (StableHlo.after (hostOps0 (F := F)) X (Proc.devRef .tc main_v1) : IVec S1000000 32)
      = shapeCast S1000000 (extractStridedSlice S1x1000000 ![0, 0] (X (Proc.devRef .tc main_arg2) : IVec S2x1000000 32) slices_S2x1000000_S1x1000000_0_0)
          shapeCasts_S1x1000000_S1000000 := by
  after_results
  rfl

theorem rowT_of (X : Valuation τ sig (Elt F)) :
    (StableHlo.after (hostOps0 (F := F)) X (Proc.devRef .tc main_v3) : IVec S1000000 32)
      = shapeCast S1000000 (extractStridedSlice S1x1000000 ![1, 0] (X (Proc.devRef .tc main_arg2) : IVec S2x1000000 32) slices_S2x1000000_S1x1000000_1_0)
          shapeCasts_S1x1000000_S1000000 := by
  after_results
  rfl

theorem zeroH_of (X : Valuation τ sig (Elt F)) :
    (StableHlo.after (hostOps0 (F := F)) X (Proc.devRef .tc main_c) : IVec S_ 32) = constantI S_ 32 0#32 := by
  after_results

theorem zeroT_of (X : Valuation τ sig (Elt F)) :
    (StableHlo.after (hostOps0_2 (F := F)) X (Proc.devRef .tc main_c_0) : IVec S_ 32) = constantI S_ 32 0#32 := by
  after_results

theorem padH_of (X : Valuation τ sig (Elt F)) :
    (StableHlo.after (hostOps0_1 (F := F)) X (Proc.devRef .tc main_v4) : IVec S1048576 32)
      = pad S1048576 ![0] ![48576] ![0] (X (Proc.devRef .tc main_v1) : IVec S1000000 32) (X (Proc.devRef .tc main_c) : IVec S_ 32)
          pads_S1000000_S1048576_0485760 h_S_ := by
  after_results
  rfl

theorem padT_of (X : Valuation τ sig (Elt F)) :
    (StableHlo.after (hostOps0_3 (F := F)) X (Proc.devRef .tc main_v5) : IVec S1048576 32)
      = pad S1048576 ![0] ![48576] ![0] (X (Proc.devRef .tc main_v3) : IVec S1000000 32) (X (Proc.devRef .tc main_c_0) : IVec S_ 32)
          pads_S1000000_S1048576_0485760 h_S_ := by
  after_results
  rfl

/-! ## The two padded lists -/

/-- The padded head list is row 0 of the index array, zero past its end. -/
theorem padH_read (n : Fin 1048576) : (V5 m (0 : Dev nD) main_v4 : IVec S1048576 32) (ValueIdx.ix1 n) = padRow m 0 0 n.val := by
  rw [V5_of m 0 main_v4 (by decide), V4_of m 0 main_v4 (by decide), V3_of m 0 main_v4 (by decide)]
  have e : (V2 m (0 : Dev nD) main_v4 : IVec S1048576 32)
      = pad S1048576 ![0] ![48576] ![0]
          (shapeCast S1000000 (extractStridedSlice S1x1000000 ![0, 0] (V0 m (0 : Dev nD) (Proc.devRef .tc main_arg2) : IVec S2x1000000 32) slices_S2x1000000_S1x1000000_0_0)
            shapeCasts_S1x1000000_S1000000)
          (constantI S_ 32 0#32) pads_S1000000_S1048576_0485760 h_S_ := by
    refine (padH_of (V1 m (0 : Dev nD))).trans ?_
    rw [← rowH_of (V0 m (0 : Dev nD)), ← zeroH_of (V0 m (0 : Dev nD))]
  rw [e]
  exact padded_apply _ 0 (by decide) _ _ _ _ n

/-- The padded tail list is row 1 of the index array, zero past its end. -/
theorem padT_read (n : Fin 1048576) : (V5 m (0 : Dev nD) main_v5 : IVec S1048576 32) (ValueIdx.ix1 n) = padRow m 0 1 n.val := by
  rw [V5_of m 0 main_v5 (by decide)]
  have e : (V4 m (0 : Dev nD) main_v5 : IVec S1048576 32)
      = pad S1048576 ![0] ![48576] ![0]
          (shapeCast S1000000 (extractStridedSlice S1x1000000 ![1, 0] (V0 m (0 : Dev nD) (Proc.devRef .tc main_arg2) : IVec S2x1000000 32) slices_S2x1000000_S1x1000000_1_0)
            shapeCasts_S1x1000000_S1000000)
          (constantI S_ 32 0#32) pads_S1000000_S1048576_0485760 h_S_ := by
    refine (padT_of (V3 m (0 : Dev nD))).trans ?_
    rw [V3_of m 0 main_v3 (by decide), V2_of m 0 main_v3 (by decide), ← rowT_of (V0 m (0 : Dev nD)), ← zeroT_of (V2 m (0 : Dev nD))]
  rw [e]
  exact padded_apply _ 1 (by decide) _ _ _ _ n

/-! ## Region 0 -/

theorem slice0_h (X : Valuation τ sig (Elt F)) :
    (StableHlo.after (hostOps0_4 (F := F)) X (Proc.devRef .tc main_v6) : IVec S65536 32)
      = extractStridedSlice S65536 ![0] (X (Proc.devRef .tc main_v4) : IVec S1048576 32) slices_S1048576_S65536_0 := by
  after_results

theorem slice0_t (X : Valuation τ sig (Elt F)) :
    (StableHlo.after (hostOps0_4 (F := F)) X (Proc.devRef .tc main_v7) : IVec S65536 32)
      = extractStridedSlice S65536 ![0] (X (Proc.devRef .tc main_v5) : IVec S1048576 32) slices_S1048576_S65536_0 := by
  after_results

/-- Entry j of region 0's table 0 is entry 0 + j of row 0 of the index array, zero past the row's end. -/
theorem tbl0_read0 (j : Fin 65536) : (tbl0 m 0 : IVec S65536 32) (ValueIdx.ix1 j) = padRow m 0 0 (65536 * 0 + j.val) := by
  show (StableHlo.after (hostOps0_4 (F := F)) (V4 m (0 : Dev nD)) (Proc.devRef .tc main_v6) : IVec S65536 32) (ValueIdx.ix1 j) = _
  rw [slice0_h]
  rw [← V5_of m 0 main_v4 (by decide)]
  have hj := j.isLt
  exact (chunk_apply 0 _ _ j ⟨65536 * 0 + j.val, by omega⟩ (by show 65536 * 0 + j.val = 0 + j.val; omega)).trans (padH_read m _)

/-- Entry j of region 0's table 1 is entry 0 + j of row 1 of the index array, zero past the row's end. -/
theorem tbl0_read1 (j : Fin 65536) : (tbl0 m 1 : IVec S65536 32) (ValueIdx.ix1 j) = padRow m 0 1 (65536 * 0 + j.val) := by
  show (StableHlo.after (hostOps0_4 (F := F)) (V4 m (0 : Dev nD)) (Proc.devRef .tc main_v7) : IVec S65536 32) (ValueIdx.ix1 j) = _
  rw [slice0_t]
  rw [← V5_of m 0 main_v5 (by decide)]
  have hj := j.isLt
  exact (chunk_apply 0 _ _ j ⟨65536 * 0 + j.val, by omega⟩ (by show 65536 * 0 + j.val = 0 + j.val; omega)).trans (padT_read m _)

theorem tbl0_lt0 (hidx : ∀ i : S2x1000000.Idx, ((m (((0 : Dev nD) : Thread nD τ).loc main_arg2) : IVec S2x1000000 32) i).toNat < 200000)
    (j : S65536.Idx) : ((tbl0 m 0 : IVec S65536 32) j).toNat < 200000 :=
  have e : (tbl0 m 0 : IVec S65536 32) j = padRow m 0 0 (65536 * 0 + (j 0).val) :=
    (congrArg (tbl0 m 0 : IVec S65536 32) (ValueIdx.eq_ix1 j)).trans (tbl0_read0 m (j 0))
  (congrArg BitVec.toNat e).trans_lt (padRow_lt m hidx _ _)

theorem tbl0_lt1 (hidx : ∀ i : S2x1000000.Idx, ((m (((0 : Dev nD) : Thread nD τ).loc main_arg2) : IVec S2x1000000 32) i).toNat < 200000)
    (j : S65536.Idx) : ((tbl0 m 1 : IVec S65536 32) j).toNat < 200000 :=
  have e : (tbl0 m 1 : IVec S65536 32) j = padRow m 0 1 (65536 * 0 + (j 0).val) :=
    (congrArg (tbl0 m 1 : IVec S65536 32) (ValueIdx.eq_ix1 j)).trans (tbl0_read1 m (j 0))
  (congrArg BitVec.toNat e).trans_lt (padRow_lt m hidx _ _)

/-! ## Region 1 -/

theorem slice1_h (X : Valuation τ sig (Elt F)) :
    (StableHlo.after (hostOps1 (F := F)) X (Proc.devRef .tc main_v9) : IVec S65536 32)
      = extractStridedSlice S65536 ![65536] (X (Proc.devRef .tc main_v4) : IVec S1048576 32) slices_S1048576_S65536_65536 := by
  after_results

theorem slice1_t (X : Valuation τ sig (Elt F)) :
    (StableHlo.after (hostOps1 (F := F)) X (Proc.devRef .tc main_v10) : IVec S65536 32)
      = extractStridedSlice S65536 ![65536] (X (Proc.devRef .tc main_v5) : IVec S1048576 32) slices_S1048576_S65536_65536 := by
  after_results

/-- Entry j of region 1's table 0 is entry 65536 + j of row 0 of the index array, zero past the row's end. -/
theorem tbl1_read0 (j : Fin 65536) : (tbl1 m 0 : IVec S65536 32) (ValueIdx.ix1 j) = padRow m 0 0 (65536 * 1 + j.val) := by
  show (StableHlo.after (hostOps1 (F := F)) (V5 m (0 : Dev nD)) (Proc.devRef .tc main_v9) : IVec S65536 32) (ValueIdx.ix1 j) = _
  rw [slice1_h]
  have hj := j.isLt
  exact (chunk_apply 65536 _ _ j ⟨65536 * 1 + j.val, by omega⟩ (by show 65536 * 1 + j.val = 65536 + j.val; omega)).trans (padH_read m _)

/-- Entry j of region 1's table 1 is entry 65536 + j of row 1 of the index array, zero past the row's end. -/
theorem tbl1_read1 (j : Fin 65536) : (tbl1 m 1 : IVec S65536 32) (ValueIdx.ix1 j) = padRow m 0 1 (65536 * 1 + j.val) := by
  show (StableHlo.after (hostOps1 (F := F)) (V5 m (0 : Dev nD)) (Proc.devRef .tc main_v10) : IVec S65536 32) (ValueIdx.ix1 j) = _
  rw [slice1_t]
  have hj := j.isLt
  exact (chunk_apply 65536 _ _ j ⟨65536 * 1 + j.val, by omega⟩ (by show 65536 * 1 + j.val = 65536 + j.val; omega)).trans (padT_read m _)

theorem tbl1_lt0 (hidx : ∀ i : S2x1000000.Idx, ((m (((0 : Dev nD) : Thread nD τ).loc main_arg2) : IVec S2x1000000 32) i).toNat < 200000)
    (j : S65536.Idx) : ((tbl1 m 0 : IVec S65536 32) j).toNat < 200000 :=
  have e : (tbl1 m 0 : IVec S65536 32) j = padRow m 0 0 (65536 * 1 + (j 0).val) :=
    (congrArg (tbl1 m 0 : IVec S65536 32) (ValueIdx.eq_ix1 j)).trans (tbl1_read0 m (j 0))
  (congrArg BitVec.toNat e).trans_lt (padRow_lt m hidx _ _)

theorem tbl1_lt1 (hidx : ∀ i : S2x1000000.Idx, ((m (((0 : Dev nD) : Thread nD τ).loc main_arg2) : IVec S2x1000000 32) i).toNat < 200000)
    (j : S65536.Idx) : ((tbl1 m 1 : IVec S65536 32) j).toNat < 200000 :=
  have e : (tbl1 m 1 : IVec S65536 32) j = padRow m 0 1 (65536 * 1 + (j 0).val) :=
    (congrArg (tbl1 m 1 : IVec S65536 32) (ValueIdx.eq_ix1 j)).trans (tbl1_read1 m (j 0))
  (congrArg BitVec.toNat e).trans_lt (padRow_lt m hidx _ _)

/-! ## Region 2 -/

theorem slice2_h (X : Valuation τ sig (Elt F)) :
    (StableHlo.after (hostOps2 (F := F)) X (Proc.devRef .tc main_v12) : IVec S65536 32)
      = extractStridedSlice S65536 ![131072] (X (Proc.devRef .tc main_v4) : IVec S1048576 32) slices_S1048576_S65536_131072 := by
  after_results

theorem slice2_t (X : Valuation τ sig (Elt F)) :
    (StableHlo.after (hostOps2 (F := F)) X (Proc.devRef .tc main_v13) : IVec S65536 32)
      = extractStridedSlice S65536 ![131072] (X (Proc.devRef .tc main_v5) : IVec S1048576 32) slices_S1048576_S65536_131072 := by
  after_results

/-- Entry j of region 2's table 0 is entry 131072 + j of row 0 of the index array, zero past the row's end. -/
theorem tbl2_read0 (j : Fin 65536) : (tbl2 m 0 : IVec S65536 32) (ValueIdx.ix1 j) = padRow m 0 0 (65536 * 2 + j.val) := by
  show (StableHlo.after (hostOps2 (F := F)) (V5 m (0 : Dev nD)) (Proc.devRef .tc main_v12) : IVec S65536 32) (ValueIdx.ix1 j) = _
  rw [slice2_h]
  have hj := j.isLt
  exact (chunk_apply 131072 _ _ j ⟨65536 * 2 + j.val, by omega⟩ (by show 65536 * 2 + j.val = 131072 + j.val; omega)).trans (padH_read m _)

/-- Entry j of region 2's table 1 is entry 131072 + j of row 1 of the index array, zero past the row's end. -/
theorem tbl2_read1 (j : Fin 65536) : (tbl2 m 1 : IVec S65536 32) (ValueIdx.ix1 j) = padRow m 0 1 (65536 * 2 + j.val) := by
  show (StableHlo.after (hostOps2 (F := F)) (V5 m (0 : Dev nD)) (Proc.devRef .tc main_v13) : IVec S65536 32) (ValueIdx.ix1 j) = _
  rw [slice2_t]
  have hj := j.isLt
  exact (chunk_apply 131072 _ _ j ⟨65536 * 2 + j.val, by omega⟩ (by show 65536 * 2 + j.val = 131072 + j.val; omega)).trans (padT_read m _)

theorem tbl2_lt0 (hidx : ∀ i : S2x1000000.Idx, ((m (((0 : Dev nD) : Thread nD τ).loc main_arg2) : IVec S2x1000000 32) i).toNat < 200000)
    (j : S65536.Idx) : ((tbl2 m 0 : IVec S65536 32) j).toNat < 200000 :=
  have e : (tbl2 m 0 : IVec S65536 32) j = padRow m 0 0 (65536 * 2 + (j 0).val) :=
    (congrArg (tbl2 m 0 : IVec S65536 32) (ValueIdx.eq_ix1 j)).trans (tbl2_read0 m (j 0))
  (congrArg BitVec.toNat e).trans_lt (padRow_lt m hidx _ _)

theorem tbl2_lt1 (hidx : ∀ i : S2x1000000.Idx, ((m (((0 : Dev nD) : Thread nD τ).loc main_arg2) : IVec S2x1000000 32) i).toNat < 200000)
    (j : S65536.Idx) : ((tbl2 m 1 : IVec S65536 32) j).toNat < 200000 :=
  have e : (tbl2 m 1 : IVec S65536 32) j = padRow m 0 1 (65536 * 2 + (j 0).val) :=
    (congrArg (tbl2 m 1 : IVec S65536 32) (ValueIdx.eq_ix1 j)).trans (tbl2_read1 m (j 0))
  (congrArg BitVec.toNat e).trans_lt (padRow_lt m hidx _ _)

/-! ## Region 3 -/

theorem slice3_h (X : Valuation τ sig (Elt F)) :
    (StableHlo.after (hostOps3 (F := F)) X (Proc.devRef .tc main_v15) : IVec S65536 32)
      = extractStridedSlice S65536 ![196608] (X (Proc.devRef .tc main_v4) : IVec S1048576 32) slices_S1048576_S65536_196608 := by
  after_results

theorem slice3_t (X : Valuation τ sig (Elt F)) :
    (StableHlo.after (hostOps3 (F := F)) X (Proc.devRef .tc main_v16) : IVec S65536 32)
      = extractStridedSlice S65536 ![196608] (X (Proc.devRef .tc main_v5) : IVec S1048576 32) slices_S1048576_S65536_196608 := by
  after_results

/-- Entry j of region 3's table 0 is entry 196608 + j of row 0 of the index array, zero past the row's end. -/
theorem tbl3_read0 (j : Fin 65536) : (tbl3 m 0 : IVec S65536 32) (ValueIdx.ix1 j) = padRow m 0 0 (65536 * 3 + j.val) := by
  show (StableHlo.after (hostOps3 (F := F)) (V5 m (0 : Dev nD)) (Proc.devRef .tc main_v15) : IVec S65536 32) (ValueIdx.ix1 j) = _
  rw [slice3_h]
  have hj := j.isLt
  exact (chunk_apply 196608 _ _ j ⟨65536 * 3 + j.val, by omega⟩ (by show 65536 * 3 + j.val = 196608 + j.val; omega)).trans (padH_read m _)

/-- Entry j of region 3's table 1 is entry 196608 + j of row 1 of the index array, zero past the row's end. -/
theorem tbl3_read1 (j : Fin 65536) : (tbl3 m 1 : IVec S65536 32) (ValueIdx.ix1 j) = padRow m 0 1 (65536 * 3 + j.val) := by
  show (StableHlo.after (hostOps3 (F := F)) (V5 m (0 : Dev nD)) (Proc.devRef .tc main_v16) : IVec S65536 32) (ValueIdx.ix1 j) = _
  rw [slice3_t]
  have hj := j.isLt
  exact (chunk_apply 196608 _ _ j ⟨65536 * 3 + j.val, by omega⟩ (by show 65536 * 3 + j.val = 196608 + j.val; omega)).trans (padT_read m _)

theorem tbl3_lt0 (hidx : ∀ i : S2x1000000.Idx, ((m (((0 : Dev nD) : Thread nD τ).loc main_arg2) : IVec S2x1000000 32) i).toNat < 200000)
    (j : S65536.Idx) : ((tbl3 m 0 : IVec S65536 32) j).toNat < 200000 :=
  have e : (tbl3 m 0 : IVec S65536 32) j = padRow m 0 0 (65536 * 3 + (j 0).val) :=
    (congrArg (tbl3 m 0 : IVec S65536 32) (ValueIdx.eq_ix1 j)).trans (tbl3_read0 m (j 0))
  (congrArg BitVec.toNat e).trans_lt (padRow_lt m hidx _ _)

theorem tbl3_lt1 (hidx : ∀ i : S2x1000000.Idx, ((m (((0 : Dev nD) : Thread nD τ).loc main_arg2) : IVec S2x1000000 32) i).toNat < 200000)
    (j : S65536.Idx) : ((tbl3 m 1 : IVec S65536 32) j).toNat < 200000 :=
  have e : (tbl3 m 1 : IVec S65536 32) j = padRow m 0 1 (65536 * 3 + (j 0).val) :=
    (congrArg (tbl3 m 1 : IVec S65536 32) (ValueIdx.eq_ix1 j)).trans (tbl3_read1 m (j 0))
  (congrArg BitVec.toNat e).trans_lt (padRow_lt m hidx _ _)

/-! ## Region 4 -/

theorem slice4_h (X : Valuation τ sig (Elt F)) :
    (StableHlo.after (hostOps4 (F := F)) X (Proc.devRef .tc main_v18) : IVec S65536 32)
      = extractStridedSlice S65536 ![262144] (X (Proc.devRef .tc main_v4) : IVec S1048576 32) slices_S1048576_S65536_262144 := by
  after_results

theorem slice4_t (X : Valuation τ sig (Elt F)) :
    (StableHlo.after (hostOps4 (F := F)) X (Proc.devRef .tc main_v19) : IVec S65536 32)
      = extractStridedSlice S65536 ![262144] (X (Proc.devRef .tc main_v5) : IVec S1048576 32) slices_S1048576_S65536_262144 := by
  after_results

/-- Entry j of region 4's table 0 is entry 262144 + j of row 0 of the index array, zero past the row's end. -/
theorem tbl4_read0 (j : Fin 65536) : (tbl4 m 0 : IVec S65536 32) (ValueIdx.ix1 j) = padRow m 0 0 (65536 * 4 + j.val) := by
  show (StableHlo.after (hostOps4 (F := F)) (V5 m (0 : Dev nD)) (Proc.devRef .tc main_v18) : IVec S65536 32) (ValueIdx.ix1 j) = _
  rw [slice4_h]
  have hj := j.isLt
  exact (chunk_apply 262144 _ _ j ⟨65536 * 4 + j.val, by omega⟩ (by show 65536 * 4 + j.val = 262144 + j.val; omega)).trans (padH_read m _)

/-- Entry j of region 4's table 1 is entry 262144 + j of row 1 of the index array, zero past the row's end. -/
theorem tbl4_read1 (j : Fin 65536) : (tbl4 m 1 : IVec S65536 32) (ValueIdx.ix1 j) = padRow m 0 1 (65536 * 4 + j.val) := by
  show (StableHlo.after (hostOps4 (F := F)) (V5 m (0 : Dev nD)) (Proc.devRef .tc main_v19) : IVec S65536 32) (ValueIdx.ix1 j) = _
  rw [slice4_t]
  have hj := j.isLt
  exact (chunk_apply 262144 _ _ j ⟨65536 * 4 + j.val, by omega⟩ (by show 65536 * 4 + j.val = 262144 + j.val; omega)).trans (padT_read m _)

theorem tbl4_lt0 (hidx : ∀ i : S2x1000000.Idx, ((m (((0 : Dev nD) : Thread nD τ).loc main_arg2) : IVec S2x1000000 32) i).toNat < 200000)
    (j : S65536.Idx) : ((tbl4 m 0 : IVec S65536 32) j).toNat < 200000 :=
  have e : (tbl4 m 0 : IVec S65536 32) j = padRow m 0 0 (65536 * 4 + (j 0).val) :=
    (congrArg (tbl4 m 0 : IVec S65536 32) (ValueIdx.eq_ix1 j)).trans (tbl4_read0 m (j 0))
  (congrArg BitVec.toNat e).trans_lt (padRow_lt m hidx _ _)

theorem tbl4_lt1 (hidx : ∀ i : S2x1000000.Idx, ((m (((0 : Dev nD) : Thread nD τ).loc main_arg2) : IVec S2x1000000 32) i).toNat < 200000)
    (j : S65536.Idx) : ((tbl4 m 1 : IVec S65536 32) j).toNat < 200000 :=
  have e : (tbl4 m 1 : IVec S65536 32) j = padRow m 0 1 (65536 * 4 + (j 0).val) :=
    (congrArg (tbl4 m 1 : IVec S65536 32) (ValueIdx.eq_ix1 j)).trans (tbl4_read1 m (j 0))
  (congrArg BitVec.toNat e).trans_lt (padRow_lt m hidx _ _)

/-! ## Region 5 -/

theorem slice5_h (X : Valuation τ sig (Elt F)) :
    (StableHlo.after (hostOps5 (F := F)) X (Proc.devRef .tc main_v21) : IVec S65536 32)
      = extractStridedSlice S65536 ![327680] (X (Proc.devRef .tc main_v4) : IVec S1048576 32) slices_S1048576_S65536_327680 := by
  after_results

theorem slice5_t (X : Valuation τ sig (Elt F)) :
    (StableHlo.after (hostOps5 (F := F)) X (Proc.devRef .tc main_v22) : IVec S65536 32)
      = extractStridedSlice S65536 ![327680] (X (Proc.devRef .tc main_v5) : IVec S1048576 32) slices_S1048576_S65536_327680 := by
  after_results

/-- Entry j of region 5's table 0 is entry 327680 + j of row 0 of the index array, zero past the row's end. -/
theorem tbl5_read0 (j : Fin 65536) : (tbl5 m 0 : IVec S65536 32) (ValueIdx.ix1 j) = padRow m 0 0 (65536 * 5 + j.val) := by
  show (StableHlo.after (hostOps5 (F := F)) (V5 m (0 : Dev nD)) (Proc.devRef .tc main_v21) : IVec S65536 32) (ValueIdx.ix1 j) = _
  rw [slice5_h]
  have hj := j.isLt
  exact (chunk_apply 327680 _ _ j ⟨65536 * 5 + j.val, by omega⟩ (by show 65536 * 5 + j.val = 327680 + j.val; omega)).trans (padH_read m _)

/-- Entry j of region 5's table 1 is entry 327680 + j of row 1 of the index array, zero past the row's end. -/
theorem tbl5_read1 (j : Fin 65536) : (tbl5 m 1 : IVec S65536 32) (ValueIdx.ix1 j) = padRow m 0 1 (65536 * 5 + j.val) := by
  show (StableHlo.after (hostOps5 (F := F)) (V5 m (0 : Dev nD)) (Proc.devRef .tc main_v22) : IVec S65536 32) (ValueIdx.ix1 j) = _
  rw [slice5_t]
  have hj := j.isLt
  exact (chunk_apply 327680 _ _ j ⟨65536 * 5 + j.val, by omega⟩ (by show 65536 * 5 + j.val = 327680 + j.val; omega)).trans (padT_read m _)

theorem tbl5_lt0 (hidx : ∀ i : S2x1000000.Idx, ((m (((0 : Dev nD) : Thread nD τ).loc main_arg2) : IVec S2x1000000 32) i).toNat < 200000)
    (j : S65536.Idx) : ((tbl5 m 0 : IVec S65536 32) j).toNat < 200000 :=
  have e : (tbl5 m 0 : IVec S65536 32) j = padRow m 0 0 (65536 * 5 + (j 0).val) :=
    (congrArg (tbl5 m 0 : IVec S65536 32) (ValueIdx.eq_ix1 j)).trans (tbl5_read0 m (j 0))
  (congrArg BitVec.toNat e).trans_lt (padRow_lt m hidx _ _)

theorem tbl5_lt1 (hidx : ∀ i : S2x1000000.Idx, ((m (((0 : Dev nD) : Thread nD τ).loc main_arg2) : IVec S2x1000000 32) i).toNat < 200000)
    (j : S65536.Idx) : ((tbl5 m 1 : IVec S65536 32) j).toNat < 200000 :=
  have e : (tbl5 m 1 : IVec S65536 32) j = padRow m 0 1 (65536 * 5 + (j 0).val) :=
    (congrArg (tbl5 m 1 : IVec S65536 32) (ValueIdx.eq_ix1 j)).trans (tbl5_read1 m (j 0))
  (congrArg BitVec.toNat e).trans_lt (padRow_lt m hidx _ _)

/-! ## Region 6 -/

theorem slice6_h (X : Valuation τ sig (Elt F)) :
    (StableHlo.after (hostOps6 (F := F)) X (Proc.devRef .tc main_v24) : IVec S65536 32)
      = extractStridedSlice S65536 ![393216] (X (Proc.devRef .tc main_v4) : IVec S1048576 32) slices_S1048576_S65536_393216 := by
  after_results

theorem slice6_t (X : Valuation τ sig (Elt F)) :
    (StableHlo.after (hostOps6 (F := F)) X (Proc.devRef .tc main_v25) : IVec S65536 32)
      = extractStridedSlice S65536 ![393216] (X (Proc.devRef .tc main_v5) : IVec S1048576 32) slices_S1048576_S65536_393216 := by
  after_results

/-- Entry j of region 6's table 0 is entry 393216 + j of row 0 of the index array, zero past the row's end. -/
theorem tbl6_read0 (j : Fin 65536) : (tbl6 m 0 : IVec S65536 32) (ValueIdx.ix1 j) = padRow m 0 0 (65536 * 6 + j.val) := by
  show (StableHlo.after (hostOps6 (F := F)) (V5 m (0 : Dev nD)) (Proc.devRef .tc main_v24) : IVec S65536 32) (ValueIdx.ix1 j) = _
  rw [slice6_h]
  have hj := j.isLt
  exact (chunk_apply 393216 _ _ j ⟨65536 * 6 + j.val, by omega⟩ (by show 65536 * 6 + j.val = 393216 + j.val; omega)).trans (padH_read m _)

/-- Entry j of region 6's table 1 is entry 393216 + j of row 1 of the index array, zero past the row's end. -/
theorem tbl6_read1 (j : Fin 65536) : (tbl6 m 1 : IVec S65536 32) (ValueIdx.ix1 j) = padRow m 0 1 (65536 * 6 + j.val) := by
  show (StableHlo.after (hostOps6 (F := F)) (V5 m (0 : Dev nD)) (Proc.devRef .tc main_v25) : IVec S65536 32) (ValueIdx.ix1 j) = _
  rw [slice6_t]
  have hj := j.isLt
  exact (chunk_apply 393216 _ _ j ⟨65536 * 6 + j.val, by omega⟩ (by show 65536 * 6 + j.val = 393216 + j.val; omega)).trans (padT_read m _)

theorem tbl6_lt0 (hidx : ∀ i : S2x1000000.Idx, ((m (((0 : Dev nD) : Thread nD τ).loc main_arg2) : IVec S2x1000000 32) i).toNat < 200000)
    (j : S65536.Idx) : ((tbl6 m 0 : IVec S65536 32) j).toNat < 200000 :=
  have e : (tbl6 m 0 : IVec S65536 32) j = padRow m 0 0 (65536 * 6 + (j 0).val) :=
    (congrArg (tbl6 m 0 : IVec S65536 32) (ValueIdx.eq_ix1 j)).trans (tbl6_read0 m (j 0))
  (congrArg BitVec.toNat e).trans_lt (padRow_lt m hidx _ _)

theorem tbl6_lt1 (hidx : ∀ i : S2x1000000.Idx, ((m (((0 : Dev nD) : Thread nD τ).loc main_arg2) : IVec S2x1000000 32) i).toNat < 200000)
    (j : S65536.Idx) : ((tbl6 m 1 : IVec S65536 32) j).toNat < 200000 :=
  have e : (tbl6 m 1 : IVec S65536 32) j = padRow m 0 1 (65536 * 6 + (j 0).val) :=
    (congrArg (tbl6 m 1 : IVec S65536 32) (ValueIdx.eq_ix1 j)).trans (tbl6_read1 m (j 0))
  (congrArg BitVec.toNat e).trans_lt (padRow_lt m hidx _ _)

/-! ## Region 7 -/

theorem slice7_h (X : Valuation τ sig (Elt F)) :
    (StableHlo.after (hostOps7 (F := F)) X (Proc.devRef .tc main_v27) : IVec S65536 32)
      = extractStridedSlice S65536 ![458752] (X (Proc.devRef .tc main_v4) : IVec S1048576 32) slices_S1048576_S65536_458752 := by
  after_results

theorem slice7_t (X : Valuation τ sig (Elt F)) :
    (StableHlo.after (hostOps7 (F := F)) X (Proc.devRef .tc main_v28) : IVec S65536 32)
      = extractStridedSlice S65536 ![458752] (X (Proc.devRef .tc main_v5) : IVec S1048576 32) slices_S1048576_S65536_458752 := by
  after_results

/-- Entry j of region 7's table 0 is entry 458752 + j of row 0 of the index array, zero past the row's end. -/
theorem tbl7_read0 (j : Fin 65536) : (tbl7 m 0 : IVec S65536 32) (ValueIdx.ix1 j) = padRow m 0 0 (65536 * 7 + j.val) := by
  show (StableHlo.after (hostOps7 (F := F)) (V5 m (0 : Dev nD)) (Proc.devRef .tc main_v27) : IVec S65536 32) (ValueIdx.ix1 j) = _
  rw [slice7_h]
  have hj := j.isLt
  exact (chunk_apply 458752 _ _ j ⟨65536 * 7 + j.val, by omega⟩ (by show 65536 * 7 + j.val = 458752 + j.val; omega)).trans (padH_read m _)

/-- Entry j of region 7's table 1 is entry 458752 + j of row 1 of the index array, zero past the row's end. -/
theorem tbl7_read1 (j : Fin 65536) : (tbl7 m 1 : IVec S65536 32) (ValueIdx.ix1 j) = padRow m 0 1 (65536 * 7 + j.val) := by
  show (StableHlo.after (hostOps7 (F := F)) (V5 m (0 : Dev nD)) (Proc.devRef .tc main_v28) : IVec S65536 32) (ValueIdx.ix1 j) = _
  rw [slice7_t]
  have hj := j.isLt
  exact (chunk_apply 458752 _ _ j ⟨65536 * 7 + j.val, by omega⟩ (by show 65536 * 7 + j.val = 458752 + j.val; omega)).trans (padT_read m _)

theorem tbl7_lt0 (hidx : ∀ i : S2x1000000.Idx, ((m (((0 : Dev nD) : Thread nD τ).loc main_arg2) : IVec S2x1000000 32) i).toNat < 200000)
    (j : S65536.Idx) : ((tbl7 m 0 : IVec S65536 32) j).toNat < 200000 :=
  have e : (tbl7 m 0 : IVec S65536 32) j = padRow m 0 0 (65536 * 7 + (j 0).val) :=
    (congrArg (tbl7 m 0 : IVec S65536 32) (ValueIdx.eq_ix1 j)).trans (tbl7_read0 m (j 0))
  (congrArg BitVec.toNat e).trans_lt (padRow_lt m hidx _ _)

theorem tbl7_lt1 (hidx : ∀ i : S2x1000000.Idx, ((m (((0 : Dev nD) : Thread nD τ).loc main_arg2) : IVec S2x1000000 32) i).toNat < 200000)
    (j : S65536.Idx) : ((tbl7 m 1 : IVec S65536 32) j).toNat < 200000 :=
  have e : (tbl7 m 1 : IVec S65536 32) j = padRow m 0 1 (65536 * 7 + (j 0).val) :=
    (congrArg (tbl7 m 1 : IVec S65536 32) (ValueIdx.eq_ix1 j)).trans (tbl7_read1 m (j 0))
  (congrArg BitVec.toNat e).trans_lt (padRow_lt m hidx _ _)

/-! ## Region 8 -/

theorem slice8_h (X : Valuation τ sig (Elt F)) :
    (StableHlo.after (hostOps8 (F := F)) X (Proc.devRef .tc main_v30) : IVec S65536 32)
      = extractStridedSlice S65536 ![524288] (X (Proc.devRef .tc main_v4) : IVec S1048576 32) slices_S1048576_S65536_524288 := by
  after_results

theorem slice8_t (X : Valuation τ sig (Elt F)) :
    (StableHlo.after (hostOps8 (F := F)) X (Proc.devRef .tc main_v31) : IVec S65536 32)
      = extractStridedSlice S65536 ![524288] (X (Proc.devRef .tc main_v5) : IVec S1048576 32) slices_S1048576_S65536_524288 := by
  after_results

/-- Entry j of region 8's table 0 is entry 524288 + j of row 0 of the index array, zero past the row's end. -/
theorem tbl8_read0 (j : Fin 65536) : (tbl8 m 0 : IVec S65536 32) (ValueIdx.ix1 j) = padRow m 0 0 (65536 * 8 + j.val) := by
  show (StableHlo.after (hostOps8 (F := F)) (V5 m (0 : Dev nD)) (Proc.devRef .tc main_v30) : IVec S65536 32) (ValueIdx.ix1 j) = _
  rw [slice8_h]
  have hj := j.isLt
  exact (chunk_apply 524288 _ _ j ⟨65536 * 8 + j.val, by omega⟩ (by show 65536 * 8 + j.val = 524288 + j.val; omega)).trans (padH_read m _)

/-- Entry j of region 8's table 1 is entry 524288 + j of row 1 of the index array, zero past the row's end. -/
theorem tbl8_read1 (j : Fin 65536) : (tbl8 m 1 : IVec S65536 32) (ValueIdx.ix1 j) = padRow m 0 1 (65536 * 8 + j.val) := by
  show (StableHlo.after (hostOps8 (F := F)) (V5 m (0 : Dev nD)) (Proc.devRef .tc main_v31) : IVec S65536 32) (ValueIdx.ix1 j) = _
  rw [slice8_t]
  have hj := j.isLt
  exact (chunk_apply 524288 _ _ j ⟨65536 * 8 + j.val, by omega⟩ (by show 65536 * 8 + j.val = 524288 + j.val; omega)).trans (padT_read m _)

theorem tbl8_lt0 (hidx : ∀ i : S2x1000000.Idx, ((m (((0 : Dev nD) : Thread nD τ).loc main_arg2) : IVec S2x1000000 32) i).toNat < 200000)
    (j : S65536.Idx) : ((tbl8 m 0 : IVec S65536 32) j).toNat < 200000 :=
  have e : (tbl8 m 0 : IVec S65536 32) j = padRow m 0 0 (65536 * 8 + (j 0).val) :=
    (congrArg (tbl8 m 0 : IVec S65536 32) (ValueIdx.eq_ix1 j)).trans (tbl8_read0 m (j 0))
  (congrArg BitVec.toNat e).trans_lt (padRow_lt m hidx _ _)

theorem tbl8_lt1 (hidx : ∀ i : S2x1000000.Idx, ((m (((0 : Dev nD) : Thread nD τ).loc main_arg2) : IVec S2x1000000 32) i).toNat < 200000)
    (j : S65536.Idx) : ((tbl8 m 1 : IVec S65536 32) j).toNat < 200000 :=
  have e : (tbl8 m 1 : IVec S65536 32) j = padRow m 0 1 (65536 * 8 + (j 0).val) :=
    (congrArg (tbl8 m 1 : IVec S65536 32) (ValueIdx.eq_ix1 j)).trans (tbl8_read1 m (j 0))
  (congrArg BitVec.toNat e).trans_lt (padRow_lt m hidx _ _)

/-! ## Region 9 -/

theorem slice9_h (X : Valuation τ sig (Elt F)) :
    (StableHlo.after (hostOps9 (F := F)) X (Proc.devRef .tc main_v33) : IVec S65536 32)
      = extractStridedSlice S65536 ![589824] (X (Proc.devRef .tc main_v4) : IVec S1048576 32) slices_S1048576_S65536_589824 := by
  after_results

theorem slice9_t (X : Valuation τ sig (Elt F)) :
    (StableHlo.after (hostOps9 (F := F)) X (Proc.devRef .tc main_v34) : IVec S65536 32)
      = extractStridedSlice S65536 ![589824] (X (Proc.devRef .tc main_v5) : IVec S1048576 32) slices_S1048576_S65536_589824 := by
  after_results

/-- Entry j of region 9's table 0 is entry 589824 + j of row 0 of the index array, zero past the row's end. -/
theorem tbl9_read0 (j : Fin 65536) : (tbl9 m 0 : IVec S65536 32) (ValueIdx.ix1 j) = padRow m 0 0 (65536 * 9 + j.val) := by
  show (StableHlo.after (hostOps9 (F := F)) (V5 m (0 : Dev nD)) (Proc.devRef .tc main_v33) : IVec S65536 32) (ValueIdx.ix1 j) = _
  rw [slice9_h]
  have hj := j.isLt
  exact (chunk_apply 589824 _ _ j ⟨65536 * 9 + j.val, by omega⟩ (by show 65536 * 9 + j.val = 589824 + j.val; omega)).trans (padH_read m _)

/-- Entry j of region 9's table 1 is entry 589824 + j of row 1 of the index array, zero past the row's end. -/
theorem tbl9_read1 (j : Fin 65536) : (tbl9 m 1 : IVec S65536 32) (ValueIdx.ix1 j) = padRow m 0 1 (65536 * 9 + j.val) := by
  show (StableHlo.after (hostOps9 (F := F)) (V5 m (0 : Dev nD)) (Proc.devRef .tc main_v34) : IVec S65536 32) (ValueIdx.ix1 j) = _
  rw [slice9_t]
  have hj := j.isLt
  exact (chunk_apply 589824 _ _ j ⟨65536 * 9 + j.val, by omega⟩ (by show 65536 * 9 + j.val = 589824 + j.val; omega)).trans (padT_read m _)

theorem tbl9_lt0 (hidx : ∀ i : S2x1000000.Idx, ((m (((0 : Dev nD) : Thread nD τ).loc main_arg2) : IVec S2x1000000 32) i).toNat < 200000)
    (j : S65536.Idx) : ((tbl9 m 0 : IVec S65536 32) j).toNat < 200000 :=
  have e : (tbl9 m 0 : IVec S65536 32) j = padRow m 0 0 (65536 * 9 + (j 0).val) :=
    (congrArg (tbl9 m 0 : IVec S65536 32) (ValueIdx.eq_ix1 j)).trans (tbl9_read0 m (j 0))
  (congrArg BitVec.toNat e).trans_lt (padRow_lt m hidx _ _)

theorem tbl9_lt1 (hidx : ∀ i : S2x1000000.Idx, ((m (((0 : Dev nD) : Thread nD τ).loc main_arg2) : IVec S2x1000000 32) i).toNat < 200000)
    (j : S65536.Idx) : ((tbl9 m 1 : IVec S65536 32) j).toNat < 200000 :=
  have e : (tbl9 m 1 : IVec S65536 32) j = padRow m 0 1 (65536 * 9 + (j 0).val) :=
    (congrArg (tbl9 m 1 : IVec S65536 32) (ValueIdx.eq_ix1 j)).trans (tbl9_read1 m (j 0))
  (congrArg BitVec.toNat e).trans_lt (padRow_lt m hidx _ _)

/-! ## Region 10 -/

theorem slice10_h (X : Valuation τ sig (Elt F)) :
    (StableHlo.after (hostOps10 (F := F)) X (Proc.devRef .tc main_v36) : IVec S65536 32)
      = extractStridedSlice S65536 ![655360] (X (Proc.devRef .tc main_v4) : IVec S1048576 32) slices_S1048576_S65536_655360 := by
  after_results

theorem slice10_t (X : Valuation τ sig (Elt F)) :
    (StableHlo.after (hostOps10 (F := F)) X (Proc.devRef .tc main_v37) : IVec S65536 32)
      = extractStridedSlice S65536 ![655360] (X (Proc.devRef .tc main_v5) : IVec S1048576 32) slices_S1048576_S65536_655360 := by
  after_results

/-- Entry j of region 10's table 0 is entry 655360 + j of row 0 of the index array, zero past the row's end. -/
theorem tbl10_read0 (j : Fin 65536) : (tbl10 m 0 : IVec S65536 32) (ValueIdx.ix1 j) = padRow m 0 0 (65536 * 10 + j.val) := by
  show (StableHlo.after (hostOps10 (F := F)) (V5 m (0 : Dev nD)) (Proc.devRef .tc main_v36) : IVec S65536 32) (ValueIdx.ix1 j) = _
  rw [slice10_h]
  have hj := j.isLt
  exact (chunk_apply 655360 _ _ j ⟨65536 * 10 + j.val, by omega⟩ (by show 65536 * 10 + j.val = 655360 + j.val; omega)).trans (padH_read m _)

/-- Entry j of region 10's table 1 is entry 655360 + j of row 1 of the index array, zero past the row's end. -/
theorem tbl10_read1 (j : Fin 65536) : (tbl10 m 1 : IVec S65536 32) (ValueIdx.ix1 j) = padRow m 0 1 (65536 * 10 + j.val) := by
  show (StableHlo.after (hostOps10 (F := F)) (V5 m (0 : Dev nD)) (Proc.devRef .tc main_v37) : IVec S65536 32) (ValueIdx.ix1 j) = _
  rw [slice10_t]
  have hj := j.isLt
  exact (chunk_apply 655360 _ _ j ⟨65536 * 10 + j.val, by omega⟩ (by show 65536 * 10 + j.val = 655360 + j.val; omega)).trans (padT_read m _)

theorem tbl10_lt0 (hidx : ∀ i : S2x1000000.Idx, ((m (((0 : Dev nD) : Thread nD τ).loc main_arg2) : IVec S2x1000000 32) i).toNat < 200000)
    (j : S65536.Idx) : ((tbl10 m 0 : IVec S65536 32) j).toNat < 200000 :=
  have e : (tbl10 m 0 : IVec S65536 32) j = padRow m 0 0 (65536 * 10 + (j 0).val) :=
    (congrArg (tbl10 m 0 : IVec S65536 32) (ValueIdx.eq_ix1 j)).trans (tbl10_read0 m (j 0))
  (congrArg BitVec.toNat e).trans_lt (padRow_lt m hidx _ _)

theorem tbl10_lt1 (hidx : ∀ i : S2x1000000.Idx, ((m (((0 : Dev nD) : Thread nD τ).loc main_arg2) : IVec S2x1000000 32) i).toNat < 200000)
    (j : S65536.Idx) : ((tbl10 m 1 : IVec S65536 32) j).toNat < 200000 :=
  have e : (tbl10 m 1 : IVec S65536 32) j = padRow m 0 1 (65536 * 10 + (j 0).val) :=
    (congrArg (tbl10 m 1 : IVec S65536 32) (ValueIdx.eq_ix1 j)).trans (tbl10_read1 m (j 0))
  (congrArg BitVec.toNat e).trans_lt (padRow_lt m hidx _ _)

/-! ## Region 11 -/

theorem slice11_h (X : Valuation τ sig (Elt F)) :
    (StableHlo.after (hostOps11 (F := F)) X (Proc.devRef .tc main_v39) : IVec S65536 32)
      = extractStridedSlice S65536 ![720896] (X (Proc.devRef .tc main_v4) : IVec S1048576 32) slices_S1048576_S65536_720896 := by
  after_results

theorem slice11_t (X : Valuation τ sig (Elt F)) :
    (StableHlo.after (hostOps11 (F := F)) X (Proc.devRef .tc main_v40) : IVec S65536 32)
      = extractStridedSlice S65536 ![720896] (X (Proc.devRef .tc main_v5) : IVec S1048576 32) slices_S1048576_S65536_720896 := by
  after_results

/-- Entry j of region 11's table 0 is entry 720896 + j of row 0 of the index array, zero past the row's end. -/
theorem tbl11_read0 (j : Fin 65536) : (tbl11 m 0 : IVec S65536 32) (ValueIdx.ix1 j) = padRow m 0 0 (65536 * 11 + j.val) := by
  show (StableHlo.after (hostOps11 (F := F)) (V5 m (0 : Dev nD)) (Proc.devRef .tc main_v39) : IVec S65536 32) (ValueIdx.ix1 j) = _
  rw [slice11_h]
  have hj := j.isLt
  exact (chunk_apply 720896 _ _ j ⟨65536 * 11 + j.val, by omega⟩ (by show 65536 * 11 + j.val = 720896 + j.val; omega)).trans (padH_read m _)

/-- Entry j of region 11's table 1 is entry 720896 + j of row 1 of the index array, zero past the row's end. -/
theorem tbl11_read1 (j : Fin 65536) : (tbl11 m 1 : IVec S65536 32) (ValueIdx.ix1 j) = padRow m 0 1 (65536 * 11 + j.val) := by
  show (StableHlo.after (hostOps11 (F := F)) (V5 m (0 : Dev nD)) (Proc.devRef .tc main_v40) : IVec S65536 32) (ValueIdx.ix1 j) = _
  rw [slice11_t]
  have hj := j.isLt
  exact (chunk_apply 720896 _ _ j ⟨65536 * 11 + j.val, by omega⟩ (by show 65536 * 11 + j.val = 720896 + j.val; omega)).trans (padT_read m _)

theorem tbl11_lt0 (hidx : ∀ i : S2x1000000.Idx, ((m (((0 : Dev nD) : Thread nD τ).loc main_arg2) : IVec S2x1000000 32) i).toNat < 200000)
    (j : S65536.Idx) : ((tbl11 m 0 : IVec S65536 32) j).toNat < 200000 :=
  have e : (tbl11 m 0 : IVec S65536 32) j = padRow m 0 0 (65536 * 11 + (j 0).val) :=
    (congrArg (tbl11 m 0 : IVec S65536 32) (ValueIdx.eq_ix1 j)).trans (tbl11_read0 m (j 0))
  (congrArg BitVec.toNat e).trans_lt (padRow_lt m hidx _ _)

theorem tbl11_lt1 (hidx : ∀ i : S2x1000000.Idx, ((m (((0 : Dev nD) : Thread nD τ).loc main_arg2) : IVec S2x1000000 32) i).toNat < 200000)
    (j : S65536.Idx) : ((tbl11 m 1 : IVec S65536 32) j).toNat < 200000 :=
  have e : (tbl11 m 1 : IVec S65536 32) j = padRow m 0 1 (65536 * 11 + (j 0).val) :=
    (congrArg (tbl11 m 1 : IVec S65536 32) (ValueIdx.eq_ix1 j)).trans (tbl11_read1 m (j 0))
  (congrArg BitVec.toNat e).trans_lt (padRow_lt m hidx _ _)

/-! ## Region 12 -/

theorem slice12_h (X : Valuation τ sig (Elt F)) :
    (StableHlo.after (hostOps12 (F := F)) X (Proc.devRef .tc main_v42) : IVec S65536 32)
      = extractStridedSlice S65536 ![786432] (X (Proc.devRef .tc main_v4) : IVec S1048576 32) slices_S1048576_S65536_786432 := by
  after_results

theorem slice12_t (X : Valuation τ sig (Elt F)) :
    (StableHlo.after (hostOps12 (F := F)) X (Proc.devRef .tc main_v43) : IVec S65536 32)
      = extractStridedSlice S65536 ![786432] (X (Proc.devRef .tc main_v5) : IVec S1048576 32) slices_S1048576_S65536_786432 := by
  after_results

/-- Entry j of region 12's table 0 is entry 786432 + j of row 0 of the index array, zero past the row's end. -/
theorem tbl12_read0 (j : Fin 65536) : (tbl12 m 0 : IVec S65536 32) (ValueIdx.ix1 j) = padRow m 0 0 (65536 * 12 + j.val) := by
  show (StableHlo.after (hostOps12 (F := F)) (V5 m (0 : Dev nD)) (Proc.devRef .tc main_v42) : IVec S65536 32) (ValueIdx.ix1 j) = _
  rw [slice12_h]
  have hj := j.isLt
  exact (chunk_apply 786432 _ _ j ⟨65536 * 12 + j.val, by omega⟩ (by show 65536 * 12 + j.val = 786432 + j.val; omega)).trans (padH_read m _)

/-- Entry j of region 12's table 1 is entry 786432 + j of row 1 of the index array, zero past the row's end. -/
theorem tbl12_read1 (j : Fin 65536) : (tbl12 m 1 : IVec S65536 32) (ValueIdx.ix1 j) = padRow m 0 1 (65536 * 12 + j.val) := by
  show (StableHlo.after (hostOps12 (F := F)) (V5 m (0 : Dev nD)) (Proc.devRef .tc main_v43) : IVec S65536 32) (ValueIdx.ix1 j) = _
  rw [slice12_t]
  have hj := j.isLt
  exact (chunk_apply 786432 _ _ j ⟨65536 * 12 + j.val, by omega⟩ (by show 65536 * 12 + j.val = 786432 + j.val; omega)).trans (padT_read m _)

theorem tbl12_lt0 (hidx : ∀ i : S2x1000000.Idx, ((m (((0 : Dev nD) : Thread nD τ).loc main_arg2) : IVec S2x1000000 32) i).toNat < 200000)
    (j : S65536.Idx) : ((tbl12 m 0 : IVec S65536 32) j).toNat < 200000 :=
  have e : (tbl12 m 0 : IVec S65536 32) j = padRow m 0 0 (65536 * 12 + (j 0).val) :=
    (congrArg (tbl12 m 0 : IVec S65536 32) (ValueIdx.eq_ix1 j)).trans (tbl12_read0 m (j 0))
  (congrArg BitVec.toNat e).trans_lt (padRow_lt m hidx _ _)

theorem tbl12_lt1 (hidx : ∀ i : S2x1000000.Idx, ((m (((0 : Dev nD) : Thread nD τ).loc main_arg2) : IVec S2x1000000 32) i).toNat < 200000)
    (j : S65536.Idx) : ((tbl12 m 1 : IVec S65536 32) j).toNat < 200000 :=
  have e : (tbl12 m 1 : IVec S65536 32) j = padRow m 0 1 (65536 * 12 + (j 0).val) :=
    (congrArg (tbl12 m 1 : IVec S65536 32) (ValueIdx.eq_ix1 j)).trans (tbl12_read1 m (j 0))
  (congrArg BitVec.toNat e).trans_lt (padRow_lt m hidx _ _)

/-! ## Region 13 -/

theorem slice13_h (X : Valuation τ sig (Elt F)) :
    (StableHlo.after (hostOps13 (F := F)) X (Proc.devRef .tc main_v45) : IVec S65536 32)
      = extractStridedSlice S65536 ![851968] (X (Proc.devRef .tc main_v4) : IVec S1048576 32) slices_S1048576_S65536_851968 := by
  after_results

theorem slice13_t (X : Valuation τ sig (Elt F)) :
    (StableHlo.after (hostOps13 (F := F)) X (Proc.devRef .tc main_v46) : IVec S65536 32)
      = extractStridedSlice S65536 ![851968] (X (Proc.devRef .tc main_v5) : IVec S1048576 32) slices_S1048576_S65536_851968 := by
  after_results

/-- Entry j of region 13's table 0 is entry 851968 + j of row 0 of the index array, zero past the row's end. -/
theorem tbl13_read0 (j : Fin 65536) : (tbl13 m 0 : IVec S65536 32) (ValueIdx.ix1 j) = padRow m 0 0 (65536 * 13 + j.val) := by
  show (StableHlo.after (hostOps13 (F := F)) (V5 m (0 : Dev nD)) (Proc.devRef .tc main_v45) : IVec S65536 32) (ValueIdx.ix1 j) = _
  rw [slice13_h]
  have hj := j.isLt
  exact (chunk_apply 851968 _ _ j ⟨65536 * 13 + j.val, by omega⟩ (by show 65536 * 13 + j.val = 851968 + j.val; omega)).trans (padH_read m _)

/-- Entry j of region 13's table 1 is entry 851968 + j of row 1 of the index array, zero past the row's end. -/
theorem tbl13_read1 (j : Fin 65536) : (tbl13 m 1 : IVec S65536 32) (ValueIdx.ix1 j) = padRow m 0 1 (65536 * 13 + j.val) := by
  show (StableHlo.after (hostOps13 (F := F)) (V5 m (0 : Dev nD)) (Proc.devRef .tc main_v46) : IVec S65536 32) (ValueIdx.ix1 j) = _
  rw [slice13_t]
  have hj := j.isLt
  exact (chunk_apply 851968 _ _ j ⟨65536 * 13 + j.val, by omega⟩ (by show 65536 * 13 + j.val = 851968 + j.val; omega)).trans (padT_read m _)

theorem tbl13_lt0 (hidx : ∀ i : S2x1000000.Idx, ((m (((0 : Dev nD) : Thread nD τ).loc main_arg2) : IVec S2x1000000 32) i).toNat < 200000)
    (j : S65536.Idx) : ((tbl13 m 0 : IVec S65536 32) j).toNat < 200000 :=
  have e : (tbl13 m 0 : IVec S65536 32) j = padRow m 0 0 (65536 * 13 + (j 0).val) :=
    (congrArg (tbl13 m 0 : IVec S65536 32) (ValueIdx.eq_ix1 j)).trans (tbl13_read0 m (j 0))
  (congrArg BitVec.toNat e).trans_lt (padRow_lt m hidx _ _)

theorem tbl13_lt1 (hidx : ∀ i : S2x1000000.Idx, ((m (((0 : Dev nD) : Thread nD τ).loc main_arg2) : IVec S2x1000000 32) i).toNat < 200000)
    (j : S65536.Idx) : ((tbl13 m 1 : IVec S65536 32) j).toNat < 200000 :=
  have e : (tbl13 m 1 : IVec S65536 32) j = padRow m 0 1 (65536 * 13 + (j 0).val) :=
    (congrArg (tbl13 m 1 : IVec S65536 32) (ValueIdx.eq_ix1 j)).trans (tbl13_read1 m (j 0))
  (congrArg BitVec.toNat e).trans_lt (padRow_lt m hidx _ _)

/-! ## Region 14 -/

theorem slice14_h (X : Valuation τ sig (Elt F)) :
    (StableHlo.after (hostOps14 (F := F)) X (Proc.devRef .tc main_v48) : IVec S65536 32)
      = extractStridedSlice S65536 ![917504] (X (Proc.devRef .tc main_v4) : IVec S1048576 32) slices_S1048576_S65536_917504 := by
  after_results

theorem slice14_t (X : Valuation τ sig (Elt F)) :
    (StableHlo.after (hostOps14 (F := F)) X (Proc.devRef .tc main_v49) : IVec S65536 32)
      = extractStridedSlice S65536 ![917504] (X (Proc.devRef .tc main_v5) : IVec S1048576 32) slices_S1048576_S65536_917504 := by
  after_results

/-- Entry j of region 14's table 0 is entry 917504 + j of row 0 of the index array, zero past the row's end. -/
theorem tbl14_read0 (j : Fin 65536) : (tbl14 m 0 : IVec S65536 32) (ValueIdx.ix1 j) = padRow m 0 0 (65536 * 14 + j.val) := by
  show (StableHlo.after (hostOps14 (F := F)) (V5 m (0 : Dev nD)) (Proc.devRef .tc main_v48) : IVec S65536 32) (ValueIdx.ix1 j) = _
  rw [slice14_h]
  have hj := j.isLt
  exact (chunk_apply 917504 _ _ j ⟨65536 * 14 + j.val, by omega⟩ (by show 65536 * 14 + j.val = 917504 + j.val; omega)).trans (padH_read m _)

/-- Entry j of region 14's table 1 is entry 917504 + j of row 1 of the index array, zero past the row's end. -/
theorem tbl14_read1 (j : Fin 65536) : (tbl14 m 1 : IVec S65536 32) (ValueIdx.ix1 j) = padRow m 0 1 (65536 * 14 + j.val) := by
  show (StableHlo.after (hostOps14 (F := F)) (V5 m (0 : Dev nD)) (Proc.devRef .tc main_v49) : IVec S65536 32) (ValueIdx.ix1 j) = _
  rw [slice14_t]
  have hj := j.isLt
  exact (chunk_apply 917504 _ _ j ⟨65536 * 14 + j.val, by omega⟩ (by show 65536 * 14 + j.val = 917504 + j.val; omega)).trans (padT_read m _)

theorem tbl14_lt0 (hidx : ∀ i : S2x1000000.Idx, ((m (((0 : Dev nD) : Thread nD τ).loc main_arg2) : IVec S2x1000000 32) i).toNat < 200000)
    (j : S65536.Idx) : ((tbl14 m 0 : IVec S65536 32) j).toNat < 200000 :=
  have e : (tbl14 m 0 : IVec S65536 32) j = padRow m 0 0 (65536 * 14 + (j 0).val) :=
    (congrArg (tbl14 m 0 : IVec S65536 32) (ValueIdx.eq_ix1 j)).trans (tbl14_read0 m (j 0))
  (congrArg BitVec.toNat e).trans_lt (padRow_lt m hidx _ _)

theorem tbl14_lt1 (hidx : ∀ i : S2x1000000.Idx, ((m (((0 : Dev nD) : Thread nD τ).loc main_arg2) : IVec S2x1000000 32) i).toNat < 200000)
    (j : S65536.Idx) : ((tbl14 m 1 : IVec S65536 32) j).toNat < 200000 :=
  have e : (tbl14 m 1 : IVec S65536 32) j = padRow m 0 1 (65536 * 14 + (j 0).val) :=
    (congrArg (tbl14 m 1 : IVec S65536 32) (ValueIdx.eq_ix1 j)).trans (tbl14_read1 m (j 0))
  (congrArg BitVec.toNat e).trans_lt (padRow_lt m hidx _ _)

/-! ## Region 15 -/

theorem slice15_h (X : Valuation τ sig (Elt F)) :
    (StableHlo.after (hostOps15 (F := F)) X (Proc.devRef .tc main_v51) : IVec S65536 32)
      = extractStridedSlice S65536 ![983040] (X (Proc.devRef .tc main_v4) : IVec S1048576 32) slices_S1048576_S65536_983040 := by
  after_results

theorem slice15_t (X : Valuation τ sig (Elt F)) :
    (StableHlo.after (hostOps15 (F := F)) X (Proc.devRef .tc main_v52) : IVec S65536 32)
      = extractStridedSlice S65536 ![983040] (X (Proc.devRef .tc main_v5) : IVec S1048576 32) slices_S1048576_S65536_983040 := by
  after_results

/-- Entry j of region 15's table 0 is entry 983040 + j of row 0 of the index array, zero past the row's end. -/
theorem tbl15_read0 (j : Fin 65536) : (tbl15 m 0 : IVec S65536 32) (ValueIdx.ix1 j) = padRow m 0 0 (65536 * 15 + j.val) := by
  show (StableHlo.after (hostOps15 (F := F)) (V5 m (0 : Dev nD)) (Proc.devRef .tc main_v51) : IVec S65536 32) (ValueIdx.ix1 j) = _
  rw [slice15_h]
  have hj := j.isLt
  exact (chunk_apply 983040 _ _ j ⟨65536 * 15 + j.val, by omega⟩ (by show 65536 * 15 + j.val = 983040 + j.val; omega)).trans (padH_read m _)

/-- Entry j of region 15's table 1 is entry 983040 + j of row 1 of the index array, zero past the row's end. -/
theorem tbl15_read1 (j : Fin 65536) : (tbl15 m 1 : IVec S65536 32) (ValueIdx.ix1 j) = padRow m 0 1 (65536 * 15 + j.val) := by
  show (StableHlo.after (hostOps15 (F := F)) (V5 m (0 : Dev nD)) (Proc.devRef .tc main_v52) : IVec S65536 32) (ValueIdx.ix1 j) = _
  rw [slice15_t]
  have hj := j.isLt
  exact (chunk_apply 983040 _ _ j ⟨65536 * 15 + j.val, by omega⟩ (by show 65536 * 15 + j.val = 983040 + j.val; omega)).trans (padT_read m _)

theorem tbl15_lt0 (hidx : ∀ i : S2x1000000.Idx, ((m (((0 : Dev nD) : Thread nD τ).loc main_arg2) : IVec S2x1000000 32) i).toNat < 200000)
    (j : S65536.Idx) : ((tbl15 m 0 : IVec S65536 32) j).toNat < 200000 :=
  have e : (tbl15 m 0 : IVec S65536 32) j = padRow m 0 0 (65536 * 15 + (j 0).val) :=
    (congrArg (tbl15 m 0 : IVec S65536 32) (ValueIdx.eq_ix1 j)).trans (tbl15_read0 m (j 0))
  (congrArg BitVec.toNat e).trans_lt (padRow_lt m hidx _ _)

theorem tbl15_lt1 (hidx : ∀ i : S2x1000000.Idx, ((m (((0 : Dev nD) : Thread nD τ).loc main_arg2) : IVec S2x1000000 32) i).toNat < 200000)
    (j : S65536.Idx) : ((tbl15 m 1 : IVec S65536 32) j).toNat < 200000 :=
  have e : (tbl15 m 1 : IVec S65536 32) j = padRow m 0 1 (65536 * 15 + (j 0).val) :=
    (congrArg (tbl15 m 1 : IVec S65536 32) (ValueIdx.eq_ix1 j)).trans (tbl15_read1 m (j 0))
  (congrArg BitVec.toNat e).trans_lt (padRow_lt m hidx _ _)

end Cert.Proof.KB
-- ==== Proof.KBRun.lean ====
/-
  The whole run. @main is host stretches around sixteen kernel regions; the conditional frame of the program's generated
  host side turns one segment record per region into a run of @main. Each region is entered holding every unscoped buffer
  at the valuation the items before it leave and the core owing nothing, and left the same way with its output array at
  the fold of its write-backs. The launch funds the pipelines' staging cells from the rounds algebra and the transfers'
  counters from the second component; nothing else is owed or held by the launch. Every weakly fair execution then
  terminates with the result array at the last valuation's contents and the three arguments as launched.
-/
import proofs.«414028_j29231547417249_2_alg».proof.Proof.KB0Region
import proofs.«414028_j29231547417249_2_alg».proof.Proof.KB1Region
import proofs.«414028_j29231547417249_2_alg».proof.Proof.KB2Region
import proofs.«414028_j29231547417249_2_alg».proof.Proof.KB3Region
import proofs.«414028_j29231547417249_2_alg».proof.Proof.KB4Region
import proofs.«414028_j29231547417249_2_alg».proof.Proof.KB5Region
import proofs.«414028_j29231547417249_2_alg».proof.Proof.KB6Region
import proofs.«414028_j29231547417249_2_alg».proof.Proof.KB7Region
import proofs.«414028_j29231547417249_2_alg».proof.Proof.KB8Region
import proofs.«414028_j29231547417249_2_alg».proof.Proof.KB9Region
import proofs.«414028_j29231547417249_2_alg».proof.Proof.KB10Region
import proofs.«414028_j29231547417249_2_alg».proof.Proof.KB11Region
import proofs.«414028_j29231547417249_2_alg».proof.Proof.KB12Region
import proofs.«414028_j29231547417249_2_alg».proof.Proof.KB13Region
import proofs.«414028_j29231547417249_2_alg».proof.Proof.KB14Region
import proofs.«414028_j29231547417249_2_alg».proof.Proof.KB15Region
import proofs.«414028_j29231547417249_2_alg».proof.Proof.KBValueCond
import proofs.«414028_j29231547417249_2_alg».proof.Proof.KBTables
import proofs.«414028_j29231547417249_2_alg».proof.Proof.KBThread

noncomputable section

namespace Cert.Proof.KB

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Cert.Proof.KB0.UC ℕ

variable (m : (ℓ : Loc nD τ sig) → Buf (Elt F) ℓ) (ρ : Dev nD → PrngReg)

/-- The pipeline library's algebra is the left component of the proof's. -/
abbrev EP : Emb (UR sig nD τ) (MT nD τ sig Unit (Elt F) ℕ Cert.Proof.KB0.UC ℕ) := embL

/-- The launch element: the staging cells' rounds and the pipelines' transfers on the left, no counter yet on the right. -/
def u₀ : Cert.Proof.KB0.UC :=
  (initOf (Pipeline.cells (Pipeline.pin (pcfgs (F := F)) (adm m)) (cellOf_inj (adm m)))
    (Pipeline.launchToks (Pipeline.pin (pcfgs (F := F)) (adm m)) (cellOf_inj (adm m))), 1)

theorem hu₀ : (ownU (u₀ m) : sProp 𝕄) ⊢ |={Set.univ}=> iprop(BI.own (EP (F := F) (initOf (Pipeline.cells (Pipeline.pin (pcfgs (F := F)) (adm m)) (cellOf_inj (adm m)))
      (Pipeline.launchToks (Pipeline.pin (pcfgs (F := F)) (adm m)) (cellOf_inj (adm m))))) ∗ bigSep Finset.univ fun _ : Dev nD => (iprop(emp) : sProp 𝕄)) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (iprop(emp) : sProp 𝕄))) ∗ levAts L lv)
    ⊢ (|={Set.univ}=> bigSep Finset.univ (E (F := F) 0) : sProp 𝕄) := by
  have hm : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (E (F := F) 0) : sProp 𝕄) :=
    bigSep_mono fun c _ =>
      (show (iprop(unscopedSems0 c ∗ owes (c : Thread nD τ) (0 : CellTallies nD τ sig Unit) ∅
            ∗ Pipeline.launchCred (0 : Dev nD → CellTallies nD τ sig Unit) c ∗ prngReg c (ρ c) ∗ (iprop(emp) : sProp 𝕄)) : sProp 𝕄)
          ⊢ (iprop(∃ W, owes (c : Thread nD τ) (0 : CellTallies nD τ sig Unit) W) : sProp 𝕄) from by
        iintro ⟨-, HO, -⟩
        iexists ∅; iexact HO)
  iintro ⟨H, -⟩
  imodintro
  iapply hm
  iexact H

theorem hE16 (c : Dev nD) : E (F := F) 16 c ⊢ (iprop(∃ W, owes (c : Thread nD τ) (0 : CellTallies nD τ sig Unit) W) : sProp 𝕄) := .rfl

/-- The run, for any float family: the result array ends at the last valuation's contents, the arguments as launched. -/
theorem run_value (hidx : ∀ i : S2x1000000.Idx, ((m (((0 : Dev nD) : Thread nD τ).loc main_arg2) : IVec S2x1000000 32) i).toNat < 200000) :
    θ_run defs (onTc (τ := τ) (main (F := F))) ⟨m, fun _ => 0, ρ⟩ (fun r => ∀ c : Dev nD,
      r.2.mem ((c.tc : Thread nD τ).loc main_v55) = V37 m (outs m) c main_v55
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  value_cond m (EP (F := F)) () Variants.none L lv (fun _ _ => rfl) ρ (outs m) (adm m) (pdats m) 0 (fun _ => iprop(emp)) (u₀ m) (hu₀ m)
    (E (F := F)) (hE0 ρ) hE16
    (Cert.Proof.KB0.reg m (tbl0_lt0 m hidx) (tbl0_lt1 m hidx)) (Cert.Proof.KB0.hpre m _ _) (Cert.Proof.KB0.hpost m _ _)
    (Cert.Proof.KB1.reg m (tbl1_lt0 m hidx) (tbl1_lt1 m hidx)) (Cert.Proof.KB1.hpre m _ _) (Cert.Proof.KB1.hpost m _ _)
    (Cert.Proof.KB2.reg m (tbl2_lt0 m hidx) (tbl2_lt1 m hidx)) (Cert.Proof.KB2.hpre m _ _) (Cert.Proof.KB2.hpost m _ _)
    (Cert.Proof.KB3.reg m (tbl3_lt0 m hidx) (tbl3_lt1 m hidx)) (Cert.Proof.KB3.hpre m _ _) (Cert.Proof.KB3.hpost m _ _)
    (Cert.Proof.KB4.reg m (tbl4_lt0 m hidx) (tbl4_lt1 m hidx)) (Cert.Proof.KB4.hpre m _ _) (Cert.Proof.KB4.hpost m _ _)
    (Cert.Proof.KB5.reg m (tbl5_lt0 m hidx) (tbl5_lt1 m hidx)) (Cert.Proof.KB5.hpre m _ _) (Cert.Proof.KB5.hpost m _ _)
    (Cert.Proof.KB6.reg m (tbl6_lt0 m hidx) (tbl6_lt1 m hidx)) (Cert.Proof.KB6.hpre m _ _) (Cert.Proof.KB6.hpost m _ _)
    (Cert.Proof.KB7.reg m (tbl7_lt0 m hidx) (tbl7_lt1 m hidx)) (Cert.Proof.KB7.hpre m _ _) (Cert.Proof.KB7.hpost m _ _)
    (Cert.Proof.KB8.reg m (tbl8_lt0 m hidx) (tbl8_lt1 m hidx)) (Cert.Proof.KB8.hpre m _ _) (Cert.Proof.KB8.hpost m _ _)
    (Cert.Proof.KB9.reg m (tbl9_lt0 m hidx) (tbl9_lt1 m hidx)) (Cert.Proof.KB9.hpre m _ _) (Cert.Proof.KB9.hpost m _ _)
    (Cert.Proof.KB10.reg m (tbl10_lt0 m hidx) (tbl10_lt1 m hidx)) (Cert.Proof.KB10.hpre m _ _) (Cert.Proof.KB10.hpost m _ _)
    (Cert.Proof.KB11.reg m (tbl11_lt0 m hidx) (tbl11_lt1 m hidx)) (Cert.Proof.KB11.hpre m _ _) (Cert.Proof.KB11.hpost m _ _)
    (Cert.Proof.KB12.reg m (tbl12_lt0 m hidx) (tbl12_lt1 m hidx)) (Cert.Proof.KB12.hpre m _ _) (Cert.Proof.KB12.hpost m _ _)
    (Cert.Proof.KB13.reg m (tbl13_lt0 m hidx) (tbl13_lt1 m hidx)) (Cert.Proof.KB13.hpre m _ _) (Cert.Proof.KB13.hpost m _ _)
    (Cert.Proof.KB14.reg m (tbl14_lt0 m hidx) (tbl14_lt1 m hidx)) (Cert.Proof.KB14.hpre m _ _) (Cert.Proof.KB14.hpost m _ _)
    (Cert.Proof.KB15.reg m (tbl15_lt0 m hidx) (tbl15_lt1 m hidx)) (Cert.Proof.KB15.hpre m _ _) (Cert.Proof.KB15.hpost m _ _)

end Cert.Proof.KB

end
-- ==== Proof.KI0Value.lean ====
/-
  Region 0, from blocks to the array.

  The output array has 65536 entries in 512 blocks of 128. The block of row `i` of the grid is written back once, after
  the row's last step, point `128 * i + 127`, and holds then what that step left in the staging buffer. The blocks tile
  the array, so after the run entry `j` of the array is lane `j % 128` of what the last step of row `j / 128` left. The
  relation row is an input: its array ends as it entered.
-/
import proofs.«414028_j29231547417249_2_alg».proof.Proof.KI0Data
import proofs.«414028_j29231547417249_2_alg».proof.Proof.KI0Points
import Idealize.ShloMosaic.Lib.Pipeline.Value
import Idealize.ShloMosaic.Lib.Pipeline.Cells
import Idealize.ShloMosaic.Lib.ValueIdx

noncomputable section

namespace Cert.Proof.KI0

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-! ## The last step of an entry's row -/

/-- The last point of the row of the grid that entry `j` of the output array belongs to is a point of the grid. -/
theorem lastOfRow_lt (j : S65536.Idx) : 128 * ((j 0).val / 128) + 127 < (cfgA m).N := by
  have hj : (j 0).val < 65536 := (j 0).isLt
  have hN : (cfgA m).N = 65536 := N_eq (adm0 m)
  omega

/-- The output block after a point depends on the point's number only. -/
theorem accA_congr (c : Dev nD) {k k' : ℕ} (h : k = k') (hk : k < (cfgA m).N) (hk' : k' < (cfgA m).N) :
    accA m c k hk = accA m c k' hk' := by
  subst h; rfl

/-- The whole output array after the run: entry `j` is lane `j % 128` of the block the last step of `j`'s row left. -/
def G1 (c : Dev nD) : S65536.Idx → Elt F .f32 := fun j =>
  accA m c (128 * ((j 0).val / 128) + 127) (lastOfRow_lt m j) (ValueIdx.ix1 ⟨(j 0).val % 128, Nat.mod_lt _ (by decide)⟩)

/-- An entry of that array named through a point and a lane. -/
theorem G1_of (c : Dev nD) (i : S65536.Idx) (k : ℕ) (hk : k < (cfgA m).N) (y : S128.Idx)
    (h1 : 128 * ((i 0).val / 128) + 127 = k) (h2 : (i 0).val % 128 = (y 0).val) : G1 m c i = accA m c k hk y := by
  subst h1
  unfold G1
  refine congrArg _ ?_
  rw [ValueIdx.eq_ix1 y]
  exact congrArg ValueIdx.ix1 (Fin.ext h2)

/-! ## What a flushing point writes back -/

/-- A point that writes the output block back is the last of its row, and what it writes is its block of the whole
    array above. -/
theorem flushed1_eq (c : Dev nD) (t : Fin (cfgA m).N) (hf : ((cfgA m).win 1).flush t = true) :
    (dat0 m c).flushed 1 t = (((cfgA m).win 1).blk t).view.read (Elt F) (G1 m c) := by
  have h127 : t.val % 128 = 127 := by rw [flush1] at hf; exact of_decide_eq_true hf
  refine funext fun (y : S128.Idx) => ?_
  have he := blk1_emb (adm0 m) t y
  have hy : (y 0).val < 128 := (y 0).isLt
  show accA m c t.val t.isLt y = G1 m c ((((cfgA m).win 1).blk t).view.emb y)
  exact (G1_of m c _ t.val t.isLt y (by rw [he]; omega) (by rw [he]; omega)).symm

/-! ## The blocks tile the array -/

/-- An entry of the array is in a point's block iff it is in the block's range. -/
theorem mem_blk1 (t : Fin (cfgA m).N) (i : S65536.Idx) :
    i ∈ (((cfgA m).win 1).blk t).view.set
      ↔ ∀ a : Fin 1, ((cfgA m).win 1).index t a * S128.size a ≤ (i a).val
          ∧ (i a).val < ((cfgA m).win 1).index t a * S128.size a + S128.size a := by
  have hset : (((cfgA m).win 1).blk t).view.set = (((cfgA m).win 1).rect t).set :=
    View.set_slice_whole main_v8 _
  rw [hset]
  exact Rect.mem_set_unit

/-- Every entry is in the block written back at the last point of its row. -/
theorem cover1 (i : S65536.Idx) :
    ∃ t : Fin (cfgA m).N, ((cfgA m).win 1).flush t = true ∧ i ∈ (((cfgA m).win 1).blk t).view.set := by
  have hi : (i 0).val < 65536 := (i 0).isLt
  refine ⟨⟨128 * ((i 0).val / 128) + 127, lastOfRow_lt m i⟩, ?_, ?_⟩
  · rw [flush1]; exact decide_eq_true (by show (128 * ((i 0).val / 128) + 127) % 128 = 127; omega)
  · rw [mem_blk1]
    intro a
    match a with
    | ⟨0, _⟩ =>
      have hx : ((cfgA m).win 1).index ⟨128 * ((i 0).val / 128) + 127, lastOfRow_lt m i⟩ (0 : Fin 1) = (i 0).val / 128 := by
        rw [index1]; show (128 * ((i 0).val / 128) + 127) / 128 = (i 0).val / 128; omega
      show ((cfgA m).win 1).index _ (0 : Fin 1) * 128 ≤ (i 0).val ∧ (i 0).val < ((cfgA m).win 1).index _ (0 : Fin 1) * 128 + 128
      rw [hx]; omega

/-! ## The arrays after the run -/

/-- What the run leaves in the output array at entry `j` is what the last step of `j`'s row left in lane `j % 128`. -/
theorem arr_out (c : Dev nD) (j : S65536.Idx) :
    (dat0 (F := F) m c).arrAt 1 (cfgA m).N j
      = accA m c (128 * ((j 0).val / 128) + 127) (lastOfRow_lt m j)
          (ValueIdx.ix1 ⟨(j 0).val % 128, Nat.mod_lt _ (by decide)⟩) :=
  congrFun ((dat0 m c).arrAt_eq_of_cover 1 (G1 m c) (flushed1_eq m c) (cover1 m)) j

/-- The relation row's array ends as it entered. -/
theorem arr_in (c : Dev nD) : (dat0 (F := F) m c).arrAt 0 (cfgA m).N = m ((c : Thread nD τ).loc main_arg1) :=
  (dat0 m c).arrAt_in 0 rfl _

end Cert.Proof.KI0

end
-- ==== Proof.KernelMath.lean ====
/-
  The kernel body's payloads read at one lane, over the extended reals. A grid point loads three [1, 256] blocks: a head row, a
  tail row and a relation row, each a real half (columns 0 … 127) beside an imaginary half (columns 128 … 255). The body
  multiplies the halves lane by lane, sums the 128 lanes into one number, the block's score, and adds that number times the
  one-hot of the grid point's lane onto a [128] block. Adding lane 0's, lane 1's, … lane 127's contribution in turn onto
  a zero block leaves each lane's own score in it.
-/
import proofs.«414028_j29231547417249_2_alg».proof.Proof.Gen.KernelIdeal.Skeleton
import proofs.«414028_j29231547417249_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Proof.KernelMath

open Cert.KernelIdeal Cert.KernelIdeal.Gen Cert.Proof.Spec Idealize.ShloMosaic Idealize.ShloMosaic.ValueIdx

/-- The score of one grid point's three loaded blocks. -/
def blkScore (h t r : Vec Ideal S1x256 .f32) : EReal :=
  0 + ∑ k : Fin 128,
    (((h (ix2 (0 : Fin 1) (reCol k)) * r (ix2 (0 : Fin 1) (reCol k)) * t (ix2 (0 : Fin 1) (reCol k))
        + h (ix2 (0 : Fin 1) (imCol k)) * r (ix2 (0 : Fin 1) (reCol k)) * t (ix2 (0 : Fin 1) (imCol k)))
        + h (ix2 (0 : Fin 1) (reCol k)) * r (ix2 (0 : Fin 1) (imCol k)) * t (ix2 (0 : Fin 1) (imCol k)))
      - h (ix2 (0 : Fin 1) (imCol k)) * r (ix2 (0 : Fin 1) (imCol k)) * t (ix2 (0 : Fin 1) (reCol k)))

/-! ## The zero block -/

/-- The all-zero pattern denotes zero. -/
theorem ofBits_zero : Ideal.ofBits .f32 0x00000000#32 = 0 := by simp [Ideal.ofBits, Ideal.ieee]

theorem pay1_apply (k : Fin 128) : (k0_pay1 (F := Ideal)) (ix1 k) = 0 := by
  show Ideal.ofBits .f32 0x00000000#32 = 0
  exact ofBits_zero

/-! ## The halves of a loaded block -/

/-- Lane k of a block's real half is its column k. -/
theorem re_slice {α : Type} (x : S1x256.Idx → α) (hs : S1x256.Slices ![0, 0] S1x128) (k : Fin 128) :
    extractStridedSlice S1x128 ![0, 0] x hs (ix2 (0 : Fin 1) k) = x (ix2 (0 : Fin 1) (reCol k)) :=
  slice2_axis1_apply 0 x hs 0 k (reCol k) (Nat.zero_add _).symm

/-- Lane k of a block's imaginary half is its column 128 + k. -/
theorem im_slice {α : Type} (x : S1x256.Idx → α) (hs : S1x256.Slices ![0, 128] S1x128) (k : Fin 128) :
    extractStridedSlice S1x128 ![0, 128] x hs (ix2 (0 : Fin 1) k) = x (ix2 (0 : Fin 1) (imCol k)) :=
  slice2_axis1_apply 128 x hs 0 k (imCol k) rfl

/-- The three products the body adds, at lane k. -/
theorem pay6_apply (h t r : Vec Ideal S1x256 .f32) (k : Fin 128) :
    k0_pay6 (F := Ideal) h t r (ix2 (0 : Fin 1) k)
      = (h (ix2 (0 : Fin 1) (reCol k)) * r (ix2 (0 : Fin 1) (reCol k)) * t (ix2 (0 : Fin 1) (reCol k))
          + h (ix2 (0 : Fin 1) (imCol k)) * r (ix2 (0 : Fin 1) (reCol k)) * t (ix2 (0 : Fin 1) (imCol k)))
          + h (ix2 (0 : Fin 1) (reCol k)) * r (ix2 (0 : Fin 1) (imCol k)) * t (ix2 (0 : Fin 1) (imCol k)) := by
  unfold k0_pay6 k0_pay3 k0_pay4 k0_pay5
  simp only [addf_apply, mulf_apply, re_slice, im_slice]

/-- The product the body subtracts, at lane k. -/
theorem pay7_apply (h t r : Vec Ideal S1x256 .f32) (k : Fin 128) :
    k0_pay7 (F := Ideal) h t r (ix2 (0 : Fin 1) k)
      = h (ix2 (0 : Fin 1) (imCol k)) * r (ix2 (0 : Fin 1) (imCol k)) * t (ix2 (0 : Fin 1) (reCol k)) := by
  unfold k0_pay7 k0_pay3 k0_pay4 k0_pay5
  simp only [mulf_apply, re_slice, im_slice]

/-! ## The lane sum, broadcast back over the lanes -/

/-- The source index over the one result index with lane c put back is (0, c). -/
theorem lift_eq (hr : S1x128.Reduces [1] S1) (c : Fin 128) : hr.lift (ix1 (0 : Fin 1)) c = ix2 (0 : Fin 1) c := by
  funext a
  match a with
  | ⟨0, _⟩ => exact Fin.ext rfl
  | ⟨1, _⟩ => exact Fin.ext rfl

/-- The sum over the lanes of a [1, 128] block, kept as one number and broadcast to 128 lanes, reads at every lane as the sum of
    the block's 128 entries. -/
theorem laneSum_apply (v : FVec Ideal S1x128 .f32) (acc : BitVec 32) (hr : S1x128.Reduces [1] S1) (hφ : FKind.Formats .f32)
    (hacc : acc = FKind.add.neutral .f32 hφ) (hc : S1.ShapeCasts S1) (hb : S1.Broadcasts S128) (k : Fin 128) :
    broadcastTo S128 (shapeCast S1 (multiReduction (F := Ideal) .add [1] S1 v acc hr hφ hacc) hc) hb (ix1 k)
      = ∑ c : Fin 128, v (ix2 (0 : Fin 1) c) := by
  refine (broadcastTo_apply _ hb (ix1 k) (ix1 (0 : Fin 1)) fun a => ?_).trans ?_
  · match a with
    | ⟨0, _⟩ => rfl
  rw [shapeCast_self]
  refine (Ideal.multiReduction_add_single v acc hr hφ hacc (ix1 (0 : Fin 1))).trans ?_
  exact Finset.sum_congr rfl fun c _ => congrArg v (lift_eq hr c)

/-! ## The one-hot of a lane -/

/-- The comparison of two lane numbers, widened and read as a number, is 1 when they agree and 0 otherwise. -/
theorem onehot_word (j k : Fin 128) :
    (FloatOps.sitofp (F := Ideal) .f32 ((IntOp.cmpi .eq (BitVec.ofNat 32 k.val) (BitVec.ofNat 32 j.val)).setWidth 32) : EReal)
      = if k = j then 1 else 0 := by
  show ((((IntOp.cmpi .eq (BitVec.ofNat 32 k.val) (BitVec.ofNat 32 j.val)).setWidth 32).toInt : ℝ) : EReal) = _
  by_cases hkj : k = j
  · subst hkj
    have h1 : IntOp.cmpi .eq (BitVec.ofNat 32 k.val) (BitVec.ofNat 32 k.val) = 1#1 := IntOp.cmpi_eq.2 rfl
    have e : ((1#1 : BitVec 1).setWidth 32).toInt = 1 := by decide
    rw [if_pos rfl, h1, e, Int.cast_one, EReal.coe_one]
  · have hne : BitVec.ofNat 32 k.val ≠ BitVec.ofNat 32 j.val := by
      intro e
      have e' := congrArg BitVec.toNat e
      simp only [BitVec.toNat_ofNat] at e'
      have hk := k.isLt
      have hj := j.isLt
      rw [Nat.mod_eq_of_lt (by omega), Nat.mod_eq_of_lt (by omega)] at e'
      exact hkj (Fin.ext e')
    have hz : IntOp.cmpi .eq (BitVec.ofNat 32 k.val) (BitVec.ofNat 32 j.val) = 0#1 :=
      eq_zero_of_ne_one fun e1 => hne (IntOp.cmpi_eq.1 e1)
    have e : ((0#1 : BitVec 1).setWidth 32).toInt = 0 := by decide
    rw [if_neg hkj, hz, e, Int.cast_zero, EReal.coe_zero]

/-- The lane index compared with lane j's number, widened and converted: 1 at lane j, 0 at every other lane. -/
theorem onehot_apply (j k : Fin 128) (hi : S1x128.Iotas .tc 32 [1]) (hc : S1x128.ShapeCasts S128) (hlt : 1 < 32) :
    (sitofp .f32 (extui 32 (cmpi .eq (shapeCast S128 (iota .tc S1x128 32 [1] hi) hc) (broadcast S128 (BitVec.ofNat 32 j.val))) hlt)
        : FVec Ideal S128 .f32) (ix1 k)
      = if k = j then 1 else 0 := by
  have hlane : shapeCast S128 (iota .tc S1x128 32 [1] hi) hc (ix1 k) = BitVec.ofNat 32 k.val :=
    (shapeCast_1a_a_apply _ hc k).trans (iota_single_apply .tc S1x128 32 1 hi _)
  show FloatOps.sitofp (F := Ideal) .f32
      ((IntOp.cmpi .eq (shapeCast S128 (iota .tc S1x128 32 [1] hi) hc (ix1 k)) (BitVec.ofNat 32 j.val)).setWidth 32) = _
  rw [hlane]
  exact onehot_word j k

/-! ## The accumulated block at one lane -/

theorem pay2_apply (j : Fin 128) (h t r : Vec Ideal S1x256 .f32) (prev : Vec Ideal S128 .f32) (k : Fin 128) :
    k0_pay2 (F := Ideal) (BitVec.ofNat 32 j.val) (k0_pay6 h t r) (k0_pay7 h t r) prev (ix1 k)
      = prev (ix1 k) + blkScore h t r * (if k = j then 1 else 0) := by
  unfold k0_pay2
  refine (addf_apply _ _ _).trans ?_
  refine congrArg₂ (· + ·) (congrFun (shapeCast_self prev _) (ix1 k)) ?_
  refine (mulf_apply _ _ _).trans ?_
  refine congrArg₂ (· * ·) ?_ (onehot_apply j k _ _ _)
  refine (laneSum_apply _ _ _ _ _ _ _ k).trans ?_
  unfold blkScore
  rw [zero_add]
  refine Finset.sum_congr rfl fun c _ => ?_
  refine (subf_apply _ _ _).trans ?_
  rw [pay6_apply, pay7_apply]

/-! ## The fold of the one-hot contributions -/

/-- The fold stopped after lane j: lanes up to j hold their scores, later lanes zero. -/
theorem onehot_fold_upto (s : Fin 128 → EReal) (A : ℕ → Fin 128 → EReal)
    (h0 : ∀ k, A 0 k = 0 + s 0 * (if k = 0 then 1 else 0))
    (hs : ∀ (j : ℕ) (hj : j + 1 < 128) (k : Fin 128), A (j + 1) k = A j k + s ⟨j + 1, hj⟩ * (if k = ⟨j + 1, hj⟩ then 1 else 0)) :
    ∀ (j : ℕ), j < 128 → ∀ k : Fin 128, A j k = if k.val ≤ j then s k else 0 := by
  intro j
  induction j with
  | zero =>
    intro _ k
    rw [h0 k]
    by_cases hk : k.val = 0
    · have hk0 : k = 0 := Fin.ext hk
      rw [if_pos hk0, if_pos (show k.val ≤ 0 by omega), mul_one, zero_add, hk0]
    · have hk0 : ¬ k = 0 := fun e => hk (congrArg Fin.val e)
      rw [if_neg hk0, if_neg (show ¬ k.val ≤ 0 by omega), mul_zero, add_zero]
  | succ j ih =>
    intro hj k
    rw [hs j hj k, ih (by omega) k]
    by_cases hk : k.val = j + 1
    · have hkeq : k = ⟨j + 1, hj⟩ := Fin.ext hk
      rw [if_neg (show ¬ k.val ≤ j by omega), if_pos hkeq, if_pos (show k.val ≤ j + 1 by omega), mul_one, zero_add, hkeq]
    · have hkne : ¬ k = ⟨j + 1, hj⟩ := fun e => hk (congrArg Fin.val e)
      rw [if_neg hkne, mul_zero, add_zero]
      by_cases hle : k.val ≤ j
      · rw [if_pos hle, if_pos (show k.val ≤ j + 1 by omega)]
      · rw [if_neg hle, if_neg (show ¬ k.val ≤ j + 1 by omega)]

/-- Adding, for j = 0 … 127 in turn, s j times the one-hot of lane j onto a block that starts at zero leaves s k in lane k. No
    finiteness is needed: in the extended reals 0 * x = 0, x * 1 = x, x + 0 = x, 0 + x = x. -/
theorem onehot_fold (s : Fin 128 → EReal) (A : ℕ → Fin 128 → EReal)
    (h0 : ∀ k, A 0 k = 0 + s 0 * (if k = 0 then 1 else 0))
    (hs : ∀ (j : ℕ) (hj : j + 1 < 128) (k : Fin 128), A (j + 1) k = A j k + s ⟨j + 1, hj⟩ * (if k = ⟨j + 1, hj⟩ then 1 else 0)) :
    ∀ k, A 127 k = s k := by
  intro k
  rw [onehot_fold_upto s A h0 hs 127 (by omega) k, if_pos (by have := k.isLt; omega)]

/-! ## One grid row of steps -/

/-- A block sequence that obeys the body's two equations — at a row's first step the body adds onto the zero block, at every
    other step onto the block before — holds, after a row's last step, each lane's own score: lane k the score of the rows
    loaded at the row's step k. -/
theorem row_fold (hrow trow : ℕ → Vec Ideal S1x256 .f32) (rel : Vec Ideal S1x256 .f32) (acc : ℕ → Vec Ideal S128 .f32)
    (hfirst : ∀ t, t % 128 = 0 → ∀ y : S128.Idx, acc t y = k0_pay2 (F := Ideal) (BitVec.ofNat 32 (t % 128)) (k0_pay6 (hrow t) (trow t) rel) (k0_pay7 (hrow t) (trow t) rel) (k0_pay1 (F := Ideal)) y)
    (hstep : ∀ t, t % 128 ≠ 0 → ∀ y : S128.Idx, acc t y = k0_pay2 (F := Ideal) (BitVec.ofNat 32 (t % 128)) (k0_pay6 (hrow t) (trow t) rel) (k0_pay7 (hrow t) (trow t) rel) (acc (t - 1)) y)
    (i : ℕ) (k : Fin 128) :
    acc (128 * i + 127) (ix1 k) = blkScore (hrow (128 * i + k.val)) (trow (128 * i + k.val)) rel := by
  -- the body's step at grid step t, whose lane number is jv, read at lane q
  have step : ∀ (prev : Vec Ideal S128 .f32) (t jv : ℕ) (hjv : jv < 128) (hm : t % 128 = jv) (q : Fin 128),
      k0_pay2 (F := Ideal) (BitVec.ofNat 32 (t % 128)) (k0_pay6 (hrow t) (trow t) rel) (k0_pay7 (hrow t) (trow t) rel) prev (ix1 q)
        = prev (ix1 q) + blkScore (hrow t) (trow t) rel * (if q = ⟨jv, hjv⟩ then 1 else 0) := by
    intro prev t jv hjv hm q
    subst hm
    exact pay2_apply ⟨t % 128, hjv⟩ (hrow t) (trow t) rel prev q
  have key : acc (128 * i + 127) (ix1 k)
      = if k.val ≤ 127 then blkScore (hrow (128 * i + k.val)) (trow (128 * i + k.val)) rel else 0 :=
    onehot_fold_upto
      (fun q : Fin 128 => blkScore (hrow (128 * i + q.val)) (trow (128 * i + q.val)) rel)
      (fun j q => acc (128 * i + j) (ix1 q))
      (fun q => by
        show acc (128 * i + 0) (ix1 q)
          = 0 + blkScore (hrow (128 * i + 0)) (trow (128 * i + 0)) rel * (if q = 0 then 1 else 0)
        rw [hfirst (128 * i + 0) (by omega) (ix1 q), step (k0_pay1 (F := Ideal)) (128 * i + 0) 0 (by omega) (by omega) q, pay1_apply q]
        rfl)
      (fun j hj q => by
        show acc (128 * i + (j + 1)) (ix1 q)
          = acc (128 * i + j) (ix1 q)
            + blkScore (hrow (128 * i + (j + 1))) (trow (128 * i + (j + 1))) rel * (if q = ⟨j + 1, hj⟩ then 1 else 0)
        have e : 128 * i + (j + 1) - 1 = 128 * i + j := by omega
        rw [hstep (128 * i + (j + 1)) (by omega) (ix1 q), step _ (128 * i + (j + 1)) (j + 1) hj (by omega) q, e])
      127 (by omega) k
  rw [key, if_pos (show k.val ≤ 127 by have := k.isLt; omega)]

/-! ## A block score of two table rows -/

/-- When the head block and the tail block are rows of the node table, the block score is the specification's score of those
    two rows. -/
theorem blkScore_rows (node : SNode.Idx → EReal) (rel : Vec Ideal S1x256 .f32) (h t : Vec Ideal S1x256 .f32) (wh wt : BitVec 32)
    (hh : ∀ q : Fin 256, h (ix2 (0 : Fin 1) q) = node (ix2 (rowOf wh) q))
    (ht : ∀ q : Fin 256, t (ix2 (0 : Fin 1) q) = node (ix2 (rowOf wt) q)) :
    blkScore h t rel = Cert.Proof.Spec.score node rel (rowOf wh) (rowOf wt) := by
  unfold blkScore Cert.Proof.Spec.score
  refine congrArg (fun x : EReal => 0 + x) (Finset.sum_congr rfl fun k _ => ?_)
  unfold Cert.Proof.Spec.term
  rw [hh (reCol k), hh (imCol k), ht (reCol k), ht (imCol k)] <;> rfl

end Cert.Proof.KernelMath
-- ==== Proof.KI0Final.lean ====
/-
  Region 0's output array at the ideal values is the specification's scores.

  Entry `j` of the output array is lane `j % 128` of the block the last step of row `j / 128` left. The block after
  each step is a fold over the steps of the row so far: a row's first step adds its contribution onto the zero block,
  every other step onto the block before. Step `t` contributes the score of the two table rows it gathered, on lane
  `t % 128` only. So after a row's last step lane `k` holds the score of the rows gathered at the row's step `k`: for
  entry `j` that is step `j` itself, whose rows are the rows of the node table that word `j` of the head table and
  word `j` of the tail table name.
-/
import proofs.«414028_j29231547417249_2_alg».proof.Proof.KI0Value
import proofs.«414028_j29231547417249_2_alg».proof.Proof.KernelMath
import proofs.«414028_j29231547417249_2_alg».proof.Proof.KIDats
import Idealize.ShloMosaic.Lib.Pipeline.FrameSuffix
import Idealize.ShloMosaic.Lib.ValueIdx

noncomputable section

namespace Cert.Proof.KI0

open Cert.KernelIdeal Cert.KernelIdeal.Gen Cert.KernelIdeal.GenP
open Idealize.ShloMosaic Idealize.ShloMosaic.TcCoe Idealize.SL.Sem
open Idealize.ShloMosaic.Pipeline (Dat)
open Cert.Proof.Spec Cert.Proof.KernelMath

variable (m : (ℓ : Loc nD τ sig) → Buf (Elt Ideal) ℓ)

/-! ## The steps of the run, numbered by the natural numbers -/

/-- The head row and the tail row gathered at step `t`; past the grid, any block. -/
def rowsH (c : Dev nD) (t : ℕ) : Vec Ideal S1x256 .f32 := if h : t < (cfgA m).N then hrow m c ⟨t, h⟩ else relA m c
def rowsT (c : Dev nD) (t : ℕ) : Vec Ideal S1x256 .f32 := if h : t < (cfgA m).N then trow m c ⟨t, h⟩ else relA m c

theorem rowsH_of_lt (c : Dev nD) (t : Fin (cfgA m).N) : rowsH m c t.val = hrow m c t := dif_pos t.isLt
theorem rowsT_of_lt (c : Dev nD) (t : Fin (cfgA m).N) : rowsT m c t.val = trow m c t := dif_pos t.isLt

/-- The body's step number `t`: the step's contribution added, on lane `t % 128`, to the block `prev`. -/
def stepN (c : Dev nD) (t : ℕ) (prev : Vec Ideal S128 .f32) : Vec Ideal S128 .f32 :=
  k0_pay2 (F := Ideal) (BitVec.ofNat 32 (t % 128)) (k0_pay6 (rowsH m c t) (rowsT m c t) (relA m c))
    (k0_pay7 (rowsH m c t) (rowsT m c t) (relA m c)) prev

/-- At a point of the grid it is the step the proof data names. -/
theorem stepN_eq (c : Dev nD) (t : Fin (cfgA m).N) (prev : Vec Ideal S128 .f32) :
    stepN m c t.val prev = stepv (hrow m c t) (trow m c t) (relA m c) (lane m t) prev := by
  unfold stepN stepv
  rw [rowsH_of_lt, rowsT_of_lt]
  show _ = k0_pay2 (BitVec.ofNat 32 (((cfgA m).grid.coords t) 1).val) _ _ prev
  rw [coords1 (adm0 m) t]

/-- The output block after step `t`, by the same recursion as the proof data's, over all the natural numbers. -/
def accN (c : Dev nD) : ℕ → Vec Ideal S128 .f32
  | Nat.zero => stepN m c Nat.zero (k0_pay1 (F := Ideal))
  | Nat.succ t =>
    if (t + 1) % 128 = 0 then stepN m c (t + 1) (k0_pay1 (F := Ideal)) else stepN m c (t + 1) (accN c t)

theorem accN_first (c : Dev nD) (t : ℕ) (h : t % 128 = 0) : accN m c t = stepN m c t (k0_pay1 (F := Ideal)) := by
  cases t with
  | zero => rfl
  | succ t => show (if (t + 1) % 128 = 0 then _ else _) = _; rw [if_pos h]

theorem accN_step (c : Dev nD) (t : ℕ) (h : t % 128 ≠ 0) : accN m c t = stepN m c t (accN m c (t - 1)) := by
  cases t with
  | zero => exact absurd (Nat.zero_mod 128) h
  | succ t => show (if (t + 1) % 128 = 0 then _ else _) = _; rw [if_neg h]; rfl

/-- On the grid it is the proof data's block. -/
theorem accN_eq (c : Dev nD) : ∀ (t : ℕ) (h : t < (cfgA m).N), accN m c t = accA m c t h
  | Nat.zero, h => by
    show stepN m c Nat.zero (k0_pay1 (F := Ideal)) = _
    exact (stepN_eq m c ⟨Nat.zero, h⟩ _).trans (accA_first m c ⟨Nat.zero, h⟩ (Nat.zero_mod 128)).symm
  | Nat.succ t, h => by
    have hp : t < (cfgA m).N := Nat.lt_of_succ_lt h
    show (if (t + 1) % 128 = 0 then _ else _) = _
    by_cases hz : (t + 1) % 128 = 0
    · rw [if_pos hz]
      exact (stepN_eq m c ⟨t + 1, h⟩ _).trans (accA_first m c ⟨t + 1, h⟩ hz).symm
    · rw [if_neg hz, accN_eq c t hp]
      exact (stepN_eq m c ⟨t + 1, h⟩ _).trans (accA_step m c ⟨t + 1, h⟩ hz hp).symm

/-- After the last step of row `i`, lane `k` holds the score of the rows gathered at the row's step `k`. -/
theorem lane_score (c : Dev nD) (i : ℕ) (k : Fin 128) :
    accN m c (128 * i + 127) (ValueIdx.ix1 k)
      = blkScore (rowsH m c (128 * i + k.val)) (rowsT m c (128 * i + k.val)) (relA m c) :=
  row_fold (rowsH m c) (rowsT m c) (relA m c) (accN m c)
    (fun t h y => congrFun (accN_first m c t h) y) (fun t h y => congrFun (accN_step m c t h) y) i k

/-! ## The rows a step gathers -/

/-- The table word read at point `t` is word `t` of the table. -/
theorem tword_at (T : IVec S65536 32) (t : Fin (cfgA m).N) :
    tword T ((cfgA m).grid.coords t) = T (ValueIdx.ix1 ⟨t.val, lt_N (adm0 m) t⟩) := by
  rw [tword_eq]
  exact congrArg T (congrArg ValueIdx.ix1 (Fin.ext (flat_eq (adm0 m) t)))

/-- The score of the two rows step `t` gathered is the specification's score of the rows that word `t` of the head
    table and word `t` of the tail table name. -/
theorem step_score (c : Dev nD) (t : Fin (cfgA m).N) :
    blkScore (hrow m c t) (trow m c t) (relA m c)
      = Cert.Proof.Spec.score (nodeA m c) (relA m c) (rowOf ((hTab m) (ValueIdx.ix1 ⟨t.val, lt_N (adm0 m) t⟩)))
          (rowOf ((tTab m) (ValueIdx.ix1 ⟨t.val, lt_N (adm0 m) t⟩))) := by
  rw [← tword_at m (hTab m) t, ← tword_at m (tTab m) t]
  exact blkScore_rows (nodeA m c) (relA m c) _ _ _ _ (fun _ => rfl) (fun _ => rfl)

/-! ## The output array -/

/-- What region 0 leaves in its output array is the fold of its write-backs. -/
theorem outs_eq (c : Dev nD) :
    (Cert.Proof.KI.outs m 6 main_v8 c : Vec Ideal S65536 .f32) = (dat0 m c).arrAt 1 (cfgA m).N :=
  Pipeline.withArrays_arr spec0 (launch0 (F := Ideal)).win.arr_inj c _ (fun w => (dat0 m c).arrAt w (cfgA m).N) 1

/-- Entry `j` of what region 0 leaves in its output array is the score of the rows the `j`-th words of its two tables
    name. -/
theorem out_read (c : Dev nD) (j : Fin 65536) :
    (Cert.Proof.KI.outs m 6 main_v8 c : Vec Ideal S65536 .f32) (ValueIdx.ix1 j)
      = Cert.Proof.Spec.score (nodeA m c) (relA m c) (Cert.Proof.Spec.rowOf ((hTab m) (ValueIdx.ix1 j)))
          (Cert.Proof.Spec.rowOf ((tTab m) (ValueIdx.ix1 j))) := by
  have hj : j.val < (cfgA m).N := by rw [N_eq (adm0 m)]; exact j.isLt
  have hjj : 128 * (j.val / 128) + j.val % 128 = j.val := by omega
  rw [outs_eq m c, arr_out m c (ValueIdx.ix1 j)]
  show accA m c (128 * (j.val / 128) + 127) (lastOfRow_lt m (ValueIdx.ix1 j))
      (ValueIdx.ix1 ⟨j.val % 128, Nat.mod_lt _ (by decide)⟩) = _
  rw [← accN_eq m c _ (lastOfRow_lt m (ValueIdx.ix1 j)), lane_score m c (j.val / 128) ⟨j.val % 128, Nat.mod_lt _ (by decide)⟩]
  show blkScore (rowsH m c (128 * (j.val / 128) + j.val % 128)) (rowsT m c (128 * (j.val / 128) + j.val % 128)) (relA m c) = _
  rw [hjj, rowsH_of_lt m c ⟨j.val, hj⟩, rowsT_of_lt m c ⟨j.val, hj⟩]
  exact step_score m c ⟨j.val, hj⟩

end Cert.Proof.KI0

end
-- ==== Proof.KI1Value.lean ====
/-
  Region 0, from blocks to the array.

  The output array has 65536 entries in 512 blocks of 128. The block of row `i` of the grid is written back once, after
  the row's last step, point `128 * i + 127`, and holds then what that step left in the staging buffer. The blocks tile
  the array, so after the run entry `j` of the array is lane `j % 128` of what the last step of row `j / 128` left. The
  relation row is an input: its array ends as it entered.
-/
import proofs.«414028_j29231547417249_2_alg».proof.Proof.KI1Data
import proofs.«414028_j29231547417249_2_alg».proof.Proof.KI1Points
import Idealize.ShloMosaic.Lib.Pipeline.Value
import Idealize.ShloMosaic.Lib.Pipeline.Cells
import Idealize.ShloMosaic.Lib.ValueIdx

noncomputable section

namespace Cert.Proof.KI1

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-! ## The last step of an entry's row -/

/-- The last point of the row of the grid that entry `j` of the output array belongs to is a point of the grid. -/
theorem lastOfRow_lt (j : S65536.Idx) : 128 * ((j 0).val / 128) + 127 < (cfgA m).N := by
  have hj : (j 0).val < 65536 := (j 0).isLt
  have hN : (cfgA m).N = 65536 := N_eq (adm0 m)
  omega

/-- The output block after a point depends on the point's number only. -/
theorem accA_congr (c : Dev nD) {k k' : ℕ} (h : k = k') (hk : k < (cfgA m).N) (hk' : k' < (cfgA m).N) :
    accA m c k hk = accA m c k' hk' := by
  subst h; rfl

/-- The whole output array after the run: entry `j` is lane `j % 128` of the block the last step of `j`'s row left. -/
def G1 (c : Dev nD) : S65536.Idx → Elt F .f32 := fun j =>
  accA m c (128 * ((j 0).val / 128) + 127) (lastOfRow_lt m j) (ValueIdx.ix1 ⟨(j 0).val % 128, Nat.mod_lt _ (by decide)⟩)

/-- An entry of that array named through a point and a lane. -/
theorem G1_of (c : Dev nD) (i : S65536.Idx) (k : ℕ) (hk : k < (cfgA m).N) (y : S128.Idx)
    (h1 : 128 * ((i 0).val / 128) + 127 = k) (h2 : (i 0).val % 128 = (y 0).val) : G1 m c i = accA m c k hk y := by
  subst h1
  unfold G1
  refine congrArg _ ?_
  rw [ValueIdx.eq_ix1 y]
  exact congrArg ValueIdx.ix1 (Fin.ext h2)

/-! ## What a flushing point writes back -/

/-- A point that writes the output block back is the last of its row, and what it writes is its block of the whole
    array above. -/
theorem flushed1_eq (c : Dev nD) (t : Fin (cfgA m).N) (hf : ((cfgA m).win 1).flush t = true) :
    (dat0 m c).flushed 1 t = (((cfgA m).win 1).blk t).view.read (Elt F) (G1 m c) := by
  have h127 : t.val % 128 = 127 := by rw [flush1] at hf; exact of_decide_eq_true hf
  refine funext fun (y : S128.Idx) => ?_
  have he := blk1_emb (adm0 m) t y
  have hy : (y 0).val < 128 := (y 0).isLt
  show accA m c t.val t.isLt y = G1 m c ((((cfgA m).win 1).blk t).view.emb y)
  exact (G1_of m c _ t.val t.isLt y (by rw [he]; omega) (by rw [he]; omega)).symm

/-! ## The blocks tile the array -/

/-- An entry of the array is in a point's block iff it is in the block's range. -/
theorem mem_blk1 (t : Fin (cfgA m).N) (i : S65536.Idx) :
    i ∈ (((cfgA m).win 1).blk t).view.set
      ↔ ∀ a : Fin 1, ((cfgA m).win 1).index t a * S128.size a ≤ (i a).val
          ∧ (i a).val < ((cfgA m).win 1).index t a * S128.size a + S128.size a := by
  have hset : (((cfgA m).win 1).blk t).view.set = (((cfgA m).win 1).rect t).set :=
    View.set_slice_whole main_v11 _
  rw [hset]
  exact Rect.mem_set_unit

/-- Every entry is in the block written back at the last point of its row. -/
theorem cover1 (i : S65536.Idx) :
    ∃ t : Fin (cfgA m).N, ((cfgA m).win 1).flush t = true ∧ i ∈ (((cfgA m).win 1).blk t).view.set := by
  have hi : (i 0).val < 65536 := (i 0).isLt
  refine ⟨⟨128 * ((i 0).val / 128) + 127, lastOfRow_lt m i⟩, ?_, ?_⟩
  · rw [flush1]; exact decide_eq_true (by show (128 * ((i 0).val / 128) + 127) % 128 = 127; omega)
  · rw [mem_blk1]
    intro a
    match a with
    | ⟨0, _⟩ =>
      have hx : ((cfgA m).win 1).index ⟨128 * ((i 0).val / 128) + 127, lastOfRow_lt m i⟩ (0 : Fin 1) = (i 0).val / 128 := by
        rw [index1]; show (128 * ((i 0).val / 128) + 127) / 128 = (i 0).val / 128; omega
      show ((cfgA m).win 1).index _ (0 : Fin 1) * 128 ≤ (i 0).val ∧ (i 0).val < ((cfgA m).win 1).index _ (0 : Fin 1) * 128 + 128
      rw [hx]; omega

/-! ## The arrays after the run -/

/-- What the run leaves in the output array at entry `j` is what the last step of `j`'s row left in lane `j % 128`. -/
theorem arr_out (c : Dev nD) (j : S65536.Idx) :
    (dat0 (F := F) m c).arrAt 1 (cfgA m).N j
      = accA m c (128 * ((j 0).val / 128) + 127) (lastOfRow_lt m j)
          (ValueIdx.ix1 ⟨(j 0).val % 128, Nat.mod_lt _ (by decide)⟩) :=
  congrFun ((dat0 m c).arrAt_eq_of_cover 1 (G1 m c) (flushed1_eq m c) (cover1 m)) j

/-- The relation row's array ends as it entered. -/
theorem arr_in (c : Dev nD) : (dat0 (F := F) m c).arrAt 0 (cfgA m).N = m ((c : Thread nD τ).loc main_arg1) :=
  (dat0 m c).arrAt_in 0 rfl _

end Cert.Proof.KI1

end
-- ==== Proof.KI1Final.lean ====
/-
  Region 0's output array at the ideal values is the specification's scores.

  Entry `j` of the output array is lane `j % 128` of the block the last step of row `j / 128` left. The block after
  each step is a fold over the steps of the row so far: a row's first step adds its contribution onto the zero block,
  every other step onto the block before. Step `t` contributes the score of the two table rows it gathered, on lane
  `t % 128` only. So after a row's last step lane `k` holds the score of the rows gathered at the row's step `k`: for
  entry `j` that is step `j` itself, whose rows are the rows of the node table that word `j` of the head table and
  word `j` of the tail table name.
-/
import proofs.«414028_j29231547417249_2_alg».proof.Proof.KI1Value
import proofs.«414028_j29231547417249_2_alg».proof.Proof.KernelMath
import proofs.«414028_j29231547417249_2_alg».proof.Proof.KIDats
import Idealize.ShloMosaic.Lib.Pipeline.FrameSuffix
import Idealize.ShloMosaic.Lib.ValueIdx

noncomputable section

namespace Cert.Proof.KI1

open Cert.KernelIdeal Cert.KernelIdeal.Gen Cert.KernelIdeal.GenP
open Idealize.ShloMosaic Idealize.ShloMosaic.TcCoe Idealize.SL.Sem
open Idealize.ShloMosaic.Pipeline (Dat)
open Cert.Proof.Spec Cert.Proof.KernelMath

variable (m : (ℓ : Loc nD τ sig) → Buf (Elt Ideal) ℓ)

/-! ## The steps of the run, numbered by the natural numbers -/

/-- The head row and the tail row gathered at step `t`; past the grid, any block. -/
def rowsH (c : Dev nD) (t : ℕ) : Vec Ideal S1x256 .f32 := if h : t < (cfgA m).N then hrow m c ⟨t, h⟩ else relA m c
def rowsT (c : Dev nD) (t : ℕ) : Vec Ideal S1x256 .f32 := if h : t < (cfgA m).N then trow m c ⟨t, h⟩ else relA m c

theorem rowsH_of_lt (c : Dev nD) (t : Fin (cfgA m).N) : rowsH m c t.val = hrow m c t := dif_pos t.isLt
theorem rowsT_of_lt (c : Dev nD) (t : Fin (cfgA m).N) : rowsT m c t.val = trow m c t := dif_pos t.isLt

/-- The body's step number `t`: the step's contribution added, on lane `t % 128`, to the block `prev`. -/
def stepN (c : Dev nD) (t : ℕ) (prev : Vec Ideal S128 .f32) : Vec Ideal S128 .f32 :=
  k1_pay2 (F := Ideal) (BitVec.ofNat 32 (t % 128)) (k1_pay6 (rowsH m c t) (rowsT m c t) (relA m c))
    (k1_pay7 (rowsH m c t) (rowsT m c t) (relA m c)) prev

/-- At a point of the grid it is the step the proof data names. -/
theorem stepN_eq (c : Dev nD) (t : Fin (cfgA m).N) (prev : Vec Ideal S128 .f32) :
    stepN m c t.val prev = stepv (hrow m c t) (trow m c t) (relA m c) (lane m t) prev := by
  unfold stepN stepv
  rw [rowsH_of_lt, rowsT_of_lt]
  show _ = k1_pay2 (BitVec.ofNat 32 (((cfgA m).grid.coords t) 1).val) _ _ prev
  rw [coords1 (adm0 m) t]

/-- The output block after step `t`, by the same recursion as the proof data's, over all the natural numbers. -/
def accN (c : Dev nD) : ℕ → Vec Ideal S128 .f32
  | Nat.zero => stepN m c Nat.zero (k1_pay1 (F := Ideal))
  | Nat.succ t =>
    if (t + 1) % 128 = 0 then stepN m c (t + 1) (k1_pay1 (F := Ideal)) else stepN m c (t + 1) (accN c t)

theorem accN_first (c : Dev nD) (t : ℕ) (h : t % 128 = 0) : accN m c t = stepN m c t (k1_pay1 (F := Ideal)) := by
  cases t with
  | zero => rfl
  | succ t => show (if (t + 1) % 128 = 0 then _ else _) = _; rw [if_pos h]

theorem accN_step (c : Dev nD) (t : ℕ) (h : t % 128 ≠ 0) : accN m c t = stepN m c t (accN m c (t - 1)) := by
  cases t with
  | zero => exact absurd (Nat.zero_mod 128) h
  | succ t => show (if (t + 1) % 128 = 0 then _ else _) = _; rw [if_neg h]; rfl

/-- On the grid it is the proof data's block. -/
theorem accN_eq (c : Dev nD) : ∀ (t : ℕ) (h : t < (cfgA m).N), accN m c t = accA m c t h
  | Nat.zero, h => by
    show stepN m c Nat.zero (k1_pay1 (F := Ideal)) = _
    exact (stepN_eq m c ⟨Nat.zero, h⟩ _).trans (accA_first m c ⟨Nat.zero, h⟩ (Nat.zero_mod 128)).symm
  | Nat.succ t, h => by
    have hp : t < (cfgA m).N := Nat.lt_of_succ_lt h
    show (if (t + 1) % 128 = 0 then _ else _) = _
    by_cases hz : (t + 1) % 128 = 0
    · rw [if_pos hz]
      exact (stepN_eq m c ⟨t + 1, h⟩ _).trans (accA_first m c ⟨t + 1, h⟩ hz).symm
    · rw [if_neg hz, accN_eq c t hp]
      exact (stepN_eq m c ⟨t + 1, h⟩ _).trans (accA_step m c ⟨t + 1, h⟩ hz hp).symm

/-- After the last step of row `i`, lane `k` holds the score of the rows gathered at the row's step `k`. -/
theorem lane_score (c : Dev nD) (i : ℕ) (k : Fin 128) :
    accN m c (128 * i + 127) (ValueIdx.ix1 k)
      = blkScore (rowsH m c (128 * i + k.val)) (rowsT m c (128 * i + k.val)) (relA m c) :=
  row_fold (rowsH m c) (rowsT m c) (relA m c) (accN m c)
    (fun t h y => congrFun (accN_first m c t h) y) (fun t h y => congrFun (accN_step m c t h) y) i k

/-! ## The rows a step gathers -/

/-- The table word read at point `t` is word `t` of the table. -/
theorem tword_at (T : IVec S65536 32) (t : Fin (cfgA m).N) :
    tword T ((cfgA m).grid.coords t) = T (ValueIdx.ix1 ⟨t.val, lt_N (adm0 m) t⟩) := by
  rw [tword_eq]
  exact congrArg T (congrArg ValueIdx.ix1 (Fin.ext (flat_eq (adm0 m) t)))

/-- The score of the two rows step `t` gathered is the specification's score of the rows that word `t` of the head
    table and word `t` of the tail table name. -/
theorem step_score (c : Dev nD) (t : Fin (cfgA m).N) :
    blkScore (hrow m c t) (trow m c t) (relA m c)
      = Cert.Proof.Spec.score (nodeA m c) (relA m c) (rowOf ((hTab m) (ValueIdx.ix1 ⟨t.val, lt_N (adm0 m) t⟩)))
          (rowOf ((tTab m) (ValueIdx.ix1 ⟨t.val, lt_N (adm0 m) t⟩))) := by
  rw [← tword_at m (hTab m) t, ← tword_at m (tTab m) t]
  exact blkScore_rows (nodeA m c) (relA m c) _ _ _ _ (fun _ => rfl) (fun _ => rfl)

/-! ## The output array -/

/-- What region 0 leaves in its output array is the fold of its write-backs. -/
theorem outs_eq (c : Dev nD) :
    (Cert.Proof.KI.outs m 8 main_v11 c : Vec Ideal S65536 .f32) = (dat0 m c).arrAt 1 (cfgA m).N :=
  Pipeline.withArrays_arr spec1 (launch1 (F := Ideal)).win.arr_inj c _ (fun w => (dat0 m c).arrAt w (cfgA m).N) 1

/-- Entry `j` of what region 0 leaves in its output array is the score of the rows the `j`-th words of its two tables
    name. -/
theorem out_read (c : Dev nD) (j : Fin 65536) :
    (Cert.Proof.KI.outs m 8 main_v11 c : Vec Ideal S65536 .f32) (ValueIdx.ix1 j)
      = Cert.Proof.Spec.score (nodeA m c) (relA m c) (Cert.Proof.Spec.rowOf ((hTab m) (ValueIdx.ix1 j)))
          (Cert.Proof.Spec.rowOf ((tTab m) (ValueIdx.ix1 j))) := by
  have hj : j.val < (cfgA m).N := by rw [N_eq (adm0 m)]; exact j.isLt
  have hjj : 128 * (j.val / 128) + j.val % 128 = j.val := by omega
  rw [outs_eq m c, arr_out m c (ValueIdx.ix1 j)]
  show accA m c (128 * (j.val / 128) + 127) (lastOfRow_lt m (ValueIdx.ix1 j))
      (ValueIdx.ix1 ⟨j.val % 128, Nat.mod_lt _ (by decide)⟩) = _
  rw [← accN_eq m c _ (lastOfRow_lt m (ValueIdx.ix1 j)), lane_score m c (j.val / 128) ⟨j.val % 128, Nat.mod_lt _ (by decide)⟩]
  show blkScore (rowsH m c (128 * (j.val / 128) + j.val % 128)) (rowsT m c (128 * (j.val / 128) + j.val % 128)) (relA m c) = _
  rw [hjj, rowsH_of_lt m c ⟨j.val, hj⟩, rowsT_of_lt m c ⟨j.val, hj⟩]
  exact step_score m c ⟨j.val, hj⟩

end Cert.Proof.KI1

end
-- ==== Proof.KI2Value.lean ====
/-
  Region 0, from blocks to the array.

  The output array has 65536 entries in 512 blocks of 128. The block of row `i` of the grid is written back once, after
  the row's last step, point `128 * i + 127`, and holds then what that step left in the staging buffer. The blocks tile
  the array, so after the run entry `j` of the array is lane `j % 128` of what the last step of row `j / 128` left. The
  relation row is an input: its array ends as it entered.
-/
import proofs.«414028_j29231547417249_2_alg».proof.Proof.KI2Data
import proofs.«414028_j29231547417249_2_alg».proof.Proof.KI2Points
import Idealize.ShloMosaic.Lib.Pipeline.Value
import Idealize.ShloMosaic.Lib.Pipeline.Cells
import Idealize.ShloMosaic.Lib.ValueIdx

noncomputable section

namespace Cert.Proof.KI2

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-! ## The last step of an entry's row -/

/-- The last point of the row of the grid that entry `j` of the output array belongs to is a point of the grid. -/
theorem lastOfRow_lt (j : S65536.Idx) : 128 * ((j 0).val / 128) + 127 < (cfgA m).N := by
  have hj : (j 0).val < 65536 := (j 0).isLt
  have hN : (cfgA m).N = 65536 := N_eq (adm0 m)
  omega

/-- The output block after a point depends on the point's number only. -/
theorem accA_congr (c : Dev nD) {k k' : ℕ} (h : k = k') (hk : k < (cfgA m).N) (hk' : k' < (cfgA m).N) :
    accA m c k hk = accA m c k' hk' := by
  subst h; rfl

/-- The whole output array after the run: entry `j` is lane `j % 128` of the block the last step of `j`'s row left. -/
def G1 (c : Dev nD) : S65536.Idx → Elt F .f32 := fun j =>
  accA m c (128 * ((j 0).val / 128) + 127) (lastOfRow_lt m j) (ValueIdx.ix1 ⟨(j 0).val % 128, Nat.mod_lt _ (by decide)⟩)

/-- An entry of that array named through a point and a lane. -/
theorem G1_of (c : Dev nD) (i : S65536.Idx) (k : ℕ) (hk : k < (cfgA m).N) (y : S128.Idx)
    (h1 : 128 * ((i 0).val / 128) + 127 = k) (h2 : (i 0).val % 128 = (y 0).val) : G1 m c i = accA m c k hk y := by
  subst h1
  unfold G1
  refine congrArg _ ?_
  rw [ValueIdx.eq_ix1 y]
  exact congrArg ValueIdx.ix1 (Fin.ext h2)

/-! ## What a flushing point writes back -/

/-- A point that writes the output block back is the last of its row, and what it writes is its block of the whole
    array above. -/
theorem flushed1_eq (c : Dev nD) (t : Fin (cfgA m).N) (hf : ((cfgA m).win 1).flush t = true) :
    (dat0 m c).flushed 1 t = (((cfgA m).win 1).blk t).view.read (Elt F) (G1 m c) := by
  have h127 : t.val % 128 = 127 := by rw [flush1] at hf; exact of_decide_eq_true hf
  refine funext fun (y : S128.Idx) => ?_
  have he := blk1_emb (adm0 m) t y
  have hy : (y 0).val < 128 := (y 0).isLt
  show accA m c t.val t.isLt y = G1 m c ((((cfgA m).win 1).blk t).view.emb y)
  exact (G1_of m c _ t.val t.isLt y (by rw [he]; omega) (by rw [he]; omega)).symm

/-! ## The blocks tile the array -/

/-- An entry of the array is in a point's block iff it is in the block's range. -/
theorem mem_blk1 (t : Fin (cfgA m).N) (i : S65536.Idx) :
    i ∈ (((cfgA m).win 1).blk t).view.set
      ↔ ∀ a : Fin 1, ((cfgA m).win 1).index t a * S128.size a ≤ (i a).val
          ∧ (i a).val < ((cfgA m).win 1).index t a * S128.size a + S128.size a := by
  have hset : (((cfgA m).win 1).blk t).view.set = (((cfgA m).win 1).rect t).set :=
    View.set_slice_whole main_v14 _
  rw [hset]
  exact Rect.mem_set_unit

/-- Every entry is in the block written back at the last point of its row. -/
theorem cover1 (i : S65536.Idx) :
    ∃ t : Fin (cfgA m).N, ((cfgA m).win 1).flush t = true ∧ i ∈ (((cfgA m).win 1).blk t).view.set := by
  have hi : (i 0).val < 65536 := (i 0).isLt
  refine ⟨⟨128 * ((i 0).val / 128) + 127, lastOfRow_lt m i⟩, ?_, ?_⟩
  · rw [flush1]; exact decide_eq_true (by show (128 * ((i 0).val / 128) + 127) % 128 = 127; omega)
  · rw [mem_blk1]
    intro a
    match a with
    | ⟨0, _⟩ =>
      have hx : ((cfgA m).win 1).index ⟨128 * ((i 0).val / 128) + 127, lastOfRow_lt m i⟩ (0 : Fin 1) = (i 0).val / 128 := by
        rw [index1]; show (128 * ((i 0).val / 128) + 127) / 128 = (i 0).val / 128; omega
      show ((cfgA m).win 1).index _ (0 : Fin 1) * 128 ≤ (i 0).val ∧ (i 0).val < ((cfgA m).win 1).index _ (0 : Fin 1) * 128 + 128
      rw [hx]; omega

/-! ## The arrays after the run -/

/-- What the run leaves in the output array at entry `j` is what the last step of `j`'s row left in lane `j % 128`. -/
theorem arr_out (c : Dev nD) (j : S65536.Idx) :
    (dat0 (F := F) m c).arrAt 1 (cfgA m).N j
      = accA m c (128 * ((j 0).val / 128) + 127) (lastOfRow_lt m j)
          (ValueIdx.ix1 ⟨(j 0).val % 128, Nat.mod_lt _ (by decide)⟩) :=
  congrFun ((dat0 m c).arrAt_eq_of_cover 1 (G1 m c) (flushed1_eq m c) (cover1 m)) j

/-- The relation row's array ends as it entered. -/
theorem arr_in (c : Dev nD) : (dat0 (F := F) m c).arrAt 0 (cfgA m).N = m ((c : Thread nD τ).loc main_arg1) :=
  (dat0 m c).arrAt_in 0 rfl _

end Cert.Proof.KI2

end
-- ==== Proof.KI2Final.lean ====
/-
  Region 0's output array at the ideal values is the specification's scores.

  Entry `j` of the output array is lane `j % 128` of the block the last step of row `j / 128` left. The block after
  each step is a fold over the steps of the row so far: a row's first step adds its contribution onto the zero block,
  every other step onto the block before. Step `t` contributes the score of the two table rows it gathered, on lane
  `t % 128` only. So after a row's last step lane `k` holds the score of the rows gathered at the row's step `k`: for
  entry `j` that is step `j` itself, whose rows are the rows of the node table that word `j` of the head table and
  word `j` of the tail table name.
-/
import proofs.«414028_j29231547417249_2_alg».proof.Proof.KI2Value
import proofs.«414028_j29231547417249_2_alg».proof.Proof.KernelMath
import proofs.«414028_j29231547417249_2_alg».proof.Proof.KIDats
import Idealize.ShloMosaic.Lib.Pipeline.FrameSuffix
import Idealize.ShloMosaic.Lib.ValueIdx

noncomputable section

namespace Cert.Proof.KI2

open Cert.KernelIdeal Cert.KernelIdeal.Gen Cert.KernelIdeal.GenP
open Idealize.ShloMosaic Idealize.ShloMosaic.TcCoe Idealize.SL.Sem
open Idealize.ShloMosaic.Pipeline (Dat)
open Cert.Proof.Spec Cert.Proof.KernelMath

variable (m : (ℓ : Loc nD τ sig) → Buf (Elt Ideal) ℓ)

/-! ## The steps of the run, numbered by the natural numbers -/

/-- The head row and the tail row gathered at step `t`; past the grid, any block. -/
def rowsH (c : Dev nD) (t : ℕ) : Vec Ideal S1x256 .f32 := if h : t < (cfgA m).N then hrow m c ⟨t, h⟩ else relA m c
def rowsT (c : Dev nD) (t : ℕ) : Vec Ideal S1x256 .f32 := if h : t < (cfgA m).N then trow m c ⟨t, h⟩ else relA m c

theorem rowsH_of_lt (c : Dev nD) (t : Fin (cfgA m).N) : rowsH m c t.val = hrow m c t := dif_pos t.isLt
theorem rowsT_of_lt (c : Dev nD) (t : Fin (cfgA m).N) : rowsT m c t.val = trow m c t := dif_pos t.isLt

/-- The body's step number `t`: the step's contribution added, on lane `t % 128`, to the block `prev`. -/
def stepN (c : Dev nD) (t : ℕ) (prev : Vec Ideal S128 .f32) : Vec Ideal S128 .f32 :=
  k2_pay2 (F := Ideal) (BitVec.ofNat 32 (t % 128)) (k2_pay6 (rowsH m c t) (rowsT m c t) (relA m c))
    (k2_pay7 (rowsH m c t) (rowsT m c t) (relA m c)) prev

/-- At a point of the grid it is the step the proof data names. -/
theorem stepN_eq (c : Dev nD) (t : Fin (cfgA m).N) (prev : Vec Ideal S128 .f32) :
    stepN m c t.val prev = stepv (hrow m c t) (trow m c t) (relA m c) (lane m t) prev := by
  unfold stepN stepv
  rw [rowsH_of_lt, rowsT_of_lt]
  show _ = k2_pay2 (BitVec.ofNat 32 (((cfgA m).grid.coords t) 1).val) _ _ prev
  rw [coords1 (adm0 m) t]

/-- The output block after step `t`, by the same recursion as the proof data's, over all the natural numbers. -/
def accN (c : Dev nD) : ℕ → Vec Ideal S128 .f32
  | Nat.zero => stepN m c Nat.zero (k2_pay1 (F := Ideal))
  | Nat.succ t =>
    if (t + 1) % 128 = 0 then stepN m c (t + 1) (k2_pay1 (F := Ideal)) else stepN m c (t + 1) (accN c t)

theorem accN_first (c : Dev nD) (t : ℕ) (h : t % 128 = 0) : accN m c t = stepN m c t (k2_pay1 (F := Ideal)) := by
  cases t with
  | zero => rfl
  | succ t => show (if (t + 1) % 128 = 0 then _ else _) = _; rw [if_pos h]

theorem accN_step (c : Dev nD) (t : ℕ) (h : t % 128 ≠ 0) : accN m c t = stepN m c t (accN m c (t - 1)) := by
  cases t with
  | zero => exact absurd (Nat.zero_mod 128) h
  | succ t => show (if (t + 1) % 128 = 0 then _ else _) = _; rw [if_neg h]; rfl

/-- On the grid it is the proof data's block. -/
theorem accN_eq (c : Dev nD) : ∀ (t : ℕ) (h : t < (cfgA m).N), accN m c t = accA m c t h
  | Nat.zero, h => by
    show stepN m c Nat.zero (k2_pay1 (F := Ideal)) = _
    exact (stepN_eq m c ⟨Nat.zero, h⟩ _).trans (accA_first m c ⟨Nat.zero, h⟩ (Nat.zero_mod 128)).symm
  | Nat.succ t, h => by
    have hp : t < (cfgA m).N := Nat.lt_of_succ_lt h
    show (if (t + 1) % 128 = 0 then _ else _) = _
    by_cases hz : (t + 1) % 128 = 0
    · rw [if_pos hz]
      exact (stepN_eq m c ⟨t + 1, h⟩ _).trans (accA_first m c ⟨t + 1, h⟩ hz).symm
    · rw [if_neg hz, accN_eq c t hp]
      exact (stepN_eq m c ⟨t + 1, h⟩ _).trans (accA_step m c ⟨t + 1, h⟩ hz hp).symm

/-- After the last step of row `i`, lane `k` holds the score of the rows gathered at the row's step `k`. -/
theorem lane_score (c : Dev nD) (i : ℕ) (k : Fin 128) :
    accN m c (128 * i + 127) (ValueIdx.ix1 k)
      = blkScore (rowsH m c (128 * i + k.val)) (rowsT m c (128 * i + k.val)) (relA m c) :=
  row_fold (rowsH m c) (rowsT m c) (relA m c) (accN m c)
    (fun t h y => congrFun (accN_first m c t h) y) (fun t h y => congrFun (accN_step m c t h) y) i k

/-! ## The rows a step gathers -/

/-- The table word read at point `t` is word `t` of the table. -/
theorem tword_at (T : IVec S65536 32) (t : Fin (cfgA m).N) :
    tword T ((cfgA m).grid.coords t) = T (ValueIdx.ix1 ⟨t.val, lt_N (adm0 m) t⟩) := by
  rw [tword_eq]
  exact congrArg T (congrArg ValueIdx.ix1 (Fin.ext (flat_eq (adm0 m) t)))

/-- The score of the two rows step `t` gathered is the specification's score of the rows that word `t` of the head
    table and word `t` of the tail table name. -/
theorem step_score (c : Dev nD) (t : Fin (cfgA m).N) :
    blkScore (hrow m c t) (trow m c t) (relA m c)
      = Cert.Proof.Spec.score (nodeA m c) (relA m c) (rowOf ((hTab m) (ValueIdx.ix1 ⟨t.val, lt_N (adm0 m) t⟩)))
          (rowOf ((tTab m) (ValueIdx.ix1 ⟨t.val, lt_N (adm0 m) t⟩))) := by
  rw [← tword_at m (hTab m) t, ← tword_at m (tTab m) t]
  exact blkScore_rows (nodeA m c) (relA m c) _ _ _ _ (fun _ => rfl) (fun _ => rfl)

/-! ## The output array -/

/-- What region 0 leaves in its output array is the fold of its write-backs. -/
theorem outs_eq (c : Dev nD) :
    (Cert.Proof.KI.outs m 10 main_v14 c : Vec Ideal S65536 .f32) = (dat0 m c).arrAt 1 (cfgA m).N :=
  Pipeline.withArrays_arr spec2 (launch2 (F := Ideal)).win.arr_inj c _ (fun w => (dat0 m c).arrAt w (cfgA m).N) 1

/-- Entry `j` of what region 0 leaves in its output array is the score of the rows the `j`-th words of its two tables
    name. -/
theorem out_read (c : Dev nD) (j : Fin 65536) :
    (Cert.Proof.KI.outs m 10 main_v14 c : Vec Ideal S65536 .f32) (ValueIdx.ix1 j)
      = Cert.Proof.Spec.score (nodeA m c) (relA m c) (Cert.Proof.Spec.rowOf ((hTab m) (ValueIdx.ix1 j)))
          (Cert.Proof.Spec.rowOf ((tTab m) (ValueIdx.ix1 j))) := by
  have hj : j.val < (cfgA m).N := by rw [N_eq (adm0 m)]; exact j.isLt
  have hjj : 128 * (j.val / 128) + j.val % 128 = j.val := by omega
  rw [outs_eq m c, arr_out m c (ValueIdx.ix1 j)]
  show accA m c (128 * (j.val / 128) + 127) (lastOfRow_lt m (ValueIdx.ix1 j))
      (ValueIdx.ix1 ⟨j.val % 128, Nat.mod_lt _ (by decide)⟩) = _
  rw [← accN_eq m c _ (lastOfRow_lt m (ValueIdx.ix1 j)), lane_score m c (j.val / 128) ⟨j.val % 128, Nat.mod_lt _ (by decide)⟩]
  show blkScore (rowsH m c (128 * (j.val / 128) + j.val % 128)) (rowsT m c (128 * (j.val / 128) + j.val % 128)) (relA m c) = _
  rw [hjj, rowsH_of_lt m c ⟨j.val, hj⟩, rowsT_of_lt m c ⟨j.val, hj⟩]
  exact step_score m c ⟨j.val, hj⟩

end Cert.Proof.KI2

end
-- ==== Proof.KI3Value.lean ====
/-
  Region 0, from blocks to the array.

  The output array has 65536 entries in 512 blocks of 128. The block of row `i` of the grid is written back once, after
  the row's last step, point `128 * i + 127`, and holds then what that step left in the staging buffer. The blocks tile
  the array, so after the run entry `j` of the array is lane `j % 128` of what the last step of row `j / 128` left. The
  relation row is an input: its array ends as it entered.
-/
import proofs.«414028_j29231547417249_2_alg».proof.Proof.KI3Data
import proofs.«414028_j29231547417249_2_alg».proof.Proof.KI3Points
import Idealize.ShloMosaic.Lib.Pipeline.Value
import Idealize.ShloMosaic.Lib.Pipeline.Cells
import Idealize.ShloMosaic.Lib.ValueIdx

noncomputable section

namespace Cert.Proof.KI3

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-! ## The last step of an entry's row -/

/-- The last point of the row of the grid that entry `j` of the output array belongs to is a point of the grid. -/
theorem lastOfRow_lt (j : S65536.Idx) : 128 * ((j 0).val / 128) + 127 < (cfgA m).N := by
  have hj : (j 0).val < 65536 := (j 0).isLt
  have hN : (cfgA m).N = 65536 := N_eq (adm0 m)
  omega

/-- The output block after a point depends on the point's number only. -/
theorem accA_congr (c : Dev nD) {k k' : ℕ} (h : k = k') (hk : k < (cfgA m).N) (hk' : k' < (cfgA m).N) :
    accA m c k hk = accA m c k' hk' := by
  subst h; rfl

/-- The whole output array after the run: entry `j` is lane `j % 128` of the block the last step of `j`'s row left. -/
def G1 (c : Dev nD) : S65536.Idx → Elt F .f32 := fun j =>
  accA m c (128 * ((j 0).val / 128) + 127) (lastOfRow_lt m j) (ValueIdx.ix1 ⟨(j 0).val % 128, Nat.mod_lt _ (by decide)⟩)

/-- An entry of that array named through a point and a lane. -/
theorem G1_of (c : Dev nD) (i : S65536.Idx) (k : ℕ) (hk : k < (cfgA m).N) (y : S128.Idx)
    (h1 : 128 * ((i 0).val / 128) + 127 = k) (h2 : (i 0).val % 128 = (y 0).val) : G1 m c i = accA m c k hk y := by
  subst h1
  unfold G1
  refine congrArg _ ?_
  rw [ValueIdx.eq_ix1 y]
  exact congrArg ValueIdx.ix1 (Fin.ext h2)

/-! ## What a flushing point writes back -/

/-- A point that writes the output block back is the last of its row, and what it writes is its block of the whole
    array above. -/
theorem flushed1_eq (c : Dev nD) (t : Fin (cfgA m).N) (hf : ((cfgA m).win 1).flush t = true) :
    (dat0 m c).flushed 1 t = (((cfgA m).win 1).blk t).view.read (Elt F) (G1 m c) := by
  have h127 : t.val % 128 = 127 := by rw [flush1] at hf; exact of_decide_eq_true hf
  refine funext fun (y : S128.Idx) => ?_
  have he := blk1_emb (adm0 m) t y
  have hy : (y 0).val < 128 := (y 0).isLt
  show accA m c t.val t.isLt y = G1 m c ((((cfgA m).win 1).blk t).view.emb y)
  exact (G1_of m c _ t.val t.isLt y (by rw [he]; omega) (by rw [he]; omega)).symm

/-! ## The blocks tile the array -/

/-- An entry of the array is in a point's block iff it is in the block's range. -/
theorem mem_blk1 (t : Fin (cfgA m).N) (i : S65536.Idx) :
    i ∈ (((cfgA m).win 1).blk t).view.set
      ↔ ∀ a : Fin 1, ((cfgA m).win 1).index t a * S128.size a ≤ (i a).val
          ∧ (i a).val < ((cfgA m).win 1).index t a * S128.size a + S128.size a := by
  have hset : (((cfgA m).win 1).blk t).view.set = (((cfgA m).win 1).rect t).set :=
    View.set_slice_whole main_v17 _
  rw [hset]
  exact Rect.mem_set_unit

/-- Every entry is in the block written back at the last point of its row. -/
theorem cover1 (i : S65536.Idx) :
    ∃ t : Fin (cfgA m).N, ((cfgA m).win 1).flush t = true ∧ i ∈ (((cfgA m).win 1).blk t).view.set := by
  have hi : (i 0).val < 65536 := (i 0).isLt
  refine ⟨⟨128 * ((i 0).val / 128) + 127, lastOfRow_lt m i⟩, ?_, ?_⟩
  · rw [flush1]; exact decide_eq_true (by show (128 * ((i 0).val / 128) + 127) % 128 = 127; omega)
  · rw [mem_blk1]
    intro a
    match a with
    | ⟨0, _⟩ =>
      have hx : ((cfgA m).win 1).index ⟨128 * ((i 0).val / 128) + 127, lastOfRow_lt m i⟩ (0 : Fin 1) = (i 0).val / 128 := by
        rw [index1]; show (128 * ((i 0).val / 128) + 127) / 128 = (i 0).val / 128; omega
      show ((cfgA m).win 1).index _ (0 : Fin 1) * 128 ≤ (i 0).val ∧ (i 0).val < ((cfgA m).win 1).index _ (0 : Fin 1) * 128 + 128
      rw [hx]; omega

/-! ## The arrays after the run -/

/-- What the run leaves in the output array at entry `j` is what the last step of `j`'s row left in lane `j % 128`. -/
theorem arr_out (c : Dev nD) (j : S65536.Idx) :
    (dat0 (F := F) m c).arrAt 1 (cfgA m).N j
      = accA m c (128 * ((j 0).val / 128) + 127) (lastOfRow_lt m j)
          (ValueIdx.ix1 ⟨(j 0).val % 128, Nat.mod_lt _ (by decide)⟩) :=
  congrFun ((dat0 m c).arrAt_eq_of_cover 1 (G1 m c) (flushed1_eq m c) (cover1 m)) j

/-- The relation row's array ends as it entered. -/
theorem arr_in (c : Dev nD) : (dat0 (F := F) m c).arrAt 0 (cfgA m).N = m ((c : Thread nD τ).loc main_arg1) :=
  (dat0 m c).arrAt_in 0 rfl _

end Cert.Proof.KI3

end
-- ==== Proof.KI3Final.lean ====
/-
  Region 0's output array at the ideal values is the specification's scores.

  Entry `j` of the output array is lane `j % 128` of the block the last step of row `j / 128` left. The block after
  each step is a fold over the steps of the row so far: a row's first step adds its contribution onto the zero block,
  every other step onto the block before. Step `t` contributes the score of the two table rows it gathered, on lane
  `t % 128` only. So after a row's last step lane `k` holds the score of the rows gathered at the row's step `k`: for
  entry `j` that is step `j` itself, whose rows are the rows of the node table that word `j` of the head table and
  word `j` of the tail table name.
-/
import proofs.«414028_j29231547417249_2_alg».proof.Proof.KI3Value
import proofs.«414028_j29231547417249_2_alg».proof.Proof.KernelMath
import proofs.«414028_j29231547417249_2_alg».proof.Proof.KIDats
import Idealize.ShloMosaic.Lib.Pipeline.FrameSuffix
import Idealize.ShloMosaic.Lib.ValueIdx

noncomputable section

namespace Cert.Proof.KI3

open Cert.KernelIdeal Cert.KernelIdeal.Gen Cert.KernelIdeal.GenP
open Idealize.ShloMosaic Idealize.ShloMosaic.TcCoe Idealize.SL.Sem
open Idealize.ShloMosaic.Pipeline (Dat)
open Cert.Proof.Spec Cert.Proof.KernelMath

variable (m : (ℓ : Loc nD τ sig) → Buf (Elt Ideal) ℓ)

/-! ## The steps of the run, numbered by the natural numbers -/

/-- The head row and the tail row gathered at step `t`; past the grid, any block. -/
def rowsH (c : Dev nD) (t : ℕ) : Vec Ideal S1x256 .f32 := if h : t < (cfgA m).N then hrow m c ⟨t, h⟩ else relA m c
def rowsT (c : Dev nD) (t : ℕ) : Vec Ideal S1x256 .f32 := if h : t < (cfgA m).N then trow m c ⟨t, h⟩ else relA m c

theorem rowsH_of_lt (c : Dev nD) (t : Fin (cfgA m).N) : rowsH m c t.val = hrow m c t := dif_pos t.isLt
theorem rowsT_of_lt (c : Dev nD) (t : Fin (cfgA m).N) : rowsT m c t.val = trow m c t := dif_pos t.isLt

/-- The body's step number `t`: the step's contribution added, on lane `t % 128`, to the block `prev`. -/
def stepN (c : Dev nD) (t : ℕ) (prev : Vec Ideal S128 .f32) : Vec Ideal S128 .f32 :=
  k3_pay2 (F := Ideal) (BitVec.ofNat 32 (t % 128)) (k3_pay6 (rowsH m c t) (rowsT m c t) (relA m c))
    (k3_pay7 (rowsH m c t) (rowsT m c t) (relA m c)) prev

/-- At a point of the grid it is the step the proof data names. -/
theorem stepN_eq (c : Dev nD) (t : Fin (cfgA m).N) (prev : Vec Ideal S128 .f32) :
    stepN m c t.val prev = stepv (hrow m c t) (trow m c t) (relA m c) (lane m t) prev := by
  unfold stepN stepv
  rw [rowsH_of_lt, rowsT_of_lt]
  show _ = k3_pay2 (BitVec.ofNat 32 (((cfgA m).grid.coords t) 1).val) _ _ prev
  rw [coords1 (adm0 m) t]

/-- The output block after step `t`, by the same recursion as the proof data's, over all the natural numbers. -/
def accN (c : Dev nD) : ℕ → Vec Ideal S128 .f32
  | Nat.zero => stepN m c Nat.zero (k3_pay1 (F := Ideal))
  | Nat.succ t =>
    if (t + 1) % 128 = 0 then stepN m c (t + 1) (k3_pay1 (F := Ideal)) else stepN m c (t + 1) (accN c t)

theorem accN_first (c : Dev nD) (t : ℕ) (h : t % 128 = 0) : accN m c t = stepN m c t (k3_pay1 (F := Ideal)) := by
  cases t with
  | zero => rfl
  | succ t => show (if (t + 1) % 128 = 0 then _ else _) = _; rw [if_pos h]

theorem accN_step (c : Dev nD) (t : ℕ) (h : t % 128 ≠ 0) : accN m c t = stepN m c t (accN m c (t - 1)) := by
  cases t with
  | zero => exact absurd (Nat.zero_mod 128) h
  | succ t => show (if (t + 1) % 128 = 0 then _ else _) = _; rw [if_neg h]; rfl

/-- On the grid it is the proof data's block. -/
theorem accN_eq (c : Dev nD) : ∀ (t : ℕ) (h : t < (cfgA m).N), accN m c t = accA m c t h
  | Nat.zero, h => by
    show stepN m c Nat.zero (k3_pay1 (F := Ideal)) = _
    exact (stepN_eq m c ⟨Nat.zero, h⟩ _).trans (accA_first m c ⟨Nat.zero, h⟩ (Nat.zero_mod 128)).symm
  | Nat.succ t, h => by
    have hp : t < (cfgA m).N := Nat.lt_of_succ_lt h
    show (if (t + 1) % 128 = 0 then _ else _) = _
    by_cases hz : (t + 1) % 128 = 0
    · rw [if_pos hz]
      exact (stepN_eq m c ⟨t + 1, h⟩ _).trans (accA_first m c ⟨t + 1, h⟩ hz).symm
    · rw [if_neg hz, accN_eq c t hp]
      exact (stepN_eq m c ⟨t + 1, h⟩ _).trans (accA_step m c ⟨t + 1, h⟩ hz hp).symm

/-- After the last step of row `i`, lane `k` holds the score of the rows gathered at the row's step `k`. -/
theorem lane_score (c : Dev nD) (i : ℕ) (k : Fin 128) :
    accN m c (128 * i + 127) (ValueIdx.ix1 k)
      = blkScore (rowsH m c (128 * i + k.val)) (rowsT m c (128 * i + k.val)) (relA m c) :=
  row_fold (rowsH m c) (rowsT m c) (relA m c) (accN m c)
    (fun t h y => congrFun (accN_first m c t h) y) (fun t h y => congrFun (accN_step m c t h) y) i k

/-! ## The rows a step gathers -/

/-- The table word read at point `t` is word `t` of the table. -/
theorem tword_at (T : IVec S65536 32) (t : Fin (cfgA m).N) :
    tword T ((cfgA m).grid.coords t) = T (ValueIdx.ix1 ⟨t.val, lt_N (adm0 m) t⟩) := by
  rw [tword_eq]
  exact congrArg T (congrArg ValueIdx.ix1 (Fin.ext (flat_eq (adm0 m) t)))

/-- The score of the two rows step `t` gathered is the specification's score of the rows that word `t` of the head
    table and word `t` of the tail table name. -/
theorem step_score (c : Dev nD) (t : Fin (cfgA m).N) :
    blkScore (hrow m c t) (trow m c t) (relA m c)
      = Cert.Proof.Spec.score (nodeA m c) (relA m c) (rowOf ((hTab m) (ValueIdx.ix1 ⟨t.val, lt_N (adm0 m) t⟩)))
          (rowOf ((tTab m) (ValueIdx.ix1 ⟨t.val, lt_N (adm0 m) t⟩))) := by
  rw [← tword_at m (hTab m) t, ← tword_at m (tTab m) t]
  exact blkScore_rows (nodeA m c) (relA m c) _ _ _ _ (fun _ => rfl) (fun _ => rfl)

/-! ## The output array -/

/-- What region 0 leaves in its output array is the fold of its write-backs. -/
theorem outs_eq (c : Dev nD) :
    (Cert.Proof.KI.outs m 12 main_v17 c : Vec Ideal S65536 .f32) = (dat0 m c).arrAt 1 (cfgA m).N :=
  Pipeline.withArrays_arr spec3 (launch3 (F := Ideal)).win.arr_inj c _ (fun w => (dat0 m c).arrAt w (cfgA m).N) 1

/-- Entry `j` of what region 0 leaves in its output array is the score of the rows the `j`-th words of its two tables
    name. -/
theorem out_read (c : Dev nD) (j : Fin 65536) :
    (Cert.Proof.KI.outs m 12 main_v17 c : Vec Ideal S65536 .f32) (ValueIdx.ix1 j)
      = Cert.Proof.Spec.score (nodeA m c) (relA m c) (Cert.Proof.Spec.rowOf ((hTab m) (ValueIdx.ix1 j)))
          (Cert.Proof.Spec.rowOf ((tTab m) (ValueIdx.ix1 j))) := by
  have hj : j.val < (cfgA m).N := by rw [N_eq (adm0 m)]; exact j.isLt
  have hjj : 128 * (j.val / 128) + j.val % 128 = j.val := by omega
  rw [outs_eq m c, arr_out m c (ValueIdx.ix1 j)]
  show accA m c (128 * (j.val / 128) + 127) (lastOfRow_lt m (ValueIdx.ix1 j))
      (ValueIdx.ix1 ⟨j.val % 128, Nat.mod_lt _ (by decide)⟩) = _
  rw [← accN_eq m c _ (lastOfRow_lt m (ValueIdx.ix1 j)), lane_score m c (j.val / 128) ⟨j.val % 128, Nat.mod_lt _ (by decide)⟩]
  show blkScore (rowsH m c (128 * (j.val / 128) + j.val % 128)) (rowsT m c (128 * (j.val / 128) + j.val % 128)) (relA m c) = _
  rw [hjj, rowsH_of_lt m c ⟨j.val, hj⟩, rowsT_of_lt m c ⟨j.val, hj⟩]
  exact step_score m c ⟨j.val, hj⟩

end Cert.Proof.KI3

end
-- ==== Proof.KI4Value.lean ====
/-
  Region 0, from blocks to the array.

  The output array has 65536 entries in 512 blocks of 128. The block of row `i` of the grid is written back once, after
  the row's last step, point `128 * i + 127`, and holds then what that step left in the staging buffer. The blocks tile
  the array, so after the run entry `j` of the array is lane `j % 128` of what the last step of row `j / 128` left. The
  relation row is an input: its array ends as it entered.
-/
import proofs.«414028_j29231547417249_2_alg».proof.Proof.KI4Data
import proofs.«414028_j29231547417249_2_alg».proof.Proof.KI4Points
import Idealize.ShloMosaic.Lib.Pipeline.Value
import Idealize.ShloMosaic.Lib.Pipeline.Cells
import Idealize.ShloMosaic.Lib.ValueIdx

noncomputable section

namespace Cert.Proof.KI4

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-! ## The last step of an entry's row -/

/-- The last point of the row of the grid that entry `j` of the output array belongs to is a point of the grid. -/
theorem lastOfRow_lt (j : S65536.Idx) : 128 * ((j 0).val / 128) + 127 < (cfgA m).N := by
  have hj : (j 0).val < 65536 := (j 0).isLt
  have hN : (cfgA m).N = 65536 := N_eq (adm0 m)
  omega

/-- The output block after a point depends on the point's number only. -/
theorem accA_congr (c : Dev nD) {k k' : ℕ} (h : k = k') (hk : k < (cfgA m).N) (hk' : k' < (cfgA m).N) :
    accA m c k hk = accA m c k' hk' := by
  subst h; rfl

/-- The whole output array after the run: entry `j` is lane `j % 128` of the block the last step of `j`'s row left. -/
def G1 (c : Dev nD) : S65536.Idx → Elt F .f32 := fun j =>
  accA m c (128 * ((j 0).val / 128) + 127) (lastOfRow_lt m j) (ValueIdx.ix1 ⟨(j 0).val % 128, Nat.mod_lt _ (by decide)⟩)

/-- An entry of that array named through a point and a lane. -/
theorem G1_of (c : Dev nD) (i : S65536.Idx) (k : ℕ) (hk : k < (cfgA m).N) (y : S128.Idx)
    (h1 : 128 * ((i 0).val / 128) + 127 = k) (h2 : (i 0).val % 128 = (y 0).val) : G1 m c i = accA m c k hk y := by
  subst h1
  unfold G1
  refine congrArg _ ?_
  rw [ValueIdx.eq_ix1 y]
  exact congrArg ValueIdx.ix1 (Fin.ext h2)

/-! ## What a flushing point writes back -/

/-- A point that writes the output block back is the last of its row, and what it writes is its block of the whole
    array above. -/
theorem flushed1_eq (c : Dev nD) (t : Fin (cfgA m).N) (hf : ((cfgA m).win 1).flush t = true) :
    (dat0 m c).flushed 1 t = (((cfgA m).win 1).blk t).view.read (Elt F) (G1 m c) := by
  have h127 : t.val % 128 = 127 := by rw [flush1] at hf; exact of_decide_eq_true hf
  refine funext fun (y : S128.Idx) => ?_
  have he := blk1_emb (adm0 m) t y
  have hy : (y 0).val < 128 := (y 0).isLt
  show accA m c t.val t.isLt y = G1 m c ((((cfgA m).win 1).blk t).view.emb y)
  exact (G1_of m c _ t.val t.isLt y (by rw [he]; omega) (by rw [he]; omega)).symm

/-! ## The blocks tile the array -/

/-- An entry of the array is in a point's block iff it is in the block's range. -/
theorem mem_blk1 (t : Fin (cfgA m).N) (i : S65536.Idx) :
    i ∈ (((cfgA m).win 1).blk t).view.set
      ↔ ∀ a : Fin 1, ((cfgA m).win 1).index t a * S128.size a ≤ (i a).val
          ∧ (i a).val < ((cfgA m).win 1).index t a * S128.size a + S128.size a := by
  have hset : (((cfgA m).win 1).blk t).view.set = (((cfgA m).win 1).rect t).set :=
    View.set_slice_whole main_v20 _
  rw [hset]
  exact Rect.mem_set_unit

/-- Every entry is in the block written back at the last point of its row. -/
theorem cover1 (i : S65536.Idx) :
    ∃ t : Fin (cfgA m).N, ((cfgA m).win 1).flush t = true ∧ i ∈ (((cfgA m).win 1).blk t).view.set := by
  have hi : (i 0).val < 65536 := (i 0).isLt
  refine ⟨⟨128 * ((i 0).val / 128) + 127, lastOfRow_lt m i⟩, ?_, ?_⟩
  · rw [flush1]; exact decide_eq_true (by show (128 * ((i 0).val / 128) + 127) % 128 = 127; omega)
  · rw [mem_blk1]
    intro a
    match a with
    | ⟨0, _⟩ =>
      have hx : ((cfgA m).win 1).index ⟨128 * ((i 0).val / 128) + 127, lastOfRow_lt m i⟩ (0 : Fin 1) = (i 0).val / 128 := by
        rw [index1]; show (128 * ((i 0).val / 128) + 127) / 128 = (i 0).val / 128; omega
      show ((cfgA m).win 1).index _ (0 : Fin 1) * 128 ≤ (i 0).val ∧ (i 0).val < ((cfgA m).win 1).index _ (0 : Fin 1) * 128 + 128
      rw [hx]; omega

/-! ## The arrays after the run -/

/-- What the run leaves in the output array at entry `j` is what the last step of `j`'s row left in lane `j % 128`. -/
theorem arr_out (c : Dev nD) (j : S65536.Idx) :
    (dat0 (F := F) m c).arrAt 1 (cfgA m).N j
      = accA m c (128 * ((j 0).val / 128) + 127) (lastOfRow_lt m j)
          (ValueIdx.ix1 ⟨(j 0).val % 128, Nat.mod_lt _ (by decide)⟩) :=
  congrFun ((dat0 m c).arrAt_eq_of_cover 1 (G1 m c) (flushed1_eq m c) (cover1 m)) j

/-- The relation row's array ends as it entered. -/
theorem arr_in (c : Dev nD) : (dat0 (F := F) m c).arrAt 0 (cfgA m).N = m ((c : Thread nD τ).loc main_arg1) :=
  (dat0 m c).arrAt_in 0 rfl _

end Cert.Proof.KI4

end
-- ==== Proof.KI4Final.lean ====
/-
  Region 0's output array at the ideal values is the specification's scores.

  Entry `j` of the output array is lane `j % 128` of the block the last step of row `j / 128` left. The block after
  each step is a fold over the steps of the row so far: a row's first step adds its contribution onto the zero block,
  every other step onto the block before. Step `t` contributes the score of the two table rows it gathered, on lane
  `t % 128` only. So after a row's last step lane `k` holds the score of the rows gathered at the row's step `k`: for
  entry `j` that is step `j` itself, whose rows are the rows of the node table that word `j` of the head table and
  word `j` of the tail table name.
-/
import proofs.«414028_j29231547417249_2_alg».proof.Proof.KI4Value
import proofs.«414028_j29231547417249_2_alg».proof.Proof.KernelMath
import proofs.«414028_j29231547417249_2_alg».proof.Proof.KIDats
import Idealize.ShloMosaic.Lib.Pipeline.FrameSuffix
import Idealize.ShloMosaic.Lib.ValueIdx

noncomputable section

namespace Cert.Proof.KI4

open Cert.KernelIdeal Cert.KernelIdeal.Gen Cert.KernelIdeal.GenP
open Idealize.ShloMosaic Idealize.ShloMosaic.TcCoe Idealize.SL.Sem
open Idealize.ShloMosaic.Pipeline (Dat)
open Cert.Proof.Spec Cert.Proof.KernelMath

variable (m : (ℓ : Loc nD τ sig) → Buf (Elt Ideal) ℓ)

/-! ## The steps of the run, numbered by the natural numbers -/

/-- The head row and the tail row gathered at step `t`; past the grid, any block. -/
def rowsH (c : Dev nD) (t : ℕ) : Vec Ideal S1x256 .f32 := if h : t < (cfgA m).N then hrow m c ⟨t, h⟩ else relA m c
def rowsT (c : Dev nD) (t : ℕ) : Vec Ideal S1x256 .f32 := if h : t < (cfgA m).N then trow m c ⟨t, h⟩ else relA m c

theorem rowsH_of_lt (c : Dev nD) (t : Fin (cfgA m).N) : rowsH m c t.val = hrow m c t := dif_pos t.isLt
theorem rowsT_of_lt (c : Dev nD) (t : Fin (cfgA m).N) : rowsT m c t.val = trow m c t := dif_pos t.isLt

/-- The body's step number `t`: the step's contribution added, on lane `t % 128`, to the block `prev`. -/
def stepN (c : Dev nD) (t : ℕ) (prev : Vec Ideal S128 .f32) : Vec Ideal S128 .f32 :=
  k4_pay2 (F := Ideal) (BitVec.ofNat 32 (t % 128)) (k4_pay6 (rowsH m c t) (rowsT m c t) (relA m c))
    (k4_pay7 (rowsH m c t) (rowsT m c t) (relA m c)) prev

/-- At a point of the grid it is the step the proof data names. -/
theorem stepN_eq (c : Dev nD) (t : Fin (cfgA m).N) (prev : Vec Ideal S128 .f32) :
    stepN m c t.val prev = stepv (hrow m c t) (trow m c t) (relA m c) (lane m t) prev := by
  unfold stepN stepv
  rw [rowsH_of_lt, rowsT_of_lt]
  show _ = k4_pay2 (BitVec.ofNat 32 (((cfgA m).grid.coords t) 1).val) _ _ prev
  rw [coords1 (adm0 m) t]

/-- The output block after step `t`, by the same recursion as the proof data's, over all the natural numbers. -/
def accN (c : Dev nD) : ℕ → Vec Ideal S128 .f32
  | Nat.zero => stepN m c Nat.zero (k4_pay1 (F := Ideal))
  | Nat.succ t =>
    if (t + 1) % 128 = 0 then stepN m c (t + 1) (k4_pay1 (F := Ideal)) else stepN m c (t + 1) (accN c t)

theorem accN_first (c : Dev nD) (t : ℕ) (h : t % 128 = 0) : accN m c t = stepN m c t (k4_pay1 (F := Ideal)) := by
  cases t with
  | zero => rfl
  | succ t => show (if (t + 1) % 128 = 0 then _ else _) = _; rw [if_pos h]

theorem accN_step (c : Dev nD) (t : ℕ) (h : t % 128 ≠ 0) : accN m c t = stepN m c t (accN m c (t - 1)) := by
  cases t with
  | zero => exact absurd (Nat.zero_mod 128) h
  | succ t => show (if (t + 1) % 128 = 0 then _ else _) = _; rw [if_neg h]; rfl

/-- On the grid it is the proof data's block. -/
theorem accN_eq (c : Dev nD) : ∀ (t : ℕ) (h : t < (cfgA m).N), accN m c t = accA m c t h
  | Nat.zero, h => by
    show stepN m c Nat.zero (k4_pay1 (F := Ideal)) = _
    exact (stepN_eq m c ⟨Nat.zero, h⟩ _).trans (accA_first m c ⟨Nat.zero, h⟩ (Nat.zero_mod 128)).symm
  | Nat.succ t, h => by
    have hp : t < (cfgA m).N := Nat.lt_of_succ_lt h
    show (if (t + 1) % 128 = 0 then _ else _) = _
    by_cases hz : (t + 1) % 128 = 0
    · rw [if_pos hz]
      exact (stepN_eq m c ⟨t + 1, h⟩ _).trans (accA_first m c ⟨t + 1, h⟩ hz).symm
    · rw [if_neg hz, accN_eq c t hp]
      exact (stepN_eq m c ⟨t + 1, h⟩ _).trans (accA_step m c ⟨t + 1, h⟩ hz hp).symm

/-- After the last step of row `i`, lane `k` holds the score of the rows gathered at the row's step `k`. -/
theorem lane_score (c : Dev nD) (i : ℕ) (k : Fin 128) :
    accN m c (128 * i + 127) (ValueIdx.ix1 k)
      = blkScore (rowsH m c (128 * i + k.val)) (rowsT m c (128 * i + k.val)) (relA m c) :=
  row_fold (rowsH m c) (rowsT m c) (relA m c) (accN m c)
    (fun t h y => congrFun (accN_first m c t h) y) (fun t h y => congrFun (accN_step m c t h) y) i k

/-! ## The rows a step gathers -/

/-- The table word read at point `t` is word `t` of the table. -/
theorem tword_at (T : IVec S65536 32) (t : Fin (cfgA m).N) :
    tword T ((cfgA m).grid.coords t) = T (ValueIdx.ix1 ⟨t.val, lt_N (adm0 m) t⟩) := by
  rw [tword_eq]
  exact congrArg T (congrArg ValueIdx.ix1 (Fin.ext (flat_eq (adm0 m) t)))

/-- The score of the two rows step `t` gathered is the specification's score of the rows that word `t` of the head
    table and word `t` of the tail table name. -/
theorem step_score (c : Dev nD) (t : Fin (cfgA m).N) :
    blkScore (hrow m c t) (trow m c t) (relA m c)
      = Cert.Proof.Spec.score (nodeA m c) (relA m c) (rowOf ((hTab m) (ValueIdx.ix1 ⟨t.val, lt_N (adm0 m) t⟩)))
          (rowOf ((tTab m) (ValueIdx.ix1 ⟨t.val, lt_N (adm0 m) t⟩))) := by
  rw [← tword_at m (hTab m) t, ← tword_at m (tTab m) t]
  exact blkScore_rows (nodeA m c) (relA m c) _ _ _ _ (fun _ => rfl) (fun _ => rfl)

/-! ## The output array -/

/-- What region 0 leaves in its output array is the fold of its write-backs. -/
theorem outs_eq (c : Dev nD) :
    (Cert.Proof.KI.outs m 14 main_v20 c : Vec Ideal S65536 .f32) = (dat0 m c).arrAt 1 (cfgA m).N :=
  Pipeline.withArrays_arr spec4 (launch4 (F := Ideal)).win.arr_inj c _ (fun w => (dat0 m c).arrAt w (cfgA m).N) 1

/-- Entry `j` of what region 0 leaves in its output array is the score of the rows the `j`-th words of its two tables
    name. -/
theorem out_read (c : Dev nD) (j : Fin 65536) :
    (Cert.Proof.KI.outs m 14 main_v20 c : Vec Ideal S65536 .f32) (ValueIdx.ix1 j)
      = Cert.Proof.Spec.score (nodeA m c) (relA m c) (Cert.Proof.Spec.rowOf ((hTab m) (ValueIdx.ix1 j)))
          (Cert.Proof.Spec.rowOf ((tTab m) (ValueIdx.ix1 j))) := by
  have hj : j.val < (cfgA m).N := by rw [N_eq (adm0 m)]; exact j.isLt
  have hjj : 128 * (j.val / 128) + j.val % 128 = j.val := by omega
  rw [outs_eq m c, arr_out m c (ValueIdx.ix1 j)]
  show accA m c (128 * (j.val / 128) + 127) (lastOfRow_lt m (ValueIdx.ix1 j))
      (ValueIdx.ix1 ⟨j.val % 128, Nat.mod_lt _ (by decide)⟩) = _
  rw [← accN_eq m c _ (lastOfRow_lt m (ValueIdx.ix1 j)), lane_score m c (j.val / 128) ⟨j.val % 128, Nat.mod_lt _ (by decide)⟩]
  show blkScore (rowsH m c (128 * (j.val / 128) + j.val % 128)) (rowsT m c (128 * (j.val / 128) + j.val % 128)) (relA m c) = _
  rw [hjj, rowsH_of_lt m c ⟨j.val, hj⟩, rowsT_of_lt m c ⟨j.val, hj⟩]
  exact step_score m c ⟨j.val, hj⟩

end Cert.Proof.KI4

end
-- ==== Proof.KI5Value.lean ====
/-
  Region 0, from blocks to the array.

  The output array has 65536 entries in 512 blocks of 128. The block of row `i` of the grid is written back once, after
  the row's last step, point `128 * i + 127`, and holds then what that step left in the staging buffer. The blocks tile
  the array, so after the run entry `j` of the array is lane `j % 128` of what the last step of row `j / 128` left. The
  relation row is an input: its array ends as it entered.
-/
import proofs.«414028_j29231547417249_2_alg».proof.Proof.KI5Data
import proofs.«414028_j29231547417249_2_alg».proof.Proof.KI5Points
import Idealize.ShloMosaic.Lib.Pipeline.Value
import Idealize.ShloMosaic.Lib.Pipeline.Cells
import Idealize.ShloMosaic.Lib.ValueIdx

noncomputable section

namespace Cert.Proof.KI5

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-! ## The last step of an entry's row -/

/-- The last point of the row of the grid that entry `j` of the output array belongs to is a point of the grid. -/
theorem lastOfRow_lt (j : S65536.Idx) : 128 * ((j 0).val / 128) + 127 < (cfgA m).N := by
  have hj : (j 0).val < 65536 := (j 0).isLt
  have hN : (cfgA m).N = 65536 := N_eq (adm0 m)
  omega

/-- The output block after a point depends on the point's number only. -/
theorem accA_congr (c : Dev nD) {k k' : ℕ} (h : k = k') (hk : k < (cfgA m).N) (hk' : k' < (cfgA m).N) :
    accA m c k hk = accA m c k' hk' := by
  subst h; rfl

/-- The whole output array after the run: entry `j` is lane `j % 128` of the block the last step of `j`'s row left. -/
def G1 (c : Dev nD) : S65536.Idx → Elt F .f32 := fun j =>
  accA m c (128 * ((j 0).val / 128) + 127) (lastOfRow_lt m j) (ValueIdx.ix1 ⟨(j 0).val % 128, Nat.mod_lt _ (by decide)⟩)

/-- An entry of that array named through a point and a lane. -/
theorem G1_of (c : Dev nD) (i : S65536.Idx) (k : ℕ) (hk : k < (cfgA m).N) (y : S128.Idx)
    (h1 : 128 * ((i 0).val / 128) + 127 = k) (h2 : (i 0).val % 128 = (y 0).val) : G1 m c i = accA m c k hk y := by
  subst h1
  unfold G1
  refine congrArg _ ?_
  rw [ValueIdx.eq_ix1 y]
  exact congrArg ValueIdx.ix1 (Fin.ext h2)

/-! ## What a flushing point writes back -/

/-- A point that writes the output block back is the last of its row, and what it writes is its block of the whole
    array above. -/
theorem flushed1_eq (c : Dev nD) (t : Fin (cfgA m).N) (hf : ((cfgA m).win 1).flush t = true) :
    (dat0 m c).flushed 1 t = (((cfgA m).win 1).blk t).view.read (Elt F) (G1 m c) := by
  have h127 : t.val % 128 = 127 := by rw [flush1] at hf; exact of_decide_eq_true hf
  refine funext fun (y : S128.Idx) => ?_
  have he := blk1_emb (adm0 m) t y
  have hy : (y 0).val < 128 := (y 0).isLt
  show accA m c t.val t.isLt y = G1 m c ((((cfgA m).win 1).blk t).view.emb y)
  exact (G1_of m c _ t.val t.isLt y (by rw [he]; omega) (by rw [he]; omega)).symm

/-! ## The blocks tile the array -/

/-- An entry of the array is in a point's block iff it is in the block's range. -/
theorem mem_blk1 (t : Fin (cfgA m).N) (i : S65536.Idx) :
    i ∈ (((cfgA m).win 1).blk t).view.set
      ↔ ∀ a : Fin 1, ((cfgA m).win 1).index t a * S128.size a ≤ (i a).val
          ∧ (i a).val < ((cfgA m).win 1).index t a * S128.size a + S128.size a := by
  have hset : (((cfgA m).win 1).blk t).view.set = (((cfgA m).win 1).rect t).set :=
    View.set_slice_whole main_v23 _
  rw [hset]
  exact Rect.mem_set_unit

/-- Every entry is in the block written back at the last point of its row. -/
theorem cover1 (i : S65536.Idx) :
    ∃ t : Fin (cfgA m).N, ((cfgA m).win 1).flush t = true ∧ i ∈ (((cfgA m).win 1).blk t).view.set := by
  have hi : (i 0).val < 65536 := (i 0).isLt
  refine ⟨⟨128 * ((i 0).val / 128) + 127, lastOfRow_lt m i⟩, ?_, ?_⟩
  · rw [flush1]; exact decide_eq_true (by show (128 * ((i 0).val / 128) + 127) % 128 = 127; omega)
  · rw [mem_blk1]
    intro a
    match a with
    | ⟨0, _⟩ =>
      have hx : ((cfgA m).win 1).index ⟨128 * ((i 0).val / 128) + 127, lastOfRow_lt m i⟩ (0 : Fin 1) = (i 0).val / 128 := by
        rw [index1]; show (128 * ((i 0).val / 128) + 127) / 128 = (i 0).val / 128; omega
      show ((cfgA m).win 1).index _ (0 : Fin 1) * 128 ≤ (i 0).val ∧ (i 0).val < ((cfgA m).win 1).index _ (0 : Fin 1) * 128 + 128
      rw [hx]; omega

/-! ## The arrays after the run -/

/-- What the run leaves in the output array at entry `j` is what the last step of `j`'s row left in lane `j % 128`. -/
theorem arr_out (c : Dev nD) (j : S65536.Idx) :
    (dat0 (F := F) m c).arrAt 1 (cfgA m).N j
      = accA m c (128 * ((j 0).val / 128) + 127) (lastOfRow_lt m j)
          (ValueIdx.ix1 ⟨(j 0).val % 128, Nat.mod_lt _ (by decide)⟩) :=
  congrFun ((dat0 m c).arrAt_eq_of_cover 1 (G1 m c) (flushed1_eq m c) (cover1 m)) j

/-- The relation row's array ends as it entered. -/
theorem arr_in (c : Dev nD) : (dat0 (F := F) m c).arrAt 0 (cfgA m).N = m ((c : Thread nD τ).loc main_arg1) :=
  (dat0 m c).arrAt_in 0 rfl _

end Cert.Proof.KI5

end
-- ==== Proof.KI5Final.lean ====
/-
  Region 0's output array at the ideal values is the specification's scores.

  Entry `j` of the output array is lane `j % 128` of the block the last step of row `j / 128` left. The block after
  each step is a fold over the steps of the row so far: a row's first step adds its contribution onto the zero block,
  every other step onto the block before. Step `t` contributes the score of the two table rows it gathered, on lane
  `t % 128` only. So after a row's last step lane `k` holds the score of the rows gathered at the row's step `k`: for
  entry `j` that is step `j` itself, whose rows are the rows of the node table that word `j` of the head table and
  word `j` of the tail table name.
-/
import proofs.«414028_j29231547417249_2_alg».proof.Proof.KI5Value
import proofs.«414028_j29231547417249_2_alg».proof.Proof.KernelMath
import proofs.«414028_j29231547417249_2_alg».proof.Proof.KIDats
import Idealize.ShloMosaic.Lib.Pipeline.FrameSuffix
import Idealize.ShloMosaic.Lib.ValueIdx

noncomputable section

namespace Cert.Proof.KI5

open Cert.KernelIdeal Cert.KernelIdeal.Gen Cert.KernelIdeal.GenP
open Idealize.ShloMosaic Idealize.ShloMosaic.TcCoe Idealize.SL.Sem
open Idealize.ShloMosaic.Pipeline (Dat)
open Cert.Proof.Spec Cert.Proof.KernelMath

variable (m : (ℓ : Loc nD τ sig) → Buf (Elt Ideal) ℓ)

/-! ## The steps of the run, numbered by the natural numbers -/

/-- The head row and the tail row gathered at step `t`; past the grid, any block. -/
def rowsH (c : Dev nD) (t : ℕ) : Vec Ideal S1x256 .f32 := if h : t < (cfgA m).N then hrow m c ⟨t, h⟩ else relA m c
def rowsT (c : Dev nD) (t : ℕ) : Vec Ideal S1x256 .f32 := if h : t < (cfgA m).N then trow m c ⟨t, h⟩ else relA m c

theorem rowsH_of_lt (c : Dev nD) (t : Fin (cfgA m).N) : rowsH m c t.val = hrow m c t := dif_pos t.isLt
theorem rowsT_of_lt (c : Dev nD) (t : Fin (cfgA m).N) : rowsT m c t.val = trow m c t := dif_pos t.isLt

/-- The body's step number `t`: the step's contribution added, on lane `t % 128`, to the block `prev`. -/
def stepN (c : Dev nD) (t : ℕ) (prev : Vec Ideal S128 .f32) : Vec Ideal S128 .f32 :=
  k5_pay2 (F := Ideal) (BitVec.ofNat 32 (t % 128)) (k5_pay6 (rowsH m c t) (rowsT m c t) (relA m c))
    (k5_pay7 (rowsH m c t) (rowsT m c t) (relA m c)) prev

/-- At a point of the grid it is the step the proof data names. -/
theorem stepN_eq (c : Dev nD) (t : Fin (cfgA m).N) (prev : Vec Ideal S128 .f32) :
    stepN m c t.val prev = stepv (hrow m c t) (trow m c t) (relA m c) (lane m t) prev := by
  unfold stepN stepv
  rw [rowsH_of_lt, rowsT_of_lt]
  show _ = k5_pay2 (BitVec.ofNat 32 (((cfgA m).grid.coords t) 1).val) _ _ prev
  rw [coords1 (adm0 m) t]

/-- The output block after step `t`, by the same recursion as the proof data's, over all the natural numbers. -/
def accN (c : Dev nD) : ℕ → Vec Ideal S128 .f32
  | Nat.zero => stepN m c Nat.zero (k5_pay1 (F := Ideal))
  | Nat.succ t =>
    if (t + 1) % 128 = 0 then stepN m c (t + 1) (k5_pay1 (F := Ideal)) else stepN m c (t + 1) (accN c t)

theorem accN_first (c : Dev nD) (t : ℕ) (h : t % 128 = 0) : accN m c t = stepN m c t (k5_pay1 (F := Ideal)) := by
  cases t with
  | zero => rfl
  | succ t => show (if (t + 1) % 128 = 0 then _ else _) = _; rw [if_pos h]

theorem accN_step (c : Dev nD) (t : ℕ) (h : t % 128 ≠ 0) : accN m c t = stepN m c t (accN m c (t - 1)) := by
  cases t with
  | zero => exact absurd (Nat.zero_mod 128) h
  | succ t => show (if (t + 1) % 128 = 0 then _ else _) = _; rw [if_neg h]; rfl

/-- On the grid it is the proof data's block. -/
theorem accN_eq (c : Dev nD) : ∀ (t : ℕ) (h : t < (cfgA m).N), accN m c t = accA m c t h
  | Nat.zero, h => by
    show stepN m c Nat.zero (k5_pay1 (F := Ideal)) = _
    exact (stepN_eq m c ⟨Nat.zero, h⟩ _).trans (accA_first m c ⟨Nat.zero, h⟩ (Nat.zero_mod 128)).symm
  | Nat.succ t, h => by
    have hp : t < (cfgA m).N := Nat.lt_of_succ_lt h
    show (if (t + 1) % 128 = 0 then _ else _) = _
    by_cases hz : (t + 1) % 128 = 0
    · rw [if_pos hz]
      exact (stepN_eq m c ⟨t + 1, h⟩ _).trans (accA_first m c ⟨t + 1, h⟩ hz).symm
    · rw [if_neg hz, accN_eq c t hp]
      exact (stepN_eq m c ⟨t + 1, h⟩ _).trans (accA_step m c ⟨t + 1, h⟩ hz hp).symm

/-- After the last step of row `i`, lane `k` holds the score of the rows gathered at the row's step `k`. -/
theorem lane_score (c : Dev nD) (i : ℕ) (k : Fin 128) :
    accN m c (128 * i + 127) (ValueIdx.ix1 k)
      = blkScore (rowsH m c (128 * i + k.val)) (rowsT m c (128 * i + k.val)) (relA m c) :=
  row_fold (rowsH m c) (rowsT m c) (relA m c) (accN m c)
    (fun t h y => congrFun (accN_first m c t h) y) (fun t h y => congrFun (accN_step m c t h) y) i k

/-! ## The rows a step gathers -/

/-- The table word read at point `t` is word `t` of the table. -/
theorem tword_at (T : IVec S65536 32) (t : Fin (cfgA m).N) :
    tword T ((cfgA m).grid.coords t) = T (ValueIdx.ix1 ⟨t.val, lt_N (adm0 m) t⟩) := by
  rw [tword_eq]
  exact congrArg T (congrArg ValueIdx.ix1 (Fin.ext (flat_eq (adm0 m) t)))

/-- The score of the two rows step `t` gathered is the specification's score of the rows that word `t` of the head
    table and word `t` of the tail table name. -/
theorem step_score (c : Dev nD) (t : Fin (cfgA m).N) :
    blkScore (hrow m c t) (trow m c t) (relA m c)
      = Cert.Proof.Spec.score (nodeA m c) (relA m c) (rowOf ((hTab m) (ValueIdx.ix1 ⟨t.val, lt_N (adm0 m) t⟩)))
          (rowOf ((tTab m) (ValueIdx.ix1 ⟨t.val, lt_N (adm0 m) t⟩))) := by
  rw [← tword_at m (hTab m) t, ← tword_at m (tTab m) t]
  exact blkScore_rows (nodeA m c) (relA m c) _ _ _ _ (fun _ => rfl) (fun _ => rfl)

/-! ## The output array -/

/-- What region 0 leaves in its output array is the fold of its write-backs. -/
theorem outs_eq (c : Dev nD) :
    (Cert.Proof.KI.outs m 16 main_v23 c : Vec Ideal S65536 .f32) = (dat0 m c).arrAt 1 (cfgA m).N :=
  Pipeline.withArrays_arr spec5 (launch5 (F := Ideal)).win.arr_inj c _ (fun w => (dat0 m c).arrAt w (cfgA m).N) 1

/-- Entry `j` of what region 0 leaves in its output array is the score of the rows the `j`-th words of its two tables
    name. -/
theorem out_read (c : Dev nD) (j : Fin 65536) :
    (Cert.Proof.KI.outs m 16 main_v23 c : Vec Ideal S65536 .f32) (ValueIdx.ix1 j)
      = Cert.Proof.Spec.score (nodeA m c) (relA m c) (Cert.Proof.Spec.rowOf ((hTab m) (ValueIdx.ix1 j)))
          (Cert.Proof.Spec.rowOf ((tTab m) (ValueIdx.ix1 j))) := by
  have hj : j.val < (cfgA m).N := by rw [N_eq (adm0 m)]; exact j.isLt
  have hjj : 128 * (j.val / 128) + j.val % 128 = j.val := by omega
  rw [outs_eq m c, arr_out m c (ValueIdx.ix1 j)]
  show accA m c (128 * (j.val / 128) + 127) (lastOfRow_lt m (ValueIdx.ix1 j))
      (ValueIdx.ix1 ⟨j.val % 128, Nat.mod_lt _ (by decide)⟩) = _
  rw [← accN_eq m c _ (lastOfRow_lt m (ValueIdx.ix1 j)), lane_score m c (j.val / 128) ⟨j.val % 128, Nat.mod_lt _ (by decide)⟩]
  show blkScore (rowsH m c (128 * (j.val / 128) + j.val % 128)) (rowsT m c (128 * (j.val / 128) + j.val % 128)) (relA m c) = _
  rw [hjj, rowsH_of_lt m c ⟨j.val, hj⟩, rowsT_of_lt m c ⟨j.val, hj⟩]
  exact step_score m c ⟨j.val, hj⟩

end Cert.Proof.KI5

end
-- ==== Proof.KI6Value.lean ====
/-
  Region 0, from blocks to the array.

  The output array has 65536 entries in 512 blocks of 128. The block of row `i` of the grid is written back once, after
  the row's last step, point `128 * i + 127`, and holds then what that step left in the staging buffer. The blocks tile
  the array, so after the run entry `j` of the array is lane `j % 128` of what the last step of row `j / 128` left. The
  relation row is an input: its array ends as it entered.
-/
import proofs.«414028_j29231547417249_2_alg».proof.Proof.KI6Data
import proofs.«414028_j29231547417249_2_alg».proof.Proof.KI6Points
import Idealize.ShloMosaic.Lib.Pipeline.Value
import Idealize.ShloMosaic.Lib.Pipeline.Cells
import Idealize.ShloMosaic.Lib.ValueIdx

noncomputable section

namespace Cert.Proof.KI6

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-! ## The last step of an entry's row -/

/-- The last point of the row of the grid that entry `j` of the output array belongs to is a point of the grid. -/
theorem lastOfRow_lt (j : S65536.Idx) : 128 * ((j 0).val / 128) + 127 < (cfgA m).N := by
  have hj : (j 0).val < 65536 := (j 0).isLt
  have hN : (cfgA m).N = 65536 := N_eq (adm0 m)
  omega

/-- The output block after a point depends on the point's number only. -/
theorem accA_congr (c : Dev nD) {k k' : ℕ} (h : k = k') (hk : k < (cfgA m).N) (hk' : k' < (cfgA m).N) :
    accA m c k hk = accA m c k' hk' := by
  subst h; rfl

/-- The whole output array after the run: entry `j` is lane `j % 128` of the block the last step of `j`'s row left. -/
def G1 (c : Dev nD) : S65536.Idx → Elt F .f32 := fun j =>
  accA m c (128 * ((j 0).val / 128) + 127) (lastOfRow_lt m j) (ValueIdx.ix1 ⟨(j 0).val % 128, Nat.mod_lt _ (by decide)⟩)

/-- An entry of that array named through a point and a lane. -/
theorem G1_of (c : Dev nD) (i : S65536.Idx) (k : ℕ) (hk : k < (cfgA m).N) (y : S128.Idx)
    (h1 : 128 * ((i 0).val / 128) + 127 = k) (h2 : (i 0).val % 128 = (y 0).val) : G1 m c i = accA m c k hk y := by
  subst h1
  unfold G1
  refine congrArg _ ?_
  rw [ValueIdx.eq_ix1 y]
  exact congrArg ValueIdx.ix1 (Fin.ext h2)

/-! ## What a flushing point writes back -/

/-- A point that writes the output block back is the last of its row, and what it writes is its block of the whole
    array above. -/
theorem flushed1_eq (c : Dev nD) (t : Fin (cfgA m).N) (hf : ((cfgA m).win 1).flush t = true) :
    (dat0 m c).flushed 1 t = (((cfgA m).win 1).blk t).view.read (Elt F) (G1 m c) := by
  have h127 : t.val % 128 = 127 := by rw [flush1] at hf; exact of_decide_eq_true hf
  refine funext fun (y : S128.Idx) => ?_
  have he := blk1_emb (adm0 m) t y
  have hy : (y 0).val < 128 := (y 0).isLt
  show accA m c t.val t.isLt y = G1 m c ((((cfgA m).win 1).blk t).view.emb y)
  exact (G1_of m c _ t.val t.isLt y (by rw [he]; omega) (by rw [he]; omega)).symm

/-! ## The blocks tile the array -/

/-- An entry of the array is in a point's block iff it is in the block's range. -/
theorem mem_blk1 (t : Fin (cfgA m).N) (i : S65536.Idx) :
    i ∈ (((cfgA m).win 1).blk t).view.set
      ↔ ∀ a : Fin 1, ((cfgA m).win 1).index t a * S128.size a ≤ (i a).val
          ∧ (i a).val < ((cfgA m).win 1).index t a * S128.size a + S128.size a := by
  have hset : (((cfgA m).win 1).blk t).view.set = (((cfgA m).win 1).rect t).set :=
    View.set_slice_whole main_v26 _
  rw [hset]
  exact Rect.mem_set_unit

/-- Every entry is in the block written back at the last point of its row. -/
theorem cover1 (i : S65536.Idx) :
    ∃ t : Fin (cfgA m).N, ((cfgA m).win 1).flush t = true ∧ i ∈ (((cfgA m).win 1).blk t).view.set := by
  have hi : (i 0).val < 65536 := (i 0).isLt
  refine ⟨⟨128 * ((i 0).val / 128) + 127, lastOfRow_lt m i⟩, ?_, ?_⟩
  · rw [flush1]; exact decide_eq_true (by show (128 * ((i 0).val / 128) + 127) % 128 = 127; omega)
  · rw [mem_blk1]
    intro a
    match a with
    | ⟨0, _⟩ =>
      have hx : ((cfgA m).win 1).index ⟨128 * ((i 0).val / 128) + 127, lastOfRow_lt m i⟩ (0 : Fin 1) = (i 0).val / 128 := by
        rw [index1]; show (128 * ((i 0).val / 128) + 127) / 128 = (i 0).val / 128; omega
      show ((cfgA m).win 1).index _ (0 : Fin 1) * 128 ≤ (i 0).val ∧ (i 0).val < ((cfgA m).win 1).index _ (0 : Fin 1) * 128 + 128
      rw [hx]; omega

/-! ## The arrays after the run -/

/-- What the run leaves in the output array at entry `j` is what the last step of `j`'s row left in lane `j % 128`. -/
theorem arr_out (c : Dev nD) (j : S65536.Idx) :
    (dat0 (F := F) m c).arrAt 1 (cfgA m).N j
      = accA m c (128 * ((j 0).val / 128) + 127) (lastOfRow_lt m j)
          (ValueIdx.ix1 ⟨(j 0).val % 128, Nat.mod_lt _ (by decide)⟩) :=
  congrFun ((dat0 m c).arrAt_eq_of_cover 1 (G1 m c) (flushed1_eq m c) (cover1 m)) j

/-- The relation row's array ends as it entered. -/
theorem arr_in (c : Dev nD) : (dat0 (F := F) m c).arrAt 0 (cfgA m).N = m ((c : Thread nD τ).loc main_arg1) :=
  (dat0 m c).arrAt_in 0 rfl _

end Cert.Proof.KI6

end
-- ==== Proof.KI6Final.lean ====
/-
  Region 0's output array at the ideal values is the specification's scores.

  Entry `j` of the output array is lane `j % 128` of the block the last step of row `j / 128` left. The block after
  each step is a fold over the steps of the row so far: a row's first step adds its contribution onto the zero block,
  every other step onto the block before. Step `t` contributes the score of the two table rows it gathered, on lane
  `t % 128` only. So after a row's last step lane `k` holds the score of the rows gathered at the row's step `k`: for
  entry `j` that is step `j` itself, whose rows are the rows of the node table that word `j` of the head table and
  word `j` of the tail table name.
-/
import proofs.«414028_j29231547417249_2_alg».proof.Proof.KI6Value
import proofs.«414028_j29231547417249_2_alg».proof.Proof.KernelMath
import proofs.«414028_j29231547417249_2_alg».proof.Proof.KIDats
import Idealize.ShloMosaic.Lib.Pipeline.FrameSuffix
import Idealize.ShloMosaic.Lib.ValueIdx

noncomputable section

namespace Cert.Proof.KI6

open Cert.KernelIdeal Cert.KernelIdeal.Gen Cert.KernelIdeal.GenP
open Idealize.ShloMosaic Idealize.ShloMosaic.TcCoe Idealize.SL.Sem
open Idealize.ShloMosaic.Pipeline (Dat)
open Cert.Proof.Spec Cert.Proof.KernelMath

variable (m : (ℓ : Loc nD τ sig) → Buf (Elt Ideal) ℓ)

/-! ## The steps of the run, numbered by the natural numbers -/

/-- The head row and the tail row gathered at step `t`; past the grid, any block. -/
def rowsH (c : Dev nD) (t : ℕ) : Vec Ideal S1x256 .f32 := if h : t < (cfgA m).N then hrow m c ⟨t, h⟩ else relA m c
def rowsT (c : Dev nD) (t : ℕ) : Vec Ideal S1x256 .f32 := if h : t < (cfgA m).N then trow m c ⟨t, h⟩ else relA m c

theorem rowsH_of_lt (c : Dev nD) (t : Fin (cfgA m).N) : rowsH m c t.val = hrow m c t := dif_pos t.isLt
theorem rowsT_of_lt (c : Dev nD) (t : Fin (cfgA m).N) : rowsT m c t.val = trow m c t := dif_pos t.isLt

/-- The body's step number `t`: the step's contribution added, on lane `t % 128`, to the block `prev`. -/
def stepN (c : Dev nD) (t : ℕ) (prev : Vec Ideal S128 .f32) : Vec Ideal S128 .f32 :=
  k6_pay2 (F := Ideal) (BitVec.ofNat 32 (t % 128)) (k6_pay6 (rowsH m c t) (rowsT m c t) (relA m c))
    (k6_pay7 (rowsH m c t) (rowsT m c t) (relA m c)) prev

/-- At a point of the grid it is the step the proof data names. -/
theorem stepN_eq (c : Dev nD) (t : Fin (cfgA m).N) (prev : Vec Ideal S128 .f32) :
    stepN m c t.val prev = stepv (hrow m c t) (trow m c t) (relA m c) (lane m t) prev := by
  unfold stepN stepv
  rw [rowsH_of_lt, rowsT_of_lt]
  show _ = k6_pay2 (BitVec.ofNat 32 (((cfgA m).grid.coords t) 1).val) _ _ prev
  rw [coords1 (adm0 m) t]

/-- The output block after step `t`, by the same recursion as the proof data's, over all the natural numbers. -/
def accN (c : Dev nD) : ℕ → Vec Ideal S128 .f32
  | Nat.zero => stepN m c Nat.zero (k6_pay1 (F := Ideal))
  | Nat.succ t =>
    if (t + 1) % 128 = 0 then stepN m c (t + 1) (k6_pay1 (F := Ideal)) else stepN m c (t + 1) (accN c t)

theorem accN_first (c : Dev nD) (t : ℕ) (h : t % 128 = 0) : accN m c t = stepN m c t (k6_pay1 (F := Ideal)) := by
  cases t with
  | zero => rfl
  | succ t => show (if (t + 1) % 128 = 0 then _ else _) = _; rw [if_pos h]

theorem accN_step (c : Dev nD) (t : ℕ) (h : t % 128 ≠ 0) : accN m c t = stepN m c t (accN m c (t - 1)) := by
  cases t with
  | zero => exact absurd (Nat.zero_mod 128) h
  | succ t => show (if (t + 1) % 128 = 0 then _ else _) = _; rw [if_neg h]; rfl

/-- On the grid it is the proof data's block. -/
theorem accN_eq (c : Dev nD) : ∀ (t : ℕ) (h : t < (cfgA m).N), accN m c t = accA m c t h
  | Nat.zero, h => by
    show stepN m c Nat.zero (k6_pay1 (F := Ideal)) = _
    exact (stepN_eq m c ⟨Nat.zero, h⟩ _).trans (accA_first m c ⟨Nat.zero, h⟩ (Nat.zero_mod 128)).symm
  | Nat.succ t, h => by
    have hp : t < (cfgA m).N := Nat.lt_of_succ_lt h
    show (if (t + 1) % 128 = 0 then _ else _) = _
    by_cases hz : (t + 1) % 128 = 0
    · rw [if_pos hz]
      exact (stepN_eq m c ⟨t + 1, h⟩ _).trans (accA_first m c ⟨t + 1, h⟩ hz).symm
    · rw [if_neg hz, accN_eq c t hp]
      exact (stepN_eq m c ⟨t + 1, h⟩ _).trans (accA_step m c ⟨t + 1, h⟩ hz hp).symm

/-- After the last step of row `i`, lane `k` holds the score of the rows gathered at the row's step `k`. -/
theorem lane_score (c : Dev nD) (i : ℕ) (k : Fin 128) :
    accN m c (128 * i + 127) (ValueIdx.ix1 k)
      = blkScore (rowsH m c (128 * i + k.val)) (rowsT m c (128 * i + k.val)) (relA m c) :=
  row_fold (rowsH m c) (rowsT m c) (relA m c) (accN m c)
    (fun t h y => congrFun (accN_first m c t h) y) (fun t h y => congrFun (accN_step m c t h) y) i k

/-! ## The rows a step gathers -/

/-- The table word read at point `t` is word `t` of the table. -/
theorem tword_at (T : IVec S65536 32) (t : Fin (cfgA m).N) :
    tword T ((cfgA m).grid.coords t) = T (ValueIdx.ix1 ⟨t.val, lt_N (adm0 m) t⟩) := by
  rw [tword_eq]
  exact congrArg T (congrArg ValueIdx.ix1 (Fin.ext (flat_eq (adm0 m) t)))

/-- The score of the two rows step `t` gathered is the specification's score of the rows that word `t` of the head
    table and word `t` of the tail table name. -/
theorem step_score (c : Dev nD) (t : Fin (cfgA m).N) :
    blkScore (hrow m c t) (trow m c t) (relA m c)
      = Cert.Proof.Spec.score (nodeA m c) (relA m c) (rowOf ((hTab m) (ValueIdx.ix1 ⟨t.val, lt_N (adm0 m) t⟩)))
          (rowOf ((tTab m) (ValueIdx.ix1 ⟨t.val, lt_N (adm0 m) t⟩))) := by
  rw [← tword_at m (hTab m) t, ← tword_at m (tTab m) t]
  exact blkScore_rows (nodeA m c) (relA m c) _ _ _ _ (fun _ => rfl) (fun _ => rfl)

/-! ## The output array -/

/-- What region 0 leaves in its output array is the fold of its write-backs. -/
theorem outs_eq (c : Dev nD) :
    (Cert.Proof.KI.outs m 18 main_v26 c : Vec Ideal S65536 .f32) = (dat0 m c).arrAt 1 (cfgA m).N :=
  Pipeline.withArrays_arr spec6 (launch6 (F := Ideal)).win.arr_inj c _ (fun w => (dat0 m c).arrAt w (cfgA m).N) 1

/-- Entry `j` of what region 0 leaves in its output array is the score of the rows the `j`-th words of its two tables
    name. -/
theorem out_read (c : Dev nD) (j : Fin 65536) :
    (Cert.Proof.KI.outs m 18 main_v26 c : Vec Ideal S65536 .f32) (ValueIdx.ix1 j)
      = Cert.Proof.Spec.score (nodeA m c) (relA m c) (Cert.Proof.Spec.rowOf ((hTab m) (ValueIdx.ix1 j)))
          (Cert.Proof.Spec.rowOf ((tTab m) (ValueIdx.ix1 j))) := by
  have hj : j.val < (cfgA m).N := by rw [N_eq (adm0 m)]; exact j.isLt
  have hjj : 128 * (j.val / 128) + j.val % 128 = j.val := by omega
  rw [outs_eq m c, arr_out m c (ValueIdx.ix1 j)]
  show accA m c (128 * (j.val / 128) + 127) (lastOfRow_lt m (ValueIdx.ix1 j))
      (ValueIdx.ix1 ⟨j.val % 128, Nat.mod_lt _ (by decide)⟩) = _
  rw [← accN_eq m c _ (lastOfRow_lt m (ValueIdx.ix1 j)), lane_score m c (j.val / 128) ⟨j.val % 128, Nat.mod_lt _ (by decide)⟩]
  show blkScore (rowsH m c (128 * (j.val / 128) + j.val % 128)) (rowsT m c (128 * (j.val / 128) + j.val % 128)) (relA m c) = _
  rw [hjj, rowsH_of_lt m c ⟨j.val, hj⟩, rowsT_of_lt m c ⟨j.val, hj⟩]
  exact step_score m c ⟨j.val, hj⟩

end Cert.Proof.KI6

end
-- ==== Proof.KI7Value.lean ====
/-
  Region 0, from blocks to the array.

  The output array has 65536 entries in 512 blocks of 128. The block of row `i` of the grid is written back once, after
  the row's last step, point `128 * i + 127`, and holds then what that step left in the staging buffer. The blocks tile
  the array, so after the run entry `j` of the array is lane `j % 128` of what the last step of row `j / 128` left. The
  relation row is an input: its array ends as it entered.
-/
import proofs.«414028_j29231547417249_2_alg».proof.Proof.KI7Data
import proofs.«414028_j29231547417249_2_alg».proof.Proof.KI7Points
import Idealize.ShloMosaic.Lib.Pipeline.Value
import Idealize.ShloMosaic.Lib.Pipeline.Cells
import Idealize.ShloMosaic.Lib.ValueIdx

noncomputable section

namespace Cert.Proof.KI7

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-! ## The last step of an entry's row -/

/-- The last point of the row of the grid that entry `j` of the output array belongs to is a point of the grid. -/
theorem lastOfRow_lt (j : S65536.Idx) : 128 * ((j 0).val / 128) + 127 < (cfgA m).N := by
  have hj : (j 0).val < 65536 := (j 0).isLt
  have hN : (cfgA m).N = 65536 := N_eq (adm0 m)
  omega

/-- The output block after a point depends on the point's number only. -/
theorem accA_congr (c : Dev nD) {k k' : ℕ} (h : k = k') (hk : k < (cfgA m).N) (hk' : k' < (cfgA m).N) :
    accA m c k hk = accA m c k' hk' := by
  subst h; rfl

/-- The whole output array after the run: entry `j` is lane `j % 128` of the block the last step of `j`'s row left. -/
def G1 (c : Dev nD) : S65536.Idx → Elt F .f32 := fun j =>
  accA m c (128 * ((j 0).val / 128) + 127) (lastOfRow_lt m j) (ValueIdx.ix1 ⟨(j 0).val % 128, Nat.mod_lt _ (by decide)⟩)

/-- An entry of that array named through a point and a lane. -/
theorem G1_of (c : Dev nD) (i : S65536.Idx) (k : ℕ) (hk : k < (cfgA m).N) (y : S128.Idx)
    (h1 : 128 * ((i 0).val / 128) + 127 = k) (h2 : (i 0).val % 128 = (y 0).val) : G1 m c i = accA m c k hk y := by
  subst h1
  unfold G1
  refine congrArg _ ?_
  rw [ValueIdx.eq_ix1 y]
  exact congrArg ValueIdx.ix1 (Fin.ext h2)

/-! ## What a flushing point writes back -/

/-- A point that writes the output block back is the last of its row, and what it writes is its block of the whole
    array above. -/
theorem flushed1_eq (c : Dev nD) (t : Fin (cfgA m).N) (hf : ((cfgA m).win 1).flush t = true) :
    (dat0 m c).flushed 1 t = (((cfgA m).win 1).blk t).view.read (Elt F) (G1 m c) := by
  have h127 : t.val % 128 = 127 := by rw [flush1] at hf; exact of_decide_eq_true hf
  refine funext fun (y : S128.Idx) => ?_
  have he := blk1_emb (adm0 m) t y
  have hy : (y 0).val < 128 := (y 0).isLt
  show accA m c t.val t.isLt y = G1 m c ((((cfgA m).win 1).blk t).view.emb y)
  exact (G1_of m c _ t.val t.isLt y (by rw [he]; omega) (by rw [he]; omega)).symm

/-! ## The blocks tile the array -/

/-- An entry of the array is in a point's block iff it is in the block's range. -/
theorem mem_blk1 (t : Fin (cfgA m).N) (i : S65536.Idx) :
    i ∈ (((cfgA m).win 1).blk t).view.set
      ↔ ∀ a : Fin 1, ((cfgA m).win 1).index t a * S128.size a ≤ (i a).val
          ∧ (i a).val < ((cfgA m).win 1).index t a * S128.size a + S128.size a := by
  have hset : (((cfgA m).win 1).blk t).view.set = (((cfgA m).win 1).rect t).set :=
    View.set_slice_whole main_v29 _
  rw [hset]
  exact Rect.mem_set_unit

/-- Every entry is in the block written back at the last point of its row. -/
theorem cover1 (i : S65536.Idx) :
    ∃ t : Fin (cfgA m).N, ((cfgA m).win 1).flush t = true ∧ i ∈ (((cfgA m).win 1).blk t).view.set := by
  have hi : (i 0).val < 65536 := (i 0).isLt
  refine ⟨⟨128 * ((i 0).val / 128) + 127, lastOfRow_lt m i⟩, ?_, ?_⟩
  · rw [flush1]; exact decide_eq_true (by show (128 * ((i 0).val / 128) + 127) % 128 = 127; omega)
  · rw [mem_blk1]
    intro a
    match a with
    | ⟨0, _⟩ =>
      have hx : ((cfgA m).win 1).index ⟨128 * ((i 0).val / 128) + 127, lastOfRow_lt m i⟩ (0 : Fin 1) = (i 0).val / 128 := by
        rw [index1]; show (128 * ((i 0).val / 128) + 127) / 128 = (i 0).val / 128; omega
      show ((cfgA m).win 1).index _ (0 : Fin 1) * 128 ≤ (i 0).val ∧ (i 0).val < ((cfgA m).win 1).index _ (0 : Fin 1) * 128 + 128
      rw [hx]; omega

/-! ## The arrays after the run -/

/-- What the run leaves in the output array at entry `j` is what the last step of `j`'s row left in lane `j % 128`. -/
theorem arr_out (c : Dev nD) (j : S65536.Idx) :
    (dat0 (F := F) m c).arrAt 1 (cfgA m).N j
      = accA m c (128 * ((j 0).val / 128) + 127) (lastOfRow_lt m j)
          (ValueIdx.ix1 ⟨(j 0).val % 128, Nat.mod_lt _ (by decide)⟩) :=
  congrFun ((dat0 m c).arrAt_eq_of_cover 1 (G1 m c) (flushed1_eq m c) (cover1 m)) j

/-- The relation row's array ends as it entered. -/
theorem arr_in (c : Dev nD) : (dat0 (F := F) m c).arrAt 0 (cfgA m).N = m ((c : Thread nD τ).loc main_arg1) :=
  (dat0 m c).arrAt_in 0 rfl _

end Cert.Proof.KI7

end
-- ==== Proof.KI7Final.lean ====
/-
  Region 0's output array at the ideal values is the specification's scores.

  Entry `j` of the output array is lane `j % 128` of the block the last step of row `j / 128` left. The block after
  each step is a fold over the steps of the row so far: a row's first step adds its contribution onto the zero block,
  every other step onto the block before. Step `t` contributes the score of the two table rows it gathered, on lane
  `t % 128` only. So after a row's last step lane `k` holds the score of the rows gathered at the row's step `k`: for
  entry `j` that is step `j` itself, whose rows are the rows of the node table that word `j` of the head table and
  word `j` of the tail table name.
-/
import proofs.«414028_j29231547417249_2_alg».proof.Proof.KI7Value
import proofs.«414028_j29231547417249_2_alg».proof.Proof.KernelMath
import proofs.«414028_j29231547417249_2_alg».proof.Proof.KIDats
import Idealize.ShloMosaic.Lib.Pipeline.FrameSuffix
import Idealize.ShloMosaic.Lib.ValueIdx

noncomputable section

namespace Cert.Proof.KI7

open Cert.KernelIdeal Cert.KernelIdeal.Gen Cert.KernelIdeal.GenP
open Idealize.ShloMosaic Idealize.ShloMosaic.TcCoe Idealize.SL.Sem
open Idealize.ShloMosaic.Pipeline (Dat)
open Cert.Proof.Spec Cert.Proof.KernelMath

variable (m : (ℓ : Loc nD τ sig) → Buf (Elt Ideal) ℓ)

/-! ## The steps of the run, numbered by the natural numbers -/

/-- The head row and the tail row gathered at step `t`; past the grid, any block. -/
def rowsH (c : Dev nD) (t : ℕ) : Vec Ideal S1x256 .f32 := if h : t < (cfgA m).N then hrow m c ⟨t, h⟩ else relA m c
def rowsT (c : Dev nD) (t : ℕ) : Vec Ideal S1x256 .f32 := if h : t < (cfgA m).N then trow m c ⟨t, h⟩ else relA m c

theorem rowsH_of_lt (c : Dev nD) (t : Fin (cfgA m).N) : rowsH m c t.val = hrow m c t := dif_pos t.isLt
theorem rowsT_of_lt (c : Dev nD) (t : Fin (cfgA m).N) : rowsT m c t.val = trow m c t := dif_pos t.isLt

/-- The body's step number `t`: the step's contribution added, on lane `t % 128`, to the block `prev`. -/
def stepN (c : Dev nD) (t : ℕ) (prev : Vec Ideal S128 .f32) : Vec Ideal S128 .f32 :=
  k7_pay2 (F := Ideal) (BitVec.ofNat 32 (t % 128)) (k7_pay6 (rowsH m c t) (rowsT m c t) (relA m c))
    (k7_pay7 (rowsH m c t) (rowsT m c t) (relA m c)) prev

/-- At a point of the grid it is the step the proof data names. -/
theorem stepN_eq (c : Dev nD) (t : Fin (cfgA m).N) (prev : Vec Ideal S128 .f32) :
    stepN m c t.val prev = stepv (hrow m c t) (trow m c t) (relA m c) (lane m t) prev := by
  unfold stepN stepv
  rw [rowsH_of_lt, rowsT_of_lt]
  show _ = k7_pay2 (BitVec.ofNat 32 (((cfgA m).grid.coords t) 1).val) _ _ prev
  rw [coords1 (adm0 m) t]

/-- The output block after step `t`, by the same recursion as the proof data's, over all the natural numbers. -/
def accN (c : Dev nD) : ℕ → Vec Ideal S128 .f32
  | Nat.zero => stepN m c Nat.zero (k7_pay1 (F := Ideal))
  | Nat.succ t =>
    if (t + 1) % 128 = 0 then stepN m c (t + 1) (k7_pay1 (F := Ideal)) else stepN m c (t + 1) (accN c t)

theorem accN_first (c : Dev nD) (t : ℕ) (h : t % 128 = 0) : accN m c t = stepN m c t (k7_pay1 (F := Ideal)) := by
  cases t with
  | zero => rfl
  | succ t => show (if (t + 1) % 128 = 0 then _ else _) = _; rw [if_pos h]

theorem accN_step (c : Dev nD) (t : ℕ) (h : t % 128 ≠ 0) : accN m c t = stepN m c t (accN m c (t - 1)) := by
  cases t with
  | zero => exact absurd (Nat.zero_mod 128) h
  | succ t => show (if (t + 1) % 128 = 0 then _ else _) = _; rw [if_neg h]; rfl

/-- On the grid it is the proof data's block. -/
theorem accN_eq (c : Dev nD) : ∀ (t : ℕ) (h : t < (cfgA m).N), accN m c t = accA m c t h
  | Nat.zero, h => by
    show stepN m c Nat.zero (k7_pay1 (F := Ideal)) = _
    exact (stepN_eq m c ⟨Nat.zero, h⟩ _).trans (accA_first m c ⟨Nat.zero, h⟩ (Nat.zero_mod 128)).symm
  | Nat.succ t, h => by
    have hp : t < (cfgA m).N := Nat.lt_of_succ_lt h
    show (if (t + 1) % 128 = 0 then _ else _) = _
    by_cases hz : (t + 1) % 128 = 0
    · rw [if_pos hz]
      exact (stepN_eq m c ⟨t + 1, h⟩ _).trans (accA_first m c ⟨t + 1, h⟩ hz).symm
    · rw [if_neg hz, accN_eq c t hp]
      exact (stepN_eq m c ⟨t + 1, h⟩ _).trans (accA_step m c ⟨t + 1, h⟩ hz hp).symm

/-- After the last step of row `i`, lane `k` holds the score of the rows gathered at the row's step `k`. -/
theorem lane_score (c : Dev nD) (i : ℕ) (k : Fin 128) :
    accN m c (128 * i + 127) (ValueIdx.ix1 k)
      = blkScore (rowsH m c (128 * i + k.val)) (rowsT m c (128 * i + k.val)) (relA m c) :=
  row_fold (rowsH m c) (rowsT m c) (relA m c) (accN m c)
    (fun t h y => congrFun (accN_first m c t h) y) (fun t h y => congrFun (accN_step m c t h) y) i k

/-! ## The rows a step gathers -/

/-- The table word read at point `t` is word `t` of the table. -/
theorem tword_at (T : IVec S65536 32) (t : Fin (cfgA m).N) :
    tword T ((cfgA m).grid.coords t) = T (ValueIdx.ix1 ⟨t.val, lt_N (adm0 m) t⟩) := by
  rw [tword_eq]
  exact congrArg T (congrArg ValueIdx.ix1 (Fin.ext (flat_eq (adm0 m) t)))

/-- The score of the two rows step `t` gathered is the specification's score of the rows that word `t` of the head
    table and word `t` of the tail table name. -/
theorem step_score (c : Dev nD) (t : Fin (cfgA m).N) :
    blkScore (hrow m c t) (trow m c t) (relA m c)
      = Cert.Proof.Spec.score (nodeA m c) (relA m c) (rowOf ((hTab m) (ValueIdx.ix1 ⟨t.val, lt_N (adm0 m) t⟩)))
          (rowOf ((tTab m) (ValueIdx.ix1 ⟨t.val, lt_N (adm0 m) t⟩))) := by
  rw [← tword_at m (hTab m) t, ← tword_at m (tTab m) t]
  exact blkScore_rows (nodeA m c) (relA m c) _ _ _ _ (fun _ => rfl) (fun _ => rfl)

/-! ## The output array -/

/-- What region 0 leaves in its output array is the fold of its write-backs. -/
theorem outs_eq (c : Dev nD) :
    (Cert.Proof.KI.outs m 20 main_v29 c : Vec Ideal S65536 .f32) = (dat0 m c).arrAt 1 (cfgA m).N :=
  Pipeline.withArrays_arr spec7 (launch7 (F := Ideal)).win.arr_inj c _ (fun w => (dat0 m c).arrAt w (cfgA m).N) 1

/-- Entry `j` of what region 0 leaves in its output array is the score of the rows the `j`-th words of its two tables
    name. -/
theorem out_read (c : Dev nD) (j : Fin 65536) :
    (Cert.Proof.KI.outs m 20 main_v29 c : Vec Ideal S65536 .f32) (ValueIdx.ix1 j)
      = Cert.Proof.Spec.score (nodeA m c) (relA m c) (Cert.Proof.Spec.rowOf ((hTab m) (ValueIdx.ix1 j)))
          (Cert.Proof.Spec.rowOf ((tTab m) (ValueIdx.ix1 j))) := by
  have hj : j.val < (cfgA m).N := by rw [N_eq (adm0 m)]; exact j.isLt
  have hjj : 128 * (j.val / 128) + j.val % 128 = j.val := by omega
  rw [outs_eq m c, arr_out m c (ValueIdx.ix1 j)]
  show accA m c (128 * (j.val / 128) + 127) (lastOfRow_lt m (ValueIdx.ix1 j))
      (ValueIdx.ix1 ⟨j.val % 128, Nat.mod_lt _ (by decide)⟩) = _
  rw [← accN_eq m c _ (lastOfRow_lt m (ValueIdx.ix1 j)), lane_score m c (j.val / 128) ⟨j.val % 128, Nat.mod_lt _ (by decide)⟩]
  show blkScore (rowsH m c (128 * (j.val / 128) + j.val % 128)) (rowsT m c (128 * (j.val / 128) + j.val % 128)) (relA m c) = _
  rw [hjj, rowsH_of_lt m c ⟨j.val, hj⟩, rowsT_of_lt m c ⟨j.val, hj⟩]
  exact step_score m c ⟨j.val, hj⟩

end Cert.Proof.KI7

end
-- ==== Proof.KI8Value.lean ====
/-
  Region 0, from blocks to the array.

  The output array has 65536 entries in 512 blocks of 128. The block of row `i` of the grid is written back once, after
  the row's last step, point `128 * i + 127`, and holds then what that step left in the staging buffer. The blocks tile
  the array, so after the run entry `j` of the array is lane `j % 128` of what the last step of row `j / 128` left. The
  relation row is an input: its array ends as it entered.
-/
import proofs.«414028_j29231547417249_2_alg».proof.Proof.KI8Data
import proofs.«414028_j29231547417249_2_alg».proof.Proof.KI8Points
import Idealize.ShloMosaic.Lib.Pipeline.Value
import Idealize.ShloMosaic.Lib.Pipeline.Cells
import Idealize.ShloMosaic.Lib.ValueIdx

noncomputable section

namespace Cert.Proof.KI8

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-! ## The last step of an entry's row -/

/-- The last point of the row of the grid that entry `j` of the output array belongs to is a point of the grid. -/
theorem lastOfRow_lt (j : S65536.Idx) : 128 * ((j 0).val / 128) + 127 < (cfgA m).N := by
  have hj : (j 0).val < 65536 := (j 0).isLt
  have hN : (cfgA m).N = 65536 := N_eq (adm0 m)
  omega

/-- The output block after a point depends on the point's number only. -/
theorem accA_congr (c : Dev nD) {k k' : ℕ} (h : k = k') (hk : k < (cfgA m).N) (hk' : k' < (cfgA m).N) :
    accA m c k hk = accA m c k' hk' := by
  subst h; rfl

/-- The whole output array after the run: entry `j` is lane `j % 128` of the block the last step of `j`'s row left. -/
def G1 (c : Dev nD) : S65536.Idx → Elt F .f32 := fun j =>
  accA m c (128 * ((j 0).val / 128) + 127) (lastOfRow_lt m j) (ValueIdx.ix1 ⟨(j 0).val % 128, Nat.mod_lt _ (by decide)⟩)

/-- An entry of that array named through a point and a lane. -/
theorem G1_of (c : Dev nD) (i : S65536.Idx) (k : ℕ) (hk : k < (cfgA m).N) (y : S128.Idx)
    (h1 : 128 * ((i 0).val / 128) + 127 = k) (h2 : (i 0).val % 128 = (y 0).val) : G1 m c i = accA m c k hk y := by
  subst h1
  unfold G1
  refine congrArg _ ?_
  rw [ValueIdx.eq_ix1 y]
  exact congrArg ValueIdx.ix1 (Fin.ext h2)

/-! ## What a flushing point writes back -/

/-- A point that writes the output block back is the last of its row, and what it writes is its block of the whole
    array above. -/
theorem flushed1_eq (c : Dev nD) (t : Fin (cfgA m).N) (hf : ((cfgA m).win 1).flush t = true) :
    (dat0 m c).flushed 1 t = (((cfgA m).win 1).blk t).view.read (Elt F) (G1 m c) := by
  have h127 : t.val % 128 = 127 := by rw [flush1] at hf; exact of_decide_eq_true hf
  refine funext fun (y : S128.Idx) => ?_
  have he := blk1_emb (adm0 m) t y
  have hy : (y 0).val < 128 := (y 0).isLt
  show accA m c t.val t.isLt y = G1 m c ((((cfgA m).win 1).blk t).view.emb y)
  exact (G1_of m c _ t.val t.isLt y (by rw [he]; omega) (by rw [he]; omega)).symm

/-! ## The blocks tile the array -/

/-- An entry of the array is in a point's block iff it is in the block's range. -/
theorem mem_blk1 (t : Fin (cfgA m).N) (i : S65536.Idx) :
    i ∈ (((cfgA m).win 1).blk t).view.set
      ↔ ∀ a : Fin 1, ((cfgA m).win 1).index t a * S128.size a ≤ (i a).val
          ∧ (i a).val < ((cfgA m).win 1).index t a * S128.size a + S128.size a := by
  have hset : (((cfgA m).win 1).blk t).view.set = (((cfgA m).win 1).rect t).set :=
    View.set_slice_whole main_v32 _
  rw [hset]
  exact Rect.mem_set_unit

/-- Every entry is in the block written back at the last point of its row. -/
theorem cover1 (i : S65536.Idx) :
    ∃ t : Fin (cfgA m).N, ((cfgA m).win 1).flush t = true ∧ i ∈ (((cfgA m).win 1).blk t).view.set := by
  have hi : (i 0).val < 65536 := (i 0).isLt
  refine ⟨⟨128 * ((i 0).val / 128) + 127, lastOfRow_lt m i⟩, ?_, ?_⟩
  · rw [flush1]; exact decide_eq_true (by show (128 * ((i 0).val / 128) + 127) % 128 = 127; omega)
  · rw [mem_blk1]
    intro a
    match a with
    | ⟨0, _⟩ =>
      have hx : ((cfgA m).win 1).index ⟨128 * ((i 0).val / 128) + 127, lastOfRow_lt m i⟩ (0 : Fin 1) = (i 0).val / 128 := by
        rw [index1]; show (128 * ((i 0).val / 128) + 127) / 128 = (i 0).val / 128; omega
      show ((cfgA m).win 1).index _ (0 : Fin 1) * 128 ≤ (i 0).val ∧ (i 0).val < ((cfgA m).win 1).index _ (0 : Fin 1) * 128 + 128
      rw [hx]; omega

/-! ## The arrays after the run -/

/-- What the run leaves in the output array at entry `j` is what the last step of `j`'s row left in lane `j % 128`. -/
theorem arr_out (c : Dev nD) (j : S65536.Idx) :
    (dat0 (F := F) m c).arrAt 1 (cfgA m).N j
      = accA m c (128 * ((j 0).val / 128) + 127) (lastOfRow_lt m j)
          (ValueIdx.ix1 ⟨(j 0).val % 128, Nat.mod_lt _ (by decide)⟩) :=
  congrFun ((dat0 m c).arrAt_eq_of_cover 1 (G1 m c) (flushed1_eq m c) (cover1 m)) j

/-- The relation row's array ends as it entered. -/
theorem arr_in (c : Dev nD) : (dat0 (F := F) m c).arrAt 0 (cfgA m).N = m ((c : Thread nD τ).loc main_arg1) :=
  (dat0 m c).arrAt_in 0 rfl _

end Cert.Proof.KI8

end
-- ==== Proof.KI8Final.lean ====
/-
  Region 0's output array at the ideal values is the specification's scores.

  Entry `j` of the output array is lane `j % 128` of the block the last step of row `j / 128` left. The block after
  each step is a fold over the steps of the row so far: a row's first step adds its contribution onto the zero block,
  every other step onto the block before. Step `t` contributes the score of the two table rows it gathered, on lane
  `t % 128` only. So after a row's last step lane `k` holds the score of the rows gathered at the row's step `k`: for
  entry `j` that is step `j` itself, whose rows are the rows of the node table that word `j` of the head table and
  word `j` of the tail table name.
-/
import proofs.«414028_j29231547417249_2_alg».proof.Proof.KI8Value
import proofs.«414028_j29231547417249_2_alg».proof.Proof.KernelMath
import proofs.«414028_j29231547417249_2_alg».proof.Proof.KIDats
import Idealize.ShloMosaic.Lib.Pipeline.FrameSuffix
import Idealize.ShloMosaic.Lib.ValueIdx

noncomputable section

namespace Cert.Proof.KI8

open Cert.KernelIdeal Cert.KernelIdeal.Gen Cert.KernelIdeal.GenP
open Idealize.ShloMosaic Idealize.ShloMosaic.TcCoe Idealize.SL.Sem
open Idealize.ShloMosaic.Pipeline (Dat)
open Cert.Proof.Spec Cert.Proof.KernelMath

variable (m : (ℓ : Loc nD τ sig) → Buf (Elt Ideal) ℓ)

/-! ## The steps of the run, numbered by the natural numbers -/

/-- The head row and the tail row gathered at step `t`; past the grid, any block. -/
def rowsH (c : Dev nD) (t : ℕ) : Vec Ideal S1x256 .f32 := if h : t < (cfgA m).N then hrow m c ⟨t, h⟩ else relA m c
def rowsT (c : Dev nD) (t : ℕ) : Vec Ideal S1x256 .f32 := if h : t < (cfgA m).N then trow m c ⟨t, h⟩ else relA m c

theorem rowsH_of_lt (c : Dev nD) (t : Fin (cfgA m).N) : rowsH m c t.val = hrow m c t := dif_pos t.isLt
theorem rowsT_of_lt (c : Dev nD) (t : Fin (cfgA m).N) : rowsT m c t.val = trow m c t := dif_pos t.isLt

/-- The body's step number `t`: the step's contribution added, on lane `t % 128`, to the block `prev`. -/
def stepN (c : Dev nD) (t : ℕ) (prev : Vec Ideal S128 .f32) : Vec Ideal S128 .f32 :=
  k8_pay2 (F := Ideal) (BitVec.ofNat 32 (t % 128)) (k8_pay6 (rowsH m c t) (rowsT m c t) (relA m c))
    (k8_pay7 (rowsH m c t) (rowsT m c t) (relA m c)) prev

/-- At a point of the grid it is the step the proof data names. -/
theorem stepN_eq (c : Dev nD) (t : Fin (cfgA m).N) (prev : Vec Ideal S128 .f32) :
    stepN m c t.val prev = stepv (hrow m c t) (trow m c t) (relA m c) (lane m t) prev := by
  unfold stepN stepv
  rw [rowsH_of_lt, rowsT_of_lt]
  show _ = k8_pay2 (BitVec.ofNat 32 (((cfgA m).grid.coords t) 1).val) _ _ prev
  rw [coords1 (adm0 m) t]

/-- The output block after step `t`, by the same recursion as the proof data's, over all the natural numbers. -/
def accN (c : Dev nD) : ℕ → Vec Ideal S128 .f32
  | Nat.zero => stepN m c Nat.zero (k8_pay1 (F := Ideal))
  | Nat.succ t =>
    if (t + 1) % 128 = 0 then stepN m c (t + 1) (k8_pay1 (F := Ideal)) else stepN m c (t + 1) (accN c t)

theorem accN_first (c : Dev nD) (t : ℕ) (h : t % 128 = 0) : accN m c t = stepN m c t (k8_pay1 (F := Ideal)) := by
  cases t with
  | zero => rfl
  | succ t => show (if (t + 1) % 128 = 0 then _ else _) = _; rw [if_pos h]

theorem accN_step (c : Dev nD) (t : ℕ) (h : t % 128 ≠ 0) : accN m c t = stepN m c t (accN m c (t - 1)) := by
  cases t with
  | zero => exact absurd (Nat.zero_mod 128) h
  | succ t => show (if (t + 1) % 128 = 0 then _ else _) = _; rw [if_neg h]; rfl

/-- On the grid it is the proof data's block. -/
theorem accN_eq (c : Dev nD) : ∀ (t : ℕ) (h : t < (cfgA m).N), accN m c t = accA m c t h
  | Nat.zero, h => by
    show stepN m c Nat.zero (k8_pay1 (F := Ideal)) = _
    exact (stepN_eq m c ⟨Nat.zero, h⟩ _).trans (accA_first m c ⟨Nat.zero, h⟩ (Nat.zero_mod 128)).symm
  | Nat.succ t, h => by
    have hp : t < (cfgA m).N := Nat.lt_of_succ_lt h
    show (if (t + 1) % 128 = 0 then _ else _) = _
    by_cases hz : (t + 1) % 128 = 0
    · rw [if_pos hz]
      exact (stepN_eq m c ⟨t + 1, h⟩ _).trans (accA_first m c ⟨t + 1, h⟩ hz).symm
    · rw [if_neg hz, accN_eq c t hp]
      exact (stepN_eq m c ⟨t + 1, h⟩ _).trans (accA_step m c ⟨t + 1, h⟩ hz hp).symm

/-- After the last step of row `i`, lane `k` holds the score of the rows gathered at the row's step `k`. -/
theorem lane_score (c : Dev nD) (i : ℕ) (k : Fin 128) :
    accN m c (128 * i + 127) (ValueIdx.ix1 k)
      = blkScore (rowsH m c (128 * i + k.val)) (rowsT m c (128 * i + k.val)) (relA m c) :=
  row_fold (rowsH m c) (rowsT m c) (relA m c) (accN m c)
    (fun t h y => congrFun (accN_first m c t h) y) (fun t h y => congrFun (accN_step m c t h) y) i k

/-! ## The rows a step gathers -/

/-- The table word read at point `t` is word `t` of the table. -/
theorem tword_at (T : IVec S65536 32) (t : Fin (cfgA m).N) :
    tword T ((cfgA m).grid.coords t) = T (ValueIdx.ix1 ⟨t.val, lt_N (adm0 m) t⟩) := by
  rw [tword_eq]
  exact congrArg T (congrArg ValueIdx.ix1 (Fin.ext (flat_eq (adm0 m) t)))

/-- The score of the two rows step `t` gathered is the specification's score of the rows that word `t` of the head
    table and word `t` of the tail table name. -/
theorem step_score (c : Dev nD) (t : Fin (cfgA m).N) :
    blkScore (hrow m c t) (trow m c t) (relA m c)
      = Cert.Proof.Spec.score (nodeA m c) (relA m c) (rowOf ((hTab m) (ValueIdx.ix1 ⟨t.val, lt_N (adm0 m) t⟩)))
          (rowOf ((tTab m) (ValueIdx.ix1 ⟨t.val, lt_N (adm0 m) t⟩))) := by
  rw [← tword_at m (hTab m) t, ← tword_at m (tTab m) t]
  exact blkScore_rows (nodeA m c) (relA m c) _ _ _ _ (fun _ => rfl) (fun _ => rfl)

/-! ## The output array -/

/-- What region 0 leaves in its output array is the fold of its write-backs. -/
theorem outs_eq (c : Dev nD) :
    (Cert.Proof.KI.outs m 22 main_v32 c : Vec Ideal S65536 .f32) = (dat0 m c).arrAt 1 (cfgA m).N :=
  Pipeline.withArrays_arr spec8 (launch8 (F := Ideal)).win.arr_inj c _ (fun w => (dat0 m c).arrAt w (cfgA m).N) 1

/-- Entry `j` of what region 0 leaves in its output array is the score of the rows the `j`-th words of its two tables
    name. -/
theorem out_read (c : Dev nD) (j : Fin 65536) :
    (Cert.Proof.KI.outs m 22 main_v32 c : Vec Ideal S65536 .f32) (ValueIdx.ix1 j)
      = Cert.Proof.Spec.score (nodeA m c) (relA m c) (Cert.Proof.Spec.rowOf ((hTab m) (ValueIdx.ix1 j)))
          (Cert.Proof.Spec.rowOf ((tTab m) (ValueIdx.ix1 j))) := by
  have hj : j.val < (cfgA m).N := by rw [N_eq (adm0 m)]; exact j.isLt
  have hjj : 128 * (j.val / 128) + j.val % 128 = j.val := by omega
  rw [outs_eq m c, arr_out m c (ValueIdx.ix1 j)]
  show accA m c (128 * (j.val / 128) + 127) (lastOfRow_lt m (ValueIdx.ix1 j))
      (ValueIdx.ix1 ⟨j.val % 128, Nat.mod_lt _ (by decide)⟩) = _
  rw [← accN_eq m c _ (lastOfRow_lt m (ValueIdx.ix1 j)), lane_score m c (j.val / 128) ⟨j.val % 128, Nat.mod_lt _ (by decide)⟩]
  show blkScore (rowsH m c (128 * (j.val / 128) + j.val % 128)) (rowsT m c (128 * (j.val / 128) + j.val % 128)) (relA m c) = _
  rw [hjj, rowsH_of_lt m c ⟨j.val, hj⟩, rowsT_of_lt m c ⟨j.val, hj⟩]
  exact step_score m c ⟨j.val, hj⟩

end Cert.Proof.KI8

end
-- ==== Proof.KI9Value.lean ====
/-
  Region 0, from blocks to the array.

  The output array has 65536 entries in 512 blocks of 128. The block of row `i` of the grid is written back once, after
  the row's last step, point `128 * i + 127`, and holds then what that step left in the staging buffer. The blocks tile
  the array, so after the run entry `j` of the array is lane `j % 128` of what the last step of row `j / 128` left. The
  relation row is an input: its array ends as it entered.
-/
import proofs.«414028_j29231547417249_2_alg».proof.Proof.KI9Data
import proofs.«414028_j29231547417249_2_alg».proof.Proof.KI9Points
import Idealize.ShloMosaic.Lib.Pipeline.Value
import Idealize.ShloMosaic.Lib.Pipeline.Cells
import Idealize.ShloMosaic.Lib.ValueIdx

noncomputable section

namespace Cert.Proof.KI9

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-! ## The last step of an entry's row -/

/-- The last point of the row of the grid that entry `j` of the output array belongs to is a point of the grid. -/
theorem lastOfRow_lt (j : S65536.Idx) : 128 * ((j 0).val / 128) + 127 < (cfgA m).N := by
  have hj : (j 0).val < 65536 := (j 0).isLt
  have hN : (cfgA m).N = 65536 := N_eq (adm0 m)
  omega

/-- The output block after a point depends on the point's number only. -/
theorem accA_congr (c : Dev nD) {k k' : ℕ} (h : k = k') (hk : k < (cfgA m).N) (hk' : k' < (cfgA m).N) :
    accA m c k hk = accA m c k' hk' := by
  subst h; rfl

/-- The whole output array after the run: entry `j` is lane `j % 128` of the block the last step of `j`'s row left. -/
def G1 (c : Dev nD) : S65536.Idx → Elt F .f32 := fun j =>
  accA m c (128 * ((j 0).val / 128) + 127) (lastOfRow_lt m j) (ValueIdx.ix1 ⟨(j 0).val % 128, Nat.mod_lt _ (by decide)⟩)

/-- An entry of that array named through a point and a lane. -/
theorem G1_of (c : Dev nD) (i : S65536.Idx) (k : ℕ) (hk : k < (cfgA m).N) (y : S128.Idx)
    (h1 : 128 * ((i 0).val / 128) + 127 = k) (h2 : (i 0).val % 128 = (y 0).val) : G1 m c i = accA m c k hk y := by
  subst h1
  unfold G1
  refine congrArg _ ?_
  rw [ValueIdx.eq_ix1 y]
  exact congrArg ValueIdx.ix1 (Fin.ext h2)

/-! ## What a flushing point writes back -/

/-- A point that writes the output block back is the last of its row, and what it writes is its block of the whole
    array above. -/
theorem flushed1_eq (c : Dev nD) (t : Fin (cfgA m).N) (hf : ((cfgA m).win 1).flush t = true) :
    (dat0 m c).flushed 1 t = (((cfgA m).win 1).blk t).view.read (Elt F) (G1 m c) := by
  have h127 : t.val % 128 = 127 := by rw [flush1] at hf; exact of_decide_eq_true hf
  refine funext fun (y : S128.Idx) => ?_
  have he := blk1_emb (adm0 m) t y
  have hy : (y 0).val < 128 := (y 0).isLt
  show accA m c t.val t.isLt y = G1 m c ((((cfgA m).win 1).blk t).view.emb y)
  exact (G1_of m c _ t.val t.isLt y (by rw [he]; omega) (by rw [he]; omega)).symm

/-! ## The blocks tile the array -/

/-- An entry of the array is in a point's block iff it is in the block's range. -/
theorem mem_blk1 (t : Fin (cfgA m).N) (i : S65536.Idx) :
    i ∈ (((cfgA m).win 1).blk t).view.set
      ↔ ∀ a : Fin 1, ((cfgA m).win 1).index t a * S128.size a ≤ (i a).val
          ∧ (i a).val < ((cfgA m).win 1).index t a * S128.size a + S128.size a := by
  have hset : (((cfgA m).win 1).blk t).view.set = (((cfgA m).win 1).rect t).set :=
    View.set_slice_whole main_v35 _
  rw [hset]
  exact Rect.mem_set_unit

/-- Every entry is in the block written back at the last point of its row. -/
theorem cover1 (i : S65536.Idx) :
    ∃ t : Fin (cfgA m).N, ((cfgA m).win 1).flush t = true ∧ i ∈ (((cfgA m).win 1).blk t).view.set := by
  have hi : (i 0).val < 65536 := (i 0).isLt
  refine ⟨⟨128 * ((i 0).val / 128) + 127, lastOfRow_lt m i⟩, ?_, ?_⟩
  · rw [flush1]; exact decide_eq_true (by show (128 * ((i 0).val / 128) + 127) % 128 = 127; omega)
  · rw [mem_blk1]
    intro a
    match a with
    | ⟨0, _⟩ =>
      have hx : ((cfgA m).win 1).index ⟨128 * ((i 0).val / 128) + 127, lastOfRow_lt m i⟩ (0 : Fin 1) = (i 0).val / 128 := by
        rw [index1]; show (128 * ((i 0).val / 128) + 127) / 128 = (i 0).val / 128; omega
      show ((cfgA m).win 1).index _ (0 : Fin 1) * 128 ≤ (i 0).val ∧ (i 0).val < ((cfgA m).win 1).index _ (0 : Fin 1) * 128 + 128
      rw [hx]; omega

/-! ## The arrays after the run -/

/-- What the run leaves in the output array at entry `j` is what the last step of `j`'s row left in lane `j % 128`. -/
theorem arr_out (c : Dev nD) (j : S65536.Idx) :
    (dat0 (F := F) m c).arrAt 1 (cfgA m).N j
      = accA m c (128 * ((j 0).val / 128) + 127) (lastOfRow_lt m j)
          (ValueIdx.ix1 ⟨(j 0).val % 128, Nat.mod_lt _ (by decide)⟩) :=
  congrFun ((dat0 m c).arrAt_eq_of_cover 1 (G1 m c) (flushed1_eq m c) (cover1 m)) j

/-- The relation row's array ends as it entered. -/
theorem arr_in (c : Dev nD) : (dat0 (F := F) m c).arrAt 0 (cfgA m).N = m ((c : Thread nD τ).loc main_arg1) :=
  (dat0 m c).arrAt_in 0 rfl _

end Cert.Proof.KI9

end
-- ==== Proof.KI9Final.lean ====
/-
  Region 0's output array at the ideal values is the specification's scores.

  Entry `j` of the output array is lane `j % 128` of the block the last step of row `j / 128` left. The block after
  each step is a fold over the steps of the row so far: a row's first step adds its contribution onto the zero block,
  every other step onto the block before. Step `t` contributes the score of the two table rows it gathered, on lane
  `t % 128` only. So after a row's last step lane `k` holds the score of the rows gathered at the row's step `k`: for
  entry `j` that is step `j` itself, whose rows are the rows of the node table that word `j` of the head table and
  word `j` of the tail table name.
-/
import proofs.«414028_j29231547417249_2_alg».proof.Proof.KI9Value
import proofs.«414028_j29231547417249_2_alg».proof.Proof.KernelMath
import proofs.«414028_j29231547417249_2_alg».proof.Proof.KIDats
import Idealize.ShloMosaic.Lib.Pipeline.FrameSuffix
import Idealize.ShloMosaic.Lib.ValueIdx

noncomputable section

namespace Cert.Proof.KI9

open Cert.KernelIdeal Cert.KernelIdeal.Gen Cert.KernelIdeal.GenP
open Idealize.ShloMosaic Idealize.ShloMosaic.TcCoe Idealize.SL.Sem
open Idealize.ShloMosaic.Pipeline (Dat)
open Cert.Proof.Spec Cert.Proof.KernelMath

variable (m : (ℓ : Loc nD τ sig) → Buf (Elt Ideal) ℓ)

/-! ## The steps of the run, numbered by the natural numbers -/

/-- The head row and the tail row gathered at step `t`; past the grid, any block. -/
def rowsH (c : Dev nD) (t : ℕ) : Vec Ideal S1x256 .f32 := if h : t < (cfgA m).N then hrow m c ⟨t, h⟩ else relA m c
def rowsT (c : Dev nD) (t : ℕ) : Vec Ideal S1x256 .f32 := if h : t < (cfgA m).N then trow m c ⟨t, h⟩ else relA m c

theorem rowsH_of_lt (c : Dev nD) (t : Fin (cfgA m).N) : rowsH m c t.val = hrow m c t := dif_pos t.isLt
theorem rowsT_of_lt (c : Dev nD) (t : Fin (cfgA m).N) : rowsT m c t.val = trow m c t := dif_pos t.isLt

/-- The body's step number `t`: the step's contribution added, on lane `t % 128`, to the block `prev`. -/
def stepN (c : Dev nD) (t : ℕ) (prev : Vec Ideal S128 .f32) : Vec Ideal S128 .f32 :=
  k9_pay2 (F := Ideal) (BitVec.ofNat 32 (t % 128)) (k9_pay6 (rowsH m c t) (rowsT m c t) (relA m c))
    (k9_pay7 (rowsH m c t) (rowsT m c t) (relA m c)) prev

/-- At a point of the grid it is the step the proof data names. -/
theorem stepN_eq (c : Dev nD) (t : Fin (cfgA m).N) (prev : Vec Ideal S128 .f32) :
    stepN m c t.val prev = stepv (hrow m c t) (trow m c t) (relA m c) (lane m t) prev := by
  unfold stepN stepv
  rw [rowsH_of_lt, rowsT_of_lt]
  show _ = k9_pay2 (BitVec.ofNat 32 (((cfgA m).grid.coords t) 1).val) _ _ prev
  rw [coords1 (adm0 m) t]

/-- The output block after step `t`, by the same recursion as the proof data's, over all the natural numbers. -/
def accN (c : Dev nD) : ℕ → Vec Ideal S128 .f32
  | Nat.zero => stepN m c Nat.zero (k9_pay1 (F := Ideal))
  | Nat.succ t =>
    if (t + 1) % 128 = 0 then stepN m c (t + 1) (k9_pay1 (F := Ideal)) else stepN m c (t + 1) (accN c t)

theorem accN_first (c : Dev nD) (t : ℕ) (h : t % 128 = 0) : accN m c t = stepN m c t (k9_pay1 (F := Ideal)) := by
  cases t with
  | zero => rfl
  | succ t => show (if (t + 1) % 128 = 0 then _ else _) = _; rw [if_pos h]

theorem accN_step (c : Dev nD) (t : ℕ) (h : t % 128 ≠ 0) : accN m c t = stepN m c t (accN m c (t - 1)) := by
  cases t with
  | zero => exact absurd (Nat.zero_mod 128) h
  | succ t => show (if (t + 1) % 128 = 0 then _ else _) = _; rw [if_neg h]; rfl

/-- On the grid it is the proof data's block. -/
theorem accN_eq (c : Dev nD) : ∀ (t : ℕ) (h : t < (cfgA m).N), accN m c t = accA m c t h
  | Nat.zero, h => by
    show stepN m c Nat.zero (k9_pay1 (F := Ideal)) = _
    exact (stepN_eq m c ⟨Nat.zero, h⟩ _).trans (accA_first m c ⟨Nat.zero, h⟩ (Nat.zero_mod 128)).symm
  | Nat.succ t, h => by
    have hp : t < (cfgA m).N := Nat.lt_of_succ_lt h
    show (if (t + 1) % 128 = 0 then _ else _) = _
    by_cases hz : (t + 1) % 128 = 0
    · rw [if_pos hz]
      exact (stepN_eq m c ⟨t + 1, h⟩ _).trans (accA_first m c ⟨t + 1, h⟩ hz).symm
    · rw [if_neg hz, accN_eq c t hp]
      exact (stepN_eq m c ⟨t + 1, h⟩ _).trans (accA_step m c ⟨t + 1, h⟩ hz hp).symm

/-- After the last step of row `i`, lane `k` holds the score of the rows gathered at the row's step `k`. -/
theorem lane_score (c : Dev nD) (i : ℕ) (k : Fin 128) :
    accN m c (128 * i + 127) (ValueIdx.ix1 k)
      = blkScore (rowsH m c (128 * i + k.val)) (rowsT m c (128 * i + k.val)) (relA m c) :=
  row_fold (rowsH m c) (rowsT m c) (relA m c) (accN m c)
    (fun t h y => congrFun (accN_first m c t h) y) (fun t h y => congrFun (accN_step m c t h) y) i k

/-! ## The rows a step gathers -/

/-- The table word read at point `t` is word `t` of the table. -/
theorem tword_at (T : IVec S65536 32) (t : Fin (cfgA m).N) :
    tword T ((cfgA m).grid.coords t) = T (ValueIdx.ix1 ⟨t.val, lt_N (adm0 m) t⟩) := by
  rw [tword_eq]
  exact congrArg T (congrArg ValueIdx.ix1 (Fin.ext (flat_eq (adm0 m) t)))

/-- The score of the two rows step `t` gathered is the specification's score of the rows that word `t` of the head
    table and word `t` of the tail table name. -/
theorem step_score (c : Dev nD) (t : Fin (cfgA m).N) :
    blkScore (hrow m c t) (trow m c t) (relA m c)
      = Cert.Proof.Spec.score (nodeA m c) (relA m c) (rowOf ((hTab m) (ValueIdx.ix1 ⟨t.val, lt_N (adm0 m) t⟩)))
          (rowOf ((tTab m) (ValueIdx.ix1 ⟨t.val, lt_N (adm0 m) t⟩))) := by
  rw [← tword_at m (hTab m) t, ← tword_at m (tTab m) t]
  exact blkScore_rows (nodeA m c) (relA m c) _ _ _ _ (fun _ => rfl) (fun _ => rfl)

/-! ## The output array -/

/-- What region 0 leaves in its output array is the fold of its write-backs. -/
theorem outs_eq (c : Dev nD) :
    (Cert.Proof.KI.outs m 24 main_v35 c : Vec Ideal S65536 .f32) = (dat0 m c).arrAt 1 (cfgA m).N :=
  Pipeline.withArrays_arr spec9 (launch9 (F := Ideal)).win.arr_inj c _ (fun w => (dat0 m c).arrAt w (cfgA m).N) 1

/-- Entry `j` of what region 0 leaves in its output array is the score of the rows the `j`-th words of its two tables
    name. -/
theorem out_read (c : Dev nD) (j : Fin 65536) :
    (Cert.Proof.KI.outs m 24 main_v35 c : Vec Ideal S65536 .f32) (ValueIdx.ix1 j)
      = Cert.Proof.Spec.score (nodeA m c) (relA m c) (Cert.Proof.Spec.rowOf ((hTab m) (ValueIdx.ix1 j)))
          (Cert.Proof.Spec.rowOf ((tTab m) (ValueIdx.ix1 j))) := by
  have hj : j.val < (cfgA m).N := by rw [N_eq (adm0 m)]; exact j.isLt
  have hjj : 128 * (j.val / 128) + j.val % 128 = j.val := by omega
  rw [outs_eq m c, arr_out m c (ValueIdx.ix1 j)]
  show accA m c (128 * (j.val / 128) + 127) (lastOfRow_lt m (ValueIdx.ix1 j))
      (ValueIdx.ix1 ⟨j.val % 128, Nat.mod_lt _ (by decide)⟩) = _
  rw [← accN_eq m c _ (lastOfRow_lt m (ValueIdx.ix1 j)), lane_score m c (j.val / 128) ⟨j.val % 128, Nat.mod_lt _ (by decide)⟩]
  show blkScore (rowsH m c (128 * (j.val / 128) + j.val % 128)) (rowsT m c (128 * (j.val / 128) + j.val % 128)) (relA m c) = _
  rw [hjj, rowsH_of_lt m c ⟨j.val, hj⟩, rowsT_of_lt m c ⟨j.val, hj⟩]
  exact step_score m c ⟨j.val, hj⟩

end Cert.Proof.KI9

end
-- ==== Proof.KI10Value.lean ====
/-
  Region 0, from blocks to the array.

  The output array has 65536 entries in 512 blocks of 128. The block of row `i` of the grid is written back once, after
  the row's last step, point `128 * i + 127`, and holds then what that step left in the staging buffer. The blocks tile
  the array, so after the run entry `j` of the array is lane `j % 128` of what the last step of row `j / 128` left. The
  relation row is an input: its array ends as it entered.
-/
import proofs.«414028_j29231547417249_2_alg».proof.Proof.KI10Data
import proofs.«414028_j29231547417249_2_alg».proof.Proof.KI10Points
import Idealize.ShloMosaic.Lib.Pipeline.Value
import Idealize.ShloMosaic.Lib.Pipeline.Cells
import Idealize.ShloMosaic.Lib.ValueIdx

noncomputable section

namespace Cert.Proof.KI10

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-! ## The last step of an entry's row -/

/-- The last point of the row of the grid that entry `j` of the output array belongs to is a point of the grid. -/
theorem lastOfRow_lt (j : S65536.Idx) : 128 * ((j 0).val / 128) + 127 < (cfgA m).N := by
  have hj : (j 0).val < 65536 := (j 0).isLt
  have hN : (cfgA m).N = 65536 := N_eq (adm0 m)
  omega

/-- The output block after a point depends on the point's number only. -/
theorem accA_congr (c : Dev nD) {k k' : ℕ} (h : k = k') (hk : k < (cfgA m).N) (hk' : k' < (cfgA m).N) :
    accA m c k hk = accA m c k' hk' := by
  subst h; rfl

/-- The whole output array after the run: entry `j` is lane `j % 128` of the block the last step of `j`'s row left. -/
def G1 (c : Dev nD) : S65536.Idx → Elt F .f32 := fun j =>
  accA m c (128 * ((j 0).val / 128) + 127) (lastOfRow_lt m j) (ValueIdx.ix1 ⟨(j 0).val % 128, Nat.mod_lt _ (by decide)⟩)

/-- An entry of that array named through a point and a lane. -/
theorem G1_of (c : Dev nD) (i : S65536.Idx) (k : ℕ) (hk : k < (cfgA m).N) (y : S128.Idx)
    (h1 : 128 * ((i 0).val / 128) + 127 = k) (h2 : (i 0).val % 128 = (y 0).val) : G1 m c i = accA m c k hk y := by
  subst h1
  unfold G1
  refine congrArg _ ?_
  rw [ValueIdx.eq_ix1 y]
  exact congrArg ValueIdx.ix1 (Fin.ext h2)

/-! ## What a flushing point writes back -/

/-- A point that writes the output block back is the last of its row, and what it writes is its block of the whole
    array above. -/
theorem flushed1_eq (c : Dev nD) (t : Fin (cfgA m).N) (hf : ((cfgA m).win 1).flush t = true) :
    (dat0 m c).flushed 1 t = (((cfgA m).win 1).blk t).view.read (Elt F) (G1 m c) := by
  have h127 : t.val % 128 = 127 := by rw [flush1] at hf; exact of_decide_eq_true hf
  refine funext fun (y : S128.Idx) => ?_
  have he := blk1_emb (adm0 m) t y
  have hy : (y 0).val < 128 := (y 0).isLt
  show accA m c t.val t.isLt y = G1 m c ((((cfgA m).win 1).blk t).view.emb y)
  exact (G1_of m c _ t.val t.isLt y (by rw [he]; omega) (by rw [he]; omega)).symm

/-! ## The blocks tile the array -/

/-- An entry of the array is in a point's block iff it is in the block's range. -/
theorem mem_blk1 (t : Fin (cfgA m).N) (i : S65536.Idx) :
    i ∈ (((cfgA m).win 1).blk t).view.set
      ↔ ∀ a : Fin 1, ((cfgA m).win 1).index t a * S128.size a ≤ (i a).val
          ∧ (i a).val < ((cfgA m).win 1).index t a * S128.size a + S128.size a := by
  have hset : (((cfgA m).win 1).blk t).view.set = (((cfgA m).win 1).rect t).set :=
    View.set_slice_whole main_v38 _
  rw [hset]
  exact Rect.mem_set_unit

/-- Every entry is in the block written back at the last point of its row. -/
theorem cover1 (i : S65536.Idx) :
    ∃ t : Fin (cfgA m).N, ((cfgA m).win 1).flush t = true ∧ i ∈ (((cfgA m).win 1).blk t).view.set := by
  have hi : (i 0).val < 65536 := (i 0).isLt
  refine ⟨⟨128 * ((i 0).val / 128) + 127, lastOfRow_lt m i⟩, ?_, ?_⟩
  · rw [flush1]; exact decide_eq_true (by show (128 * ((i 0).val / 128) + 127) % 128 = 127; omega)
  · rw [mem_blk1]
    intro a
    match a with
    | ⟨0, _⟩ =>
      have hx : ((cfgA m).win 1).index ⟨128 * ((i 0).val / 128) + 127, lastOfRow_lt m i⟩ (0 : Fin 1) = (i 0).val / 128 := by
        rw [index1]; show (128 * ((i 0).val / 128) + 127) / 128 = (i 0).val / 128; omega
      show ((cfgA m).win 1).index _ (0 : Fin 1) * 128 ≤ (i 0).val ∧ (i 0).val < ((cfgA m).win 1).index _ (0 : Fin 1) * 128 + 128
      rw [hx]; omega

/-! ## The arrays after the run -/

/-- What the run leaves in the output array at entry `j` is what the last step of `j`'s row left in lane `j % 128`. -/
theorem arr_out (c : Dev nD) (j : S65536.Idx) :
    (dat0 (F := F) m c).arrAt 1 (cfgA m).N j
      = accA m c (128 * ((j 0).val / 128) + 127) (lastOfRow_lt m j)
          (ValueIdx.ix1 ⟨(j 0).val % 128, Nat.mod_lt _ (by decide)⟩) :=
  congrFun ((dat0 m c).arrAt_eq_of_cover 1 (G1 m c) (flushed1_eq m c) (cover1 m)) j

/-- The relation row's array ends as it entered. -/
theorem arr_in (c : Dev nD) : (dat0 (F := F) m c).arrAt 0 (cfgA m).N = m ((c : Thread nD τ).loc main_arg1) :=
  (dat0 m c).arrAt_in 0 rfl _

end Cert.Proof.KI10

end
-- ==== Proof.KI10Final.lean ====
/-
  Region 0's output array at the ideal values is the specification's scores.

  Entry `j` of the output array is lane `j % 128` of the block the last step of row `j / 128` left. The block after
  each step is a fold over the steps of the row so far: a row's first step adds its contribution onto the zero block,
  every other step onto the block before. Step `t` contributes the score of the two table rows it gathered, on lane
  `t % 128` only. So after a row's last step lane `k` holds the score of the rows gathered at the row's step `k`: for
  entry `j` that is step `j` itself, whose rows are the rows of the node table that word `j` of the head table and
  word `j` of the tail table name.
-/
import proofs.«414028_j29231547417249_2_alg».proof.Proof.KI10Value
import proofs.«414028_j29231547417249_2_alg».proof.Proof.KernelMath
import proofs.«414028_j29231547417249_2_alg».proof.Proof.KIDats
import Idealize.ShloMosaic.Lib.Pipeline.FrameSuffix
import Idealize.ShloMosaic.Lib.ValueIdx

noncomputable section

namespace Cert.Proof.KI10

open Cert.KernelIdeal Cert.KernelIdeal.Gen Cert.KernelIdeal.GenP
open Idealize.ShloMosaic Idealize.ShloMosaic.TcCoe Idealize.SL.Sem
open Idealize.ShloMosaic.Pipeline (Dat)
open Cert.Proof.Spec Cert.Proof.KernelMath

variable (m : (ℓ : Loc nD τ sig) → Buf (Elt Ideal) ℓ)

/-! ## The steps of the run, numbered by the natural numbers -/

/-- The head row and the tail row gathered at step `t`; past the grid, any block. -/
def rowsH (c : Dev nD) (t : ℕ) : Vec Ideal S1x256 .f32 := if h : t < (cfgA m).N then hrow m c ⟨t, h⟩ else relA m c
def rowsT (c : Dev nD) (t : ℕ) : Vec Ideal S1x256 .f32 := if h : t < (cfgA m).N then trow m c ⟨t, h⟩ else relA m c

theorem rowsH_of_lt (c : Dev nD) (t : Fin (cfgA m).N) : rowsH m c t.val = hrow m c t := dif_pos t.isLt
theorem rowsT_of_lt (c : Dev nD) (t : Fin (cfgA m).N) : rowsT m c t.val = trow m c t := dif_pos t.isLt

/-- The body's step number `t`: the step's contribution added, on lane `t % 128`, to the block `prev`. -/
def stepN (c : Dev nD) (t : ℕ) (prev : Vec Ideal S128 .f32) : Vec Ideal S128 .f32 :=
  k10_pay2 (F := Ideal) (BitVec.ofNat 32 (t % 128)) (k10_pay6 (rowsH m c t) (rowsT m c t) (relA m c))
    (k10_pay7 (rowsH m c t) (rowsT m c t) (relA m c)) prev

/-- At a point of the grid it is the step the proof data names. -/
theorem stepN_eq (c : Dev nD) (t : Fin (cfgA m).N) (prev : Vec Ideal S128 .f32) :
    stepN m c t.val prev = stepv (hrow m c t) (trow m c t) (relA m c) (lane m t) prev := by
  unfold stepN stepv
  rw [rowsH_of_lt, rowsT_of_lt]
  show _ = k10_pay2 (BitVec.ofNat 32 (((cfgA m).grid.coords t) 1).val) _ _ prev
  rw [coords1 (adm0 m) t]

/-- The output block after step `t`, by the same recursion as the proof data's, over all the natural numbers. -/
def accN (c : Dev nD) : ℕ → Vec Ideal S128 .f32
  | Nat.zero => stepN m c Nat.zero (k10_pay1 (F := Ideal))
  | Nat.succ t =>
    if (t + 1) % 128 = 0 then stepN m c (t + 1) (k10_pay1 (F := Ideal)) else stepN m c (t + 1) (accN c t)

theorem accN_first (c : Dev nD) (t : ℕ) (h : t % 128 = 0) : accN m c t = stepN m c t (k10_pay1 (F := Ideal)) := by
  cases t with
  | zero => rfl
  | succ t => show (if (t + 1) % 128 = 0 then _ else _) = _; rw [if_pos h]

theorem accN_step (c : Dev nD) (t : ℕ) (h : t % 128 ≠ 0) : accN m c t = stepN m c t (accN m c (t - 1)) := by
  cases t with
  | zero => exact absurd (Nat.zero_mod 128) h
  | succ t => show (if (t + 1) % 128 = 0 then _ else _) = _; rw [if_neg h]; rfl

/-- On the grid it is the proof data's block. -/
theorem accN_eq (c : Dev nD) : ∀ (t : ℕ) (h : t < (cfgA m).N), accN m c t = accA m c t h
  | Nat.zero, h => by
    show stepN m c Nat.zero (k10_pay1 (F := Ideal)) = _
    exact (stepN_eq m c ⟨Nat.zero, h⟩ _).trans (accA_first m c ⟨Nat.zero, h⟩ (Nat.zero_mod 128)).symm
  | Nat.succ t, h => by
    have hp : t < (cfgA m).N := Nat.lt_of_succ_lt h
    show (if (t + 1) % 128 = 0 then _ else _) = _
    by_cases hz : (t + 1) % 128 = 0
    · rw [if_pos hz]
      exact (stepN_eq m c ⟨t + 1, h⟩ _).trans (accA_first m c ⟨t + 1, h⟩ hz).symm
    · rw [if_neg hz, accN_eq c t hp]
      exact (stepN_eq m c ⟨t + 1, h⟩ _).trans (accA_step m c ⟨t + 1, h⟩ hz hp).symm

/-- After the last step of row `i`, lane `k` holds the score of the rows gathered at the row's step `k`. -/
theorem lane_score (c : Dev nD) (i : ℕ) (k : Fin 128) :
    accN m c (128 * i + 127) (ValueIdx.ix1 k)
      = blkScore (rowsH m c (128 * i + k.val)) (rowsT m c (128 * i + k.val)) (relA m c) :=
  row_fold (rowsH m c) (rowsT m c) (relA m c) (accN m c)
    (fun t h y => congrFun (accN_first m c t h) y) (fun t h y => congrFun (accN_step m c t h) y) i k

/-! ## The rows a step gathers -/

/-- The table word read at point `t` is word `t` of the table. -/
theorem tword_at (T : IVec S65536 32) (t : Fin (cfgA m).N) :
    tword T ((cfgA m).grid.coords t) = T (ValueIdx.ix1 ⟨t.val, lt_N (adm0 m) t⟩) := by
  rw [tword_eq]
  exact congrArg T (congrArg ValueIdx.ix1 (Fin.ext (flat_eq (adm0 m) t)))

/-- The score of the two rows step `t` gathered is the specification's score of the rows that word `t` of the head
    table and word `t` of the tail table name. -/
theorem step_score (c : Dev nD) (t : Fin (cfgA m).N) :
    blkScore (hrow m c t) (trow m c t) (relA m c)
      = Cert.Proof.Spec.score (nodeA m c) (relA m c) (rowOf ((hTab m) (ValueIdx.ix1 ⟨t.val, lt_N (adm0 m) t⟩)))
          (rowOf ((tTab m) (ValueIdx.ix1 ⟨t.val, lt_N (adm0 m) t⟩))) := by
  rw [← tword_at m (hTab m) t, ← tword_at m (tTab m) t]
  exact blkScore_rows (nodeA m c) (relA m c) _ _ _ _ (fun _ => rfl) (fun _ => rfl)

/-! ## The output array -/

/-- What region 0 leaves in its output array is the fold of its write-backs. -/
theorem outs_eq (c : Dev nD) :
    (Cert.Proof.KI.outs m 26 main_v38 c : Vec Ideal S65536 .f32) = (dat0 m c).arrAt 1 (cfgA m).N :=
  Pipeline.withArrays_arr spec10 (launch10 (F := Ideal)).win.arr_inj c _ (fun w => (dat0 m c).arrAt w (cfgA m).N) 1

/-- Entry `j` of what region 0 leaves in its output array is the score of the rows the `j`-th words of its two tables
    name. -/
theorem out_read (c : Dev nD) (j : Fin 65536) :
    (Cert.Proof.KI.outs m 26 main_v38 c : Vec Ideal S65536 .f32) (ValueIdx.ix1 j)
      = Cert.Proof.Spec.score (nodeA m c) (relA m c) (Cert.Proof.Spec.rowOf ((hTab m) (ValueIdx.ix1 j)))
          (Cert.Proof.Spec.rowOf ((tTab m) (ValueIdx.ix1 j))) := by
  have hj : j.val < (cfgA m).N := by rw [N_eq (adm0 m)]; exact j.isLt
  have hjj : 128 * (j.val / 128) + j.val % 128 = j.val := by omega
  rw [outs_eq m c, arr_out m c (ValueIdx.ix1 j)]
  show accA m c (128 * (j.val / 128) + 127) (lastOfRow_lt m (ValueIdx.ix1 j))
      (ValueIdx.ix1 ⟨j.val % 128, Nat.mod_lt _ (by decide)⟩) = _
  rw [← accN_eq m c _ (lastOfRow_lt m (ValueIdx.ix1 j)), lane_score m c (j.val / 128) ⟨j.val % 128, Nat.mod_lt _ (by decide)⟩]
  show blkScore (rowsH m c (128 * (j.val / 128) + j.val % 128)) (rowsT m c (128 * (j.val / 128) + j.val % 128)) (relA m c) = _
  rw [hjj, rowsH_of_lt m c ⟨j.val, hj⟩, rowsT_of_lt m c ⟨j.val, hj⟩]
  exact step_score m c ⟨j.val, hj⟩

end Cert.Proof.KI10

end
-- ==== Proof.KI11Value.lean ====
/-
  Region 0, from blocks to the array.

  The output array has 65536 entries in 512 blocks of 128. The block of row `i` of the grid is written back once, after
  the row's last step, point `128 * i + 127`, and holds then what that step left in the staging buffer. The blocks tile
  the array, so after the run entry `j` of the array is lane `j % 128` of what the last step of row `j / 128` left. The
  relation row is an input: its array ends as it entered.
-/
import proofs.«414028_j29231547417249_2_alg».proof.Proof.KI11Data
import proofs.«414028_j29231547417249_2_alg».proof.Proof.KI11Points
import Idealize.ShloMosaic.Lib.Pipeline.Value
import Idealize.ShloMosaic.Lib.Pipeline.Cells
import Idealize.ShloMosaic.Lib.ValueIdx

noncomputable section

namespace Cert.Proof.KI11

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-! ## The last step of an entry's row -/

/-- The last point of the row of the grid that entry `j` of the output array belongs to is a point of the grid. -/
theorem lastOfRow_lt (j : S65536.Idx) : 128 * ((j 0).val / 128) + 127 < (cfgA m).N := by
  have hj : (j 0).val < 65536 := (j 0).isLt
  have hN : (cfgA m).N = 65536 := N_eq (adm0 m)
  omega

/-- The output block after a point depends on the point's number only. -/
theorem accA_congr (c : Dev nD) {k k' : ℕ} (h : k = k') (hk : k < (cfgA m).N) (hk' : k' < (cfgA m).N) :
    accA m c k hk = accA m c k' hk' := by
  subst h; rfl

/-- The whole output array after the run: entry `j` is lane `j % 128` of the block the last step of `j`'s row left. -/
def G1 (c : Dev nD) : S65536.Idx → Elt F .f32 := fun j =>
  accA m c (128 * ((j 0).val / 128) + 127) (lastOfRow_lt m j) (ValueIdx.ix1 ⟨(j 0).val % 128, Nat.mod_lt _ (by decide)⟩)

/-- An entry of that array named through a point and a lane. -/
theorem G1_of (c : Dev nD) (i : S65536.Idx) (k : ℕ) (hk : k < (cfgA m).N) (y : S128.Idx)
    (h1 : 128 * ((i 0).val / 128) + 127 = k) (h2 : (i 0).val % 128 = (y 0).val) : G1 m c i = accA m c k hk y := by
  subst h1
  unfold G1
  refine congrArg _ ?_
  rw [ValueIdx.eq_ix1 y]
  exact congrArg ValueIdx.ix1 (Fin.ext h2)

/-! ## What a flushing point writes back -/

/-- A point that writes the output block back is the last of its row, and what it writes is its block of the whole
    array above. -/
theorem flushed1_eq (c : Dev nD) (t : Fin (cfgA m).N) (hf : ((cfgA m).win 1).flush t = true) :
    (dat0 m c).flushed 1 t = (((cfgA m).win 1).blk t).view.read (Elt F) (G1 m c) := by
  have h127 : t.val % 128 = 127 := by rw [flush1] at hf; exact of_decide_eq_true hf
  refine funext fun (y : S128.Idx) => ?_
  have he := blk1_emb (adm0 m) t y
  have hy : (y 0).val < 128 := (y 0).isLt
  show accA m c t.val t.isLt y = G1 m c ((((cfgA m).win 1).blk t).view.emb y)
  exact (G1_of m c _ t.val t.isLt y (by rw [he]; omega) (by rw [he]; omega)).symm

/-! ## The blocks tile the array -/

/-- An entry of the array is in a point's block iff it is in the block's range. -/
theorem mem_blk1 (t : Fin (cfgA m).N) (i : S65536.Idx) :
    i ∈ (((cfgA m).win 1).blk t).view.set
      ↔ ∀ a : Fin 1, ((cfgA m).win 1).index t a * S128.size a ≤ (i a).val
          ∧ (i a).val < ((cfgA m).win 1).index t a * S128.size a + S128.size a := by
  have hset : (((cfgA m).win 1).blk t).view.set = (((cfgA m).win 1).rect t).set :=
    View.set_slice_whole main_v41 _
  rw [hset]
  exact Rect.mem_set_unit

/-- Every entry is in the block written back at the last point of its row. -/
theorem cover1 (i : S65536.Idx) :
    ∃ t : Fin (cfgA m).N, ((cfgA m).win 1).flush t = true ∧ i ∈ (((cfgA m).win 1).blk t).view.set := by
  have hi : (i 0).val < 65536 := (i 0).isLt
  refine ⟨⟨128 * ((i 0).val / 128) + 127, lastOfRow_lt m i⟩, ?_, ?_⟩
  · rw [flush1]; exact decide_eq_true (by show (128 * ((i 0).val / 128) + 127) % 128 = 127; omega)
  · rw [mem_blk1]
    intro a
    match a with
    | ⟨0, _⟩ =>
      have hx : ((cfgA m).win 1).index ⟨128 * ((i 0).val / 128) + 127, lastOfRow_lt m i⟩ (0 : Fin 1) = (i 0).val / 128 := by
        rw [index1]; show (128 * ((i 0).val / 128) + 127) / 128 = (i 0).val / 128; omega
      show ((cfgA m).win 1).index _ (0 : Fin 1) * 128 ≤ (i 0).val ∧ (i 0).val < ((cfgA m).win 1).index _ (0 : Fin 1) * 128 + 128
      rw [hx]; omega

/-! ## The arrays after the run -/

/-- What the run leaves in the output array at entry `j` is what the last step of `j`'s row left in lane `j % 128`. -/
theorem arr_out (c : Dev nD) (j : S65536.Idx) :
    (dat0 (F := F) m c).arrAt 1 (cfgA m).N j
      = accA m c (128 * ((j 0).val / 128) + 127) (lastOfRow_lt m j)
          (ValueIdx.ix1 ⟨(j 0).val % 128, Nat.mod_lt _ (by decide)⟩) :=
  congrFun ((dat0 m c).arrAt_eq_of_cover 1 (G1 m c) (flushed1_eq m c) (cover1 m)) j

/-- The relation row's array ends as it entered. -/
theorem arr_in (c : Dev nD) : (dat0 (F := F) m c).arrAt 0 (cfgA m).N = m ((c : Thread nD τ).loc main_arg1) :=
  (dat0 m c).arrAt_in 0 rfl _

end Cert.Proof.KI11

end
-- ==== Proof.KI11Final.lean ====
/-
  Region 0's output array at the ideal values is the specification's scores.

  Entry `j` of the output array is lane `j % 128` of the block the last step of row `j / 128` left. The block after
  each step is a fold over the steps of the row so far: a row's first step adds its contribution onto the zero block,
  every other step onto the block before. Step `t` contributes the score of the two table rows it gathered, on lane
  `t % 128` only. So after a row's last step lane `k` holds the score of the rows gathered at the row's step `k`: for
  entry `j` that is step `j` itself, whose rows are the rows of the node table that word `j` of the head table and
  word `j` of the tail table name.
-/
import proofs.«414028_j29231547417249_2_alg».proof.Proof.KI11Value
import proofs.«414028_j29231547417249_2_alg».proof.Proof.KernelMath
import proofs.«414028_j29231547417249_2_alg».proof.Proof.KIDats
import Idealize.ShloMosaic.Lib.Pipeline.FrameSuffix
import Idealize.ShloMosaic.Lib.ValueIdx

noncomputable section

namespace Cert.Proof.KI11

open Cert.KernelIdeal Cert.KernelIdeal.Gen Cert.KernelIdeal.GenP
open Idealize.ShloMosaic Idealize.ShloMosaic.TcCoe Idealize.SL.Sem
open Idealize.ShloMosaic.Pipeline (Dat)
open Cert.Proof.Spec Cert.Proof.KernelMath

variable (m : (ℓ : Loc nD τ sig) → Buf (Elt Ideal) ℓ)

/-! ## The steps of the run, numbered by the natural numbers -/

/-- The head row and the tail row gathered at step `t`; past the grid, any block. -/
def rowsH (c : Dev nD) (t : ℕ) : Vec Ideal S1x256 .f32 := if h : t < (cfgA m).N then hrow m c ⟨t, h⟩ else relA m c
def rowsT (c : Dev nD) (t : ℕ) : Vec Ideal S1x256 .f32 := if h : t < (cfgA m).N then trow m c ⟨t, h⟩ else relA m c

theorem rowsH_of_lt (c : Dev nD) (t : Fin (cfgA m).N) : rowsH m c t.val = hrow m c t := dif_pos t.isLt
theorem rowsT_of_lt (c : Dev nD) (t : Fin (cfgA m).N) : rowsT m c t.val = trow m c t := dif_pos t.isLt

/-- The body's step number `t`: the step's contribution added, on lane `t % 128`, to the block `prev`. -/
def stepN (c : Dev nD) (t : ℕ) (prev : Vec Ideal S128 .f32) : Vec Ideal S128 .f32 :=
  k11_pay2 (F := Ideal) (BitVec.ofNat 32 (t % 128)) (k11_pay6 (rowsH m c t) (rowsT m c t) (relA m c))
    (k11_pay7 (rowsH m c t) (rowsT m c t) (relA m c)) prev

/-- At a point of the grid it is the step the proof data names. -/
theorem stepN_eq (c : Dev nD) (t : Fin (cfgA m).N) (prev : Vec Ideal S128 .f32) :
    stepN m c t.val prev = stepv (hrow m c t) (trow m c t) (relA m c) (lane m t) prev := by
  unfold stepN stepv
  rw [rowsH_of_lt, rowsT_of_lt]
  show _ = k11_pay2 (BitVec.ofNat 32 (((cfgA m).grid.coords t) 1).val) _ _ prev
  rw [coords1 (adm0 m) t]

/-- The output block after step `t`, by the same recursion as the proof data's, over all the natural numbers. -/
def accN (c : Dev nD) : ℕ → Vec Ideal S128 .f32
  | Nat.zero => stepN m c Nat.zero (k11_pay1 (F := Ideal))
  | Nat.succ t =>
    if (t + 1) % 128 = 0 then stepN m c (t + 1) (k11_pay1 (F := Ideal)) else stepN m c (t + 1) (accN c t)

theorem accN_first (c : Dev nD) (t : ℕ) (h : t % 128 = 0) : accN m c t = stepN m c t (k11_pay1 (F := Ideal)) := by
  cases t with
  | zero => rfl
  | succ t => show (if (t + 1) % 128 = 0 then _ else _) = _; rw [if_pos h]

theorem accN_step (c : Dev nD) (t : ℕ) (h : t % 128 ≠ 0) : accN m c t = stepN m c t (accN m c (t - 1)) := by
  cases t with
  | zero => exact absurd (Nat.zero_mod 128) h
  | succ t => show (if (t + 1) % 128 = 0 then _ else _) = _; rw [if_neg h]; rfl

/-- On the grid it is the proof data's block. -/
theorem accN_eq (c : Dev nD) : ∀ (t : ℕ) (h : t < (cfgA m).N), accN m c t = accA m c t h
  | Nat.zero, h => by
    show stepN m c Nat.zero (k11_pay1 (F := Ideal)) = _
    exact (stepN_eq m c ⟨Nat.zero, h⟩ _).trans (accA_first m c ⟨Nat.zero, h⟩ (Nat.zero_mod 128)).symm
  | Nat.succ t, h => by
    have hp : t < (cfgA m).N := Nat.lt_of_succ_lt h
    show (if (t + 1) % 128 = 0 then _ else _) = _
    by_cases hz : (t + 1) % 128 = 0
    · rw [if_pos hz]
      exact (stepN_eq m c ⟨t + 1, h⟩ _).trans (accA_first m c ⟨t + 1, h⟩ hz).symm
    · rw [if_neg hz, accN_eq c t hp]
      exact (stepN_eq m c ⟨t + 1, h⟩ _).trans (accA_step m c ⟨t + 1, h⟩ hz hp).symm

/-- After the last step of row `i`, lane `k` holds the score of the rows gathered at the row's step `k`. -/
theorem lane_score (c : Dev nD) (i : ℕ) (k : Fin 128) :
    accN m c (128 * i + 127) (ValueIdx.ix1 k)
      = blkScore (rowsH m c (128 * i + k.val)) (rowsT m c (128 * i + k.val)) (relA m c) :=
  row_fold (rowsH m c) (rowsT m c) (relA m c) (accN m c)
    (fun t h y => congrFun (accN_first m c t h) y) (fun t h y => congrFun (accN_step m c t h) y) i k

/-! ## The rows a step gathers -/

/-- The table word read at point `t` is word `t` of the table. -/
theorem tword_at (T : IVec S65536 32) (t : Fin (cfgA m).N) :
    tword T ((cfgA m).grid.coords t) = T (ValueIdx.ix1 ⟨t.val, lt_N (adm0 m) t⟩) := by
  rw [tword_eq]
  exact congrArg T (congrArg ValueIdx.ix1 (Fin.ext (flat_eq (adm0 m) t)))

/-- The score of the two rows step `t` gathered is the specification's score of the rows that word `t` of the head
    table and word `t` of the tail table name. -/
theorem step_score (c : Dev nD) (t : Fin (cfgA m).N) :
    blkScore (hrow m c t) (trow m c t) (relA m c)
      = Cert.Proof.Spec.score (nodeA m c) (relA m c) (rowOf ((hTab m) (ValueIdx.ix1 ⟨t.val, lt_N (adm0 m) t⟩)))
          (rowOf ((tTab m) (ValueIdx.ix1 ⟨t.val, lt_N (adm0 m) t⟩))) := by
  rw [← tword_at m (hTab m) t, ← tword_at m (tTab m) t]
  exact blkScore_rows (nodeA m c) (relA m c) _ _ _ _ (fun _ => rfl) (fun _ => rfl)

/-! ## The output array -/

/-- What region 0 leaves in its output array is the fold of its write-backs. -/
theorem outs_eq (c : Dev nD) :
    (Cert.Proof.KI.outs m 28 main_v41 c : Vec Ideal S65536 .f32) = (dat0 m c).arrAt 1 (cfgA m).N :=
  Pipeline.withArrays_arr spec11 (launch11 (F := Ideal)).win.arr_inj c _ (fun w => (dat0 m c).arrAt w (cfgA m).N) 1

/-- Entry `j` of what region 0 leaves in its output array is the score of the rows the `j`-th words of its two tables
    name. -/
theorem out_read (c : Dev nD) (j : Fin 65536) :
    (Cert.Proof.KI.outs m 28 main_v41 c : Vec Ideal S65536 .f32) (ValueIdx.ix1 j)
      = Cert.Proof.Spec.score (nodeA m c) (relA m c) (Cert.Proof.Spec.rowOf ((hTab m) (ValueIdx.ix1 j)))
          (Cert.Proof.Spec.rowOf ((tTab m) (ValueIdx.ix1 j))) := by
  have hj : j.val < (cfgA m).N := by rw [N_eq (adm0 m)]; exact j.isLt
  have hjj : 128 * (j.val / 128) + j.val % 128 = j.val := by omega
  rw [outs_eq m c, arr_out m c (ValueIdx.ix1 j)]
  show accA m c (128 * (j.val / 128) + 127) (lastOfRow_lt m (ValueIdx.ix1 j))
      (ValueIdx.ix1 ⟨j.val % 128, Nat.mod_lt _ (by decide)⟩) = _
  rw [← accN_eq m c _ (lastOfRow_lt m (ValueIdx.ix1 j)), lane_score m c (j.val / 128) ⟨j.val % 128, Nat.mod_lt _ (by decide)⟩]
  show blkScore (rowsH m c (128 * (j.val / 128) + j.val % 128)) (rowsT m c (128 * (j.val / 128) + j.val % 128)) (relA m c) = _
  rw [hjj, rowsH_of_lt m c ⟨j.val, hj⟩, rowsT_of_lt m c ⟨j.val, hj⟩]
  exact step_score m c ⟨j.val, hj⟩

end Cert.Proof.KI11

end
-- ==== Proof.KI12Value.lean ====
/-
  Region 0, from blocks to the array.

  The output array has 65536 entries in 512 blocks of 128. The block of row `i` of the grid is written back once, after
  the row's last step, point `128 * i + 127`, and holds then what that step left in the staging buffer. The blocks tile
  the array, so after the run entry `j` of the array is lane `j % 128` of what the last step of row `j / 128` left. The
  relation row is an input: its array ends as it entered.
-/
import proofs.«414028_j29231547417249_2_alg».proof.Proof.KI12Data
import proofs.«414028_j29231547417249_2_alg».proof.Proof.KI12Points
import Idealize.ShloMosaic.Lib.Pipeline.Value
import Idealize.ShloMosaic.Lib.Pipeline.Cells
import Idealize.ShloMosaic.Lib.ValueIdx

noncomputable section

namespace Cert.Proof.KI12

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-! ## The last step of an entry's row -/

/-- The last point of the row of the grid that entry `j` of the output array belongs to is a point of the grid. -/
theorem lastOfRow_lt (j : S65536.Idx) : 128 * ((j 0).val / 128) + 127 < (cfgA m).N := by
  have hj : (j 0).val < 65536 := (j 0).isLt
  have hN : (cfgA m).N = 65536 := N_eq (adm0 m)
  omega

/-- The output block after a point depends on the point's number only. -/
theorem accA_congr (c : Dev nD) {k k' : ℕ} (h : k = k') (hk : k < (cfgA m).N) (hk' : k' < (cfgA m).N) :
    accA m c k hk = accA m c k' hk' := by
  subst h; rfl

/-- The whole output array after the run: entry `j` is lane `j % 128` of the block the last step of `j`'s row left. -/
def G1 (c : Dev nD) : S65536.Idx → Elt F .f32 := fun j =>
  accA m c (128 * ((j 0).val / 128) + 127) (lastOfRow_lt m j) (ValueIdx.ix1 ⟨(j 0).val % 128, Nat.mod_lt _ (by decide)⟩)

/-- An entry of that array named through a point and a lane. -/
theorem G1_of (c : Dev nD) (i : S65536.Idx) (k : ℕ) (hk : k < (cfgA m).N) (y : S128.Idx)
    (h1 : 128 * ((i 0).val / 128) + 127 = k) (h2 : (i 0).val % 128 = (y 0).val) : G1 m c i = accA m c k hk y := by
  subst h1
  unfold G1
  refine congrArg _ ?_
  rw [ValueIdx.eq_ix1 y]
  exact congrArg ValueIdx.ix1 (Fin.ext h2)

/-! ## What a flushing point writes back -/

/-- A point that writes the output block back is the last of its row, and what it writes is its block of the whole
    array above. -/
theorem flushed1_eq (c : Dev nD) (t : Fin (cfgA m).N) (hf : ((cfgA m).win 1).flush t = true) :
    (dat0 m c).flushed 1 t = (((cfgA m).win 1).blk t).view.read (Elt F) (G1 m c) := by
  have h127 : t.val % 128 = 127 := by rw [flush1] at hf; exact of_decide_eq_true hf
  refine funext fun (y : S128.Idx) => ?_
  have he := blk1_emb (adm0 m) t y
  have hy : (y 0).val < 128 := (y 0).isLt
  show accA m c t.val t.isLt y = G1 m c ((((cfgA m).win 1).blk t).view.emb y)
  exact (G1_of m c _ t.val t.isLt y (by rw [he]; omega) (by rw [he]; omega)).symm

/-! ## The blocks tile the array -/

/-- An entry of the array is in a point's block iff it is in the block's range. -/
theorem mem_blk1 (t : Fin (cfgA m).N) (i : S65536.Idx) :
    i ∈ (((cfgA m).win 1).blk t).view.set
      ↔ ∀ a : Fin 1, ((cfgA m).win 1).index t a * S128.size a ≤ (i a).val
          ∧ (i a).val < ((cfgA m).win 1).index t a * S128.size a + S128.size a := by
  have hset : (((cfgA m).win 1).blk t).view.set = (((cfgA m).win 1).rect t).set :=
    View.set_slice_whole main_v44 _
  rw [hset]
  exact Rect.mem_set_unit

/-- Every entry is in the block written back at the last point of its row. -/
theorem cover1 (i : S65536.Idx) :
    ∃ t : Fin (cfgA m).N, ((cfgA m).win 1).flush t = true ∧ i ∈ (((cfgA m).win 1).blk t).view.set := by
  have hi : (i 0).val < 65536 := (i 0).isLt
  refine ⟨⟨128 * ((i 0).val / 128) + 127, lastOfRow_lt m i⟩, ?_, ?_⟩
  · rw [flush1]; exact decide_eq_true (by show (128 * ((i 0).val / 128) + 127) % 128 = 127; omega)
  · rw [mem_blk1]
    intro a
    match a with
    | ⟨0, _⟩ =>
      have hx : ((cfgA m).win 1).index ⟨128 * ((i 0).val / 128) + 127, lastOfRow_lt m i⟩ (0 : Fin 1) = (i 0).val / 128 := by
        rw [index1]; show (128 * ((i 0).val / 128) + 127) / 128 = (i 0).val / 128; omega
      show ((cfgA m).win 1).index _ (0 : Fin 1) * 128 ≤ (i 0).val ∧ (i 0).val < ((cfgA m).win 1).index _ (0 : Fin 1) * 128 + 128
      rw [hx]; omega

/-! ## The arrays after the run -/

/-- What the run leaves in the output array at entry `j` is what the last step of `j`'s row left in lane `j % 128`. -/
theorem arr_out (c : Dev nD) (j : S65536.Idx) :
    (dat0 (F := F) m c).arrAt 1 (cfgA m).N j
      = accA m c (128 * ((j 0).val / 128) + 127) (lastOfRow_lt m j)
          (ValueIdx.ix1 ⟨(j 0).val % 128, Nat.mod_lt _ (by decide)⟩) :=
  congrFun ((dat0 m c).arrAt_eq_of_cover 1 (G1 m c) (flushed1_eq m c) (cover1 m)) j

/-- The relation row's array ends as it entered. -/
theorem arr_in (c : Dev nD) : (dat0 (F := F) m c).arrAt 0 (cfgA m).N = m ((c : Thread nD τ).loc main_arg1) :=
  (dat0 m c).arrAt_in 0 rfl _

end Cert.Proof.KI12

end
-- ==== Proof.KI12Final.lean ====
/-
  Region 0's output array at the ideal values is the specification's scores.

  Entry `j` of the output array is lane `j % 128` of the block the last step of row `j / 128` left. The block after
  each step is a fold over the steps of the row so far: a row's first step adds its contribution onto the zero block,
  every other step onto the block before. Step `t` contributes the score of the two table rows it gathered, on lane
  `t % 128` only. So after a row's last step lane `k` holds the score of the rows gathered at the row's step `k`: for
  entry `j` that is step `j` itself, whose rows are the rows of the node table that word `j` of the head table and
  word `j` of the tail table name.
-/
import proofs.«414028_j29231547417249_2_alg».proof.Proof.KI12Value
import proofs.«414028_j29231547417249_2_alg».proof.Proof.KernelMath
import proofs.«414028_j29231547417249_2_alg».proof.Proof.KIDats
import Idealize.ShloMosaic.Lib.Pipeline.FrameSuffix
import Idealize.ShloMosaic.Lib.ValueIdx

noncomputable section

namespace Cert.Proof.KI12

open Cert.KernelIdeal Cert.KernelIdeal.Gen Cert.KernelIdeal.GenP
open Idealize.ShloMosaic Idealize.ShloMosaic.TcCoe Idealize.SL.Sem
open Idealize.ShloMosaic.Pipeline (Dat)
open Cert.Proof.Spec Cert.Proof.KernelMath

variable (m : (ℓ : Loc nD τ sig) → Buf (Elt Ideal) ℓ)

/-! ## The steps of the run, numbered by the natural numbers -/

/-- The head row and the tail row gathered at step `t`; past the grid, any block. -/
def rowsH (c : Dev nD) (t : ℕ) : Vec Ideal S1x256 .f32 := if h : t < (cfgA m).N then hrow m c ⟨t, h⟩ else relA m c
def rowsT (c : Dev nD) (t : ℕ) : Vec Ideal S1x256 .f32 := if h : t < (cfgA m).N then trow m c ⟨t, h⟩ else relA m c

theorem rowsH_of_lt (c : Dev nD) (t : Fin (cfgA m).N) : rowsH m c t.val = hrow m c t := dif_pos t.isLt
theorem rowsT_of_lt (c : Dev nD) (t : Fin (cfgA m).N) : rowsT m c t.val = trow m c t := dif_pos t.isLt

/-- The body's step number `t`: the step's contribution added, on lane `t % 128`, to the block `prev`. -/
def stepN (c : Dev nD) (t : ℕ) (prev : Vec Ideal S128 .f32) : Vec Ideal S128 .f32 :=
  k12_pay2 (F := Ideal) (BitVec.ofNat 32 (t % 128)) (k12_pay6 (rowsH m c t) (rowsT m c t) (relA m c))
    (k12_pay7 (rowsH m c t) (rowsT m c t) (relA m c)) prev

/-- At a point of the grid it is the step the proof data names. -/
theorem stepN_eq (c : Dev nD) (t : Fin (cfgA m).N) (prev : Vec Ideal S128 .f32) :
    stepN m c t.val prev = stepv (hrow m c t) (trow m c t) (relA m c) (lane m t) prev := by
  unfold stepN stepv
  rw [rowsH_of_lt, rowsT_of_lt]
  show _ = k12_pay2 (BitVec.ofNat 32 (((cfgA m).grid.coords t) 1).val) _ _ prev
  rw [coords1 (adm0 m) t]

/-- The output block after step `t`, by the same recursion as the proof data's, over all the natural numbers. -/
def accN (c : Dev nD) : ℕ → Vec Ideal S128 .f32
  | Nat.zero => stepN m c Nat.zero (k12_pay1 (F := Ideal))
  | Nat.succ t =>
    if (t + 1) % 128 = 0 then stepN m c (t + 1) (k12_pay1 (F := Ideal)) else stepN m c (t + 1) (accN c t)

theorem accN_first (c : Dev nD) (t : ℕ) (h : t % 128 = 0) : accN m c t = stepN m c t (k12_pay1 (F := Ideal)) := by
  cases t with
  | zero => rfl
  | succ t => show (if (t + 1) % 128 = 0 then _ else _) = _; rw [if_pos h]

theorem accN_step (c : Dev nD) (t : ℕ) (h : t % 128 ≠ 0) : accN m c t = stepN m c t (accN m c (t - 1)) := by
  cases t with
  | zero => exact absurd (Nat.zero_mod 128) h
  | succ t => show (if (t + 1) % 128 = 0 then _ else _) = _; rw [if_neg h]; rfl

/-- On the grid it is the proof data's block. -/
theorem accN_eq (c : Dev nD) : ∀ (t : ℕ) (h : t < (cfgA m).N), accN m c t = accA m c t h
  | Nat.zero, h => by
    show stepN m c Nat.zero (k12_pay1 (F := Ideal)) = _
    exact (stepN_eq m c ⟨Nat.zero, h⟩ _).trans (accA_first m c ⟨Nat.zero, h⟩ (Nat.zero_mod 128)).symm
  | Nat.succ t, h => by
    have hp : t < (cfgA m).N := Nat.lt_of_succ_lt h
    show (if (t + 1) % 128 = 0 then _ else _) = _
    by_cases hz : (t + 1) % 128 = 0
    · rw [if_pos hz]
      exact (stepN_eq m c ⟨t + 1, h⟩ _).trans (accA_first m c ⟨t + 1, h⟩ hz).symm
    · rw [if_neg hz, accN_eq c t hp]
      exact (stepN_eq m c ⟨t + 1, h⟩ _).trans (accA_step m c ⟨t + 1, h⟩ hz hp).symm

/-- After the last step of row `i`, lane `k` holds the score of the rows gathered at the row's step `k`. -/
theorem lane_score (c : Dev nD) (i : ℕ) (k : Fin 128) :
    accN m c (128 * i + 127) (ValueIdx.ix1 k)
      = blkScore (rowsH m c (128 * i + k.val)) (rowsT m c (128 * i + k.val)) (relA m c) :=
  row_fold (rowsH m c) (rowsT m c) (relA m c) (accN m c)
    (fun t h y => congrFun (accN_first m c t h) y) (fun t h y => congrFun (accN_step m c t h) y) i k

/-! ## The rows a step gathers -/

/-- The table word read at point `t` is word `t` of the table. -/
theorem tword_at (T : IVec S65536 32) (t : Fin (cfgA m).N) :
    tword T ((cfgA m).grid.coords t) = T (ValueIdx.ix1 ⟨t.val, lt_N (adm0 m) t⟩) := by
  rw [tword_eq]
  exact congrArg T (congrArg ValueIdx.ix1 (Fin.ext (flat_eq (adm0 m) t)))

/-- The score of the two rows step `t` gathered is the specification's score of the rows that word `t` of the head
    table and word `t` of the tail table name. -/
theorem step_score (c : Dev nD) (t : Fin (cfgA m).N) :
    blkScore (hrow m c t) (trow m c t) (relA m c)
      = Cert.Proof.Spec.score (nodeA m c) (relA m c) (rowOf ((hTab m) (ValueIdx.ix1 ⟨t.val, lt_N (adm0 m) t⟩)))
          (rowOf ((tTab m) (ValueIdx.ix1 ⟨t.val, lt_N (adm0 m) t⟩))) := by
  rw [← tword_at m (hTab m) t, ← tword_at m (tTab m) t]
  exact blkScore_rows (nodeA m c) (relA m c) _ _ _ _ (fun _ => rfl) (fun _ => rfl)

/-! ## The output array -/

/-- What region 0 leaves in its output array is the fold of its write-backs. -/
theorem outs_eq (c : Dev nD) :
    (Cert.Proof.KI.outs m 30 main_v44 c : Vec Ideal S65536 .f32) = (dat0 m c).arrAt 1 (cfgA m).N :=
  Pipeline.withArrays_arr spec12 (launch12 (F := Ideal)).win.arr_inj c _ (fun w => (dat0 m c).arrAt w (cfgA m).N) 1

/-- Entry `j` of what region 0 leaves in its output array is the score of the rows the `j`-th words of its two tables
    name. -/
theorem out_read (c : Dev nD) (j : Fin 65536) :
    (Cert.Proof.KI.outs m 30 main_v44 c : Vec Ideal S65536 .f32) (ValueIdx.ix1 j)
      = Cert.Proof.Spec.score (nodeA m c) (relA m c) (Cert.Proof.Spec.rowOf ((hTab m) (ValueIdx.ix1 j)))
          (Cert.Proof.Spec.rowOf ((tTab m) (ValueIdx.ix1 j))) := by
  have hj : j.val < (cfgA m).N := by rw [N_eq (adm0 m)]; exact j.isLt
  have hjj : 128 * (j.val / 128) + j.val % 128 = j.val := by omega
  rw [outs_eq m c, arr_out m c (ValueIdx.ix1 j)]
  show accA m c (128 * (j.val / 128) + 127) (lastOfRow_lt m (ValueIdx.ix1 j))
      (ValueIdx.ix1 ⟨j.val % 128, Nat.mod_lt _ (by decide)⟩) = _
  rw [← accN_eq m c _ (lastOfRow_lt m (ValueIdx.ix1 j)), lane_score m c (j.val / 128) ⟨j.val % 128, Nat.mod_lt _ (by decide)⟩]
  show blkScore (rowsH m c (128 * (j.val / 128) + j.val % 128)) (rowsT m c (128 * (j.val / 128) + j.val % 128)) (relA m c) = _
  rw [hjj, rowsH_of_lt m c ⟨j.val, hj⟩, rowsT_of_lt m c ⟨j.val, hj⟩]
  exact step_score m c ⟨j.val, hj⟩

end Cert.Proof.KI12

end
-- ==== Proof.KI13Value.lean ====
/-
  Region 0, from blocks to the array.

  The output array has 65536 entries in 512 blocks of 128. The block of row `i` of the grid is written back once, after
  the row's last step, point `128 * i + 127`, and holds then what that step left in the staging buffer. The blocks tile
  the array, so after the run entry `j` of the array is lane `j % 128` of what the last step of row `j / 128` left. The
  relation row is an input: its array ends as it entered.
-/
import proofs.«414028_j29231547417249_2_alg».proof.Proof.KI13Data
import proofs.«414028_j29231547417249_2_alg».proof.Proof.KI13Points
import Idealize.ShloMosaic.Lib.Pipeline.Value
import Idealize.ShloMosaic.Lib.Pipeline.Cells
import Idealize.ShloMosaic.Lib.ValueIdx

noncomputable section

namespace Cert.Proof.KI13

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-! ## The last step of an entry's row -/

/-- The last point of the row of the grid that entry `j` of the output array belongs to is a point of the grid. -/
theorem lastOfRow_lt (j : S65536.Idx) : 128 * ((j 0).val / 128) + 127 < (cfgA m).N := by
  have hj : (j 0).val < 65536 := (j 0).isLt
  have hN : (cfgA m).N = 65536 := N_eq (adm0 m)
  omega

/-- The output block after a point depends on the point's number only. -/
theorem accA_congr (c : Dev nD) {k k' : ℕ} (h : k = k') (hk : k < (cfgA m).N) (hk' : k' < (cfgA m).N) :
    accA m c k hk = accA m c k' hk' := by
  subst h; rfl

/-- The whole output array after the run: entry `j` is lane `j % 128` of the block the last step of `j`'s row left. -/
def G1 (c : Dev nD) : S65536.Idx → Elt F .f32 := fun j =>
  accA m c (128 * ((j 0).val / 128) + 127) (lastOfRow_lt m j) (ValueIdx.ix1 ⟨(j 0).val % 128, Nat.mod_lt _ (by decide)⟩)

/-- An entry of that array named through a point and a lane. -/
theorem G1_of (c : Dev nD) (i : S65536.Idx) (k : ℕ) (hk : k < (cfgA m).N) (y : S128.Idx)
    (h1 : 128 * ((i 0).val / 128) + 127 = k) (h2 : (i 0).val % 128 = (y 0).val) : G1 m c i = accA m c k hk y := by
  subst h1
  unfold G1
  refine congrArg _ ?_
  rw [ValueIdx.eq_ix1 y]
  exact congrArg ValueIdx.ix1 (Fin.ext h2)

/-! ## What a flushing point writes back -/

/-- A point that writes the output block back is the last of its row, and what it writes is its block of the whole
    array above. -/
theorem flushed1_eq (c : Dev nD) (t : Fin (cfgA m).N) (hf : ((cfgA m).win 1).flush t = true) :
    (dat0 m c).flushed 1 t = (((cfgA m).win 1).blk t).view.read (Elt F) (G1 m c) := by
  have h127 : t.val % 128 = 127 := by rw [flush1] at hf; exact of_decide_eq_true hf
  refine funext fun (y : S128.Idx) => ?_
  have he := blk1_emb (adm0 m) t y
  have hy : (y 0).val < 128 := (y 0).isLt
  show accA m c t.val t.isLt y = G1 m c ((((cfgA m).win 1).blk t).view.emb y)
  exact (G1_of m c _ t.val t.isLt y (by rw [he]; omega) (by rw [he]; omega)).symm

/-! ## The blocks tile the array -/

/-- An entry of the array is in a point's block iff it is in the block's range. -/
theorem mem_blk1 (t : Fin (cfgA m).N) (i : S65536.Idx) :
    i ∈ (((cfgA m).win 1).blk t).view.set
      ↔ ∀ a : Fin 1, ((cfgA m).win 1).index t a * S128.size a ≤ (i a).val
          ∧ (i a).val < ((cfgA m).win 1).index t a * S128.size a + S128.size a := by
  have hset : (((cfgA m).win 1).blk t).view.set = (((cfgA m).win 1).rect t).set :=
    View.set_slice_whole main_v47 _
  rw [hset]
  exact Rect.mem_set_unit

/-- Every entry is in the block written back at the last point of its row. -/
theorem cover1 (i : S65536.Idx) :
    ∃ t : Fin (cfgA m).N, ((cfgA m).win 1).flush t = true ∧ i ∈ (((cfgA m).win 1).blk t).view.set := by
  have hi : (i 0).val < 65536 := (i 0).isLt
  refine ⟨⟨128 * ((i 0).val / 128) + 127, lastOfRow_lt m i⟩, ?_, ?_⟩
  · rw [flush1]; exact decide_eq_true (by show (128 * ((i 0).val / 128) + 127) % 128 = 127; omega)
  · rw [mem_blk1]
    intro a
    match a with
    | ⟨0, _⟩ =>
      have hx : ((cfgA m).win 1).index ⟨128 * ((i 0).val / 128) + 127, lastOfRow_lt m i⟩ (0 : Fin 1) = (i 0).val / 128 := by
        rw [index1]; show (128 * ((i 0).val / 128) + 127) / 128 = (i 0).val / 128; omega
      show ((cfgA m).win 1).index _ (0 : Fin 1) * 128 ≤ (i 0).val ∧ (i 0).val < ((cfgA m).win 1).index _ (0 : Fin 1) * 128 + 128
      rw [hx]; omega

/-! ## The arrays after the run -/

/-- What the run leaves in the output array at entry `j` is what the last step of `j`'s row left in lane `j % 128`. -/
theorem arr_out (c : Dev nD) (j : S65536.Idx) :
    (dat0 (F := F) m c).arrAt 1 (cfgA m).N j
      = accA m c (128 * ((j 0).val / 128) + 127) (lastOfRow_lt m j)
          (ValueIdx.ix1 ⟨(j 0).val % 128, Nat.mod_lt _ (by decide)⟩) :=
  congrFun ((dat0 m c).arrAt_eq_of_cover 1 (G1 m c) (flushed1_eq m c) (cover1 m)) j

/-- The relation row's array ends as it entered. -/
theorem arr_in (c : Dev nD) : (dat0 (F := F) m c).arrAt 0 (cfgA m).N = m ((c : Thread nD τ).loc main_arg1) :=
  (dat0 m c).arrAt_in 0 rfl _

end Cert.Proof.KI13

end
-- ==== Proof.KI13Final.lean ====
/-
  Region 0's output array at the ideal values is the specification's scores.

  Entry `j` of the output array is lane `j % 128` of the block the last step of row `j / 128` left. The block after
  each step is a fold over the steps of the row so far: a row's first step adds its contribution onto the zero block,
  every other step onto the block before. Step `t` contributes the score of the two table rows it gathered, on lane
  `t % 128` only. So after a row's last step lane `k` holds the score of the rows gathered at the row's step `k`: for
  entry `j` that is step `j` itself, whose rows are the rows of the node table that word `j` of the head table and
  word `j` of the tail table name.
-/
import proofs.«414028_j29231547417249_2_alg».proof.Proof.KI13Value
import proofs.«414028_j29231547417249_2_alg».proof.Proof.KernelMath
import proofs.«414028_j29231547417249_2_alg».proof.Proof.KIDats
import Idealize.ShloMosaic.Lib.Pipeline.FrameSuffix
import Idealize.ShloMosaic.Lib.ValueIdx

noncomputable section

namespace Cert.Proof.KI13

open Cert.KernelIdeal Cert.KernelIdeal.Gen Cert.KernelIdeal.GenP
open Idealize.ShloMosaic Idealize.ShloMosaic.TcCoe Idealize.SL.Sem
open Idealize.ShloMosaic.Pipeline (Dat)
open Cert.Proof.Spec Cert.Proof.KernelMath

variable (m : (ℓ : Loc nD τ sig) → Buf (Elt Ideal) ℓ)

/-! ## The steps of the run, numbered by the natural numbers -/

/-- The head row and the tail row gathered at step `t`; past the grid, any block. -/
def rowsH (c : Dev nD) (t : ℕ) : Vec Ideal S1x256 .f32 := if h : t < (cfgA m).N then hrow m c ⟨t, h⟩ else relA m c
def rowsT (c : Dev nD) (t : ℕ) : Vec Ideal S1x256 .f32 := if h : t < (cfgA m).N then trow m c ⟨t, h⟩ else relA m c

theorem rowsH_of_lt (c : Dev nD) (t : Fin (cfgA m).N) : rowsH m c t.val = hrow m c t := dif_pos t.isLt
theorem rowsT_of_lt (c : Dev nD) (t : Fin (cfgA m).N) : rowsT m c t.val = trow m c t := dif_pos t.isLt

/-- The body's step number `t`: the step's contribution added, on lane `t % 128`, to the block `prev`. -/
def stepN (c : Dev nD) (t : ℕ) (prev : Vec Ideal S128 .f32) : Vec Ideal S128 .f32 :=
  k13_pay2 (F := Ideal) (BitVec.ofNat 32 (t % 128)) (k13_pay6 (rowsH m c t) (rowsT m c t) (relA m c))
    (k13_pay7 (rowsH m c t) (rowsT m c t) (relA m c)) prev

/-- At a point of the grid it is the step the proof data names. -/
theorem stepN_eq (c : Dev nD) (t : Fin (cfgA m).N) (prev : Vec Ideal S128 .f32) :
    stepN m c t.val prev = stepv (hrow m c t) (trow m c t) (relA m c) (lane m t) prev := by
  unfold stepN stepv
  rw [rowsH_of_lt, rowsT_of_lt]
  show _ = k13_pay2 (BitVec.ofNat 32 (((cfgA m).grid.coords t) 1).val) _ _ prev
  rw [coords1 (adm0 m) t]

/-- The output block after step `t`, by the same recursion as the proof data's, over all the natural numbers. -/
def accN (c : Dev nD) : ℕ → Vec Ideal S128 .f32
  | Nat.zero => stepN m c Nat.zero (k13_pay1 (F := Ideal))
  | Nat.succ t =>
    if (t + 1) % 128 = 0 then stepN m c (t + 1) (k13_pay1 (F := Ideal)) else stepN m c (t + 1) (accN c t)

theorem accN_first (c : Dev nD) (t : ℕ) (h : t % 128 = 0) : accN m c t = stepN m c t (k13_pay1 (F := Ideal)) := by
  cases t with
  | zero => rfl
  | succ t => show (if (t + 1) % 128 = 0 then _ else _) = _; rw [if_pos h]

theorem accN_step (c : Dev nD) (t : ℕ) (h : t % 128 ≠ 0) : accN m c t = stepN m c t (accN m c (t - 1)) := by
  cases t with
  | zero => exact absurd (Nat.zero_mod 128) h
  | succ t => show (if (t + 1) % 128 = 0 then _ else _) = _; rw [if_neg h]; rfl

/-- On the grid it is the proof data's block. -/
theorem accN_eq (c : Dev nD) : ∀ (t : ℕ) (h : t < (cfgA m).N), accN m c t = accA m c t h
  | Nat.zero, h => by
    show stepN m c Nat.zero (k13_pay1 (F := Ideal)) = _
    exact (stepN_eq m c ⟨Nat.zero, h⟩ _).trans (accA_first m c ⟨Nat.zero, h⟩ (Nat.zero_mod 128)).symm
  | Nat.succ t, h => by
    have hp : t < (cfgA m).N := Nat.lt_of_succ_lt h
    show (if (t + 1) % 128 = 0 then _ else _) = _
    by_cases hz : (t + 1) % 128 = 0
    · rw [if_pos hz]
      exact (stepN_eq m c ⟨t + 1, h⟩ _).trans (accA_first m c ⟨t + 1, h⟩ hz).symm
    · rw [if_neg hz, accN_eq c t hp]
      exact (stepN_eq m c ⟨t + 1, h⟩ _).trans (accA_step m c ⟨t + 1, h⟩ hz hp).symm

/-- After the last step of row `i`, lane `k` holds the score of the rows gathered at the row's step `k`. -/
theorem lane_score (c : Dev nD) (i : ℕ) (k : Fin 128) :
    accN m c (128 * i + 127) (ValueIdx.ix1 k)
      = blkScore (rowsH m c (128 * i + k.val)) (rowsT m c (128 * i + k.val)) (relA m c) :=
  row_fold (rowsH m c) (rowsT m c) (relA m c) (accN m c)
    (fun t h y => congrFun (accN_first m c t h) y) (fun t h y => congrFun (accN_step m c t h) y) i k

/-! ## The rows a step gathers -/

/-- The table word read at point `t` is word `t` of the table. -/
theorem tword_at (T : IVec S65536 32) (t : Fin (cfgA m).N) :
    tword T ((cfgA m).grid.coords t) = T (ValueIdx.ix1 ⟨t.val, lt_N (adm0 m) t⟩) := by
  rw [tword_eq]
  exact congrArg T (congrArg ValueIdx.ix1 (Fin.ext (flat_eq (adm0 m) t)))

/-- The score of the two rows step `t` gathered is the specification's score of the rows that word `t` of the head
    table and word `t` of the tail table name. -/
theorem step_score (c : Dev nD) (t : Fin (cfgA m).N) :
    blkScore (hrow m c t) (trow m c t) (relA m c)
      = Cert.Proof.Spec.score (nodeA m c) (relA m c) (rowOf ((hTab m) (ValueIdx.ix1 ⟨t.val, lt_N (adm0 m) t⟩)))
          (rowOf ((tTab m) (ValueIdx.ix1 ⟨t.val, lt_N (adm0 m) t⟩))) := by
  rw [← tword_at m (hTab m) t, ← tword_at m (tTab m) t]
  exact blkScore_rows (nodeA m c) (relA m c) _ _ _ _ (fun _ => rfl) (fun _ => rfl)

/-! ## The output array -/

/-- What region 0 leaves in its output array is the fold of its write-backs. -/
theorem outs_eq (c : Dev nD) :
    (Cert.Proof.KI.outs m 32 main_v47 c : Vec Ideal S65536 .f32) = (dat0 m c).arrAt 1 (cfgA m).N :=
  Pipeline.withArrays_arr spec13 (launch13 (F := Ideal)).win.arr_inj c _ (fun w => (dat0 m c).arrAt w (cfgA m).N) 1

/-- Entry `j` of what region 0 leaves in its output array is the score of the rows the `j`-th words of its two tables
    name. -/
theorem out_read (c : Dev nD) (j : Fin 65536) :
    (Cert.Proof.KI.outs m 32 main_v47 c : Vec Ideal S65536 .f32) (ValueIdx.ix1 j)
      = Cert.Proof.Spec.score (nodeA m c) (relA m c) (Cert.Proof.Spec.rowOf ((hTab m) (ValueIdx.ix1 j)))
          (Cert.Proof.Spec.rowOf ((tTab m) (ValueIdx.ix1 j))) := by
  have hj : j.val < (cfgA m).N := by rw [N_eq (adm0 m)]; exact j.isLt
  have hjj : 128 * (j.val / 128) + j.val % 128 = j.val := by omega
  rw [outs_eq m c, arr_out m c (ValueIdx.ix1 j)]
  show accA m c (128 * (j.val / 128) + 127) (lastOfRow_lt m (ValueIdx.ix1 j))
      (ValueIdx.ix1 ⟨j.val % 128, Nat.mod_lt _ (by decide)⟩) = _
  rw [← accN_eq m c _ (lastOfRow_lt m (ValueIdx.ix1 j)), lane_score m c (j.val / 128) ⟨j.val % 128, Nat.mod_lt _ (by decide)⟩]
  show blkScore (rowsH m c (128 * (j.val / 128) + j.val % 128)) (rowsT m c (128 * (j.val / 128) + j.val % 128)) (relA m c) = _
  rw [hjj, rowsH_of_lt m c ⟨j.val, hj⟩, rowsT_of_lt m c ⟨j.val, hj⟩]
  exact step_score m c ⟨j.val, hj⟩

end Cert.Proof.KI13

end
-- ==== Proof.KI14Value.lean ====
/-
  Region 0, from blocks to the array.

  The output array has 65536 entries in 512 blocks of 128. The block of row `i` of the grid is written back once, after
  the row's last step, point `128 * i + 127`, and holds then what that step left in the staging buffer. The blocks tile
  the array, so after the run entry `j` of the array is lane `j % 128` of what the last step of row `j / 128` left. The
  relation row is an input: its array ends as it entered.
-/
import proofs.«414028_j29231547417249_2_alg».proof.Proof.KI14Data
import proofs.«414028_j29231547417249_2_alg».proof.Proof.KI14Points
import Idealize.ShloMosaic.Lib.Pipeline.Value
import Idealize.ShloMosaic.Lib.Pipeline.Cells
import Idealize.ShloMosaic.Lib.ValueIdx

noncomputable section

namespace Cert.Proof.KI14

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-! ## The last step of an entry's row -/

/-- The last point of the row of the grid that entry `j` of the output array belongs to is a point of the grid. -/
theorem lastOfRow_lt (j : S65536.Idx) : 128 * ((j 0).val / 128) + 127 < (cfgA m).N := by
  have hj : (j 0).val < 65536 := (j 0).isLt
  have hN : (cfgA m).N = 65536 := N_eq (adm0 m)
  omega

/-- The output block after a point depends on the point's number only. -/
theorem accA_congr (c : Dev nD) {k k' : ℕ} (h : k = k') (hk : k < (cfgA m).N) (hk' : k' < (cfgA m).N) :
    accA m c k hk = accA m c k' hk' := by
  subst h; rfl

/-- The whole output array after the run: entry `j` is lane `j % 128` of the block the last step of `j`'s row left. -/
def G1 (c : Dev nD) : S65536.Idx → Elt F .f32 := fun j =>
  accA m c (128 * ((j 0).val / 128) + 127) (lastOfRow_lt m j) (ValueIdx.ix1 ⟨(j 0).val % 128, Nat.mod_lt _ (by decide)⟩)

/-- An entry of that array named through a point and a lane. -/
theorem G1_of (c : Dev nD) (i : S65536.Idx) (k : ℕ) (hk : k < (cfgA m).N) (y : S128.Idx)
    (h1 : 128 * ((i 0).val / 128) + 127 = k) (h2 : (i 0).val % 128 = (y 0).val) : G1 m c i = accA m c k hk y := by
  subst h1
  unfold G1
  refine congrArg _ ?_
  rw [ValueIdx.eq_ix1 y]
  exact congrArg ValueIdx.ix1 (Fin.ext h2)

/-! ## What a flushing point writes back -/

/-- A point that writes the output block back is the last of its row, and what it writes is its block of the whole
    array above. -/
theorem flushed1_eq (c : Dev nD) (t : Fin (cfgA m).N) (hf : ((cfgA m).win 1).flush t = true) :
    (dat0 m c).flushed 1 t = (((cfgA m).win 1).blk t).view.read (Elt F) (G1 m c) := by
  have h127 : t.val % 128 = 127 := by rw [flush1] at hf; exact of_decide_eq_true hf
  refine funext fun (y : S128.Idx) => ?_
  have he := blk1_emb (adm0 m) t y
  have hy : (y 0).val < 128 := (y 0).isLt
  show accA m c t.val t.isLt y = G1 m c ((((cfgA m).win 1).blk t).view.emb y)
  exact (G1_of m c _ t.val t.isLt y (by rw [he]; omega) (by rw [he]; omega)).symm

/-! ## The blocks tile the array -/

/-- An entry of the array is in a point's block iff it is in the block's range. -/
theorem mem_blk1 (t : Fin (cfgA m).N) (i : S65536.Idx) :
    i ∈ (((cfgA m).win 1).blk t).view.set
      ↔ ∀ a : Fin 1, ((cfgA m).win 1).index t a * S128.size a ≤ (i a).val
          ∧ (i a).val < ((cfgA m).win 1).index t a * S128.size a + S128.size a := by
  have hset : (((cfgA m).win 1).blk t).view.set = (((cfgA m).win 1).rect t).set :=
    View.set_slice_whole main_v50 _
  rw [hset]
  exact Rect.mem_set_unit

/-- Every entry is in the block written back at the last point of its row. -/
theorem cover1 (i : S65536.Idx) :
    ∃ t : Fin (cfgA m).N, ((cfgA m).win 1).flush t = true ∧ i ∈ (((cfgA m).win 1).blk t).view.set := by
  have hi : (i 0).val < 65536 := (i 0).isLt
  refine ⟨⟨128 * ((i 0).val / 128) + 127, lastOfRow_lt m i⟩, ?_, ?_⟩
  · rw [flush1]; exact decide_eq_true (by show (128 * ((i 0).val / 128) + 127) % 128 = 127; omega)
  · rw [mem_blk1]
    intro a
    match a with
    | ⟨0, _⟩ =>
      have hx : ((cfgA m).win 1).index ⟨128 * ((i 0).val / 128) + 127, lastOfRow_lt m i⟩ (0 : Fin 1) = (i 0).val / 128 := by
        rw [index1]; show (128 * ((i 0).val / 128) + 127) / 128 = (i 0).val / 128; omega
      show ((cfgA m).win 1).index _ (0 : Fin 1) * 128 ≤ (i 0).val ∧ (i 0).val < ((cfgA m).win 1).index _ (0 : Fin 1) * 128 + 128
      rw [hx]; omega

/-! ## The arrays after the run -/

/-- What the run leaves in the output array at entry `j` is what the last step of `j`'s row left in lane `j % 128`. -/
theorem arr_out (c : Dev nD) (j : S65536.Idx) :
    (dat0 (F := F) m c).arrAt 1 (cfgA m).N j
      = accA m c (128 * ((j 0).val / 128) + 127) (lastOfRow_lt m j)
          (ValueIdx.ix1 ⟨(j 0).val % 128, Nat.mod_lt _ (by decide)⟩) :=
  congrFun ((dat0 m c).arrAt_eq_of_cover 1 (G1 m c) (flushed1_eq m c) (cover1 m)) j

/-- The relation row's array ends as it entered. -/
theorem arr_in (c : Dev nD) : (dat0 (F := F) m c).arrAt 0 (cfgA m).N = m ((c : Thread nD τ).loc main_arg1) :=
  (dat0 m c).arrAt_in 0 rfl _

end Cert.Proof.KI14

end
-- ==== Proof.KI14Final.lean ====
/-
  Region 0's output array at the ideal values is the specification's scores.

  Entry `j` of the output array is lane `j % 128` of the block the last step of row `j / 128` left. The block after
  each step is a fold over the steps of the row so far: a row's first step adds its contribution onto the zero block,
  every other step onto the block before. Step `t` contributes the score of the two table rows it gathered, on lane
  `t % 128` only. So after a row's last step lane `k` holds the score of the rows gathered at the row's step `k`: for
  entry `j` that is step `j` itself, whose rows are the rows of the node table that word `j` of the head table and
  word `j` of the tail table name.
-/
import proofs.«414028_j29231547417249_2_alg».proof.Proof.KI14Value
import proofs.«414028_j29231547417249_2_alg».proof.Proof.KernelMath
import proofs.«414028_j29231547417249_2_alg».proof.Proof.KIDats
import Idealize.ShloMosaic.Lib.Pipeline.FrameSuffix
import Idealize.ShloMosaic.Lib.ValueIdx

noncomputable section

namespace Cert.Proof.KI14

open Cert.KernelIdeal Cert.KernelIdeal.Gen Cert.KernelIdeal.GenP
open Idealize.ShloMosaic Idealize.ShloMosaic.TcCoe Idealize.SL.Sem
open Idealize.ShloMosaic.Pipeline (Dat)
open Cert.Proof.Spec Cert.Proof.KernelMath

variable (m : (ℓ : Loc nD τ sig) → Buf (Elt Ideal) ℓ)

/-! ## The steps of the run, numbered by the natural numbers -/

/-- The head row and the tail row gathered at step `t`; past the grid, any block. -/
def rowsH (c : Dev nD) (t : ℕ) : Vec Ideal S1x256 .f32 := if h : t < (cfgA m).N then hrow m c ⟨t, h⟩ else relA m c
def rowsT (c : Dev nD) (t : ℕ) : Vec Ideal S1x256 .f32 := if h : t < (cfgA m).N then trow m c ⟨t, h⟩ else relA m c

theorem rowsH_of_lt (c : Dev nD) (t : Fin (cfgA m).N) : rowsH m c t.val = hrow m c t := dif_pos t.isLt
theorem rowsT_of_lt (c : Dev nD) (t : Fin (cfgA m).N) : rowsT m c t.val = trow m c t := dif_pos t.isLt

/-- The body's step number `t`: the step's contribution added, on lane `t % 128`, to the block `prev`. -/
def stepN (c : Dev nD) (t : ℕ) (prev : Vec Ideal S128 .f32) : Vec Ideal S128 .f32 :=
  k14_pay2 (F := Ideal) (BitVec.ofNat 32 (t % 128)) (k14_pay6 (rowsH m c t) (rowsT m c t) (relA m c))
    (k14_pay7 (rowsH m c t) (rowsT m c t) (relA m c)) prev

/-- At a point of the grid it is the step the proof data names. -/
theorem stepN_eq (c : Dev nD) (t : Fin (cfgA m).N) (prev : Vec Ideal S128 .f32) :
    stepN m c t.val prev = stepv (hrow m c t) (trow m c t) (relA m c) (lane m t) prev := by
  unfold stepN stepv
  rw [rowsH_of_lt, rowsT_of_lt]
  show _ = k14_pay2 (BitVec.ofNat 32 (((cfgA m).grid.coords t) 1).val) _ _ prev
  rw [coords1 (adm0 m) t]

/-- The output block after step `t`, by the same recursion as the proof data's, over all the natural numbers. -/
def accN (c : Dev nD) : ℕ → Vec Ideal S128 .f32
  | Nat.zero => stepN m c Nat.zero (k14_pay1 (F := Ideal))
  | Nat.succ t =>
    if (t + 1) % 128 = 0 then stepN m c (t + 1) (k14_pay1 (F := Ideal)) else stepN m c (t + 1) (accN c t)

theorem accN_first (c : Dev nD) (t : ℕ) (h : t % 128 = 0) : accN m c t = stepN m c t (k14_pay1 (F := Ideal)) := by
  cases t with
  | zero => rfl
  | succ t => show (if (t + 1) % 128 = 0 then _ else _) = _; rw [if_pos h]

theorem accN_step (c : Dev nD) (t : ℕ) (h : t % 128 ≠ 0) : accN m c t = stepN m c t (accN m c (t - 1)) := by
  cases t with
  | zero => exact absurd (Nat.zero_mod 128) h
  | succ t => show (if (t + 1) % 128 = 0 then _ else _) = _; rw [if_neg h]; rfl

/-- On the grid it is the proof data's block. -/
theorem accN_eq (c : Dev nD) : ∀ (t : ℕ) (h : t < (cfgA m).N), accN m c t = accA m c t h
  | Nat.zero, h => by
    show stepN m c Nat.zero (k14_pay1 (F := Ideal)) = _
    exact (stepN_eq m c ⟨Nat.zero, h⟩ _).trans (accA_first m c ⟨Nat.zero, h⟩ (Nat.zero_mod 128)).symm
  | Nat.succ t, h => by
    have hp : t < (cfgA m).N := Nat.lt_of_succ_lt h
    show (if (t + 1) % 128 = 0 then _ else _) = _
    by_cases hz : (t + 1) % 128 = 0
    · rw [if_pos hz]
      exact (stepN_eq m c ⟨t + 1, h⟩ _).trans (accA_first m c ⟨t + 1, h⟩ hz).symm
    · rw [if_neg hz, accN_eq c t hp]
      exact (stepN_eq m c ⟨t + 1, h⟩ _).trans (accA_step m c ⟨t + 1, h⟩ hz hp).symm

/-- After the last step of row `i`, lane `k` holds the score of the rows gathered at the row's step `k`. -/
theorem lane_score (c : Dev nD) (i : ℕ) (k : Fin 128) :
    accN m c (128 * i + 127) (ValueIdx.ix1 k)
      = blkScore (rowsH m c (128 * i + k.val)) (rowsT m c (128 * i + k.val)) (relA m c) :=
  row_fold (rowsH m c) (rowsT m c) (relA m c) (accN m c)
    (fun t h y => congrFun (accN_first m c t h) y) (fun t h y => congrFun (accN_step m c t h) y) i k

/-! ## The rows a step gathers -/

/-- The table word read at point `t` is word `t` of the table. -/
theorem tword_at (T : IVec S65536 32) (t : Fin (cfgA m).N) :
    tword T ((cfgA m).grid.coords t) = T (ValueIdx.ix1 ⟨t.val, lt_N (adm0 m) t⟩) := by
  rw [tword_eq]
  exact congrArg T (congrArg ValueIdx.ix1 (Fin.ext (flat_eq (adm0 m) t)))

/-- The score of the two rows step `t` gathered is the specification's score of the rows that word `t` of the head
    table and word `t` of the tail table name. -/
theorem step_score (c : Dev nD) (t : Fin (cfgA m).N) :
    blkScore (hrow m c t) (trow m c t) (relA m c)
      = Cert.Proof.Spec.score (nodeA m c) (relA m c) (rowOf ((hTab m) (ValueIdx.ix1 ⟨t.val, lt_N (adm0 m) t⟩)))
          (rowOf ((tTab m) (ValueIdx.ix1 ⟨t.val, lt_N (adm0 m) t⟩))) := by
  rw [← tword_at m (hTab m) t, ← tword_at m (tTab m) t]
  exact blkScore_rows (nodeA m c) (relA m c) _ _ _ _ (fun _ => rfl) (fun _ => rfl)

/-! ## The output array -/

/-- What region 0 leaves in its output array is the fold of its write-backs. -/
theorem outs_eq (c : Dev nD) :
    (Cert.Proof.KI.outs m 34 main_v50 c : Vec Ideal S65536 .f32) = (dat0 m c).arrAt 1 (cfgA m).N :=
  Pipeline.withArrays_arr spec14 (launch14 (F := Ideal)).win.arr_inj c _ (fun w => (dat0 m c).arrAt w (cfgA m).N) 1

/-- Entry `j` of what region 0 leaves in its output array is the score of the rows the `j`-th words of its two tables
    name. -/
theorem out_read (c : Dev nD) (j : Fin 65536) :
    (Cert.Proof.KI.outs m 34 main_v50 c : Vec Ideal S65536 .f32) (ValueIdx.ix1 j)
      = Cert.Proof.Spec.score (nodeA m c) (relA m c) (Cert.Proof.Spec.rowOf ((hTab m) (ValueIdx.ix1 j)))
          (Cert.Proof.Spec.rowOf ((tTab m) (ValueIdx.ix1 j))) := by
  have hj : j.val < (cfgA m).N := by rw [N_eq (adm0 m)]; exact j.isLt
  have hjj : 128 * (j.val / 128) + j.val % 128 = j.val := by omega
  rw [outs_eq m c, arr_out m c (ValueIdx.ix1 j)]
  show accA m c (128 * (j.val / 128) + 127) (lastOfRow_lt m (ValueIdx.ix1 j))
      (ValueIdx.ix1 ⟨j.val % 128, Nat.mod_lt _ (by decide)⟩) = _
  rw [← accN_eq m c _ (lastOfRow_lt m (ValueIdx.ix1 j)), lane_score m c (j.val / 128) ⟨j.val % 128, Nat.mod_lt _ (by decide)⟩]
  show blkScore (rowsH m c (128 * (j.val / 128) + j.val % 128)) (rowsT m c (128 * (j.val / 128) + j.val % 128)) (relA m c) = _
  rw [hjj, rowsH_of_lt m c ⟨j.val, hj⟩, rowsT_of_lt m c ⟨j.val, hj⟩]
  exact step_score m c ⟨j.val, hj⟩

end Cert.Proof.KI14

end
-- ==== Proof.KI15Value.lean ====
/-
  Region 0, from blocks to the array.

  The output array has 65536 entries in 512 blocks of 128. The block of row `i` of the grid is written back once, after
  the row's last step, point `128 * i + 127`, and holds then what that step left in the staging buffer. The blocks tile
  the array, so after the run entry `j` of the array is lane `j % 128` of what the last step of row `j / 128` left. The
  relation row is an input: its array ends as it entered.
-/
import proofs.«414028_j29231547417249_2_alg».proof.Proof.KI15Data
import proofs.«414028_j29231547417249_2_alg».proof.Proof.KI15Points
import Idealize.ShloMosaic.Lib.Pipeline.Value
import Idealize.ShloMosaic.Lib.Pipeline.Cells
import Idealize.ShloMosaic.Lib.ValueIdx

noncomputable section

namespace Cert.Proof.KI15

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-! ## The last step of an entry's row -/

/-- The last point of the row of the grid that entry `j` of the output array belongs to is a point of the grid. -/
theorem lastOfRow_lt (j : S65536.Idx) : 128 * ((j 0).val / 128) + 127 < (cfgA m).N := by
  have hj : (j 0).val < 65536 := (j 0).isLt
  have hN : (cfgA m).N = 65536 := N_eq (adm0 m)
  omega

/-- The output block after a point depends on the point's number only. -/
theorem accA_congr (c : Dev nD) {k k' : ℕ} (h : k = k') (hk : k < (cfgA m).N) (hk' : k' < (cfgA m).N) :
    accA m c k hk = accA m c k' hk' := by
  subst h; rfl

/-- The whole output array after the run: entry `j` is lane `j % 128` of the block the last step of `j`'s row left. -/
def G1 (c : Dev nD) : S65536.Idx → Elt F .f32 := fun j =>
  accA m c (128 * ((j 0).val / 128) + 127) (lastOfRow_lt m j) (ValueIdx.ix1 ⟨(j 0).val % 128, Nat.mod_lt _ (by decide)⟩)

/-- An entry of that array named through a point and a lane. -/
theorem G1_of (c : Dev nD) (i : S65536.Idx) (k : ℕ) (hk : k < (cfgA m).N) (y : S128.Idx)
    (h1 : 128 * ((i 0).val / 128) + 127 = k) (h2 : (i 0).val % 128 = (y 0).val) : G1 m c i = accA m c k hk y := by
  subst h1
  unfold G1
  refine congrArg _ ?_
  rw [ValueIdx.eq_ix1 y]
  exact congrArg ValueIdx.ix1 (Fin.ext h2)

/-! ## What a flushing point writes back -/

/-- A point that writes the output block back is the last of its row, and what it writes is its block of the whole
    array above. -/
theorem flushed1_eq (c : Dev nD) (t : Fin (cfgA m).N) (hf : ((cfgA m).win 1).flush t = true) :
    (dat0 m c).flushed 1 t = (((cfgA m).win 1).blk t).view.read (Elt F) (G1 m c) := by
  have h127 : t.val % 128 = 127 := by rw [flush1] at hf; exact of_decide_eq_true hf
  refine funext fun (y : S128.Idx) => ?_
  have he := blk1_emb (adm0 m) t y
  have hy : (y 0).val < 128 := (y 0).isLt
  show accA m c t.val t.isLt y = G1 m c ((((cfgA m).win 1).blk t).view.emb y)
  exact (G1_of m c _ t.val t.isLt y (by rw [he]; omega) (by rw [he]; omega)).symm

/-! ## The blocks tile the array -/

/-- An entry of the array is in a point's block iff it is in the block's range. -/
theorem mem_blk1 (t : Fin (cfgA m).N) (i : S65536.Idx) :
    i ∈ (((cfgA m).win 1).blk t).view.set
      ↔ ∀ a : Fin 1, ((cfgA m).win 1).index t a * S128.size a ≤ (i a).val
          ∧ (i a).val < ((cfgA m).win 1).index t a * S128.size a + S128.size a := by
  have hset : (((cfgA m).win 1).blk t).view.set = (((cfgA m).win 1).rect t).set :=
    View.set_slice_whole main_v53 _
  rw [hset]
  exact Rect.mem_set_unit

/-- Every entry is in the block written back at the last point of its row. -/
theorem cover1 (i : S65536.Idx) :
    ∃ t : Fin (cfgA m).N, ((cfgA m).win 1).flush t = true ∧ i ∈ (((cfgA m).win 1).blk t).view.set := by
  have hi : (i 0).val < 65536 := (i 0).isLt
  refine ⟨⟨128 * ((i 0).val / 128) + 127, lastOfRow_lt m i⟩, ?_, ?_⟩
  · rw [flush1]; exact decide_eq_true (by show (128 * ((i 0).val / 128) + 127) % 128 = 127; omega)
  · rw [mem_blk1]
    intro a
    match a with
    | ⟨0, _⟩ =>
      have hx : ((cfgA m).win 1).index ⟨128 * ((i 0).val / 128) + 127, lastOfRow_lt m i⟩ (0 : Fin 1) = (i 0).val / 128 := by
        rw [index1]; show (128 * ((i 0).val / 128) + 127) / 128 = (i 0).val / 128; omega
      show ((cfgA m).win 1).index _ (0 : Fin 1) * 128 ≤ (i 0).val ∧ (i 0).val < ((cfgA m).win 1).index _ (0 : Fin 1) * 128 + 128
      rw [hx]; omega

/-! ## The arrays after the run -/

/-- What the run leaves in the output array at entry `j` is what the last step of `j`'s row left in lane `j % 128`. -/
theorem arr_out (c : Dev nD) (j : S65536.Idx) :
    (dat0 (F := F) m c).arrAt 1 (cfgA m).N j
      = accA m c (128 * ((j 0).val / 128) + 127) (lastOfRow_lt m j)
          (ValueIdx.ix1 ⟨(j 0).val % 128, Nat.mod_lt _ (by decide)⟩) :=
  congrFun ((dat0 m c).arrAt_eq_of_cover 1 (G1 m c) (flushed1_eq m c) (cover1 m)) j

/-- The relation row's array ends as it entered. -/
theorem arr_in (c : Dev nD) : (dat0 (F := F) m c).arrAt 0 (cfgA m).N = m ((c : Thread nD τ).loc main_arg1) :=
  (dat0 m c).arrAt_in 0 rfl _

end Cert.Proof.KI15

end
-- ==== Proof.KI15Final.lean ====
/-
  Region 0's output array at the ideal values is the specification's scores.

  Entry `j` of the output array is lane `j % 128` of the block the last step of row `j / 128` left. The block after
  each step is a fold over the steps of the row so far: a row's first step adds its contribution onto the zero block,
  every other step onto the block before. Step `t` contributes the score of the two table rows it gathered, on lane
  `t % 128` only. So after a row's last step lane `k` holds the score of the rows gathered at the row's step `k`: for
  entry `j` that is step `j` itself, whose rows are the rows of the node table that word `j` of the head table and
  word `j` of the tail table name.
-/
import proofs.«414028_j29231547417249_2_alg».proof.Proof.KI15Value
import proofs.«414028_j29231547417249_2_alg».proof.Proof.KernelMath
import proofs.«414028_j29231547417249_2_alg».proof.Proof.KIDats
import Idealize.ShloMosaic.Lib.Pipeline.FrameSuffix
import Idealize.ShloMosaic.Lib.ValueIdx

noncomputable section

namespace Cert.Proof.KI15

open Cert.KernelIdeal Cert.KernelIdeal.Gen Cert.KernelIdeal.GenP
open Idealize.ShloMosaic Idealize.ShloMosaic.TcCoe Idealize.SL.Sem
open Idealize.ShloMosaic.Pipeline (Dat)
open Cert.Proof.Spec Cert.Proof.KernelMath

variable (m : (ℓ : Loc nD τ sig) → Buf (Elt Ideal) ℓ)

/-! ## The steps of the run, numbered by the natural numbers -/

/-- The head row and the tail row gathered at step `t`; past the grid, any block. -/
def rowsH (c : Dev nD) (t : ℕ) : Vec Ideal S1x256 .f32 := if h : t < (cfgA m).N then hrow m c ⟨t, h⟩ else relA m c
def rowsT (c : Dev nD) (t : ℕ) : Vec Ideal S1x256 .f32 := if h : t < (cfgA m).N then trow m c ⟨t, h⟩ else relA m c

theorem rowsH_of_lt (c : Dev nD) (t : Fin (cfgA m).N) : rowsH m c t.val = hrow m c t := dif_pos t.isLt
theorem rowsT_of_lt (c : Dev nD) (t : Fin (cfgA m).N) : rowsT m c t.val = trow m c t := dif_pos t.isLt

/-- The body's step number `t`: the step's contribution added, on lane `t % 128`, to the block `prev`. -/
def stepN (c : Dev nD) (t : ℕ) (prev : Vec Ideal S128 .f32) : Vec Ideal S128 .f32 :=
  k15_pay2 (F := Ideal) (BitVec.ofNat 32 (t % 128)) (k15_pay6 (rowsH m c t) (rowsT m c t) (relA m c))
    (k15_pay7 (rowsH m c t) (rowsT m c t) (relA m c)) prev

/-- At a point of the grid it is the step the proof data names. -/
theorem stepN_eq (c : Dev nD) (t : Fin (cfgA m).N) (prev : Vec Ideal S128 .f32) :
    stepN m c t.val prev = stepv (hrow m c t) (trow m c t) (relA m c) (lane m t) prev := by
  unfold stepN stepv
  rw [rowsH_of_lt, rowsT_of_lt]
  show _ = k15_pay2 (BitVec.ofNat 32 (((cfgA m).grid.coords t) 1).val) _ _ prev
  rw [coords1 (adm0 m) t]

/-- The output block after step `t`, by the same recursion as the proof data's, over all the natural numbers. -/
def accN (c : Dev nD) : ℕ → Vec Ideal S128 .f32
  | Nat.zero => stepN m c Nat.zero (k15_pay1 (F := Ideal))
  | Nat.succ t =>
    if (t + 1) % 128 = 0 then stepN m c (t + 1) (k15_pay1 (F := Ideal)) else stepN m c (t + 1) (accN c t)

theorem accN_first (c : Dev nD) (t : ℕ) (h : t % 128 = 0) : accN m c t = stepN m c t (k15_pay1 (F := Ideal)) := by
  cases t with
  | zero => rfl
  | succ t => show (if (t + 1) % 128 = 0 then _ else _) = _; rw [if_pos h]

theorem accN_step (c : Dev nD) (t : ℕ) (h : t % 128 ≠ 0) : accN m c t = stepN m c t (accN m c (t - 1)) := by
  cases t with
  | zero => exact absurd (Nat.zero_mod 128) h
  | succ t => show (if (t + 1) % 128 = 0 then _ else _) = _; rw [if_neg h]; rfl

/-- On the grid it is the proof data's block. -/
theorem accN_eq (c : Dev nD) : ∀ (t : ℕ) (h : t < (cfgA m).N), accN m c t = accA m c t h
  | Nat.zero, h => by
    show stepN m c Nat.zero (k15_pay1 (F := Ideal)) = _
    exact (stepN_eq m c ⟨Nat.zero, h⟩ _).trans (accA_first m c ⟨Nat.zero, h⟩ (Nat.zero_mod 128)).symm
  | Nat.succ t, h => by
    have hp : t < (cfgA m).N := Nat.lt_of_succ_lt h
    show (if (t + 1) % 128 = 0 then _ else _) = _
    by_cases hz : (t + 1) % 128 = 0
    · rw [if_pos hz]
      exact (stepN_eq m c ⟨t + 1, h⟩ _).trans (accA_first m c ⟨t + 1, h⟩ hz).symm
    · rw [if_neg hz, accN_eq c t hp]
      exact (stepN_eq m c ⟨t + 1, h⟩ _).trans (accA_step m c ⟨t + 1, h⟩ hz hp).symm

/-- After the last step of row `i`, lane `k` holds the score of the rows gathered at the row's step `k`. -/
theorem lane_score (c : Dev nD) (i : ℕ) (k : Fin 128) :
    accN m c (128 * i + 127) (ValueIdx.ix1 k)
      = blkScore (rowsH m c (128 * i + k.val)) (rowsT m c (128 * i + k.val)) (relA m c) :=
  row_fold (rowsH m c) (rowsT m c) (relA m c) (accN m c)
    (fun t h y => congrFun (accN_first m c t h) y) (fun t h y => congrFun (accN_step m c t h) y) i k

/-! ## The rows a step gathers -/

/-- The table word read at point `t` is word `t` of the table. -/
theorem tword_at (T : IVec S65536 32) (t : Fin (cfgA m).N) :
    tword T ((cfgA m).grid.coords t) = T (ValueIdx.ix1 ⟨t.val, lt_N (adm0 m) t⟩) := by
  rw [tword_eq]
  exact congrArg T (congrArg ValueIdx.ix1 (Fin.ext (flat_eq (adm0 m) t)))

/-- The score of the two rows step `t` gathered is the specification's score of the rows that word `t` of the head
    table and word `t` of the tail table name. -/
theorem step_score (c : Dev nD) (t : Fin (cfgA m).N) :
    blkScore (hrow m c t) (trow m c t) (relA m c)
      = Cert.Proof.Spec.score (nodeA m c) (relA m c) (rowOf ((hTab m) (ValueIdx.ix1 ⟨t.val, lt_N (adm0 m) t⟩)))
          (rowOf ((tTab m) (ValueIdx.ix1 ⟨t.val, lt_N (adm0 m) t⟩))) := by
  rw [← tword_at m (hTab m) t, ← tword_at m (tTab m) t]
  exact blkScore_rows (nodeA m c) (relA m c) _ _ _ _ (fun _ => rfl) (fun _ => rfl)

/-! ## The output array -/

/-- What region 0 leaves in its output array is the fold of its write-backs. -/
theorem outs_eq (c : Dev nD) :
    (Cert.Proof.KI.outs m 36 main_v53 c : Vec Ideal S65536 .f32) = (dat0 m c).arrAt 1 (cfgA m).N :=
  Pipeline.withArrays_arr spec15 (launch15 (F := Ideal)).win.arr_inj c _ (fun w => (dat0 m c).arrAt w (cfgA m).N) 1

/-- Entry `j` of what region 0 leaves in its output array is the score of the rows the `j`-th words of its two tables
    name. -/
theorem out_read (c : Dev nD) (j : Fin 65536) :
    (Cert.Proof.KI.outs m 36 main_v53 c : Vec Ideal S65536 .f32) (ValueIdx.ix1 j)
      = Cert.Proof.Spec.score (nodeA m c) (relA m c) (Cert.Proof.Spec.rowOf ((hTab m) (ValueIdx.ix1 j)))
          (Cert.Proof.Spec.rowOf ((tTab m) (ValueIdx.ix1 j))) := by
  have hj : j.val < (cfgA m).N := by rw [N_eq (adm0 m)]; exact j.isLt
  have hjj : 128 * (j.val / 128) + j.val % 128 = j.val := by omega
  rw [outs_eq m c, arr_out m c (ValueIdx.ix1 j)]
  show accA m c (128 * (j.val / 128) + 127) (lastOfRow_lt m (ValueIdx.ix1 j))
      (ValueIdx.ix1 ⟨j.val % 128, Nat.mod_lt _ (by decide)⟩) = _
  rw [← accN_eq m c _ (lastOfRow_lt m (ValueIdx.ix1 j)), lane_score m c (j.val / 128) ⟨j.val % 128, Nat.mod_lt _ (by decide)⟩]
  show blkScore (rowsH m c (128 * (j.val / 128) + j.val % 128)) (rowsT m c (128 * (j.val / 128) + j.val % 128)) (relA m c) = _
  rw [hjj, rowsH_of_lt m c ⟨j.val, hj⟩, rowsT_of_lt m c ⟨j.val, hj⟩]
  exact step_score m c ⟨j.val, hj⟩

end Cert.Proof.KI15

end
-- ==== Proof.KIFinal.lean ====
/-
  The program's result at the ideal instance is the specification. The last valuation's result buffer, read at an
  edge `e`, is entry `e % 65536` of the output of region `e / 65536`; that region's output there is the score of the two
  table rows its tables name; and its tables' words there are the index array's two words at `e`.
-/
import proofs.«414028_j29231547417249_2_alg».proof.Proof.KIValueCond
import proofs.«414028_j29231547417249_2_alg».proof.Proof.Spec
import proofs.«414028_j29231547417249_2_alg».proof.Proof.KITables
import proofs.«414028_j29231547417249_2_alg».proof.Proof.KI0Final
import proofs.«414028_j29231547417249_2_alg».proof.Proof.KI1Final
import proofs.«414028_j29231547417249_2_alg».proof.Proof.KI2Final
import proofs.«414028_j29231547417249_2_alg».proof.Proof.KI3Final
import proofs.«414028_j29231547417249_2_alg».proof.Proof.KI4Final
import proofs.«414028_j29231547417249_2_alg».proof.Proof.KI5Final
import proofs.«414028_j29231547417249_2_alg».proof.Proof.KI6Final
import proofs.«414028_j29231547417249_2_alg».proof.Proof.KI7Final
import proofs.«414028_j29231547417249_2_alg».proof.Proof.KI8Final
import proofs.«414028_j29231547417249_2_alg».proof.Proof.KI9Final
import proofs.«414028_j29231547417249_2_alg».proof.Proof.KI10Final
import proofs.«414028_j29231547417249_2_alg».proof.Proof.KI11Final
import proofs.«414028_j29231547417249_2_alg».proof.Proof.KI12Final
import proofs.«414028_j29231547417249_2_alg».proof.Proof.KI13Final
import proofs.«414028_j29231547417249_2_alg».proof.Proof.KI14Final
import proofs.«414028_j29231547417249_2_alg».proof.Proof.KI15Final
import Idealize.ShloMosaic.Lib.ValueIdx

noncomputable section

namespace Cert.Proof.KI

open Cert.KernelIdeal Cert.KernelIdeal.Gen Cert.KernelIdeal.GenP
open Idealize.ShloMosaic Idealize.ShloMosaic.TcCoe Idealize.SL.Sem
open Idealize.ShloMosaic.ValueIdx

variable (m : (ℓ : Loc nD τ sig) → Buf (Elt Ideal) ℓ)

/-- One region's share of the result. Given the region's output `o` read at an index as the score of the rows its two
    tables name there, and the tables' words as the index array's words 65536·K further on: entry `e % 65536` of `o`,
    for an edge `e` of quotient `K`, is the specification's entry `e`. -/
theorem piece (c : Dev nD) (e : Fin 1000000) (K : ℕ) (hK : e.val / 65536 = K)
    (o : Vec Ideal S65536 .f32) (hT tT : IVec S65536 32)
    (ho : ∀ j : Fin 65536, o (ix1 j) = Cert.Proof.Spec.score (m ((c : Thread nD τ).loc main_arg0)) (m ((c : Thread nD τ).loc main_arg1))
      (Cert.Proof.Spec.rowOf (hT (ix1 j))) (Cert.Proof.Spec.rowOf (tT (ix1 j))))
    (hh : ∀ j : Fin 65536, hT (ix1 j) = padRow m 0 0 (65536 * K + j.val))
    (ht : ∀ j : Fin 65536, tT (ix1 j) = padRow m 0 1 (65536 * K + j.val)) :
    o (ix1 ⟨e.val % 65536, Nat.mod_lt _ (by decide)⟩)
      = Cert.Proof.Spec.G (m ((c : Thread nD τ).loc main_arg0)) (m ((c : Thread nD τ).loc main_arg1)) (m ((c : Thread nD τ).loc main_arg2)) (ix1 e) := by
  have hc : c = 0 := Subsingleton.elim _ _
  have he : 65536 * K + e.val % 65536 = e.val := by rw [← hK]; exact Nat.div_add_mod _ _
  rw [ho, hh, ht]
  simp only [he]
  unfold padRow
  rw [dif_pos e.isLt, dif_pos e.isLt, hc]
  rfl

/-- The program's result at the ideal instance is the specification: entry `e` of the result buffer is the score of
    the two table rows the index array's words at `e` name. -/
theorem result_eq (c : Dev nD) :
    (V37 m (outs m) c main_v55 : (⟨S1000000, .f32⟩ : BufTy).Contents (Elt Ideal))
      = Cert.Proof.Spec.G (m ((c : Thread nD τ).loc main_arg0)) (m ((c : Thread nD τ).loc main_arg1)) (m ((c : Thread nD τ).loc main_arg2)) := by
  funext i
  obtain ⟨e, rfl⟩ : ∃ e : Fin 1000000, i = ix1 e := ⟨i 0, eq_ix1 i⟩
  rw [tail_apply]
  -- the quotient of `e` by 65536 names one of the sixteen regions
  have key : ∀ (K : Fin 16) (hK : e.val / 65536 = K.val),
      chunk (outs m) c K (ix1 ⟨e.val % 65536, Nat.mod_lt _ (by decide)⟩)
        = Cert.Proof.Spec.G (m ((c : Thread nD τ).loc main_arg0)) (m ((c : Thread nD τ).loc main_arg1)) (m ((c : Thread nD τ).loc main_arg2)) (ix1 e) := by
    intro K hK
    match K, hK with
    | ⟨0, _⟩, hK => exact piece m c e 0 hK (outs m 6 main_v8 c) (Cert.Proof.KI0.hTab m) (Cert.Proof.KI0.tTab m) (Cert.Proof.KI0.out_read m c) (tbl0_read0 m) (tbl0_read1 m)
    | ⟨1, _⟩, hK => exact piece m c e 1 hK (outs m 8 main_v11 c) (Cert.Proof.KI1.hTab m) (Cert.Proof.KI1.tTab m) (Cert.Proof.KI1.out_read m c) (tbl1_read0 m) (tbl1_read1 m)
    | ⟨2, _⟩, hK => exact piece m c e 2 hK (outs m 10 main_v14 c) (Cert.Proof.KI2.hTab m) (Cert.Proof.KI2.tTab m) (Cert.Proof.KI2.out_read m c) (tbl2_read0 m) (tbl2_read1 m)
    | ⟨3, _⟩, hK => exact piece m c e 3 hK (outs m 12 main_v17 c) (Cert.Proof.KI3.hTab m) (Cert.Proof.KI3.tTab m) (Cert.Proof.KI3.out_read m c) (tbl3_read0 m) (tbl3_read1 m)
    | ⟨4, _⟩, hK => exact piece m c e 4 hK (outs m 14 main_v20 c) (Cert.Proof.KI4.hTab m) (Cert.Proof.KI4.tTab m) (Cert.Proof.KI4.out_read m c) (tbl4_read0 m) (tbl4_read1 m)
    | ⟨5, _⟩, hK => exact piece m c e 5 hK (outs m 16 main_v23 c) (Cert.Proof.KI5.hTab m) (Cert.Proof.KI5.tTab m) (Cert.Proof.KI5.out_read m c) (tbl5_read0 m) (tbl5_read1 m)
    | ⟨6, _⟩, hK => exact piece m c e 6 hK (outs m 18 main_v26 c) (Cert.Proof.KI6.hTab m) (Cert.Proof.KI6.tTab m) (Cert.Proof.KI6.out_read m c) (tbl6_read0 m) (tbl6_read1 m)
    | ⟨7, _⟩, hK => exact piece m c e 7 hK (outs m 20 main_v29 c) (Cert.Proof.KI7.hTab m) (Cert.Proof.KI7.tTab m) (Cert.Proof.KI7.out_read m c) (tbl7_read0 m) (tbl7_read1 m)
    | ⟨8, _⟩, hK => exact piece m c e 8 hK (outs m 22 main_v32 c) (Cert.Proof.KI8.hTab m) (Cert.Proof.KI8.tTab m) (Cert.Proof.KI8.out_read m c) (tbl8_read0 m) (tbl8_read1 m)
    | ⟨9, _⟩, hK => exact piece m c e 9 hK (outs m 24 main_v35 c) (Cert.Proof.KI9.hTab m) (Cert.Proof.KI9.tTab m) (Cert.Proof.KI9.out_read m c) (tbl9_read0 m) (tbl9_read1 m)
    | ⟨10, _⟩, hK => exact piece m c e 10 hK (outs m 26 main_v38 c) (Cert.Proof.KI10.hTab m) (Cert.Proof.KI10.tTab m) (Cert.Proof.KI10.out_read m c) (tbl10_read0 m) (tbl10_read1 m)
    | ⟨11, _⟩, hK => exact piece m c e 11 hK (outs m 28 main_v41 c) (Cert.Proof.KI11.hTab m) (Cert.Proof.KI11.tTab m) (Cert.Proof.KI11.out_read m c) (tbl11_read0 m) (tbl11_read1 m)
    | ⟨12, _⟩, hK => exact piece m c e 12 hK (outs m 30 main_v44 c) (Cert.Proof.KI12.hTab m) (Cert.Proof.KI12.tTab m) (Cert.Proof.KI12.out_read m c) (tbl12_read0 m) (tbl12_read1 m)
    | ⟨13, _⟩, hK => exact piece m c e 13 hK (outs m 32 main_v47 c) (Cert.Proof.KI13.hTab m) (Cert.Proof.KI13.tTab m) (Cert.Proof.KI13.out_read m c) (tbl13_read0 m) (tbl13_read1 m)
    | ⟨14, _⟩, hK => exact piece m c e 14 hK (outs m 34 main_v50 c) (Cert.Proof.KI14.hTab m) (Cert.Proof.KI14.tTab m) (Cert.Proof.KI14.out_read m c) (tbl14_read0 m) (tbl14_read1 m)
    | ⟨15, _⟩, hK => exact piece m c e 15 hK (outs m 36 main_v53 c) (Cert.Proof.KI15.hTab m) (Cert.Proof.KI15.tTab m) (Cert.Proof.KI15.out_read m c) (tbl15_read0 m) (tbl15_read1 m)
    | ⟨n + 16, h⟩, _ => exact absurd h (by omega)
  exact key ⟨e.val / 65536, by have := e.isLt; omega⟩ rfl

end Cert.Proof.KI

end
-- ==== Proof.RefValue.lean ====
/-
  The reference's result, read index by index, is the specification's score of the two rows an edge names.

  The reference takes each of the two rows of the index array, wraps a negative index word by adding the table's
  height, gathers the named rows of the node table, splits each gathered row and the relation row into a real half
  (columns 0..127) and an imaginary half (columns 128..255), and sums over the 128 features
      hr * rr * tr + hi * rr * ti + hr * ri * ti - hi * ri * tr
  from zero. Every index word is assumed to be a row number of the table (below 200000): such a word read as a signed
  integer is itself, is not negative, so the wrap leaves it alone, and the gather's clamp into the table is the
  identity. So the gathered row is the table's row at the word, which is the specification's `rowOf` of the word.
-/
import proofs.«414028_j29231547417249_2_alg».proof.Proof.Gen.ReferenceIdeal.Run
import proofs.«414028_j29231547417249_2_alg».proof.Proof.Gen.ReferenceIdeal.Read
import proofs.«414028_j29231547417249_2_alg».proof.Proof.Spec
import Idealize.ShloMosaic.Lib.ValueIdx
import Idealize.ShloMosaic.Lib.Pipeline.Value
import Idealize.ShloMosaic.PureOps.Ideal.Laws

noncomputable section

open scoped BigOperators

namespace Cert.Proof.RefValue

open Idealize.ShloMosaic Idealize.ShloMosaic.TcCoe Idealize.SL.Sem Idealize.ShloMosaic.StableHlo
open Idealize.ShloMosaic.ValueIdx
open Cert.ReferenceIdeal Cert.ReferenceIdeal.Gen Cert.ReferenceIdeal.Read
open Cert.Proof.Spec

/-! ## Index words in range -/

/-- A word below the table's height is below 2^31, so read as a signed integer it is its own natural number. -/
theorem toInt_toNat_of_lt (w : BitVec 32) (h : w.toNat < 200000) : w.toInt.toNat = w.toNat := by
  rw [BitVec.toInt_eq_toNat_of_lt (by omega)]
  exact Int.toNat_natCast _

/-- Such a word is not negative as a signed integer, so the wrap of negative indices (add the table's height when
    the word is below zero) returns the word itself. -/
theorem wrap_of_lt (w : BitVec 32) (h : w.toNat < 200000) :
    Scalar.select (IntOp.cmpi .slt w 0#32) (IntOp.addi w 200000#32) w = w := by
  have hs : IntOp.cmpi .slt w 0#32 = 0#1 := by
    show BitVec.ofBool (w.slt 0#32) = 0#1
    rw [BitVec.slt_eq_decide, BitVec.toInt_eq_toNat_of_lt (by omega), BitVec.toInt_zero,
      decide_eq_false (by omega)]
    rfl
  rw [hs]
  exact select_zero _ _

/-- The table row a start-index word selects: the word read signed, clamped into the table. -/
def startRow (w : BitVec 32) : Fin 200000 := ⟨min w.toInt.toNat 199999, by omega⟩

/-- For a word in range the selected row is the specification's row of the word. -/
theorem startRow_of_lt (w : BitVec 32) (h : w.toNat < 200000) : startRow w = rowOf w := by
  refine Fin.ext ?_
  show min w.toInt.toNat 199999 = min w.toNat 199999
  rw [toInt_toNat_of_lt w h]

/-! ## The gather of the table's rows, read at an index

The operand is the table `[200000, 256]`, the start indices `[1000000, 1]` hold one word per edge, and the result
`[1000000, 256]` has row `e` equal to the table's row at edge `e`'s word: axis 0 of the operand is collapsed and
addressed by the start index (read signed, clamped so that the one-row slice fits), axis 1 is the offset axis,
addressed by the result's column. -/

/-- The gather's dimension numbers. -/
abbrev gd : GatherDims S200000x256 S1000000x1 S1000000x256 :=
  gather_S200000x256_S1000000x1_S1000000x256_1_0_n_n_0_1_1256

/-- Entry `(e, q)` of the gathered array is the table at the row edge `e`'s word selects, column `q`. -/
theorem gather_row_apply {α : Type} (x : S200000x256.Idx → α) (idx : IVec S1000000x1 32) (e : Fin 1000000)
    (q : Fin 256) :
    Host.gather gd x idx (ix2 e q) = x (ix2 (startRow (idx (ix2 e (0 : Fin 1)))) q) := by
  unfold Host.gather
  congr 1
  funext a
  refine Fin.ext ?_
  match a with
  | ⟨0, _⟩ =>
    show gd.start (ix2 e q) idx 0 + gd.batchCoord (ix2 e q) 0 + gd.offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix2 e q) ⟨List.idxOf (0 : Fin 2) gd.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gd.start (ix2 e q) idx 1 + gd.batchCoord (ix2 e q) 1 + gd.offCoord (ix2 e q) 1 = _
    rw [GatherDims.batchCoord_eq_zero _ _ _ List.not_mem_nil]
    unfold GatherDims.start
    rw [dif_neg (show (1 : Fin 2) ∉ gd.startIndexMap by decide)]
    unfold GatherDims.offCoord
    rw [dif_pos (show (1 : Fin 2) ∈ gd.sKept by decide)]
    show 0 + 0 + (ix2 e q (gd.offsetDims[gd.sKept.idxOf (1 : Fin 2)]'_)).val = q.val
    simp only [Nat.zero_add]
    rfl

/-! ## The start-index words -/

section Stages

variable (x0 : (⟨S200000x256, .f32⟩ : BufTy).Contents (Elt Ideal)) (x1 : (⟨S1x256, .f32⟩ : BufTy).Contents (Elt Ideal))
  (x2 : (⟨S2x1000000, .i32⟩ : BufTy).Contents (Elt Ideal))

/-- Edge `e`'s head start index is its word in row 0 of the index array. -/
theorem start_head (e : Fin 1000000) (h : (x2 (ix2 (0 : Fin 2) e)).toNat < 200000) :
    val_main_v7 (F := Ideal) x2 (ix2 e (0 : Fin 1)) = x2 (ix2 (0 : Fin 2) e) := by
  have h1 : val_main_v1 (F := Ideal) x2 (idx_main_v7 (ix2 e (0 : Fin 1))) = x2 (ix2 (0 : Fin 2) e) := by
    rw [val_main_v1_apply, val_main_v0_apply]
    refine congrArg x2 (funext fun a => ?_)
    match a with
    | ⟨0, _⟩ => rfl
    | ⟨1, _⟩ => exact Fin.ext (Nat.mod_eq_of_lt e.isLt)
  rw [val_main_v7_apply, val_main_v6_apply, val_main_v3_apply, val_main_v5_apply, val_main_v2_apply,
    val_main_v4_apply, val_main_c_apply, val_main_c_0_apply, h1]
  exact wrap_of_lt _ h

/-- Edge `e`'s tail start index is its word in row 1 of the index array. -/
theorem start_tail (e : Fin 1000000) (h : (x2 (ix2 (1 : Fin 2) e)).toNat < 200000) :
    val_main_v16 (F := Ideal) x2 (ix2 e (0 : Fin 1)) = x2 (ix2 (1 : Fin 2) e) := by
  have h1 : val_main_v10 (F := Ideal) x2 (idx_main_v16 (ix2 e (0 : Fin 1))) = x2 (ix2 (1 : Fin 2) e) := by
    rw [val_main_v10_apply, val_main_v9_apply]
    refine congrArg x2 (funext fun a => ?_)
    match a with
    | ⟨0, _⟩ => rfl
    | ⟨1, _⟩ => exact Fin.ext (Nat.mod_eq_of_lt e.isLt)
  rw [val_main_v16_apply, val_main_v15_apply, val_main_v12_apply, val_main_v14_apply, val_main_v11_apply,
    val_main_v13_apply, val_main_c_1_apply, val_main_c_2_apply, h1]
  exact wrap_of_lt _ h

/-! ## The gathered rows and their halves -/

/-- The gathered head row of edge `e` is the table's row at the head word. -/
theorem head_row (e : Fin 1000000) (q : Fin 256) (h : (x2 (ix2 (0 : Fin 2) e)).toNat < 200000) :
    val_main_v8 (F := Ideal) x0 x2 (ix2 e q) = x0 (ix2 (rowOf (x2 (ix2 (0 : Fin 2) e))) q) := by
  unfold val_main_v8
  rw [gather_row_apply, start_head x2 e h, startRow_of_lt _ h]

/-- The gathered tail row of edge `e` is the table's row at the tail word. -/
theorem tail_row (e : Fin 1000000) (q : Fin 256) (h : (x2 (ix2 (1 : Fin 2) e)).toNat < 200000) :
    val_main_v17 (F := Ideal) x0 x2 (ix2 e q) = x0 (ix2 (rowOf (x2 (ix2 (1 : Fin 2) e))) q) := by
  unfold val_main_v17
  rw [gather_row_apply, start_tail x2 e h, startRow_of_lt _ h]

/-- The head row's real half at feature `k`. -/
theorem head_re (e : Fin 1000000) (k : Fin 128) (h : (x2 (ix2 (0 : Fin 2) e)).toNat < 200000) :
    val_main_v18 (F := Ideal) x0 x2 (ix2 e k) = x0 (ix2 (rowOf (x2 (ix2 (0 : Fin 2) e))) (reCol k)) := by
  have hi : idx_main_v18 (ix2 e k) = ix2 e (reCol k) :=
    funext fun a => match a with | ⟨0, _⟩ => rfl | ⟨1, _⟩ => rfl
  rw [val_main_v18_apply, hi, head_row x0 x2 e _ h]

/-- The head row's imaginary half at feature `k`. -/
theorem head_im (e : Fin 1000000) (k : Fin 128) (h : (x2 (ix2 (0 : Fin 2) e)).toNat < 200000) :
    val_main_v19 (F := Ideal) x0 x2 (ix2 e k) = x0 (ix2 (rowOf (x2 (ix2 (0 : Fin 2) e))) (imCol k)) := by
  have hi : idx_main_v19 (ix2 e k) = ix2 e (imCol k) :=
    funext fun a => match a with | ⟨0, _⟩ => rfl | ⟨1, _⟩ => rfl
  rw [val_main_v19_apply, hi, head_row x0 x2 e _ h]

/-- The tail row's real half at feature `k`. -/
theorem tail_re (e : Fin 1000000) (k : Fin 128) (h : (x2 (ix2 (1 : Fin 2) e)).toNat < 200000) :
    val_main_v20 (F := Ideal) x0 x2 (ix2 e k) = x0 (ix2 (rowOf (x2 (ix2 (1 : Fin 2) e))) (reCol k)) := by
  have hi : idx_main_v20 (ix2 e k) = ix2 e (reCol k) :=
    funext fun a => match a with | ⟨0, _⟩ => rfl | ⟨1, _⟩ => rfl
  rw [val_main_v20_apply, hi, tail_row x0 x2 e _ h]

/-- The tail row's imaginary half at feature `k`. -/
theorem tail_im (e : Fin 1000000) (k : Fin 128) (h : (x2 (ix2 (1 : Fin 2) e)).toNat < 200000) :
    val_main_v21 (F := Ideal) x0 x2 (ix2 e k) = x0 (ix2 (rowOf (x2 (ix2 (1 : Fin 2) e))) (imCol k)) := by
  have hi : idx_main_v21 (ix2 e k) = ix2 e (imCol k) :=
    funext fun a => match a with | ⟨0, _⟩ => rfl | ⟨1, _⟩ => rfl
  rw [val_main_v21_apply, hi, tail_row x0 x2 e _ h]

/-! ## The relation row's halves, broadcast over the edges -/

/-- The relation row flattened, at column `q`. -/
theorem rel_flat (q : Fin 256) : val_main_v22 (F := Ideal) x1 (ix1 q) = x1 (ix2 (0 : Fin 1) q) := by
  rw [val_main_v22_apply]
  refine congrArg x1 (funext fun a => ?_)
  match a with
  | ⟨0, _⟩ => rfl
  | ⟨1, _⟩ => exact Fin.ext (Nat.mod_eq_of_lt q.isLt)

/-- The real half of the relation row at feature `k`. -/
theorem rel_re_half (k : Fin 128) : val_main_v23 (F := Ideal) x1 (ix1 k) = x1 (ix2 (0 : Fin 1) (reCol k)) := by
  have hi : idx_main_v23 (ix1 k) = ix1 (reCol k) := funext fun a => match a with | ⟨0, _⟩ => rfl
  rw [val_main_v23_apply, hi, rel_flat]

/-- The imaginary half of the relation row at feature `k`. -/
theorem rel_im_half (k : Fin 128) : val_main_v24 (F := Ideal) x1 (ix1 k) = x1 (ix2 (0 : Fin 1) (imCol k)) := by
  have hi : idx_main_v24 (ix1 k) = ix1 (imCol k) := funext fun a => match a with | ⟨0, _⟩ => rfl
  rw [val_main_v24_apply, hi, rel_flat]

/-- The four broadcasts of a half of the relation row over the edges, at edge `e` and feature `k`. -/
theorem rel_re_a (e : Fin 1000000) (k : Fin 128) :
    val_main_v26 (F := Ideal) x1 (ix2 e k) = x1 (ix2 (0 : Fin 1) (reCol k)) := by
  have hi : idx_main_v25 (idx_main_v26 (ix2 e k)) = ix1 k := funext fun a => match a with | ⟨0, _⟩ => rfl
  rw [val_main_v26_apply, val_main_v25_apply, hi, rel_re_half]

theorem rel_re_b (e : Fin 1000000) (k : Fin 128) :
    val_main_v30 (F := Ideal) x1 (ix2 e k) = x1 (ix2 (0 : Fin 1) (reCol k)) := by
  have hi : idx_main_v29 (idx_main_v30 (ix2 e k)) = ix1 k := funext fun a => match a with | ⟨0, _⟩ => rfl
  rw [val_main_v30_apply, val_main_v29_apply, hi, rel_re_half]

theorem rel_im_a (e : Fin 1000000) (k : Fin 128) :
    val_main_v35 (F := Ideal) x1 (ix2 e k) = x1 (ix2 (0 : Fin 1) (imCol k)) := by
  have hi : idx_main_v34 (idx_main_v35 (ix2 e k)) = ix1 k := funext fun a => match a with | ⟨0, _⟩ => rfl
  rw [val_main_v35_apply, val_main_v34_apply, hi, rel_im_half]

theorem rel_im_b (e : Fin 1000000) (k : Fin 128) :
    val_main_v40 (F := Ideal) x1 (ix2 e k) = x1 (ix2 (0 : Fin 1) (imCol k)) := by
  have hi : idx_main_v39 (idx_main_v40 (ix2 e k)) = ix1 k := funext fun a => match a with | ⟨0, _⟩ => rfl
  rw [val_main_v40_apply, val_main_v39_apply, hi, rel_im_half]

/-! ## The result -/

/-- Feature `k`'s summand at edge `e` is the specification's term of the rows the edge's two words name. -/
theorem summand (e : Fin 1000000) (k : Fin 128) (h0 : (x2 (ix2 (0 : Fin 2) e)).toNat < 200000)
    (h1 : (x2 (ix2 (1 : Fin 2) e)).toNat < 200000) :
    val_main_v43 (F := Ideal) x0 x1 x2 (ix2 e k)
      = term x0 x1 (rowOf (x2 (ix2 (0 : Fin 2) e))) (rowOf (x2 (ix2 (1 : Fin 2) e))) k := by
  rw [val_main_v43_apply, val_main_v38_apply, val_main_v42_apply, val_main_v33_apply, val_main_v37_apply,
    val_main_v41_apply, val_main_v28_apply, val_main_v32_apply, val_main_v36_apply, val_main_v27_apply,
    val_main_v31_apply,
    head_re x0 x2 e k h0, head_im x0 x2 e k h0, tail_re x0 x2 e k h1, tail_im x0 x2 e k h1,
    rel_re_a, rel_re_b, rel_im_a, rel_im_b]
  rfl

/-- The reference's result is the specification's, when every index word is a row number of the table. -/
theorem value (hidx : ∀ i : S2x1000000.Idx, (x2 i).toNat < 200000) :
    val_main_v44 (F := Ideal) x0 x1 x2 = G x0 x1 x2 := by
  funext j
  obtain ⟨e, rfl⟩ : ∃ e : Fin 1000000, j = ix1 e := ⟨j 0, eq_ix1 j⟩
  rw [val_main_v44_apply, val_main_cst_apply, Ideal.ofBits_def, Ideal.ofBits_zero_f32]
  show _ = 0 + ∑ k : Fin 128, term x0 x1 (rowOf (x2 (ix2 (0 : Fin 2) e))) (rowOf (x2 (ix2 (1 : Fin 2) e))) k
  refine congrArg (0 + ·) (Finset.sum_congr rfl fun k _ => ?_)
  have hi : idx_main_v44 (ix1 e) k = ix2 e k := funext fun a => match a with | ⟨0, _⟩ => rfl | ⟨1, _⟩ => rfl
  rw [hi]
  exact summand x0 x1 x2 e k (hidx _) (hidx _)

end Stages

/-! ## The run -/

open Cert.ReferenceIdeal in
theorem run (m' : (ℓ : Loc nD τ sig) → Buf (Elt Ideal) ℓ) (g' : Dev nD → PrngReg)
    (hidx : ∀ (c : Dev nD) (i : S2x1000000.Idx), (m' ((c.tc : Thread nD τ).loc main_arg2) i).toNat < 200000) :
    θ_run (defs (F := Ideal)) (onTc (τ := τ) (main (F := Ideal))) ⟨m', fun _ => 0, g'⟩ (fun r => ∀ c : Dev nD,
      r.2.mem ((c.tc : Thread nD τ).loc main_v44)
          = Cert.Proof.Spec.G (m' ((c.tc : Thread nD τ).loc main_arg0)) (m' ((c.tc : Thread nD τ).loc main_arg1)) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run defs _ _).mono
    (fun _ h c => ⟨(h c).1.trans ((val_main_v44_eq m' c).trans (value _ _ _ (hidx c))), (h c).2⟩)
    (Cert.ReferenceIdeal.Value.run (F := Ideal) m' g')

end Cert.Proof.RefValue

end
-- ==== Proof.PreFacts.lean ====
/-
  The precondition read back at one index word. The printed predicate is a conjunction of four all-reductions; the last two
  say, of every word of the index table, that it is at least 0 and below 200000 read signed. A word in that signed range is
  below 200000 read unsigned: it names a row of a 200000-row table. The two float conjuncts are split off and left closed,
  so the fact holds over every float family.
-/
import proofs.«414028_j29231547417249_2_alg».proof.Pre_finite_inputs
import Idealize.ShloMosaic.Lib.ReduceAll
import Idealize.ShloMosaic.Lib.StableHlo.Predicate
import Idealize.ShloMosaic.Lib.ValueIdx

namespace Cert.Proof.PreFacts

open Idealize.ShloMosaic Cert.Pre_finite_inputs

/-- The rank-0 shape has one index. -/
instance : Subsingleton S_.Idx := ⟨fun a b => funext fun d => d.elim0⟩

/-- A word between 0 and 200000 read signed is below 200000 read unsigned. -/
theorem toNat_lt_of_signed (w : BitVec 32) (h0 : (0#32 : BitVec 32).toInt ≤ w.toInt)
    (h1 : w.toInt < (200000#32 : BitVec 32).toInt) : w.toNat < 200000 := by
  have e0 : (0#32 : BitVec 32).toInt = 0 := by decide
  have e1 : (200000#32 : BitVec 32).toInt = 200000 := by decide
  rw [e0] at h0
  rw [e1] at h1
  have hw := w.isLt
  rw [BitVec.toInt_eq_toNat_cond] at h0 h1
  split at h0 <;> omega

/-- Every index word, read as a natural number, is a row number of the 200000-row table. -/
theorem idx_lt {F : FTy → Type} [FloatOps F] [Cert.Pre_finite_inputs.Facts]
    (a0 : FVec F Cert.Pre_finite_inputs.S200000x256 .f32) (a1 : FVec F Cert.Pre_finite_inputs.S1x256 .f32)
    (a2 : IVec Cert.Pre_finite_inputs.S2x1000000 32)
    (h : Cert.Pre_finite_inputs.fn (F := F) a0 a1 a2 = fun _ => 1#1)
    (i : Cert.Pre_finite_inputs.S2x1000000.Idx) : (a2 i).toNat < 200000 := by
  have e := congrFun h ValueIdx.ix0
  dsimp only [fn, fn_part1] at e
  simp only [andi] at e
  rw [IntOp.andi_eq_one, IntOp.andi_eq_one] at e
  obtain ⟨⟨_, hge⟩, hlt⟩ := e
  -- each all-reduction that is 1 is 1 at index i
  have g := Host.reduce_andi_all _ _ _ _ _ hge i
  have l := Host.reduce_andi_all _ _ _ _ _ hlt i
  -- the compared words at i: the index word against the broadcast constant
  simp only [cmpi, StableHlo.Predicate.bcast_scalar _ Facts.h_S_, constantI] at g l
  rw [IntOp.cmpi_sge] at g
  rw [IntOp.cmpi_slt] at l
  exact toNat_lt_of_signed _ g l

end Cert.Proof.PreFacts
-- ==== Proof.Claims.lean ====
/-
  The certificate's conjuncts, assembled. The precondition bounds every index word by the node table's 200000 rows; under
  it the kernel program runs at any float family, and at the ideal one its result array is the specification's scores
  (each edge's 128 terms, grouped as both programs group them, summed from zero), which is also what the reference's run
  leaves: so both programs end with one array, entry by entry, and every argument as launched.
-/
import proofs.«414028_j29231547417249_2_alg».proof.Defs
import proofs.«414028_j29231547417249_2_alg».proof.Proof.KIRun
import proofs.«414028_j29231547417249_2_alg».proof.Proof.KBRun
import proofs.«414028_j29231547417249_2_alg».proof.Proof.KIFinal
import proofs.«414028_j29231547417249_2_alg».proof.Proof.RefValue
import proofs.«414028_j29231547417249_2_alg».proof.Proof.PreFacts
import proofs.«414028_j29231547417249_2_alg».proof.Proof.Gen.Kernel
import proofs.«414028_j29231547417249_2_alg».proof.Proof.Gen.KernelIdeal
import proofs.«414028_j29231547417249_2_alg».proof.Proof.Gen.ReferenceIdeal
import proofs.«414028_j29231547417249_2_alg».proof.Proof.Gen.Pre_finite_inputs

noncomputable section

namespace Cert.Proof.Claims

open Idealize.ShloMosaic Idealize.ShloMosaic.TcCoe Idealize.SL.Sem

/-- Under the precondition every index word of the bit-level program's index array names a row of the node table. -/
theorem idx_kb (m : (ℓ : Loc Cert.Kernel.nD Cert.Kernel.τ Cert.Kernel.sig) → Buf (Elt Bits) ℓ) (h : Cert.Pre_Kernel m)
    (i : Cert.Kernel.S2x1000000.Idx) :
    ((m (((0 : Dev Cert.Kernel.nD) : Thread Cert.Kernel.nD Cert.Kernel.τ).loc Cert.Kernel.main_arg2) : IVec Cert.Kernel.S2x1000000 32) i).toNat < 200000 :=
  Cert.Proof.PreFacts.idx_lt (F := Bits) _ _ _ (h 0) i

/-- Under the precondition every index word of the kernel program's index array names a row of the node table. -/
theorem idx_ki (m : (ℓ : Loc Cert.KernelIdeal.nD Cert.KernelIdeal.τ Cert.KernelIdeal.sig) → Buf (Elt Ideal) ℓ) (h : Cert.Pre_KernelIdeal m)
    (i : Cert.KernelIdeal.S2x1000000.Idx) :
    ((m (((0 : Dev Cert.KernelIdeal.nD) : Thread Cert.KernelIdeal.nD Cert.KernelIdeal.τ).loc Cert.KernelIdeal.main_arg2) : IVec Cert.KernelIdeal.S2x1000000 32) i).toNat < 200000 :=
  Cert.Proof.PreFacts.idx_lt (F := Ideal) _ _ _ (h 0) i

/-- The same of the reference program's index array. -/
theorem idx_ri (m : (ℓ : Loc Cert.ReferenceIdeal.nD Cert.ReferenceIdeal.τ Cert.ReferenceIdeal.sig) → Buf (Elt Ideal) ℓ) (h : Cert.Pre_ReferenceIdeal m)
    (c : Dev Cert.ReferenceIdeal.nD) (i : Cert.ReferenceIdeal.S2x1000000.Idx) :
    (m ((c.tc : Thread Cert.ReferenceIdeal.nD Cert.ReferenceIdeal.τ).loc Cert.ReferenceIdeal.main_arg2) i).toNat < 200000 :=
  Cert.Proof.PreFacts.idx_lt (F := Ideal) _ _ _ (h c) i

theorem frame_p : Cert.frame_Kernel := fun m ρ hpre =>
  (θ_run Cert.Kernel.defs _ _).mono (fun _ h c => (h c).2) (Cert.Proof.KB.run_value (F := Bits) m ρ (idx_kb m hpre))

theorem frame_pi : Cert.frame_KernelIdeal := fun m ρ hpre =>
  (θ_run Cert.KernelIdeal.defs _ _).mono (fun _ h c => (h c).2) (Cert.Proof.KI.run_value (F := Ideal) m ρ (idx_ki m hpre))

theorem frame_ri : Cert.frame_ReferenceIdeal := fun m ρ hpre =>
  (θ_run Cert.ReferenceIdeal.defs _ _).mono (fun _ h c => (h c).2) (Cert.Proof.RefValue.run m ρ (idx_ri m hpre))

/-- Both runs end at the specification of the (agreeing) arguments. -/
theorem algebraic : Cert.algebraic_KernelIdeal_ReferenceIdeal := by
  intro m ρ m' ρ' hpre hagree
  refine ⟨fun c => Cert.Proof.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (Cert.Proof.KI.result_eq m c), (h c).2⟩)
      (Cert.Proof.KI.run_value (F := Ideal) m ρ (idx_ki m hpre))
  · have hidx' : ∀ (c : Dev Cert.ReferenceIdeal.nD) (i : Cert.ReferenceIdeal.S2x1000000.Idx),
        (m' ((c.tc : Thread Cert.ReferenceIdeal.nD Cert.ReferenceIdeal.τ).loc Cert.ReferenceIdeal.main_arg2) i).toNat < 200000 := by
      intro c i
      rw [(hagree c).2.2]
      exact Cert.Proof.PreFacts.idx_lt (F := Ideal) _ _ _ (hpre c) i
    refine (θ_run Cert.ReferenceIdeal.defs _ _).mono (fun _ h c => ⟨?_, (h c).2⟩) (Cert.Proof.RefValue.run m' ρ' hidx')
    rw [(h c).1, (hagree c).1, (hagree c).2.1, (hagree c).2.2]

/-- The certificate's claim: the three programs' stated facts, each program's frame, and the two ideal programs' equal
    results. -/
theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof.Claims

end
-- ==== Proof.lean ====
/-
  The certificate: a kernel that scores 1,000,000 edges of a knowledge graph against its reference. An edge names a head
  row and a tail row of a 200000 × 256 node table; a row is a complex vector of 128 features (real half, imaginary
  half), and the score is the real part of the trilinear product with the one relation row: the sum over the features
  of hr·rr·tr + hi·rr·ti + hr·ri·ti − hi·ri·tr. The kernel works in sixteen launches of 65536 edges (the index rows
  padded with zeros to 1048576), each a 512 × 128 grid: a step copies the edge's two rows out of the table, forms the
  score, and adds score × (one-hot of its lane) onto the 128-lane block of its grid row, which starts from zero at the
  row's first step; so a block ends at its 128 scores, and the concatenated blocks, cut back to 1,000,000 entries, are the
  reference's array. The statement holds under the precondition that the float inputs are finite and every index word
  names a row of the table (0 ≤ index < 200000); the frames need exactly the index range, the equality needs neither
  beyond it (over the extended reals a one-hot factor 0 annihilates and 0 is neutral for the sum).
-/
import proofs.«414028_j29231547417249_2_alg».proof.Defs
import proofs.«414028_j29231547417249_2_alg».proof.Proof.Claims

noncomputable section

namespace Cert.Proof

theorem claim : Cert.Claim := Cert.Proof.Claims.claim

end Cert.Proof

end
